-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v94)) (v2 : (c : Dev Cert.KernelIdeal.nD) → Buf (Elt Ideal) ((c.tc : Thread Cert.KernelIdeal.nD Cert.KernelIdeal.τ).loc Cert.KernelIdeal.main_v68)) (v3 : (c : Dev Cert.KernelIdeal.nD) → Buf (Elt Ideal) ((c.tc : Thread Cert.KernelIdeal.nD Cert.KernelIdeal.τ).loc Cert.KernelIdeal.main_v53)) (v4 : (c : Dev Cert.KernelIdeal.nD) → Buf (Elt Ideal) ((c.tc : Thread Cert.KernelIdeal.nD Cert.KernelIdeal.τ).loc Cert.KernelIdeal.main_v112)) (v5 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_v53) = v3 c
          ∧ r.2.mem ((c.tc : Thread Cert.KernelIdeal.nD Cert.KernelIdeal.τ).loc Cert.KernelIdeal.main_v112) = v4 c
          ∧ r.2.mem ((c.tc : Thread Cert.KernelIdeal.nD Cert.KernelIdeal.τ).loc Cert.KernelIdeal.main_v85) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_v257) = v4 c
          ∧ r.2.mem ((c.tc : Thread Cert.ReferenceIdeal.nD Cert.ReferenceIdeal.τ).loc Cert.ReferenceIdeal.main_v177) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S262144x256 : Shape := ⟨2, ![262144, 256]⟩
abbrev S262144x1 : Shape := ⟨2, ![262144, 1]⟩
abbrev S257x128 : Shape := ⟨2, ![257, 128]⟩
abbrev S128 : Shape := ⟨1, ![128]⟩
abbrev S128x4 : Shape := ⟨2, ![128, 4]⟩
abbrev S4 : Shape := ⟨1, ![4]⟩
abbrev S128x8 : Shape := ⟨2, ![128, 8]⟩
abbrev S8 : Shape := ⟨1, ![8]⟩
abbrev S256x128 : Shape := ⟨2, ![256, 128]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S256x128 : S_.BroadcastsInDim S256x128 (![] : Fin 0 → Fin S256x128.rank)
  reducesTo_S256x128_S_d0_1 : S256x128.ReducesTo [0, 1] S_
  bcast_S_S262144 : S_.BroadcastsInDim S262144 (![] : Fin 0 → Fin S262144.rank)
  reducesTo_S262144_S_d0 : S262144.ReducesTo [0] S_

variable [Facts]

def fn_part4 {F : FTy → Type} [FloatOps F] (main_arg3 : IVec S262144 32) (main_v63 : IVec S_ 1) (main_v67 : IVec S_ 1) : IVec S_ 1 :=
  let main_v68 : IVec S_ 1 := andi main_v63 main_v67
  let main_c_26 : IVec S_ 32 := constantI S_ 32 0#32
  let main_v69 : IVec S262144 32 := broadcastInDim S262144 ![] bcast_S_S262144 main_c_26
  let main_v70 : IVec S262144 1 := cmpi .sge main_arg3 main_v69
  let main_c_27 : IVec S_ 1 := constantI S_ 1 1#1
  let main_v71 : IVec S_ 1 := (fun x v => Host.reduce IntOp.andi x v reducesTo_S262144_S_d0 h_S_) main_v70 main_c_27
  let main_v72 : IVec S_ 1 := andi main_v68 main_v71
  let main_c_28 : IVec S_ 32 := constantI S_ 32 1024#32
  let main_v73 : IVec S262144 32 := broadcastInDim S262144 ![] bcast_S_S262144 main_c_28
  let main_v74 : IVec S262144 1 := cmpi .slt main_arg3 main_v73
  let main_c_29 : IVec S_ 1 := constantI S_ 1 1#1
  let main_v75 : IVec S_ 1 := (fun x v => Host.reduce IntOp.andi x v reducesTo_S262144_S_d0 h_S_) main_v74 main_c_29
  let main_v76 : IVec S_ 1 := andi main_v72 main_v75
  main_v76

def fn_part3 {F : FTy → Type} [FloatOps F] (main_arg3 : IVec S262144 32) (main_arg13 : FVec F S128 .f32) (main_arg14 : FVec F S128x8 .f32) (main_arg15 : FVec F S8 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x8 .f32 := Host.absf main_arg14
  let main_cst_22 : FVec F S_ .f32 := constant S_ .f32 0x7F800000#32
  let main_v60 : FVec F S128x8 .f32 := broadcastInDim S128x8 ![] bcast_S_S128x8 main_cst_22
  let main_v61 : IVec S128x8 1 := cmpf .olt main_v59 main_v60
  let main_c_23 : IVec S_ 1 := constantI S_ 1 1#1
  let main_v62 : IVec S_ 1 := (fun x v => Host.reduce IntOp.andi x v reducesTo_S128x8_S_d0_1 h_S_) main_v61 main_c_23
  let main_v63 : IVec S_ 1 := andi main_v58 main_v62
  let main_v64 : FVec F S8 .f32 := Host.absf main_arg15
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_arg3 main_v63 main_v67

def fn_part2 {F : FTy → Type} [FloatOps F] (main_arg3 : IVec S262144 32) (main_arg9 : FVec F S4 .f32) (main_arg10 : FVec F S128x8 .f32) (main_arg11 : FVec F S8 .f32) (main_arg12 : FVec F S256x128 .f32) (main_arg13 : FVec F S128 .f32) (main_arg14 : FVec F S128x8 .f32) (main_arg15 : FVec F S8 .f32) (main_v33 : IVec S_ 1) : IVec S_ 1 :=
  let main_v34 : FVec F S4 .f32 := Host.absf main_arg9
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S128x8 .f32 := Host.absf main_arg10
  let main_cst_14 : FVec F S_ .f32 := constant S_ .f32 0x7F800000#32
  let main_v40 : FVec F S128x8 .f32 := broadcastInDim S128x8 ![] bcast_S_S128x8 main_cst_14
  let main_v41 : IVec S128x8 1 := cmpf .olt main_v39 main_v40
  let main_c_15 : IVec S_ 1 := constantI S_ 1 1#1
  let main_v42 : IVec S_ 1 := (fun x v => Host.reduce IntOp.andi x v reducesTo_S128x8_S_d0_1 h_S_) main_v41 main_c_15
  let main_v43 : IVec S_ 1 := andi main_v38 main_v42
  let main_v44 : FVec F S8 .f32 := Host.absf main_arg11
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg3 main_arg13 main_arg14 main_arg15 main_v48 main_v49 main_v50

def fn_part1 {F : FTy → Type} [FloatOps F] (main_arg3 : IVec S262144 32) (main_arg6 : FVec F S257x128 .f32) (main_arg7 : FVec F S128 .f32) (main_arg8 : FVec F S128x4 .f32) (main_arg9 : FVec F S4 .f32) (main_arg10 : FVec F S128x8 .f32) (main_arg11 : FVec F S8 .f32) (main_arg12 : FVec F S256x128 .f32) (main_arg13 : FVec F S128 .f32) (main_arg14 : FVec F S128x8 .f32) (main_arg15 : FVec F S8 .f32) (main_v13 : IVec S_ 1) (main_v16 : IVec S262144x1 1) : IVec S_ 1 :=
  let main_c_5 : IVec S_ 1 := constantI S_ 1 1#1
  let main_v17 : IVec S_ 1 := (fun x v => Host.reduce IntOp.andi x v reducesTo_S262144x1_S_d0_1 h_S_) main_v16 main_c_5
  let main_v18 : IVec S_ 1 := andi main_v13 main_v17
  let main_v19 : FVec F S257x128 .f32 := Host.absf main_arg6
  let main_cst_6 : FVec F S_ .f32 := constant S_ .f32 0x7F800000#32
  let main_v20 : FVec F S257x128 .f32 := broadcastInDim S257x128 ![] bcast_S_S257x128 main_cst_6
  let main_v21 : IVec S257x128 1 := cmpf .olt main_v19 main_v20
  let main_c_7 : IVec S_ 1 := constantI S_ 1 1#1
  let main_v22 : IVec S_ 1 := (fun x v => Host.reduce IntOp.andi x v reducesTo_S257x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x4 .f32 := Host.absf main_arg8
  let main_cst_10 : FVec F S_ .f32 := constant S_ .f32 0x7F800000#32
  let main_v30 : FVec F S128x4 .f32 := broadcastInDim S128x4 ![] bcast_S_S128x4 main_cst_10
  let main_v31 : IVec S128x4 1 := cmpf .olt main_v29 main_v30
  let main_c_11 : IVec S_ 1 := constantI S_ 1 1#1
  let main_v32 : IVec S_ 1 := (fun x v => Host.reduce IntOp.andi x v reducesTo_S128x4_S_d0_1 h_S_) main_v31 main_c_11
  let main_v33 : IVec S_ 1 := andi main_v28 main_v32
  fn_part2 (F := F) main_arg3 main_arg9 main_arg10 main_arg11 main_arg12 main_arg13 main_arg14 main_arg15 main_v33

def fn {F : FTy → Type} [FloatOps F] (main_arg0 : IVec S262144 32) (main_arg1 : FVec F S262144x256 .f32) (main_arg2 : FVec F S262144x1 .f32) (main_arg3 : IVec S262144 32) (main_arg4 : FVec F S262144x256 .f32) (main_arg5 : FVec F S262144x1 .f32) (main_arg6 : FVec F S257x128 .f32) (main_arg7 : FVec F S128 .f32) (main_arg8 : FVec F S128x4 .f32) (main_arg9 : FVec F S4 .f32) (main_arg10 : FVec F S128x8 .f32) (main_arg11 : FVec F S8 .f32) (main_arg12 : FVec F S256x128 .f32) (main_arg13 : FVec F S128 .f32) (main_arg14 : FVec F S128x8 .f32) (main_arg15 : FVec F S8 .f32) : IVec S_ 1 :=
  let main_v0 : FVec F S262144x256 .f32 := Host.absf main_arg1
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x1 .f32 := Host.absf main_arg2
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S262144x256 .f32 := Host.absf main_arg4
  let main_cst_2 : FVec F S_ .f32 := constant S_ .f32 0x7F800000#32
  let main_v10 : FVec F S262144x256 .f32 := broadcastInDim S262144x256 ![] bcast_S_S262144x256 main_cst_2
  let main_v11 : IVec S262144x256 1 := cmpf .olt main_v9 main_v10
  let main_c_3 : IVec S_ 1 := constantI S_ 1 1#1
  let main_v12 : IVec S_ 1 := (fun x v => Host.reduce IntOp.andi x v reducesTo_S262144x256_S_d0_1 h_S_) main_v11 main_c_3
  let main_v13 : IVec S_ 1 := andi main_v8 main_v12
  let main_v14 : FVec F S262144x1 .f32 := Host.absf main_arg5
  let main_cst_4 : FVec F S_ .f32 := constant S_ .f32 0x7F800000#32
  let main_v15 : FVec F S262144x1 .f32 := broadcastInDim S262144x1 ![] bcast_S_S262144x1 main_cst_4
  let main_v16 : IVec S262144x1 1 := cmpf .olt main_v14 main_v15
  fn_part1 (F := F) main_arg3 main_arg6 main_arg7 main_arg8 main_arg9 main_arg10 main_arg11 main_arg12 main_arg13 main_arg14 main_arg15 main_v13 main_v16
-- ==== Kernel.lean ====
abbrev S262144 : Shape := ⟨1, ![262144]⟩
abbrev S262144x256 : Shape := ⟨2, ![262144, 256]⟩
abbrev S262144x1 : Shape := ⟨2, ![262144, 1]⟩
abbrev S257x128 : Shape := ⟨2, ![257, 128]⟩
abbrev S128 : Shape := ⟨1, ![128]⟩
abbrev S128x4 : Shape := ⟨2, ![128, 4]⟩
abbrev S4 : Shape := ⟨1, ![4]⟩
abbrev S128x8 : Shape := ⟨2, ![128, 8]⟩
abbrev S8 : Shape := ⟨1, ![8]⟩
abbrev S256x128 : Shape := ⟨2, ![256, 128]⟩
abbrev S262144x257 : Shape := ⟨2, ![262144, 257]⟩
abbrev S1x262144 : Shape := ⟨2, ![1, 262144]⟩
abbrev S1024x257 : Shape := ⟨2, ![1024, 257]⟩
abbrev S1x1024 : Shape := ⟨2, ![1, 1024]⟩
abbrev S1024x1 : Shape := ⟨2, ![1024, 1]⟩
abbrev S1024x1024 : Shape := ⟨2, ![1024, 1024]⟩
abbrev S512x257 : Shape := ⟨2, ![512, 257]⟩
abbrev S1x512 : Shape := ⟨2, ![1, 512]⟩
abbrev S512x1 : Shape := ⟨2, ![512, 1]⟩
abbrev S512x1024 : Shape := ⟨2, ![512, 1024]⟩
abbrev S1024x512 : Shape := ⟨2, ![1024, 512]⟩
abbrev S1024x128 : Shape := ⟨2, ![1024, 128]⟩
abbrev S1x128 : Shape := ⟨2, ![1, 128]⟩
abbrev S1024x4 : Shape := ⟨2, ![1024, 4]⟩
abbrev S1x4 : Shape := ⟨2, ![1, 4]⟩
abbrev S_ : Shape := ⟨0, ![]⟩
abbrev S1024 : Shape := ⟨1, ![1024]⟩
abbrev S1024x8 : Shape := ⟨2, ![1024, 8]⟩
abbrev S1x8 : Shape := ⟨2, ![1, 8]⟩
abbrev S1024x269 : Shape := ⟨2, ![1024, 269]⟩
abbrev S262144x2 : Shape := ⟨2, ![262144, 2]⟩
abbrev S1024x256 : Shape := ⟨2, ![1024, 256]⟩
abbrev S1024x2 : Shape := ⟨2, ![1024, 2]⟩

abbrev nBuf : Space → Nat
  | .hbm => 227
  | .vmem => 45
  | .smem => 0
  | _ => 0

abbrev hbmTy0_0 (i : Nat) : BufTy := match i % 128 with
  | 0 => ⟨S262144, .i32⟩
  | 1 => ⟨S262144x256, .f32⟩
  | 2 => ⟨S262144x1, .f32⟩
  | 3 => ⟨S262144, .i32⟩
  | 4 => ⟨S262144x256, .f32⟩
  | 5 => ⟨S262144x1, .f32⟩
  | 6 => ⟨S257x128, .f32⟩
  | 7 => ⟨S128, .f32⟩
  | 8 => ⟨S128x4, .f32⟩
  | 9 => ⟨S4, .f32⟩
  | 10 => ⟨S128x8, .f32⟩
  | 11 => ⟨S8, .f32⟩
  | 12 => ⟨S256x128, .f32⟩
  | 13 => ⟨S128, .f32⟩
  | 14 => ⟨S128x8, .f32⟩
  | 15 => ⟨S8, .f32⟩
  | 16 => ⟨S262144x257, .f32⟩
  | 17 => ⟨S262144x257, .f32⟩
  | 18 => ⟨S1x262144, .i32⟩
  | 19 => ⟨S1024x257, .f32⟩
  | 20 => ⟨S1x262144, .i32⟩
  | 21 => ⟨S1024x257, .f32⟩
  | 22 => ⟨S1x262144, .i32⟩
  | 23 => ⟨S262144x1, .i32⟩
  | 24 => ⟨S1024x257, .f32⟩
  | 25 => ⟨S1x262144, .i32⟩
  | 26 => ⟨S262144x1, .i32⟩
  | 27 => ⟨S1024x257, .f32⟩
  | 28 => ⟨S1024x128, .f32⟩
  | 29 => ⟨S1x128, .f32⟩
  | 30 => ⟨S1024x128, .f32⟩
  | 31 => ⟨S1024x128, .f32⟩
  | 32 => ⟨S1024x128, .f32⟩
  | 33 => ⟨S1024x4, .f32⟩
  | 34 => ⟨S1x4, .f32⟩
  | 35 => ⟨S1024x4, .f32⟩
  | 36 => ⟨S1024x4, .f32⟩
  | 37 => ⟨S_, .f32⟩
  | 38 => ⟨S1024, .f32⟩
  | 39 => ⟨S_, .f32⟩
  | 40 => ⟨S1024, .f32⟩
  | 41 => ⟨S1024, .f32⟩
  | 42 => ⟨S1024x1, .f32⟩
  | 43 => ⟨S1024x4, .f32⟩
  | 44 => ⟨S1024x4, .f32⟩
  | 45 => ⟨S1024x4, .f32⟩
  | 46 => ⟨S_, .f32⟩
  | 47 => ⟨S1024, .f32⟩
  | 48 => ⟨S1024x1, .f32⟩
  | 49 => ⟨S1024x4, .f32⟩
  | 50 => ⟨S1024x4, .f32⟩
  | 51 => ⟨S_, .f32⟩
  | 52 => ⟨S1024, .f32⟩
  | 53 => ⟨S_, .f32⟩
  | 54 => ⟨S1024, .f32⟩
  | 55 => ⟨S1024, .f32⟩
  | 56 => ⟨S1024x1, .f32⟩
  | 57 => ⟨S1024x4, .f32⟩
  | 58 => ⟨S1024x4, .f32⟩
  | 59 => ⟨S1024x4, .f32⟩
  | 60 => ⟨S_, .f32⟩
  | 61 => ⟨S1024, .f32⟩
  | 62 => ⟨S1024x1, .f32⟩
  | 63 => ⟨S1024x1, .f32⟩
  | 64 => ⟨S1024x4, .f32⟩
  | 65 => ⟨S1024x4, .f32⟩
  | 66 => ⟨S1024x8, .f32⟩
  | 67 => ⟨S1x8, .f32⟩
  | 68 => ⟨S1024x8, .f32⟩
  | 69 => ⟨S1024x8, .f32⟩
  | 70 => ⟨S1024x4, .f32⟩
  | 71 => ⟨S1024x4, .f32⟩
  | 72 => ⟨S_, .f32⟩
  | 73 => ⟨S1024x4, .f32⟩
  | 74 => ⟨S1024x4, .f32⟩
  | 75 => ⟨S1024x4, .f32⟩
  | 76 => ⟨S1024x4, .f32⟩
  | 77 => ⟨S1024x4, .i1⟩
  | 78 => ⟨S1024x4, .f32⟩
  | 79 => ⟨S1024x4, .f32⟩
  | 80 => ⟨S1024x4, .f32⟩
  | 81 => ⟨S1024x4, .f32⟩
  | 82 => ⟨S1024x4, .f32⟩
  | 83 => ⟨S1024x4, .f32⟩
  | 84 => ⟨S1024x4, .f32⟩
  | 85 => ⟨S1024x4, .f32⟩
  | 86 => ⟨S_, .f32⟩
  | 87 => ⟨S1024x4, .f32⟩
  | 88 => ⟨S1024x4, .f32⟩
  | 89 => ⟨S_, .f32⟩
  | 90 => ⟨S1024x4, .f32⟩
  | 91 => ⟨S1024x4, .f32⟩
  | 92 => ⟨S_, .f32⟩
  | 93 => ⟨S1024x4, .f32⟩
  | 94 => ⟨S1024x4, .f32⟩
  | 95 => ⟨S1024x4, .f32⟩
  | 96 => ⟨S1024x4, .f32⟩
  | 97 => ⟨S1024x4, .i1⟩
  | 98 => ⟨S1024x4, .f32⟩
  | 99 => ⟨S1024x4, .f32⟩
  | 100 => ⟨S1024x4, .f32⟩
  | 101 => ⟨S1024x4, .f32⟩
  | 102 => ⟨S1024x4, .f32⟩
  | 103 => ⟨S1024x4, .f32⟩
  | 104 => ⟨S1024x4, .f32⟩
  | 105 => ⟨S1024x4, .f32⟩
  | 106 => ⟨S_, .f32⟩
  | 107 => ⟨S1024x4, .f32⟩
  | 108 => ⟨S1024x4, .f32⟩
  | 109 => ⟨S_, .f32⟩
  | 110 => ⟨S1024x4, .f32⟩
  | 111 => ⟨S1024x4, .f32⟩
  | 112 => ⟨S1024x128, .f32⟩
  | 113 => ⟨S1x128, .f32⟩
  | 114 => ⟨S1024x128, .f32⟩
  | 115 => ⟨S1024x128, .f32⟩
  | 116 => ⟨S1024x128, .f32⟩
  | 117 => ⟨S1024x4, .f32⟩
  | 118 => ⟨S1x4, .f32⟩
  | 119 => ⟨S1024x4, .f32⟩
  | 120 => ⟨S1024x4, .f32⟩
  | 121 => ⟨S_, .f32⟩
  | 122 => ⟨S1024, .f32⟩
  | 123 => ⟨S_, .f32⟩
  | 124 => ⟨S1024, .f32⟩
  | 125 => ⟨S1024, .f32⟩
  | 126 => ⟨S1024x1, .f32⟩
  | 127 => ⟨S1024x4, .f32⟩
  | _ => ⟨S262144, .i32⟩

abbrev hbmTy0_1 (i : Nat) : BufTy := match i % 128 with
  | 0 => ⟨S1024x4, .f32⟩
  | 1 => ⟨S1024x4, .f32⟩
  | 2 => ⟨S_, .f32⟩
  | 3 => ⟨S1024, .f32⟩
  | 4 => ⟨S1024x1, .f32⟩
  | 5 => ⟨S1024x4, .f32⟩
  | 6 => ⟨S1024x4, .f32⟩
  | 7 => ⟨S_, .f32⟩
  | 8 => ⟨S1024, .f32⟩
  | 9 => ⟨S_, .f32⟩
  | 10 => ⟨S1024, .f32⟩
  | 11 => ⟨S1024, .f32⟩
  | 12 => ⟨S1024x1, .f32⟩
  | 13 => ⟨S1024x4, .f32⟩
  | 14 => ⟨S1024x4, .f32⟩
  | 15 => ⟨S1024x4, .f32⟩
  | 16 => ⟨S_, .f32⟩
  | 17 => ⟨S1024, .f32⟩
  | 18 => ⟨S1024x1, .f32⟩
  | 19 => ⟨S1024x1, .f32⟩
  | 20 => ⟨S1024x4, .f32⟩
  | 21 => ⟨S1024x4, .f32⟩
  | 22 => ⟨S1024x8, .f32⟩
  | 23 => ⟨S1x8, .f32⟩
  | 24 => ⟨S1024x8, .f32⟩
  | 25 => ⟨S1024x8, .f32⟩
  | 26 => ⟨S1024x4, .f32⟩
  | 27 => ⟨S1024x4, .f32⟩
  | 28 => ⟨S_, .f32⟩
  | 29 => ⟨S1024x4, .f32⟩
  | 30 => ⟨S1024x4, .f32⟩
  | 31 => ⟨S1024x4, .f32⟩
  | 32 => ⟨S1024x4, .f32⟩
  | 33 => ⟨S1024x4, .i1⟩
  | 34 => ⟨S1024x4, .f32⟩
  | 35 => ⟨S1024x4, .f32⟩
  | 36 => ⟨S1024x4, .f32⟩
  | 37 => ⟨S1024x4, .f32⟩
  | 38 => ⟨S1024x4, .f32⟩
  | 39 => ⟨S1024x4, .f32⟩
  | 40 => ⟨S1024x4, .f32⟩
  | 41 => ⟨S1024x4, .f32⟩
  | 42 => ⟨S_, .f32⟩
  | 43 => ⟨S1024x4, .f32⟩
  | 44 => ⟨S1024x4, .f32⟩
  | 45 => ⟨S_, .f32⟩
  | 46 => ⟨S1024x4, .f32⟩
  | 47 => ⟨S1024x4, .f32⟩
  | 48 => ⟨S_, .f32⟩
  | 49 => ⟨S1024x4, .f32⟩
  | 50 => ⟨S1024x4, .f32⟩
  | 51 => ⟨S1024x4, .f32⟩
  | 52 => ⟨S1024x4, .f32⟩
  | 53 => ⟨S1024x4, .i1⟩
  | 54 => ⟨S1024x4, .f32⟩
  | 55 => ⟨S1024x4, .f32⟩
  | 56 => ⟨S1024x4, .f32⟩
  | 57 => ⟨S1024x4, .f32⟩
  | 58 => ⟨S1024x4, .f32⟩
  | 59 => ⟨S1024x4, .f32⟩
  | 60 => ⟨S1024x4, .f32⟩
  | 61 => ⟨S1024x4, .f32⟩
  | 62 => ⟨S_, .f32⟩
  | 63 => ⟨S1024x4, .f32⟩
  | 64 => ⟨S1024x4, .f32⟩
  | 65 => ⟨S_, .f32⟩
  | 66 => ⟨S1024x4, .f32⟩
  | 67 => ⟨S1024x4, .f32⟩
  | 68 => ⟨S1024x4, .f32⟩
  | 69 => ⟨S1024x269, .f32⟩
  | 70 => ⟨S262144x1, .i32⟩
  | 71 => ⟨S1x128, .f32⟩
  | 72 => ⟨S1x8, .f32⟩
  | 73 => ⟨S262144x2, .f32⟩
  | 74 => ⟨S262144x1, .f32⟩
  | 75 => ⟨S262144x1, .f32⟩
  | 76 => ⟨S262144, .f32⟩
  | 77 => ⟨S1024x4, .f32⟩
  | 78 => ⟨S1024x4, .f32⟩
  | 79 => ⟨S_, .f32⟩
  | 80 => ⟨S1024, .f32⟩
  | 81 => ⟨S1024x4, .f32⟩
  | 82 => ⟨S1024x4, .f32⟩
  | 83 => ⟨S1024x4, .f32⟩
  | 84 => ⟨S1024x4, .f32⟩
  | 85 => ⟨S1024x4, .f32⟩
  | 86 => ⟨S1024x4, .f32⟩
  | 87 => ⟨S1024x4, .f32⟩
  | 88 => ⟨S_, .f32⟩
  | 89 => ⟨S1024x4, .f32⟩
  | 90 => ⟨S1024x4, .f32⟩
  | 91 => ⟨S1024x4, .f32⟩
  | 92 => ⟨S1024x4, .f32⟩
  | 93 => ⟨S_, .f32⟩
  | 94 => ⟨S1024x4, .f32⟩
  | 95 => ⟨S1024x4, .f32⟩
  | 96 => ⟨S_, .f32⟩
  | 97 => ⟨S1024, .f32⟩
  | 98 => ⟨S1024, .f32⟩
  | _ => ⟨S262144, .i32⟩

abbrev hbmTy (i : Nat) : BufTy := match i / 128 with
  | 0 => hbmTy0_0 i
  | 1 => hbmTy0_1 i
  | _ => ⟨S262144, .i32⟩

abbrev bufTy : (tb : Table) → Fin (tcTables nBuf tb) → BufTy
  | .hbm, ⟨i, _⟩ => hbmTy i
  | .local _ .vmem, ⟨0, _⟩ => ⟨S1024x257, .f32⟩
  | .local _ .vmem, ⟨1, _⟩ => ⟨S1024x257, .f32⟩
  | .local _ .vmem, ⟨2, _⟩ => ⟨S1x1024, .i32⟩
  | .local _ .vmem, ⟨3, _⟩ => ⟨S1x1024, .i32⟩
  | .local _ .vmem, ⟨4, _⟩ => ⟨S1024x257, .f32⟩
  | .local _ .vmem, ⟨5, _⟩ => ⟨S1024x257, .f32⟩
  | .local _ .vmem, ⟨6, _⟩ => ⟨S1024x1, .f32⟩
  | .local _ .vmem, ⟨7, _⟩ => ⟨S1024x257, .f32⟩
  | .local _ .vmem, ⟨8, _⟩ => ⟨S1024x257, .f32⟩
  | .local _ .vmem, ⟨9, _⟩ => ⟨S1x1024, .i32⟩
  | .local _ .vmem, ⟨10, _⟩ => ⟨S1x1024, .i32⟩
  | .local _ .vmem, ⟨11, _⟩ => ⟨S1024x257, .f32⟩
  | .local _ .vmem, ⟨12, _⟩ => ⟨S1024x257, .f32⟩
  | .local _ .vmem, ⟨13, _⟩ => ⟨S1024x1, .f32⟩
  | .local _ .vmem, ⟨14, _⟩ => ⟨S512x257, .f32⟩
  | .local _ .vmem, ⟨15, _⟩ => ⟨S512x257, .f32⟩
  | .local _ .vmem, ⟨16, _⟩ => ⟨S1x512, .i32⟩
  | .local _ .vmem, ⟨17, _⟩ => ⟨S1x512, .i32⟩
  | .local _ .vmem, ⟨18, _⟩ => ⟨S512x1, .i32⟩
  | .local _ .vmem, ⟨19, _⟩ => ⟨S512x1, .i32⟩
  | .local _ .vmem, ⟨20, _⟩ => ⟨S1024x257, .f32⟩
  | .local _ .vmem, ⟨21, _⟩ => ⟨S1024x257, .f32⟩
  | .local _ .vmem, ⟨22, _⟩ => ⟨S1024x257, .f32⟩
  | .local _ .vmem, ⟨23, _⟩ => ⟨S1024x1, .f32⟩
  | .local _ .vmem, ⟨24, _⟩ => ⟨S512x257, .f32⟩
  | .local _ .vmem, ⟨25, _⟩ => ⟨S512x257, .f32⟩
  | .local _ .vmem, ⟨26, _⟩ => ⟨S1x512, .i32⟩
  | .local _ .vmem, ⟨27, _⟩ => ⟨S1x512, .i32⟩
  | .local _ .vmem, ⟨28, _⟩ => ⟨S512x1, .i32⟩
  | .local _ .vmem, ⟨29, _⟩ => ⟨S512x1, .i32⟩
  | .local _ .vmem, ⟨30, _⟩ => ⟨S1024x257, .f32⟩
  | .local _ .vmem, ⟨31, _⟩ => ⟨S1024x257, .f32⟩
  | .local _ .vmem, ⟨32, _⟩ => ⟨S1024x257, .f32⟩
  | .local _ .vmem, ⟨33, _⟩ => ⟨S1024x1, .f32⟩
  | .local _ .vmem, ⟨34, _⟩ => ⟨S1024x256, .f32⟩
  | .local _ .vmem, ⟨35, _⟩ => ⟨S1024x256, .f32⟩
  | .local _ .vmem, ⟨36, _⟩ => ⟨S1024x1, .i32⟩
  | .local _ .vmem, ⟨37, _⟩ => ⟨S1024x1, .i32⟩
  | .local _ .vmem, ⟨38, _⟩ => ⟨S1024x269, .f32⟩
  | .local _ .vmem, ⟨39, _⟩ => ⟨S256x128, .f32⟩
  | .local _ .vmem, ⟨40, _⟩ => ⟨S1x128, .f32⟩
  | .local _ .vmem, ⟨41, _⟩ => ⟨S128x8, .f32⟩
  | .local _ .vmem, ⟨42, _⟩ => ⟨S1x8, .f32⟩
  | .local _ .vmem, ⟨43, _⟩ => ⟨S1024x2, .f32⟩
  | .local _ .vmem, ⟨44, _⟩ => ⟨S1024x2, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_cst : Ref sig .tc := ⟨.hbm, 51, rfl⟩
abbrev main_call0_v0 : Ref sig .tc := ⟨.hbm, 52, rfl⟩
abbrev main_call0_cst_0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_cst_1 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_v39 : Ref sig .tc := ⟨.hbm, 85, rfl⟩
abbrev main_cst_2 : Ref sig .tc := ⟨.hbm, 86, rfl⟩
abbrev main_v40 : Ref sig .tc := ⟨.hbm, 87, rfl⟩
abbrev main_v41 : Ref sig .tc := ⟨.hbm, 88, rfl⟩
abbrev main_cst_3 : Ref sig .tc := ⟨.hbm, 89, rfl⟩
abbrev main_v42 : Ref sig .tc := ⟨.hbm, 90, rfl⟩
abbrev main_v43 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_v44 : Ref sig .tc := ⟨.hbm, 105, rfl⟩
abbrev main_cst_4 : Ref sig .tc := ⟨.hbm, 106, rfl⟩
abbrev main_v45 : Ref sig .tc := ⟨.hbm, 107, rfl⟩
abbrev main_v46 : Ref sig .tc := ⟨.hbm, 108, rfl⟩
abbrev main_cst_5 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_cst_6 : Ref sig .tc := ⟨.hbm, 121, rfl⟩
abbrev main_v58 : Ref sig .tc := ⟨.hbm, 122, rfl⟩
abbrev main_cst_7 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_cst_8 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_call3_cst : Ref sig .tc := ⟨.hbm, 135, rfl⟩
abbrev main_call3_v0 : Ref sig .tc := ⟨.hbm, 136, rfl⟩
abbrev main_call3_cst_0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_cst_1 : Ref sig .tc := ⟨.hbm, 144, rfl⟩
abbrev main_call3_v7 : Ref sig .tc := ⟨.hbm, 145, rfl⟩
abbrev main_call3_v8 : Ref sig .tc := ⟨.hbm, 146, rfl⟩
abbrev main_call3_v9 : Ref sig .tc := ⟨.hbm, 147, rfl⟩
abbrev main_call3_v10 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_call4_cst : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_call4_v7 : Ref sig .tc := ⟨.hbm, 164, rfl⟩
abbrev main_call4_v8 : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_v76 : Ref sig .tc := ⟨.hbm, 169, rfl⟩
abbrev main_cst_9 : Ref sig .tc := ⟨.hbm, 170, rfl⟩
abbrev main_v77 : Ref sig .tc := ⟨.hbm, 171, rfl⟩
abbrev main_v78 : Ref sig .tc := ⟨.hbm, 172, rfl⟩
abbrev main_cst_10 : Ref sig .tc := ⟨.hbm, 173, rfl⟩
abbrev main_v79 : Ref sig .tc := ⟨.hbm, 174, rfl⟩
abbrev main_v80 : Ref sig .tc := ⟨.hbm, 175, rfl⟩
abbrev main_call5_cst : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_call5_v3 : Ref sig .tc := ⟨.hbm, 180, rfl⟩
abbrev main_call5_v4 : Ref sig .tc := ⟨.hbm, 181, rfl⟩
abbrev main_call5_v5 : Ref sig .tc := ⟨.hbm, 182, rfl⟩
abbrev main_call5_v6 : Ref sig .tc := ⟨.hbm, 183, rfl⟩
abbrev main_call5_v7 : Ref sig .tc := ⟨.hbm, 184, rfl⟩
abbrev main_call5_v8 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_v81 : Ref sig .tc := ⟨.hbm, 189, rfl⟩
abbrev main_cst_11 : Ref sig .tc := ⟨.hbm, 190, rfl⟩
abbrev main_v82 : Ref sig .tc := ⟨.hbm, 191, rfl⟩
abbrev main_v83 : Ref sig .tc := ⟨.hbm, 192, rfl⟩
abbrev main_cst_12 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_cst_13 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_cst_14 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩
abbrev main_cst_15 : Ref sig .tc := ⟨.hbm, 221, rfl⟩
abbrev main_v109 : Ref sig .tc := ⟨.hbm, 222, rfl⟩
abbrev main_v110 : Ref sig .tc := ⟨.hbm, 223, rfl⟩
abbrev main_cst_16 : Ref sig .tc := ⟨.hbm, 224, rfl⟩
abbrev main_v111 : Ref sig .tc := ⟨.hbm, 225, rfl⟩
abbrev main_v112 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_scratch0 : Ref sig .tc := ⟨.vmem, 32, rfl⟩
abbrev cc3_scratch1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg7_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem7_0 : DmaSem sig := 35
abbrev cc4_sem7_1 : DmaSem sig := 36

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x257 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x257 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![512], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x257 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x257 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x257 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![512], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x257 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x257 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x257 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![256], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1024x269 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x8 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1024x2 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  concatenates_S262144x256_S262144x1_S262144x257_d1 : Shape.Concatenates [S262144x256, S262144x1] S262144x257 1
  shapeCasts_S262144_S1x262144 : S262144.ShapeCasts S1x262144
  inb_S1024x257_S1024x257_0_0 : ∀ a, (![0, 0] : Fin 2 → Nat) a + S1024x257.size a ≤ S1024x257.size a
  h_S1024x257 : 0 < S1024x257.numel
  shapeCasts_S1024x257_S1024x257 : S1024x257.ShapeCasts S1024x257
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1024_d0_w32 : S1024x1024.Iotas .tc 32 [0]
  broadcasts_S1x1024_S1024x1024 : S1x1024.Broadcasts S1024x1024
  natLt_1_32 : 1 < 32
  bitsLt_bf16_f32 : FTy.bits .bf16 < FTy.bits .f32
  broadcasts_S1024x1_S1024x257 : S1024x1.Broadcasts S1024x257
  shapeCasts_S262144_S262144x1 : S262144.ShapeCasts S262144x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1024_d1_w32 : S512x1024.Iotas .tc 32 [1]
  broadcasts_S512x1_S512x1024 : S512x1.Broadcasts S512x1024
  inb_S512x257_S512x257_0_0 : ∀ a, (![0, 0] : Fin 2 → Nat) a + S512x257.size a ≤ S512x257.size a
  h_S512x257 : 0 < S512x257.numel
  shapeCasts_S512x257_S512x257 : S512x257.ShapeCasts S512x257
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S1024x512_d0_w32 : S1024x512.Iotas .tc 32 [0]
  broadcasts_S1x512_S1024x512 : S1x512.Broadcasts S1024x512
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  reducesTo_S1024x4_S1024_d1 : S1024x4.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x4_0_1 : S1024x1.BroadcastsInDim S1024x4 (![0, 1] : Fin 2 → Fin S1024x4.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  slices_S1024x8_S1024x4_0_0 : S1024x8.Slices ![0, 0] S1024x4
  slices_S1024x8_S1024x4_0_4 : S1024x8.Slices ![0, 4] S1024x4
  bcast_S_S1024x4 : S_.BroadcastsInDim S1024x4 (![] : Fin 0 → Fin S1024x4.rank)
  concatenates_S1024x257_S1024x4_S1024x4_S1024x4_S1024x269_d1 : Shape.Concatenates [S1024x257, S1024x4, S1024x4, S1024x4] S1024x269 1
  shapeCasts_S128_S1x128 : S128.ShapeCasts S1x128
  shapeCasts_S8_S1x8 : S8.ShapeCasts S1x8
  iota_S1024x1024_d1_w32 : S1024x1024.Iotas .tc 32 [1]
  broadcasts_S1024x1_S1024x1024 : S1024x1.Broadcasts S1024x1024
  inb_S1024x269_S1024x269_0_0 : ∀ a, (![0, 0] : Fin 2 → Nat) a + S1024x269.size a ≤ S1024x269.size a
  h_S1024x269 : 0 < S1024x269.numel
  shapeCasts_S1024x269_S1024x269 : S1024x269.ShapeCasts S1024x269
  slices_S1024x269_o0_0_S1024x256 : S1024x269.Slices ![0, 0] S1024x256
  slices_S1024x269_o0_256_S1024x1 : S1024x269.Slices ![0, 256] S1024x1
  slices_S1024x269_o0_257_S1024x4 : S1024x269.Slices ![0, 257] S1024x4
  slices_S1024x269_o0_261_S1024x4 : S1024x269.Slices ![0, 261] S1024x4
  slices_S1024x269_o0_265_S1024x4 : S1024x269.Slices ![0, 265] S1024x4
  inb_S1024x256_S1024x256_0_0 : ∀ a, (![0, 0] : Fin 2 → Nat) a + S1024x256.size a ≤ S1024x256.size a
  h_S1024x256 : 0 < S1024x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  slices_S1024x8_o0_0_S1024x4 : S1024x8.Slices ![0, 0] S1024x4
  slices_S1024x8_o0_4_S1024x4 : S1024x8.Slices ![0, 4] S1024x4
  reduces_S1024x4_S1024 : S1024x4.Reduces [1] S1024
  shapeCasts_S1024_S1024x1 : S1024.ShapeCasts S1024x1
  concatenates_S1024x1_S1024x1_S1024x2_d1 : Shape.Concatenates [S1024x1, S1024x1] S1024x2 1
  inb_S1024x2_S1024x2_0_0 : ∀ a, (![0, 0] : Fin 2 → Nat) a + S1024x2.size a ≤ S1024x2.size a
  h_S1024x2 : 0 < S1024x2.numel
  slices_S262144x2_S262144x1_0_0 : S262144x2.Slices ![0, 0] S262144x1
  slices_S262144x2_S262144x1_0_1 : S262144x2.Slices ![0, 1] S262144x1
  shapeCasts_S262144x1_S262144 : S262144x1.ShapeCasts S262144
  dot_S1024x1024_S1024x257_S1024x257_1_0_0_1_n_n_wf : DotDims.WF S1024x1024 S1024x257 S1024x257 [1] [0] [0] [1] [] []
  dot_S1024x1024_S1024x1_S1024x1_1_0_0_1_n_n_wf : DotDims.WF S1024x1024 S1024x1 S1024x1 [1] [0] [0] [1] [] []
  dot_S512x1024_S1024x257_S512x257_1_0_0_1_n_n_wf : DotDims.WF S512x1024 S1024x257 S512x257 [1] [0] [0] [1] [] []
  dot_S1024x512_S512x257_S1024x257_1_0_0_1_n_n_wf : DotDims.WF S1024x512 S512x257 S1024x257 [1] [0] [0] [1] [] []
  dot_S1024x512_S512x1_S1024x1_1_0_0_1_n_n_wf : DotDims.WF S1024x512 S512x1 S1024x1 [1] [0] [0] [1] [] []
  dot_S1024x257_S257x128_S1024x128_1_0_0_1_n_n_wf : DotDims.WF S1024x257 S257x128 S1024x128 [1] [0] [0] [1] [] []
  dot_S1024x128_S128x4_S1024x4_1_0_0_1_n_n_wf : DotDims.WF S1024x128 S128x4 S1024x4 [1] [0] [0] [1] [] []
  dot_S1024x128_S128x8_S1024x8_1_0_0_1_n_n_wf : DotDims.WF S1024x128 S128x8 S1024x8 [1] [0] [0] [1] [] []
  dot_S1024x1024_S1024x269_S1024x269_1_0_0_1_n_n_wf : DotDims.WF S1024x1024 S1024x269 S1024x269 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x257.size a ≤ S262144x257.size a
  hwx0_0 : ∀ i : grid0.Coords, EltTy.bits .f32 = 32 ∨ (Rect.block (s := S262144x257) S1024x257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x262144.size a
  hwx0_1 : ∀ i : grid0.Coords, EltTy.bits .i32 = 32 ∨ (Rect.block (s := S1x262144) S1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x257.size a ≤ S1024x257.size a
  hwx0_2 : ∀ i : grid0.Coords, EltTy.bits .f32 = 32 ∨ (Rect.block (s := S1024x257) S1024x257.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x257.size a ≤ S262144x257.size a
  hwx1_0 : ∀ i : grid1.Coords, EltTy.bits .f32 = 32 ∨ (Rect.block (s := S262144x257) S1024x257.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x262144.size a
  hwx1_1 : ∀ i : grid1.Coords, EltTy.bits .i32 = 32 ∨ (Rect.block (s := S1x262144) S1x1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x257.size a ≤ S1024x257.size a
  hwx1_2 : ∀ i : grid1.Coords, EltTy.bits .f32 = 32 ∨ (Rect.block (s := S1024x257) S1024x257.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x257.size a ≤ S262144x257.size a
  hwx2_0 : ∀ i : grid2.Coords, EltTy.bits .f32 = 32 ∨ (Rect.block (s := S262144x257) S512x257.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x262144.size a
  hwx2_1 : ∀ i : grid2.Coords, EltTy.bits .i32 = 32 ∨ (Rect.block (s := S1x262144) S1x512.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S262144x1.size a
  hwx2_2 : ∀ i : grid2.Coords, EltTy.bits .i32 = 32 ∨ (Rect.block (s := S262144x1) S512x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x257.size a ≤ S1024x257.size a
  hwx2_3 : ∀ i : grid2.Coords, EltTy.bits .f32 = 32 ∨ (Rect.block (s := S1024x257) S1024x257.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x257.size a ≤ S1024x257.size a
  hwx2_4 : ∀ i : grid2.Coords, EltTy.bits .f32 = 32 ∨ (Rect.block (s := S1024x257) S1024x257.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x257.size a ≤ S262144x257.size a
  hwx3_0 : ∀ i : grid3.Coords, EltTy.bits .f32 = 32 ∨ (Rect.block (s := S262144x257) S512x257.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x262144.size a
  hwx3_1 : ∀ i : grid3.Coords, EltTy.bits .i32 = 32 ∨ (Rect.block (s := S1x262144) S1x512.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1.size a ≤ S262144x1.size a
  hwx3_2 : ∀ i : grid3.Coords, EltTy.bits .i32 = 32 ∨ (Rect.block (s := S262144x1) S512x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x257.size a ≤ S1024x257.size a
  hwx3_3 : ∀ i : grid3.Coords, EltTy.bits .f32 = 32 ∨ (Rect.block (s := S1024x257) S1024x257.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x257.size a ≤ S1024x257.size a
  hwx3_4 : ∀ i : grid3.Coords, EltTy.bits .f32 = 32 ∨ (Rect.block (s := S1024x257) S1024x257.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S262144x256.size a
  hwx4_0 : ∀ i : grid4.Coords, EltTy.bits .f32 = 32 ∨ (Rect.block (s := S262144x256) S1024x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1.size a ≤ S262144x1.size a
  hwx4_1 : ∀ i : grid4.Coords, EltTy.bits .i32 = 32 ∨ (Rect.block (s := S262144x1) S1024x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024x269.size a ≤ S1024x269.size a
  hwx4_2 : ∀ i : grid4.Coords, EltTy.bits .f32 = 32 ∨ (Rect.block (s := S1024x269) S1024x269.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x8.size a ≤ S128x8.size a
  hwx4_5 : ∀ i : grid4.Coords, EltTy.bits .f32 = 32 ∨ (Rect.block (s := S128x8) S128x8.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x8.size a ≤ S1x8.size a
  hwx4_6 : ∀ i : grid4.Coords, EltTy.bits .f32 = 32 ∨ (Rect.block (s := S1x8) S1x8.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x2.size a ≤ S262144x2.size a
  hwx4_7 : ∀ i : grid4.Coords, EltTy.bits .f32 = 32 ∨ (Rect.block (s := S262144x2) S1024x2.size (cc4_transform_7 i) (hinb4_7 i)).WholeWords (EltTy.packing .f32)

variable [Facts₀]

def dot_S1024x1024_S1024x257_S1024x257_1_0_0_1_n_n : DotDims S1024x1024 S1024x257 S1024x257 where
  lhsContracting := [1]
  rhsContracting := [0]
  lhsNonContracting := [0]
  rhsNonContracting := [1]
  lhsBatch := []
  rhsBatch := []
  wf := dot_S1024x1024_S1024x257_S1024x257_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf
def dot_S512x1024_S1024x257_S512x257_1_0_0_1_n_n : DotDims S512x1024 S1024x257 S512x257 where
  lhsContracting := [1]
  rhsContracting := [0]
  lhsNonContracting := [0]
  rhsNonContracting := [1]
  lhsBatch := []
  rhsBatch := []
  wf := dot_S512x1024_S1024x257_S512x257_1_0_0_1_n_n_wf
def dot_S1024x512_S512x257_S1024x257_1_0_0_1_n_n : DotDims S1024x512 S512x257 S1024x257 where
  lhsContracting := [1]
  rhsContracting := [0]
  lhsNonContracting := [0]
  rhsNonContracting := [1]
  lhsBatch := []
  rhsBatch := []
  wf := dot_S1024x512_S512x257_S1024x257_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf
def dot_S1024x257_S257x128_S1024x128_1_0_0_1_n_n : DotDims S1024x257 S257x128 S1024x128 where
  lhsContracting := [1]
  rhsContracting := [0]
  lhsNonContracting := [0]
  rhsNonContracting := [1]
  lhsBatch := []
  rhsBatch := []
  wf := dot_S1024x257_S257x128_S1024x128_1_0_0_1_n_n_wf
def dot_S1024x128_S128x4_S1024x4_1_0_0_1_n_n : DotDims S1024x128 S128x4 S1024x4 where
  lhsContracting := [1]
  rhsContracting := [0]
  lhsNonContracting := [0]
  rhsNonContracting := [1]
  lhsBatch := []
  rhsBatch := []
  wf := dot_S1024x128_S128x4_S1024x4_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S1024x1024_S1024x269_S1024x269_1_0_0_1_n_n : DotDims S1024x1024 S1024x269 S1024x269 where
  lhsContracting := [1]
  rhsContracting := [0]
  lhsNonContracting := [0]
  rhsNonContracting := [1]
  lhsBatch := []
  rhsBatch := []
  wf := dot_S1024x1024_S1024x269_S1024x269_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v0) S1024x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x257.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x257.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x257.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S512x257.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x257.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1024x257.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v1) S512x257.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S512x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v5) S1024x257.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S1024x257.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg4) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S1024x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1024x269.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S128x8.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90) S1x8.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v91) S1024x2.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S262144 : Shape := ⟨1, ![262144]⟩
abbrev S262144x256 : Shape := ⟨2, ![262144, 256]⟩
abbrev S262144x1 : Shape := ⟨2, ![262144, 1]⟩
abbrev S257x128 : Shape := ⟨2, ![257, 128]⟩
abbrev S128 : Shape := ⟨1, ![128]⟩
abbrev S128x4 : Shape := ⟨2, ![128, 4]⟩
abbrev S4 : Shape := ⟨1, ![4]⟩
abbrev S128x8 : Shape := ⟨2, ![128, 8]⟩
abbrev S8 : Shape := ⟨1, ![8]⟩
abbrev S256x128 : Shape := ⟨2, ![256, 128]⟩
abbrev S_ : Shape := ⟨0, ![]⟩
abbrev S1024x256 : Shape := ⟨2, ![1024, 256]⟩
abbrev S1024 : Shape := ⟨1, ![1024]⟩
abbrev S1024x1 : Shape := ⟨2, ![1024, 1]⟩
abbrev S262144x257 : Shape := ⟨2, ![262144, 257]⟩
abbrev S1024x257 : Shape := ⟨2, ![1024, 257]⟩
abbrev S1024x128 : Shape := ⟨2, ![1024, 128]⟩
abbrev S1x128 : Shape := ⟨2, ![1, 128]⟩
abbrev S1024x4 : Shape := ⟨2, ![1024, 4]⟩
abbrev S1x4 : Shape := ⟨2, ![1, 4]⟩
abbrev S1024x8 : Shape := ⟨2, ![1024, 8]⟩
abbrev S1x8 : Shape := ⟨2, ![1, 8]⟩
abbrev S262144x128 : Shape := ⟨2, ![262144, 128]⟩
abbrev S262144x8 : Shape := ⟨2, ![262144, 8]⟩
abbrev S262144x4 : Shape := ⟨2, ![262144, 4]⟩

abbrev nBuf : Space → Nat
  | .hbm => 431
  | .vmem => 0
  | .smem => 0
  | _ => 0

abbrev hbmTy0_0 (i : Nat) : BufTy := match i % 128 with
  | 0 => ⟨S262144, .i32⟩
  | 1 => ⟨S262144x256, .f32⟩
  | 2 => ⟨S262144x1, .f32⟩
  | 3 => ⟨S262144, .i32⟩
  | 4 => ⟨S262144x256, .f32⟩
  | 5 => ⟨S262144x1, .f32⟩
  | 6 => ⟨S257x128, .f32⟩
  | 7 => ⟨S128, .f32⟩
  | 8 => ⟨S128x4, .f32⟩
  | 9 => ⟨S4, .f32⟩
  | 10 => ⟨S128x8, .f32⟩
  | 11 => ⟨S8, .f32⟩
  | 12 => ⟨S256x128, .f32⟩
  | 13 => ⟨S128, .f32⟩
  | 14 => ⟨S128x8, .f32⟩
  | 15 => ⟨S8, .f32⟩
  | 16 => ⟨S_, .f32⟩
  | 17 => ⟨S1024x256, .f32⟩
  | 18 => ⟨S262144x1, .i32⟩
  | 19 => ⟨S1024x256, .f32⟩
  | 20 => ⟨S_, .f32⟩
  | 21 => ⟨S262144, .f32⟩
  | 22 => ⟨S_, .f32⟩
  | 23 => ⟨S1024, .f32⟩
  | 24 => ⟨S262144x1, .i32⟩
  | 25 => ⟨S1024, .f32⟩
  | 26 => ⟨S_, .f32⟩
  | 27 => ⟨S1024, .f32⟩
  | 28 => ⟨S1024, .f32⟩
  | 29 => ⟨S1024x1, .f32⟩
  | 30 => ⟨S1024x256, .f32⟩
  | 31 => ⟨S1024x256, .f32⟩
  | 32 => ⟨S_, .f32⟩
  | 33 => ⟨S1024x1, .f32⟩
  | 34 => ⟨S262144x1, .i32⟩
  | 35 => ⟨S1024x1, .f32⟩
  | 36 => ⟨S_, .f32⟩
  | 37 => ⟨S262144, .f32⟩
  | 38 => ⟨S_, .f32⟩
  | 39 => ⟨S1024, .f32⟩
  | 40 => ⟨S262144x1, .i32⟩
  | 41 => ⟨S1024, .f32⟩
  | 42 => ⟨S_, .f32⟩
  | 43 => ⟨S1024, .f32⟩
  | 44 => ⟨S1024, .f32⟩
  | 45 => ⟨S1024x1, .f32⟩
  | 46 => ⟨S1024x1, .f32⟩
  | 47 => ⟨S_, .i32⟩
  | 48 => ⟨S262144, .i32⟩
  | 49 => ⟨S262144, .i1⟩
  | 50 => ⟨S_, .i32⟩
  | 51 => ⟨S262144, .i32⟩
  | 52 => ⟨S262144, .i32⟩
  | 53 => ⟨S262144, .i32⟩
  | 54 => ⟨S262144x1, .i32⟩
  | 55 => ⟨S262144x256, .f32⟩
  | 56 => ⟨S262144x256, .f32⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S262144x1, .f32⟩
  | 66 => ⟨S262144x1, .f32⟩
  | 67 => ⟨S262144x257, .f32⟩
  | 68 => ⟨S_, .f32⟩
  | 69 => ⟨S1024x257, .f32⟩
  | 70 => ⟨S262144x1, .i32⟩
  | 71 => ⟨S1024x257, .f32⟩
  | 72 => ⟨S_, .f32⟩
  | 73 => ⟨S262144, .f32⟩
  | 74 => ⟨S_, .f32⟩
  | 75 => ⟨S1024, .f32⟩
  | 76 => ⟨S262144x1, .i32⟩
  | 77 => ⟨S1024, .f32⟩
  | 78 => ⟨S_, .f32⟩
  | 79 => ⟨S1024, .f32⟩
  | 80 => ⟨S1024, .f32⟩
  | 81 => ⟨S1024x1, .f32⟩
  | 82 => ⟨S1024x257, .f32⟩
  | 83 => ⟨S1024x257, .f32⟩
  | 84 => ⟨S1024x128, .f32⟩
  | 85 => ⟨S1x128, .f32⟩
  | 86 => ⟨S1024x128, .f32⟩
  | 87 => ⟨S1024x128, .f32⟩
  | 88 => ⟨S1024x128, .f32⟩
  | 89 => ⟨S1024x4, .f32⟩
  | 90 => ⟨S1x4, .f32⟩
  | 91 => ⟨S1024x4, .f32⟩
  | 92 => ⟨S1024x4, .f32⟩
  | 93 => ⟨S_, .f32⟩
  | 94 => ⟨S1024, .f32⟩
  | 95 => ⟨S_, .f32⟩
  | 96 => ⟨S1024, .f32⟩
  | 97 => ⟨S1024, .f32⟩
  | 98 => ⟨S1024x1, .f32⟩
  | 99 => ⟨S1024x4, .f32⟩
  | 100 => ⟨S1024x4, .f32⟩
  | 101 => ⟨S1024x4, .f32⟩
  | 102 => ⟨S_, .f32⟩
  | 103 => ⟨S1024, .f32⟩
  | 104 => ⟨S1024x1, .f32⟩
  | 105 => ⟨S1024x4, .f32⟩
  | 106 => ⟨S1024x4, .f32⟩
  | 107 => ⟨S_, .f32⟩
  | 108 => ⟨S1024, .f32⟩
  | 109 => ⟨S_, .f32⟩
  | 110 => ⟨S1024, .f32⟩
  | 111 => ⟨S1024, .f32⟩
  | 112 => ⟨S1024x1, .f32⟩
  | 113 => ⟨S1024x4, .f32⟩
  | 114 => ⟨S1024x4, .f32⟩
  | 115 => ⟨S1024x4, .f32⟩
  | 116 => ⟨S_, .f32⟩
  | 117 => ⟨S1024, .f32⟩
  | 118 => ⟨S1024x1, .f32⟩
  | 119 => ⟨S1024x1, .f32⟩
  | 120 => ⟨S1024x4, .f32⟩
  | 121 => ⟨S1024x4, .f32⟩
  | 122 => ⟨S1024x8, .f32⟩
  | 123 => ⟨S1x8, .f32⟩
  | 124 => ⟨S1024x8, .f32⟩
  | 125 => ⟨S1024x8, .f32⟩
  | 126 => ⟨S1024x4, .f32⟩
  | 127 => ⟨S1024x4, .f32⟩
  | _ => ⟨S262144, .i32⟩

abbrev hbmTy0_1 (i : Nat) : BufTy := match i % 128 with
  | 0 => ⟨S_, .f32⟩
  | 1 => ⟨S1024x4, .f32⟩
  | 2 => ⟨S1024x4, .f32⟩
  | 3 => ⟨S1024x4, .f32⟩
  | 4 => ⟨S1024x4, .f32⟩
  | 5 => ⟨S1024x4, .i1⟩
  | 6 => ⟨S1024x4, .f32⟩
  | 7 => ⟨S1024x4, .f32⟩
  | 8 => ⟨S1024x4, .f32⟩
  | 9 => ⟨S1024x4, .f32⟩
  | 10 => ⟨S1024x4, .f32⟩
  | 11 => ⟨S1024x4, .f32⟩
  | 12 => ⟨S1024x4, .f32⟩
  | 13 => ⟨S1024x4, .f32⟩
  | 14 => ⟨S_, .f32⟩
  | 15 => ⟨S1024x4, .f32⟩
  | 16 => ⟨S1024x4, .f32⟩
  | 17 => ⟨S_, .f32⟩
  | 18 => ⟨S1024x4, .f32⟩
  | 19 => ⟨S1024x4, .f32⟩
  | 20 => ⟨S_, .f32⟩
  | 21 => ⟨S1024x4, .f32⟩
  | 22 => ⟨S1024x4, .f32⟩
  | 23 => ⟨S1024x4, .f32⟩
  | 24 => ⟨S1024x4, .f32⟩
  | 25 => ⟨S1024x4, .i1⟩
  | 26 => ⟨S1024x4, .f32⟩
  | 27 => ⟨S1024x4, .f32⟩
  | 28 => ⟨S1024x4, .f32⟩
  | 29 => ⟨S1024x4, .f32⟩
  | 30 => ⟨S1024x4, .f32⟩
  | 31 => ⟨S1024x4, .f32⟩
  | 32 => ⟨S1024x4, .f32⟩
  | 33 => ⟨S1024x4, .f32⟩
  | 34 => ⟨S_, .f32⟩
  | 35 => ⟨S1024x4, .f32⟩
  | 36 => ⟨S1024x4, .f32⟩
  | 37 => ⟨S_, .f32⟩
  | 38 => ⟨S1024x4, .f32⟩
  | 39 => ⟨S1024x4, .f32⟩
  | 40 => ⟨S_, .f32⟩
  | 41 => ⟨S1024x256, .f32⟩
  | 42 => ⟨S262144x1, .i32⟩
  | 43 => ⟨S1024x256, .f32⟩
  | 44 => ⟨S_, .f32⟩
  | 45 => ⟨S262144, .f32⟩
  | 46 => ⟨S_, .f32⟩
  | 47 => ⟨S1024, .f32⟩
  | 48 => ⟨S262144x1, .i32⟩
  | 49 => ⟨S1024, .f32⟩
  | 50 => ⟨S_, .f32⟩
  | 51 => ⟨S1024, .f32⟩
  | 52 => ⟨S1024, .f32⟩
  | 53 => ⟨S1024x1, .f32⟩
  | 54 => ⟨S1024x256, .f32⟩
  | 55 => ⟨S1024x256, .f32⟩
  | 56 => ⟨S_, .f32⟩
  | 57 => ⟨S1024x1, .f32⟩
  | 58 => ⟨S262144x1, .i32⟩
  | 59 => ⟨S1024x1, .f32⟩
  | 60 => ⟨S_, .f32⟩
  | 61 => ⟨S262144, .f32⟩
  | 62 => ⟨S_, .f32⟩
  | 63 => ⟨S1024, .f32⟩
  | 64 => ⟨S262144x1, .i32⟩
  | 65 => ⟨S1024, .f32⟩
  | 66 => ⟨S_, .f32⟩
  | 67 => ⟨S1024, .f32⟩
  | 68 => ⟨S1024, .f32⟩
  | 69 => ⟨S1024x1, .f32⟩
  | 70 => ⟨S1024x1, .f32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x256, .f32⟩
  | 80 => ⟨S262144x256, .f32⟩
  | 81 => ⟨S_, .i32⟩
  | 82 => ⟨S262144, .i32⟩
  | 83 => ⟨S262144, .i1⟩
  | 84 => ⟨S_, .i32⟩
  | 85 => ⟨S262144, .i32⟩
  | 86 => ⟨S262144, .i32⟩
  | 87 => ⟨S262144, .i32⟩
  | 88 => ⟨S262144x1, .i32⟩
  | 89 => ⟨S262144x1, .f32⟩
  | 90 => ⟨S262144x1, .f32⟩
  | 91 => ⟨S262144x257, .f32⟩
  | 92 => ⟨S_, .f32⟩
  | 93 => ⟨S1024x257, .f32⟩
  | 94 => ⟨S262144x1, .i32⟩
  | 95 => ⟨S1024x257, .f32⟩
  | 96 => ⟨S_, .f32⟩
  | 97 => ⟨S262144, .f32⟩
  | 98 => ⟨S_, .f32⟩
  | 99 => ⟨S1024, .f32⟩
  | 100 => ⟨S262144x1, .i32⟩
  | 101 => ⟨S1024, .f32⟩
  | 102 => ⟨S_, .f32⟩
  | 103 => ⟨S1024, .f32⟩
  | 104 => ⟨S1024, .f32⟩
  | 105 => ⟨S1024x1, .f32⟩
  | 106 => ⟨S1024x257, .f32⟩
  | 107 => ⟨S1024x257, .f32⟩
  | 108 => ⟨S1024x128, .f32⟩
  | 109 => ⟨S1x128, .f32⟩
  | 110 => ⟨S1024x128, .f32⟩
  | 111 => ⟨S1024x128, .f32⟩
  | 112 => ⟨S1024x128, .f32⟩
  | 113 => ⟨S1024x4, .f32⟩
  | 114 => ⟨S1x4, .f32⟩
  | 115 => ⟨S1024x4, .f32⟩
  | 116 => ⟨S1024x4, .f32⟩
  | 117 => ⟨S_, .f32⟩
  | 118 => ⟨S1024, .f32⟩
  | 119 => ⟨S_, .f32⟩
  | 120 => ⟨S1024, .f32⟩
  | 121 => ⟨S1024, .f32⟩
  | 122 => ⟨S1024x1, .f32⟩
  | 123 => ⟨S1024x4, .f32⟩
  | 124 => ⟨S1024x4, .f32⟩
  | 125 => ⟨S1024x4, .f32⟩
  | 126 => ⟨S_, .f32⟩
  | 127 => ⟨S1024, .f32⟩
  | _ => ⟨S262144, .i32⟩

abbrev hbmTy0_2 (i : Nat) : BufTy := match i % 128 with
  | 0 => ⟨S1024x1, .f32⟩
  | 1 => ⟨S1024x4, .f32⟩
  | 2 => ⟨S1024x4, .f32⟩
  | 3 => ⟨S_, .f32⟩
  | 4 => ⟨S1024, .f32⟩
  | 5 => ⟨S_, .f32⟩
  | 6 => ⟨S1024, .f32⟩
  | 7 => ⟨S1024, .f32⟩
  | 8 => ⟨S1024x1, .f32⟩
  | 9 => ⟨S1024x4, .f32⟩
  | 10 => ⟨S1024x4, .f32⟩
  | 11 => ⟨S1024x4, .f32⟩
  | 12 => ⟨S_, .f32⟩
  | 13 => ⟨S1024, .f32⟩
  | 14 => ⟨S1024x1, .f32⟩
  | 15 => ⟨S1024x1, .f32⟩
  | 16 => ⟨S1024x4, .f32⟩
  | 17 => ⟨S1024x4, .f32⟩
  | 18 => ⟨S1024x8, .f32⟩
  | 19 => ⟨S1x8, .f32⟩
  | 20 => ⟨S1024x8, .f32⟩
  | 21 => ⟨S1024x8, .f32⟩
  | 22 => ⟨S1024x4, .f32⟩
  | 23 => ⟨S1024x4, .f32⟩
  | 24 => ⟨S_, .f32⟩
  | 25 => ⟨S1024x4, .f32⟩
  | 26 => ⟨S1024x4, .f32⟩
  | 27 => ⟨S1024x4, .f32⟩
  | 28 => ⟨S1024x4, .f32⟩
  | 29 => ⟨S1024x4, .i1⟩
  | 30 => ⟨S1024x4, .f32⟩
  | 31 => ⟨S1024x4, .f32⟩
  | 32 => ⟨S1024x4, .f32⟩
  | 33 => ⟨S1024x4, .f32⟩
  | 34 => ⟨S1024x4, .f32⟩
  | 35 => ⟨S1024x4, .f32⟩
  | 36 => ⟨S1024x4, .f32⟩
  | 37 => ⟨S1024x4, .f32⟩
  | 38 => ⟨S_, .f32⟩
  | 39 => ⟨S1024x4, .f32⟩
  | 40 => ⟨S1024x4, .f32⟩
  | 41 => ⟨S_, .f32⟩
  | 42 => ⟨S1024x4, .f32⟩
  | 43 => ⟨S1024x4, .f32⟩
  | 44 => ⟨S_, .f32⟩
  | 45 => ⟨S1024x4, .f32⟩
  | 46 => ⟨S1024x4, .f32⟩
  | 47 => ⟨S1024x4, .f32⟩
  | 48 => ⟨S1024x4, .f32⟩
  | 49 => ⟨S1024x4, .i1⟩
  | 50 => ⟨S1024x4, .f32⟩
  | 51 => ⟨S1024x4, .f32⟩
  | 52 => ⟨S1024x4, .f32⟩
  | 53 => ⟨S1024x4, .f32⟩
  | 54 => ⟨S1024x4, .f32⟩
  | 55 => ⟨S1024x4, .f32⟩
  | 56 => ⟨S1024x4, .f32⟩
  | 57 => ⟨S1024x4, .f32⟩
  | 58 => ⟨S_, .f32⟩
  | 59 => ⟨S1024x4, .f32⟩
  | 60 => ⟨S1024x4, .f32⟩
  | 61 => ⟨S_, .f32⟩
  | 62 => ⟨S1024x4, .f32⟩
  | 63 => ⟨S1024x4, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S262144x1, .i32⟩
  | 72 => ⟨S262144x256, .f32⟩
  | 73 => ⟨S262144x256, .f32⟩
  | 74 => ⟨S262144x128, .f32⟩
  | 75 => ⟨S1x128, .f32⟩
  | 76 => ⟨S262144x128, .f32⟩
  | 77 => ⟨S262144x128, .f32⟩
  | 78 => ⟨S262144x128, .f32⟩
  | 79 => ⟨S262144x8, .f32⟩
  | 80 => ⟨S1x8, .f32⟩
  | 81 => ⟨S262144x8, .f32⟩
  | 82 => ⟨S262144x8, .f32⟩
  | 83 => ⟨S262144x4, .f32⟩
  | 84 => ⟨S262144x4, .f32⟩
  | 85 => ⟨S_, .f32⟩
  | 86 => ⟨S262144x4, .f32⟩
  | 87 => ⟨S262144x4, .f32⟩
  | 88 => ⟨S262144x4, .f32⟩
  | 89 => ⟨S262144x4, .f32⟩
  | 90 => ⟨S262144x4, .i1⟩
  | 91 => ⟨S262144x4, .f32⟩
  | 92 => ⟨S262144x4, .f32⟩
  | 93 => ⟨S262144x4, .f32⟩
  | 94 => ⟨S262144x4, .f32⟩
  | 95 => ⟨S262144x4, .f32⟩
  | 96 => ⟨S262144x4, .f32⟩
  | 97 => ⟨S262144x4, .f32⟩
  | 98 => ⟨S262144x4, .f32⟩
  | 99 => ⟨S_, .f32⟩
  | 100 => ⟨S262144x4, .f32⟩
  | 101 => ⟨S262144x4, .f32⟩
  | 102 => ⟨S_, .f32⟩
  | 103 => ⟨S262144x4, .f32⟩
  | 104 => ⟨S262144x4, .f32⟩
  | 105 => ⟨S_, .i32⟩
  | 106 => ⟨S262144, .i32⟩
  | 107 => ⟨S262144, .i1⟩
  | 108 => ⟨S_, .i32⟩
  | 109 => ⟨S262144, .i32⟩
  | 110 => ⟨S262144, .i32⟩
  | 111 => ⟨S262144, .i32⟩
  | 112 => ⟨S262144x1, .i32⟩
  | 113 => ⟨S262144x4, .f32⟩
  | 114 => ⟨S262144x4, .f32⟩
  | 115 => ⟨S_, .i32⟩
  | 116 => ⟨S262144, .i32⟩
  | 117 => ⟨S262144, .i1⟩
  | 118 => ⟨S_, .i32⟩
  | 119 => ⟨S262144, .i32⟩
  | 120 => ⟨S262144, .i32⟩
  | 121 => ⟨S262144, .i32⟩
  | 122 => ⟨S262144x1, .i32⟩
  | 123 => ⟨S262144x4, .f32⟩
  | 124 => ⟨S262144x4, .f32⟩
  | 125 => ⟨S_, .f32⟩
  | 126 => ⟨S262144, .f32⟩
  | 127 => ⟨S262144x1, .f32⟩
  | _ => ⟨S262144, .i32⟩

abbrev hbmTy0_3 (i : Nat) : BufTy := match i % 128 with
  | 0 => ⟨S_, .i32⟩
  | 1 => ⟨S262144, .i32⟩
  | 2 => ⟨S262144, .i1⟩
  | 3 => ⟨S_, .i32⟩
  | 4 => ⟨S262144, .i32⟩
  | 5 => ⟨S262144, .i32⟩
  | 6 => ⟨S262144, .i32⟩
  | 7 => ⟨S262144x1, .i32⟩
  | 8 => ⟨S262144x1, .f32⟩
  | 9 => ⟨S262144x1, .f32⟩
  | 10 => ⟨S1024x4, .f32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S262144x4, .f32⟩
  | 20 => ⟨S262144x4, .f32⟩
  | 21 => ⟨S262144x4, .f32⟩
  | 22 => ⟨S_, .f32⟩
  | 23 => ⟨S262144, .f32⟩
  | 24 => ⟨S262144, .f32⟩
  | 25 => ⟨S1024x4, .f32⟩
  | 26 => ⟨S1024x4, .f32⟩
  | 27 => ⟨S_, .f32⟩
  | 28 => ⟨S1024, .f32⟩
  | 29 => ⟨S1024x4, .f32⟩
  | 30 => ⟨S1024x4, .f32⟩
  | 31 => ⟨S1024x4, .f32⟩
  | 32 => ⟨S1024x4, .f32⟩
  | 33 => ⟨S1024x4, .f32⟩
  | 34 => ⟨S1024x4, .f32⟩
  | 35 => ⟨S1024x4, .f32⟩
  | 36 => ⟨S_, .f32⟩
  | 37 => ⟨S1024x4, .f32⟩
  | 38 => ⟨S1024x4, .f32⟩
  | 39 => ⟨S1024x4, .f32⟩
  | 40 => ⟨S1024x4, .f32⟩
  | 41 => ⟨S_, .f32⟩
  | 42 => ⟨S1024x4, .f32⟩
  | 43 => ⟨S1024x4, .f32⟩
  | 44 => ⟨S_, .f32⟩
  | 45 => ⟨S1024, .f32⟩
  | 46 => ⟨S1024, .f32⟩
  | _ => ⟨S262144, .i32⟩

abbrev hbmTy (i : Nat) : BufTy := match i / 128 with
  | 0 => hbmTy0_0 i
  | 1 => hbmTy0_1 i
  | 2 => hbmTy0_2 i
  | 3 => hbmTy0_3 i
  | _ => ⟨S262144, .i32⟩

abbrev bufTy : (tb : Table) → Fin (tcTables nBuf tb) → BufTy
  | .hbm, ⟨i, _⟩ => hbmTy i
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c : Ref sig .tc := ⟨.hbm, 47, rfl⟩
abbrev main_v23 : Ref sig .tc := ⟨.hbm, 48, rfl⟩
abbrev main_v24 : Ref sig .tc := ⟨.hbm, 49, rfl⟩
abbrev main_c_7 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_8 : Ref sig .tc := ⟨.hbm, 57, rfl⟩
abbrev main_v31 : Ref sig .tc := ⟨.hbm, 58, rfl⟩
abbrev main_v32 : Ref sig .tc := ⟨.hbm, 59, rfl⟩
abbrev main_c_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_11 : Ref sig .tc := ⟨.hbm, 72, rfl⟩
abbrev main_v43 : Ref sig .tc := ⟨.hbm, 73, rfl⟩
abbrev main_cst_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call0_cst : Ref sig .tc := ⟨.hbm, 107, rfl⟩
abbrev main_call0_v0 : Ref sig .tc := ⟨.hbm, 108, rfl⟩
abbrev main_call0_cst_0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_v5 : Ref sig .tc := ⟨.hbm, 114, rfl⟩
abbrev main_call0_v6 : Ref sig .tc := ⟨.hbm, 115, rfl⟩
abbrev main_call0_cst_1 : Ref sig .tc := ⟨.hbm, 116, rfl⟩
abbrev main_call0_v7 : Ref sig .tc := ⟨.hbm, 117, rfl⟩
abbrev main_call0_v8 : Ref sig .tc := ⟨.hbm, 118, rfl⟩
abbrev main_call0_v9 : Ref sig .tc := ⟨.hbm, 119, rfl⟩
abbrev main_call0_v10 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_call1_cst : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_v8 : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_v79 : Ref sig .tc := ⟨.hbm, 141, rfl⟩
abbrev main_cst_17 : Ref sig .tc := ⟨.hbm, 142, rfl⟩
abbrev main_v80 : Ref sig .tc := ⟨.hbm, 143, rfl⟩
abbrev main_v81 : Ref sig .tc := ⟨.hbm, 144, rfl⟩
abbrev main_cst_18 : Ref sig .tc := ⟨.hbm, 145, rfl⟩
abbrev main_v82 : Ref sig .tc := ⟨.hbm, 146, rfl⟩
abbrev main_v83 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_v8 : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_v84 : Ref sig .tc := ⟨.hbm, 161, rfl⟩
abbrev main_cst_19 : Ref sig .tc := ⟨.hbm, 162, rfl⟩
abbrev main_v85 : Ref sig .tc := ⟨.hbm, 163, rfl⟩
abbrev main_v86 : Ref sig .tc := ⟨.hbm, 164, rfl⟩
abbrev main_cst_20 : Ref sig .tc := ⟨.hbm, 165, rfl⟩
abbrev main_v87 : Ref sig .tc := ⟨.hbm, 166, rfl⟩
abbrev main_v88 : Ref sig .tc := ⟨.hbm, 167, rfl⟩
abbrev main_cst_21 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_cst_22 : Ref sig .tc := ⟨.hbm, 172, rfl⟩
abbrev main_v92 : Ref sig .tc := ⟨.hbm, 173, rfl⟩
abbrev main_cst_23 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_cst_24 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_cst_25 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_cst_26 : Ref sig .tc := ⟨.hbm, 188, rfl⟩
abbrev main_v104 : Ref sig .tc := ⟨.hbm, 189, rfl⟩
abbrev main_cst_27 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_cst_28 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_c_29 : Ref sig .tc := ⟨.hbm, 199, rfl⟩
abbrev main_v112 : Ref sig .tc := ⟨.hbm, 200, rfl⟩
abbrev main_v113 : Ref sig .tc := ⟨.hbm, 201, rfl⟩
abbrev main_c_30 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_c_31 : Ref sig .tc := ⟨.hbm, 209, rfl⟩
abbrev main_v120 : Ref sig .tc := ⟨.hbm, 210, rfl⟩
abbrev main_v121 : Ref sig .tc := ⟨.hbm, 211, rfl⟩
abbrev main_c_32 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_cst_33 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_cst_34 : Ref sig .tc := ⟨.hbm, 224, rfl⟩
abbrev main_v132 : Ref sig .tc := ⟨.hbm, 225, rfl⟩
abbrev main_cst_35 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_cst_36 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_cst_37 : Ref sig .tc := ⟨.hbm, 245, rfl⟩
abbrev main_v150 : Ref sig .tc := ⟨.hbm, 246, rfl⟩
abbrev main_cst_38 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_cst_39 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_call3_cst : Ref sig .tc := ⟨.hbm, 259, rfl⟩
abbrev main_call3_v0 : Ref sig .tc := ⟨.hbm, 260, rfl⟩
abbrev main_call3_cst_0 : Ref sig .tc := ⟨.hbm, 261, rfl⟩
abbrev main_call3_v1 : Ref sig .tc := ⟨.hbm, 262, rfl⟩
abbrev main_call3_v2 : Ref sig .tc := ⟨.hbm, 263, rfl⟩
abbrev main_call3_v3 : Ref sig .tc := ⟨.hbm, 264, rfl⟩
abbrev main_call3_v4 : Ref sig .tc := ⟨.hbm, 265, rfl⟩
abbrev main_call3_v5 : Ref sig .tc := ⟨.hbm, 266, rfl⟩
abbrev main_call3_v6 : Ref sig .tc := ⟨.hbm, 267, rfl⟩
abbrev main_call3_cst_1 : Ref sig .tc := ⟨.hbm, 268, rfl⟩
abbrev main_call3_v7 : Ref sig .tc := ⟨.hbm, 269, rfl⟩
abbrev main_call3_v8 : Ref sig .tc := ⟨.hbm, 270, rfl⟩
abbrev main_call3_v9 : Ref sig .tc := ⟨.hbm, 271, rfl⟩
abbrev main_call3_v10 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_call4_cst : Ref sig .tc := ⟨.hbm, 280, rfl⟩
abbrev main_call4_v0 : Ref sig .tc := ⟨.hbm, 281, rfl⟩
abbrev main_call4_v1 : Ref sig .tc := ⟨.hbm, 282, rfl⟩
abbrev main_call4_v2 : Ref sig .tc := ⟨.hbm, 283, rfl⟩
abbrev main_call4_v3 : Ref sig .tc := ⟨.hbm, 284, rfl⟩
abbrev main_call4_v4 : Ref sig .tc := ⟨.hbm, 285, rfl⟩
abbrev main_call4_v5 : Ref sig .tc := ⟨.hbm, 286, rfl⟩
abbrev main_call4_v6 : Ref sig .tc := ⟨.hbm, 287, rfl⟩
abbrev main_call4_v7 : Ref sig .tc := ⟨.hbm, 288, rfl⟩
abbrev main_call4_v8 : Ref sig .tc := ⟨.hbm, 289, rfl⟩
abbrev main_call4_v9 : Ref sig .tc := ⟨.hbm, 290, rfl⟩
abbrev main_call4_v10 : Ref sig .tc := ⟨.hbm, 291, rfl⟩
abbrev main_call4_v11 : Ref sig .tc := ⟨.hbm, 292, rfl⟩
abbrev main_v168 : Ref sig .tc := ⟨.hbm, 293, rfl⟩
abbrev main_cst_40 : Ref sig .tc := ⟨.hbm, 294, rfl⟩
abbrev main_v169 : Ref sig .tc := ⟨.hbm, 295, rfl⟩
abbrev main_v170 : Ref sig .tc := ⟨.hbm, 296, rfl⟩
abbrev main_cst_41 : Ref sig .tc := ⟨.hbm, 297, rfl⟩
abbrev main_v171 : Ref sig .tc := ⟨.hbm, 298, rfl⟩
abbrev main_v172 : Ref sig .tc := ⟨.hbm, 299, rfl⟩
abbrev main_call5_cst : Ref sig .tc := ⟨.hbm, 300, rfl⟩
abbrev main_call5_v0 : Ref sig .tc := ⟨.hbm, 301, rfl⟩
abbrev main_call5_v1 : Ref sig .tc := ⟨.hbm, 302, rfl⟩
abbrev main_call5_v2 : Ref sig .tc := ⟨.hbm, 303, rfl⟩
abbrev main_call5_v3 : Ref sig .tc := ⟨.hbm, 304, rfl⟩
abbrev main_call5_v4 : Ref sig .tc := ⟨.hbm, 305, rfl⟩
abbrev main_call5_v5 : Ref sig .tc := ⟨.hbm, 306, rfl⟩
abbrev main_call5_v6 : Ref sig .tc := ⟨.hbm, 307, rfl⟩
abbrev main_call5_v7 : Ref sig .tc := ⟨.hbm, 308, rfl⟩
abbrev main_call5_v8 : Ref sig .tc := ⟨.hbm, 309, rfl⟩
abbrev main_call5_v9 : Ref sig .tc := ⟨.hbm, 310, rfl⟩
abbrev main_call5_v10 : Ref sig .tc := ⟨.hbm, 311, rfl⟩
abbrev main_call5_v11 : Ref sig .tc := ⟨.hbm, 312, rfl⟩
abbrev main_v173 : Ref sig .tc := ⟨.hbm, 313, rfl⟩
abbrev main_cst_42 : Ref sig .tc := ⟨.hbm, 314, rfl⟩
abbrev main_v174 : Ref sig .tc := ⟨.hbm, 315, rfl⟩
abbrev main_v175 : Ref sig .tc := ⟨.hbm, 316, rfl⟩
abbrev main_cst_43 : Ref sig .tc := ⟨.hbm, 317, rfl⟩
abbrev main_v176 : Ref sig .tc := ⟨.hbm, 318, rfl⟩
abbrev main_v177 : Ref sig .tc := ⟨.hbm, 319, rfl⟩
abbrev main_c_44 : Ref sig .tc := ⟨.hbm, 320, rfl⟩
abbrev main_v178 : Ref sig .tc := ⟨.hbm, 321, rfl⟩
abbrev main_v179 : Ref sig .tc := ⟨.hbm, 322, rfl⟩
abbrev main_c_45 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_v186 : Ref sig .tc := ⟨.hbm, 330, rfl⟩
abbrev main_v187 : Ref sig .tc := ⟨.hbm, 331, rfl⟩
abbrev main_v188 : Ref sig .tc := ⟨.hbm, 332, rfl⟩
abbrev main_v189 : Ref sig .tc := ⟨.hbm, 333, rfl⟩
abbrev main_v190 : Ref sig .tc := ⟨.hbm, 334, rfl⟩
abbrev main_v191 : Ref sig .tc := ⟨.hbm, 335, rfl⟩
abbrev main_v192 : Ref sig .tc := ⟨.hbm, 336, rfl⟩
abbrev main_v193 : Ref sig .tc := ⟨.hbm, 337, rfl⟩
abbrev main_v194 : Ref sig .tc := ⟨.hbm, 338, rfl⟩
abbrev main_v195 : Ref sig .tc := ⟨.hbm, 339, rfl⟩
abbrev main_v196 : Ref sig .tc := ⟨.hbm, 340, rfl⟩
abbrev main_call6_cst : Ref sig .tc := ⟨.hbm, 341, rfl⟩
abbrev main_call6_v0 : Ref sig .tc := ⟨.hbm, 342, rfl⟩
abbrev main_call6_v1 : Ref sig .tc := ⟨.hbm, 343, rfl⟩
abbrev main_call6_v2 : Ref sig .tc := ⟨.hbm, 344, rfl⟩
abbrev main_call6_v3 : Ref sig .tc := ⟨.hbm, 345, rfl⟩
abbrev main_call6_v4 : Ref sig .tc := ⟨.hbm, 346, rfl⟩
abbrev main_call6_v5 : Ref sig .tc := ⟨.hbm, 347, rfl⟩
abbrev main_call6_v6 : Ref sig .tc := ⟨.hbm, 348, rfl⟩
abbrev main_call6_v7 : Ref sig .tc := ⟨.hbm, 349, rfl⟩
abbrev main_call6_v8 : Ref sig .tc := ⟨.hbm, 350, rfl⟩
abbrev main_call6_v9 : Ref sig .tc := ⟨.hbm, 351, rfl⟩
abbrev main_call6_v10 : Ref sig .tc := ⟨.hbm, 352, rfl⟩
abbrev main_call6_v11 : Ref sig .tc := ⟨.hbm, 353, rfl⟩
abbrev main_v197 : Ref sig .tc := ⟨.hbm, 354, rfl⟩
abbrev main_cst_46 : Ref sig .tc := ⟨.hbm, 355, rfl⟩
abbrev main_v198 : Ref sig .tc := ⟨.hbm, 356, rfl⟩
abbrev main_v199 : Ref sig .tc := ⟨.hbm, 357, rfl⟩
abbrev main_cst_47 : Ref sig .tc := ⟨.hbm, 358, rfl⟩
abbrev main_v200 : Ref sig .tc := ⟨.hbm, 359, rfl⟩
abbrev main_v201 : Ref sig .tc := ⟨.hbm, 360, rfl⟩
abbrev main_c_48 : Ref sig .tc := ⟨.hbm, 361, rfl⟩
abbrev main_v202 : Ref sig .tc := ⟨.hbm, 362, rfl⟩
abbrev main_v203 : Ref sig .tc := ⟨.hbm, 363, rfl⟩
abbrev main_c_49 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_c_50 : Ref sig .tc := ⟨.hbm, 371, rfl⟩
abbrev main_v210 : Ref sig .tc := ⟨.hbm, 372, rfl⟩
abbrev main_v211 : Ref sig .tc := ⟨.hbm, 373, rfl⟩
abbrev main_c_51 : Ref sig .tc := ⟨.hbm, 374, rfl⟩
abbrev main_v212 : Ref sig .tc := ⟨.hbm, 375, rfl⟩
abbrev main_v213 : Ref sig .tc := ⟨.hbm, 376, rfl⟩
abbrev main_v214 : Ref sig .tc := ⟨.hbm, 377, rfl⟩
abbrev main_v215 : Ref sig .tc := ⟨.hbm, 378, rfl⟩
abbrev main_v216 : Ref sig .tc := ⟨.hbm, 379, rfl⟩
abbrev main_v217 : Ref sig .tc := ⟨.hbm, 380, rfl⟩
abbrev main_cst_52 : Ref sig .tc := ⟨.hbm, 381, rfl⟩
abbrev main_v218 : Ref sig .tc := ⟨.hbm, 382, rfl⟩
abbrev main_v219 : Ref sig .tc := ⟨.hbm, 383, rfl⟩
abbrev main_c_53 : Ref sig .tc := ⟨.hbm, 384, rfl⟩
abbrev main_v220 : Ref sig .tc := ⟨.hbm, 385, rfl⟩
abbrev main_v221 : Ref sig .tc := ⟨.hbm, 386, rfl⟩
abbrev main_c_54 : Ref sig .tc := ⟨.hbm, 387, rfl⟩
abbrev main_v222 : Ref sig .tc := ⟨.hbm, 388, rfl⟩
abbrev main_v223 : Ref sig .tc := ⟨.hbm, 389, rfl⟩
abbrev main_v224 : Ref sig .tc := ⟨.hbm, 390, rfl⟩
abbrev main_v225 : Ref sig .tc := ⟨.hbm, 391, rfl⟩
abbrev main_v226 : Ref sig .tc := ⟨.hbm, 392, rfl⟩
abbrev main_v227 : Ref sig .tc := ⟨.hbm, 393, rfl⟩
abbrev main_v228 : Ref sig .tc := ⟨.hbm, 394, rfl⟩
abbrev main_c_55 : Ref sig .tc := ⟨.hbm, 395, rfl⟩
abbrev main_v229 : Ref sig .tc := ⟨.hbm, 396, rfl⟩
abbrev main_v230 : Ref sig .tc := ⟨.hbm, 397, rfl⟩
abbrev main_c_56 : Ref sig .tc := ⟨.hbm, 398, rfl⟩
abbrev main_v231 : Ref sig .tc := ⟨.hbm, 399, rfl⟩
abbrev main_v232 : Ref sig .tc := ⟨.hbm, 400, rfl⟩
abbrev main_v233 : Ref sig .tc := ⟨.hbm, 401, rfl⟩
abbrev main_v234 : Ref sig .tc := ⟨.hbm, 402, rfl⟩
abbrev main_v235 : Ref sig .tc := ⟨.hbm, 403, rfl⟩
abbrev main_v236 : Ref sig .tc := ⟨.hbm, 404, rfl⟩
abbrev main_v237 : Ref sig .tc := ⟨.hbm, 405, rfl⟩
abbrev main_cst_57 : Ref sig .tc := ⟨.hbm, 406, rfl⟩
abbrev main_v238 : Ref sig .tc := ⟨.hbm, 407, rfl⟩
abbrev main_v239 : Ref sig .tc := ⟨.hbm, 408, rfl⟩
abbrev main_v240 : Ref sig .tc := ⟨.hbm, 409, rfl⟩
abbrev main_v241 : Ref sig .tc := ⟨.hbm, 410, rfl⟩
abbrev main_cst_58 : Ref sig .tc := ⟨.hbm, 411, rfl⟩
abbrev main_v242 : Ref sig .tc := ⟨.hbm, 412, rfl⟩
abbrev main_v243 : Ref sig .tc := ⟨.hbm, 413, rfl⟩
abbrev main_v244 : Ref sig .tc := ⟨.hbm, 414, rfl⟩
abbrev main_v245 : Ref sig .tc := ⟨.hbm, 415, rfl⟩
abbrev main_v246 : Ref sig .tc := ⟨.hbm, 416, rfl⟩
abbrev main_v247 : Ref sig .tc := ⟨.hbm, 417, rfl⟩
abbrev main_v248 : Ref sig .tc := ⟨.hbm, 418, rfl⟩
abbrev main_v249 : Ref sig .tc := ⟨.hbm, 419, rfl⟩
abbrev main_cst_59 : Ref sig .tc := ⟨.hbm, 420, rfl⟩
abbrev main_v250 : Ref sig .tc := ⟨.hbm, 421, rfl⟩
abbrev main_v251 : Ref sig .tc := ⟨.hbm, 422, rfl⟩
abbrev main_v252 : Ref sig .tc := ⟨.hbm, 423, rfl⟩
abbrev main_v253 : Ref sig .tc := ⟨.hbm, 424, rfl⟩
abbrev main_cst_60 : Ref sig .tc := ⟨.hbm, 425, rfl⟩
abbrev main_v254 : Ref sig .tc := ⟨.hbm, 426, rfl⟩
abbrev main_v255 : Ref sig .tc := ⟨.hbm, 427, rfl⟩
abbrev main_cst_61 : Ref sig .tc := ⟨.hbm, 428, rfl⟩
abbrev main_v256 : Ref sig .tc := ⟨.hbm, 429, rfl⟩
abbrev main_v257 : Ref sig .tc := ⟨.hbm, 430, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S_S1024x1 : S_.BroadcastsInDim S1024x1 (![] : Fin 0 → Fin S1024x1.rank)
  concatenates_S262144x256_S262144x1_S262144x257_d1 : Shape.Concatenates [S262144x256, S262144x1] S262144x257 1
  bcast_S_S1024x257 : S_.BroadcastsInDim S1024x257 (![] : Fin 0 → Fin S1024x257.rank)
  bcast_S1024x1_S1024x257_0_1 : S1024x1.BroadcastsInDim S1024x257 (![0, 1] : Fin 2 → Fin S1024x257.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  reducesTo_S1024x4_S1024_d1 : S1024x4.ReducesTo [1] S1024
  h_S_ : 0 < S_.numel
  bcast_S1024x1_S1024x4_0_1 : S1024x1.BroadcastsInDim S1024x4 (![0, 1] : Fin 2 → Fin S1024x4.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  slices_S1024x8_S1024x4_0_0 : S1024x8.Slices ![0, 0] S1024x4
  slices_S1024x8_S1024x4_0_4 : S1024x8.Slices ![0, 4] S1024x4
  bcast_S_S1024x4 : S_.BroadcastsInDim S1024x4 (![] : Fin 0 → Fin S1024x4.rank)
  bcast_S1x128_S262144x128_0_1 : S1x128.BroadcastsInDim S262144x128 (![0, 1] : Fin 2 → Fin S262144x128.rank)
  bcast_S1x8_S262144x8_0_1 : S1x8.BroadcastsInDim S262144x8 (![0, 1] : Fin 2 → Fin S262144x8.rank)
  slices_S262144x8_S262144x4_0_0 : S262144x8.Slices ![0, 0] S262144x4
  slices_S262144x8_S262144x4_0_4 : S262144x8.Slices ![0, 4] S262144x4
  bcast_S_S262144x4 : S_.BroadcastsInDim S262144x4 (![] : Fin 0 → Fin S262144x4.rank)
  reducesTo_S262144x4_S262144_d1 : S262144x4.ReducesTo [1] S262144
  scatter_S1024x256_S262144x1_S262144x256_1_0_0_1_wf : ScatterDims.WF S1024x256 S262144x1 S262144x256 [1] [0] [0] 1
  scatter_S1024_S262144x1_S262144_n_0_0_1_wf : ScatterDims.WF S1024 S262144x1 S262144 [] [0] [0] 1
  scatter_S1024x1_S262144x1_S262144x1_1_0_0_1_wf : ScatterDims.WF S1024x1 S262144x1 S262144x1 [1] [0] [0] 1
  gather_S1024x256_S262144x1_S262144x256_1_0_n_n_0_1_1256_wf : GatherDims.WF S1024x256 S262144x1 S262144x256 [1] [0] [] [0] [] 1 ![1, 256]
  gather_S1024x1_S262144x1_S262144x1_1_0_n_n_0_1_11_wf : GatherDims.WF S1024x1 S262144x1 S262144x1 [1] [0] [] [0] [] 1 ![1, 1]
  scatter_S1024x257_S262144x1_S262144x257_1_0_0_1_wf : ScatterDims.WF S1024x257 S262144x1 S262144x257 [1] [0] [0] 1
  dot_S1024x257_S257x128_S1024x128_1_0_0_1_n_n_wf : DotDims.WF S1024x257 S257x128 S1024x128 [1] [0] [0] [1] [] []
  dot_S1024x128_S128x4_S1024x4_1_0_0_1_n_n_wf : DotDims.WF S1024x128 S128x4 S1024x4 [1] [0] [0] [1] [] []
  dot_S1024x128_S128x8_S1024x8_1_0_0_1_n_n_wf : DotDims.WF S1024x128 S128x8 S1024x8 [1] [0] [0] [1] [] []
  dot_S262144x256_S256x128_S262144x128_1_0_0_1_n_n_wf : DotDims.WF S262144x256 S256x128 S262144x128 [1] [0] [0] [1] [] []
  dot_S262144x128_S128x8_S262144x8_1_0_0_1_n_n_wf : DotDims.WF S262144x128 S128x8 S262144x8 [1] [0] [0] [1] [] []
  gather_S1024x4_S262144x1_S262144x4_1_0_n_n_0_1_14_wf : GatherDims.WF S1024x4 S262144x1 S262144x4 [1] [0] [] [0] [] 1 ![1, 4]

variable [Facts₀]

def scatter_S1024x256_S262144x1_S262144x256_1_0_0_1 : ScatterDims S1024x256 S262144x1 S262144x256 where
  updateWindowDims := [1]
  insertedWindowDims := [0]
  scatterDimsToOperandDims := [0]
  indexVectorDim := 1
  wf := scatter_S1024x256_S262144x1_S262144x256_1_0_0_1_wf
def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def scatter_S1024x1_S262144x1_S262144x1_1_0_0_1 : ScatterDims S1024x1 S262144x1 S262144x1 where
  updateWindowDims := [1]
  insertedWindowDims := [0]
  scatterDimsToOperandDims := [0]
  indexVectorDim := 1
  wf := scatter_S1024x1_S262144x1_S262144x1_1_0_0_1_wf
def gather_S1024x256_S262144x1_S262144x256_1_0_n_n_0_1_1256 : GatherDims S1024x256 S262144x1 S262144x256 where
  offsetDims := [1]
  collapsedSliceDims := [0]
  operandBatchingDims := []
  startIndicesBatchingDims := []
  startIndexMap := [0]
  indexVectorDim := 1
  sliceSizes := ![1, 256]
  wf := gather_S1024x256_S262144x1_S262144x256_1_0_n_n_0_1_1256_wf
def gather_S1024x1_S262144x1_S262144x1_1_0_n_n_0_1_11 : GatherDims S1024x1 S262144x1 S262144x1 where
  offsetDims := [1]
  collapsedSliceDims := [0]
  operandBatchingDims := []
  startIndicesBatchingDims := []
  startIndexMap := [0]
  indexVectorDim := 1
  sliceSizes := ![1, 1]
  wf := gather_S1024x1_S262144x1_S262144x1_1_0_n_n_0_1_11_wf
def scatter_S1024x257_S262144x1_S262144x257_1_0_0_1 : ScatterDims S1024x257 S262144x1 S262144x257 where
  updateWindowDims := [1]
  insertedWindowDims := [0]
  scatterDimsToOperandDims := [0]
  indexVectorDim := 1
  wf := scatter_S1024x257_S262144x1_S262144x257_1_0_0_1_wf
def dot_S1024x257_S257x128_S1024x128_1_0_0_1_n_n : DotDims S1024x257 S257x128 S1024x128 where
  lhsContracting := [1]
  rhsContracting := [0]
  lhsNonContracting := [0]
  rhsNonContracting := [1]
  lhsBatch := []
  rhsBatch := []
  wf := dot_S1024x257_S257x128_S1024x128_1_0_0_1_n_n_wf
def dot_S1024x128_S128x4_S1024x4_1_0_0_1_n_n : DotDims S1024x128 S128x4 S1024x4 where
  lhsContracting := [1]
  rhsContracting := [0]
  lhsNonContracting := [0]
  rhsNonContracting := [1]
  lhsBatch := []
  rhsBatch := []
  wf := dot_S1024x128_S128x4_S1024x4_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x8_S262144x8_1_0_0_1_n_n : DotDims S262144x128 S128x8 S262144x8 where
  lhsContracting := [1]
  rhsContracting := [0]
  lhsNonContracting := [0]
  rhsNonContracting := [1]
  lhsBatch := []
  rhsBatch := []
  wf := dot_S262144x128_S128x8_S262144x8_1_0_0_1_n_n_wf
def gather_S1024x4_S262144x1_S262144x4_1_0_n_n_0_1_14 : GatherDims S1024x4 S262144x1 S262144x4 where
  offsetDims := [1]
  collapsedSliceDims := [0]
  operandBatchingDims := []
  startIndicesBatchingDims := []
  startIndexMap := [0]
  indexVectorDim := 1
  sliceSizes := ![1, 4]
  wf := gather_S1024x4_S262144x1_S262144x4_1_0_n_n_0_1_14_wf

class Facts : Prop extends Facts₀ where

variable [Facts]
-- ==== Proof.K.R0Runs.lean ====
/- REGION 0 (the anchor kernel on the context rows, pipeline 0): what its runs share. Each window's block at a
   point, read off the region's entry contents `V`; the one branch condition of the body (the first grid point),
   in closed form over the grid; the staging and scratch memrefs the body is called with; the region invariant
   opened at the two scratch buffers the kernel carries between points (the running sums and the running counts). -/
import proofs.«430159_j88974542504689_1_alg».proof.Proof.Gen.Kernel.Launch
import proofs.«430159_j88974542504689_1_alg».proof.Proof.Gen.Kernel.Skeleton
import proofs.«430159_j88974542504689_1_alg».proof.Proof.Gen.Kernel.Points
import Idealize.ShloMosaic.Lib.Pipeline.FrameBody
import Idealize.ShloMosaic.Lib.Ring
import Idealize.ShloMosaic.Lib.Tactic

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of rows at point `t` (window 0), at its literal type. -/
abbrev xblk0 (c : Dev nD) (t : Fin cfg0.N) : Vec F S1024x257 .f32 := iblk0 V c 0 t
/-- The row of segment indices at point `t` (window 1), at its literal type. -/
abbrev idblk0 (c : Dev nD) (t : Fin cfg0.N) : Vec F S1x1024 .i32 := iblk0 V c 1 t

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional, from the grid coordinates: the point's coordinate is zero. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-! ## The memrefs the body is called with -/

/-- One staging buffer of the output window, through which its contents are stated (the choice does not matter). -/
abbrev VO0_2 : View sig .tc .vmem S1024x257 .f32 := (Memref.whole cc0_stg2_0 : Memref sig .tc .vmem S1024x257 .f32).view
/-- Each window's current staging memref at point `t`, spelled as the pipeline passes it, and its wholeness. -/
abbrev ms0_0 (t : Fin cfg0.N) : Memref sig .tc .vmem S1024x257 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x257 .f32 := win0_2.stage (cfg0.slots t 2)
abbrev hs0_2 (t : Fin cfg0.N) : (ms0_2 t).IsWhole := hstage0_2 ((cfg0.slots t 2).cast nbuf0_2)
/-- The scratch operands: whole scoped buffers of the kernel's own — the running sums and the running counts. -/
abbrev scM0_0 : Memref sig .tc .vmem S1024x257 .f32 := Memref.whole cc0_scratch0
abbrev scM0_1 : Memref sig .tc .vmem S1024x1 .f32 := Memref.whole cc0_scratch1
/-- The two as views: what they hold is stated through them. -/
abbrev VS0_0 : View sig .tc .vmem S1024x257 .f32 := scM0_0.view
abbrev VS0_1 : View sig .tc .vmem S1024x1 .f32 := scM0_1.view

/-- The scoped buffers of the core that are neither a staging buffer of this pipeline nor one of its two scratch
    buffers, at some contents each: carried through the region unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch operands as memrefs owned at some contents, the other scoped buffers
    unopened, and the generator register at some state: what the body obligation hands the run and takes back. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 (F := F) c) ∗ (∃ r, prngReg c r)) := by
  unfold Pipeline.ΦA; rw [scopedRest0_split]; simp only [scM0_0, scM0_1, owns_whole]; try rfl

end Cert.Kernel.Hand

end
-- ==== Proof.K.R0RunA.lean ====
/- REGION 0: the whole body of the anchor kernel run AT THE FIRST GRID POINT (its conditional taken: both scratch
   buffers are zeroed before they are read, so they may hold anything on entry). The pieces each buffer ends with
   — the output block, the running sums, the running counts — are the witness the run finds. -/
import proofs.«430159_j88974542504689_1_alg».proof.Proof.K.R0Runs

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch memrefs, as pieces (last
    first), AT THE FIRST POINT (the conditional taken), WITH the proof that on whole memrefs — the inputs' at their
    contents `x0` (the block of rows) and `x1` (the row of segment indices), the output's and both scratch at
    anything — the body runs to the continuation holding the inputs' as they were and each of the three written
    buffers with its pieces written. The pieces are the witness the run finds. -/
noncomputable def kernelRun0_A (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) :
    Σ' (L2 : List (View.Piece (Elt F) S1024x257 .f32)) (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__anchor_kernel i arg1 harg1 arg2 harg2 arg3 harg3 arg4 harg4 arg5 harg5) K } := by
  refine ⟨?_, ?_, ?_, fun E K => ?run⟩
  case run =>
    simp only [cc0__anchor_kernel_eq_skeleton]; unfold cc0__anchor_kernel_skel
    simp only [k0_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Hand

end
-- ==== Proof.K.R0RunB.lean ====
/- REGION 0: the whole body of the anchor kernel run AT ANY LATER GRID POINT (its conditional not taken: the two
   scratch buffers are read at what the point before left in them). The pieces each buffer ends with — the output
   block, the running sums, the running counts — are the witness the run finds. -/
import proofs.«430159_j88974542504689_1_alg».proof.Proof.K.R0RunA

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch memrefs, as pieces (last
    first), AT A POINT AFTER THE FIRST (the conditional not taken), WITH the proof that on whole memrefs — the
    inputs' at their contents `x0`, `x1`, the running sums at `xs0` and the running counts at `xs1` (what the
    point before left), the output's at anything — the body runs to the continuation holding the inputs' as they
    were and each of the three written buffers with its pieces written. The pieces are the witness the run finds. -/
noncomputable def kernelRun0_B (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) :
    Σ' (L2 : List (View.Piece (Elt F) S1024x257 .f32)) (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__anchor_kernel i arg1 harg1 arg2 harg2 arg3 harg3 arg4 harg4 arg5 harg5) K } := by
  refine ⟨?_, ?_, ?_, fun E K => ?run⟩
  case run =>
    simp only [cc0__anchor_kernel_eq_skeleton]; unfold cc0__anchor_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Hand

end
-- ==== Proof.K.R0Frame.lean ====
/- REGION 0 (the anchor kernel on the context rows, pipeline 0), the frame side at the region's entry contents `V`:
   what the output block and the two carried scratch buffers hold after each grid point (`outsAt0`, by recursion on
   the point: the first point starts from zeros, every later point from what the point before left), the region
   invariant naming the scratch contents between points, the pipeline's proof data, and the body obligation. -/
import proofs.«430159_j88974542504689_1_alg».proof.Proof.K.R0RunB

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves, buffer by buffer -/

/-- The pieces the body leaves in the output block's buffer at the first point cover it: every store is of the whole buffer. -/
theorem cover0_A_2 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) (y : S1024x257.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S1024x257.size (by sl_kernel_rfl) y

/-- What the body leaves in the output block's buffer at the first point: its pieces read back over arbitrary contents. -/
def out0_A_2 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) : Vec F S1024x257 .f32 :=
  VO0_2.read (Elt F) (VO0_2.writes (Elt F) VO0_2.junk (kernelRun0_A c i arg1 harg1 arg2 harg2 arg3 harg3 arg4 harg4 arg5 harg5 hc0 x0 x1).1)

/-- The pieces the body leaves in the running sums's buffer at the first point cover it: every store is of the whole buffer. -/
theorem scover0_A_0 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) (y : S1024x257.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S1024x257.size (by sl_kernel_rfl) y

/-- What the body leaves in the running sums's buffer at the first point: its pieces read back over arbitrary contents. -/
def sout0_A_0 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) : Vec F S1024x257 .f32 :=
  VS0_0.read (Elt F) (VS0_0.writes (Elt F) VS0_0.junk (kernelRun0_A c i arg1 harg1 arg2 harg2 arg3 harg3 arg4 harg4 arg5 harg5 hc0 x0 x1).2.1)

/-- The pieces the body leaves in the running counts's buffer at the first point cover it: every store is of the whole buffer. -/
theorem scover0_A_1 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) (y : S1024x1.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S1024x1.size (by sl_kernel_rfl) y

/-- What the body leaves in the running counts's buffer at the first point: its pieces read back over arbitrary contents. -/
def sout0_A_1 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) : Vec F S1024x1 .f32 :=
  VS0_1.read (Elt F) (VS0_1.writes (Elt F) VS0_1.junk (kernelRun0_A c i arg1 harg1 arg2 harg2 arg3 harg3 arg4 harg4 arg5 harg5 hc0 x0 x1).2.2.1)

/-- The pieces the body leaves in the output block's buffer at a later point cover it: every store is of the whole buffer. -/
theorem cover0_B_2 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) (y : S1024x257.Idx) :
    ∃ pc ∈ (kernelRun0_B c i arg1 harg1 arg2 harg2 arg3 harg3 arg4 harg4 arg5 harg5 hc0 x0 x1 xs0 xs1).1, y ∈ pc.1.set :=
  View.cover_of_tiledL (kernelRun0_B c i arg1 harg1 arg2 harg2 arg3 harg3 arg4 harg4 arg5 harg5 hc0 x0 x1 xs0 xs1).1 S1024x257.size (by sl_kernel_rfl) y

/-- What the body leaves in the output block's buffer at a later point: its pieces read back over arbitrary contents. -/
def out0_B_2 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) : Vec F S1024x257 .f32 :=
  VO0_2.read (Elt F) (VO0_2.writes (Elt F) VO0_2.junk (kernelRun0_B c i arg1 harg1 arg2 harg2 arg3 harg3 arg4 harg4 arg5 harg5 hc0 x0 x1 xs0 xs1).1)

/-- The pieces the body leaves in the running sums's buffer at a later point cover it: every store is of the whole buffer. -/
theorem scover0_B_0 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) (y : S1024x257.Idx) :
    ∃ pc ∈ (kernelRun0_B c i arg1 harg1 arg2 harg2 arg3 harg3 arg4 harg4 arg5 harg5 hc0 x0 x1 xs0 xs1).2.1, y ∈ pc.1.set :=
  View.cover_of_tiledL (kernelRun0_B c i arg1 harg1 arg2 harg2 arg3 harg3 arg4 harg4 arg5 harg5 hc0 x0 x1 xs0 xs1).2.1 S1024x257.size (by sl_kernel_rfl) y

/-- What the body leaves in the running sums's buffer at a later point: its pieces read back over arbitrary contents. -/
def sout0_B_0 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) : Vec F S1024x257 .f32 :=
  VS0_0.read (Elt F) (VS0_0.writes (Elt F) VS0_0.junk (kernelRun0_B c i arg1 harg1 arg2 harg2 arg3 harg3 arg4 harg4 arg5 harg5 hc0 x0 x1 xs0 xs1).2.1)

/-- The pieces the body leaves in the running counts's buffer at a later point cover it: every store is of the whole buffer. -/
theorem scover0_B_1 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) (y : S1024x1.Idx) :
    ∃ pc ∈ (kernelRun0_B c i arg1 harg1 arg2 harg2 arg3 harg3 arg4 harg4 arg5 harg5 hc0 x0 x1 xs0 xs1).2.2.1, y ∈ pc.1.set :=
  View.cover_of_tiledL (kernelRun0_B c i arg1 harg1 arg2 harg2 arg3 harg3 arg4 harg4 arg5 harg5 hc0 x0 x1 xs0 xs1).2.2.1 S1024x1.size (by sl_kernel_rfl) y

/-- What the body leaves in the running counts's buffer at a later point: its pieces read back over arbitrary contents. -/
def sout0_B_1 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) : Vec F S1024x1 .f32 :=
  VS0_1.read (Elt F) (VS0_1.writes (Elt F) VS0_1.junk (kernelRun0_B c i arg1 harg1 arg2 harg2 arg3 harg3 arg4 harg4 arg5 harg5 hc0 x0 x1 xs0 xs1).2.2.1)

/-! ## What the three buffers hold after each point -/

/-- The triple (output block, running sums, running counts) the body leaves at the first point `t`. -/
def stepA0 (c : Dev nD) (t : Fin cfg0.N) (hc0 : cond0_0 (grid0.coords t)) :
    Vec F S1024x257 .f32 × Vec F S1024x257 .f32 × Vec F S1024x1 .f32 :=
  (out0_A_2 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t), sout0_A_0 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t), sout0_A_1 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t))

/-- The triple the body leaves at a later point `t`, from the sums `xs0` and counts `xs1` the point before left. -/
def stepB0 (c : Dev nD) (t : Fin cfg0.N) (hc0 : ¬cond0_0 (grid0.coords t)) (xs0 : Vec F S1024x257 .f32) (xs1 : Vec F S1024x1 .f32) :
    Vec F S1024x257 .f32 × Vec F S1024x257 .f32 × Vec F S1024x1 .f32 :=
  (out0_B_2 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t) xs0 xs1, sout0_B_0 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t) xs0 xs1, sout0_B_1 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t) xs0 xs1)

/-- THE ACCUMULATION: (output block, running sums, running counts) after the body at position `n` — the first
    point from nothing, every later point from the sums and counts the point before left. -/
def outsAt0 (c : Dev nD) : (n : ℕ) → n < cfg0.N → Vec F S1024x257 .f32 × Vec F S1024x257 .f32 × Vec F S1024x1 .f32
  | 0, hn => stepA0 V c ⟨0, hn⟩ ((hcond0_0 ⟨0, hn⟩).mpr rfl)
  | n + 1, hn => stepB0 V c ⟨n + 1, hn⟩ (fun h => Nat.succ_ne_zero n ((hcond0_0 ⟨n + 1, hn⟩).mp h))
      (outsAt0 c n (Nat.lt_of_succ_lt hn)).2.1 (outsAt0 c n (Nat.lt_of_succ_lt hn)).2.2

/-- `outsAt0` at the first point. -/
theorem outsAt0_A (c : Dev nD) (t : Fin cfg0.N) (h0 : t.val = 0) :
    outsAt0 V c t.val t.isLt = stepA0 V c t ((hcond0_0 t).mpr h0) := by
  obtain ⟨n, hn⟩ := t
  cases n with
  | zero => exact rfl
  | succ n => exact absurd h0 (Nat.succ_ne_zero n)

/-- `outsAt0` at a later point: over what the point before left. -/
theorem outsAt0_B (c : Dev nD) (t : Fin cfg0.N) (h0 : ¬t.val = 0) :
    outsAt0 V c t.val t.isLt = stepB0 V c t (fun h => h0 ((hcond0_0 t).mp h))
      (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd rfl h0
  | succ n => exact rfl

/-! ## The region invariant -/

/-- The region invariant before position `n`: before the first point the class's (every scoped buffer of the core
    that is no staging buffer at anything, the generator register at some state); afterwards the same with the
    running sums and the running counts at what the point before left in them. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.1 ∗ owns (c : Thread nD τ) scM0_1 fullShare (outsAt0 V c n hn).2.2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(iprop(owns (c : Thread nD τ) scM0_0 fullShare (outsAt0 V c n hn).2.1 ∗ owns (c : Thread nD τ) scM0_1 fullShare (outsAt0 V c n hn).2.2) ∗ restBut0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.1 ∗ owns (c : Thread nD τ) scM0_1 fullShare (outsAt0 V c (n - 1) (by omega)).2.2) ∗ restBut0 (F := F) c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the inputs' memrefs hold their blocks; the point is the first or not; the invariant hands
    the body the two carried scratch buffers (at anything at the first point, at what the point before left
    afterwards) and takes them back at this point's contents; the output's buffer is taken at anything and left
    at this point's output block; the other scoped buffers, the generator register and what the core owes pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val = 0
  · rw [outsAt0_A V c t h0]
    unfold stepA0 out0_A_2 sout0_A_0 sout0_A_1; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩⟩
    iapply ((kernelRun0_A c (grid0.coords t) _ _ _ _ _ _ _ _ _ _ ((hcond0_0 t).mpr h0) (xblk0 V c t) (idblk0 V c t)).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _ _ _)
  · rw [outsAt0_B V c t h0]
    unfold stepB0 out0_B_2 sout0_B_0 sout0_B_1; (try dsimp only)
    rw [PhiS0_castSucc V c t, PhiS0_pos V c _ _ h0]
    iintro ⟨⟨⟨⟨HS0, HS1⟩, Hrest⟩, Hg⟩, Ho, ⟨%d0, H0⟩, ⟨%d1, H1⟩, ⟨%d2, H2⟩⟩
    iapply ((kernelRun0_B c (grid0.coords t) _ _ _ _ _ _ _ _ _ _ (fun h => h0 ((hcond0_0 t).mp h)) (xblk0 V c t) (idblk0 V c t) _ _).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Cert.Kernel.Hand

end
-- ==== Proof.K.R1Runs.lean ====
/- REGION 1 (the anchor kernel on the target rows, pipeline 1): what its runs share. Each window's block at a
   point, read off the region's entry contents `V`; the one branch condition of the body (the first grid point),
   in closed form over the grid; the staging and scratch memrefs the body is called with; the region invariant
   opened at the two scratch buffers the kernel carries between points (the running sums and the running counts). -/
import proofs.«430159_j88974542504689_1_alg».proof.Proof.Gen.Kernel.Launch
import proofs.«430159_j88974542504689_1_alg».proof.Proof.Gen.Kernel.Skeleton
import proofs.«430159_j88974542504689_1_alg».proof.Proof.Gen.Kernel.Points
import Idealize.ShloMosaic.Lib.Pipeline.FrameBody
import Idealize.ShloMosaic.Lib.Ring
import Idealize.ShloMosaic.Lib.Tactic

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows at point `t` (window 0), at its literal type. -/
abbrev xblk1 (c : Dev nD) (t : Fin cfg1.N) : Vec F S1024x257 .f32 := iblk1 V c 0 t
/-- The row of segment indices at point `t` (window 1), at its literal type. -/
abbrev idblk1 (c : Dev nD) (t : Fin cfg1.N) : Vec F S1x1024 .i32 := iblk1 V c 1 t

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: the point's coordinate is zero. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-! ## The memrefs the body is called with -/

/-- One staging buffer of the output window, through which its contents are stated (the choice does not matter). -/
abbrev VO1_2 : View sig .tc .vmem S1024x257 .f32 := (Memref.whole cc1_stg2_0 : Memref sig .tc .vmem S1024x257 .f32).view
/-- Each window's current staging memref at point `t`, spelled as the pipeline passes it, and its wholeness. -/
abbrev ms1_0 (t : Fin cfg1.N) : Memref sig .tc .vmem S1024x257 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x257 .f32 := win1_2.stage (cfg1.slots t 2)
abbrev hs1_2 (t : Fin cfg1.N) : (ms1_2 t).IsWhole := hstage1_2 ((cfg1.slots t 2).cast nbuf1_2)
/-- The scratch operands: whole scoped buffers of the kernel's own — the running sums and the running counts. -/
abbrev scM1_0 : Memref sig .tc .vmem S1024x257 .f32 := Memref.whole cc1_scratch0
abbrev scM1_1 : Memref sig .tc .vmem S1024x1 .f32 := Memref.whole cc1_scratch1
/-- The two as views: what they hold is stated through them. -/
abbrev VS1_0 : View sig .tc .vmem S1024x257 .f32 := scM1_0.view
abbrev VS1_1 : View sig .tc .vmem S1024x1 .f32 := scM1_1.view

/-- The scoped buffers of the core that are neither a staging buffer of this pipeline nor one of its two scratch
    buffers, at some contents each: carried through the region unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The class invariant with the two scratch operands as memrefs owned at some contents, the other scoped buffers
    unopened, and the generator register at some state: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 (F := F) c) ∗ (∃ r, prngReg c r)) := by
  unfold Pipeline.ΦA; rw [scopedRest1_split]; simp only [scM1_0, scM1_1, owns_whole]; try rfl

end Cert.Kernel.Hand

end
-- ==== Proof.K.R1RunA.lean ====
/- REGION 1: the whole body of the anchor kernel run AT THE FIRST GRID POINT (its conditional taken: both scratch
   buffers are zeroed before they are read, so they may hold anything on entry). The pieces each buffer ends with
   — the output block, the running sums, the running counts — are the witness the run finds. -/
import proofs.«430159_j88974542504689_1_alg».proof.Proof.K.R1Runs

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch memrefs, as pieces (last
    first), AT THE FIRST POINT (the conditional taken), WITH the proof that on whole memrefs — the inputs' at their
    contents `x0` (the block of rows) and `x1` (the row of segment indices), the output's and both scratch at
    anything — the body runs to the continuation holding the inputs' as they were and each of the three written
    buffers with its pieces written. The pieces are the witness the run finds. -/
noncomputable def kernelRun1_A (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) :
    Σ' (L2 : List (View.Piece (Elt F) S1024x257 .f32)) (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__anchor_kernel i arg1 harg1 arg2 harg2 arg3 harg3 arg4 harg4 arg5 harg5) K } := by
  refine ⟨?_, ?_, ?_, fun E K => ?run⟩
  case run =>
    simp only [cc1__anchor_kernel_eq_skeleton]; unfold cc1__anchor_kernel_skel
    simp only [k1_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Hand

end
-- ==== Proof.K.R1RunB.lean ====
/- REGION 1: the whole body of the anchor kernel run AT ANY LATER GRID POINT (its conditional not taken: the two
   scratch buffers are read at what the point before left in them). The pieces each buffer ends with — the output
   block, the running sums, the running counts — are the witness the run finds. -/
import proofs.«430159_j88974542504689_1_alg».proof.Proof.K.R1RunA

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch memrefs, as pieces (last
    first), AT A POINT AFTER THE FIRST (the conditional not taken), WITH the proof that on whole memrefs — the
    inputs' at their contents `x0`, `x1`, the running sums at `xs0` and the running counts at `xs1` (what the
    point before left), the output's at anything — the body runs to the continuation holding the inputs' as they
    were and each of the three written buffers with its pieces written. The pieces are the witness the run finds. -/
noncomputable def kernelRun1_B (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) :
    Σ' (L2 : List (View.Piece (Elt F) S1024x257 .f32)) (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__anchor_kernel i arg1 harg1 arg2 harg2 arg3 harg3 arg4 harg4 arg5 harg5) K } := by
  refine ⟨?_, ?_, ?_, fun E K => ?run⟩
  case run =>
    simp only [cc1__anchor_kernel_eq_skeleton]; unfold cc1__anchor_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Hand

end
-- ==== Proof.K.R1Frame.lean ====
/- REGION 1 (the anchor kernel on the target rows, pipeline 1), the frame side at the region's entry contents `V`:
   what the output block and the two carried scratch buffers hold after each grid point (`outsAt1`, by recursion on
   the point: the first point starts from zeros, every later point from what the point before left), the region
   invariant naming the scratch contents between points, the pipeline's proof data, and the body obligation. -/
import proofs.«430159_j88974542504689_1_alg».proof.Proof.K.R1RunB

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves, buffer by buffer -/

/-- The pieces the body leaves in the output block's buffer at the first point cover it: every store is of the whole buffer. -/
theorem cover1_A_2 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) (y : S1024x257.Idx) :
    ∃ pc ∈ (kernelRun1_A c i arg1 harg1 arg2 harg2 arg3 harg3 arg4 harg4 arg5 harg5 hc0 x0 x1).1, y ∈ pc.1.set :=
  View.cover_of_tiledL (kernelRun1_A c i arg1 harg1 arg2 harg2 arg3 harg3 arg4 harg4 arg5 harg5 hc0 x0 x1).1 S1024x257.size (by sl_kernel_rfl) y

/-- What the body leaves in the output block's buffer at the first point: its pieces read back over arbitrary contents. -/
def out1_A_2 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) : Vec F S1024x257 .f32 :=
  VO1_2.read (Elt F) (VO1_2.writes (Elt F) VO1_2.junk (kernelRun1_A c i arg1 harg1 arg2 harg2 arg3 harg3 arg4 harg4 arg5 harg5 hc0 x0 x1).1)

/-- The pieces the body leaves in the running sums's buffer at the first point cover it: every store is of the whole buffer. -/
theorem scover1_A_0 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) (y : S1024x257.Idx) :
    ∃ pc ∈ (kernelRun1_A c i arg1 harg1 arg2 harg2 arg3 harg3 arg4 harg4 arg5 harg5 hc0 x0 x1).2.1, y ∈ pc.1.set :=
  View.cover_of_tiledL (kernelRun1_A c i arg1 harg1 arg2 harg2 arg3 harg3 arg4 harg4 arg5 harg5 hc0 x0 x1).2.1 S1024x257.size (by sl_kernel_rfl) y

/-- What the body leaves in the running sums's buffer at the first point: its pieces read back over arbitrary contents. -/
def sout1_A_0 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) : Vec F S1024x257 .f32 :=
  VS1_0.read (Elt F) (VS1_0.writes (Elt F) VS1_0.junk (kernelRun1_A c i arg1 harg1 arg2 harg2 arg3 harg3 arg4 harg4 arg5 harg5 hc0 x0 x1).2.1)

/-- The pieces the body leaves in the running counts's buffer at the first point cover it: every store is of the whole buffer. -/
theorem scover1_A_1 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) (y : S1024x1.Idx) :
    ∃ pc ∈ (kernelRun1_A c i arg1 harg1 arg2 harg2 arg3 harg3 arg4 harg4 arg5 harg5 hc0 x0 x1).2.2.1, y ∈ pc.1.set :=
  View.cover_of_tiledL (kernelRun1_A c i arg1 harg1 arg2 harg2 arg3 harg3 arg4 harg4 arg5 harg5 hc0 x0 x1).2.2.1 S1024x1.size (by sl_kernel_rfl) y

/-- What the body leaves in the running counts's buffer at the first point: its pieces read back over arbitrary contents. -/
def sout1_A_1 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) : Vec F S1024x1 .f32 :=
  VS1_1.read (Elt F) (VS1_1.writes (Elt F) VS1_1.junk (kernelRun1_A c i arg1 harg1 arg2 harg2 arg3 harg3 arg4 harg4 arg5 harg5 hc0 x0 x1).2.2.1)

/-- The pieces the body leaves in the output block's buffer at a later point cover it: every store is of the whole buffer. -/
theorem cover1_B_2 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) (y : S1024x257.Idx) :
    ∃ pc ∈ (kernelRun1_B c i arg1 harg1 arg2 harg2 arg3 harg3 arg4 harg4 arg5 harg5 hc0 x0 x1 xs0 xs1).1, y ∈ pc.1.set :=
  View.cover_of_tiledL (kernelRun1_B c i arg1 harg1 arg2 harg2 arg3 harg3 arg4 harg4 arg5 harg5 hc0 x0 x1 xs0 xs1).1 S1024x257.size (by sl_kernel_rfl) y

/-- What the body leaves in the output block's buffer at a later point: its pieces read back over arbitrary contents. -/
def out1_B_2 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) : Vec F S1024x257 .f32 :=
  VO1_2.read (Elt F) (VO1_2.writes (Elt F) VO1_2.junk (kernelRun1_B c i arg1 harg1 arg2 harg2 arg3 harg3 arg4 harg4 arg5 harg5 hc0 x0 x1 xs0 xs1).1)

/-- The pieces the body leaves in the running sums's buffer at a later point cover it: every store is of the whole buffer. -/
theorem scover1_B_0 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) (y : S1024x257.Idx) :
    ∃ pc ∈ (kernelRun1_B c i arg1 harg1 arg2 harg2 arg3 harg3 arg4 harg4 arg5 harg5 hc0 x0 x1 xs0 xs1).2.1, y ∈ pc.1.set :=
  View.cover_of_tiledL (kernelRun1_B c i arg1 harg1 arg2 harg2 arg3 harg3 arg4 harg4 arg5 harg5 hc0 x0 x1 xs0 xs1).2.1 S1024x257.size (by sl_kernel_rfl) y

/-- What the body leaves in the running sums's buffer at a later point: its pieces read back over arbitrary contents. -/
def sout1_B_0 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) : Vec F S1024x257 .f32 :=
  VS1_0.read (Elt F) (VS1_0.writes (Elt F) VS1_0.junk (kernelRun1_B c i arg1 harg1 arg2 harg2 arg3 harg3 arg4 harg4 arg5 harg5 hc0 x0 x1 xs0 xs1).2.1)

/-- The pieces the body leaves in the running counts's buffer at a later point cover it: every store is of the whole buffer. -/
theorem scover1_B_1 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) (y : S1024x1.Idx) :
    ∃ pc ∈ (kernelRun1_B c i arg1 harg1 arg2 harg2 arg3 harg3 arg4 harg4 arg5 harg5 hc0 x0 x1 xs0 xs1).2.2.1, y ∈ pc.1.set :=
  View.cover_of_tiledL (kernelRun1_B c i arg1 harg1 arg2 harg2 arg3 harg3 arg4 harg4 arg5 harg5 hc0 x0 x1 xs0 xs1).2.2.1 S1024x1.size (by sl_kernel_rfl) y

/-- What the body leaves in the running counts's buffer at a later point: its pieces read back over arbitrary contents. -/
def sout1_B_1 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) : Vec F S1024x1 .f32 :=
  VS1_1.read (Elt F) (VS1_1.writes (Elt F) VS1_1.junk (kernelRun1_B c i arg1 harg1 arg2 harg2 arg3 harg3 arg4 harg4 arg5 harg5 hc0 x0 x1 xs0 xs1).2.2.1)

/-! ## What the three buffers hold after each point -/

/-- The triple (output block, running sums, running counts) the body leaves at the first point `t`. -/
def stepA1 (c : Dev nD) (t : Fin cfg1.N) (hc0 : cond1_0 (grid1.coords t)) :
    Vec F S1024x257 .f32 × Vec F S1024x257 .f32 × Vec F S1024x1 .f32 :=
  (out1_A_2 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t), sout1_A_0 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t), sout1_A_1 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t))

/-- The triple the body leaves at a later point `t`, from the sums `xs0` and counts `xs1` the point before left. -/
def stepB1 (c : Dev nD) (t : Fin cfg1.N) (hc0 : ¬cond1_0 (grid1.coords t)) (xs0 : Vec F S1024x257 .f32) (xs1 : Vec F S1024x1 .f32) :
    Vec F S1024x257 .f32 × Vec F S1024x257 .f32 × Vec F S1024x1 .f32 :=
  (out1_B_2 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t) xs0 xs1, sout1_B_0 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t) xs0 xs1, sout1_B_1 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t) xs0 xs1)

/-- THE ACCUMULATION: (output block, running sums, running counts) after the body at position `n` — the first
    point from nothing, every later point from the sums and counts the point before left. -/
def outsAt1 (c : Dev nD) : (n : ℕ) → n < cfg1.N → Vec F S1024x257 .f32 × Vec F S1024x257 .f32 × Vec F S1024x1 .f32
  | 0, hn => stepA1 V c ⟨0, hn⟩ ((hcond1_0 ⟨0, hn⟩).mpr rfl)
  | n + 1, hn => stepB1 V c ⟨n + 1, hn⟩ (fun h => Nat.succ_ne_zero n ((hcond1_0 ⟨n + 1, hn⟩).mp h))
      (outsAt1 c n (Nat.lt_of_succ_lt hn)).2.1 (outsAt1 c n (Nat.lt_of_succ_lt hn)).2.2

/-- `outsAt1` at the first point. -/
theorem outsAt1_A (c : Dev nD) (t : Fin cfg1.N) (h0 : t.val = 0) :
    outsAt1 V c t.val t.isLt = stepA1 V c t ((hcond1_0 t).mpr h0) := by
  obtain ⟨n, hn⟩ := t
  cases n with
  | zero => exact rfl
  | succ n => exact absurd h0 (Nat.succ_ne_zero n)

/-- `outsAt1` at a later point: over what the point before left. -/
theorem outsAt1_B (c : Dev nD) (t : Fin cfg1.N) (h0 : ¬t.val = 0) :
    outsAt1 V c t.val t.isLt = stepB1 V c t (fun h => h0 ((hcond1_0 t).mp h))
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd rfl h0
  | succ n => exact rfl

/-! ## The region invariant -/

/-- The region invariant before position `n`: before the first point the class's (every scoped buffer of the core
    that is no staging buffer at anything, the generator register at some state); afterwards the same with the
    running sums and the running counts at what the point before left in them. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2) ∗ restBut1 (F := F) c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2) ∗ restBut1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
/-- The body at any point: the inputs' memrefs hold their blocks; the point is the first or not; the invariant hands
    the body the two carried scratch buffers (at anything at the first point, at what the point before left
    afterwards) and takes them back at this point's contents; the output's buffer is taken at anything and left
    at this point's output block; the other scoped buffers, the generator register and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h0 : t.val = 0
  · rw [outsAt1_A V c t h0]
    unfold stepA1 out1_A_2 sout1_A_0 sout1_A_1; (try dsimp only)
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩⟩
    iapply ((kernelRun1_A c (grid1.coords t) _ _ _ _ _ _ _ _ _ _ ((hcond1_0 t).mpr h0) (xblk1 V c t) (idblk1 V c t)).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _ _ _ _)
  · rw [outsAt1_B V c t h0]
    unfold stepB1 out1_B_2 sout1_B_0 sout1_B_1; (try dsimp only)
    rw [PhiS1_castSucc V c t, PhiS1_pos V c _ _ h0]
    iintro ⟨⟨⟨⟨HS0, HS1⟩, Hrest⟩, Hg⟩, Ho, ⟨%d0, H0⟩, ⟨%d1, H1⟩, ⟨%d2, H2⟩⟩
    iapply ((kernelRun1_B c (grid1.coords t) _ _ _ _ _ _ _ _ _ _ (fun h => h0 ((hcond1_0 t).mp h)) (xblk1 V c t) (idblk1 V c t) _ _).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _)
          · unfold owns; iexists _; isplitr
            swap; · iexact HS1
            ipureintro; exact View.read_writes_of_cover _ _ _ _ _ (scover1_B_1 c _ _ _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.Kernel.Hand

end
-- ==== Proof.K.R2Runs.lean ====
/- REGION 2 (the residual kernel on the context rows, pipeline 2): what its runs share. Each window's block at a
   point, read off the region's entry contents `V`; the one branch condition of the body (the first grid point),
   in closed form over the grid; the staging and scratch memrefs the body is called with; the region invariant
   opened at the two scratch buffers the kernel carries between points (the running sums of residuals and the
   running counts). -/
import proofs.«430159_j88974542504689_1_alg».proof.Proof.Gen.Kernel.Launch
import proofs.«430159_j88974542504689_1_alg».proof.Proof.Gen.Kernel.Skeleton
import proofs.«430159_j88974542504689_1_alg».proof.Proof.Gen.Kernel.Points
import Idealize.ShloMosaic.Lib.Pipeline.FrameBody
import Idealize.ShloMosaic.Lib.Ring
import Idealize.ShloMosaic.Lib.Tactic

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of rows at point `t` (window 0), at its literal type. -/
abbrev xblk2 (c : Dev nD) (t : Fin cfg2.N) : Vec F S512x257 .f32 := iblk2 V c 0 t
/-- The segment indices of the point's rows as a row (window 1), at its literal type. -/
abbrev idrow2 (c : Dev nD) (t : Fin cfg2.N) : Vec F S1x512 .i32 := iblk2 V c 1 t
/-- The same indices as a column (window 2), at its literal type. -/
abbrev idcol2 (c : Dev nD) (t : Fin cfg2.N) : Vec F S512x1 .i32 := iblk2 V c 2 t
/-- The anchors, one row per segment (window 3: the same block at every point), at its literal type. -/
abbrev anchor2 (c : Dev nD) (t : Fin cfg2.N) : Vec F S1024x257 .f32 := iblk2 V c 3 t

/-- Input window 0's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same for input window 3, whose block index is constant: fetched at the first point only, its buffer
    holds the block at every later point because the body leaves it in place and the index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional, from the grid coordinates: the point's coordinate is zero. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-! ## The memrefs the body is called with -/

/-- The staging buffer of the output window, through which its contents are stated. -/
abbrev VO2_4 : View sig .tc .vmem S1024x257 .f32 := (Memref.whole cc2_stg4_0 : Memref sig .tc .vmem S1024x257 .f32).view
/-- Each window's current staging memref at point `t`, spelled as the pipeline passes it, and its wholeness. -/
abbrev ms2_0 (t : Fin cfg2.N) : Memref sig .tc .vmem S512x257 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x257 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x257 .f32 := win2_4.stage (cfg2.slots t 4)
abbrev hs2_4 (t : Fin cfg2.N) : (ms2_4 t).IsWhole := hstage2_4 ((cfg2.slots t 4).cast nbuf2_4)
/-- The scratch operands: whole scoped buffers of the kernel's own — the running sums and the running counts. -/
abbrev scM2_0 : Memref sig .tc .vmem S1024x257 .f32 := Memref.whole cc2_scratch0
abbrev scM2_1 : Memref sig .tc .vmem S1024x1 .f32 := Memref.whole cc2_scratch1
/-- The two as views: what they hold is stated through them. -/
abbrev VS2_0 : View sig .tc .vmem S1024x257 .f32 := scM2_0.view
abbrev VS2_1 : View sig .tc .vmem S1024x1 .f32 := scM2_1.view

/-- The scoped buffers of the core that are neither a staging buffer of this pipeline nor one of its two scratch
    buffers, at some contents each: carried through the region unopened. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch operands as memrefs owned at some contents, the other scoped buffers
    unopened, and the generator register at some state: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 (F := F) c) ∗ (∃ r, prngReg c r)) := by
  unfold Pipeline.ΦA; rw [scopedRest2_split]; simp only [scM2_0, scM2_1, owns_whole]; try rfl

end Cert.Kernel.Hand

end
-- ==== Proof.K.R2RunA.lean ====
/- REGION 2, the body at the FIRST grid point (the conditional taken: both scratch buffers are zeroed before they
   are read): the whole body run on any whole memrefs, the four inputs' at given contents, the output's and the two
   scratch buffers' at anything; what each of the three buffers it stores into ends with, as the list of its stores
   (last first), is the witness the run finds. -/
import proofs.«430159_j88974542504689_1_alg».proof.Proof.K.R2Runs

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large)
set_option maxHeartbeats 1000000 in
/-- The stores the body leaves in the output's staging buffer and in the two scratch buffers (last first) at a point
    where the conditional is taken, with the proof that the body runs from the inputs at `x0 … x3`, the other three
    buffers at anything, to the continuation holding the inputs as they were and those three with their stores written. -/
noncomputable def kernelRun2_A (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) :
    Σ' (L4 : List (View.Piece (Elt F) S1024x257 .f32)), Σ' (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__residual_kernel i arg1 harg1 arg2 harg2 arg3 harg3 arg4 harg4 arg5 harg5 arg6 harg6 arg7 harg7) K } := by
  refine ⟨?_, ?_, ?_, fun E K => ?run⟩
  case run =>
    simp only [cc2__residual_kernel_eq_skeleton]; unfold cc2__residual_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Hand

end
-- ==== Proof.K.R2RunB.lean ====
/- REGION 2, the body at every LATER grid point (the conditional not taken: the two scratch buffers hold what the
   point before left): the whole body run on any whole memrefs, the four inputs' and the two scratch buffers' at
   given contents, the output's at anything; the stores each of the three buffers ends with are the witness. -/
import proofs.«430159_j88974542504689_1_alg».proof.Proof.K.R2RunA

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large)
set_option maxHeartbeats 1000000 in
/-- The stores the body leaves in the output's staging buffer and in the two scratch buffers (last first) at a point
    where the conditional is not taken, with the proof that the body runs from the inputs at `x0 … x3`, the scratch
    buffers at `xs0`, `xs1`, the output's buffer at anything, to the continuation holding the inputs as they were
    and the three with their stores written. -/
noncomputable def kernelRun2_B (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) :
    Σ' (L4 : List (View.Piece (Elt F) S1024x257 .f32)), Σ' (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__residual_kernel i arg1 harg1 arg2 harg2 arg3 harg3 arg4 harg4 arg5 harg5 arg6 harg6 arg7 harg7) K } := by
  refine ⟨?_, ?_, ?_, fun E K => ?run⟩
  case run =>
    simp only [cc2__residual_kernel_eq_skeleton]; unfold cc2__residual_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Hand

end
-- ==== Proof.K.R2Frame.lean ====
/- REGION 2 (the residual kernel on the context rows, pipeline 2), the frame side at the entry contents `V`: what
   the output's staging buffer and the two scratch buffers hold after each grid point (the running sums of
   residuals, the running counts and their quotient), the region invariant that carries the two scratch buffers
   from point to point, the pipeline's proof data and the body obligation at every point. -/
import proofs.«430159_j88974542504689_1_alg».proof.Proof.K.R2RunB

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case of the body leaves -/

/-- The stores of the body at the first point into the output's staging buffer cover it. -/
theorem cover2_A_4 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) (y : S1024x257.Idx) :
    ∃ pc ∈ (kernelRun2_A c i arg1 harg1 arg2 harg2 arg3 harg3 arg4 harg4 arg5 harg5 arg6 harg6 arg7 harg7 hc0 x0 x1 x2 x3).1, y ∈ pc.1.set :=
  View.cover_of_tiledL (kernelRun2_A c i arg1 harg1 arg2 harg2 arg3 harg3 arg4 harg4 arg5 harg5 arg6 harg6 arg7 harg7 hc0 x0 x1 x2 x3).1 S1024x257.size (by sl_kernel_rfl) y

/-- What the body at the first point leaves in the output's staging buffer: its stores read back. -/
def out2_A_4 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) : Vec F S1024x257 .f32 :=
  VO2_4.read (Elt F) (VO2_4.writes (Elt F) VO2_4.junk (kernelRun2_A c i arg1 harg1 arg2 harg2 arg3 harg3 arg4 harg4 arg5 harg5 arg6 harg6 arg7 harg7 hc0 x0 x1 x2 x3).1)

/-- The stores of the body at the first point into the running sums cover them. -/
theorem scover2_A_0 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) (y : S1024x257.Idx) :
    ∃ pc ∈ (kernelRun2_A c i arg1 harg1 arg2 harg2 arg3 harg3 arg4 harg4 arg5 harg5 arg6 harg6 arg7 harg7 hc0 x0 x1 x2 x3).2.1, y ∈ pc.1.set :=
  View.cover_of_tiledL (kernelRun2_A c i arg1 harg1 arg2 harg2 arg3 harg3 arg4 harg4 arg5 harg5 arg6 harg6 arg7 harg7 hc0 x0 x1 x2 x3).2.1 S1024x257.size (by sl_kernel_rfl) y

/-- What the body at the first point leaves in the running sums: its stores read back. -/
def sout2_A_0 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) : Vec F S1024x257 .f32 :=
  VS2_0.read (Elt F) (VS2_0.writes (Elt F) VS2_0.junk (kernelRun2_A c i arg1 harg1 arg2 harg2 arg3 harg3 arg4 harg4 arg5 harg5 arg6 harg6 arg7 harg7 hc0 x0 x1 x2 x3).2.1)

/-- The stores of the body at the first point into the running counts cover them. -/
theorem scover2_A_1 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) (y : S1024x1.Idx) :
    ∃ pc ∈ (kernelRun2_A c i arg1 harg1 arg2 harg2 arg3 harg3 arg4 harg4 arg5 harg5 arg6 harg6 arg7 harg7 hc0 x0 x1 x2 x3).2.2.1, y ∈ pc.1.set :=
  View.cover_of_tiledL (kernelRun2_A c i arg1 harg1 arg2 harg2 arg3 harg3 arg4 harg4 arg5 harg5 arg6 harg6 arg7 harg7 hc0 x0 x1 x2 x3).2.2.1 S1024x1.size (by sl_kernel_rfl) y

/-- What the body at the first point leaves in the running counts: its stores read back. -/
def sout2_A_1 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) : Vec F S1024x1 .f32 :=
  VS2_1.read (Elt F) (VS2_1.writes (Elt F) VS2_1.junk (kernelRun2_A c i arg1 harg1 arg2 harg2 arg3 harg3 arg4 harg4 arg5 harg5 arg6 harg6 arg7 harg7 hc0 x0 x1 x2 x3).2.2.1)

/-- The stores of the body at a later point into the output's staging buffer cover it. -/
theorem cover2_B_4 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x257.Idx) :
    ∃ pc ∈ (kernelRun2_B c i arg1 harg1 arg2 harg2 arg3 harg3 arg4 harg4 arg5 harg5 arg6 harg6 arg7 harg7 hc0 x0 x1 x2 x3 xs0 xs1).1, y ∈ pc.1.set :=
  View.cover_of_tiledL (kernelRun2_B c i arg1 harg1 arg2 harg2 arg3 harg3 arg4 harg4 arg5 harg5 arg6 harg6 arg7 harg7 hc0 x0 x1 x2 x3 xs0 xs1).1 S1024x257.size (by sl_kernel_rfl) y

/-- What the body at a later point leaves in the output's staging buffer: its stores read back. -/
def out2_B_4 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x257 .f32 :=
  VO2_4.read (Elt F) (VO2_4.writes (Elt F) VO2_4.junk (kernelRun2_B c i arg1 harg1 arg2 harg2 arg3 harg3 arg4 harg4 arg5 harg5 arg6 harg6 arg7 harg7 hc0 x0 x1 x2 x3 xs0 xs1).1)

/-- The stores of the body at a later point into the running sums cover them. -/
theorem scover2_B_0 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x257.Idx) :
    ∃ pc ∈ (kernelRun2_B c i arg1 harg1 arg2 harg2 arg3 harg3 arg4 harg4 arg5 harg5 arg6 harg6 arg7 harg7 hc0 x0 x1 x2 x3 xs0 xs1).2.1, y ∈ pc.1.set :=
  View.cover_of_tiledL (kernelRun2_B c i arg1 harg1 arg2 harg2 arg3 harg3 arg4 harg4 arg5 harg5 arg6 harg6 arg7 harg7 hc0 x0 x1 x2 x3 xs0 xs1).2.1 S1024x257.size (by sl_kernel_rfl) y

/-- What the body at a later point leaves in the running sums: its stores read back. -/
def sout2_B_0 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x257 .f32 :=
  VS2_0.read (Elt F) (VS2_0.writes (Elt F) VS2_0.junk (kernelRun2_B c i arg1 harg1 arg2 harg2 arg3 harg3 arg4 harg4 arg5 harg5 arg6 harg6 arg7 harg7 hc0 x0 x1 x2 x3 xs0 xs1).2.1)

/-- The stores of the body at a later point into the running counts cover them. -/
theorem scover2_B_1 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x1.Idx) :
    ∃ pc ∈ (kernelRun2_B c i arg1 harg1 arg2 harg2 arg3 harg3 arg4 harg4 arg5 harg5 arg6 harg6 arg7 harg7 hc0 x0 x1 x2 x3 xs0 xs1).2.2.1, y ∈ pc.1.set :=
  View.cover_of_tiledL (kernelRun2_B c i arg1 harg1 arg2 harg2 arg3 harg3 arg4 harg4 arg5 harg5 arg6 harg6 arg7 harg7 hc0 x0 x1 x2 x3 xs0 xs1).2.2.1 S1024x1.size (by sl_kernel_rfl) y

/-- What the body at a later point leaves in the running counts: its stores read back. -/
def sout2_B_1 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x1 .f32 :=
  VS2_1.read (Elt F) (VS2_1.writes (Elt F) VS2_1.junk (kernelRun2_B c i arg1 harg1 arg2 harg2 arg3 harg3 arg4 harg4 arg5 harg5 arg6 harg6 arg7 harg7 hc0 x0 x1 x2 x3 xs0 xs1).2.2.1)

/-! ## What the buffers hold after each point -/

/-- The accumulation: the output's staging buffer, the running sums and the running counts after the body at point
    `n` — at the first point the case that zeroes the scratch first, at every later point the other case run over
    what the point before left in the two scratch buffers. -/
def outsAt2 (c : Dev nD) : (n : ℕ) → n < cfg2.N → Vec F S1024x257 .f32 × Vec F S1024x257 .f32 × Vec F S1024x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩))
  | n + 1, hn => (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2)

/-- `outsAt2` at the first point. -/
theorem outsAt2_A (c : Dev nD) (t : Fin cfg2.N) (h0 : t.val = 0) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t) (iblk2 V c 3 t)) := by
  obtain ⟨n, hn⟩ := t
  cases n with
  | zero => exact rfl
  | succ n => exact absurd h0 (Nat.succ_ne_zero n)

/-- `outsAt2` at a later point: over what the point before left. -/
theorem outsAt2_B (c : Dev nD) (t : Fin cfg2.N) (h0 : ¬t.val = 0) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd rfl h0
  | succ n => exact rfl

/-! ## The region invariant -/

/-- The region invariant before position `n`: before the first point the class's (every scratch buffer at
    anything); afterwards the two scratch buffers at what the point before left in them, the other scoped buffers
    unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the two scratch buffers at that point's contents. -/
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2)) ∗ restBut2 (F := F) c) ∗ (∃ r, prngReg c r)) := rfl

/-- Before a point that is not the first: the two scratch buffers at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2)) ∗ restBut2 (F := F) c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 4800000 in
/-- The body at any point: the inputs' memrefs hold their blocks; the closed form of the condition says which case
    the point is in; the invariant hands the body the two scratch buffers (at anything at the first point, at what
    the point before left afterwards) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4]
  by_cases h0 : t.val = 0
  · rw [outsAt2_A V c t h0]
    unfold out2_A_4 sout2_A_0 sout2_A_1; (try dsimp only)
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ _ _ ((hcond2_0 t).mpr h0) (iblk2 V c 0 t) (iblk2 V c 1 t) (iblk2 V c 2 t) (iblk2 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A_4 c _ _ _ _ _ _ _ _ _ _ _ _ _ _ _ _ _ _ _ _)
  · rw [outsAt2_B V c t h0]
    unfold out2_B_4 sout2_B_0 sout2_B_1; (try dsimp only)
    rw [PhiS2_castSucc V c t, PhiS2_pos V c _ _ h0]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ _ _ (fun h => h0 ((hcond2_0 t).mp h)) (iblk2 V c 0 t) (iblk2 V c 1 t) (iblk2 V c 2 t) (iblk2 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _)
          · unfold owns; iexists _; isplitr
            swap; · iexact HS1
            ipureintro; exact View.read_writes_of_cover _ _ _ _ _ (scover2_B_1 c _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch buffers' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 512 := N_2; omega)

end Cert.Kernel.Hand

end
-- ==== Proof.K.R3Runs.lean ====
/- REGION 3 (the residual kernel on the target rows, pipeline 3): what its runs share. Each window's block at a
   point, read off the region's entry contents `V`; the one branch condition of the body (the first grid point),
   in closed form over the grid; the staging and scratch memrefs the body is called with; the region invariant
   opened at the two scratch buffers the kernel carries between points (the running sums of residuals and the
   running counts). -/
import proofs.«430159_j88974542504689_1_alg».proof.Proof.Gen.Kernel.Launch
import proofs.«430159_j88974542504689_1_alg».proof.Proof.Gen.Kernel.Skeleton
import proofs.«430159_j88974542504689_1_alg».proof.Proof.Gen.Kernel.Points
import Idealize.ShloMosaic.Lib.Pipeline.FrameBody
import Idealize.ShloMosaic.Lib.Ring
import Idealize.ShloMosaic.Lib.Tactic

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of rows at point `t` (window 0), at its literal type. -/
abbrev xblk3 (c : Dev nD) (t : Fin cfg3.N) : Vec F S512x257 .f32 := iblk3 V c 0 t
/-- The segment indices of the point's rows as a row (window 1), at its literal type. -/
abbrev idrow3 (c : Dev nD) (t : Fin cfg3.N) : Vec F S1x512 .i32 := iblk3 V c 1 t
/-- The same indices as a column (window 2), at its literal type. -/
abbrev idcol3 (c : Dev nD) (t : Fin cfg3.N) : Vec F S512x1 .i32 := iblk3 V c 2 t
/-- The anchors, one row per segment (window 3: the same block at every point), at its literal type. -/
abbrev anchor3 (c : Dev nD) (t : Fin cfg3.N) : Vec F S1024x257 .f32 := iblk3 V c 3 t

/-- Input window 0's current staging buffer holds its block at every point, for any proof data whose array is
    `V`'s (`hA`) and whose body leaves the block in place (`hafter`): the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The same for input window 3, whose block index is constant: fetched at the first point only, its buffer
    holds the block at every later point because the body leaves it in place and the index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's one conditional, from the grid coordinates: the point's coordinate is zero. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-! ## The memrefs the body is called with -/

/-- The staging buffer of the output window, through which its contents are stated. -/
abbrev VO3_4 : View sig .tc .vmem S1024x257 .f32 := (Memref.whole cc3_stg4_0 : Memref sig .tc .vmem S1024x257 .f32).view
/-- Each window's current staging memref at point `t`, spelled as the pipeline passes it, and its wholeness. -/
abbrev ms3_0 (t : Fin cfg3.N) : Memref sig .tc .vmem S512x257 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x257 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x257 .f32 := win3_4.stage (cfg3.slots t 4)
abbrev hs3_4 (t : Fin cfg3.N) : (ms3_4 t).IsWhole := hstage3_4 ((cfg3.slots t 4).cast nbuf3_4)
/-- The scratch operands: whole scoped buffers of the kernel's own — the running sums and the running counts. -/
abbrev scM3_0 : Memref sig .tc .vmem S1024x257 .f32 := Memref.whole cc3_scratch0
abbrev scM3_1 : Memref sig .tc .vmem S1024x1 .f32 := Memref.whole cc3_scratch1
/-- The two as views: what they hold is stated through them. -/
abbrev VS3_0 : View sig .tc .vmem S1024x257 .f32 := scM3_0.view
abbrev VS3_1 : View sig .tc .vmem S1024x1 .f32 := scM3_1.view

/-- The scoped buffers of the core that are neither a staging buffer of this pipeline nor one of its two scratch
    buffers, at some contents each: carried through the region unopened. -/
abbrev restBut3 (c : Dev nD) : sProp 𝕄 :=
  Pipeline.scopedRestBut (Ix := Unit) (Name := ℕ) (U := UR sig nD τ) (Lvl := ℕ) (Val := Elt F) spec3 c [cc3_scratch0, cc3_scratch1]

/-- The class invariant with the two scratch operands as memrefs owned at some contents, the other scoped buffers
    unopened, and the generator register at some state: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ restBut3 (F := F) c) ∗ (∃ r, prngReg c r)) := by
  unfold Pipeline.ΦA; rw [scopedRest3_split]; simp only [scM3_0, scM3_1, owns_whole]; try rfl

end Cert.Kernel.Hand

end
-- ==== Proof.K.R3RunA.lean ====
/- REGION 3, the body at the FIRST grid point (the conditional taken: both scratch buffers are zeroed before they
   are read): the whole body run on any whole memrefs, the four inputs' at given contents, the output's and the two
   scratch buffers' at anything; what each of the three buffers it stores into ends with, as the list of its stores
   (last first), is the witness the run finds. -/
import proofs.«430159_j88974542504689_1_alg».proof.Proof.K.R3Runs

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large)
set_option maxHeartbeats 1000000 in
/-- The stores the body leaves in the output's staging buffer and in the two scratch buffers (last first) at a point
    where the conditional is taken, with the proof that the body runs from the inputs at `x0 … x3`, the other three
    buffers at anything, to the continuation holding the inputs as they were and those three with their stores written. -/
noncomputable def kernelRun3_A (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) :
    Σ' (L4 : List (View.Piece (Elt F) S1024x257 .f32)), Σ' (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__residual_kernel i arg1 harg1 arg2 harg2 arg3 harg3 arg4 harg4 arg5 harg5 arg6 harg6 arg7 harg7) K } := by
  refine ⟨?_, ?_, ?_, fun E K => ?run⟩
  case run =>
    simp only [cc3__residual_kernel_eq_skeleton]; unfold cc3__residual_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Hand

end
-- ==== Proof.K.R3RunB.lean ====
/- REGION 3, the body at every LATER grid point (the conditional not taken: the two scratch buffers hold what the
   point before left): the whole body run on any whole memrefs, the four inputs' and the two scratch buffers' at
   given contents, the output's at anything; the stores each of the three buffers ends with are the witness. -/
import proofs.«430159_j88974542504689_1_alg».proof.Proof.K.R3RunA

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large)
set_option maxHeartbeats 1000000 in
/-- The stores the body leaves in the output's staging buffer and in the two scratch buffers (last first) at a point
    where the conditional is not taken, with the proof that the body runs from the inputs at `x0 … x3`, the scratch
    buffers at `xs0`, `xs1`, the output's buffer at anything, to the continuation holding the inputs as they were
    and the three with their stores written. -/
noncomputable def kernelRun3_B (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) :
    Σ' (L4 : List (View.Piece (Elt F) S1024x257 .f32)), Σ' (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__residual_kernel i arg1 harg1 arg2 harg2 arg3 harg3 arg4 harg4 arg5 harg5 arg6 harg6 arg7 harg7) K } := by
  refine ⟨?_, ?_, ?_, fun E K => ?run⟩
  case run =>
    simp only [cc3__residual_kernel_eq_skeleton]; unfold cc3__residual_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Hand

end
-- ==== Proof.K.R3Frame.lean ====
/- REGION 3 (the residual kernel on the target rows, pipeline 3), the frame side at the entry contents `V`: what
   the output's staging buffer and the two scratch buffers hold after each grid point (the running sums of
   residuals, the running counts and their quotient), the region invariant that carries the two scratch buffers
   from point to point, the pipeline's proof data and the body obligation at every point. -/
import proofs.«430159_j88974542504689_1_alg».proof.Proof.K.R3RunB

-- membership in a rectangle of the kernel's extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case of the body leaves -/

/-- The stores of the body at the first point into the output's staging buffer cover it. -/
theorem cover3_A_4 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) (y : S1024x257.Idx) :
    ∃ pc ∈ (kernelRun3_A c i arg1 harg1 arg2 harg2 arg3 harg3 arg4 harg4 arg5 harg5 arg6 harg6 arg7 harg7 hc0 x0 x1 x2 x3).1, y ∈ pc.1.set :=
  View.cover_of_tiledL (kernelRun3_A c i arg1 harg1 arg2 harg2 arg3 harg3 arg4 harg4 arg5 harg5 arg6 harg6 arg7 harg7 hc0 x0 x1 x2 x3).1 S1024x257.size (by sl_kernel_rfl) y

/-- What the body at the first point leaves in the output's staging buffer: its stores read back. -/
def out3_A_4 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) : Vec F S1024x257 .f32 :=
  VO3_4.read (Elt F) (VO3_4.writes (Elt F) VO3_4.junk (kernelRun3_A c i arg1 harg1 arg2 harg2 arg3 harg3 arg4 harg4 arg5 harg5 arg6 harg6 arg7 harg7 hc0 x0 x1 x2 x3).1)

/-- The stores of the body at the first point into the running sums cover them. -/
theorem scover3_A_0 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) (y : S1024x257.Idx) :
    ∃ pc ∈ (kernelRun3_A c i arg1 harg1 arg2 harg2 arg3 harg3 arg4 harg4 arg5 harg5 arg6 harg6 arg7 harg7 hc0 x0 x1 x2 x3).2.1, y ∈ pc.1.set :=
  View.cover_of_tiledL (kernelRun3_A c i arg1 harg1 arg2 harg2 arg3 harg3 arg4 harg4 arg5 harg5 arg6 harg6 arg7 harg7 hc0 x0 x1 x2 x3).2.1 S1024x257.size (by sl_kernel_rfl) y

/-- What the body at the first point leaves in the running sums: its stores read back. -/
def sout3_A_0 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) : Vec F S1024x257 .f32 :=
  VS3_0.read (Elt F) (VS3_0.writes (Elt F) VS3_0.junk (kernelRun3_A c i arg1 harg1 arg2 harg2 arg3 harg3 arg4 harg4 arg5 harg5 arg6 harg6 arg7 harg7 hc0 x0 x1 x2 x3).2.1)

/-- The stores of the body at the first point into the running counts cover them. -/
theorem scover3_A_1 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) (y : S1024x1.Idx) :
    ∃ pc ∈ (kernelRun3_A c i arg1 harg1 arg2 harg2 arg3 harg3 arg4 harg4 arg5 harg5 arg6 harg6 arg7 harg7 hc0 x0 x1 x2 x3).2.2.1, y ∈ pc.1.set :=
  View.cover_of_tiledL (kernelRun3_A c i arg1 harg1 arg2 harg2 arg3 harg3 arg4 harg4 arg5 harg5 arg6 harg6 arg7 harg7 hc0 x0 x1 x2 x3).2.2.1 S1024x1.size (by sl_kernel_rfl) y

/-- What the body at the first point leaves in the running counts: its stores read back. -/
def sout3_A_1 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) : Vec F S1024x1 .f32 :=
  VS3_1.read (Elt F) (VS3_1.writes (Elt F) VS3_1.junk (kernelRun3_A c i arg1 harg1 arg2 harg2 arg3 harg3 arg4 harg4 arg5 harg5 arg6 harg6 arg7 harg7 hc0 x0 x1 x2 x3).2.2.1)

/-- The stores of the body at a later point into the output's staging buffer cover it. -/
theorem cover3_B_4 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x257.Idx) :
    ∃ pc ∈ (kernelRun3_B c i arg1 harg1 arg2 harg2 arg3 harg3 arg4 harg4 arg5 harg5 arg6 harg6 arg7 harg7 hc0 x0 x1 x2 x3 xs0 xs1).1, y ∈ pc.1.set :=
  View.cover_of_tiledL (kernelRun3_B c i arg1 harg1 arg2 harg2 arg3 harg3 arg4 harg4 arg5 harg5 arg6 harg6 arg7 harg7 hc0 x0 x1 x2 x3 xs0 xs1).1 S1024x257.size (by sl_kernel_rfl) y

/-- What the body at a later point leaves in the output's staging buffer: its stores read back. -/
def out3_B_4 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x257 .f32 :=
  VO3_4.read (Elt F) (VO3_4.writes (Elt F) VO3_4.junk (kernelRun3_B c i arg1 harg1 arg2 harg2 arg3 harg3 arg4 harg4 arg5 harg5 arg6 harg6 arg7 harg7 hc0 x0 x1 x2 x3 xs0 xs1).1)

/-- The stores of the body at a later point into the running sums cover them. -/
theorem scover3_B_0 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x257.Idx) :
    ∃ pc ∈ (kernelRun3_B c i arg1 harg1 arg2 harg2 arg3 harg3 arg4 harg4 arg5 harg5 arg6 harg6 arg7 harg7 hc0 x0 x1 x2 x3 xs0 xs1).2.1, y ∈ pc.1.set :=
  View.cover_of_tiledL (kernelRun3_B c i arg1 harg1 arg2 harg2 arg3 harg3 arg4 harg4 arg5 harg5 arg6 harg6 arg7 harg7 hc0 x0 x1 x2 x3 xs0 xs1).2.1 S1024x257.size (by sl_kernel_rfl) y

/-- What the body at a later point leaves in the running sums: its stores read back. -/
def sout3_B_0 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x257 .f32 :=
  VS3_0.read (Elt F) (VS3_0.writes (Elt F) VS3_0.junk (kernelRun3_B c i arg1 harg1 arg2 harg2 arg3 harg3 arg4 harg4 arg5 harg5 arg6 harg6 arg7 harg7 hc0 x0 x1 x2 x3 xs0 xs1).2.1)

/-- The stores of the body at a later point into the running counts cover them. -/
theorem scover3_B_1 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x1.Idx) :
    ∃ pc ∈ (kernelRun3_B c i arg1 harg1 arg2 harg2 arg3 harg3 arg4 harg4 arg5 harg5 arg6 harg6 arg7 harg7 hc0 x0 x1 x2 x3 xs0 xs1).2.2.1, y ∈ pc.1.set :=
  View.cover_of_tiledL (kernelRun3_B c i arg1 harg1 arg2 harg2 arg3 harg3 arg4 harg4 arg5 harg5 arg6 harg6 arg7 harg7 hc0 x0 x1 x2 x3 xs0 xs1).2.2.1 S1024x1.size (by sl_kernel_rfl) y

/-- What the body at a later point leaves in the running counts: its stores read back. -/
def sout3_B_1 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x1 .f32 :=
  VS3_1.read (Elt F) (VS3_1.writes (Elt F) VS3_1.junk (kernelRun3_B c i arg1 harg1 arg2 harg2 arg3 harg3 arg4 harg4 arg5 harg5 arg6 harg6 arg7 harg7 hc0 x0 x1 x2 x3 xs0 xs1).2.2.1)

/-! ## What the buffers hold after each point -/

/-- The accumulation: the output's staging buffer, the running sums and the running counts after the body at point
    `n` — at the first point the case that zeroes the scratch first, at every later point the other case run over
    what the point before left in the two scratch buffers. -/
def outsAt3 (c : Dev nD) : (n : ℕ) → n < cfg3.N → Vec F S1024x257 .f32 × Vec F S1024x257 .f32 × Vec F S1024x1 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr rfl) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr rfl) (iblk3 V c 0 ⟨0, hn⟩) (iblk3 V c 1 ⟨0, hn⟩) (iblk3 V c 2 ⟨0, hn⟩) (iblk3 V c 3 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr rfl) (iblk3 V c 0 ⟨0, hn⟩) (iblk3 V c 1 ⟨0, hn⟩) (iblk3 V c 2 ⟨0, hn⟩) (iblk3 V c 3 ⟨0, hn⟩))
  | n + 1, hn => (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) (fun h => Nat.succ_ne_zero n ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) (fun h => Nat.succ_ne_zero n ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) (fun h => Nat.succ_ne_zero n ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2)

/-- `outsAt3` at the first point. -/
theorem outsAt3_A (c : Dev nD) (t : Fin cfg3.N) (h0 : t.val = 0) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (iblk3 V c 0 t) (iblk3 V c 1 t) (iblk3 V c 2 t) (iblk3 V c 3 t), sout3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (iblk3 V c 0 t) (iblk3 V c 1 t) (iblk3 V c 2 t) (iblk3 V c 3 t)) := by
  obtain ⟨n, hn⟩ := t
  cases n with
  | zero => exact rfl
  | succ n => exact absurd h0 (Nat.succ_ne_zero n)

/-- `outsAt3` at a later point: over what the point before left. -/
theorem outsAt3_B (c : Dev nD) (t : Fin cfg3.N) (h0 : ¬t.val = 0) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2, sout3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact rfl

/-! ## The region invariant -/

/-- The region invariant before position `n`: before the first point the class's (every scratch buffer at
    anything); afterwards the two scratch buffers at what the point before left in them, the other scoped buffers
    unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the two scratch buffers at that point's contents. -/
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2)) ∗ restBut3 (F := F) c) ∗ (∃ r, prngReg c r)) := rfl

/-- Before a point that is not the first: the two scratch buffers at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2)) ∗ restBut3 (F := F) c) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

set_option maxHeartbeats 4800000 in
/-- The body at any point: the inputs' memrefs hold their blocks; the closed form of the condition says which case
    the point is in; the invariant hands the body the two scratch buffers (at anything at the first point, at what
    the point before left afterwards) and takes them back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3, after3_4]
  by_cases h0 : t.val = 0
  · rw [outsAt3_A V c t h0]
    unfold out3_A_4 sout3_A_0 sout3_A_1; (try dsimp only)
    rw [PhiS3_castSucc V c t, PhiS3_zero V c _ _ h0, PhiA3_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ _ _ ((hcond3_0 t).mpr h0) (iblk3 V c 0 t) (iblk3 V c 1 t) (iblk3 V c 2 t) (iblk3 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _ _ _)
          · unfold owns; iexists _; isplitr
            swap; · iexact HS1
            ipureintro; exact View.read_writes_of_cover _ _ _ _ _ (scover3_A_1 c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_A_4 c _ _ _ _ _ _ _ _ _ _ _ _ _ _ _ _ _ _ _ _)
  · rw [outsAt3_B V c t h0]
    unfold out3_B_4 sout3_B_0 sout3_B_1; (try dsimp only)
    rw [PhiS3_castSucc V c t, PhiS3_pos V c _ _ h0]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ _ _ (fun h => h0 ((hcond3_0 t).mp h)) (iblk3 V c 0 t) (iblk3 V c 1 t) (iblk3 V c 2 t) (iblk3 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _)
          · unfold owns; iexists _; isplitr
            swap; · iexact HS1
            ipureintro; exact View.read_writes_of_cover _ _ _ _ _ (scover3_B_1 c _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B_4 c _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch buffers' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 512 := N_3; omega)

end Cert.Kernel.Hand

end
-- ==== Proof.K.R4Frame.lean ====
/- REGION 4 of @main (custom_call 4, the decode kernel `cc4__decode_kernel` with its part `k4_part1`, pipeline `cfg4`,
   256 grid points), frame side, at a PARAMETER `V` — the TensorCore's buffer contents when the region is entered.

   The body loads each of its seven input windows' staging buffers whole (0 the x block 1024×256, 1 the id column
   1024×1, 2 the table 1024×269, 3–6 the two decoder layers' weights and biases), computes, and stores once over the
   whole of the output window's buffer (7, 1024×2): what it leaves there is one closed function `out4_7` of the seven
   input blocks, and every input buffer holds its window's block at every point — windows 0 and 1 are fetched at every
   point, windows 2–6 have a constant block index and are fetched at point 0 only, where "not fetched" means "the block
   index did not move", so the buffer still holds the block. From these: the proof data `dat4` of the pipeline and its
   body obligation at every point. Generic in the float carrier `F`. -/
import proofs.«430159_j88974542504689_1_alg».proof.Proof.Gen.Kernel.Launch
import proofs.«430159_j88974542504689_1_alg».proof.Proof.Gen.Kernel.Skeleton
import proofs.«430159_j88974542504689_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the x block; fetched at every point) has its current staging buffer at its block at
    every point, for ANY proof data whose array is `V`'s (`hA`) and whose body leaves the block in place (`hafter`);
    the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 (the id column; fetched at every point) has its current staging buffer at its block at
    every point, for ANY proof data whose array is `V`'s (`hA`) and whose body leaves the block in place (`hafter`);
    the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 (the table; of constant block index, fetched at point 0 only: at a later point the index has not moved and the buffer still holds the block) has its current staging buffer at its block at
    every point, for ANY proof data whose array is `V`'s (`hA`) and whose body leaves the block in place (`hafter`);
    the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 (the first decoder weight; of constant block index, fetched at point 0 only: at a later point the index has not moved and the buffer still holds the block) has its current staging buffer at its block at
    every point, for ANY proof data whose array is `V`'s (`hA`) and whose body leaves the block in place (`hafter`);
    the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 (the first decoder bias; of constant block index, fetched at point 0 only: at a later point the index has not moved and the buffer still holds the block) has its current staging buffer at its block at
    every point, for ANY proof data whose array is `V`'s (`hA`) and whose body leaves the block in place (`hafter`);
    the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5 (the second decoder weight; of constant block index, fetched at point 0 only: at a later point the index has not moved and the buffer still holds the block) has its current staging buffer at its block at
    every point, for ANY proof data whose array is `V`'s (`hA`) and whose body leaves the block in place (`hafter`);
    the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6 (the second decoder bias; of constant block index, fetched at point 0 only: at a later point the index has not moved and the buffer still holds the block) has its current staging buffer at its block at
    every point, for ANY proof data whose array is `V`'s (`hA`) and whose body leaves the block in place (`hafter`);
    the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every buffer through its whole rectangle -/

abbrev r4_0 : Rect S1024x256 := Rect.unit (s := S1024x256) ![0, 0] S1024x256.size inb_S1024x256_S1024x256_0_0
abbrev r4_1 : Rect S1024x1 := Rect.unit (s := S1024x1) ![0, 0] S1024x1.size inb_S1024x1_S1024x1_0_0
abbrev r4_2 : Rect S1024x269 := Rect.unit (s := S1024x269) ![0, 0] S1024x269.size inb_S1024x269_S1024x269_0_0
abbrev r4_3 : Rect S256x128 := Rect.unit (s := S256x128) ![0, 0] S256x128.size inb_S256x128_S256x128_0_0
abbrev r4_4 : Rect S1x128 := Rect.unit (s := S1x128) ![0, 0] S1x128.size inb_S1x128_S1x128_0_0
abbrev r4_5 : Rect S128x8 := Rect.unit (s := S128x8) ![0, 0] S128x8.size inb_S128x8_S128x8_0_0
abbrev r4_6 : Rect S1x8 := Rect.unit (s := S1x8) ![0, 0] S1x8.size inb_S1x8_S1x8_0_0
abbrev r4_7 : Rect S1024x2 := Rect.unit (s := S1024x2) ![0, 0] S1024x2.size inb_S1024x2_S1024x2_0_0

/-! ## What the body leaves in the output window's buffer -/

/-- Window 7's staging buffer after the body, from the seven input windows' blocks: its one store as a piece over
    the whole buffer, the payload the skeleton's (`k4_pay1` of the part's results `k4_pay3` … `k4_pay10` of the loads). -/
def out4_7 (x0 : Vec F S1024x256 .f32) (x1 : Vec F S1024x1 .i32) (x2 : Vec F S1024x269 .f32) (x3 : Vec F S256x128 .f32) (x4 : Vec F S1x128 .f32) (x5 : Vec F S128x8 .f32) (x6 : Vec F S1x8 .f32) : Vec F S1024x2 .f32 :=
  View.canon [⟨r4_7, k4_pay1 (k4_pay3 (View.ld x1 r4_1) (View.ld x2 r4_2)) (k4_pay4 (View.ld x1 r4_1) (View.ld x2 r4_2)) (k4_pay5 (View.ld x1 r4_1) (View.ld x2 r4_2)) (k4_pay6 (View.ld x1 r4_1) (View.ld x2 r4_2))
      (k4_pay8 (View.ld x1 r4_1) (View.ld x2 r4_2) (View.ld x0 r4_0) (View.ld x3 r4_3) (View.ld x4 r4_4) (View.ld x5 r4_5) (View.ld x6 r4_6))
      (k4_pay9 (View.ld x1 r4_1) (View.ld x2 r4_2) (View.ld x0 r4_0) (View.ld x3 r4_3) (View.ld x4 r4_4) (View.ld x5 r4_5) (View.ld x6 r4_6))
      (Scalar.ofBits .f32 0x00000000#32)
      (k4_pay10 (View.ld x1 r4_1) (View.ld x2 r4_2) (View.ld x0 r4_0) (View.ld x3 r4_3) (View.ld x4 r4_4) (View.ld x5 r4_5) (View.ld x6 r4_6))⟩]

/-- The zero offsets of a rank-2 whole-buffer access, as the constant function. -/
theorem offsets_zero2 : (![0, 0] : Fin 2 → Nat) = fun _ => 0 := funext fun a => by
  match a with
  | ⟨0, _⟩ => rfl
  | ⟨1, _⟩ => rfl

/-- The one store covers the buffer and every load reads its buffer whole, so what the body leaves is the payload
    of the blocks themselves. -/
theorem out4_7_eq (x0 : Vec F S1024x256 .f32) (x1 : Vec F S1024x1 .i32) (x2 : Vec F S1024x269 .f32) (x3 : Vec F S256x128 .f32) (x4 : Vec F S1x128 .f32) (x5 : Vec F S128x8 .f32) (x6 : Vec F S1x8 .f32) :
    out4_7 x0 x1 x2 x3 x4 x5 x6 =
      k4_pay1 (k4_pay3 x1 x2) (k4_pay4 x1 x2) (k4_pay5 x1 x2) (k4_pay6 x1 x2) (k4_pay8 x1 x2 x0 x3 x4 x5 x6) (k4_pay9 x1 x2 x0 x3 x4 x5 x6)
      (Scalar.ofBits .f32 0x00000000#32) (k4_pay10 x1 x2 x0 x3 x4 x5 x6) := by
  unfold out4_7
  rw [View.canon_unit_zero offsets_zero2]
  simp only [View.ld_unit_zero (S := S1024x256) offsets_zero2, View.ld_unit_zero (S := S1024x1) offsets_zero2,
    View.ld_unit_zero (S := S1024x269) offsets_zero2, View.ld_unit_zero (S := S256x128) offsets_zero2,
    View.ld_unit_zero (S := S1x128) offsets_zero2, View.ld_unit_zero (S := S128x8) offsets_zero2,
    View.ld_unit_zero (S := S1x8) offsets_zero2]

/-- Its store tiles the buffer, so it covers it. -/
theorem cover4_7 (p0 : Vec F S1024x2 .f32) (y : S1024x2.Idx) :
    ∃ pc ∈ ([⟨r4_7, p0⟩] : List (View.Piece (Elt F) S1024x2 .f32)), y ∈ pc.1.set :=
  ⟨_, List.mem_singleton_self _, View.mem_set_unit_zero (S := S1024x2) offsets_zero2 inb_S1024x2_S1024x2_0_0 y⟩

/-! ## The body's triple -/

set_option maxHeartbeats 1000000 in
/-- The kernel body on whole staging memrefs, the inputs' at read contents `xW` and the output's at anything, runs to
    the continuation holding the inputs' as they were and the output's at `out4_7` of the inputs': the printed functions
    are their skeletons, run operation by operation through the part call; the load of the output buffer ahead of the
    store reads a value nothing uses. -/
theorem sound_kernel4 (c : Dev nD) (E : Set ℕ) (i : grid4.Coords)
    (arg1 : Memref sig .tc .vmem S1024x256 .f32) (harg1 : arg1.IsWhole)
    (arg2 : Memref sig .tc .vmem S1024x1 .i32) (harg2 : arg2.IsWhole)
    (arg3 : Memref sig .tc .vmem S1024x269 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S128x8 .f32) (harg6 : arg6.IsWhole)
    (arg7 : Memref sig .tc .vmem S1x8 .f32) (harg7 : arg7.IsWhole)
    (arg8 : Memref sig .tc .vmem S1024x2 .f32) (harg8 : arg8.IsWhole)
    (x0 : Vec F S1024x256 .f32) (x1 : Vec F S1024x1 .i32) (x2 : Vec F S1024x269 .f32) (x3 : Vec F S256x128 .f32) (x4 : Vec F S1x128 .f32) (x5 : Vec F S128x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5 x6)) -∗ K ⟨⟩))
      ⊢ wp frame (wpE (defs₀ (F := F)) Variants.none c none) E (cc4__decode_kernel i arg1 harg1 arg2 harg2 arg3 harg3 arg4 harg4 arg5 harg5 arg6 harg6 arg7 harg7 arg8 harg8) K := by
  simp only [cc4__decode_kernel_eq_skeleton]; unfold cc4__decode_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover4_7 _)

/-! ## The pipeline's proof data -/

/-- The proof data of pipeline 4 on core `c`: the arrays as the region finds them (`V`); after the body at point `t`
    each input's buffer at its block and the output's at `out4_7` of the seven input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- The invariant at the region's entry is the class's, -/
theorem hin4 (c : Dev nD) : Pipeline.ΦA spec4 c ⊢ (dat4 V c).Φ 0 := .rfl
/-- and at its exit. -/
theorem hout4 (c : Dev nD) : (dat4 V c).Φ (Fin.last cfg4.N) ⊢ Pipeline.ΦA spec4 c := .rfl

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.K.RunDefs.lean ====
import proofs.«430159_j88974542504689_1_alg».proof.Proof.Gen.Kernel.Regions
import proofs.«430159_j88974542504689_1_alg».proof.Proof.K.R0Frame
import proofs.«430159_j88974542504689_1_alg».proof.Proof.K.R1Frame
import proofs.«430159_j88974542504689_1_alg».proof.Proof.K.R2Frame
import proofs.«430159_j88974542504689_1_alg».proof.Proof.K.R3Frame
import proofs.«430159_j88974542504689_1_alg».proof.Proof.K.R4Frame
import Idealize.ShloMosaic.Lib.Pipeline.Kit

-- decided memberships over the program's 272 references recurse past the default depth
set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-! ## The regions' outputs, pinned one after the other

Between two items of @main core `c` holds every unscoped buffer at a valuation: the launch contents, then the host
stretches' results (`StableHlo.after`) and, after a kernel region, the region's output array at what the pipeline's
write-backs leave in it (`Dat.arrAt … N` of the region's proof data at the valuation the region is entered from), every
other buffer as the region found it. `UJ` is that valuation after item `J - 1`, `oJ` the output array a region leaves. -/

/-- A valuation read at the TensorCore's references. -/
abbrev tcOf (W : Dev nD → Valuation τ sig (Elt F)) : (c : Dev nD) → (b : Ref sig .tc) → Buf (Elt F) ((c : Thread nD τ).loc b) :=
  fun c b => W c b

/-- After the first host stretch: what region 0 is entered from. -/
abbrev U1 (c : Dev nD) : Valuation τ sig (Elt F) := V1 m c
/-- What region 0 leaves in its output array `main_v3`: the write-backs of all its points folded over the entry contents. -/
def o2 (c : Dev nD) : Buf (Elt F) ((c : Thread nD τ).loc main_v3) := (dat0 (tcOf (U1 m)) c).arrAt 2 cfg0.N
/-- After region 0: `main_v3` at what the region leaves, every other buffer as entered. -/
def U2 (c : Dev nD) : Valuation τ sig (Elt F) := Function.update (U1 m c) main_v3 (o2 m c)
/-- After the host stretch `hostOps1`. -/
def U3 (c : Dev nD) : Valuation τ sig (Elt F) := StableHlo.after hostOps1 (U2 m c)
/-- What region 1 leaves in its output array `main_v5`: the write-backs of all its points folded over the entry contents. -/
def o4 (c : Dev nD) : Buf (Elt F) ((c : Thread nD τ).loc main_v5) := (dat1 (tcOf (U3 m)) c).arrAt 2 cfg1.N
/-- After region 1: `main_v5` at what the region leaves, every other buffer as entered. -/
def U4 (c : Dev nD) : Valuation τ sig (Elt F) := Function.update (U3 m c) main_v5 (o4 m c)
/-- After the host stretch `hostOps2`. -/
def U5 (c : Dev nD) : Valuation τ sig (Elt F) := StableHlo.after hostOps2 (U4 m c)
/-- What region 2 leaves in its output array `main_v8`: the write-backs of all its points folded over the entry contents. -/
def o6 (c : Dev nD) : Buf (Elt F) ((c : Thread nD τ).loc main_v8) := (dat2 (tcOf (U5 m)) c).arrAt 4 cfg2.N
/-- After region 2: `main_v8` at what the region leaves, every other buffer as entered. -/
def U6 (c : Dev nD) : Valuation τ sig (Elt F) := Function.update (U5 m c) main_v8 (o6 m c)
/-- After the host stretch `hostOps3`. -/
def U7 (c : Dev nD) : Valuation τ sig (Elt F) := StableHlo.after hostOps3 (U6 m c)
/-- What region 3 leaves in its output array `main_v11`: the write-backs of all its points folded over the entry contents. -/
def o8 (c : Dev nD) : Buf (Elt F) ((c : Thread nD τ).loc main_v11) := (dat3 (tcOf (U7 m)) c).arrAt 4 cfg3.N
/-- After region 3: `main_v11` at what the region leaves, every other buffer as entered. -/
def U8 (c : Dev nD) : Valuation τ sig (Elt F) := Function.update (U7 m c) main_v11 (o8 m c)
/-- After the host stretch `hostOps4`. -/
def U9 (c : Dev nD) : Valuation τ sig (Elt F) := StableHlo.after hostOps4 (U8 m c)
/-- After the host stretch `hostOps4_1`. -/
def U10 (c : Dev nD) : Valuation τ sig (Elt F) := StableHlo.after hostOps4_1 (U9 m c)
/-- After the host stretch `hostOps4_2`. -/
def U11 (c : Dev nD) : Valuation τ sig (Elt F) := StableHlo.after hostOps4_2 (U10 m c)
/-- After the host stretch `hostOps4_3`. -/
def U12 (c : Dev nD) : Valuation τ sig (Elt F) := StableHlo.after hostOps4_3 (U11 m c)
/-- After the host stretch `hostOps4_4`. -/
def U13 (c : Dev nD) : Valuation τ sig (Elt F) := StableHlo.after hostOps4_4 (U12 m c)
/-- After the host stretch `hostOps4_5`. -/
def U14 (c : Dev nD) : Valuation τ sig (Elt F) := StableHlo.after hostOps4_5 (U13 m c)
/-- After the host stretch `hostOps4_6`. -/
def U15 (c : Dev nD) : Valuation τ sig (Elt F) := StableHlo.after hostOps4_6 (U14 m c)
/-- After the host stretch `hostOps4_7`. -/
def U16 (c : Dev nD) : Valuation τ sig (Elt F) := StableHlo.after hostOps4_7 (U15 m c)
/-- After the host stretch `hostOps4_8`. -/
def U17 (c : Dev nD) : Valuation τ sig (Elt F) := StableHlo.after hostOps4_8 (U16 m c)
/-- After the host stretch `hostOps4_9`. -/
def U18 (c : Dev nD) : Valuation τ sig (Elt F) := StableHlo.after hostOps4_9 (U17 m c)
/-- After the host stretch `hostOps4_10`. -/
def U19 (c : Dev nD) : Valuation τ sig (Elt F) := StableHlo.after hostOps4_10 (U18 m c)
/-- After the host stretch `hostOps4_11`. -/
def U20 (c : Dev nD) : Valuation τ sig (Elt F) := StableHlo.after hostOps4_11 (U19 m c)
/-- After the host stretch `hostOps4_12`. -/
def U21 (c : Dev nD) : Valuation τ sig (Elt F) := StableHlo.after hostOps4_12 (U20 m c)
/-- What region 4 leaves in its output array `main_v91`: the write-backs of all its points folded over the entry contents. -/
def o22 (c : Dev nD) : Buf (Elt F) ((c : Thread nD τ).loc main_v91) := (dat4 (tcOf (U21 m)) c).arrAt 7 cfg4.N
/-- After region 4: `main_v91` at what the region leaves, every other buffer as entered. -/
def U22 (c : Dev nD) : Valuation τ sig (Elt F) := Function.update (U21 m c) main_v91 (o22 m c)
/-- After the host stretch `hostOps5`. -/
def U23 (c : Dev nD) : Valuation τ sig (Elt F) := StableHlo.after hostOps5 (U22 m c)

/-- The contents the regions leave, as the family the generated valuations `Gen.VJ` are written over: at a region's
    exit index and its output array the pinned contents `oJ`; anywhere else (never read) the launch contents. -/
def outs : Outs (F := F) := fun J r c =>
  if J = 2 then Function.update (β := fun r : Ref sig .tc => Buf (Elt F) ((c : Thread nD τ).loc r)) (fun r => m ((c : Thread nD τ).loc r)) main_v3 (o2 m c) r
  else if J = 4 then Function.update (β := fun r : Ref sig .tc => Buf (Elt F) ((c : Thread nD τ).loc r)) (fun r => m ((c : Thread nD τ).loc r)) main_v5 (o4 m c) r
  else if J = 6 then Function.update (β := fun r : Ref sig .tc => Buf (Elt F) ((c : Thread nD τ).loc r)) (fun r => m ((c : Thread nD τ).loc r)) main_v8 (o6 m c) r
  else if J = 8 then Function.update (β := fun r : Ref sig .tc => Buf (Elt F) ((c : Thread nD τ).loc r)) (fun r => m ((c : Thread nD τ).loc r)) main_v11 (o8 m c) r
  else if J = 22 then Function.update (β := fun r : Ref sig .tc => Buf (Elt F) ((c : Thread nD τ).loc r)) (fun r => m ((c : Thread nD τ).loc r)) main_v91 (o22 m c) r
  else m ((c : Thread nD τ).loc r)

theorem outs_o2 (c : Dev nD) : outs m 2 main_v3 c = o2 m c := by
  unfold outs; rw [if_pos rfl, Function.update_self]
theorem outs_o4 (c : Dev nD) : outs m 4 main_v5 c = o4 m c := by
  unfold outs; rw [if_neg (by decide), if_pos rfl, Function.update_self]
theorem outs_o6 (c : Dev nD) : outs m 6 main_v8 c = o6 m c := by
  unfold outs; rw [if_neg (by decide), if_neg (by decide), if_pos rfl, Function.update_self]
theorem outs_o8 (c : Dev nD) : outs m 8 main_v11 c = o8 m c := by
  unfold outs; rw [if_neg (by decide), if_neg (by decide), if_neg (by decide), if_pos rfl, Function.update_self]
theorem outs_o22 (c : Dev nD) : outs m 22 main_v91 c = o22 m c := by
  unfold outs; rw [if_neg (by decide), if_neg (by decide), if_neg (by decide), if_neg (by decide), if_pos rfl, Function.update_self]

/-! ## The generated valuations at these contents are the pinned ones -/

theorem V1_eq (c : Dev nD) : V1 m c = U1 m c := rfl
theorem V2_eq (c : Dev nD) : V2 m (outs m) c = U2 m c := by
  unfold U2; rw [← V1_eq m c, ← outs_o2 m c]
theorem V3_eq (c : Dev nD) : V3 m (outs m) c = U3 m c := by
  unfold U3; rw [← V2_eq m c]
theorem V4_eq (c : Dev nD) : V4 m (outs m) c = U4 m c := by
  unfold U4; rw [← V3_eq m c, ← outs_o4 m c]
theorem V5_eq (c : Dev nD) : V5 m (outs m) c = U5 m c := by
  unfold U5; rw [← V4_eq m c]
theorem V6_eq (c : Dev nD) : V6 m (outs m) c = U6 m c := by
  unfold U6; rw [← V5_eq m c, ← outs_o6 m c]
theorem V7_eq (c : Dev nD) : V7 m (outs m) c = U7 m c := by
  unfold U7; rw [← V6_eq m c]
theorem V8_eq (c : Dev nD) : V8 m (outs m) c = U8 m c := by
  unfold U8; rw [← V7_eq m c, ← outs_o8 m c]
theorem V9_eq (c : Dev nD) : V9 m (outs m) c = U9 m c := by
  unfold U9; rw [← V8_eq m c]
theorem V10_eq (c : Dev nD) : V10 m (outs m) c = U10 m c := by
  unfold U10; rw [← V9_eq m c]
theorem V11_eq (c : Dev nD) : V11 m (outs m) c = U11 m c := by
  unfold U11; rw [← V10_eq m c]
theorem V12_eq (c : Dev nD) : V12 m (outs m) c = U12 m c := by
  unfold U12; rw [← V11_eq m c]
theorem V13_eq (c : Dev nD) : V13 m (outs m) c = U13 m c := by
  unfold U13; rw [← V12_eq m c]
theorem V14_eq (c : Dev nD) : V14 m (outs m) c = U14 m c := by
  unfold U14; rw [← V13_eq m c]
theorem V15_eq (c : Dev nD) : V15 m (outs m) c = U15 m c := by
  unfold U15; rw [← V14_eq m c]
theorem V16_eq (c : Dev nD) : V16 m (outs m) c = U16 m c := by
  unfold U16; rw [← V15_eq m c]
theorem V17_eq (c : Dev nD) : V17 m (outs m) c = U17 m c := by
  unfold U17; rw [← V16_eq m c]
theorem V18_eq (c : Dev nD) : V18 m (outs m) c = U18 m c := by
  unfold U18; rw [← V17_eq m c]
theorem V19_eq (c : Dev nD) : V19 m (outs m) c = U19 m c := by
  unfold U19; rw [← V18_eq m c]
theorem V20_eq (c : Dev nD) : V20 m (outs m) c = U20 m c := by
  unfold U20; rw [← V19_eq m c]
theorem V21_eq (c : Dev nD) : V21 m (outs m) c = U21 m c := by
  unfold U21; rw [← V20_eq m c]
theorem V22_eq (c : Dev nD) : V22 m (outs m) c = U22 m c := by
  unfold U22; rw [← V21_eq m c, ← outs_o22 m c]
theorem V23_eq (c : Dev nD) : V23 m (outs m) c = U23 m c := by
  unfold U23; rw [← V22_eq m c]

/-! ## The pinned outputs, named over the generated valuations -/

/-- Region 0's output `main_v3`: the write-backs of its proof data at the valuation the region is entered from. -/
theorem outs_2 (c : Dev nD) : outs m 2 main_v3 c = (dat0 (fun c b => V1 m c b) c).arrAt 2 cfg0.N :=
  outs_o2 m c
/-- Region 1's output `main_v5`: the write-backs of its proof data at the valuation the region is entered from. -/
theorem outs_4 (c : Dev nD) : outs m 4 main_v5 c = (dat1 (fun c b => V3 m (outs m) c b) c).arrAt 2 cfg1.N := by
  have h : tcOf (U3 m) = (fun c b => V3 m (outs m) c b : (c : Dev nD) → (b : Ref sig .tc) → Buf (Elt F) ((c : Thread nD τ).loc b)) :=
    funext fun c => funext fun b => by rw [V3_eq m c]
  exact (outs_o4 m c).trans (congrArg (fun V => (dat1 V c).arrAt 2 cfg1.N) h)
/-- Region 2's output `main_v8`: the write-backs of its proof data at the valuation the region is entered from. -/
theorem outs_6 (c : Dev nD) : outs m 6 main_v8 c = (dat2 (fun c b => V5 m (outs m) c b) c).arrAt 4 cfg2.N := by
  have h : tcOf (U5 m) = (fun c b => V5 m (outs m) c b : (c : Dev nD) → (b : Ref sig .tc) → Buf (Elt F) ((c : Thread nD τ).loc b)) :=
    funext fun c => funext fun b => by rw [V5_eq m c]
  exact (outs_o6 m c).trans (congrArg (fun V => (dat2 V c).arrAt 4 cfg2.N) h)
/-- Region 3's output `main_v11`: the write-backs of its proof data at the valuation the region is entered from. -/
theorem outs_8 (c : Dev nD) : outs m 8 main_v11 c = (dat3 (fun c b => V7 m (outs m) c b) c).arrAt 4 cfg3.N := by
  have h : tcOf (U7 m) = (fun c b => V7 m (outs m) c b : (c : Dev nD) → (b : Ref sig .tc) → Buf (Elt F) ((c : Thread nD τ).loc b)) :=
    funext fun c => funext fun b => by rw [V7_eq m c]
  exact (outs_o8 m c).trans (congrArg (fun V => (dat3 V c).arrAt 4 cfg3.N) h)
/-- Region 4's output `main_v91`: the write-backs of its proof data at the valuation the region is entered from. -/
theorem outs_22 (c : Dev nD) : outs m 22 main_v91 c = (dat4 (fun c b => V21 m (outs m) c b) c).arrAt 7 cfg4.N := by
  have h : tcOf (U21 m) = (fun c b => V21 m (outs m) c b : (c : Dev nD) → (b : Ref sig .tc) → Buf (Elt F) ((c : Thread nD τ).loc b)) :=
    funext fun c => funext fun b => by rw [V21_eq m c]
  exact (outs_o22 m c).trans (congrArg (fun V => (dat4 V c).arrAt 7 cfg4.N) h)

end Cert.Kernel.Hand

end
-- ==== Proof.K.RunRegs.lean ====
import proofs.«430159_j88974542504689_1_alg».proof.Proof.K.RunDefs
import Idealize.ShloMosaic.Lib.Pipeline.RegionsLoop
import Idealize.ShloMosaic.Lib.Pipeline.Frame

-- decided memberships over the program's 272 references recurse past the default depth
set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The proof data of the five pipelines and what rides beside the buffers -/

/-- Every pipeline's proof data, each at the valuation its region is entered from. -/
def pdats : (p : Fin 5) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs m) c b) c
  | ⟨2, _⟩ => fun c => dat2 (fun c b => V5 m (outs m) c b) c
  | ⟨3, _⟩ => fun c => dat3 (fun c b => V7 m (outs m) c b) c
  | ⟨4, _⟩ => fun c => dat4 (fun c b => V21 m (outs m) c b) c

/-- No core owes another anything: no level is assigned. -/
abbrev noLevels : GSem nD τ sig → Finset Unit := fun _ => ∅
abbrev noLevel : GSem nD τ sig → Unit → ℕ := fun _ _ => 0
/-- What rides beside the buffers through every item: the core's generator register at some state (a region's
    invariant takes it in and gives it back) and the core owing nothing. -/
abbrev beside (c : Dev nD) : sProp 𝕄 := iprop((∃ r, prngReg c r) ∗ ∃ W, owes (c : Thread nD τ) (0 : CellTallies nD τ sig Unit) W)

/-! ## A kernel region over whole-buffer valuations

Pipeline `p` entered from every unscoped buffer at `Win c` and left at `Wout c`: its windows' arrays are split out of the
unscoped buffers at entry and put back at exit, where each holds what the pipeline's write-backs leave (`hF`) and every
other buffer what it held (`hrest`); the generator register and the scoped rest go into the body's invariant through the
class invariant `ΦA` (`hin`) and come back out of it (`hout`); nothing is owed; the kernel names no semaphore of its own. -/

-- a library lemma stated over `pin pcs a p` unifies with the pipeline's configuration only when unification may unfold
-- plain definitions in a metavariable's type
set_option backward.isDefEq.respectTransparency.types false in
def regOf (p : Fin 5) (lf : Pipeline.LaunchFacts (nD := nD) (τ := τ) cfgs p)
    (Win Wout : Dev nD → Valuation τ sig (Elt F))
    (hq : ∀ c w, (pdats m p c).q w = fullShare) (howed : ∀ c t, (pdats m p c).owed t = 0)
    (hrec : ∀ c t, (pdats m p c).recorded t = Set.univ)
    (hA : ∀ c w, (pdats m p c).A w = Win c (Pipeline.arrRef (cfgs p).spec w))
    (hob : ∀ c, BodyObligation (pdats m p c) (defs₀ (F := F)) Variants.none () Set.univ)
    (hΦin : ∀ c, Pipeline.ΦA (cfgs p).spec c ⊢ (pdats m p c).Φ 0)
    (hΦout : ∀ c, (pdats m p c).Φ (Fin.last (cfgs p).N) ⊢ Pipeline.ΦA (cfgs p).spec c)
    (hF : ∀ c w, (pdats m p c).arrAt w (cfgs p).N = Wout c (Pipeline.arrRef (cfgs p).spec w))
    (hrest : ∀ (c : Dev nD) (b : Ref sig .tc), b ∉ Finset.univ.image (Pipeline.arrRef (cfgs p).spec) → Wout c b = Win c b) :
    RegionSeg (pcfgs (F := F)) adm (pdats m) () defs₀ Variants.none noLevels noLevel p where
  win := lf.win.to₀
  block_pos := lf.block_pos
  stage_whole := lf.stage_whole
  K := PEmpty
  osem k := k.elim
  ho := Pipeline.OwnSemFacts.none _
  hbody c := (hob c).loose
  hwaits := Pipeline.hwaits_of_owed_zero _ _ _ _ noLevels noLevel p howed
  pre c := iprop(StableHlo.held (c : Thread nD τ) (Pipeline.ucRefs τ sig) (Win c) ∗ beside c)
  post c := iprop(StableHlo.held (c : Thread nD τ) (Pipeline.ucRefs τ sig) (Wout c) ∗ beside c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) lf.win lf.arr_whole c
      ((pdats m p c).share_full (hq c)) (fun b => Win c b) (hA c)
    rw [Pipeline.unscopedBufs_held c (Win c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W
      isplitr; · ipureintro; exact fun x _ => Or.inl (by rw [hrec c]; exact Set.mem_univ x)
      rw [howed c]; iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine BIBase.Entails.trans (hΦout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c b) (fun b => Wout c b) ((pdats m p c).arrAt · (cfgs p).N) (hF c) (hrest c)
    rw [Pipeline.unscopedBufs_held c (Wout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [howed c]; iexact HO

/-! ## The five regions -/

/-- Region 0's windows: window 2 is the output, over `main_v3`; every other window is an input whose array is another buffer. -/
theorem wins0 : Pipeline.arrRef spec0 (2 : Fin 3) = main_v3
    ∧ ∀ w : Fin 3, w ≠ 2 → (cfg0.win w).isOut = false ∧ Pipeline.arrRef spec0 w ∉ ([main_v3] : List (Ref sig .tc)) := by decide
/-- Region 0's proof data take the arrays as the valuation it is entered from has them. -/
theorem hA0 (c : Dev nD) (w : Fin cfg0.W) : (pdats m 0 c).A w = V1 m c (Pipeline.arrRef spec0 w) :=
  A_eq0 (fun c b => V1 m c b) c w
/-- At region 0's exit each of its arrays holds what the pipeline leaves: the output the pinned contents, an input
    (never written) what it held at entry. -/
theorem hF0 (c : Dev nD) (w : Fin cfg0.W) :
    (pdats m 0 c).arrAt w cfg0.N = V2 m (outs m) c (Pipeline.arrRef spec0 w) := by
  by_cases hw : w = (2 : Fin 3)
  · subst hw
    show _ = Function.update (V1 m c) (Proc.devRef .tc main_v3) (outs m 2 main_v3 c) (Proc.devRef .tc main_v3)
    rw [Function.update_self]
    exact (outs_2 m c).symm
  · obtain ⟨hi, hne⟩ := (wins0).2 w hw
    exact (((pdats m 0 c).arrAt_in w hi _).trans (hA0 m c w)).trans (V2_of m (outs m) c _ hne).symm
/-- Every buffer that is none of region 0's arrays is left as entered. -/
theorem hrest0 (c : Dev nD) (b : Ref sig .tc) (hb : b ∉ Finset.univ.image (Pipeline.arrRef spec0)) :
    V2 m (outs m) c b = V1 m c b :=
  V2_of m (outs m) c b fun hm => hb (Finset.mem_image.mpr ⟨(2 : Fin 3), Finset.mem_univ _, by
    rw [(wins0).1]; exact (List.mem_singleton.mp hm).symm⟩)
-- the region's record at pipeline 0 unifies `pin pcfgs adm 0` with the printed configuration
set_option backward.isDefEq.respectTransparency.types false in
/-- REGION 0 (custom_call 0): entered from every unscoped buffer at `V1`, left at `V2`. -/
def reg0 : RegionSeg (pcfgs (F := F)) adm (pdats m) () defs₀ Variants.none noLevels noLevel 0 :=
  regOf m 0 launch0 (V1 m) (V2 m (outs m)) (fun _ _ => rfl) (fun _ _ => rfl) (fun _ _ => rfl)
    (hA0 m) (fun c => body_obligation0 (fun c b => V1 m c b) c) (fun c => hin0 (fun c b => V1 m c b) c) (fun c => hout0 (fun c b => V1 m c b) c)
    (hF0 m) (hrest0 m)

/-- Region 1's windows: window 2 is the output, over `main_v5`; every other window is an input whose array is another buffer. -/
theorem wins1 : Pipeline.arrRef spec1 (2 : Fin 3) = main_v5
    ∧ ∀ w : Fin 3, w ≠ 2 → (cfg1.win w).isOut = false ∧ Pipeline.arrRef spec1 w ∉ ([main_v5] : List (Ref sig .tc)) := by decide
/-- Region 1's proof data take the arrays as the valuation it is entered from has them. -/
theorem hA1 (c : Dev nD) (w : Fin cfg1.W) : (pdats m 1 c).A w = V3 m (outs m) c (Pipeline.arrRef spec1 w) :=
  A_eq1 (fun c b => V3 m (outs m) c b) c w
/-- At region 1's exit each of its arrays holds what the pipeline leaves: the output the pinned contents, an input
    (never written) what it held at entry. -/
theorem hF1 (c : Dev nD) (w : Fin cfg1.W) :
    (pdats m 1 c).arrAt w cfg1.N = V4 m (outs m) c (Pipeline.arrRef spec1 w) := by
  by_cases hw : w = (2 : Fin 3)
  · subst hw
    show _ = Function.update (V3 m (outs m) c) (Proc.devRef .tc main_v5) (outs m 4 main_v5 c) (Proc.devRef .tc main_v5)
    rw [Function.update_self]
    exact (outs_4 m c).symm
  · obtain ⟨hi, hne⟩ := (wins1).2 w hw
    exact (((pdats m 1 c).arrAt_in w hi _).trans (hA1 m c w)).trans (V4_of m (outs m) c _ hne).symm
/-- Every buffer that is none of region 1's arrays is left as entered. -/
theorem hrest1 (c : Dev nD) (b : Ref sig .tc) (hb : b ∉ Finset.univ.image (Pipeline.arrRef spec1)) :
    V4 m (outs m) c b = V3 m (outs m) c b :=
  V4_of m (outs m) c b fun hm => hb (Finset.mem_image.mpr ⟨(2 : Fin 3), Finset.mem_univ _, by
    rw [(wins1).1]; exact (List.mem_singleton.mp hm).symm⟩)
-- the region's record at pipeline 1 unifies `pin pcfgs adm 1` with the printed configuration
set_option backward.isDefEq.respectTransparency.types false in
/-- REGION 1 (custom_call 1): entered from every unscoped buffer at `V3`, left at `V4`. -/
def reg1 : RegionSeg (pcfgs (F := F)) adm (pdats m) () defs₀ Variants.none noLevels noLevel 1 :=
  regOf m 1 launch1 (V3 m (outs m)) (V4 m (outs m)) (fun _ _ => rfl) (fun _ _ => rfl) (fun _ _ => rfl)
    (hA1 m) (fun c => body_obligation1 (fun c b => V3 m (outs m) c b) c) (fun c => hin1 (fun c b => V3 m (outs m) c b) c) (fun c => hout1 (fun c b => V3 m (outs m) c b) c)
    (hF1 m) (hrest1 m)

/-- Region 2's windows: window 4 is the output, over `main_v8`; every other window is an input whose array is another buffer. -/
theorem wins2 : Pipeline.arrRef spec2 (4 : Fin 5) = main_v8
    ∧ ∀ w : Fin 5, w ≠ 4 → (cfg2.win w).isOut = false ∧ Pipeline.arrRef spec2 w ∉ ([main_v8] : List (Ref sig .tc)) := by decide
/-- Region 2's proof data take the arrays as the valuation it is entered from has them. -/
theorem hA2 (c : Dev nD) (w : Fin cfg2.W) : (pdats m 2 c).A w = V5 m (outs m) c (Pipeline.arrRef spec2 w) :=
  A_eq2 (fun c b => V5 m (outs m) c b) c w
/-- At region 2's exit each of its arrays holds what the pipeline leaves: the output the pinned contents, an input
    (never written) what it held at entry. -/
theorem hF2 (c : Dev nD) (w : Fin cfg2.W) :
    (pdats m 2 c).arrAt w cfg2.N = V6 m (outs m) c (Pipeline.arrRef spec2 w) := by
  by_cases hw : w = (4 : Fin 5)
  · subst hw
    show _ = Function.update (V5 m (outs m) c) (Proc.devRef .tc main_v8) (outs m 6 main_v8 c) (Proc.devRef .tc main_v8)
    rw [Function.update_self]
    exact (outs_6 m c).symm
  · obtain ⟨hi, hne⟩ := (wins2).2 w hw
    exact (((pdats m 2 c).arrAt_in w hi _).trans (hA2 m c w)).trans (V6_of m (outs m) c _ hne).symm
/-- Every buffer that is none of region 2's arrays is left as entered. -/
theorem hrest2 (c : Dev nD) (b : Ref sig .tc) (hb : b ∉ Finset.univ.image (Pipeline.arrRef spec2)) :
    V6 m (outs m) c b = V5 m (outs m) c b :=
  V6_of m (outs m) c b fun hm => hb (Finset.mem_image.mpr ⟨(4 : Fin 5), Finset.mem_univ _, by
    rw [(wins2).1]; exact (List.mem_singleton.mp hm).symm⟩)
-- the region's record at pipeline 2 unifies `pin pcfgs adm 2` with the printed configuration
set_option backward.isDefEq.respectTransparency.types false in
/-- REGION 2 (custom_call 2): entered from every unscoped buffer at `V5`, left at `V6`. -/
def reg2 : RegionSeg (pcfgs (F := F)) adm (pdats m) () defs₀ Variants.none noLevels noLevel 2 :=
  regOf m 2 launch2 (V5 m (outs m)) (V6 m (outs m)) (fun _ _ => rfl) (fun _ _ => rfl) (fun _ _ => rfl)
    (hA2 m) (fun c => body_obligation2 (fun c b => V5 m (outs m) c b) c) (fun c => hin2 (fun c b => V5 m (outs m) c b) c) (fun c => hout2 (fun c b => V5 m (outs m) c b) c)
    (hF2 m) (hrest2 m)

/-- Region 3's windows: window 4 is the output, over `main_v11`; every other window is an input whose array is another buffer. -/
theorem wins3 : Pipeline.arrRef spec3 (4 : Fin 5) = main_v11
    ∧ ∀ w : Fin 5, w ≠ 4 → (cfg3.win w).isOut = false ∧ Pipeline.arrRef spec3 w ∉ ([main_v11] : List (Ref sig .tc)) := by decide
/-- Region 3's proof data take the arrays as the valuation it is entered from has them. -/
theorem hA3 (c : Dev nD) (w : Fin cfg3.W) : (pdats m 3 c).A w = V7 m (outs m) c (Pipeline.arrRef spec3 w) :=
  A_eq3 (fun c b => V7 m (outs m) c b) c w
/-- At region 3's exit each of its arrays holds what the pipeline leaves: the output the pinned contents, an input
    (never written) what it held at entry. -/
theorem hF3 (c : Dev nD) (w : Fin cfg3.W) :
    (pdats m 3 c).arrAt w cfg3.N = V8 m (outs m) c (Pipeline.arrRef spec3 w) := by
  by_cases hw : w = (4 : Fin 5)
  · subst hw
    show _ = Function.update (V7 m (outs m) c) (Proc.devRef .tc main_v11) (outs m 8 main_v11 c) (Proc.devRef .tc main_v11)
    rw [Function.update_self]
    exact (outs_8 m c).symm
  · obtain ⟨hi, hne⟩ := (wins3).2 w hw
    exact (((pdats m 3 c).arrAt_in w hi _).trans (hA3 m c w)).trans (V8_of m (outs m) c _ hne).symm
/-- Every buffer that is none of region 3's arrays is left as entered. -/
theorem hrest3 (c : Dev nD) (b : Ref sig .tc) (hb : b ∉ Finset.univ.image (Pipeline.arrRef spec3)) :
    V8 m (outs m) c b = V7 m (outs m) c b :=
  V8_of m (outs m) c b fun hm => hb (Finset.mem_image.mpr ⟨(4 : Fin 5), Finset.mem_univ _, by
    rw [(wins3).1]; exact (List.mem_singleton.mp hm).symm⟩)
-- the region's record at pipeline 3 unifies `pin pcfgs adm 3` with the printed configuration
set_option backward.isDefEq.respectTransparency.types false in
/-- REGION 3 (custom_call 3): entered from every unscoped buffer at `V7`, left at `V8`. -/
def reg3 : RegionSeg (pcfgs (F := F)) adm (pdats m) () defs₀ Variants.none noLevels noLevel 3 :=
  regOf m 3 launch3 (V7 m (outs m)) (V8 m (outs m)) (fun _ _ => rfl) (fun _ _ => rfl) (fun _ _ => rfl)
    (hA3 m) (fun c => body_obligation3 (fun c b => V7 m (outs m) c b) c) (fun c => hin3 (fun c b => V7 m (outs m) c b) c) (fun c => hout3 (fun c b => V7 m (outs m) c b) c)
    (hF3 m) (hrest3 m)

/-- Region 4's windows: window 7 is the output, over `main_v91`; every other window is an input whose array is another buffer. -/
theorem wins4 : Pipeline.arrRef spec4 (7 : Fin 8) = main_v91
    ∧ ∀ w : Fin 8, w ≠ 7 → (cfg4.win w).isOut = false ∧ Pipeline.arrRef spec4 w ∉ ([main_v91] : List (Ref sig .tc)) := by decide
/-- Region 4's proof data take the arrays as the valuation it is entered from has them. -/
theorem hA4 (c : Dev nD) (w : Fin cfg4.W) : (pdats m 4 c).A w = V21 m (outs m) c (Pipeline.arrRef spec4 w) :=
  A_eq4 (fun c b => V21 m (outs m) c b) c w
/-- At region 4's exit each of its arrays holds what the pipeline leaves: the output the pinned contents, an input
    (never written) what it held at entry. -/
theorem hF4 (c : Dev nD) (w : Fin cfg4.W) :
    (pdats m 4 c).arrAt w cfg4.N = V22 m (outs m) c (Pipeline.arrRef spec4 w) := by
  by_cases hw : w = (7 : Fin 8)
  · subst hw
    show _ = Function.update (V21 m (outs m) c) (Proc.devRef .tc main_v91) (outs m 22 main_v91 c) (Proc.devRef .tc main_v91)
    rw [Function.update_self]
    exact (outs_22 m c).symm
  · obtain ⟨hi, hne⟩ := (wins4).2 w hw
    exact (((pdats m 4 c).arrAt_in w hi _).trans (hA4 m c w)).trans (V22_of m (outs m) c _ hne).symm
/-- Every buffer that is none of region 4's arrays is left as entered. -/
theorem hrest4 (c : Dev nD) (b : Ref sig .tc) (hb : b ∉ Finset.univ.image (Pipeline.arrRef spec4)) :
    V22 m (outs m) c b = V21 m (outs m) c b :=
  V22_of m (outs m) c b fun hm => hb (Finset.mem_image.mpr ⟨(7 : Fin 8), Finset.mem_univ _, by
    rw [(wins4).1]; exact (List.mem_singleton.mp hm).symm⟩)
-- the region's record at pipeline 4 unifies `pin pcfgs adm 4` with the printed configuration
set_option backward.isDefEq.respectTransparency.types false in
/-- REGION 4 (custom_call 4): entered from every unscoped buffer at `V21`, left at `V22`. -/
def reg4 : RegionSeg (pcfgs (F := F)) adm (pdats m) () defs₀ Variants.none noLevels noLevel 4 :=
  regOf m 4 launch4 (V21 m (outs m)) (V22 m (outs m)) (fun _ _ => rfl) (fun _ _ => rfl) (fun _ _ => rfl)
    (hA4 m) (fun c => body_obligation4 (fun c b => V21 m (outs m) c b) c) (fun c => hin4 (fun c b => V21 m (outs m) c b) c) (fun c => hout4 (fun c b => V21 m (outs m) c b) c)
    (hF4 m) (hrest4 m)

end Cert.Kernel.Hand

end
-- ==== Proof.K.Run.lean ====
import proofs.«430159_j88974542504689_1_alg».proof.Proof.K.RunRegs
import Idealize.ShloMosaic.Lib.Pipeline.Regions
import Idealize.ShloMosaic.Lib.Pipeline.Kit

-- decided memberships over the program's 272 references recurse past the default depth
set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run: @main's 23 items from the launch to the return -/

/-- What rides beside the buffers between two items, the same at every boundary. -/
abbrev besideAt : Fin 6 → Dev nD → sProp 𝕄 := fun _ c => beside c

/-- @main's items as segments: the generated host stretches over the valuations `Gen.VJ` at the pinned contents, the five regions. -/
abbrev allSegs (c : Dev nD) : List (Seg (pcfgs (F := F)) adm (pdats m) () defs₀ Variants.none noLevels noLevel) :=
  segs m (outs m) Variants.none noLevels noLevel besideAt () (pdats m) (reg0 m) (reg1 m) (reg2 m) (reg3 m) (reg4 m) c

-- the launch theorem's implicit arguments are found by unifying its conclusion with this one, which takes unfolding
-- plain definitions in a metavariable's type
set_option backward.isDefEq.respectTransparency.types false in
/-- THE RUN. From any memory `m` with zero counters every weakly fair execution of @main terminates, and in every final
    memory each unscoped buffer of each core holds the last valuation `Gen.V23` at the pinned contents `outs m`: the
    launch contents carried through the host stretches and the five regions' write-backs. -/
theorem run_all : θ_run defs (onTc (τ := τ) (main (F := F))) ⟨m, fun _ => 0, ρ⟩
    (fun r => ∀ c : Dev nD, ∀ b ∈ Pipeline.ucRefs τ sig, r.2.mem ((c : Thread nD τ).1, b) = V23 m (outs m) c b) := by
  refine Pipeline.θ_run_regions_kit_dev (pcfgs (F := F)) adm (pdats m) () cellOf_inj emb₁ defs₀ Variants.none noLevels noLevel m ρ main
    (allSegs m)
    (fun c Q => by
      rewrite [main_chain c, Seg.run_eq_chain,
        show (allSegs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          StableHlo.seq hostOps4_9,
          StableHlo.seq hostOps4_10,
          StableHlo.seq hostOps4_11,
          StableHlo.seq hostOps4_12,
          Prog.lift (.customCall (Pipeline.entry 4) ()),
          StableHlo.seq hostOps5 ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V23 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (show beside c ⊢ (iprop(∃ W, owes (c : Thread nD τ) (0 : CellTallies nD τ sig Unit) W) : sProp 𝕄) from by
        iintro ⟨-, HO⟩; iexact HO)⟩)
    (hinit := ?_)
    (QY := fun c s => ∀ b ∈ Pipeline.ucRefs τ sig, s.mem ((c : Thread nD τ).1, b) = V23 m (outs m) c b)
    (hfin := fun c s' => ?_) (hQ := fun _ h => h)
  · -- the launch: on each core the unscoped buffers are held at the launch contents, the generator register at its
    -- launch state, nothing owed
    refine Pipeline.initEach noLevels noLevel fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the last thread state read against the final state
    iintro ⟨Hh, HSI⟩
    unfold StableHlo.held
    imodintro
    iapply (pointsTo_read_all (Pipeline.ucRefs τ sig) (fun b => ((c : Thread nD τ).1, b)) (V23 m (outs m) c) s')
    isplitl [Hh] <;> iassumption

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution of @main terminates, and each argument array ends as launched — no host stretch
    writes an argument and no region's output is one, so the last valuation at an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  OrdCont.mono (θ_run defs (onTc (τ := τ) (main (F := F))) ⟨m, fun _ => 0, ρ⟩) (fun r h c =>
    ⟨(h c _ (mem_uc main_arg0 (by decide))).trans (V23_main_arg0 m (outs m) c),
     (h c _ (mem_uc main_arg1 (by decide))).trans (V23_main_arg1 m (outs m) c),
     (h c _ (mem_uc main_arg2 (by decide))).trans (V23_main_arg2 m (outs m) c),
     (h c _ (mem_uc main_arg3 (by decide))).trans (V23_main_arg3 m (outs m) c),
     (h c _ (mem_uc main_arg4 (by decide))).trans (V23_main_arg4 m (outs m) c),
     (h c _ (mem_uc main_arg5 (by decide))).trans (V23_main_arg5 m (outs m) c),
     (h c _ (mem_uc main_arg6 (by decide))).trans (V23_main_arg6 m (outs m) c),
     (h c _ (mem_uc main_arg7 (by decide))).trans (V23_main_arg7 m (outs m) c),
     (h c _ (mem_uc main_arg8 (by decide))).trans (V23_main_arg8 m (outs m) c),
     (h c _ (mem_uc main_arg9 (by decide))).trans (V23_main_arg9 m (outs m) c),
     (h c _ (mem_uc main_arg10 (by decide))).trans (V23_main_arg10 m (outs m) c),
     (h c _ (mem_uc main_arg11 (by decide))).trans (V23_main_arg11 m (outs m) c),
     (h c _ (mem_uc main_arg12 (by decide))).trans (V23_main_arg12 m (outs m) c),
     (h c _ (mem_uc main_arg13 (by decide))).trans (V23_main_arg13 m (outs m) c),
     (h c _ (mem_uc main_arg14 (by decide))).trans (V23_main_arg14 m (outs m) c),
     (h c _ (mem_uc main_arg15 (by decide))).trans (V23_main_arg15 m (outs m) c)⟩) (run_all m ρ)

/-- info: 'Cert.Kernel.Hand.frame' depends on axioms: [propext, Classical.choice, Quot.sound] -/
#guard_msgs in #print axioms frame

end Cert.Kernel.Hand

end
-- ==== Proof.KI.R0Runs.lean ====
/- REGION 0 (the anchor kernel on the context rows, pipeline 0): what its runs share. Each window's block at a
   point, read off the region's entry contents `V`; the one branch condition of the body (the first grid point),
   in closed form over the grid; the staging and scratch memrefs the body is called with; the region invariant
   opened at the two scratch buffers the kernel carries between points (the running sums and the running counts). -/
import proofs.«430159_j88974542504689_1_alg».proof.Proof.Gen.KernelIdeal.Launch
import proofs.«430159_j88974542504689_1_alg».proof.Proof.Gen.KernelIdeal.Skeleton
import proofs.«430159_j88974542504689_1_alg».proof.Proof.Gen.KernelIdeal.Points
import Idealize.ShloMosaic.Lib.Pipeline.FrameBody
import Idealize.ShloMosaic.Lib.Ring
import Idealize.ShloMosaic.Lib.Tactic

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of rows at point `t` (window 0), at its literal type. -/
abbrev xblk0 (c : Dev nD) (t : Fin cfg0.N) : Vec F S1024x257 .f32 := iblk0 V c 0 t
/-- The row of segment indices at point `t` (window 1), at its literal type. -/
abbrev idblk0 (c : Dev nD) (t : Fin cfg0.N) : Vec F S1x1024 .i32 := iblk0 V c 1 t

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional, from the grid coordinates: the point's coordinate is zero. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-! ## The memrefs the body is called with -/

/-- One staging buffer of the output window, through which its contents are stated (the choice does not matter). -/
abbrev VO0_2 : View sig .tc .vmem S1024x257 .f32 := (Memref.whole cc0_stg2_0 : Memref sig .tc .vmem S1024x257 .f32).view
/-- Each window's current staging memref at point `t`, spelled as the pipeline passes it, and its wholeness. -/
abbrev ms0_0 (t : Fin cfg0.N) : Memref sig .tc .vmem S1024x257 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x257 .f32 := win0_2.stage (cfg0.slots t 2)
abbrev hs0_2 (t : Fin cfg0.N) : (ms0_2 t).IsWhole := hstage0_2 ((cfg0.slots t 2).cast nbuf0_2)
/-- The scratch operands: whole scoped buffers of the kernel's own — the running sums and the running counts. -/
abbrev scM0_0 : Memref sig .tc .vmem S1024x257 .f32 := Memref.whole cc0_scratch0
abbrev scM0_1 : Memref sig .tc .vmem S1024x1 .f32 := Memref.whole cc0_scratch1
/-- The two as views: what they hold is stated through them. -/
abbrev VS0_0 : View sig .tc .vmem S1024x257 .f32 := scM0_0.view
abbrev VS0_1 : View sig .tc .vmem S1024x1 .f32 := scM0_1.view

/-- The scoped buffers of the core that are neither a staging buffer of this pipeline nor one of its two scratch
    buffers, at some contents each: carried through the region unopened. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch operands as memrefs owned at some contents, the other scoped buffers
    unopened, and the generator register at some state: what the body obligation hands the run and takes back. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 (F := F) c) ∗ (∃ r, prngReg c r)) := by
  unfold Pipeline.ΦA; rw [scopedRest0_split]; simp only [scM0_0, scM0_1, owns_whole]; try rfl

end Cert.KernelIdeal.Hand

end
-- ==== Proof.KI.R0RunA.lean ====
/- REGION 0: the whole body of the anchor kernel run AT THE FIRST GRID POINT (its conditional taken: both scratch
   buffers are zeroed before they are read, so they may hold anything on entry). The pieces each buffer ends with
   — the output block, the running sums, the running counts — are the witness the run finds. -/
import proofs.«430159_j88974542504689_1_alg».proof.Proof.KI.R0Runs

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch memrefs, as pieces (last
    first), AT THE FIRST POINT (the conditional taken), WITH the proof that on whole memrefs — the inputs' at their
    contents `x0` (the block of rows) and `x1` (the row of segment indices), the output's and both scratch at
    anything — the body runs to the continuation holding the inputs' as they were and each of the three written
    buffers with its pieces written. The pieces are the witness the run finds. -/
noncomputable def kernelRun0_A (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) :
    Σ' (L2 : List (View.Piece (Elt F) S1024x257 .f32)) (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__anchor_kernel i arg1 harg1 arg2 harg2 arg3 harg3 arg4 harg4 arg5 harg5) K } := by
  refine ⟨?_, ?_, ?_, fun E K => ?run⟩
  case run =>
    simp only [cc0__anchor_kernel_eq_skeleton]; unfold cc0__anchor_kernel_skel
    simp only [k0_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Hand

end
-- ==== Proof.KI.R0RunB.lean ====
/- REGION 0: the whole body of the anchor kernel run AT ANY LATER GRID POINT (its conditional not taken: the two
   scratch buffers are read at what the point before left in them). The pieces each buffer ends with — the output
   block, the running sums, the running counts — are the witness the run finds. -/
import proofs.«430159_j88974542504689_1_alg».proof.Proof.KI.R0RunA

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch memrefs, as pieces (last
    first), AT A POINT AFTER THE FIRST (the conditional not taken), WITH the proof that on whole memrefs — the
    inputs' at their contents `x0`, `x1`, the running sums at `xs0` and the running counts at `xs1` (what the
    point before left), the output's at anything — the body runs to the continuation holding the inputs' as they
    were and each of the three written buffers with its pieces written. The pieces are the witness the run finds. -/
noncomputable def kernelRun0_B (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) :
    Σ' (L2 : List (View.Piece (Elt F) S1024x257 .f32)) (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__anchor_kernel i arg1 harg1 arg2 harg2 arg3 harg3 arg4 harg4 arg5 harg5) K } := by
  refine ⟨?_, ?_, ?_, fun E K => ?run⟩
  case run =>
    simp only [cc0__anchor_kernel_eq_skeleton]; unfold cc0__anchor_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Hand

end
-- ==== Proof.KI.R0Frame.lean ====
/- REGION 0 (the anchor kernel on the context rows, pipeline 0), the frame side at the region's entry contents `V`:
   what the output block and the two carried scratch buffers hold after each grid point (`outsAt0`, by recursion on
   the point: the first point starts from zeros, every later point from what the point before left), the region
   invariant naming the scratch contents between points, the pipeline's proof data, and the body obligation. -/
import proofs.«430159_j88974542504689_1_alg».proof.Proof.KI.R0RunB

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves, buffer by buffer -/

/-- The pieces the body leaves in the output block's buffer at the first point cover it: every store is of the whole buffer. -/
theorem cover0_A_2 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) (y : S1024x257.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S1024x257.size (by sl_kernel_rfl) y

/-- What the body leaves in the output block's buffer at the first point: its pieces read back over arbitrary contents. -/
def out0_A_2 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) : Vec F S1024x257 .f32 :=
  VO0_2.read (Elt F) (VO0_2.writes (Elt F) VO0_2.junk (kernelRun0_A c i arg1 harg1 arg2 harg2 arg3 harg3 arg4 harg4 arg5 harg5 hc0 x0 x1).1)

/-- The pieces the body leaves in the running sums's buffer at the first point cover it: every store is of the whole buffer. -/
theorem scover0_A_0 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) (y : S1024x257.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S1024x257.size (by sl_kernel_rfl) y

/-- What the body leaves in the running sums's buffer at the first point: its pieces read back over arbitrary contents. -/
def sout0_A_0 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) : Vec F S1024x257 .f32 :=
  VS0_0.read (Elt F) (VS0_0.writes (Elt F) VS0_0.junk (kernelRun0_A c i arg1 harg1 arg2 harg2 arg3 harg3 arg4 harg4 arg5 harg5 hc0 x0 x1).2.1)

/-- The pieces the body leaves in the running counts's buffer at the first point cover it: every store is of the whole buffer. -/
theorem scover0_A_1 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) (y : S1024x1.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S1024x1.size (by sl_kernel_rfl) y

/-- What the body leaves in the running counts's buffer at the first point: its pieces read back over arbitrary contents. -/
def sout0_A_1 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) : Vec F S1024x1 .f32 :=
  VS0_1.read (Elt F) (VS0_1.writes (Elt F) VS0_1.junk (kernelRun0_A c i arg1 harg1 arg2 harg2 arg3 harg3 arg4 harg4 arg5 harg5 hc0 x0 x1).2.2.1)

/-- The pieces the body leaves in the output block's buffer at a later point cover it: every store is of the whole buffer. -/
theorem cover0_B_2 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) (y : S1024x257.Idx) :
    ∃ pc ∈ (kernelRun0_B c i arg1 harg1 arg2 harg2 arg3 harg3 arg4 harg4 arg5 harg5 hc0 x0 x1 xs0 xs1).1, y ∈ pc.1.set :=
  View.cover_of_tiledL (kernelRun0_B c i arg1 harg1 arg2 harg2 arg3 harg3 arg4 harg4 arg5 harg5 hc0 x0 x1 xs0 xs1).1 S1024x257.size (by sl_kernel_rfl) y

/-- What the body leaves in the output block's buffer at a later point: its pieces read back over arbitrary contents. -/
def out0_B_2 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) : Vec F S1024x257 .f32 :=
  VO0_2.read (Elt F) (VO0_2.writes (Elt F) VO0_2.junk (kernelRun0_B c i arg1 harg1 arg2 harg2 arg3 harg3 arg4 harg4 arg5 harg5 hc0 x0 x1 xs0 xs1).1)

/-- The pieces the body leaves in the running sums's buffer at a later point cover it: every store is of the whole buffer. -/
theorem scover0_B_0 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) (y : S1024x257.Idx) :
    ∃ pc ∈ (kernelRun0_B c i arg1 harg1 arg2 harg2 arg3 harg3 arg4 harg4 arg5 harg5 hc0 x0 x1 xs0 xs1).2.1, y ∈ pc.1.set :=
  View.cover_of_tiledL (kernelRun0_B c i arg1 harg1 arg2 harg2 arg3 harg3 arg4 harg4 arg5 harg5 hc0 x0 x1 xs0 xs1).2.1 S1024x257.size (by sl_kernel_rfl) y

/-- What the body leaves in the running sums's buffer at a later point: its pieces read back over arbitrary contents. -/
def sout0_B_0 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) : Vec F S1024x257 .f32 :=
  VS0_0.read (Elt F) (VS0_0.writes (Elt F) VS0_0.junk (kernelRun0_B c i arg1 harg1 arg2 harg2 arg3 harg3 arg4 harg4 arg5 harg5 hc0 x0 x1 xs0 xs1).2.1)

/-- The pieces the body leaves in the running counts's buffer at a later point cover it: every store is of the whole buffer. -/
theorem scover0_B_1 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) (y : S1024x1.Idx) :
    ∃ pc ∈ (kernelRun0_B c i arg1 harg1 arg2 harg2 arg3 harg3 arg4 harg4 arg5 harg5 hc0 x0 x1 xs0 xs1).2.2.1, y ∈ pc.1.set :=
  View.cover_of_tiledL (kernelRun0_B c i arg1 harg1 arg2 harg2 arg3 harg3 arg4 harg4 arg5 harg5 hc0 x0 x1 xs0 xs1).2.2.1 S1024x1.size (by sl_kernel_rfl) y

/-- What the body leaves in the running counts's buffer at a later point: its pieces read back over arbitrary contents. -/
def sout0_B_1 (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) : Vec F S1024x1 .f32 :=
  VS0_1.read (Elt F) (VS0_1.writes (Elt F) VS0_1.junk (kernelRun0_B c i arg1 harg1 arg2 harg2 arg3 harg3 arg4 harg4 arg5 harg5 hc0 x0 x1 xs0 xs1).2.2.1)

/-! ## What the three buffers hold after each point -/

/-- The triple (output block, running sums, running counts) the body leaves at the first point `t`. -/
def stepA0 (c : Dev nD) (t : Fin cfg0.N) (hc0 : cond0_0 (grid0.coords t)) :
    Vec F S1024x257 .f32 × Vec F S1024x257 .f32 × Vec F S1024x1 .f32 :=
  (out0_A_2 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t), sout0_A_0 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t), sout0_A_1 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t))

/-- The triple the body leaves at a later point `t`, from the sums `xs0` and counts `xs1` the point before left. -/
def stepB0 (c : Dev nD) (t : Fin cfg0.N) (hc0 : ¬cond0_0 (grid0.coords t)) (xs0 : Vec F S1024x257 .f32) (xs1 : Vec F S1024x1 .f32) :
    Vec F S1024x257 .f32 × Vec F S1024x257 .f32 × Vec F S1024x1 .f32 :=
  (out0_B_2 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t) xs0 xs1, sout0_B_0 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t) xs0 xs1, sout0_B_1 c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t) xs0 xs1)

/-- THE ACCUMULATION: (output block, running sums, running counts) after the body at position `n` — the first
    point from nothing, every later point from the sums and counts the point before left. -/
def outsAt0 (c : Dev nD) : (n : ℕ) → n < cfg0.N → Vec F S1024x257 .f32 × Vec F S1024x257 .f32 × Vec F S1024x1 .f32
  | 0, hn => stepA0 V c ⟨0, hn⟩ ((hcond0_0 ⟨0, hn⟩).mpr rfl)
  | n + 1, hn => stepB0 V c ⟨n + 1, hn⟩ (fun h => Nat.succ_ne_zero n ((hcond0_0 ⟨n + 1, hn⟩).mp h))
      (outsAt0 c n (Nat.lt_of_succ_lt hn)).2.1 (outsAt0 c n (Nat.lt_of_succ_lt hn)).2.2

/-- `outsAt0` at the first point. -/
theorem outsAt0_A (c : Dev nD) (t : Fin cfg0.N) (h0 : t.val = 0) :
    outsAt0 V c t.val t.isLt = stepA0 V c t ((hcond0_0 t).mpr h0) := by
  obtain ⟨n, hn⟩ := t
  cases n with
  | zero => exact rfl
  | succ n => exact absurd h0 (Nat.succ_ne_zero n)

/-- `outsAt0` at a later point: over what the point before left. -/
theorem outsAt0_B (c : Dev nD) (t : Fin cfg0.N) (h0 : ¬t.val = 0) :
    outsAt0 V c t.val t.isLt = stepB0 V c t (fun h => h0 ((hcond0_0 t).mp h))
      (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd rfl h0
  | succ n => exact rfl

/-! ## The region invariant -/

/-- The region invariant before position `n`: before the first point the class's (every scoped buffer of the core
    that is no staging buffer at anything, the generator register at some state); afterwards the same with the
    running sums and the running counts at what the point before left in them. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.1 ∗ owns (c : Thread nD τ) scM0_1 fullShare (outsAt0 V c n hn).2.2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(iprop(owns (c : Thread nD τ) scM0_0 fullShare (outsAt0 V c n hn).2.1 ∗ owns (c : Thread nD τ) scM0_1 fullShare (outsAt0 V c n hn).2.2) ∗ restBut0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.1 ∗ owns (c : Thread nD τ) scM0_1 fullShare (outsAt0 V c (n - 1) (by omega)).2.2) ∗ restBut0 (F := F) c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the inputs' memrefs hold their blocks; the point is the first or not; the invariant hands
    the body the two carried scratch buffers (at anything at the first point, at what the point before left
    afterwards) and takes them back at this point's contents; the output's buffer is taken at anything and left
    at this point's output block; the other scoped buffers, the generator register and what the core owes pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val = 0
  · rw [outsAt0_A V c t h0]
    unfold stepA0 out0_A_2 sout0_A_0 sout0_A_1; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩⟩
    iapply ((kernelRun0_A c (grid0.coords t) _ _ _ _ _ _ _ _ _ _ ((hcond0_0 t).mpr h0) (xblk0 V c t) (idblk0 V c t)).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _ _ _)
  · rw [outsAt0_B V c t h0]
    unfold stepB0 out0_B_2 sout0_B_0 sout0_B_1; (try dsimp only)
    rw [PhiS0_castSucc V c t, PhiS0_pos V c _ _ h0]
    iintro ⟨⟨⟨⟨HS0, HS1⟩, Hrest⟩, Hg⟩, Ho, ⟨%d0, H0⟩, ⟨%d1, H1⟩, ⟨%d2, H2⟩⟩
    iapply ((kernelRun0_B c (grid0.coords t) _ _ _ _ _ _ _ _ _ _ (fun h => h0 ((hcond0_0 t).mp h)) (xblk0 V c t) (idblk0 V c t) _ _).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Cert.KernelIdeal.Hand

end
-- ==== Proof.KI.R1Runs.lean ====
/- REGION 1 (the anchor kernel on the target rows, pipeline 1): what its runs share. Each window's block at a
   point, read off the region's entry contents `V`; the one branch condition of the body (the first grid point),
   in closed form over the grid; the staging and scratch memrefs the body is called with; the region invariant
   opened at the two scratch buffers the kernel carries between points (the running sums and the running counts). -/
import proofs.«430159_j88974542504689_1_alg».proof.Proof.Gen.KernelIdeal.Launch
import proofs.«430159_j88974542504689_1_alg».proof.Proof.Gen.KernelIdeal.Skeleton
import proofs.«430159_j88974542504689_1_alg».proof.Proof.Gen.KernelIdeal.Points
import Idealize.ShloMosaic.Lib.Pipeline.FrameBody
import Idealize.ShloMosaic.Lib.Ring
import Idealize.ShloMosaic.Lib.Tactic

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows at point `t` (window 0), at its literal type. -/
abbrev xblk1 (c : Dev nD) (t : Fin cfg1.N) : Vec F S1024x257 .f32 := iblk1 V c 0 t
/-- The row of segment indices at point `t` (window 1), at its literal type. -/
abbrev idblk1 (c : Dev nD) (t : Fin cfg1.N) : Vec F S1x1024 .i32 := iblk1 V c 1 t

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: the point's coordinate is zero. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-! ## The memrefs the body is called with -/

/-- One staging buffer of the output window, through which its contents are stated (the choice does not matter). -/
abbrev VO1_2 : View sig .tc .vmem S1024x257 .f32 := (Memref.whole cc1_stg2_0 : Memref sig .tc .vmem S1024x257 .f32).view
/-- Each window's current staging memref at point `t`, spelled as the pipeline passes it, and its wholeness. -/
abbrev ms1_0 (t : Fin cfg1.N) : Memref sig .tc .vmem S1024x257 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x257 .f32 := win1_2.stage (cfg1.slots t 2)
abbrev hs1_2 (t : Fin cfg1.N) : (ms1_2 t).IsWhole := hstage1_2 ((cfg1.slots t 2).cast nbuf1_2)
/-- The scratch operands: whole scoped buffers of the kernel's own — the running sums and the running counts. -/
abbrev scM1_0 : Memref sig .tc .vmem S1024x257 .f32 := Memref.whole cc1_scratch0
abbrev scM1_1 : Memref sig .tc .vmem S1024x1 .f32 := Memref.whole cc1_scratch1
/-- The two as views: what they hold is stated through them. -/
abbrev VS1_0 : View sig .tc .vmem S1024x257 .f32 := scM1_0.view
abbrev VS1_1 : View sig .tc .vmem S1024x1 .f32 := scM1_1.view

/-- The scoped buffers of the core that are neither a staging buffer of this pipeline nor one of its two scratch
    buffers, at some contents each: carried through the region unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The class invariant with the two scratch operands as memrefs owned at some contents, the other scoped buffers
    unopened, and the generator register at some state: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 (F := F) c) ∗ (∃ r, prngReg c r)) := by
  unfold Pipeline.ΦA; rw [scopedRest1_split]; simp only [scM1_0, scM1_1, owns_whole]; try rfl

end Cert.KernelIdeal.Hand

end
-- ==== Proof.KI.R1RunA.lean ====
/- REGION 1: the whole body of the anchor kernel run AT THE FIRST GRID POINT (its conditional taken: both scratch
   buffers are zeroed before they are read, so they may hold anything on entry). The pieces each buffer ends with
   — the output block, the running sums, the running counts — are the witness the run finds. -/
import proofs.«430159_j88974542504689_1_alg».proof.Proof.KI.R1Runs

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch memrefs, as pieces (last
    first), AT THE FIRST POINT (the conditional taken), WITH the proof that on whole memrefs — the inputs' at their
    contents `x0` (the block of rows) and `x1` (the row of segment indices), the output's and both scratch at
    anything — the body runs to the continuation holding the inputs' as they were and each of the three written
    buffers with its pieces written. The pieces are the witness the run finds. -/
noncomputable def kernelRun1_A (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) :
    Σ' (L2 : List (View.Piece (Elt F) S1024x257 .f32)) (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__anchor_kernel i arg1 harg1 arg2 harg2 arg3 harg3 arg4 harg4 arg5 harg5) K } := by
  refine ⟨?_, ?_, ?_, fun E K => ?run⟩
  case run =>
    simp only [cc1__anchor_kernel_eq_skeleton]; unfold cc1__anchor_kernel_skel
    simp only [k1_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Hand

end
-- ==== Proof.KI.R1RunB.lean ====
/- REGION 1: the whole body of the anchor kernel run AT ANY LATER GRID POINT (its conditional not taken: the two
   scratch buffers are read at what the point before left in them). The pieces each buffer ends with — the output
   block, the running sums, the running counts — are the witness the run finds. -/
import proofs.«430159_j88974542504689_1_alg».proof.Proof.KI.R1RunA

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch memrefs, as pieces (last
    first), AT A POINT AFTER THE FIRST (the conditional not taken), WITH the proof that on whole memrefs — the
    inputs' at their contents `x0`, `x1`, the running sums at `xs0` and the running counts at `xs1` (what the
    point before left), the output's at anything — the body runs to the continuation holding the inputs' as they
    were and each of the three written buffers with its pieces written. The pieces are the witness the run finds. -/
noncomputable def kernelRun1_B (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) :
    Σ' (L2 : List (View.Piece (Elt F) S1024x257 .f32)) (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__anchor_kernel i arg1 harg1 arg2 harg2 arg3 harg3 arg4 harg4 arg5 harg5) K } := by
  refine ⟨?_, ?_, ?_, fun E K => ?run⟩
  case run =>
    simp only [cc1__anchor_kernel_eq_skeleton]; unfold cc1__anchor_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Hand

end
-- ==== Proof.KI.R1Frame.lean ====
/- REGION 1 (the anchor kernel on the target rows, pipeline 1), the frame side at the region's entry contents `V`:
   what the output block and the two carried scratch buffers hold after each grid point (`outsAt1`, by recursion on
   the point: the first point starts from zeros, every later point from what the point before left), the region
   invariant naming the scratch contents between points, the pipeline's proof data, and the body obligation. -/
import proofs.«430159_j88974542504689_1_alg».proof.Proof.KI.R1RunB

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves, buffer by buffer -/

/-- The pieces the body leaves in the output block's buffer at the first point cover it: every store is of the whole buffer. -/
theorem cover1_A_2 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) (y : S1024x257.Idx) :
    ∃ pc ∈ (kernelRun1_A c i arg1 harg1 arg2 harg2 arg3 harg3 arg4 harg4 arg5 harg5 hc0 x0 x1).1, y ∈ pc.1.set :=
  View.cover_of_tiledL (kernelRun1_A c i arg1 harg1 arg2 harg2 arg3 harg3 arg4 harg4 arg5 harg5 hc0 x0 x1).1 S1024x257.size (by sl_kernel_rfl) y

/-- What the body leaves in the output block's buffer at the first point: its pieces read back over arbitrary contents. -/
def out1_A_2 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) : Vec F S1024x257 .f32 :=
  VO1_2.read (Elt F) (VO1_2.writes (Elt F) VO1_2.junk (kernelRun1_A c i arg1 harg1 arg2 harg2 arg3 harg3 arg4 harg4 arg5 harg5 hc0 x0 x1).1)

/-- The pieces the body leaves in the running sums's buffer at the first point cover it: every store is of the whole buffer. -/
theorem scover1_A_0 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) (y : S1024x257.Idx) :
    ∃ pc ∈ (kernelRun1_A c i arg1 harg1 arg2 harg2 arg3 harg3 arg4 harg4 arg5 harg5 hc0 x0 x1).2.1, y ∈ pc.1.set :=
  View.cover_of_tiledL (kernelRun1_A c i arg1 harg1 arg2 harg2 arg3 harg3 arg4 harg4 arg5 harg5 hc0 x0 x1).2.1 S1024x257.size (by sl_kernel_rfl) y

/-- What the body leaves in the running sums's buffer at the first point: its pieces read back over arbitrary contents. -/
def sout1_A_0 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) : Vec F S1024x257 .f32 :=
  VS1_0.read (Elt F) (VS1_0.writes (Elt F) VS1_0.junk (kernelRun1_A c i arg1 harg1 arg2 harg2 arg3 harg3 arg4 harg4 arg5 harg5 hc0 x0 x1).2.1)

/-- The pieces the body leaves in the running counts's buffer at the first point cover it: every store is of the whole buffer. -/
theorem scover1_A_1 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) (y : S1024x1.Idx) :
    ∃ pc ∈ (kernelRun1_A c i arg1 harg1 arg2 harg2 arg3 harg3 arg4 harg4 arg5 harg5 hc0 x0 x1).2.2.1, y ∈ pc.1.set :=
  View.cover_of_tiledL (kernelRun1_A c i arg1 harg1 arg2 harg2 arg3 harg3 arg4 harg4 arg5 harg5 hc0 x0 x1).2.2.1 S1024x1.size (by sl_kernel_rfl) y

/-- What the body leaves in the running counts's buffer at the first point: its pieces read back over arbitrary contents. -/
def sout1_A_1 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) : Vec F S1024x1 .f32 :=
  VS1_1.read (Elt F) (VS1_1.writes (Elt F) VS1_1.junk (kernelRun1_A c i arg1 harg1 arg2 harg2 arg3 harg3 arg4 harg4 arg5 harg5 hc0 x0 x1).2.2.1)

/-- The pieces the body leaves in the output block's buffer at a later point cover it: every store is of the whole buffer. -/
theorem cover1_B_2 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) (y : S1024x257.Idx) :
    ∃ pc ∈ (kernelRun1_B c i arg1 harg1 arg2 harg2 arg3 harg3 arg4 harg4 arg5 harg5 hc0 x0 x1 xs0 xs1).1, y ∈ pc.1.set :=
  View.cover_of_tiledL (kernelRun1_B c i arg1 harg1 arg2 harg2 arg3 harg3 arg4 harg4 arg5 harg5 hc0 x0 x1 xs0 xs1).1 S1024x257.size (by sl_kernel_rfl) y

/-- What the body leaves in the output block's buffer at a later point: its pieces read back over arbitrary contents. -/
def out1_B_2 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) : Vec F S1024x257 .f32 :=
  VO1_2.read (Elt F) (VO1_2.writes (Elt F) VO1_2.junk (kernelRun1_B c i arg1 harg1 arg2 harg2 arg3 harg3 arg4 harg4 arg5 harg5 hc0 x0 x1 xs0 xs1).1)

/-- The pieces the body leaves in the running sums's buffer at a later point cover it: every store is of the whole buffer. -/
theorem scover1_B_0 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) (y : S1024x257.Idx) :
    ∃ pc ∈ (kernelRun1_B c i arg1 harg1 arg2 harg2 arg3 harg3 arg4 harg4 arg5 harg5 hc0 x0 x1 xs0 xs1).2.1, y ∈ pc.1.set :=
  View.cover_of_tiledL (kernelRun1_B c i arg1 harg1 arg2 harg2 arg3 harg3 arg4 harg4 arg5 harg5 hc0 x0 x1 xs0 xs1).2.1 S1024x257.size (by sl_kernel_rfl) y

/-- What the body leaves in the running sums's buffer at a later point: its pieces read back over arbitrary contents. -/
def sout1_B_0 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) : Vec F S1024x257 .f32 :=
  VS1_0.read (Elt F) (VS1_0.writes (Elt F) VS1_0.junk (kernelRun1_B c i arg1 harg1 arg2 harg2 arg3 harg3 arg4 harg4 arg5 harg5 hc0 x0 x1 xs0 xs1).2.1)

/-- The pieces the body leaves in the running counts's buffer at a later point cover it: every store is of the whole buffer. -/
theorem scover1_B_1 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) (y : S1024x1.Idx) :
    ∃ pc ∈ (kernelRun1_B c i arg1 harg1 arg2 harg2 arg3 harg3 arg4 harg4 arg5 harg5 hc0 x0 x1 xs0 xs1).2.2.1, y ∈ pc.1.set :=
  View.cover_of_tiledL (kernelRun1_B c i arg1 harg1 arg2 harg2 arg3 harg3 arg4 harg4 arg5 harg5 hc0 x0 x1 xs0 xs1).2.2.1 S1024x1.size (by sl_kernel_rfl) y

/-- What the body leaves in the running counts's buffer at a later point: its pieces read back over arbitrary contents. -/
def sout1_B_1 (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) : Vec F S1024x1 .f32 :=
  VS1_1.read (Elt F) (VS1_1.writes (Elt F) VS1_1.junk (kernelRun1_B c i arg1 harg1 arg2 harg2 arg3 harg3 arg4 harg4 arg5 harg5 hc0 x0 x1 xs0 xs1).2.2.1)

/-! ## What the three buffers hold after each point -/

/-- The triple (output block, running sums, running counts) the body leaves at the first point `t`. -/
def stepA1 (c : Dev nD) (t : Fin cfg1.N) (hc0 : cond1_0 (grid1.coords t)) :
    Vec F S1024x257 .f32 × Vec F S1024x257 .f32 × Vec F S1024x1 .f32 :=
  (out1_A_2 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t), sout1_A_0 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t), sout1_A_1 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t))

/-- The triple the body leaves at a later point `t`, from the sums `xs0` and counts `xs1` the point before left. -/
def stepB1 (c : Dev nD) (t : Fin cfg1.N) (hc0 : ¬cond1_0 (grid1.coords t)) (xs0 : Vec F S1024x257 .f32) (xs1 : Vec F S1024x1 .f32) :
    Vec F S1024x257 .f32 × Vec F S1024x257 .f32 × Vec F S1024x1 .f32 :=
  (out1_B_2 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t) xs0 xs1, sout1_B_0 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t) xs0 xs1, sout1_B_1 c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t) xs0 xs1)

/-- THE ACCUMULATION: (output block, running sums, running counts) after the body at position `n` — the first
    point from nothing, every later point from the sums and counts the point before left. -/
def outsAt1 (c : Dev nD) : (n : ℕ) → n < cfg1.N → Vec F S1024x257 .f32 × Vec F S1024x257 .f32 × Vec F S1024x1 .f32
  | 0, hn => stepA1 V c ⟨0, hn⟩ ((hcond1_0 ⟨0, hn⟩).mpr rfl)
  | n + 1, hn => stepB1 V c ⟨n + 1, hn⟩ (fun h => Nat.succ_ne_zero n ((hcond1_0 ⟨n + 1, hn⟩).mp h))
      (outsAt1 c n (Nat.lt_of_succ_lt hn)).2.1 (outsAt1 c n (Nat.lt_of_succ_lt hn)).2.2

/-- `outsAt1` at the first point. -/
theorem outsAt1_A (c : Dev nD) (t : Fin cfg1.N) (h0 : t.val = 0) :
    outsAt1 V c t.val t.isLt = stepA1 V c t ((hcond1_0 t).mpr h0) := by
  obtain ⟨n, hn⟩ := t
  cases n with
  | zero => exact rfl
  | succ n => exact absurd h0 (Nat.succ_ne_zero n)

/-- `outsAt1` at a later point: over what the point before left. -/
theorem outsAt1_B (c : Dev nD) (t : Fin cfg1.N) (h0 : ¬t.val = 0) :
    outsAt1 V c t.val t.isLt = stepB1 V c t (fun h => h0 ((hcond1_0 t).mp h))
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd rfl h0
  | succ n => exact rfl

/-! ## The region invariant -/

/-- The region invariant before position `n`: before the first point the class's (every scoped buffer of the core
    that is no staging buffer at anything, the generator register at some state); afterwards the same with the
    running sums and the running counts at what the point before left in them. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2) ∗ restBut1 (F := F) c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2) ∗ restBut1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
/-- The body at any point: the inputs' memrefs hold their blocks; the point is the first or not; the invariant hands
    the body the two carried scratch buffers (at anything at the first point, at what the point before left
    afterwards) and takes them back at this point's contents; the output's buffer is taken at anything and left
    at this point's output block; the other scoped buffers, the generator register and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h0 : t.val = 0
  · rw [outsAt1_A V c t h0]
    unfold stepA1 out1_A_2 sout1_A_0 sout1_A_1; (try dsimp only)
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩⟩
    iapply ((kernelRun1_A c (grid1.coords t) _ _ _ _ _ _ _ _ _ _ ((hcond1_0 t).mpr h0) (xblk1 V c t) (idblk1 V c t)).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _ _ _ _)
  · rw [outsAt1_B V c t h0]
    unfold stepB1 out1_B_2 sout1_B_0 sout1_B_1; (try dsimp only)
    rw [PhiS1_castSucc V c t, PhiS1_pos V c _ _ h0]
    iintro ⟨⟨⟨⟨HS0, HS1⟩, Hrest⟩, Hg⟩, Ho, ⟨%d0, H0⟩, ⟨%d1, H1⟩, ⟨%d2, H2⟩⟩
    iapply ((kernelRun1_B c (grid1.coords t) _ _ _ _ _ _ _ _ _ _ (fun h => h0 ((hcond1_0 t).mp h)) (xblk1 V c t) (idblk1 V c t) _ _).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _)
          · unfold owns; iexists _; isplitr
            swap; · iexact HS1
            ipureintro; exact View.read_writes_of_cover _ _ _ _ _ (scover1_B_1 c _ _ _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand

end
-- ==== Proof.KI.R2Runs.lean ====
/- REGION 2 (the residual kernel on the context rows, pipeline 2): what its runs share. Each window's block at a
   point, read off the region's entry contents `V`; the one branch condition of the body (the first grid point),
   in closed form over the grid; the staging and scratch memrefs the body is called with; the region invariant
   opened at the two scratch buffers the kernel carries between points (the running sums of residuals and the
   running counts). -/
import proofs.«430159_j88974542504689_1_alg».proof.Proof.Gen.KernelIdeal.Launch
import proofs.«430159_j88974542504689_1_alg».proof.Proof.Gen.KernelIdeal.Skeleton
import proofs.«430159_j88974542504689_1_alg».proof.Proof.Gen.KernelIdeal.Points
import Idealize.ShloMosaic.Lib.Pipeline.FrameBody
import Idealize.ShloMosaic.Lib.Ring
import Idealize.ShloMosaic.Lib.Tactic

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of rows at point `t` (window 0), at its literal type. -/
abbrev xblk2 (c : Dev nD) (t : Fin cfg2.N) : Vec F S512x257 .f32 := iblk2 V c 0 t
/-- The segment indices of the point's rows as a row (window 1), at its literal type. -/
abbrev idrow2 (c : Dev nD) (t : Fin cfg2.N) : Vec F S1x512 .i32 := iblk2 V c 1 t
/-- The same indices as a column (window 2), at its literal type. -/
abbrev idcol2 (c : Dev nD) (t : Fin cfg2.N) : Vec F S512x1 .i32 := iblk2 V c 2 t
/-- The anchors, one row per segment (window 3: the same block at every point), at its literal type. -/
abbrev anchor2 (c : Dev nD) (t : Fin cfg2.N) : Vec F S1024x257 .f32 := iblk2 V c 3 t

/-- Input window 0's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same for input window 3, whose block index is constant: fetched at the first point only, its buffer
    holds the block at every later point because the body leaves it in place and the index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional, from the grid coordinates: the point's coordinate is zero. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-! ## The memrefs the body is called with -/

/-- The staging buffer of the output window, through which its contents are stated. -/
abbrev VO2_4 : View sig .tc .vmem S1024x257 .f32 := (Memref.whole cc2_stg4_0 : Memref sig .tc .vmem S1024x257 .f32).view
/-- Each window's current staging memref at point `t`, spelled as the pipeline passes it, and its wholeness. -/
abbrev ms2_0 (t : Fin cfg2.N) : Memref sig .tc .vmem S512x257 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x257 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x257 .f32 := win2_4.stage (cfg2.slots t 4)
abbrev hs2_4 (t : Fin cfg2.N) : (ms2_4 t).IsWhole := hstage2_4 ((cfg2.slots t 4).cast nbuf2_4)
/-- The scratch operands: whole scoped buffers of the kernel's own — the running sums and the running counts. -/
abbrev scM2_0 : Memref sig .tc .vmem S1024x257 .f32 := Memref.whole cc2_scratch0
abbrev scM2_1 : Memref sig .tc .vmem S1024x1 .f32 := Memref.whole cc2_scratch1
/-- The two as views: what they hold is stated through them. -/
abbrev VS2_0 : View sig .tc .vmem S1024x257 .f32 := scM2_0.view
abbrev VS2_1 : View sig .tc .vmem S1024x1 .f32 := scM2_1.view

/-- The scoped buffers of the core that are neither a staging buffer of this pipeline nor one of its two scratch
    buffers, at some contents each: carried through the region unopened. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch operands as memrefs owned at some contents, the other scoped buffers
    unopened, and the generator register at some state: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 (F := F) c) ∗ (∃ r, prngReg c r)) := by
  unfold Pipeline.ΦA; rw [scopedRest2_split]; simp only [scM2_0, scM2_1, owns_whole]; try rfl

end Cert.KernelIdeal.Hand

end
-- ==== Proof.KI.R2RunA.lean ====
/- REGION 2, the body at the FIRST grid point (the conditional taken: both scratch buffers are zeroed before they
   are read): the whole body run on any whole memrefs, the four inputs' at given contents, the output's and the two
   scratch buffers' at anything; what each of the three buffers it stores into ends with, as the list of its stores
   (last first), is the witness the run finds. -/
import proofs.«430159_j88974542504689_1_alg».proof.Proof.KI.R2Runs

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large)
set_option maxHeartbeats 1000000 in
/-- The stores the body leaves in the output's staging buffer and in the two scratch buffers (last first) at a point
    where the conditional is taken, with the proof that the body runs from the inputs at `x0 … x3`, the other three
    buffers at anything, to the continuation holding the inputs as they were and those three with their stores written. -/
noncomputable def kernelRun2_A (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) :
    Σ' (L4 : List (View.Piece (Elt F) S1024x257 .f32)), Σ' (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__residual_kernel i arg1 harg1 arg2 harg2 arg3 harg3 arg4 harg4 arg5 harg5 arg6 harg6 arg7 harg7) K } := by
  refine ⟨?_, ?_, ?_, fun E K => ?run⟩
  case run =>
    simp only [cc2__residual_kernel_eq_skeleton]; unfold cc2__residual_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Hand

end
-- ==== Proof.KI.R2RunB.lean ====
/- REGION 2, the body at every LATER grid point (the conditional not taken: the two scratch buffers hold what the
   point before left): the whole body run on any whole memrefs, the four inputs' and the two scratch buffers' at
   given contents, the output's at anything; the stores each of the three buffers ends with are the witness. -/
import proofs.«430159_j88974542504689_1_alg».proof.Proof.KI.R2RunA

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large)
set_option maxHeartbeats 1000000 in
/-- The stores the body leaves in the output's staging buffer and in the two scratch buffers (last first) at a point
    where the conditional is not taken, with the proof that the body runs from the inputs at `x0 … x3`, the scratch
    buffers at `xs0`, `xs1`, the output's buffer at anything, to the continuation holding the inputs as they were
    and the three with their stores written. -/
noncomputable def kernelRun2_B (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) :
    Σ' (L4 : List (View.Piece (Elt F) S1024x257 .f32)), Σ' (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__residual_kernel i arg1 harg1 arg2 harg2 arg3 harg3 arg4 harg4 arg5 harg5 arg6 harg6 arg7 harg7) K } := by
  refine ⟨?_, ?_, ?_, fun E K => ?run⟩
  case run =>
    simp only [cc2__residual_kernel_eq_skeleton]; unfold cc2__residual_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Hand

end
-- ==== Proof.KI.R2Frame.lean ====
/- REGION 2 (the residual kernel on the context rows, pipeline 2), the frame side at the entry contents `V`: what
   the output's staging buffer and the two scratch buffers hold after each grid point (the running sums of
   residuals, the running counts and their quotient), the region invariant that carries the two scratch buffers
   from point to point, the pipeline's proof data and the body obligation at every point. -/
import proofs.«430159_j88974542504689_1_alg».proof.Proof.KI.R2RunB

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case of the body leaves -/

/-- The stores of the body at the first point into the output's staging buffer cover it. -/
theorem cover2_A_4 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) (y : S1024x257.Idx) :
    ∃ pc ∈ (kernelRun2_A c i arg1 harg1 arg2 harg2 arg3 harg3 arg4 harg4 arg5 harg5 arg6 harg6 arg7 harg7 hc0 x0 x1 x2 x3).1, y ∈ pc.1.set :=
  View.cover_of_tiledL (kernelRun2_A c i arg1 harg1 arg2 harg2 arg3 harg3 arg4 harg4 arg5 harg5 arg6 harg6 arg7 harg7 hc0 x0 x1 x2 x3).1 S1024x257.size (by sl_kernel_rfl) y

/-- What the body at the first point leaves in the output's staging buffer: its stores read back. -/
def out2_A_4 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) : Vec F S1024x257 .f32 :=
  VO2_4.read (Elt F) (VO2_4.writes (Elt F) VO2_4.junk (kernelRun2_A c i arg1 harg1 arg2 harg2 arg3 harg3 arg4 harg4 arg5 harg5 arg6 harg6 arg7 harg7 hc0 x0 x1 x2 x3).1)

/-- The stores of the body at the first point into the running sums cover them. -/
theorem scover2_A_0 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) (y : S1024x257.Idx) :
    ∃ pc ∈ (kernelRun2_A c i arg1 harg1 arg2 harg2 arg3 harg3 arg4 harg4 arg5 harg5 arg6 harg6 arg7 harg7 hc0 x0 x1 x2 x3).2.1, y ∈ pc.1.set :=
  View.cover_of_tiledL (kernelRun2_A c i arg1 harg1 arg2 harg2 arg3 harg3 arg4 harg4 arg5 harg5 arg6 harg6 arg7 harg7 hc0 x0 x1 x2 x3).2.1 S1024x257.size (by sl_kernel_rfl) y

/-- What the body at the first point leaves in the running sums: its stores read back. -/
def sout2_A_0 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) : Vec F S1024x257 .f32 :=
  VS2_0.read (Elt F) (VS2_0.writes (Elt F) VS2_0.junk (kernelRun2_A c i arg1 harg1 arg2 harg2 arg3 harg3 arg4 harg4 arg5 harg5 arg6 harg6 arg7 harg7 hc0 x0 x1 x2 x3).2.1)

/-- The stores of the body at the first point into the running counts cover them. -/
theorem scover2_A_1 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) (y : S1024x1.Idx) :
    ∃ pc ∈ (kernelRun2_A c i arg1 harg1 arg2 harg2 arg3 harg3 arg4 harg4 arg5 harg5 arg6 harg6 arg7 harg7 hc0 x0 x1 x2 x3).2.2.1, y ∈ pc.1.set :=
  View.cover_of_tiledL (kernelRun2_A c i arg1 harg1 arg2 harg2 arg3 harg3 arg4 harg4 arg5 harg5 arg6 harg6 arg7 harg7 hc0 x0 x1 x2 x3).2.2.1 S1024x1.size (by sl_kernel_rfl) y

/-- What the body at the first point leaves in the running counts: its stores read back. -/
def sout2_A_1 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) : Vec F S1024x1 .f32 :=
  VS2_1.read (Elt F) (VS2_1.writes (Elt F) VS2_1.junk (kernelRun2_A c i arg1 harg1 arg2 harg2 arg3 harg3 arg4 harg4 arg5 harg5 arg6 harg6 arg7 harg7 hc0 x0 x1 x2 x3).2.2.1)

/-- The stores of the body at a later point into the output's staging buffer cover it. -/
theorem cover2_B_4 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x257.Idx) :
    ∃ pc ∈ (kernelRun2_B c i arg1 harg1 arg2 harg2 arg3 harg3 arg4 harg4 arg5 harg5 arg6 harg6 arg7 harg7 hc0 x0 x1 x2 x3 xs0 xs1).1, y ∈ pc.1.set :=
  View.cover_of_tiledL (kernelRun2_B c i arg1 harg1 arg2 harg2 arg3 harg3 arg4 harg4 arg5 harg5 arg6 harg6 arg7 harg7 hc0 x0 x1 x2 x3 xs0 xs1).1 S1024x257.size (by sl_kernel_rfl) y

/-- What the body at a later point leaves in the output's staging buffer: its stores read back. -/
def out2_B_4 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x257 .f32 :=
  VO2_4.read (Elt F) (VO2_4.writes (Elt F) VO2_4.junk (kernelRun2_B c i arg1 harg1 arg2 harg2 arg3 harg3 arg4 harg4 arg5 harg5 arg6 harg6 arg7 harg7 hc0 x0 x1 x2 x3 xs0 xs1).1)

/-- The stores of the body at a later point into the running sums cover them. -/
theorem scover2_B_0 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x257.Idx) :
    ∃ pc ∈ (kernelRun2_B c i arg1 harg1 arg2 harg2 arg3 harg3 arg4 harg4 arg5 harg5 arg6 harg6 arg7 harg7 hc0 x0 x1 x2 x3 xs0 xs1).2.1, y ∈ pc.1.set :=
  View.cover_of_tiledL (kernelRun2_B c i arg1 harg1 arg2 harg2 arg3 harg3 arg4 harg4 arg5 harg5 arg6 harg6 arg7 harg7 hc0 x0 x1 x2 x3 xs0 xs1).2.1 S1024x257.size (by sl_kernel_rfl) y

/-- What the body at a later point leaves in the running sums: its stores read back. -/
def sout2_B_0 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x257 .f32 :=
  VS2_0.read (Elt F) (VS2_0.writes (Elt F) VS2_0.junk (kernelRun2_B c i arg1 harg1 arg2 harg2 arg3 harg3 arg4 harg4 arg5 harg5 arg6 harg6 arg7 harg7 hc0 x0 x1 x2 x3 xs0 xs1).2.1)

/-- The stores of the body at a later point into the running counts cover them. -/
theorem scover2_B_1 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x1.Idx) :
    ∃ pc ∈ (kernelRun2_B c i arg1 harg1 arg2 harg2 arg3 harg3 arg4 harg4 arg5 harg5 arg6 harg6 arg7 harg7 hc0 x0 x1 x2 x3 xs0 xs1).2.2.1, y ∈ pc.1.set :=
  View.cover_of_tiledL (kernelRun2_B c i arg1 harg1 arg2 harg2 arg3 harg3 arg4 harg4 arg5 harg5 arg6 harg6 arg7 harg7 hc0 x0 x1 x2 x3 xs0 xs1).2.2.1 S1024x1.size (by sl_kernel_rfl) y

/-- What the body at a later point leaves in the running counts: its stores read back. -/
def sout2_B_1 (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x1 .f32 :=
  VS2_1.read (Elt F) (VS2_1.writes (Elt F) VS2_1.junk (kernelRun2_B c i arg1 harg1 arg2 harg2 arg3 harg3 arg4 harg4 arg5 harg5 arg6 harg6 arg7 harg7 hc0 x0 x1 x2 x3 xs0 xs1).2.2.1)

/-! ## What the buffers hold after each point -/

/-- The accumulation: the output's staging buffer, the running sums and the running counts after the body at point
    `n` — at the first point the case that zeroes the scratch first, at every later point the other case run over
    what the point before left in the two scratch buffers. -/
def outsAt2 (c : Dev nD) : (n : ℕ) → n < cfg2.N → Vec F S1024x257 .f32 × Vec F S1024x257 .f32 × Vec F S1024x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩))
  | n + 1, hn => (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2)

/-- `outsAt2` at the first point. -/
theorem outsAt2_A (c : Dev nD) (t : Fin cfg2.N) (h0 : t.val = 0) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t) (iblk2 V c 3 t)) := by
  obtain ⟨n, hn⟩ := t
  cases n with
  | zero => exact rfl
  | succ n => exact absurd h0 (Nat.succ_ne_zero n)

/-- `outsAt2` at a later point: over what the point before left. -/
theorem outsAt2_B (c : Dev nD) (t : Fin cfg2.N) (h0 : ¬t.val = 0) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd rfl h0
  | succ n => exact rfl

/-! ## The region invariant -/

/-- The region invariant before position `n`: before the first point the class's (every scratch buffer at
    anything); afterwards the two scratch buffers at what the point before left in them, the other scoped buffers
    unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the two scratch buffers at that point's contents. -/
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2)) ∗ restBut2 (F := F) c) ∗ (∃ r, prngReg c r)) := rfl

/-- Before a point that is not the first: the two scratch buffers at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2)) ∗ restBut2 (F := F) c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 4800000 in
/-- The body at any point: the inputs' memrefs hold their blocks; the closed form of the condition says which case
    the point is in; the invariant hands the body the two scratch buffers (at anything at the first point, at what
    the point before left afterwards) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4]
  by_cases h0 : t.val = 0
  · rw [outsAt2_A V c t h0]
    unfold out2_A_4 sout2_A_0 sout2_A_1; (try dsimp only)
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ _ _ ((hcond2_0 t).mpr h0) (iblk2 V c 0 t) (iblk2 V c 1 t) (iblk2 V c 2 t) (iblk2 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A_4 c _ _ _ _ _ _ _ _ _ _ _ _ _ _ _ _ _ _ _ _)
  · rw [outsAt2_B V c t h0]
    unfold out2_B_4 sout2_B_0 sout2_B_1; (try dsimp only)
    rw [PhiS2_castSucc V c t, PhiS2_pos V c _ _ h0]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ _ _ (fun h => h0 ((hcond2_0 t).mp h)) (iblk2 V c 0 t) (iblk2 V c 1 t) (iblk2 V c 2 t) (iblk2 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _)
          · unfold owns; iexists _; isplitr
            swap; · iexact HS1
            ipureintro; exact View.read_writes_of_cover _ _ _ _ _ (scover2_B_1 c _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch buffers' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 512 := N_2; omega)

end Cert.KernelIdeal.Hand

end
-- ==== Proof.KI.R3Runs.lean ====
/- REGION 3 (the residual kernel on the target rows, pipeline 3): what its runs share. Each window's block at a
   point, read off the region's entry contents `V`; the one branch condition of the body (the first grid point),
   in closed form over the grid; the staging and scratch memrefs the body is called with; the region invariant
   opened at the two scratch buffers the kernel carries between points (the running sums of residuals and the
   running counts). -/
import proofs.«430159_j88974542504689_1_alg».proof.Proof.Gen.KernelIdeal.Launch
import proofs.«430159_j88974542504689_1_alg».proof.Proof.Gen.KernelIdeal.Skeleton
import proofs.«430159_j88974542504689_1_alg».proof.Proof.Gen.KernelIdeal.Points
import Idealize.ShloMosaic.Lib.Pipeline.FrameBody
import Idealize.ShloMosaic.Lib.Ring
import Idealize.ShloMosaic.Lib.Tactic

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of rows at point `t` (window 0), at its literal type. -/
abbrev xblk3 (c : Dev nD) (t : Fin cfg3.N) : Vec F S512x257 .f32 := iblk3 V c 0 t
/-- The segment indices of the point's rows as a row (window 1), at its literal type. -/
abbrev idrow3 (c : Dev nD) (t : Fin cfg3.N) : Vec F S1x512 .i32 := iblk3 V c 1 t
/-- The same indices as a column (window 2), at its literal type. -/
abbrev idcol3 (c : Dev nD) (t : Fin cfg3.N) : Vec F S512x1 .i32 := iblk3 V c 2 t
/-- The anchors, one row per segment (window 3: the same block at every point), at its literal type. -/
abbrev anchor3 (c : Dev nD) (t : Fin cfg3.N) : Vec F S1024x257 .f32 := iblk3 V c 3 t

/-- Input window 0's current staging buffer holds its block at every point, for any proof data whose array is
    `V`'s (`hA`) and whose body leaves the block in place (`hafter`): the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for input window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The same for input window 3, whose block index is constant: fetched at the first point only, its buffer
    holds the block at every later point because the body leaves it in place and the index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's one conditional, from the grid coordinates: the point's coordinate is zero. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-! ## The memrefs the body is called with -/

/-- The staging buffer of the output window, through which its contents are stated. -/
abbrev VO3_4 : View sig .tc .vmem S1024x257 .f32 := (Memref.whole cc3_stg4_0 : Memref sig .tc .vmem S1024x257 .f32).view
/-- Each window's current staging memref at point `t`, spelled as the pipeline passes it, and its wholeness. -/
abbrev ms3_0 (t : Fin cfg3.N) : Memref sig .tc .vmem S512x257 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x257 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x257 .f32 := win3_4.stage (cfg3.slots t 4)
abbrev hs3_4 (t : Fin cfg3.N) : (ms3_4 t).IsWhole := hstage3_4 ((cfg3.slots t 4).cast nbuf3_4)
/-- The scratch operands: whole scoped buffers of the kernel's own — the running sums and the running counts. -/
abbrev scM3_0 : Memref sig .tc .vmem S1024x257 .f32 := Memref.whole cc3_scratch0
abbrev scM3_1 : Memref sig .tc .vmem S1024x1 .f32 := Memref.whole cc3_scratch1
/-- The two as views: what they hold is stated through them. -/
abbrev VS3_0 : View sig .tc .vmem S1024x257 .f32 := scM3_0.view
abbrev VS3_1 : View sig .tc .vmem S1024x1 .f32 := scM3_1.view

/-- The scoped buffers of the core that are neither a staging buffer of this pipeline nor one of its two scratch
    buffers, at some contents each: carried through the region unopened. -/
abbrev restBut3 (c : Dev nD) : sProp 𝕄 :=
  Pipeline.scopedRestBut (Ix := Unit) (Name := ℕ) (U := UR sig nD τ) (Lvl := ℕ) (Val := Elt F) spec3 c [cc3_scratch0, cc3_scratch1]

/-- The class invariant with the two scratch operands as memrefs owned at some contents, the other scoped buffers
    unopened, and the generator register at some state: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ restBut3 (F := F) c) ∗ (∃ r, prngReg c r)) := by
  unfold Pipeline.ΦA; rw [scopedRest3_split]; simp only [scM3_0, scM3_1, owns_whole]; try rfl

end Cert.KernelIdeal.Hand

end
-- ==== Proof.KI.R3RunA.lean ====
/- REGION 3, the body at the FIRST grid point (the conditional taken: both scratch buffers are zeroed before they
   are read): the whole body run on any whole memrefs, the four inputs' at given contents, the output's and the two
   scratch buffers' at anything; what each of the three buffers it stores into ends with, as the list of its stores
   (last first), is the witness the run finds. -/
import proofs.«430159_j88974542504689_1_alg».proof.Proof.KI.R3Runs

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large)
set_option maxHeartbeats 1000000 in
/-- The stores the body leaves in the output's staging buffer and in the two scratch buffers (last first) at a point
    where the conditional is taken, with the proof that the body runs from the inputs at `x0 … x3`, the other three
    buffers at anything, to the continuation holding the inputs as they were and those three with their stores written. -/
noncomputable def kernelRun3_A (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) :
    Σ' (L4 : List (View.Piece (Elt F) S1024x257 .f32)), Σ' (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__residual_kernel i arg1 harg1 arg2 harg2 arg3 harg3 arg4 harg4 arg5 harg5 arg6 harg6 arg7 harg7) K } := by
  refine ⟨?_, ?_, ?_, fun E K => ?run⟩
  case run =>
    simp only [cc3__residual_kernel_eq_skeleton]; unfold cc3__residual_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Hand

end
-- ==== Proof.KI.R3RunB.lean ====
/- REGION 3, the body at every LATER grid point (the conditional not taken: the two scratch buffers hold what the
   point before left): the whole body run on any whole memrefs, the four inputs' and the two scratch buffers' at
   given contents, the output's at anything; the stores each of the three buffers ends with are the witness. -/
import proofs.«430159_j88974542504689_1_alg».proof.Proof.KI.R3RunA

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large)
set_option maxHeartbeats 1000000 in
/-- The stores the body leaves in the output's staging buffer and in the two scratch buffers (last first) at a point
    where the conditional is not taken, with the proof that the body runs from the inputs at `x0 … x3`, the scratch
    buffers at `xs0`, `xs1`, the output's buffer at anything, to the continuation holding the inputs as they were
    and the three with their stores written. -/
noncomputable def kernelRun3_B (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) :
    Σ' (L4 : List (View.Piece (Elt F) S1024x257 .f32)), Σ' (LS0 : List (View.Piece (Elt F) S1024x257 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__residual_kernel i arg1 harg1 arg2 harg2 arg3 harg3 arg4 harg4 arg5 harg5 arg6 harg6 arg7 harg7) K } := by
  refine ⟨?_, ?_, ?_, fun E K => ?run⟩
  case run =>
    simp only [cc3__residual_kernel_eq_skeleton]; unfold cc3__residual_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Hand

end
-- ==== Proof.KI.R3Frame.lean ====
/- REGION 3 (the residual kernel on the target rows, pipeline 3), the frame side at the entry contents `V`: what
   the output's staging buffer and the two scratch buffers hold after each grid point (the running sums of
   residuals, the running counts and their quotient), the region invariant that carries the two scratch buffers
   from point to point, the pipeline's proof data and the body obligation at every point. -/
import proofs.«430159_j88974542504689_1_alg».proof.Proof.KI.R3RunB

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case of the body leaves -/

/-- The stores of the body at the first point into the output's staging buffer cover it. -/
theorem cover3_A_4 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) (y : S1024x257.Idx) :
    ∃ pc ∈ (kernelRun3_A c i arg1 harg1 arg2 harg2 arg3 harg3 arg4 harg4 arg5 harg5 arg6 harg6 arg7 harg7 hc0 x0 x1 x2 x3).1, y ∈ pc.1.set :=
  View.cover_of_tiledL (kernelRun3_A c i arg1 harg1 arg2 harg2 arg3 harg3 arg4 harg4 arg5 harg5 arg6 harg6 arg7 harg7 hc0 x0 x1 x2 x3).1 S1024x257.size (by sl_kernel_rfl) y

/-- What the body at the first point leaves in the output's staging buffer: its stores read back. -/
def out3_A_4 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) : Vec F S1024x257 .f32 :=
  VO3_4.read (Elt F) (VO3_4.writes (Elt F) VO3_4.junk (kernelRun3_A c i arg1 harg1 arg2 harg2 arg3 harg3 arg4 harg4 arg5 harg5 arg6 harg6 arg7 harg7 hc0 x0 x1 x2 x3).1)

/-- The stores of the body at the first point into the running sums cover them. -/
theorem scover3_A_0 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) (y : S1024x257.Idx) :
    ∃ pc ∈ (kernelRun3_A c i arg1 harg1 arg2 harg2 arg3 harg3 arg4 harg4 arg5 harg5 arg6 harg6 arg7 harg7 hc0 x0 x1 x2 x3).2.1, y ∈ pc.1.set :=
  View.cover_of_tiledL (kernelRun3_A c i arg1 harg1 arg2 harg2 arg3 harg3 arg4 harg4 arg5 harg5 arg6 harg6 arg7 harg7 hc0 x0 x1 x2 x3).2.1 S1024x257.size (by sl_kernel_rfl) y

/-- What the body at the first point leaves in the running sums: its stores read back. -/
def sout3_A_0 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) : Vec F S1024x257 .f32 :=
  VS3_0.read (Elt F) (VS3_0.writes (Elt F) VS3_0.junk (kernelRun3_A c i arg1 harg1 arg2 harg2 arg3 harg3 arg4 harg4 arg5 harg5 arg6 harg6 arg7 harg7 hc0 x0 x1 x2 x3).2.1)

/-- The stores of the body at the first point into the running counts cover them. -/
theorem scover3_A_1 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) (y : S1024x1.Idx) :
    ∃ pc ∈ (kernelRun3_A c i arg1 harg1 arg2 harg2 arg3 harg3 arg4 harg4 arg5 harg5 arg6 harg6 arg7 harg7 hc0 x0 x1 x2 x3).2.2.1, y ∈ pc.1.set :=
  View.cover_of_tiledL (kernelRun3_A c i arg1 harg1 arg2 harg2 arg3 harg3 arg4 harg4 arg5 harg5 arg6 harg6 arg7 harg7 hc0 x0 x1 x2 x3).2.2.1 S1024x1.size (by sl_kernel_rfl) y

/-- What the body at the first point leaves in the running counts: its stores read back. -/
def sout3_A_1 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) : Vec F S1024x1 .f32 :=
  VS3_1.read (Elt F) (VS3_1.writes (Elt F) VS3_1.junk (kernelRun3_A c i arg1 harg1 arg2 harg2 arg3 harg3 arg4 harg4 arg5 harg5 arg6 harg6 arg7 harg7 hc0 x0 x1 x2 x3).2.2.1)

/-- The stores of the body at a later point into the output's staging buffer cover it. -/
theorem cover3_B_4 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x257.Idx) :
    ∃ pc ∈ (kernelRun3_B c i arg1 harg1 arg2 harg2 arg3 harg3 arg4 harg4 arg5 harg5 arg6 harg6 arg7 harg7 hc0 x0 x1 x2 x3 xs0 xs1).1, y ∈ pc.1.set :=
  View.cover_of_tiledL (kernelRun3_B c i arg1 harg1 arg2 harg2 arg3 harg3 arg4 harg4 arg5 harg5 arg6 harg6 arg7 harg7 hc0 x0 x1 x2 x3 xs0 xs1).1 S1024x257.size (by sl_kernel_rfl) y

/-- What the body at a later point leaves in the output's staging buffer: its stores read back. -/
def out3_B_4 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x257 .f32 :=
  VO3_4.read (Elt F) (VO3_4.writes (Elt F) VO3_4.junk (kernelRun3_B c i arg1 harg1 arg2 harg2 arg3 harg3 arg4 harg4 arg5 harg5 arg6 harg6 arg7 harg7 hc0 x0 x1 x2 x3 xs0 xs1).1)

/-- The stores of the body at a later point into the running sums cover them. -/
theorem scover3_B_0 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x257.Idx) :
    ∃ pc ∈ (kernelRun3_B c i arg1 harg1 arg2 harg2 arg3 harg3 arg4 harg4 arg5 harg5 arg6 harg6 arg7 harg7 hc0 x0 x1 x2 x3 xs0 xs1).2.1, y ∈ pc.1.set :=
  View.cover_of_tiledL (kernelRun3_B c i arg1 harg1 arg2 harg2 arg3 harg3 arg4 harg4 arg5 harg5 arg6 harg6 arg7 harg7 hc0 x0 x1 x2 x3 xs0 xs1).2.1 S1024x257.size (by sl_kernel_rfl) y

/-- What the body at a later point leaves in the running sums: its stores read back. -/
def sout3_B_0 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x257 .f32 :=
  VS3_0.read (Elt F) (VS3_0.writes (Elt F) VS3_0.junk (kernelRun3_B c i arg1 harg1 arg2 harg2 arg3 harg3 arg4 harg4 arg5 harg5 arg6 harg6 arg7 harg7 hc0 x0 x1 x2 x3 xs0 xs1).2.1)

/-- The stores of the body at a later point into the running counts cover them. -/
theorem scover3_B_1 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) (y : S1024x1.Idx) :
    ∃ pc ∈ (kernelRun3_B c i arg1 harg1 arg2 harg2 arg3 harg3 arg4 harg4 arg5 harg5 arg6 harg6 arg7 harg7 hc0 x0 x1 x2 x3 xs0 xs1).2.2.1, y ∈ pc.1.set :=
  View.cover_of_tiledL (kernelRun3_B c i arg1 harg1 arg2 harg2 arg3 harg3 arg4 harg4 arg5 harg5 arg6 harg6 arg7 harg7 hc0 x0 x1 x2 x3 xs0 xs1).2.2.1 S1024x1.size (by sl_kernel_rfl) y

/-- What the body at a later point leaves in the running counts: its stores read back. -/
def sout3_B_1 (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) : Vec F S1024x1 .f32 :=
  VS3_1.read (Elt F) (VS3_1.writes (Elt F) VS3_1.junk (kernelRun3_B c i arg1 harg1 arg2 harg2 arg3 harg3 arg4 harg4 arg5 harg5 arg6 harg6 arg7 harg7 hc0 x0 x1 x2 x3 xs0 xs1).2.2.1)

/-! ## What the buffers hold after each point -/

/-- The accumulation: the output's staging buffer, the running sums and the running counts after the body at point
    `n` — at the first point the case that zeroes the scratch first, at every later point the other case run over
    what the point before left in the two scratch buffers. -/
def outsAt3 (c : Dev nD) : (n : ℕ) → n < cfg3.N → Vec F S1024x257 .f32 × Vec F S1024x257 .f32 × Vec F S1024x1 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr rfl) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr rfl) (iblk3 V c 0 ⟨0, hn⟩) (iblk3 V c 1 ⟨0, hn⟩) (iblk3 V c 2 ⟨0, hn⟩) (iblk3 V c 3 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr rfl) (iblk3 V c 0 ⟨0, hn⟩) (iblk3 V c 1 ⟨0, hn⟩) (iblk3 V c 2 ⟨0, hn⟩) (iblk3 V c 3 ⟨0, hn⟩))
  | n + 1, hn => (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) (fun h => Nat.succ_ne_zero n ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) (fun h => Nat.succ_ne_zero n ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) (fun h => Nat.succ_ne_zero n ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2)

/-- `outsAt3` at the first point. -/
theorem outsAt3_A (c : Dev nD) (t : Fin cfg3.N) (h0 : t.val = 0) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (iblk3 V c 0 t) (iblk3 V c 1 t) (iblk3 V c 2 t) (iblk3 V c 3 t), sout3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (iblk3 V c 0 t) (iblk3 V c 1 t) (iblk3 V c 2 t) (iblk3 V c 3 t)) := by
  obtain ⟨n, hn⟩ := t
  cases n with
  | zero => exact rfl
  | succ n => exact absurd h0 (Nat.succ_ne_zero n)

/-- `outsAt3` at a later point: over what the point before left. -/
theorem outsAt3_B (c : Dev nD) (t : Fin cfg3.N) (h0 : ¬t.val = 0) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2, sout3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact rfl

/-! ## The region invariant -/

/-- The region invariant before position `n`: before the first point the class's (every scratch buffer at
    anything); afterwards the two scratch buffers at what the point before left in them, the other scoped buffers
    unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the two scratch buffers at that point's contents. -/
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2)) ∗ restBut3 (F := F) c) ∗ (∃ r, prngReg c r)) := rfl

/-- Before a point that is not the first: the two scratch buffers at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2)) ∗ restBut3 (F := F) c) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

set_option maxHeartbeats 4800000 in
/-- The body at any point: the inputs' memrefs hold their blocks; the closed form of the condition says which case
    the point is in; the invariant hands the body the two scratch buffers (at anything at the first point, at what
    the point before left afterwards) and takes them back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3, after3_4]
  by_cases h0 : t.val = 0
  · rw [outsAt3_A V c t h0]
    unfold out3_A_4 sout3_A_0 sout3_A_1; (try dsimp only)
    rw [PhiS3_castSucc V c t, PhiS3_zero V c _ _ h0, PhiA3_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ _ _ ((hcond3_0 t).mpr h0) (iblk3 V c 0 t) (iblk3 V c 1 t) (iblk3 V c 2 t) (iblk3 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _ _ _)
          · unfold owns; iexists _; isplitr
            swap; · iexact HS1
            ipureintro; exact View.read_writes_of_cover _ _ _ _ _ (scover3_A_1 c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_A_4 c _ _ _ _ _ _ _ _ _ _ _ _ _ _ _ _ _ _ _ _)
  · rw [outsAt3_B V c t h0]
    unfold out3_B_4 sout3_B_0 sout3_B_1; (try dsimp only)
    rw [PhiS3_castSucc V c t, PhiS3_pos V c _ _ h0]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ _ _ (fun h => h0 ((hcond3_0 t).mp h)) (iblk3 V c 0 t) (iblk3 V c 1 t) (iblk3 V c 2 t) (iblk3 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _)
          · unfold owns; iexists _; isplitr
            swap; · iexact HS1
            ipureintro; exact View.read_writes_of_cover _ _ _ _ _ (scover3_B_1 c _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B_4 c _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch buffers' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 512 := N_3; omega)

end Cert.KernelIdeal.Hand

end
-- ==== Proof.KI.R4Frame.lean ====
/- REGION 4 of @main (custom_call 4, the decode kernel `cc4__decode_kernel` with its part `k4_part1`, pipeline `cfg4`,
   256 grid points), frame side, at a PARAMETER `V` — the TensorCore's buffer contents when the region is entered.

   The body loads each of its seven input windows' staging buffers whole (0 the x block 1024×256, 1 the id column
   1024×1, 2 the table 1024×269, 3–6 the two decoder layers' weights and biases), computes, and stores once over the
   whole of the output window's buffer (7, 1024×2): what it leaves there is one closed function `out4_7` of the seven
   input blocks, and every input buffer holds its window's block at every point — windows 0 and 1 are fetched at every
   point, windows 2–6 have a constant block index and are fetched at point 0 only, where "not fetched" means "the block
   index did not move", so the buffer still holds the block. From these: the proof data `dat4` of the pipeline and its
   body obligation at every point. Generic in the float carrier `F`. -/
import proofs.«430159_j88974542504689_1_alg».proof.Proof.Gen.KernelIdeal.Launch
import proofs.«430159_j88974542504689_1_alg».proof.Proof.Gen.KernelIdeal.Skeleton
import proofs.«430159_j88974542504689_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the x block; fetched at every point) has its current staging buffer at its block at
    every point, for ANY proof data whose array is `V`'s (`hA`) and whose body leaves the block in place (`hafter`);
    the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 (the id column; fetched at every point) has its current staging buffer at its block at
    every point, for ANY proof data whose array is `V`'s (`hA`) and whose body leaves the block in place (`hafter`);
    the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 (the table; of constant block index, fetched at point 0 only: at a later point the index has not moved and the buffer still holds the block) has its current staging buffer at its block at
    every point, for ANY proof data whose array is `V`'s (`hA`) and whose body leaves the block in place (`hafter`);
    the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 (the first decoder weight; of constant block index, fetched at point 0 only: at a later point the index has not moved and the buffer still holds the block) has its current staging buffer at its block at
    every point, for ANY proof data whose array is `V`'s (`hA`) and whose body leaves the block in place (`hafter`);
    the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 (the first decoder bias; of constant block index, fetched at point 0 only: at a later point the index has not moved and the buffer still holds the block) has its current staging buffer at its block at
    every point, for ANY proof data whose array is `V`'s (`hA`) and whose body leaves the block in place (`hafter`);
    the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5 (the second decoder weight; of constant block index, fetched at point 0 only: at a later point the index has not moved and the buffer still holds the block) has its current staging buffer at its block at
    every point, for ANY proof data whose array is `V`'s (`hA`) and whose body leaves the block in place (`hafter`);
    the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6 (the second decoder bias; of constant block index, fetched at point 0 only: at a later point the index has not moved and the buffer still holds the block) has its current staging buffer at its block at
    every point, for ANY proof data whose array is `V`'s (`hA`) and whose body leaves the block in place (`hafter`);
    the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every buffer through its whole rectangle -/

abbrev r4_0 : Rect S1024x256 := Rect.unit (s := S1024x256) ![0, 0] S1024x256.size inb_S1024x256_S1024x256_0_0
abbrev r4_1 : Rect S1024x1 := Rect.unit (s := S1024x1) ![0, 0] S1024x1.size inb_S1024x1_S1024x1_0_0
abbrev r4_2 : Rect S1024x269 := Rect.unit (s := S1024x269) ![0, 0] S1024x269.size inb_S1024x269_S1024x269_0_0
abbrev r4_3 : Rect S256x128 := Rect.unit (s := S256x128) ![0, 0] S256x128.size inb_S256x128_S256x128_0_0
abbrev r4_4 : Rect S1x128 := Rect.unit (s := S1x128) ![0, 0] S1x128.size inb_S1x128_S1x128_0_0
abbrev r4_5 : Rect S128x8 := Rect.unit (s := S128x8) ![0, 0] S128x8.size inb_S128x8_S128x8_0_0
abbrev r4_6 : Rect S1x8 := Rect.unit (s := S1x8) ![0, 0] S1x8.size inb_S1x8_S1x8_0_0
abbrev r4_7 : Rect S1024x2 := Rect.unit (s := S1024x2) ![0, 0] S1024x2.size inb_S1024x2_S1024x2_0_0

/-! ## What the body leaves in the output window's buffer -/

/-- Window 7's staging buffer after the body, from the seven input windows' blocks: its one store as a piece over
    the whole buffer, the payload the skeleton's (`k4_pay1` of the part's results `k4_pay3` … `k4_pay10` of the loads). -/
def out4_7 (x0 : Vec F S1024x256 .f32) (x1 : Vec F S1024x1 .i32) (x2 : Vec F S1024x269 .f32) (x3 : Vec F S256x128 .f32) (x4 : Vec F S1x128 .f32) (x5 : Vec F S128x8 .f32) (x6 : Vec F S1x8 .f32) : Vec F S1024x2 .f32 :=
  View.canon [⟨r4_7, k4_pay1 (k4_pay3 (View.ld x1 r4_1) (View.ld x2 r4_2)) (k4_pay4 (View.ld x1 r4_1) (View.ld x2 r4_2)) (k4_pay5 (View.ld x1 r4_1) (View.ld x2 r4_2)) (k4_pay6 (View.ld x1 r4_1) (View.ld x2 r4_2))
      (k4_pay8 (View.ld x1 r4_1) (View.ld x2 r4_2) (View.ld x0 r4_0) (View.ld x3 r4_3) (View.ld x4 r4_4) (View.ld x5 r4_5) (View.ld x6 r4_6))
      (k4_pay9 (View.ld x1 r4_1) (View.ld x2 r4_2) (View.ld x0 r4_0) (View.ld x3 r4_3) (View.ld x4 r4_4) (View.ld x5 r4_5) (View.ld x6 r4_6))
      (Scalar.ofBits .f32 0x00000000#32)
      (k4_pay10 (View.ld x1 r4_1) (View.ld x2 r4_2) (View.ld x0 r4_0) (View.ld x3 r4_3) (View.ld x4 r4_4) (View.ld x5 r4_5) (View.ld x6 r4_6))⟩]

/-- The zero offsets of a rank-2 whole-buffer access, as the constant function. -/
theorem offsets_zero2 : (![0, 0] : Fin 2 → Nat) = fun _ => 0 := funext fun a => by
  match a with
  | ⟨0, _⟩ => rfl
  | ⟨1, _⟩ => rfl

/-- The one store covers the buffer and every load reads its buffer whole, so what the body leaves is the payload
    of the blocks themselves. -/
theorem out4_7_eq (x0 : Vec F S1024x256 .f32) (x1 : Vec F S1024x1 .i32) (x2 : Vec F S1024x269 .f32) (x3 : Vec F S256x128 .f32) (x4 : Vec F S1x128 .f32) (x5 : Vec F S128x8 .f32) (x6 : Vec F S1x8 .f32) :
    out4_7 x0 x1 x2 x3 x4 x5 x6 =
      k4_pay1 (k4_pay3 x1 x2) (k4_pay4 x1 x2) (k4_pay5 x1 x2) (k4_pay6 x1 x2) (k4_pay8 x1 x2 x0 x3 x4 x5 x6) (k4_pay9 x1 x2 x0 x3 x4 x5 x6)
      (Scalar.ofBits .f32 0x00000000#32) (k4_pay10 x1 x2 x0 x3 x4 x5 x6) := by
  unfold out4_7
  rw [View.canon_unit_zero offsets_zero2]
  simp only [View.ld_unit_zero (S := S1024x256) offsets_zero2, View.ld_unit_zero (S := S1024x1) offsets_zero2,
    View.ld_unit_zero (S := S1024x269) offsets_zero2, View.ld_unit_zero (S := S256x128) offsets_zero2,
    View.ld_unit_zero (S := S1x128) offsets_zero2, View.ld_unit_zero (S := S128x8) offsets_zero2,
    View.ld_unit_zero (S := S1x8) offsets_zero2]

/-- Its store tiles the buffer, so it covers it. -/
theorem cover4_7 (p0 : Vec F S1024x2 .f32) (y : S1024x2.Idx) :
    ∃ pc ∈ ([⟨r4_7, p0⟩] : List (View.Piece (Elt F) S1024x2 .f32)), y ∈ pc.1.set :=
  ⟨_, List.mem_singleton_self _, View.mem_set_unit_zero (S := S1024x2) offsets_zero2 inb_S1024x2_S1024x2_0_0 y⟩

/-! ## The body's triple -/

set_option maxHeartbeats 1000000 in
/-- The kernel body on whole staging memrefs, the inputs' at read contents `xW` and the output's at anything, runs to
    the continuation holding the inputs' as they were and the output's at `out4_7` of the inputs': the printed functions
    are their skeletons, run operation by operation through the part call; the load of the output buffer ahead of the
    store reads a value nothing uses. -/
theorem sound_kernel4 (c : Dev nD) (E : Set ℕ) (i : grid4.Coords)
    (arg1 : Memref sig .tc .vmem S1024x256 .f32) (harg1 : arg1.IsWhole)
    (arg2 : Memref sig .tc .vmem S1024x1 .i32) (harg2 : arg2.IsWhole)
    (arg3 : Memref sig .tc .vmem S1024x269 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S128x8 .f32) (harg6 : arg6.IsWhole)
    (arg7 : Memref sig .tc .vmem S1x8 .f32) (harg7 : arg7.IsWhole)
    (arg8 : Memref sig .tc .vmem S1024x2 .f32) (harg8 : arg8.IsWhole)
    (x0 : Vec F S1024x256 .f32) (x1 : Vec F S1024x1 .i32) (x2 : Vec F S1024x269 .f32) (x3 : Vec F S256x128 .f32) (x4 : Vec F S1x128 .f32) (x5 : Vec F S128x8 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5 x6)) -∗ K ⟨⟩))
      ⊢ wp frame (wpE (defs₀ (F := F)) Variants.none c none) E (cc4__decode_kernel i arg1 harg1 arg2 harg2 arg3 harg3 arg4 harg4 arg5 harg5 arg6 harg6 arg7 harg7 arg8 harg8) K := by
  simp only [cc4__decode_kernel_eq_skeleton]; unfold cc4__decode_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover4_7 _)

/-! ## The pipeline's proof data -/

/-- The proof data of pipeline 4 on core `c`: the arrays as the region finds them (`V`); after the body at point `t`
    each input's buffer at its block and the output's at `out4_7` of the seven input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- The invariant at the region's entry is the class's, -/
theorem hin4 (c : Dev nD) : Pipeline.ΦA spec4 c ⊢ (dat4 V c).Φ 0 := .rfl
/-- and at its exit. -/
theorem hout4 (c : Dev nD) : (dat4 V c).Φ (Fin.last cfg4.N) ⊢ Pipeline.ΦA spec4 c := .rfl

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.RunDefs.lean ====
import proofs.«430159_j88974542504689_1_alg».proof.Proof.Gen.KernelIdeal.Regions
import proofs.«430159_j88974542504689_1_alg».proof.Proof.KI.R0Frame
import proofs.«430159_j88974542504689_1_alg».proof.Proof.KI.R1Frame
import proofs.«430159_j88974542504689_1_alg».proof.Proof.KI.R2Frame
import proofs.«430159_j88974542504689_1_alg».proof.Proof.KI.R3Frame
import proofs.«430159_j88974542504689_1_alg».proof.Proof.KI.R4Frame
import Idealize.ShloMosaic.Lib.Pipeline.Kit

-- decided memberships over the program's 272 references recurse past the default depth
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)

/-! ## The regions' outputs, pinned one after the other

Between two items of @main core `c` holds every unscoped buffer at a valuation: the launch contents, then the host
stretches' results (`StableHlo.after`) and, after a kernel region, the region's output array at what the pipeline's
write-backs leave in it (`Dat.arrAt … N` of the region's proof data at the valuation the region is entered from), every
other buffer as the region found it. `UJ` is that valuation after item `J - 1`, `oJ` the output array a region leaves. -/

/-- A valuation read at the TensorCore's references. -/
abbrev tcOf (W : Dev nD → Valuation τ sig (Elt F)) : (c : Dev nD) → (b : Ref sig .tc) → Buf (Elt F) ((c : Thread nD τ).loc b) :=
  fun c b => W c b

/-- After the first host stretch: what region 0 is entered from. -/
abbrev U1 (c : Dev nD) : Valuation τ sig (Elt F) := V1 m c
/-- What region 0 leaves in its output array `main_v3`: the write-backs of all its points folded over the entry contents. -/
def o2 (c : Dev nD) : Buf (Elt F) ((c : Thread nD τ).loc main_v3) := (dat0 (tcOf (U1 m)) c).arrAt 2 cfg0.N
/-- After region 0: `main_v3` at what the region leaves, every other buffer as entered. -/
def U2 (c : Dev nD) : Valuation τ sig (Elt F) := Function.update (U1 m c) main_v3 (o2 m c)
/-- After the host stretch `hostOps1`. -/
def U3 (c : Dev nD) : Valuation τ sig (Elt F) := StableHlo.after hostOps1 (U2 m c)
/-- What region 1 leaves in its output array `main_v5`: the write-backs of all its points folded over the entry contents. -/
def o4 (c : Dev nD) : Buf (Elt F) ((c : Thread nD τ).loc main_v5) := (dat1 (tcOf (U3 m)) c).arrAt 2 cfg1.N
/-- After region 1: `main_v5` at what the region leaves, every other buffer as entered. -/
def U4 (c : Dev nD) : Valuation τ sig (Elt F) := Function.update (U3 m c) main_v5 (o4 m c)
/-- After the host stretch `hostOps2`. -/
def U5 (c : Dev nD) : Valuation τ sig (Elt F) := StableHlo.after hostOps2 (U4 m c)
/-- What region 2 leaves in its output array `main_v8`: the write-backs of all its points folded over the entry contents. -/
def o6 (c : Dev nD) : Buf (Elt F) ((c : Thread nD τ).loc main_v8) := (dat2 (tcOf (U5 m)) c).arrAt 4 cfg2.N
/-- After region 2: `main_v8` at what the region leaves, every other buffer as entered. -/
def U6 (c : Dev nD) : Valuation τ sig (Elt F) := Function.update (U5 m c) main_v8 (o6 m c)
/-- After the host stretch `hostOps3`. -/
def U7 (c : Dev nD) : Valuation τ sig (Elt F) := StableHlo.after hostOps3 (U6 m c)
/-- What region 3 leaves in its output array `main_v11`: the write-backs of all its points folded over the entry contents. -/
def o8 (c : Dev nD) : Buf (Elt F) ((c : Thread nD τ).loc main_v11) := (dat3 (tcOf (U7 m)) c).arrAt 4 cfg3.N
/-- After region 3: `main_v11` at what the region leaves, every other buffer as entered. -/
def U8 (c : Dev nD) : Valuation τ sig (Elt F) := Function.update (U7 m c) main_v11 (o8 m c)
/-- After the host stretch `hostOps4`. -/
def U9 (c : Dev nD) : Valuation τ sig (Elt F) := StableHlo.after hostOps4 (U8 m c)
/-- After the host stretch `hostOps4_1`. -/
def U10 (c : Dev nD) : Valuation τ sig (Elt F) := StableHlo.after hostOps4_1 (U9 m c)
/-- After the host stretch `hostOps4_2`. -/
def U11 (c : Dev nD) : Valuation τ sig (Elt F) := StableHlo.after hostOps4_2 (U10 m c)
/-- After the host stretch `hostOps4_3`. -/
def U12 (c : Dev nD) : Valuation τ sig (Elt F) := StableHlo.after hostOps4_3 (U11 m c)
/-- After the host stretch `hostOps4_4`. -/
def U13 (c : Dev nD) : Valuation τ sig (Elt F) := StableHlo.after hostOps4_4 (U12 m c)
/-- After the host stretch `hostOps4_5`. -/
def U14 (c : Dev nD) : Valuation τ sig (Elt F) := StableHlo.after hostOps4_5 (U13 m c)
/-- After the host stretch `hostOps4_6`. -/
def U15 (c : Dev nD) : Valuation τ sig (Elt F) := StableHlo.after hostOps4_6 (U14 m c)
/-- After the host stretch `hostOps4_7`. -/
def U16 (c : Dev nD) : Valuation τ sig (Elt F) := StableHlo.after hostOps4_7 (U15 m c)
/-- After the host stretch `hostOps4_8`. -/
def U17 (c : Dev nD) : Valuation τ sig (Elt F) := StableHlo.after hostOps4_8 (U16 m c)
/-- After the host stretch `hostOps4_9`. -/
def U18 (c : Dev nD) : Valuation τ sig (Elt F) := StableHlo.after hostOps4_9 (U17 m c)
/-- After the host stretch `hostOps4_10`. -/
def U19 (c : Dev nD) : Valuation τ sig (Elt F) := StableHlo.after hostOps4_10 (U18 m c)
/-- After the host stretch `hostOps4_11`. -/
def U20 (c : Dev nD) : Valuation τ sig (Elt F) := StableHlo.after hostOps4_11 (U19 m c)
/-- After the host stretch `hostOps4_12`. -/
def U21 (c : Dev nD) : Valuation τ sig (Elt F) := StableHlo.after hostOps4_12 (U20 m c)
/-- What region 4 leaves in its output array `main_v91`: the write-backs of all its points folded over the entry contents. -/
def o22 (c : Dev nD) : Buf (Elt F) ((c : Thread nD τ).loc main_v91) := (dat4 (tcOf (U21 m)) c).arrAt 7 cfg4.N
/-- After region 4: `main_v91` at what the region leaves, every other buffer as entered. -/
def U22 (c : Dev nD) : Valuation τ sig (Elt F) := Function.update (U21 m c) main_v91 (o22 m c)
/-- After the host stretch `hostOps5`. -/
def U23 (c : Dev nD) : Valuation τ sig (Elt F) := StableHlo.after hostOps5 (U22 m c)

/-- The contents the regions leave, as the family the generated valuations `Gen.VJ` are written over: at a region's
    exit index and its output array the pinned contents `oJ`; anywhere else (never read) the launch contents. -/
def outs : Outs (F := F) := fun J r c =>
  if J = 2 then Function.update (β := fun r : Ref sig .tc => Buf (Elt F) ((c : Thread nD τ).loc r)) (fun r => m ((c : Thread nD τ).loc r)) main_v3 (o2 m c) r
  else if J = 4 then Function.update (β := fun r : Ref sig .tc => Buf (Elt F) ((c : Thread nD τ).loc r)) (fun r => m ((c : Thread nD τ).loc r)) main_v5 (o4 m c) r
  else if J = 6 then Function.update (β := fun r : Ref sig .tc => Buf (Elt F) ((c : Thread nD τ).loc r)) (fun r => m ((c : Thread nD τ).loc r)) main_v8 (o6 m c) r
  else if J = 8 then Function.update (β := fun r : Ref sig .tc => Buf (Elt F) ((c : Thread nD τ).loc r)) (fun r => m ((c : Thread nD τ).loc r)) main_v11 (o8 m c) r
  else if J = 22 then Function.update (β := fun r : Ref sig .tc => Buf (Elt F) ((c : Thread nD τ).loc r)) (fun r => m ((c : Thread nD τ).loc r)) main_v91 (o22 m c) r
  else m ((c : Thread nD τ).loc r)

theorem outs_o2 (c : Dev nD) : outs m 2 main_v3 c = o2 m c := by
  unfold outs; rw [if_pos rfl, Function.update_self]
theorem outs_o4 (c : Dev nD) : outs m 4 main_v5 c = o4 m c := by
  unfold outs; rw [if_neg (by decide), if_pos rfl, Function.update_self]
theorem outs_o6 (c : Dev nD) : outs m 6 main_v8 c = o6 m c := by
  unfold outs; rw [if_neg (by decide), if_neg (by decide), if_pos rfl, Function.update_self]
theorem outs_o8 (c : Dev nD) : outs m 8 main_v11 c = o8 m c := by
  unfold outs; rw [if_neg (by decide), if_neg (by decide), if_neg (by decide), if_pos rfl, Function.update_self]
theorem outs_o22 (c : Dev nD) : outs m 22 main_v91 c = o22 m c := by
  unfold outs; rw [if_neg (by decide), if_neg (by decide), if_neg (by decide), if_neg (by decide), if_pos rfl, Function.update_self]

/-! ## The generated valuations at these contents are the pinned ones -/

theorem V1_eq (c : Dev nD) : V1 m c = U1 m c := rfl
theorem V2_eq (c : Dev nD) : V2 m (outs m) c = U2 m c := by
  unfold U2; rw [← V1_eq m c, ← outs_o2 m c]
theorem V3_eq (c : Dev nD) : V3 m (outs m) c = U3 m c := by
  unfold U3; rw [← V2_eq m c]
theorem V4_eq (c : Dev nD) : V4 m (outs m) c = U4 m c := by
  unfold U4; rw [← V3_eq m c, ← outs_o4 m c]
theorem V5_eq (c : Dev nD) : V5 m (outs m) c = U5 m c := by
  unfold U5; rw [← V4_eq m c]
theorem V6_eq (c : Dev nD) : V6 m (outs m) c = U6 m c := by
  unfold U6; rw [← V5_eq m c, ← outs_o6 m c]
theorem V7_eq (c : Dev nD) : V7 m (outs m) c = U7 m c := by
  unfold U7; rw [← V6_eq m c]
theorem V8_eq (c : Dev nD) : V8 m (outs m) c = U8 m c := by
  unfold U8; rw [← V7_eq m c, ← outs_o8 m c]
theorem V9_eq (c : Dev nD) : V9 m (outs m) c = U9 m c := by
  unfold U9; rw [← V8_eq m c]
theorem V10_eq (c : Dev nD) : V10 m (outs m) c = U10 m c := by
  unfold U10; rw [← V9_eq m c]
theorem V11_eq (c : Dev nD) : V11 m (outs m) c = U11 m c := by
  unfold U11; rw [← V10_eq m c]
theorem V12_eq (c : Dev nD) : V12 m (outs m) c = U12 m c := by
  unfold U12; rw [← V11_eq m c]
theorem V13_eq (c : Dev nD) : V13 m (outs m) c = U13 m c := by
  unfold U13; rw [← V12_eq m c]
theorem V14_eq (c : Dev nD) : V14 m (outs m) c = U14 m c := by
  unfold U14; rw [← V13_eq m c]
theorem V15_eq (c : Dev nD) : V15 m (outs m) c = U15 m c := by
  unfold U15; rw [← V14_eq m c]
theorem V16_eq (c : Dev nD) : V16 m (outs m) c = U16 m c := by
  unfold U16; rw [← V15_eq m c]
theorem V17_eq (c : Dev nD) : V17 m (outs m) c = U17 m c := by
  unfold U17; rw [← V16_eq m c]
theorem V18_eq (c : Dev nD) : V18 m (outs m) c = U18 m c := by
  unfold U18; rw [← V17_eq m c]
theorem V19_eq (c : Dev nD) : V19 m (outs m) c = U19 m c := by
  unfold U19; rw [← V18_eq m c]
theorem V20_eq (c : Dev nD) : V20 m (outs m) c = U20 m c := by
  unfold U20; rw [← V19_eq m c]
theorem V21_eq (c : Dev nD) : V21 m (outs m) c = U21 m c := by
  unfold U21; rw [← V20_eq m c]
theorem V22_eq (c : Dev nD) : V22 m (outs m) c = U22 m c := by
  unfold U22; rw [← V21_eq m c, ← outs_o22 m c]
theorem V23_eq (c : Dev nD) : V23 m (outs m) c = U23 m c := by
  unfold U23; rw [← V22_eq m c]

/-! ## The pinned outputs, named over the generated valuations -/

/-- Region 0's output `main_v3`: the write-backs of its proof data at the valuation the region is entered from. -/
theorem outs_2 (c : Dev nD) : outs m 2 main_v3 c = (dat0 (fun c b => V1 m c b) c).arrAt 2 cfg0.N :=
  outs_o2 m c
/-- Region 1's output `main_v5`: the write-backs of its proof data at the valuation the region is entered from. -/
theorem outs_4 (c : Dev nD) : outs m 4 main_v5 c = (dat1 (fun c b => V3 m (outs m) c b) c).arrAt 2 cfg1.N := by
  have h : tcOf (U3 m) = (fun c b => V3 m (outs m) c b : (c : Dev nD) → (b : Ref sig .tc) → Buf (Elt F) ((c : Thread nD τ).loc b)) :=
    funext fun c => funext fun b => by rw [V3_eq m c]
  exact (outs_o4 m c).trans (congrArg (fun V => (dat1 V c).arrAt 2 cfg1.N) h)
/-- Region 2's output `main_v8`: the write-backs of its proof data at the valuation the region is entered from. -/
theorem outs_6 (c : Dev nD) : outs m 6 main_v8 c = (dat2 (fun c b => V5 m (outs m) c b) c).arrAt 4 cfg2.N := by
  have h : tcOf (U5 m) = (fun c b => V5 m (outs m) c b : (c : Dev nD) → (b : Ref sig .tc) → Buf (Elt F) ((c : Thread nD τ).loc b)) :=
    funext fun c => funext fun b => by rw [V5_eq m c]
  exact (outs_o6 m c).trans (congrArg (fun V => (dat2 V c).arrAt 4 cfg2.N) h)
/-- Region 3's output `main_v11`: the write-backs of its proof data at the valuation the region is entered from. -/
theorem outs_8 (c : Dev nD) : outs m 8 main_v11 c = (dat3 (fun c b => V7 m (outs m) c b) c).arrAt 4 cfg3.N := by
  have h : tcOf (U7 m) = (fun c b => V7 m (outs m) c b : (c : Dev nD) → (b : Ref sig .tc) → Buf (Elt F) ((c : Thread nD τ).loc b)) :=
    funext fun c => funext fun b => by rw [V7_eq m c]
  exact (outs_o8 m c).trans (congrArg (fun V => (dat3 V c).arrAt 4 cfg3.N) h)
/-- Region 4's output `main_v91`: the write-backs of its proof data at the valuation the region is entered from. -/
theorem outs_22 (c : Dev nD) : outs m 22 main_v91 c = (dat4 (fun c b => V21 m (outs m) c b) c).arrAt 7 cfg4.N := by
  have h : tcOf (U21 m) = (fun c b => V21 m (outs m) c b : (c : Dev nD) → (b : Ref sig .tc) → Buf (Elt F) ((c : Thread nD τ).loc b)) :=
    funext fun c => funext fun b => by rw [V21_eq m c]
  exact (outs_o22 m c).trans (congrArg (fun V => (dat4 V c).arrAt 7 cfg4.N) h)

end Cert.KernelIdeal.Hand

end
-- ==== Proof.KI.RunRegs.lean ====
import proofs.«430159_j88974542504689_1_alg».proof.Proof.KI.RunDefs
import Idealize.ShloMosaic.Lib.Pipeline.RegionsLoop
import Idealize.ShloMosaic.Lib.Pipeline.Frame

-- decided memberships over the program's 272 references recurse past the default depth
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The proof data of the five pipelines and what rides beside the buffers -/

/-- Every pipeline's proof data, each at the valuation its region is entered from. -/
def pdats : (p : Fin 5) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs m) c b) c
  | ⟨2, _⟩ => fun c => dat2 (fun c b => V5 m (outs m) c b) c
  | ⟨3, _⟩ => fun c => dat3 (fun c b => V7 m (outs m) c b) c
  | ⟨4, _⟩ => fun c => dat4 (fun c b => V21 m (outs m) c b) c

/-- No core owes another anything: no level is assigned. -/
abbrev noLevels : GSem nD τ sig → Finset Unit := fun _ => ∅
abbrev noLevel : GSem nD τ sig → Unit → ℕ := fun _ _ => 0
/-- What rides beside the buffers through every item: the core's generator register at some state (a region's
    invariant takes it in and gives it back) and the core owing nothing. -/
abbrev beside (c : Dev nD) : sProp 𝕄 := iprop((∃ r, prngReg c r) ∗ ∃ W, owes (c : Thread nD τ) (0 : CellTallies nD τ sig Unit) W)

/-! ## A kernel region over whole-buffer valuations

Pipeline `p` entered from every unscoped buffer at `Win c` and left at `Wout c`: its windows' arrays are split out of the
unscoped buffers at entry and put back at exit, where each holds what the pipeline's write-backs leave (`hF`) and every
other buffer what it held (`hrest`); the generator register and the scoped rest go into the body's invariant through the
class invariant `ΦA` (`hin`) and come back out of it (`hout`); nothing is owed; the kernel names no semaphore of its own. -/

-- a library lemma stated over `pin pcs a p` unifies with the pipeline's configuration only when unification may unfold
-- plain definitions in a metavariable's type
set_option backward.isDefEq.respectTransparency.types false in
def regOf (p : Fin 5) (lf : Pipeline.LaunchFacts (nD := nD) (τ := τ) cfgs p)
    (Win Wout : Dev nD → Valuation τ sig (Elt F))
    (hq : ∀ c w, (pdats m p c).q w = fullShare) (howed : ∀ c t, (pdats m p c).owed t = 0)
    (hrec : ∀ c t, (pdats m p c).recorded t = Set.univ)
    (hA : ∀ c w, (pdats m p c).A w = Win c (Pipeline.arrRef (cfgs p).spec w))
    (hob : ∀ c, BodyObligation (pdats m p c) (defs₀ (F := F)) Variants.none () Set.univ)
    (hΦin : ∀ c, Pipeline.ΦA (cfgs p).spec c ⊢ (pdats m p c).Φ 0)
    (hΦout : ∀ c, (pdats m p c).Φ (Fin.last (cfgs p).N) ⊢ Pipeline.ΦA (cfgs p).spec c)
    (hF : ∀ c w, (pdats m p c).arrAt w (cfgs p).N = Wout c (Pipeline.arrRef (cfgs p).spec w))
    (hrest : ∀ (c : Dev nD) (b : Ref sig .tc), b ∉ Finset.univ.image (Pipeline.arrRef (cfgs p).spec) → Wout c b = Win c b) :
    RegionSeg (pcfgs (F := F)) adm (pdats m) () defs₀ Variants.none noLevels noLevel p where
  win := lf.win.to₀
  block_pos := lf.block_pos
  stage_whole := lf.stage_whole
  K := PEmpty
  osem k := k.elim
  ho := Pipeline.OwnSemFacts.none _
  hbody c := (hob c).loose
  hwaits := Pipeline.hwaits_of_owed_zero _ _ _ _ noLevels noLevel p howed
  pre c := iprop(StableHlo.held (c : Thread nD τ) (Pipeline.ucRefs τ sig) (Win c) ∗ beside c)
  post c := iprop(StableHlo.held (c : Thread nD τ) (Pipeline.ucRefs τ sig) (Wout c) ∗ beside c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) lf.win lf.arr_whole c
      ((pdats m p c).share_full (hq c)) (fun b => Win c b) (hA c)
    rw [Pipeline.unscopedBufs_held c (Win c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W
      isplitr; · ipureintro; exact fun x _ => Or.inl (by rw [hrec c]; exact Set.mem_univ x)
      rw [howed c]; iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine BIBase.Entails.trans (hΦout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c b) (fun b => Wout c b) ((pdats m p c).arrAt · (cfgs p).N) (hF c) (hrest c)
    rw [Pipeline.unscopedBufs_held c (Wout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [howed c]; iexact HO

/-! ## The five regions -/

/-- Region 0's windows: window 2 is the output, over `main_v3`; every other window is an input whose array is another buffer. -/
theorem wins0 : Pipeline.arrRef spec0 (2 : Fin 3) = main_v3
    ∧ ∀ w : Fin 3, w ≠ 2 → (cfg0.win w).isOut = false ∧ Pipeline.arrRef spec0 w ∉ ([main_v3] : List (Ref sig .tc)) := by decide
/-- Region 0's proof data take the arrays as the valuation it is entered from has them. -/
theorem hA0 (c : Dev nD) (w : Fin cfg0.W) : (pdats m 0 c).A w = V1 m c (Pipeline.arrRef spec0 w) :=
  A_eq0 (fun c b => V1 m c b) c w
/-- At region 0's exit each of its arrays holds what the pipeline leaves: the output the pinned contents, an input
    (never written) what it held at entry. -/
theorem hF0 (c : Dev nD) (w : Fin cfg0.W) :
    (pdats m 0 c).arrAt w cfg0.N = V2 m (outs m) c (Pipeline.arrRef spec0 w) := by
  by_cases hw : w = (2 : Fin 3)
  · subst hw
    show _ = Function.update (V1 m c) (Proc.devRef .tc main_v3) (outs m 2 main_v3 c) (Proc.devRef .tc main_v3)
    rw [Function.update_self]
    exact (outs_2 m c).symm
  · obtain ⟨hi, hne⟩ := (wins0).2 w hw
    exact (((pdats m 0 c).arrAt_in w hi _).trans (hA0 m c w)).trans (V2_of m (outs m) c _ hne).symm
/-- Every buffer that is none of region 0's arrays is left as entered. -/
theorem hrest0 (c : Dev nD) (b : Ref sig .tc) (hb : b ∉ Finset.univ.image (Pipeline.arrRef spec0)) :
    V2 m (outs m) c b = V1 m c b :=
  V2_of m (outs m) c b fun hm => hb (Finset.mem_image.mpr ⟨(2 : Fin 3), Finset.mem_univ _, by
    rw [(wins0).1]; exact (List.mem_singleton.mp hm).symm⟩)
-- the region's record at pipeline 0 unifies `pin pcfgs adm 0` with the printed configuration
set_option backward.isDefEq.respectTransparency.types false in
/-- REGION 0 (custom_call 0): entered from every unscoped buffer at `V1`, left at `V2`. -/
def reg0 : RegionSeg (pcfgs (F := F)) adm (pdats m) () defs₀ Variants.none noLevels noLevel 0 :=
  regOf m 0 launch0 (V1 m) (V2 m (outs m)) (fun _ _ => rfl) (fun _ _ => rfl) (fun _ _ => rfl)
    (hA0 m) (fun c => body_obligation0 (fun c b => V1 m c b) c) (fun c => hin0 (fun c b => V1 m c b) c) (fun c => hout0 (fun c b => V1 m c b) c)
    (hF0 m) (hrest0 m)

/-- Region 1's windows: window 2 is the output, over `main_v5`; every other window is an input whose array is another buffer. -/
theorem wins1 : Pipeline.arrRef spec1 (2 : Fin 3) = main_v5
    ∧ ∀ w : Fin 3, w ≠ 2 → (cfg1.win w).isOut = false ∧ Pipeline.arrRef spec1 w ∉ ([main_v5] : List (Ref sig .tc)) := by decide
/-- Region 1's proof data take the arrays as the valuation it is entered from has them. -/
theorem hA1 (c : Dev nD) (w : Fin cfg1.W) : (pdats m 1 c).A w = V3 m (outs m) c (Pipeline.arrRef spec1 w) :=
  A_eq1 (fun c b => V3 m (outs m) c b) c w
/-- At region 1's exit each of its arrays holds what the pipeline leaves: the output the pinned contents, an input
    (never written) what it held at entry. -/
theorem hF1 (c : Dev nD) (w : Fin cfg1.W) :
    (pdats m 1 c).arrAt w cfg1.N = V4 m (outs m) c (Pipeline.arrRef spec1 w) := by
  by_cases hw : w = (2 : Fin 3)
  · subst hw
    show _ = Function.update (V3 m (outs m) c) (Proc.devRef .tc main_v5) (outs m 4 main_v5 c) (Proc.devRef .tc main_v5)
    rw [Function.update_self]
    exact (outs_4 m c).symm
  · obtain ⟨hi, hne⟩ := (wins1).2 w hw
    exact (((pdats m 1 c).arrAt_in w hi _).trans (hA1 m c w)).trans (V4_of m (outs m) c _ hne).symm
/-- Every buffer that is none of region 1's arrays is left as entered. -/
theorem hrest1 (c : Dev nD) (b : Ref sig .tc) (hb : b ∉ Finset.univ.image (Pipeline.arrRef spec1)) :
    V4 m (outs m) c b = V3 m (outs m) c b :=
  V4_of m (outs m) c b fun hm => hb (Finset.mem_image.mpr ⟨(2 : Fin 3), Finset.mem_univ _, by
    rw [(wins1).1]; exact (List.mem_singleton.mp hm).symm⟩)
-- the region's record at pipeline 1 unifies `pin pcfgs adm 1` with the printed configuration
set_option backward.isDefEq.respectTransparency.types false in
/-- REGION 1 (custom_call 1): entered from every unscoped buffer at `V3`, left at `V4`. -/
def reg1 : RegionSeg (pcfgs (F := F)) adm (pdats m) () defs₀ Variants.none noLevels noLevel 1 :=
  regOf m 1 launch1 (V3 m (outs m)) (V4 m (outs m)) (fun _ _ => rfl) (fun _ _ => rfl) (fun _ _ => rfl)
    (hA1 m) (fun c => body_obligation1 (fun c b => V3 m (outs m) c b) c) (fun c => hin1 (fun c b => V3 m (outs m) c b) c) (fun c => hout1 (fun c b => V3 m (outs m) c b) c)
    (hF1 m) (hrest1 m)

/-- Region 2's windows: window 4 is the output, over `main_v8`; every other window is an input whose array is another buffer. -/
theorem wins2 : Pipeline.arrRef spec2 (4 : Fin 5) = main_v8
    ∧ ∀ w : Fin 5, w ≠ 4 → (cfg2.win w).isOut = false ∧ Pipeline.arrRef spec2 w ∉ ([main_v8] : List (Ref sig .tc)) := by decide
/-- Region 2's proof data take the arrays as the valuation it is entered from has them. -/
theorem hA2 (c : Dev nD) (w : Fin cfg2.W) : (pdats m 2 c).A w = V5 m (outs m) c (Pipeline.arrRef spec2 w) :=
  A_eq2 (fun c b => V5 m (outs m) c b) c w
/-- At region 2's exit each of its arrays holds what the pipeline leaves: the output the pinned contents, an input
    (never written) what it held at entry. -/
theorem hF2 (c : Dev nD) (w : Fin cfg2.W) :
    (pdats m 2 c).arrAt w cfg2.N = V6 m (outs m) c (Pipeline.arrRef spec2 w) := by
  by_cases hw : w = (4 : Fin 5)
  · subst hw
    show _ = Function.update (V5 m (outs m) c) (Proc.devRef .tc main_v8) (outs m 6 main_v8 c) (Proc.devRef .tc main_v8)
    rw [Function.update_self]
    exact (outs_6 m c).symm
  · obtain ⟨hi, hne⟩ := (wins2).2 w hw
    exact (((pdats m 2 c).arrAt_in w hi _).trans (hA2 m c w)).trans (V6_of m (outs m) c _ hne).symm
/-- Every buffer that is none of region 2's arrays is left as entered. -/
theorem hrest2 (c : Dev nD) (b : Ref sig .tc) (hb : b ∉ Finset.univ.image (Pipeline.arrRef spec2)) :
    V6 m (outs m) c b = V5 m (outs m) c b :=
  V6_of m (outs m) c b fun hm => hb (Finset.mem_image.mpr ⟨(4 : Fin 5), Finset.mem_univ _, by
    rw [(wins2).1]; exact (List.mem_singleton.mp hm).symm⟩)
-- the region's record at pipeline 2 unifies `pin pcfgs adm 2` with the printed configuration
set_option backward.isDefEq.respectTransparency.types false in
/-- REGION 2 (custom_call 2): entered from every unscoped buffer at `V5`, left at `V6`. -/
def reg2 : RegionSeg (pcfgs (F := F)) adm (pdats m) () defs₀ Variants.none noLevels noLevel 2 :=
  regOf m 2 launch2 (V5 m (outs m)) (V6 m (outs m)) (fun _ _ => rfl) (fun _ _ => rfl) (fun _ _ => rfl)
    (hA2 m) (fun c => body_obligation2 (fun c b => V5 m (outs m) c b) c) (fun c => hin2 (fun c b => V5 m (outs m) c b) c) (fun c => hout2 (fun c b => V5 m (outs m) c b) c)
    (hF2 m) (hrest2 m)

/-- Region 3's windows: window 4 is the output, over `main_v11`; every other window is an input whose array is another buffer. -/
theorem wins3 : Pipeline.arrRef spec3 (4 : Fin 5) = main_v11
    ∧ ∀ w : Fin 5, w ≠ 4 → (cfg3.win w).isOut = false ∧ Pipeline.arrRef spec3 w ∉ ([main_v11] : List (Ref sig .tc)) := by decide
/-- Region 3's proof data take the arrays as the valuation it is entered from has them. -/
theorem hA3 (c : Dev nD) (w : Fin cfg3.W) : (pdats m 3 c).A w = V7 m (outs m) c (Pipeline.arrRef spec3 w) :=
  A_eq3 (fun c b => V7 m (outs m) c b) c w
/-- At region 3's exit each of its arrays holds what the pipeline leaves: the output the pinned contents, an input
    (never written) what it held at entry. -/
theorem hF3 (c : Dev nD) (w : Fin cfg3.W) :
    (pdats m 3 c).arrAt w cfg3.N = V8 m (outs m) c (Pipeline.arrRef spec3 w) := by
  by_cases hw : w = (4 : Fin 5)
  · subst hw
    show _ = Function.update (V7 m (outs m) c) (Proc.devRef .tc main_v11) (outs m 8 main_v11 c) (Proc.devRef .tc main_v11)
    rw [Function.update_self]
    exact (outs_8 m c).symm
  · obtain ⟨hi, hne⟩ := (wins3).2 w hw
    exact (((pdats m 3 c).arrAt_in w hi _).trans (hA3 m c w)).trans (V8_of m (outs m) c _ hne).symm
/-- Every buffer that is none of region 3's arrays is left as entered. -/
theorem hrest3 (c : Dev nD) (b : Ref sig .tc) (hb : b ∉ Finset.univ.image (Pipeline.arrRef spec3)) :
    V8 m (outs m) c b = V7 m (outs m) c b :=
  V8_of m (outs m) c b fun hm => hb (Finset.mem_image.mpr ⟨(4 : Fin 5), Finset.mem_univ _, by
    rw [(wins3).1]; exact (List.mem_singleton.mp hm).symm⟩)
-- the region's record at pipeline 3 unifies `pin pcfgs adm 3` with the printed configuration
set_option backward.isDefEq.respectTransparency.types false in
/-- REGION 3 (custom_call 3): entered from every unscoped buffer at `V7`, left at `V8`. -/
def reg3 : RegionSeg (pcfgs (F := F)) adm (pdats m) () defs₀ Variants.none noLevels noLevel 3 :=
  regOf m 3 launch3 (V7 m (outs m)) (V8 m (outs m)) (fun _ _ => rfl) (fun _ _ => rfl) (fun _ _ => rfl)
    (hA3 m) (fun c => body_obligation3 (fun c b => V7 m (outs m) c b) c) (fun c => hin3 (fun c b => V7 m (outs m) c b) c) (fun c => hout3 (fun c b => V7 m (outs m) c b) c)
    (hF3 m) (hrest3 m)

/-- Region 4's windows: window 7 is the output, over `main_v91`; every other window is an input whose array is another buffer. -/
theorem wins4 : Pipeline.arrRef spec4 (7 : Fin 8) = main_v91
    ∧ ∀ w : Fin 8, w ≠ 7 → (cfg4.win w).isOut = false ∧ Pipeline.arrRef spec4 w ∉ ([main_v91] : List (Ref sig .tc)) := by decide
/-- Region 4's proof data take the arrays as the valuation it is entered from has them. -/
theorem hA4 (c : Dev nD) (w : Fin cfg4.W) : (pdats m 4 c).A w = V21 m (outs m) c (Pipeline.arrRef spec4 w) :=
  A_eq4 (fun c b => V21 m (outs m) c b) c w
/-- At region 4's exit each of its arrays holds what the pipeline leaves: the output the pinned contents, an input
    (never written) what it held at entry. -/
theorem hF4 (c : Dev nD) (w : Fin cfg4.W) :
    (pdats m 4 c).arrAt w cfg4.N = V22 m (outs m) c (Pipeline.arrRef spec4 w) := by
  by_cases hw : w = (7 : Fin 8)
  · subst hw
    show _ = Function.update (V21 m (outs m) c) (Proc.devRef .tc main_v91) (outs m 22 main_v91 c) (Proc.devRef .tc main_v91)
    rw [Function.update_self]
    exact (outs_22 m c).symm
  · obtain ⟨hi, hne⟩ := (wins4).2 w hw
    exact (((pdats m 4 c).arrAt_in w hi _).trans (hA4 m c w)).trans (V22_of m (outs m) c _ hne).symm
/-- Every buffer that is none of region 4's arrays is left as entered. -/
theorem hrest4 (c : Dev nD) (b : Ref sig .tc) (hb : b ∉ Finset.univ.image (Pipeline.arrRef spec4)) :
    V22 m (outs m) c b = V21 m (outs m) c b :=
  V22_of m (outs m) c b fun hm => hb (Finset.mem_image.mpr ⟨(7 : Fin 8), Finset.mem_univ _, by
    rw [(wins4).1]; exact (List.mem_singleton.mp hm).symm⟩)
-- the region's record at pipeline 4 unifies `pin pcfgs adm 4` with the printed configuration
set_option backward.isDefEq.respectTransparency.types false in
/-- REGION 4 (custom_call 4): entered from every unscoped buffer at `V21`, left at `V22`. -/
def reg4 : RegionSeg (pcfgs (F := F)) adm (pdats m) () defs₀ Variants.none noLevels noLevel 4 :=
  regOf m 4 launch4 (V21 m (outs m)) (V22 m (outs m)) (fun _ _ => rfl) (fun _ _ => rfl) (fun _ _ => rfl)
    (hA4 m) (fun c => body_obligation4 (fun c b => V21 m (outs m) c b) c) (fun c => hin4 (fun c b => V21 m (outs m) c b) c) (fun c => hout4 (fun c b => V21 m (outs m) c b) c)
    (hF4 m) (hrest4 m)

end Cert.KernelIdeal.Hand

end
-- ==== Proof.KI.Run.lean ====
import proofs.«430159_j88974542504689_1_alg».proof.Proof.KI.RunRegs
import Idealize.ShloMosaic.Lib.Pipeline.Regions
import Idealize.ShloMosaic.Lib.Pipeline.Kit

-- decided memberships over the program's 272 references recurse past the default depth
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run: @main's 23 items from the launch to the return -/

/-- What rides beside the buffers between two items, the same at every boundary. -/
abbrev besideAt : Fin 6 → Dev nD → sProp 𝕄 := fun _ c => beside c

/-- @main's items as segments: the generated host stretches over the valuations `Gen.VJ` at the pinned contents, the five regions. -/
abbrev allSegs (c : Dev nD) : List (Seg (pcfgs (F := F)) adm (pdats m) () defs₀ Variants.none noLevels noLevel) :=
  segs m (outs m) Variants.none noLevels noLevel besideAt () (pdats m) (reg0 m) (reg1 m) (reg2 m) (reg3 m) (reg4 m) c

-- the launch theorem's implicit arguments are found by unifying its conclusion with this one, which takes unfolding
-- plain definitions in a metavariable's type
set_option backward.isDefEq.respectTransparency.types false in
/-- THE RUN. From any memory `m` with zero counters every weakly fair execution of @main terminates, and in every final
    memory each unscoped buffer of each core holds the last valuation `Gen.V23` at the pinned contents `outs m`: the
    launch contents carried through the host stretches and the five regions' write-backs. -/
theorem run_all : θ_run defs (onTc (τ := τ) (main (F := F))) ⟨m, fun _ => 0, ρ⟩
    (fun r => ∀ c : Dev nD, ∀ b ∈ Pipeline.ucRefs τ sig, r.2.mem ((c : Thread nD τ).1, b) = V23 m (outs m) c b) := by
  refine Pipeline.θ_run_regions_kit_dev (pcfgs (F := F)) adm (pdats m) () cellOf_inj emb₁ defs₀ Variants.none noLevels noLevel m ρ main
    (allSegs m)
    (fun c Q => by
      rewrite [main_chain c, Seg.run_eq_chain,
        show (allSegs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          StableHlo.seq hostOps4_9,
          StableHlo.seq hostOps4_10,
          StableHlo.seq hostOps4_11,
          StableHlo.seq hostOps4_12,
          Prog.lift (.customCall (Pipeline.entry 4) ()),
          StableHlo.seq hostOps5 ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V23 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (show beside c ⊢ (iprop(∃ W, owes (c : Thread nD τ) (0 : CellTallies nD τ sig Unit) W) : sProp 𝕄) from by
        iintro ⟨-, HO⟩; iexact HO)⟩)
    (hinit := ?_)
    (QY := fun c s => ∀ b ∈ Pipeline.ucRefs τ sig, s.mem ((c : Thread nD τ).1, b) = V23 m (outs m) c b)
    (hfin := fun c s' => ?_) (hQ := fun _ h => h)
  · -- the launch: on each core the unscoped buffers are held at the launch contents, the generator register at its
    -- launch state, nothing owed
    refine Pipeline.initEach noLevels noLevel fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the last thread state read against the final state
    iintro ⟨Hh, HSI⟩
    unfold StableHlo.held
    imodintro
    iapply (pointsTo_read_all (Pipeline.ucRefs τ sig) (fun b => ((c : Thread nD τ).1, b)) (V23 m (outs m) c) s')
    isplitl [Hh] <;> iassumption

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution of @main terminates, and each argument array ends as launched — no host stretch
    writes an argument and no region's output is one, so the last valuation at an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  OrdCont.mono (θ_run defs (onTc (τ := τ) (main (F := F))) ⟨m, fun _ => 0, ρ⟩) (fun r h c =>
    ⟨(h c _ (mem_uc main_arg0 (by decide))).trans (V23_main_arg0 m (outs m) c),
     (h c _ (mem_uc main_arg1 (by decide))).trans (V23_main_arg1 m (outs m) c),
     (h c _ (mem_uc main_arg2 (by decide))).trans (V23_main_arg2 m (outs m) c),
     (h c _ (mem_uc main_arg3 (by decide))).trans (V23_main_arg3 m (outs m) c),
     (h c _ (mem_uc main_arg4 (by decide))).trans (V23_main_arg4 m (outs m) c),
     (h c _ (mem_uc main_arg5 (by decide))).trans (V23_main_arg5 m (outs m) c),
     (h c _ (mem_uc main_arg6 (by decide))).trans (V23_main_arg6 m (outs m) c),
     (h c _ (mem_uc main_arg7 (by decide))).trans (V23_main_arg7 m (outs m) c),
     (h c _ (mem_uc main_arg8 (by decide))).trans (V23_main_arg8 m (outs m) c),
     (h c _ (mem_uc main_arg9 (by decide))).trans (V23_main_arg9 m (outs m) c),
     (h c _ (mem_uc main_arg10 (by decide))).trans (V23_main_arg10 m (outs m) c),
     (h c _ (mem_uc main_arg11 (by decide))).trans (V23_main_arg11 m (outs m) c),
     (h c _ (mem_uc main_arg12 (by decide))).trans (V23_main_arg12 m (outs m) c),
     (h c _ (mem_uc main_arg13 (by decide))).trans (V23_main_arg13 m (outs m) c),
     (h c _ (mem_uc main_arg14 (by decide))).trans (V23_main_arg14 m (outs m) c),
     (h c _ (mem_uc main_arg15 (by decide))).trans (V23_main_arg15 m (outs m) c)⟩) (run_all m ρ)

/-- info: 'Cert.KernelIdeal.Hand.frame' depends on axioms: [propext, Classical.choice, Quot.sound] -/
#guard_msgs in #print axioms frame

end Cert.KernelIdeal.Hand

end
-- ==== Proof.Value.Spec.lean ====
/-
  The functions both programs compute, over the extended reals.

  Rows carry a 32-bit group id; group g (0 ≤ g < 1024) owns the rows whose id is the word of g. The segment mean of a
  column is the sum of that column over the group's rows divided by the larger of the group's row count and one. A row
  picks the group table's row of its id (all zeros when the id names no group). The decoder turns one row of features,
  relative to the picked anchor, through a tanh layer and a linear layer into four means and four softplus scales, and
  combines them with the picked mixture weights.
-/
import Idealize.ShloMosaic.PureOps.Ideal
import Mathlib.Algebra.BigOperators.Group.Finset.Basic
import Mathlib.Data.Fintype.BigOperators

noncomputable section

open scoped BigOperators

namespace Cert.Spec

open Idealize.ShloMosaic

/-- The word of group number g. -/
abbrev gw (g : Fin 1024) : BitVec 32 := BitVec.ofNat 32 g.val

/-- Column d summed over the rows whose id is g. -/
def segSum {D : ℕ} (ids : Fin 262144 → BitVec 32) (X : Fin 262144 → Fin D → EReal) (g : Fin 1024) (d : Fin D) : EReal :=
  ∑ n : Fin 262144, if ids n = gw g then X n d else 0

/-- The number of rows whose id is g. -/
def segCnt (ids : Fin 262144 → BitVec 32) (g : Fin 1024) : EReal :=
  ∑ n : Fin 262144, if ids n = gw g then (1 : EReal) else 0

/-- The segment mean: the group's column sum over the larger of its row count and one. -/
def segMean {D : ℕ} (ids : Fin 262144 → BitVec 32) (X : Fin 262144 → Fin D → EReal) (g : Fin 1024) (d : Fin D) : EReal :=
  Ideal.div (segSum ids X g d) (max (segCnt ids g) 1)

/-- The table row an id picks, as the one-hot combination of the rows: zero when the id names no group. -/
def pick {D : ℕ} (A : Fin 1024 → Fin D → EReal) (id : BitVec 32) (d : Fin D) : EReal :=
  ∑ g : Fin 1024, (if id = gw g then (1 : EReal) else 0) * A g d

/-- A row's features relative to the anchor its id picks. -/
def resid {D : ℕ} (ids : Fin 262144 → BitVec 32) (X : Fin 262144 → Fin D → EReal) (A : Fin 1024 → Fin D → EReal)
    (n : Fin 262144) (d : Fin D) : EReal :=
  X n d - pick A (ids n) d

/-- The segment mean of the relative features. -/
def resMean {D : ℕ} (ids : Fin 262144 → BitVec 32) (X : Fin 262144 → Fin D → EReal) (A : Fin 1024 → Fin D → EReal) :
    Fin 1024 → Fin D → EReal :=
  segMean ids (resid ids X A)

/-- The two scale literals, 0.99 and 0.01 as their binary32 values. -/
abbrev c99 : EReal := Ideal.ofBits .f32 0x3F7D70A4#32
abbrev c01 : EReal := Ideal.ofBits .f32 0x3C23D70A#32

/-- softplus in its stable form: max(x, 0) + log1p(exp(−|x|)). -/
def softplus (x : EReal) : EReal :=
  max x 0 + Ideal.log1p (Ideal.exp (-(FloatOps.absf (F := Ideal) (φ := .f32) x)))

/-- Columns of the 269-wide group table: anchor features 0..255, anchor target 256, mixture weights 257..260,
    scales 261..264, weight-scale products 265..268. -/
abbrev tcol (k : ℕ) (h : k < 269 := by omega) : Fin 269 := ⟨k, h⟩

/-- The hidden layer of the decoder on a row's relative features. -/
def hidden (xr : Fin 256 → EReal) (tab : Fin 269 → EReal) (Wd1 : Fin 256 → Fin 128 → EReal) (bd1 : Fin 128 → EReal)
    (j : Fin 128) : EReal :=
  Ideal.tanh ((∑ d : Fin 256, (xr d - tab ⟨d.val, by omega⟩) * Wd1 d j) + bd1 j)

/-- The decoder's eight outputs for a row: four means, then four pre-softplus scales. -/
def pred (xr : Fin 256 → EReal) (tab : Fin 269 → EReal) (Wd1 : Fin 256 → Fin 128 → EReal) (bd1 : Fin 128 → EReal)
    (Wd2 : Fin 128 → Fin 8 → EReal) (bd2 : Fin 8 → EReal) (k : Fin 8) : EReal :=
  (∑ j : Fin 128, hidden xr tab Wd1 bd1 j * Wd2 j k) + bd2 k

/-- The predicted value of a row: the weighted, scaled means summed, plus the picked anchor target. -/
def yPred (xr : Fin 256 → EReal) (tab : Fin 269 → EReal) (Wd1 : Fin 256 → Fin 128 → EReal) (bd1 : Fin 128 → EReal)
    (Wd2 : Fin 128 → Fin 8 → EReal) (bd2 : Fin 8 → EReal) : EReal :=
  (∑ k : Fin 4, tab ⟨257 + k.val, by omega⟩ * (tab ⟨261 + k.val, by omega⟩ * pred xr tab Wd1 bd1 Wd2 bd2 ⟨k.val, by omega⟩))
    + tab ⟨256, by omega⟩

/-- The predicted spread of a row: the root of the summed squares of weight-scale product times softplus scale. -/
def ySigma (xr : Fin 256 → EReal) (tab : Fin 269 → EReal) (Wd1 : Fin 256 → Fin 128 → EReal) (bd1 : Fin 128 → EReal)
    (Wd2 : Fin 128 → Fin 8 → EReal) (bd2 : Fin 8 → EReal) : EReal :=
  Ideal.sqrt (∑ k : Fin 4,
    (tab ⟨265 + k.val, by omega⟩ * (softplus (pred xr tab Wd1 bd1 Wd2 bd2 ⟨4 + k.val, by omega⟩) * c99 + c01))
      * (tab ⟨265 + k.val, by omega⟩ * (softplus (pred xr tab Wd1 bd1 Wd2 bd2 ⟨4 + k.val, by omega⟩) * c99 + c01)))

end Cert.Spec

end
-- ==== Proof.Value.PreRange.lean ====
/-
  The precondition read at the group ids. The printed predicate is a conjunction of all-reductions, one per input; its
  last two conjuncts say of the 262144 target ids that each is at least 0 and below 1024, read as signed 32-bit words.
  A word in that range is the word of a number below 1024, so every target row names one of the 1024 groups.
-/
import proofs.«430159_j88974542504689_1_alg».proof.Defs
import Idealize.ShloMosaic.Lib.ReduceAll
import Idealize.ShloMosaic.Lib.StableHlo.Predicate
import Idealize.ShloMosaic.Lib.ValueIdx
import proofs.«430159_j88974542504689_1_alg».proof.Proof.Value.Spec

noncomputable section

namespace Cert.Value

open Idealize.ShloMosaic Idealize.SL.Sem

/-- The scalar shape has one index. -/
theorem scalar_idx_subsingleton : Subsingleton Cert.Pre_finite_inputs.S_.Idx :=
  ⟨fun a b => funext fun d => d.elim0⟩

/-- A 32-bit word that is at least 0 and below 1024, read signed, is the word of a number below 1024. -/
theorem word_of_signed_range (x : BitVec 32) (h0 : (0#32 : BitVec 32).toInt ≤ x.toInt)
    (h1 : x.toInt < (1024#32 : BitVec 32).toInt) : ∃ g : Fin 1024, x = Cert.Spec.gw g := by
  have z0 : (0#32 : BitVec 32).toInt = 0 := by decide
  have z1 : (1024#32 : BitVec 32).toInt = 1024 := by decide
  rw [z0] at h0
  rw [z1] at h1
  have hx := x.isLt
  rw [BitVec.toInt_eq_toNat_cond] at h0 h1
  have hlt : x.toNat < 1024 := by
    split at h0 <;> omega
  refine ⟨⟨x.toNat, hlt⟩, BitVec.eq_of_toNat_eq ?_⟩
  show x.toNat = (BitVec.ofNat 32 x.toNat).toNat
  rw [BitVec.toNat_ofNat]
  omega

/-- The last two conjuncts of the predicate, at one row: the row's id lies in [0, 1024) as a signed word. -/
theorem ids_tail_decode [Cert.Pre_finite_inputs.Facts] {F : FTy → Type} [FloatOps F]
    (ids : IVec Cert.Pre_finite_inputs.S262144 32) (p q : IVec Cert.Pre_finite_inputs.S_ 1)
    (h : Cert.Pre_finite_inputs.fn_part4 (F := F) ids p q ValueIdx.ix0 = 1#1) (n : Fin 262144) :
    (0#32 : BitVec 32).toInt ≤ (ids (ValueIdx.ix1 n)).toInt
      ∧ (ids (ValueIdx.ix1 n)).toInt < (1024#32 : BitVec 32).toInt := by
  haveI := scalar_idx_subsingleton
  dsimp only [Cert.Pre_finite_inputs.fn_part4, andi] at h
  obtain ⟨h1, hlt⟩ := IntOp.andi_eq_one.1 h
  obtain ⟨-, hge⟩ := IntOp.andi_eq_one.1 h1
  have e0 := Host.reduce_andi_all _ _ _ _ _ hge (ValueIdx.ix1 n)
  have e1 := Host.reduce_andi_all _ _ _ _ _ hlt (ValueIdx.ix1 n)
  exact ⟨IntOp.cmpi_sge.1 e0, IntOp.cmpi_slt.1 e1⟩

/-- Under the precondition every target row's id is the word of one of the 1024 groups. -/
theorem target_ids_in_range [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (n : Fin 262144) :
    ∃ g : Fin 1024,
      m ((c.tc : Thread Cert.KernelIdeal.nD Cert.KernelIdeal.τ).loc Cert.KernelIdeal.main_arg3) (ValueIdx.ix1 n)
        = Cert.Spec.gw g := by
  have e := congrFun (h c) ValueIdx.ix0
  dsimp only [Cert.Pre_finite_inputs.fn, Cert.Pre_finite_inputs.fn_part1, Cert.Pre_finite_inputs.fn_part2,
    Cert.Pre_finite_inputs.fn_part3] at e
  obtain ⟨h0, h1⟩ := ids_tail_decode (F := Ideal) _ _ _ e n
  exact word_of_signed_range _ h0 h1

end Cert.Value

end
-- ==== Proof.Value.LibSeg.lean ====
/-
  The host's accumulating scatter by a column of group ids and the host's gather of a table row by a column of ids, each
  read at one element, and the table row an id picks.

  The scatter takes an operand of G rows and C columns, a column of N integer words (one id per update row) and N update
  rows of C columns. Update element (n, c) is added to operand element (id n, c), the id read as a signed integer;
  a row whose id is negative or at least G is added nowhere. So element (g, f) of the result is the operand's element
  plus the sum, over the rows n whose id is g, of update element (n, f); the same without the column axis for a vector
  of N numbers scattered into a vector of G. A signed 32-bit word equals a natural number below 2^31 exactly when it
  is that number's word, which turns the condition on the id into an equation of words. The gather of rows reads, for
  row n, the table's row at n's start index read signed and clamped into the table; a start index that is the word of a
  row number below G is that row. The one-hot pick at the word of a group is the group's row, because distinct groups
  have distinct words.
-/
import proofs.«430159_j88974542504689_1_alg».proof.ReferenceIdeal
import proofs.«430159_j88974542504689_1_alg».proof.Proof.Value.Spec
import Idealize.ShloMosaic.PureOps.Dims
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.StableHlo.Predicate
import Mathlib.Algebra.BigOperators.Group.Finset.Basic
import Mathlib.Algebra.BigOperators.Group.Finset.Piecewise
import Mathlib.Data.Fintype.BigOperators

noncomputable section

open scoped BigOperators

namespace Cert.Value.Seg

open Idealize.ShloMosaic Idealize.ShloMosaic.ValueIdx

/-! ## The dimension numbers of a scatter of rows by one column of ids -/

/-- The dimension numbers of a scatter into G rows of C columns from N update rows of C columns, the row's id in a
    column of N words: the updates' column axis is the window, the operand's row axis is the inserted one and the one
    the id addresses, and the id is the whole index vector. -/
abbrev segDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

section Rows
variable {G N C : Nat} (wf : ScatterDims.WF ⟨2, ![G, C]⟩ ⟨2, ![N, 1]⟩ ⟨2, ![N, C]⟩ [1] [0] [0] 1)

/-- Update element (n, c) reads its id at row n of the id column. -/
theorem seg_siIdx (j : (⟨2, ![N, C]⟩ : Shape).Idx) (c : Fin (segDims G N C wf).scatterDimsToOperandDims.length) :
    (segDims G N C wf).siIdx j c = ix2 (j 0) 0 := by
  funext b
  match b with
  | ⟨0, _⟩ => rfl
  | ⟨1, _⟩ =>
    have hc : c.val = 0 := by have := c.isLt; change c.val < 1 at this; omega
    exact Fin.ext hc

/-- On the row axis the window of update element (n, c) starts at the id of row n, read signed. -/
theorem seg_start0 {w : Nat} (j : (⟨2, ![N, C]⟩ : Shape).Idx) (idx : IVec ⟨2, ![N, 1]⟩ w) :
    (segDims G N C wf).start j idx 0 = (idx (ix2 (j 0) 0)).toInt := by
  unfold ScatterDims.start
  rw [dif_pos (show (0 : Fin 2) ∈ [(0 : Fin 2)] by decide), seg_siIdx]
  rfl

/-- On the column axis the window starts at 0. -/
theorem seg_start1 {w : Nat} (j : (⟨2, ![N, C]⟩ : Shape).Idx) (idx : IVec ⟨2, ![N, 1]⟩ w) :
    (segDims G N C wf).start j idx 1 = 0 := by
  unfold ScatterDims.start
  rw [dif_neg (show (1 : Fin 2) ∉ [(0 : Fin 2)] by decide)]

/-- The row axis is inserted: the window has no extent along it. -/
theorem seg_window0 (j : (⟨2, ![N, C]⟩ : Shape).Idx) : (segDims G N C wf).window j 0 = 0 := by
  have h : (0 : Fin 2) ∉ (List.finRange 2).filter (· ∉ [(0 : Fin 2)]) := by decide
  exact dif_neg h

/-- Along the column axis the window coordinate of update element (n, c) is c. -/
theorem seg_window1 (j : (⟨2, ![N, C]⟩ : Shape).Idx) : (segDims G N C wf).window j 1 = (j 1).val := by
  have h : (1 : Fin 2) ∈ (List.finRange 2).filter (· ∉ [(0 : Fin 2)]) := by decide
  exact (dif_pos h).trans rfl

/-- Update element (n, c) lands on operand element (g, f) exactly when the id of row n, read signed, is g and c is f. -/
theorem seg_resultIdx?_iff {w : Nat} (j : (⟨2, ![N, C]⟩ : Shape).Idx) (idx : IVec ⟨2, ![N, 1]⟩ w) (g : Fin G) (f : Fin C) :
    (segDims G N C wf).resultIdx? j idx = some (ix2 g f) ↔ (idx (ix2 (j 0) 0)).toInt = (g.val : Int) ∧ j 1 = f := by
  have hg := g.isLt
  have hf := f.isLt
  have hj1 := idx2_lt1 j
  unfold ScatterDims.resultIdx?
  split
  · rename_i h
    rw [Option.some.injEq]
    constructor
    · intro he
      have h0 : ((segDims G N C wf).start j idx 0 + ((segDims G N C wf).window j 0 : ℕ)).toNat = g.val :=
        congrArg (fun i : (⟨2, ![G, C]⟩ : Shape).Idx => (i 0).val) he
      have h1 : ((segDims G N C wf).start j idx 1 + ((segDims G N C wf).window j 1 : ℕ)).toNat = f.val :=
        congrArg (fun i : (⟨2, ![G, C]⟩ : Shape).Idx => (i 1).val) he
      have hb : 0 ≤ (segDims G N C wf).start j idx 0 + ((segDims G N C wf).window j 0 : ℕ) := (h 0).1
      rw [seg_start0, seg_window0] at h0 hb
      rw [seg_start1, seg_window1] at h1
      exact ⟨by omega, Fin.ext (by omega)⟩
    · rintro ⟨h0, h1⟩
      have h1' : (j 1).val = f.val := congrArg Fin.val h1
      funext a
      match a with
      | ⟨0, _⟩ =>
        apply Fin.ext
        show ((segDims G N C wf).start j idx 0 + ((segDims G N C wf).window j 0 : ℕ)).toNat = g.val
        rw [seg_start0, seg_window0]; omega
      | ⟨1, _⟩ =>
        apply Fin.ext
        show ((segDims G N C wf).start j idx 1 + ((segDims G N C wf).window j 1 : ℕ)).toNat = f.val
        rw [seg_start1, seg_window1]; omega
  · rename_i h
    constructor
    · intro he; cases he
    · rintro ⟨h0, h1⟩
      have h1' : (j 1).val = f.val := congrArg Fin.val h1
      exfalso; apply h; intro a
      match a with
      | ⟨0, _⟩ =>
        show 0 ≤ (segDims G N C wf).start j idx 0 + ((segDims G N C wf).window j 0 : ℕ) ∧
          (segDims G N C wf).start j idx 0 + ((segDims G N C wf).window j 0 : ℕ) < ((G : ℕ) : Int)
        rw [seg_start0, seg_window0]; omega
      | ⟨1, _⟩ =>
        show 0 ≤ (segDims G N C wf).start j idx 1 + ((segDims G N C wf).window j 1 : ℕ) ∧
          (segDims G N C wf).start j idx 1 + ((segDims G N C wf).window j 1 : ℕ) < ((C : ℕ) : Int)
        rw [seg_start1, seg_window1]; omega

/-- Element (g, f) of the accumulating scatter is the operand's element plus the sum, over the rows whose id read
    signed is g, of the update's element in column f. -/
theorem seg_scatterAdd {w : Nat} (x : (⟨2, ![G, C]⟩ : Shape).Idx → EReal) (idx : IVec ⟨2, ![N, 1]⟩ w)
    (upd : (⟨2, ![N, C]⟩ : Shape).Idx → EReal) (g : Fin G) (f : Fin C) :
    Ideal.hostScatterAdd (segDims G N C wf) x idx upd (ix2 g f) =
      x (ix2 g f) + ∑ n : Fin N, if (idx (ix2 n 0)).toInt = (g.val : Int) then upd (ix2 n f) else 0 := by
  unfold Ideal.hostScatterAdd
  congr 1
  rw [Finset.sum_filter, sum_idx2]
  refine Finset.sum_congr rfl fun n _ => ?_
  calc _ = ∑ c : Fin C, (if c = f then (if (idx (ix2 n 0)).toInt = (g.val : Int) then upd (ix2 n c) else 0) else 0) :=
        Finset.sum_congr rfl fun c _ => by
          have hiff := seg_resultIdx?_iff wf (ix2 n c) idx g f
          by_cases hc : c = f
          · subst hc
            rw [if_pos rfl]
            exact if_congr (hiff.trans ⟨fun h => h.1, fun h => ⟨h, rfl⟩⟩) rfl rfl
          · rw [if_neg hc]
            exact if_neg (fun h => hc (hiff.1 h).2)
    _ = _ := by rw [Finset.sum_ite_eq' Finset.univ f, if_pos (Finset.mem_univ f)]

end Rows

/-! ## A scatter of single numbers by one column of ids -/

/-- The dimension numbers of a scatter into a vector of G numbers from a vector of N updates, update n's id in a
    column of N words: the updates have no window axis, the operand's one axis is inserted and is the one the id
    addresses. -/
abbrev cntDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

section Numbers
variable {G N : Nat} (wf : ScatterDims.WF ⟨1, ![G]⟩ ⟨2, ![N, 1]⟩ ⟨1, ![N]⟩ [] [0] [0] 1)

/-- Update n reads its id at row n of the id column. -/
theorem cnt_siIdx (j : (⟨1, ![N]⟩ : Shape).Idx) (c : Fin (cntDims G N wf).scatterDimsToOperandDims.length) :
    (cntDims G N wf).siIdx j c = ix2 (j 0) 0 := by
  funext b
  match b with
  | ⟨0, _⟩ => rfl
  | ⟨1, _⟩ =>
    have hc : c.val = 0 := by have := c.isLt; change c.val < 1 at this; omega
    exact Fin.ext hc

/-- Update n starts at its id, read signed. -/
theorem cnt_start0 {w : Nat} (j : (⟨1, ![N]⟩ : Shape).Idx) (idx : IVec ⟨2, ![N, 1]⟩ w) :
    (cntDims G N wf).start j idx 0 = (idx (ix2 (j 0) 0)).toInt := by
  unfold ScatterDims.start
  rw [dif_pos (show (0 : Fin 1) ∈ [(0 : Fin 1)] by decide), cnt_siIdx]
  rfl

/-- The operand's axis is inserted: no window extent. -/
theorem cnt_window0 (j : (⟨1, ![N]⟩ : Shape).Idx) : (cntDims G N wf).window j 0 = 0 := by
  have h : (0 : Fin 1) ∉ (List.finRange 1).filter (· ∉ [(0 : Fin 1)]) := by decide
  exact dif_neg h

/-- Update n lands on operand element g exactly when its id, read signed, is g. -/
theorem cnt_resultIdx?_iff {w : Nat} (j : (⟨1, ![N]⟩ : Shape).Idx) (idx : IVec ⟨2, ![N, 1]⟩ w) (g : Fin G) :
    (cntDims G N wf).resultIdx? j idx = some (ix1 g) ↔ (idx (ix2 (j 0) 0)).toInt = (g.val : Int) := by
  have hg := g.isLt
  unfold ScatterDims.resultIdx?
  split
  · rename_i h
    rw [Option.some.injEq]
    constructor
    · intro he
      have h0 : ((cntDims G N wf).start j idx 0 + ((cntDims G N wf).window j 0 : ℕ)).toNat = g.val :=
        congrArg (fun i : (⟨1, ![G]⟩ : Shape).Idx => (i 0).val) he
      have hb : 0 ≤ (cntDims G N wf).start j idx 0 + ((cntDims G N wf).window j 0 : ℕ) := (h 0).1
      rw [cnt_start0, cnt_window0] at h0 hb
      omega
    · intro h0
      funext a
      match a with
      | ⟨0, _⟩ =>
        apply Fin.ext
        show ((cntDims G N wf).start j idx 0 + ((cntDims G N wf).window j 0 : ℕ)).toNat = g.val
        rw [cnt_start0, cnt_window0]; omega
  · rename_i h
    constructor
    · intro he; cases he
    · intro h0
      exfalso; apply h; intro a
      match a with
      | ⟨0, _⟩ =>
        show 0 ≤ (cntDims G N wf).start j idx 0 + ((cntDims G N wf).window j 0 : ℕ) ∧
          (cntDims G N wf).start j idx 0 + ((cntDims G N wf).window j 0 : ℕ) < ((G : ℕ) : Int)
        rw [cnt_start0, cnt_window0]; omega

/-- Element g of the accumulating scatter is the operand's element plus the sum, over the updates whose id read
    signed is g, of the update. -/
theorem cnt_scatterAdd {w : Nat} (x : (⟨1, ![G]⟩ : Shape).Idx → EReal) (idx : IVec ⟨2, ![N, 1]⟩ w)
    (upd : (⟨1, ![N]⟩ : Shape).Idx → EReal) (g : Fin G) :
    Ideal.hostScatterAdd (cntDims G N wf) x idx upd (ix1 g) =
      x (ix1 g) + ∑ n : Fin N, if (idx (ix2 n 0)).toInt = (g.val : Int) then upd (ix1 n) else 0 := by
  unfold Ideal.hostScatterAdd
  congr 1
  rw [Finset.sum_filter, ← idxEquiv1.symm.sum_comp]
  refine Finset.sum_congr rfl fun n _ => ?_
  exact if_congr (cnt_resultIdx?_iff wf (ix1 n) idx g) rfl rfl

end Numbers

/-- A signed 32-bit word equals a natural number below 2^31 exactly when it is that number's word. -/
theorem toInt_eq_natCast_iff (x : BitVec 32) (g : ℕ) (hg : g < 2 ^ 31) : x.toInt = (g : Int) ↔ x = BitVec.ofNat 32 g := by
  have hx := x.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-! ## The gather of a row by a column of ids -/

/-- The dimension numbers of a gather of N rows of C columns out of a table of G rows, row n's start index in a column
    of N words: the result's column axis is the offset, the table's row axis is collapsed and is the one the start
    index addresses, one row of C columns is sliced. -/
abbrev rowDims (G N C : Nat) (wf : GatherDims.WF ⟨2, ![G, C]⟩ ⟨2, ![N, 1]⟩ ⟨2, ![N, C]⟩ [1] [0] [] [0] [] 1 ![1, C]) :
    GatherDims ⟨2, ![G, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- Element (n, c) of the gather is the table's element in column c of the row that row n's start index names: the
    index read signed and clamped into the table's rows. -/
theorem row_gather {α : Type} {G N C w : Nat} (hG : 0 < G)
    (wf : GatherDims.WF ⟨2, ![G, C]⟩ ⟨2, ![N, 1]⟩ ⟨2, ![N, C]⟩ [1] [0] [] [0] [] 1 ![1, C])
    (x : (⟨2, ![G, C]⟩ : Shape).Idx → α) (idx : IVec ⟨2, ![N, 1]⟩ w) (n : Fin N) (c : Fin C) :
    Host.gather (rowDims G N C wf) x idx (ix2 n c) =
      x (ix2 ⟨min (idx (ix2 n 0)).toInt.toNat (G - 1), by omega⟩ c) := by
  unfold Host.gather
  congr 1
  funext a
  refine Fin.ext ?_
  match a with
  | ⟨0, _⟩ =>
    show (rowDims G N C wf).start (ix2 n c) idx 0 + (rowDims G N C wf).batchCoord (ix2 n c) 0
      + (rowDims G N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims G N C wf).startIndexMap from List.mem_singleton.mpr rfl)]
    have hsi : (rowDims G N C wf).siIdx (ix2 n c) ⟨List.idxOf (0 : Fin 2) (rowDims G N C wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show (rowDims G N C wf).start (ix2 n c) idx 1 + (rowDims G N C wf).batchCoord (ix2 n c) 1
      + (rowDims G N C wf).offCoord (ix2 n c) 1 = c.val
    rw [GatherDims.batchCoord_eq_zero _ _ _ List.not_mem_nil]
    have hs : (rowDims G N C wf).start (ix2 n c) idx 1 = 0 := by
      unfold GatherDims.start
      rw [dif_neg (show (1 : Fin 2) ∉ [(0 : Fin 2)] by decide)]
    have ho : (rowDims G N C wf).offCoord (ix2 n c) 1 = c.val := by
      have h : (1 : Fin 2) ∈ (rowDims G N C wf).sKept :=
        (GatherDims.mem_sKept _ _).2 ⟨show (1 : Fin 2) ∉ [(0 : Fin 2)] by decide, List.not_mem_nil⟩
      unfold GatherDims.offCoord
      exact (dif_pos h).trans rfl
    simp only [hs, ho, Nat.zero_add]

/-- A word of a natural number below 2^31, read signed and clamped into G rows, is the number when it is below G. -/
theorem clamp_ofNat (g G : ℕ) (hg : g < G) (hG : G ≤ 2 ^ 31) : min (BitVec.ofNat 32 g).toInt.toNat (G - 1) = g := by
  have h : (BitVec.ofNat 32 g).toInt = (g : Int) := (toInt_eq_natCast_iff _ g (by omega)).2 rfl
  rw [h]
  omega

/-- The binary32 word 0x3F800000 is the number one. -/
theorem ofBits_one_f32 : Ideal.ofBits .f32 0x3F800000#32 = 1 := by
  simp [Ideal.ofBits, Ideal.ieee, -EReal.coe_mul]; norm_num

/-- Two row indices with equal rows and the same column are equal. -/
theorem ix2_congr {n0 n1 : Nat} {a a' : Fin n0} (b : Fin n1) (h : a = a') : ix2 a b = ix2 a' b := by rw [h]

/-- When row n's start index is the word of a row number below G, the gather reads that row. -/
theorem row_gather_ofNat {α : Type} {G N C : Nat} (hG : G ≤ 2 ^ 31)
    (wf : GatherDims.WF ⟨2, ![G, C]⟩ ⟨2, ![N, 1]⟩ ⟨2, ![N, C]⟩ [1] [0] [] [0] [] 1 ![1, C])
    (x : (⟨2, ![G, C]⟩ : Shape).Idx → α) (idx : IVec ⟨2, ![N, 1]⟩ 32) (n : Fin N) (c : Fin C) (g : Fin G)
    (h : idx (ix2 n 0) = BitVec.ofNat 32 g.val) :
    Host.gather (rowDims G N C wf) x idx (ix2 n c) = x (ix2 g c) := by
  rw [row_gather (Nat.lt_of_le_of_lt (Nat.zero_le _) g.isLt) wf]
  refine congrArg x (ix2_congr c (Fin.ext ?_))
  show min (idx (ix2 n 0)).toInt.toNat (G - 1) = g.val
  rw [h]
  exact clamp_ofNat g.val G g.isLt hG

/-- jnp's normalisation of an index, the index plus the extent when it is negative, leaves a word that is not negative
    read signed as it is. -/
theorem select_slt_zero (w a : BitVec 32) (hw : w.toNat < 2 ^ 31) :
    Scalar.select (IntOp.cmpi .slt w 0#32) a w = w := by
  unfold Scalar.select
  rw [if_neg]
  intro h
  have h1 := (StableHlo.Predicate.slt_iff_toNat hw (by decide)).1 h
  have h0 : (0#32 : BitVec 32).toNat = 0 := rfl
  omega

/-! ## Groups, their words, and the table row an id picks -/

/-- The word of a group number is below 2^31 read unsigned: it is not negative read signed. -/
theorem gw_toNat_lt (g : Fin 1024) : (Spec.gw g).toNat < 2 ^ 31 := by
  have := g.isLt
  show (BitVec.ofNat 32 g.val).toNat < 2 ^ 31
  rw [BitVec.toNat_ofNat]; omega

/-- Two groups with one word are one group. -/
theorem gw_injective : Function.Injective Spec.gw := by
  intro g g' h
  have h1 : (BitVec.ofNat 32 g.val).toNat = (BitVec.ofNat 32 g'.val).toNat := congrArg BitVec.toNat h
  rw [BitVec.toNat_ofNat, BitVec.toNat_ofNat] at h1
  have := g.isLt; have := g'.isLt
  exact Fin.ext (by omega)

/-- At the word of a group the pick is that group's row of the table. -/
theorem pick_gw {D : ℕ} (A : Fin 1024 → Fin D → EReal) (g : Fin 1024) (d : Fin D) : Spec.pick A (Spec.gw g) d = A g d := by
  unfold Spec.pick
  rw [Finset.sum_eq_single g]
  · rw [if_pos rfl, one_mul]
  · intro g' _ hne
    rw [if_neg (fun h => hne (gw_injective h).symm), zero_mul]
  · intro h; exact absurd (Finset.mem_univ g) h

/-- At an id that is no group's word the pick is zero. -/
theorem pick_of_ne {D : ℕ} (A : Fin 1024 → Fin D → EReal) (id : BitVec 32) (d : Fin D) (h : ∀ g, id ≠ Spec.gw g) :
    Spec.pick A id d = 0 := by
  unfold Spec.pick
  exact Finset.sum_eq_zero fun g _ => by rw [if_neg (h g), zero_mul]

/-- Two segment sums agree when the columns agree on the group's rows. -/
theorem segSum_congr {D D' : ℕ} (ids : Fin 262144 → BitVec 32) (X : Fin 262144 → Fin D → EReal)
    (Y : Fin 262144 → Fin D' → EReal) (g : Fin 1024) (d : Fin D) (d' : Fin D')
    (h : ∀ n, ids n = Spec.gw g → X n d = Y n d') : Spec.segSum ids X g d = Spec.segSum ids Y g d' := by
  unfold Spec.segSum
  refine Finset.sum_congr rfl fun n _ => ?_
  by_cases hn : ids n = Spec.gw g
  · rw [if_pos hn, if_pos hn, h n hn]
  · rw [if_neg hn, if_neg hn]

/-! ## This reference's scatters, gathers and id columns -/

section Records
open Cert.ReferenceIdeal
variable [Facts₀]

/-- Element (g, f) of the scatter of 262144 rows of 256 columns into 1024 rows by their ids: the operand's element plus
    the sum, over the rows whose id is the word of g, of the update's element in column f. -/
theorem scatterAdd_rows256 (x : (⟨S1024x256, .f32⟩ : BufTy).Contents (Elt Ideal)) (bi : (⟨S262144x1, .i32⟩ : BufTy).Contents (Elt Ideal))
    (u : (⟨S262144x256, .f32⟩ : BufTy).Contents (Elt Ideal)) (g : Fin 1024) (f : Fin 256) :
    Host.scatterAdd (F := Ideal) (φ := .f32) scatter_S1024x256_S262144x1_S262144x256_1_0_0_1 x bi u (ix2 g f) =
      x (ix2 g f) + ∑ n : Fin 262144, if bi (ix2 n 0) = Spec.gw g then u (ix2 n f) else 0 := by
  have hd : scatter_S1024x256_S262144x1_S262144x256_1_0_0_1 = segDims 1024 262144 256 Facts₀.scatter_S1024x256_S262144x1_S262144x256_1_0_0_1_wf := rfl
  have h := seg_scatterAdd Facts₀.scatter_S1024x256_S262144x1_S262144x256_1_0_0_1_wf x bi u g f
  rw [← hd] at h
  unfold Host.scatterAdd
  rw [Ideal.hostScatterAdd_def, h]
  refine congrArg (x (ix2 g f) + ·) (Finset.sum_congr rfl fun n _ => ?_)
  exact if_congr (toInt_eq_natCast_iff _ g.val (by have := g.isLt; omega)) rfl rfl

/-- Element (g, f) of the scatter of 262144 rows of 257 columns into 1024 rows by their ids: the operand's element plus
    the sum, over the rows whose id is the word of g, of the update's element in column f. -/
theorem scatterAdd_rows257 (x : (⟨S1024x257, .f32⟩ : BufTy).Contents (Elt Ideal)) (bi : (⟨S262144x1, .i32⟩ : BufTy).Contents (Elt Ideal))
    (u : (⟨S262144x257, .f32⟩ : BufTy).Contents (Elt Ideal)) (g : Fin 1024) (f : Fin 257) :
    Host.scatterAdd (F := Ideal) (φ := .f32) scatter_S1024x257_S262144x1_S262144x257_1_0_0_1 x bi u (ix2 g f) =
      x (ix2 g f) + ∑ n : Fin 262144, if bi (ix2 n 0) = Spec.gw g then u (ix2 n f) else 0 := by
  have hd : scatter_S1024x257_S262144x1_S262144x257_1_0_0_1 = segDims 1024 262144 257 Facts₀.scatter_S1024x257_S262144x1_S262144x257_1_0_0_1_wf := rfl
  have h := seg_scatterAdd Facts₀.scatter_S1024x257_S262144x1_S262144x257_1_0_0_1_wf x bi u g f
  rw [← hd] at h
  unfold Host.scatterAdd
  rw [Ideal.hostScatterAdd_def, h]
  refine congrArg (x (ix2 g f) + ·) (Finset.sum_congr rfl fun n _ => ?_)
  exact if_congr (toInt_eq_natCast_iff _ g.val (by have := g.isLt; omega)) rfl rfl

/-- Element (g, f) of the scatter of 262144 rows of 1 column into 1024 rows by their ids: the operand's element plus
    the sum, over the rows whose id is the word of g, of the update's element in column f. -/
theorem scatterAdd_rows1 (x : (⟨S1024x1, .f32⟩ : BufTy).Contents (Elt Ideal)) (bi : (⟨S262144x1, .i32⟩ : BufTy).Contents (Elt Ideal))
    (u : (⟨S262144x1, .f32⟩ : BufTy).Contents (Elt Ideal)) (g : Fin 1024) (f : Fin 1) :
    Host.scatterAdd (F := Ideal) (φ := .f32) scatter_S1024x1_S262144x1_S262144x1_1_0_0_1 x bi u (ix2 g f) =
      x (ix2 g f) + ∑ n : Fin 262144, if bi (ix2 n 0) = Spec.gw g then u (ix2 n f) else 0 := by
  have hd : scatter_S1024x1_S262144x1_S262144x1_1_0_0_1 = segDims 1024 262144 1 Facts₀.scatter_S1024x1_S262144x1_S262144x1_1_0_0_1_wf := rfl
  have h := seg_scatterAdd Facts₀.scatter_S1024x1_S262144x1_S262144x1_1_0_0_1_wf x bi u g f
  rw [← hd] at h
  unfold Host.scatterAdd
  rw [Ideal.hostScatterAdd_def, h]
  refine congrArg (x (ix2 g f) + ·) (Finset.sum_congr rfl fun n _ => ?_)
  exact if_congr (toInt_eq_natCast_iff _ g.val (by have := g.isLt; omega)) rfl rfl

/-- Element g of the scatter of 262144 numbers into 1024 by their ids: the operand's element plus the sum, over the
    updates whose id is the word of g, of the update. -/
theorem scatterAdd_count (x : (⟨S1024, .f32⟩ : BufTy).Contents (Elt Ideal)) (bi : (⟨S262144x1, .i32⟩ : BufTy).Contents (Elt Ideal))
    (u : (⟨S262144, .f32⟩ : BufTy).Contents (Elt Ideal)) (g : Fin 1024) :
    Host.scatterAdd (F := Ideal) (φ := .f32) scatter_S1024_S262144x1_S262144_n_0_0_1 x bi u (ix1 g) =
      x (ix1 g) + ∑ n : Fin 262144, if bi (ix2 n 0) = Spec.gw g then u (ix1 n) else 0 := by
  have hd : scatter_S1024_S262144x1_S262144_n_0_0_1 = cntDims 1024 262144 Facts₀.scatter_S1024_S262144x1_S262144_n_0_0_1_wf := rfl
  have h := cnt_scatterAdd Facts₀.scatter_S1024_S262144x1_S262144_n_0_0_1_wf x bi u g
  rw [← hd] at h
  unfold Host.scatterAdd
  rw [Ideal.hostScatterAdd_def, h]
  refine congrArg (x (ix1 g) + ·) (Finset.sum_congr rfl fun n _ => ?_)
  exact if_congr (toInt_eq_natCast_iff _ g.val (by have := g.isLt; omega)) rfl rfl

/-- Into zeros, by a column that holds the rows' ids, the scatter of 256-column rows is the segment sum. -/
theorem segSum_rows256 (z : (⟨S1024x256, .f32⟩ : BufTy).Contents (Elt Ideal)) (bi : (⟨S262144x1, .i32⟩ : BufTy).Contents (Elt Ideal))
    (u : (⟨S262144x256, .f32⟩ : BufTy).Contents (Elt Ideal)) (ids : Fin 262144 → BitVec 32) (g : Fin 1024) (f : Fin 256)
    (hz : ∀ i, z i = (0 : EReal)) (hid : ∀ n, bi (ix2 n 0) = ids n) :
    Host.scatterAdd (F := Ideal) (φ := .f32) scatter_S1024x256_S262144x1_S262144x256_1_0_0_1 z bi u (ix2 g f) =
      Spec.segSum ids (fun n d => u (ix2 n d)) g f := by
  rw [scatterAdd_rows256, hz, zero_add]
  unfold Spec.segSum
  exact Finset.sum_congr rfl fun n _ => by rw [hid n]

/-- Into zeros, by a column that holds the rows' ids, the scatter of 257-column rows is the segment sum. -/
theorem segSum_rows257 (z : (⟨S1024x257, .f32⟩ : BufTy).Contents (Elt Ideal)) (bi : (⟨S262144x1, .i32⟩ : BufTy).Contents (Elt Ideal))
    (u : (⟨S262144x257, .f32⟩ : BufTy).Contents (Elt Ideal)) (ids : Fin 262144 → BitVec 32) (g : Fin 1024) (f : Fin 257)
    (hz : ∀ i, z i = (0 : EReal)) (hid : ∀ n, bi (ix2 n 0) = ids n) :
    Host.scatterAdd (F := Ideal) (φ := .f32) scatter_S1024x257_S262144x1_S262144x257_1_0_0_1 z bi u (ix2 g f) =
      Spec.segSum ids (fun n d => u (ix2 n d)) g f := by
  rw [scatterAdd_rows257, hz, zero_add]
  unfold Spec.segSum
  exact Finset.sum_congr rfl fun n _ => by rw [hid n]

/-- Into zeros, by a column that holds the rows' ids, the scatter of one-column rows is the segment sum. -/
theorem segSum_rows1 (z : (⟨S1024x1, .f32⟩ : BufTy).Contents (Elt Ideal)) (bi : (⟨S262144x1, .i32⟩ : BufTy).Contents (Elt Ideal))
    (u : (⟨S262144x1, .f32⟩ : BufTy).Contents (Elt Ideal)) (ids : Fin 262144 → BitVec 32) (g : Fin 1024)
    (hz : ∀ i, z i = (0 : EReal)) (hid : ∀ n, bi (ix2 n 0) = ids n) :
    Host.scatterAdd (F := Ideal) (φ := .f32) scatter_S1024x1_S262144x1_S262144x1_1_0_0_1 z bi u (ix2 g 0) =
      Spec.segSum ids (fun n (_ : Fin 1) => u (ix2 n 0)) g 0 := by
  rw [scatterAdd_rows1, hz, zero_add]
  unfold Spec.segSum
  exact Finset.sum_congr rfl fun n _ => by rw [hid n]

/-- Into zeros, by a column that holds the rows' ids, the scatter of ones is the group's row count. -/
theorem segCnt_count (z : (⟨S1024, .f32⟩ : BufTy).Contents (Elt Ideal)) (bi : (⟨S262144x1, .i32⟩ : BufTy).Contents (Elt Ideal))
    (u : (⟨S262144, .f32⟩ : BufTy).Contents (Elt Ideal)) (ids : Fin 262144 → BitVec 32) (g : Fin 1024)
    (hz : ∀ i, z i = (0 : EReal)) (hid : ∀ n, bi (ix2 n 0) = ids n) (hu : ∀ i, u i = (1 : EReal)) :
    Host.scatterAdd (F := Ideal) (φ := .f32) scatter_S1024_S262144x1_S262144_n_0_0_1 z bi u (ix1 g) = Spec.segCnt ids g := by
  rw [scatterAdd_count, hz, zero_add]
  unfold Spec.segCnt
  exact Finset.sum_congr rfl fun n _ => by rw [hid n, hu]

/-- The gather of 262144 rows of 256 columns out of a table of 1024 rows reads, for a row whose start index is the word
    of group g, row g of the table. -/
theorem gather_rows256 {α : Type} (A : S1024x256.Idx → α) (bi : IVec S262144x1 32) (n : Fin 262144) (d : Fin 256) (g : Fin 1024)
    (h : bi (ix2 n 0) = Spec.gw g) :
    Host.gather gather_S1024x256_S262144x1_S262144x256_1_0_n_n_0_1_1256 A bi (ix2 n d) = A (ix2 g d) := by
  have hd : gather_S1024x256_S262144x1_S262144x256_1_0_n_n_0_1_1256 = rowDims 1024 262144 256 Facts₀.gather_S1024x256_S262144x1_S262144x256_1_0_n_n_0_1_1256_wf := rfl
  rw [hd]
  exact row_gather_ofNat (by decide) _ A bi n d g h

/-- The gather of 262144 rows of 1 column out of a table of 1024 rows reads, for a row whose start index is the word
    of group g, row g of the table. -/
theorem gather_rows1 {α : Type} (A : S1024x1.Idx → α) (bi : IVec S262144x1 32) (n : Fin 262144) (d : Fin 1) (g : Fin 1024)
    (h : bi (ix2 n 0) = Spec.gw g) :
    Host.gather gather_S1024x1_S262144x1_S262144x1_1_0_n_n_0_1_11 A bi (ix2 n d) = A (ix2 g d) := by
  have hd : gather_S1024x1_S262144x1_S262144x1_1_0_n_n_0_1_11 = rowDims 1024 262144 1 Facts₀.gather_S1024x1_S262144x1_S262144x1_1_0_n_n_0_1_11_wf := rfl
  rw [hd]
  exact row_gather_ofNat (by decide) _ A bi n d g h

/-- The gather of 262144 rows of 4 columns out of a table of 1024 rows reads, for a row whose start index is the word
    of group g, row g of the table. -/
theorem gather_rows4 {α : Type} (A : S1024x4.Idx → α) (bi : IVec S262144x1 32) (n : Fin 262144) (d : Fin 4) (g : Fin 1024)
    (h : bi (ix2 n 0) = Spec.gw g) :
    Host.gather gather_S1024x4_S262144x1_S262144x4_1_0_n_n_0_1_14 A bi (ix2 n d) = A (ix2 g d) := by
  have hd : gather_S1024x4_S262144x1_S262144x4_1_0_n_n_0_1_14 = rowDims 1024 262144 4 Facts₀.gather_S1024x4_S262144x1_S262144x4_1_0_n_n_0_1_14_wf := rfl
  rw [hd]
  exact row_gather_ofNat (by decide) _ A bi n d g h

/-- A vector of 262144 entries broadcast to a column, read at row n, is the vector's entry n. -/
theorem bcast_col {α : Type} (h : S262144.BroadcastsInDim S262144x1 (![0] : Fin 1 → Fin S262144x1.rank))
    (y : S262144.Idx → α) (n : Fin 262144) : broadcastInDim S262144x1 ![0] h y (ix2 n 0) = y (ix1 n) :=
  broadcastInDim_apply _ h y (ix2 n 0) (ix1 n) (fun a => match a with
    | ⟨0, _⟩ => by show n.val = if (262144 : Nat) = 1 then 0 else n.val; rw [if_neg (by decide)])

/-- The column of normalised ids (an id below zero moved up by the number of groups, any other id kept) holds, at a
    row whose id is the word of group g, that word. -/
theorem normId_col (h : S262144.BroadcastsInDim S262144x1 (![0] : Fin 1 → Fin S262144x1.rank))
    (idx zero k : IVec S262144 32) (n : Fin 262144) (g : Fin 1024)
    (hz : zero (ix1 n) = 0#32) (hid : idx (ix1 n) = Spec.gw g) :
    broadcastInDim S262144x1 ![0] h (select (cmpi .slt idx zero) (addi idx k) idx) (ix2 n 0) = Spec.gw g := by
  rw [bcast_col]
  show Scalar.select (IntOp.cmpi .slt (idx (ix1 n)) (zero (ix1 n))) (IntOp.addi (idx (ix1 n)) (k (ix1 n))) (idx (ix1 n)) = _
  rw [hz, hid]
  exact select_slt_zero _ _ (gw_toNat_lt g)

end Records

end Cert.Value.Seg

end
-- ==== Proof.Value.AssembleMath.lean ====
/-
  Small facts about the specification's functions, used where the two programs' results are set side by side.

  A segment mean of one column depends on that column alone: the feature block and the target column laid side by
  side have, column by column, the segment means of the parts. Every function of the specification takes equal
  values on arguments that agree entry by entry.
-/
import proofs.«430159_j88974542504689_1_alg».proof.Proof.Value.Spec
import Idealize.ShloMosaic.Lib.ValueIdx
import Mathlib.Algebra.BigOperators.Group.Finset.Basic

noncomputable section

open scoped BigOperators

namespace Cert.Value

open Idealize.ShloMosaic

/-! ## A segment mean reads one column -/

/-- The segment sum of column d of X is that of column e of Y when the two columns agree row by row. -/
theorem segSum_col_congr {D E : ℕ} (ids : Fin 262144 → BitVec 32) (X : Fin 262144 → Fin D → EReal)
    (Y : Fin 262144 → Fin E → EReal) (g : Fin 1024) (d : Fin D) (e : Fin E) (h : ∀ n, X n d = Y n e) :
    Spec.segSum ids X g d = Spec.segSum ids Y g e := by
  unfold Spec.segSum
  exact Finset.sum_congr rfl fun n _ => by rw [h n]

/-- The segment mean likewise. -/
theorem segMean_col_congr {D E : ℕ} (ids : Fin 262144 → BitVec 32) (X : Fin 262144 → Fin D → EReal)
    (Y : Fin 262144 → Fin E → EReal) (g : Fin 1024) (d : Fin D) (e : Fin E) (h : ∀ n, X n d = Y n e) :
    Spec.segMean ids X g d = Spec.segMean ids Y g e := by
  unfold Spec.segMean
  rw [segSum_col_congr ids X Y g d e h]

/-- The 256 feature columns and the target column side by side: 257 columns, the last one the target. -/
def joinXY (X1 : Fin 262144 → Fin 256 → EReal) (X2 : Fin 262144 → EReal) (n : Fin 262144) (d : Fin 257) : EReal :=
  if h : d.val < 256 then X1 n ⟨d.val, h⟩ else X2 n

theorem joinXY_feature (X1 : Fin 262144 → Fin 256 → EReal) (X2 : Fin 262144 → EReal) (n : Fin 262144) (d : Fin 256) :
    joinXY X1 X2 n ⟨d.val, by omega⟩ = X1 n d := by
  unfold joinXY
  exact dif_pos d.isLt

theorem joinXY_target (X1 : Fin 262144 → Fin 256 → EReal) (X2 : Fin 262144 → EReal) (n : Fin 262144) :
    joinXY X1 X2 n ⟨256, by omega⟩ = X2 n := by
  unfold joinXY
  exact dif_neg (Nat.lt_irrefl 256)

/-- A feature column of the joined rows has the features' segment mean. -/
theorem segMean_xy_feature (ids : Fin 262144 → BitVec 32) (X1 : Fin 262144 → Fin 256 → EReal) (X2 : Fin 262144 → EReal)
    (g : Fin 1024) (d : Fin 256) :
    Spec.segMean ids (joinXY X1 X2) g ⟨d.val, by omega⟩ = Spec.segMean ids X1 g d :=
  segMean_col_congr ids (joinXY X1 X2) X1 g ⟨d.val, by omega⟩ d fun n => joinXY_feature X1 X2 n d

/-- The last column of the joined rows has the target's segment mean. -/
theorem segMean_xy_target (ids : Fin 262144 → BitVec 32) (X1 : Fin 262144 → Fin 256 → EReal) (X2 : Fin 262144 → EReal)
    (g : Fin 1024) :
    Spec.segMean ids (joinXY X1 X2) g ⟨256, by omega⟩ = Spec.segMean ids (fun n (_ : Fin 1) => X2 n) g 0 :=
  segMean_col_congr ids (joinXY X1 X2) (fun n (_ : Fin 1) => X2 n) g ⟨256, by omega⟩ 0 fun n => joinXY_target X1 X2 n

/-- The same for any 257-column rows that are the features then the target, stated by hypotheses. -/
theorem segMean_feature_of {XY : Fin 262144 → Fin 257 → EReal} (ids : Fin 262144 → BitVec 32) (X1 : Fin 262144 → Fin 256 → EReal)
    (h1 : ∀ n (d : Fin 256), XY n ⟨d.val, by omega⟩ = X1 n d) (g : Fin 1024) (d : Fin 256) :
    Spec.segMean ids XY g ⟨d.val, by omega⟩ = Spec.segMean ids X1 g d :=
  segMean_col_congr ids XY X1 g ⟨d.val, by omega⟩ d fun n => h1 n d

theorem segMean_target_of {XY : Fin 262144 → Fin 257 → EReal} (ids : Fin 262144 → BitVec 32) (X2 : Fin 262144 → EReal)
    (h2 : ∀ n, XY n ⟨256, by omega⟩ = X2 n) (g : Fin 1024) :
    Spec.segMean ids XY g ⟨256, by omega⟩ = Spec.segMean ids (fun n (_ : Fin 1) => X2 n) g 0 :=
  segMean_col_congr ids XY (fun n (_ : Fin 1) => X2 n) g ⟨256, by omega⟩ 0 fun n => h2 n

/-! ## Equal arguments, equal values -/

theorem segSum_congr {D : ℕ} {ids ids' : Fin 262144 → BitVec 32} {X X' : Fin 262144 → Fin D → EReal}
    (hids : ∀ n, ids n = ids' n) (hX : ∀ n d, X n d = X' n d) (g : Fin 1024) (d : Fin D) :
    Spec.segSum ids X g d = Spec.segSum ids' X' g d := by
  obtain rfl : ids = ids' := funext hids
  obtain rfl : X = X' := funext fun n => funext (hX n)
  rfl

theorem segCnt_congr {ids ids' : Fin 262144 → BitVec 32} (hids : ∀ n, ids n = ids' n) (g : Fin 1024) :
    Spec.segCnt ids g = Spec.segCnt ids' g := by
  obtain rfl : ids = ids' := funext hids
  rfl

theorem segMean_congr {D : ℕ} {ids ids' : Fin 262144 → BitVec 32} {X X' : Fin 262144 → Fin D → EReal}
    (hids : ∀ n, ids n = ids' n) (hX : ∀ n d, X n d = X' n d) (g : Fin 1024) (d : Fin D) :
    Spec.segMean ids X g d = Spec.segMean ids' X' g d := by
  obtain rfl : ids = ids' := funext hids
  obtain rfl : X = X' := funext fun n => funext (hX n)
  rfl

theorem pick_congr {D : ℕ} {A A' : Fin 1024 → Fin D → EReal} {id id' : BitVec 32}
    (hA : ∀ g d, A g d = A' g d) (hid : id = id') (d : Fin D) : Spec.pick A id d = Spec.pick A' id' d := by
  obtain rfl : A = A' := funext fun g => funext (hA g)
  subst hid
  rfl

theorem resid_congr {D : ℕ} {ids ids' : Fin 262144 → BitVec 32} {X X' : Fin 262144 → Fin D → EReal}
    {A A' : Fin 1024 → Fin D → EReal} (hids : ∀ n, ids n = ids' n) (hX : ∀ n d, X n d = X' n d)
    (hA : ∀ g d, A g d = A' g d) (n : Fin 262144) (d : Fin D) :
    Spec.resid ids X A n d = Spec.resid ids' X' A' n d := by
  obtain rfl : ids = ids' := funext hids
  obtain rfl : X = X' := funext fun n => funext (hX n)
  obtain rfl : A = A' := funext fun g => funext (hA g)
  rfl

theorem resMean_congr {D : ℕ} {ids ids' : Fin 262144 → BitVec 32} {X X' : Fin 262144 → Fin D → EReal}
    {A A' : Fin 1024 → Fin D → EReal} (hids : ∀ n, ids n = ids' n) (hX : ∀ n d, X n d = X' n d)
    (hA : ∀ g d, A g d = A' g d) : Spec.resMean ids X A = Spec.resMean ids' X' A' := by
  obtain rfl : ids = ids' := funext hids
  obtain rfl : X = X' := funext fun n => funext (hX n)
  obtain rfl : A = A' := funext fun g => funext (hA g)
  rfl

/-- The relative features' segment mean, for anchors that agree entry by entry. -/
theorem resMean_congr_anchor {D : ℕ} (ids : Fin 262144 → BitVec 32) (X : Fin 262144 → Fin D → EReal)
    {A A' : Fin 1024 → Fin D → EReal} (hA : ∀ g d, A g d = A' g d) : Spec.resMean ids X A = Spec.resMean ids X A' :=
  resMean_congr (fun _ => rfl) (fun _ _ => rfl) hA

theorem hidden_congr {xr xr' : Fin 256 → EReal} {tab tab' : Fin 269 → EReal} {Wd1 Wd1' : Fin 256 → Fin 128 → EReal}
    {bd1 bd1' : Fin 128 → EReal} (hx : ∀ d, xr d = xr' d) (ht : ∀ j, tab j = tab' j) (hW1 : ∀ d j, Wd1 d j = Wd1' d j)
    (hb1 : ∀ j, bd1 j = bd1' j) (j : Fin 128) : Spec.hidden xr tab Wd1 bd1 j = Spec.hidden xr' tab' Wd1' bd1' j := by
  obtain rfl : xr = xr' := funext hx
  obtain rfl : tab = tab' := funext ht
  obtain rfl : Wd1 = Wd1' := funext fun d => funext (hW1 d)
  obtain rfl : bd1 = bd1' := funext hb1
  rfl

theorem pred_congr {xr xr' : Fin 256 → EReal} {tab tab' : Fin 269 → EReal} {Wd1 Wd1' : Fin 256 → Fin 128 → EReal}
    {bd1 bd1' : Fin 128 → EReal} {Wd2 Wd2' : Fin 128 → Fin 8 → EReal} {bd2 bd2' : Fin 8 → EReal}
    (hx : ∀ d, xr d = xr' d) (ht : ∀ j, tab j = tab' j) (hW1 : ∀ d j, Wd1 d j = Wd1' d j) (hb1 : ∀ j, bd1 j = bd1' j)
    (hW2 : ∀ j k, Wd2 j k = Wd2' j k) (hb2 : ∀ k, bd2 k = bd2' k) (k : Fin 8) :
    Spec.pred xr tab Wd1 bd1 Wd2 bd2 k = Spec.pred xr' tab' Wd1' bd1' Wd2' bd2' k := by
  obtain rfl : xr = xr' := funext hx
  obtain rfl : tab = tab' := funext ht
  obtain rfl : Wd1 = Wd1' := funext fun d => funext (hW1 d)
  obtain rfl : bd1 = bd1' := funext hb1
  obtain rfl : Wd2 = Wd2' := funext fun j => funext (hW2 j)
  obtain rfl : bd2 = bd2' := funext hb2
  rfl

theorem yPred_congr {xr xr' : Fin 256 → EReal} {tab tab' : Fin 269 → EReal} {Wd1 Wd1' : Fin 256 → Fin 128 → EReal}
    {bd1 bd1' : Fin 128 → EReal} {Wd2 Wd2' : Fin 128 → Fin 8 → EReal} {bd2 bd2' : Fin 8 → EReal}
    (hx : ∀ d, xr d = xr' d) (ht : ∀ j, tab j = tab' j) (hW1 : ∀ d j, Wd1 d j = Wd1' d j) (hb1 : ∀ j, bd1 j = bd1' j)
    (hW2 : ∀ j k, Wd2 j k = Wd2' j k) (hb2 : ∀ k, bd2 k = bd2' k) :
    Spec.yPred xr tab Wd1 bd1 Wd2 bd2 = Spec.yPred xr' tab' Wd1' bd1' Wd2' bd2' := by
  obtain rfl : xr = xr' := funext hx
  obtain rfl : tab = tab' := funext ht
  obtain rfl : Wd1 = Wd1' := funext fun d => funext (hW1 d)
  obtain rfl : bd1 = bd1' := funext hb1
  obtain rfl : Wd2 = Wd2' := funext fun j => funext (hW2 j)
  obtain rfl : bd2 = bd2' := funext hb2
  rfl

theorem ySigma_congr {xr xr' : Fin 256 → EReal} {tab tab' : Fin 269 → EReal} {Wd1 Wd1' : Fin 256 → Fin 128 → EReal}
    {bd1 bd1' : Fin 128 → EReal} {Wd2 Wd2' : Fin 128 → Fin 8 → EReal} {bd2 bd2' : Fin 8 → EReal}
    (hx : ∀ d, xr d = xr' d) (ht : ∀ j, tab j = tab' j) (hW1 : ∀ d j, Wd1 d j = Wd1' d j) (hb1 : ∀ j, bd1 j = bd1' j)
    (hW2 : ∀ j k, Wd2 j k = Wd2' j k) (hb2 : ∀ k, bd2 k = bd2' k) :
    Spec.ySigma xr tab Wd1 bd1 Wd2 bd2 = Spec.ySigma xr' tab' Wd1' bd1' Wd2' bd2' := by
  obtain rfl : xr = xr' := funext hx
  obtain rfl : tab = tab' := funext ht
  obtain rfl : Wd1 = Wd1' := funext fun d => funext (hW1 d)
  obtain rfl : bd1 = bd1' := funext hb1
  obtain rfl : Wd2 = Wd2' := funext fun j => funext (hW2 j)
  obtain rfl : bd2 = bd2' := funext hb2
  rfl

/-- The predicted value for tables that agree entry by entry, -/
theorem yPred_congr_tab (xr : Fin 256 → EReal) {tab tab' : Fin 269 → EReal} (Wd1 : Fin 256 → Fin 128 → EReal)
    (bd1 : Fin 128 → EReal) (Wd2 : Fin 128 → Fin 8 → EReal) (bd2 : Fin 8 → EReal) (ht : ∀ j, tab j = tab' j) :
    Spec.yPred xr tab Wd1 bd1 Wd2 bd2 = Spec.yPred xr tab' Wd1 bd1 Wd2 bd2 :=
  yPred_congr (fun _ => rfl) ht (fun _ _ => rfl) (fun _ => rfl) (fun _ _ => rfl) (fun _ => rfl)

/-- and the predicted spread. -/
theorem ySigma_congr_tab (xr : Fin 256 → EReal) {tab tab' : Fin 269 → EReal} (Wd1 : Fin 256 → Fin 128 → EReal)
    (bd1 : Fin 128 → EReal) (Wd2 : Fin 128 → Fin 8 → EReal) (bd2 : Fin 8 → EReal) (ht : ∀ j, tab j = tab' j) :
    Spec.ySigma xr tab Wd1 bd1 Wd2 bd2 = Spec.ySigma xr tab' Wd1 bd1 Wd2 bd2 :=
  ySigma_congr (fun _ => rfl) ht (fun _ _ => rfl) (fun _ => rfl) (fun _ _ => rfl) (fun _ => rfl)

end Cert.Value

end
-- ==== Proof.Value.Tails.lean ====
/-
  The small dense computations both programs apply to the two 1024×257 arrays of per-group means of relative
  features (one array for the context rows, one for the target rows).

  From such an array h the cluster head forms  r = tanh(h·W₁ + b₁)  (1024×128), the four mixture logits
  r·Wₘ + bₘ, their softmax and log-softmax along the four columns, and the eight numbers r·Wₚ + bₚ, whose first
  four columns are means and whose last four are pre-softplus scales; softplus is taken in its stable form
  max(x,0) + log1p(exp(−|x|)) (x itself where x is not a number), and a scale is softplus·0.99 + 0.01.

  The divergence between the target's and the context's cluster distributions is, per group, the sum over the four
  columns of  p_t·(log p_t − log p_c)  plus the sum over the four columns of
  log(σ_c/σ_t) + (σ_t² + (μ_t − μ_c)²)/(2σ_c²) − ½.

  Every function below is the composition of the tensor operations in exactly the order the programs apply them; none
  is unfolded anywhere: two arrays h that are equal give equal results.
-/
import proofs.«430159_j88974542504689_1_alg».proof.Proof.Gen.KernelIdeal

noncomputable section

namespace Cert.Tails

open Cert.KernelIdeal Cert.KernelIdeal.Gen Idealize.ShloMosaic

variable {F : FTy → Type} [FloatOps F]

/-- The splat of one binary32 pattern over the 1024×4 block. -/
def splat4 (b : BitVec 32) : (⟨S1024x4, .f32⟩ : BufTy).Contents (Elt F) :=
  broadcastInDim S1024x4 ![] bcast_S_S1024x4 (constant (F := F) S_ .f32 b)

/-- The hidden representation tanh(h·W₁ + b₁). -/
def rep (h : (⟨S1024x257, .f32⟩ : BufTy).Contents (Elt F)) (W1 : (⟨S257x128, .f32⟩ : BufTy).Contents (Elt F))
    (b1 : (⟨S128, .f32⟩ : BufTy).Contents (Elt F)) : (⟨S1024x128, .f32⟩ : BufTy).Contents (Elt F) :=
  Host.tanh (F := F) (addf (F := F) (Host.dotGeneral (F := F) dot_S1024x257_S257x128_S1024x128_1_0_0_1_n_n none h W1)
    (broadcastInDim S1024x128 ![0, 1] bcast_S1x128_S1024x128_0_1 (broadcastInDim S1x128 ![1] bcast_S128_S1x128_1 b1)))

/-- The mixture logits r·Wₘ + bₘ. -/
def logits (r : (⟨S1024x128, .f32⟩ : BufTy).Contents (Elt F)) (Wm : (⟨S128x4, .f32⟩ : BufTy).Contents (Elt F))
    (bm : (⟨S4, .f32⟩ : BufTy).Contents (Elt F)) : (⟨S1024x4, .f32⟩ : BufTy).Contents (Elt F) :=
  addf (F := F) (Host.dotGeneral (F := F) dot_S1024x128_S128x4_S1024x4_1_0_0_1_n_n none r Wm)
    (broadcastInDim S1024x4 ![0, 1] bcast_S1x4_S1024x4_0_1 (broadcastInDim S1x4 ![1] bcast_S4_S1x4_1 bm))

/-- The logits less their row maximum (the maximum taken against −∞ twice, as the programs do). -/
def shifted (lg : (⟨S1024x4, .f32⟩ : BufTy).Contents (Elt F)) : (⟨S1024x4, .f32⟩ : BufTy).Contents (Elt F) :=
  subf (F := F) lg
    (broadcastInDim S1024x4 ![0, 1] bcast_S1024x1_S1024x4_0_1
      (broadcastInDim S1024x1 ![0] bcast_S1024_S1024x1_0
        (maximumf (F := F) (broadcastInDim S1024 ![] bcast_S_S1024 (constant (F := F) S_ .f32 0xFF800000#32))
          (Host.reduce FloatOps.maximumf lg (constant (F := F) S_ .f32 0xFF800000#32) reducesTo_S1024x4_S1024_d1 h_S_))))

/-- The row sums of the exponentials of the shifted logits, as a 1024×1 column. -/
def expSum (lg : (⟨S1024x4, .f32⟩ : BufTy).Contents (Elt F)) : (⟨S1024x1, .f32⟩ : BufTy).Contents (Elt F) :=
  broadcastInDim S1024x1 ![0] bcast_S1024_S1024x1_0
    (Host.reduceAdd (F := F) (Host.exp (F := F) (shifted lg)) (constant (F := F) S_ .f32 0x00000000#32) reducesTo_S1024x4_S1024_d1 h_S_)

/-- The softmax along the four columns. -/
def prob (lg : (⟨S1024x4, .f32⟩ : BufTy).Contents (Elt F)) : (⟨S1024x4, .f32⟩ : BufTy).Contents (Elt F) :=
  Host.divf (F := F) (Host.exp (F := F) (shifted lg)) (broadcastInDim S1024x4 ![0, 1] bcast_S1024x1_S1024x4_0_1 (expSum lg))

/-- The log-softmax along the four columns. -/
def logp (lg : (⟨S1024x4, .f32⟩ : BufTy).Contents (Elt F)) : (⟨S1024x4, .f32⟩ : BufTy).Contents (Elt F) :=
  subf (F := F) (shifted lg) (broadcastInDim S1024x4 ![0, 1] bcast_S1024x1_S1024x4_0_1 (Host.log (F := F) (expSum lg)))

/-- The eight numbers r·Wₚ + bₚ. -/
def prec (r : (⟨S1024x128, .f32⟩ : BufTy).Contents (Elt F)) (Wp : (⟨S128x8, .f32⟩ : BufTy).Contents (Elt F))
    (bp : (⟨S8, .f32⟩ : BufTy).Contents (Elt F)) : (⟨S1024x8, .f32⟩ : BufTy).Contents (Elt F) :=
  addf (F := F) (Host.dotGeneral (F := F) dot_S1024x128_S128x8_S1024x8_1_0_0_1_n_n none r Wp)
    (broadcastInDim S1024x8 ![0, 1] bcast_S1x8_S1024x8_0_1 (broadcastInDim S1x8 ![1] bcast_S8_S1x8_1 bp))

/-- Columns 0…3: the means. -/
def pm (p : (⟨S1024x8, .f32⟩ : BufTy).Contents (Elt F)) : (⟨S1024x4, .f32⟩ : BufTy).Contents (Elt F) :=
  extractStridedSlice S1024x4 ![0, 0] p slices_S1024x8_S1024x4_0_0

/-- Columns 4…7: the pre-softplus scales. -/
def pls (p : (⟨S1024x8, .f32⟩ : BufTy).Contents (Elt F)) : (⟨S1024x4, .f32⟩ : BufTy).Contents (Elt F) :=
  extractStridedSlice S1024x4 ![0, 4] p slices_S1024x8_S1024x4_0_4

/-- softplus in its stable form, x + 0 where x − 0 differs from itself. -/
def sp (x : (⟨S1024x4, .f32⟩ : BufTy).Contents (Elt F)) : (⟨S1024x4, .f32⟩ : BufTy).Contents (Elt F) :=
  select (cmpf (F := F) .une (subf (F := F) x (splat4 0x00000000#32)) (subf (F := F) x (splat4 0x00000000#32)))
    (addf (F := F) x (splat4 0x00000000#32))
    (addf (F := F) (maximumf (F := F) x (splat4 0x00000000#32))
      (Host.log1p (F := F) (Host.exp (F := F) (Host.negf (F := F) (Host.absf (F := F) (subf (F := F) x (splat4 0x00000000#32)))))))

/-- softplus(x)·0.99 + 0.01. -/
def scaled (x : (⟨S1024x4, .f32⟩ : BufTy).Contents (Elt F)) : (⟨S1024x4, .f32⟩ : BufTy).Contents (Elt F) :=
  addf (F := F) (mulf (F := F) (sp x) (splat4 0x3F7D70A4#32)) (splat4 0x3C23D70A#32)

/-- Scale times mixture weight. -/
def tsp (scale prob : (⟨S1024x4, .f32⟩ : BufTy).Contents (Elt F)) : (⟨S1024x4, .f32⟩ : BufTy).Contents (Elt F) :=
  mulf (F := F) scale prob

/-- The divergence of the target's cluster distribution from the context's, per group. -/
def distKl (t_prob t_logp c_logp c_ps t_ps t_pm c_pm : (⟨S1024x4, .f32⟩ : BufTy).Contents (Elt F)) :
    (⟨S1024, .f32⟩ : BufTy).Contents (Elt F) :=
  addf (F := F)
    (Host.reduceAdd (F := F) (mulf (F := F) t_prob (subf (F := F) t_logp c_logp))
      (constant (F := F) S_ .f32 0x00000000#32) reducesTo_S1024x4_S1024_d1 h_S_)
    (Host.reduceAdd (F := F)
      (subf (F := F)
        (addf (F := F) (Host.log (F := F) (Host.divf (F := F) c_ps t_ps))
          (Host.divf (F := F)
            (addf (F := F) (mulf (F := F) t_ps t_ps) (mulf (F := F) (subf (F := F) t_pm c_pm) (subf (F := F) t_pm c_pm)))
            (mulf (F := F) (splat4 0x40000000#32) (mulf (F := F) c_ps c_ps))))
        (splat4 0x3F000000#32))
      (constant (F := F) S_ .f32 0x00000000#32) reducesTo_S1024x4_S1024_d1 h_S_)

/-! ## The four results as functions of the two mean arrays and the head's weights -/

/-- The target's hidden representation. -/
def tRep (h_tgt : (⟨S1024x257, .f32⟩ : BufTy).Contents (Elt F)) (W1 : (⟨S257x128, .f32⟩ : BufTy).Contents (Elt F))
    (b1 : (⟨S128, .f32⟩ : BufTy).Contents (Elt F)) : (⟨S1024x128, .f32⟩ : BufTy).Contents (Elt F) :=
  rep h_tgt W1 b1

/-- The target's mixture weights. -/
def tProb (h_tgt : (⟨S1024x257, .f32⟩ : BufTy).Contents (Elt F)) (W1 : (⟨S257x128, .f32⟩ : BufTy).Contents (Elt F))
    (b1 : (⟨S128, .f32⟩ : BufTy).Contents (Elt F)) (Wm : (⟨S128x4, .f32⟩ : BufTy).Contents (Elt F))
    (bm : (⟨S4, .f32⟩ : BufTy).Contents (Elt F)) : (⟨S1024x4, .f32⟩ : BufTy).Contents (Elt F) :=
  prob (logits (rep h_tgt W1 b1) Wm bm)

/-- The target's scales on the means' columns. -/
def tScale (h_tgt : (⟨S1024x257, .f32⟩ : BufTy).Contents (Elt F)) (W1 : (⟨S257x128, .f32⟩ : BufTy).Contents (Elt F))
    (b1 : (⟨S128, .f32⟩ : BufTy).Contents (Elt F)) (Wp : (⟨S128x8, .f32⟩ : BufTy).Contents (Elt F))
    (bp : (⟨S8, .f32⟩ : BufTy).Contents (Elt F)) : (⟨S1024x4, .f32⟩ : BufTy).Contents (Elt F) :=
  scaled (pm (prec (rep h_tgt W1 b1) Wp bp))

/-- The per-group divergence from both mean arrays. -/
def distKlOf (h_ctx h_tgt : (⟨S1024x257, .f32⟩ : BufTy).Contents (Elt F)) (W1 : (⟨S257x128, .f32⟩ : BufTy).Contents (Elt F))
    (b1 : (⟨S128, .f32⟩ : BufTy).Contents (Elt F)) (Wm : (⟨S128x4, .f32⟩ : BufTy).Contents (Elt F))
    (bm : (⟨S4, .f32⟩ : BufTy).Contents (Elt F)) (Wp : (⟨S128x8, .f32⟩ : BufTy).Contents (Elt F))
    (bp : (⟨S8, .f32⟩ : BufTy).Contents (Elt F)) : (⟨S1024, .f32⟩ : BufTy).Contents (Elt F) :=
  distKl (prob (logits (rep h_tgt W1 b1) Wm bm))
    (logp (logits (rep h_tgt W1 b1) Wm bm))
    (logp (logits (rep h_ctx W1 b1) Wm bm))
    (scaled (pls (prec (rep h_ctx W1 b1) Wp bp)))
    (scaled (pls (prec (rep h_tgt W1 b1) Wp bp)))
    (pm (prec (rep h_tgt W1 b1) Wp bp))
    (pm (prec (rep h_ctx W1 b1) Wp bp))

end Cert.Tails

end
-- ==== Proof.Value.RefTails.lean ====
/-
  The reference program's tail is the shared head and divergence of its own two arrays of per-group means.

  Its target representation, target mixture weights, target scales and per-group divergence are, operation for
  operation, the functions of Value/Tails.lean applied to its context means and its target means: each statement below
  holds by unfolding the stage definitions on both sides, with the mean arrays left closed.
-/
import proofs.«430159_j88974542504689_1_alg».proof.Proof.RefRead
import proofs.«430159_j88974542504689_1_alg».proof.Proof.Value.Tails

noncomputable section

namespace Cert.RefTails
open Cert.ReferenceIdeal Cert.ReferenceIdeal.ReadP Idealize.ShloMosaic
variable {F : FTy → Type} [FloatOps F]

/-- The reference's target representation is the shared head's, of its own target means. -/
theorem ref_tRep (x3 : (⟨S262144, .i32⟩ : BufTy).Contents (Elt F)) (x4 : (⟨S262144x256, .f32⟩ : BufTy).Contents (Elt F))
    (x5 : (⟨S262144x1, .f32⟩ : BufTy).Contents (Elt F)) (x6 : (⟨S257x128, .f32⟩ : BufTy).Contents (Elt F)) (x7 : (⟨S128, .f32⟩ : BufTy).Contents (Elt F)) :
    val_main_v145 (F := F) x3 x4 x5 x6 x7 = Cert.Tails.tRep (F := F) (val_main_v140 (F := F) x3 x4 x5) x6 x7 := rfl

/-- The reference's target mixture weights are the shared head's. -/
theorem ref_tProb (x3 : (⟨S262144, .i32⟩ : BufTy).Contents (Elt F)) (x4 : (⟨S262144x256, .f32⟩ : BufTy).Contents (Elt F))
    (x5 : (⟨S262144x1, .f32⟩ : BufTy).Contents (Elt F)) (x6 : (⟨S257x128, .f32⟩ : BufTy).Contents (Elt F)) (x7 : (⟨S128, .f32⟩ : BufTy).Contents (Elt F))
    (x8 : (⟨S128x4, .f32⟩ : BufTy).Contents (Elt F)) (x9 : (⟨S4, .f32⟩ : BufTy).Contents (Elt F)) :
    val_main_v160 (F := F) x3 x4 x5 x6 x7 x8 x9
      = Cert.Tails.tProb (F := F) (val_main_v140 (F := F) x3 x4 x5) x6 x7 x8 x9 := rfl

/-- The reference's target scales are the shared head's. -/
theorem ref_tScale (x3 : (⟨S262144, .i32⟩ : BufTy).Contents (Elt F)) (x4 : (⟨S262144x256, .f32⟩ : BufTy).Contents (Elt F))
    (x5 : (⟨S262144x1, .f32⟩ : BufTy).Contents (Elt F)) (x6 : (⟨S257x128, .f32⟩ : BufTy).Contents (Elt F)) (x7 : (⟨S128, .f32⟩ : BufTy).Contents (Elt F))
    (x10 : (⟨S128x8, .f32⟩ : BufTy).Contents (Elt F)) (x11 : (⟨S8, .f32⟩ : BufTy).Contents (Elt F)) :
    val_main_v177 (F := F) x3 x4 x5 x6 x7 x10 x11
      = Cert.Tails.tScale (F := F) (val_main_v140 (F := F) x3 x4 x5) x6 x7 x10 x11 := rfl

/-- The reference's per-group divergence is the shared one, of its own context and target means. -/
theorem ref_distKl (x0 : (⟨S262144, .i32⟩ : BufTy).Contents (Elt F)) (x1 : (⟨S262144x256, .f32⟩ : BufTy).Contents (Elt F)) (x2 : (⟨S262144x1, .f32⟩ : BufTy).Contents (Elt F))
    (x3 : (⟨S262144, .i32⟩ : BufTy).Contents (Elt F)) (x4 : (⟨S262144x256, .f32⟩ : BufTy).Contents (Elt F)) (x5 : (⟨S262144x1, .f32⟩ : BufTy).Contents (Elt F))
    (x6 : (⟨S257x128, .f32⟩ : BufTy).Contents (Elt F)) (x7 : (⟨S128, .f32⟩ : BufTy).Contents (Elt F)) (x8 : (⟨S128x4, .f32⟩ : BufTy).Contents (Elt F)) (x9 : (⟨S4, .f32⟩ : BufTy).Contents (Elt F))
    (x10 : (⟨S128x8, .f32⟩ : BufTy).Contents (Elt F)) (x11 : (⟨S8, .f32⟩ : BufTy).Contents (Elt F)) :
    val_main_v257 (F := F) x0 x1 x2 x3 x4 x5 x6 x7 x8 x9 x10 x11
      = Cert.Tails.distKlOf (F := F) (val_main_v51 (F := F) x0 x1 x2) (val_main_v140 (F := F) x3 x4 x5) x6 x7 x8 x9 x10 x11 := rfl

end Cert.RefTails

end
-- ==== Proof.Value.RefMeans.lean ====
/-
  The reference's segment means and relative-feature means, in the shared closed form.

  On each side (context and target) the reference scatters the feature rows, the target rows and ones by the rows' group
  ids into zeros, and divides the sums by the larger of the count and one: the segment means of the features and of the
  target. It then gathers, for every row, the anchor row its id names (the id first moved up by the number of groups
  when it is negative, which leaves the word of a group as it is), subtracts it from the row, lays the 256 feature
  differences and the target difference side by side, and takes the segment mean of those 257 columns. Inside the sum
  over the rows of group g only rows whose id is the word of g count, and for those the gathered row is row g of the
  anchors, which is what the one-hot pick gives at that id; a segment sum of a column of the 257 is the segment sum of
  the feature column or of the target column it is made of.
-/
import proofs.«430159_j88974542504689_1_alg».proof.Proof.RefRead
import proofs.«430159_j88974542504689_1_alg».proof.Proof.Value.LibSeg
import proofs.«430159_j88974542504689_1_alg».proof.Proof.Value.Spec

noncomputable section

open scoped BigOperators

namespace Cert.Value.Ref

open Cert.ReferenceIdeal Cert.ReferenceIdeal.Gen Cert.ReferenceIdeal.ReadP Idealize.ShloMosaic Idealize.ShloMosaic.ValueIdx
open Cert.Value.Seg

/-- Row n's id. -/
abbrev idsOf (x : (⟨S262144, .i32⟩ : BufTy).Contents (Elt Ideal)) : Fin 262144 → BitVec 32 := fun n => x (ix1 n)

/-- Row n's 256 features. -/
abbrev rows256 (x : (⟨S262144x256, .f32⟩ : BufTy).Contents (Elt Ideal)) : Fin 262144 → Fin 256 → EReal :=
  fun n d => x (ix2 n d)

/-- Row n's target, as a one-column row. -/
abbrev rows1 (x : (⟨S262144x1, .f32⟩ : BufTy).Contents (Elt Ideal)) : Fin 262144 → Fin 1 → EReal :=
  fun n _ => x (ix2 n 0)

/-- The 257 columns of a row: its 256 features, then its target. -/
def xy (x1 : (⟨S262144x256, .f32⟩ : BufTy).Contents (Elt Ideal)) (x2 : (⟨S262144x1, .f32⟩ : BufTy).Contents (Elt Ideal)) :
    Fin 262144 → Fin 257 → EReal :=
  fun n d => if h : d.val < 256 then x1 (ix2 n ⟨d.val, h⟩) else x2 (ix2 n 0)

/-- A feature column of the 257 is the feature. -/
theorem xy_lt (x1 : (⟨S262144x256, .f32⟩ : BufTy).Contents (Elt Ideal)) (x2 : (⟨S262144x1, .f32⟩ : BufTy).Contents (Elt Ideal))
    (n : Fin 262144) (d : Fin 257) (h : d.val < 256) : xy x1 x2 n d = x1 (ix2 n ⟨d.val, h⟩) := dif_pos h

/-- The last column of the 257 is the target. -/
theorem xy_ge (x1 : (⟨S262144x256, .f32⟩ : BufTy).Contents (Elt Ideal)) (x2 : (⟨S262144x1, .f32⟩ : BufTy).Contents (Elt Ideal))
    (n : Fin 262144) (d : Fin 257) (h : ¬ d.val < 256) : xy x1 x2 n d = x2 (ix2 n 0) := dif_neg h

/-- On a feature column the segment mean of the 257 columns is the segment mean of the features. -/
theorem segMean_xy_lt (ids : Fin 262144 → BitVec 32) (x1 : (⟨S262144x256, .f32⟩ : BufTy).Contents (Elt Ideal))
    (x2 : (⟨S262144x1, .f32⟩ : BufTy).Contents (Elt Ideal)) (g : Fin 1024) (d : Fin 257) (h : d.val < 256) :
    Spec.segMean ids (xy x1 x2) g d = Spec.segMean ids (fun n d => x1 (ix2 n d)) g ⟨d.val, h⟩ := by
  unfold Spec.segMean
  rw [segSum_congr ids (xy x1 x2) (fun n d => x1 (ix2 n d)) g d ⟨d.val, h⟩ (fun n _ => xy_lt x1 x2 n d h)]

/-- On the last column the segment mean of the 257 columns is the segment mean of the targets. -/
theorem segMean_xy_ge (ids : Fin 262144 → BitVec 32) (x1 : (⟨S262144x256, .f32⟩ : BufTy).Contents (Elt Ideal))
    (x2 : (⟨S262144x1, .f32⟩ : BufTy).Contents (Elt Ideal)) (g : Fin 1024) (d : Fin 257) (h : ¬ d.val < 256) :
    Spec.segMean ids (xy x1 x2) g d = Spec.segMean ids (fun n (_ : Fin 1) => x2 (ix2 n 0)) g 0 := by
  unfold Spec.segMean
  rw [segSum_congr ids (xy x1 x2) (fun n (_ : Fin 1) => x2 (ix2 n 0)) g d 0 (fun n _ => xy_ge x1 x2 n d h)]

/-- The relative-feature mean, opened once: the segment sum of the relative features over the divisor. -/
theorem resMean_eq {D : ℕ} (ids : Fin 262144 → BitVec 32) (X : Fin 262144 → Fin D → EReal) (A : Fin 1024 → Fin D → EReal)
    (g : Fin 1024) (d : Fin D) :
    Spec.resMean ids X A g d = Ideal.div (Spec.segSum ids (Spec.resid ids X A) g d) (max (Spec.segCnt ids g) 1) := rfl

/-- A row's relative feature, opened once. -/
theorem resid_eq {D : ℕ} (ids : Fin 262144 → BitVec 32) (X : Fin 262144 → Fin D → EReal) (A : Fin 1024 → Fin D → EReal)
    (n : Fin 262144) (d : Fin D) : Spec.resid ids X A n d = X n d - Spec.pick A (ids n) d := rfl

/-- Equal dividends over one divisor give equal quotients. -/
theorem div_congr_left {a a' b : EReal} (h : a = a') : Ideal.div a b = Ideal.div a' b := by rw [h]

/-! ## The context side -/

/-- The zeros an accumulation starts from. -/
theorem z_v0 (i) : val_main_v0 (F := Ideal) i = (0 : EReal) := by
  rw [val_main_v0_apply, val_main_cst_apply]; exact Ideal.ofBits_zero_f32

/-- The id vector as a column holds row n's id at row n. -/
theorem id_v1 (x0 : (⟨S262144, .i32⟩ : BufTy).Contents (Elt Ideal)) (n : Fin 262144) : val_main_v1 (F := Ideal) x0 (ix2 n 0) = x0 (ix1 n) := by
  unfold val_main_v1; exact bcast_col _ x0 n

/-- The ones: the counted updates, or the floor of a divisor. -/
theorem o_v3 (i) : val_main_v3 (F := Ideal) i = (1 : EReal) := by
  rw [val_main_v3_apply, val_main_cst_0_apply]; exact ofBits_one_f32

/-- The zeros an accumulation starts from. -/
theorem z_v4 (i) : val_main_v4 (F := Ideal) i = (0 : EReal) := by
  rw [val_main_v4_apply, val_main_cst_1_apply]; exact Ideal.ofBits_zero_f32

/-- The id vector as a column holds row n's id at row n. -/
theorem id_v5 (x0 : (⟨S262144, .i32⟩ : BufTy).Contents (Elt Ideal)) (n : Fin 262144) : val_main_v5 (F := Ideal) x0 (ix2 n 0) = x0 (ix1 n) := by
  unfold val_main_v5; exact bcast_col _ x0 n

/-- The ones scattered by the ids count each group's rows. -/
theorem cnt_v6 (x0 : (⟨S262144, .i32⟩ : BufTy).Contents (Elt Ideal)) (g : Fin 1024) : val_main_v6 (F := Ideal) x0 (ix1 g) = Spec.segCnt (idsOf x0) g := by
  unfold val_main_v6
  exact segCnt_count (val_main_v4 (F := Ideal)) (val_main_v5 (F := Ideal) x0) (val_main_v3 (F := Ideal)) (idsOf x0) g z_v4 (id_v5 x0) o_v3

/-- The ones: the counted updates, or the floor of a divisor. -/
theorem o_v7 (i) : val_main_v7 (F := Ideal) i = (1 : EReal) := by
  rw [val_main_v7_apply, val_main_cst_2_apply]; exact ofBits_one_f32

/-- The zeros an accumulation starts from. -/
theorem z_v12 (i) : val_main_v12 (F := Ideal) i = (0 : EReal) := by
  rw [val_main_v12_apply, val_main_cst_3_apply]; exact Ideal.ofBits_zero_f32

/-- The id vector as a column holds row n's id at row n. -/
theorem id_v13 (x0 : (⟨S262144, .i32⟩ : BufTy).Contents (Elt Ideal)) (n : Fin 262144) : val_main_v13 (F := Ideal) x0 (ix2 n 0) = x0 (ix1 n) := by
  unfold val_main_v13; exact bcast_col _ x0 n

/-- The ones: the counted updates, or the floor of a divisor. -/
theorem o_v15 (i) : val_main_v15 (F := Ideal) i = (1 : EReal) := by
  rw [val_main_v15_apply, val_main_cst_4_apply]; exact ofBits_one_f32

/-- The zeros an accumulation starts from. -/
theorem z_v16 (i) : val_main_v16 (F := Ideal) i = (0 : EReal) := by
  rw [val_main_v16_apply, val_main_cst_5_apply]; exact Ideal.ofBits_zero_f32

/-- The id vector as a column holds row n's id at row n. -/
theorem id_v17 (x0 : (⟨S262144, .i32⟩ : BufTy).Contents (Elt Ideal)) (n : Fin 262144) : val_main_v17 (F := Ideal) x0 (ix2 n 0) = x0 (ix1 n) := by
  unfold val_main_v17; exact bcast_col _ x0 n

/-- The ones scattered by the ids count each group's rows. -/
theorem cnt_v18 (x0 : (⟨S262144, .i32⟩ : BufTy).Contents (Elt Ideal)) (g : Fin 1024) : val_main_v18 (F := Ideal) x0 (ix1 g) = Spec.segCnt (idsOf x0) g := by
  unfold val_main_v18
  exact segCnt_count (val_main_v16 (F := Ideal)) (val_main_v17 (F := Ideal) x0) (val_main_v15 (F := Ideal)) (idsOf x0) g z_v16 (id_v17 x0) o_v15

/-- The ones: the counted updates, or the floor of a divisor. -/
theorem o_v19 (i) : val_main_v19 (F := Ideal) i = (1 : EReal) := by
  rw [val_main_v19_apply, val_main_cst_6_apply]; exact ofBits_one_f32

/-- The zeros an accumulation starts from. -/
theorem z_v40 (i) : val_main_v40 (F := Ideal) i = (0 : EReal) := by
  rw [val_main_v40_apply, val_main_cst_10_apply]; exact Ideal.ofBits_zero_f32

/-- The id vector as a column holds row n's id at row n. -/
theorem id_v41 (x0 : (⟨S262144, .i32⟩ : BufTy).Contents (Elt Ideal)) (n : Fin 262144) : val_main_v41 (F := Ideal) x0 (ix2 n 0) = x0 (ix1 n) := by
  unfold val_main_v41; exact bcast_col _ x0 n

/-- The ones: the counted updates, or the floor of a divisor. -/
theorem o_v43 (i) : val_main_v43 (F := Ideal) i = (1 : EReal) := by
  rw [val_main_v43_apply, val_main_cst_11_apply]; exact ofBits_one_f32

/-- The zeros an accumulation starts from. -/
theorem z_v44 (i) : val_main_v44 (F := Ideal) i = (0 : EReal) := by
  rw [val_main_v44_apply, val_main_cst_12_apply]; exact Ideal.ofBits_zero_f32

/-- The id vector as a column holds row n's id at row n. -/
theorem id_v45 (x0 : (⟨S262144, .i32⟩ : BufTy).Contents (Elt Ideal)) (n : Fin 262144) : val_main_v45 (F := Ideal) x0 (ix2 n 0) = x0 (ix1 n) := by
  unfold val_main_v45; exact bcast_col _ x0 n

/-- The ones scattered by the ids count each group's rows. -/
theorem cnt_v46 (x0 : (⟨S262144, .i32⟩ : BufTy).Contents (Elt Ideal)) (g : Fin 1024) : val_main_v46 (F := Ideal) x0 (ix1 g) = Spec.segCnt (idsOf x0) g := by
  unfold val_main_v46
  exact segCnt_count (val_main_v44 (F := Ideal)) (val_main_v45 (F := Ideal) x0) (val_main_v43 (F := Ideal)) (idsOf x0) g z_v44 (id_v45 x0) o_v43

/-- The ones: the counted updates, or the floor of a divisor. -/
theorem o_v47 (i) : val_main_v47 (F := Ideal) i = (1 : EReal) := by
  rw [val_main_v47_apply, val_main_cst_13_apply]; exact ofBits_one_f32

/-- The divisor of the context feature means: the larger of the group's row count and one. -/
theorem den_v10 (x0 : (⟨S262144, .i32⟩ : BufTy).Contents (Elt Ideal)) (g : Fin 1024) (d : Fin 256) :
    val_main_v10 (F := Ideal) x0 (ix2 g d) = max (Spec.segCnt (idsOf x0) g) 1 := by
  rw [val_main_v10_apply, val_main_v9_apply, val_main_v8_apply]
  have hi : idx_main_v9 (idx_main_v10 (ix2 g d)) = ix1 g := by
    funext a; match a with | ⟨0, _⟩ => rfl
  rw [hi, Ideal.maximumf_def, cnt_v6, o_v7] <;> rfl

/-- The divisor of the context target mean. -/
theorem den_v21 (x0 : (⟨S262144, .i32⟩ : BufTy).Contents (Elt Ideal)) (g : Fin 1024) :
    val_main_v21 (F := Ideal) x0 (ix2 g 0) = max (Spec.segCnt (idsOf x0) g) 1 := by
  rw [val_main_v21_apply, val_main_v20_apply]
  have hi : idx_main_v21 (ix2 g (0 : Fin 1)) = ix1 g := by
    funext a; match a with | ⟨0, _⟩ => rfl
  rw [hi, Ideal.maximumf_def, cnt_v18, o_v19] <;> rfl

/-- The divisor of the context relative-feature means. -/
theorem den_v50 (x0 : (⟨S262144, .i32⟩ : BufTy).Contents (Elt Ideal)) (g : Fin 1024) (d : Fin 257) :
    val_main_v50 (F := Ideal) x0 (ix2 g d) = max (Spec.segCnt (idsOf x0) g) 1 := by
  rw [val_main_v50_apply, val_main_v49_apply, val_main_v48_apply]
  have hi : idx_main_v49 (idx_main_v50 (ix2 g d)) = ix1 g := by
    funext a; match a with | ⟨0, _⟩ => rfl
  rw [hi, Ideal.maximumf_def, cnt_v46, o_v47] <;> rfl

/-- The context feature anchors are the segment means of the features. -/
theorem ref_cxa (x0 : (⟨S262144, .i32⟩ : BufTy).Contents (Elt Ideal)) (x1 : (⟨S262144x256, .f32⟩ : BufTy).Contents (Elt Ideal)) (g : Fin 1024) (d : Fin 256) :
    val_main_v11 (F := Ideal) x0 x1 (ix2 g d) =
      Spec.segMean (fun n => x0 (ix1 n)) (fun n d => x1 (ix2 n d)) g d := by
  rw [val_main_v11_apply, Ideal.hostDivf_def, den_v10]
  unfold val_main_v2
  rw [segSum_rows256 (val_main_v0 (F := Ideal)) (val_main_v1 (F := Ideal) x0) x1 (idsOf x0) g d z_v0 (id_v1 x0)]
  rfl

/-- The context target anchor is the segment mean of the targets. -/
theorem ref_cya (x0 : (⟨S262144, .i32⟩ : BufTy).Contents (Elt Ideal)) (x2 : (⟨S262144x1, .f32⟩ : BufTy).Contents (Elt Ideal)) (g : Fin 1024) :
    val_main_v22 (F := Ideal) x0 x2 (ix2 g 0) =
      Spec.segMean (fun n => x0 (ix1 n)) (fun n (_ : Fin 1) => x2 (ix2 n 0)) g 0 := by
  rw [val_main_v22_apply, Ideal.hostDivf_def, den_v21]
  unfold val_main_v14
  rw [segSum_rows1 (val_main_v12 (F := Ideal)) (val_main_v13 (F := Ideal) x0) x2 (idsOf x0) g z_v12 (id_v13 x0)]
  rfl

/-- At a row of group g the first normalised id column of the context side holds the word of g. -/
theorem nid_v28 (x0 : (⟨S262144, .i32⟩ : BufTy).Contents (Elt Ideal)) (n : Fin 262144) (g : Fin 1024) (h : x0 (ix1 n) = Spec.gw g) :
    val_main_v28 (F := Ideal) x0 (ix2 n 0) = Spec.gw g := by
  unfold val_main_v28 val_main_v27 val_main_v24 val_main_v26
  refine normId_col _ x0 _ _ n g ?_ h
  rw [val_main_v23_apply, val_main_c_apply] <;> rfl

/-- At a row of group g the second normalised id column of the context side holds the word of g. -/
theorem nid_v36 (x0 : (⟨S262144, .i32⟩ : BufTy).Contents (Elt Ideal)) (n : Fin 262144) (g : Fin 1024) (h : x0 (ix1 n) = Spec.gw g) :
    val_main_v36 (F := Ideal) x0 (ix2 n 0) = Spec.gw g := by
  unfold val_main_v36 val_main_v35 val_main_v32 val_main_v34
  refine normId_col _ x0 _ _ n g ?_ h
  rw [val_main_v31_apply, val_main_c_8_apply] <;> rfl

/-- A context row's relative features, for a row of group g: the row less the group's anchor. -/
theorem feats_v39 (x0 : (⟨S262144, .i32⟩ : BufTy).Contents (Elt Ideal)) (x1 : (⟨S262144x256, .f32⟩ : BufTy).Contents (Elt Ideal)) (x2 : (⟨S262144x1, .f32⟩ : BufTy).Contents (Elt Ideal)) (n : Fin 262144) (g : Fin 1024) (d : Fin 257)
    (h : x0 (ix1 n) = Spec.gw g) :
    val_main_v39 (F := Ideal) x0 x1 x2 (ix2 n d) =
      xy x1 x2 n d - Spec.segMean (idsOf x0) (xy x1 x2) g d := by
  unfold val_main_v39
  by_cases hd : d.val < 256
  · rw [concatenate_pair_apply_left (t := S262144x257) (s₁ := S262144x256) (s₂ := S262144x1) 1 (val_main_v30 (F := Ideal) x0 x1)
      (val_main_v38 (F := Ideal) x0 x2) concatenates_S262144x256_S262144x1_S262144x257_d1 (ix2 n d) rfl (ix2 n (⟨d.val, hd⟩ : Fin 256))
      (fun b => match b with | ⟨0, _⟩ => rfl | ⟨1, _⟩ => rfl)]
    rw [val_main_v30_apply, Ideal.subf_def]
    unfold val_main_v29
    rw [gather_rows256 (val_main_v11 (F := Ideal) x0 x1) (val_main_v28 (F := Ideal) x0) n ⟨d.val, hd⟩ g (nid_v28 x0 n g h), ref_cxa,
      xy_lt x1 x2 n d hd, segMean_xy_lt (idsOf x0) x1 x2 g d hd] <;> rfl
  · have hd' : d.val = 256 := by have := d.isLt; omega
    rw [concatenate_pair_apply_right (t := S262144x257) (s₁ := S262144x256) (s₂ := S262144x1) 1 (val_main_v30 (F := Ideal) x0 x1)
      (val_main_v38 (F := Ideal) x0 x2) concatenates_S262144x256_S262144x1_S262144x257_d1 (ix2 n d) rfl rfl (ix2 n (0 : Fin 1))
      (fun b hb => match b, hb with | ⟨0, _⟩, _ => rfl | ⟨1, _⟩, hb => (hb rfl).elim)
      (by show (0 : ℕ) + 256 = d.val; omega)]
    rw [val_main_v38_apply, Ideal.subf_def]
    unfold val_main_v37
    rw [gather_rows1 (val_main_v22 (F := Ideal) x0 x2) (val_main_v36 (F := Ideal) x0) n 0 g (nid_v36 x0 n g h), ref_cya,
      xy_ge x1 x2 n d hd, segMean_xy_ge (idsOf x0) x1 x2 g d hd] <;> rfl

/-- The context relative-feature means in the shared closed form. -/
theorem ref_hctx (x0 : (⟨S262144, .i32⟩ : BufTy).Contents (Elt Ideal)) (x1 : (⟨S262144x256, .f32⟩ : BufTy).Contents (Elt Ideal)) (x2 : (⟨S262144x1, .f32⟩ : BufTy).Contents (Elt Ideal)) (g : Fin 1024) (d : Fin 257) :
    val_main_v51 (F := Ideal) x0 x1 x2 (ix2 g d) =
      Spec.resMean (fun n => x0 (ix1 n)) (xy x1 x2)
        (fun g d => Spec.segMean (fun n => x0 (ix1 n)) (xy x1 x2) g d) g d := by
  rw [val_main_v51_apply, Ideal.hostDivf_def, den_v50]
  unfold val_main_v42
  rw [segSum_rows257 (val_main_v40 (F := Ideal)) (val_main_v41 (F := Ideal) x0) (val_main_v39 (F := Ideal) x0 x1 x2) (idsOf x0) g d z_v40 (id_v41 x0)]
  rw [resMean_eq]
  refine div_congr_left ?_
  refine segSum_congr _ _ _ g d d fun n hn => ?_
  have hn' : x0 (ix1 n) = Spec.gw g := hn
  rw [resid_eq, feats_v39 x0 x1 x2 n g d hn', hn', pick_gw] <;> rfl

/-! ## The target side -/

/-- The zeros an accumulation starts from. -/
theorem z_v89 (i) : val_main_v89 (F := Ideal) i = (0 : EReal) := by
  rw [val_main_v89_apply, val_main_cst_21_apply]; exact Ideal.ofBits_zero_f32

/-- The id vector as a column holds row n's id at row n. -/
theorem id_v90 (x3 : (⟨S262144, .i32⟩ : BufTy).Contents (Elt Ideal)) (n : Fin 262144) : val_main_v90 (F := Ideal) x3 (ix2 n 0) = x3 (ix1 n) := by
  unfold val_main_v90; exact bcast_col _ x3 n

/-- The ones: the counted updates, or the floor of a divisor. -/
theorem o_v92 (i) : val_main_v92 (F := Ideal) i = (1 : EReal) := by
  rw [val_main_v92_apply, val_main_cst_22_apply]; exact ofBits_one_f32

/-- The zeros an accumulation starts from. -/
theorem z_v93 (i) : val_main_v93 (F := Ideal) i = (0 : EReal) := by
  rw [val_main_v93_apply, val_main_cst_23_apply]; exact Ideal.ofBits_zero_f32

/-- The id vector as a column holds row n's id at row n. -/
theorem id_v94 (x3 : (⟨S262144, .i32⟩ : BufTy).Contents (Elt Ideal)) (n : Fin 262144) : val_main_v94 (F := Ideal) x3 (ix2 n 0) = x3 (ix1 n) := by
  unfold val_main_v94; exact bcast_col _ x3 n

/-- The ones scattered by the ids count each group's rows. -/
theorem cnt_v95 (x3 : (⟨S262144, .i32⟩ : BufTy).Contents (Elt Ideal)) (g : Fin 1024) : val_main_v95 (F := Ideal) x3 (ix1 g) = Spec.segCnt (idsOf x3) g := by
  unfold val_main_v95
  exact segCnt_count (val_main_v93 (F := Ideal)) (val_main_v94 (F := Ideal) x3) (val_main_v92 (F := Ideal)) (idsOf x3) g z_v93 (id_v94 x3) o_v92

/-- The ones: the counted updates, or the floor of a divisor. -/
theorem o_v96 (i) : val_main_v96 (F := Ideal) i = (1 : EReal) := by
  rw [val_main_v96_apply, val_main_cst_24_apply]; exact ofBits_one_f32

/-- The zeros an accumulation starts from. -/
theorem z_v101 (i) : val_main_v101 (F := Ideal) i = (0 : EReal) := by
  rw [val_main_v101_apply, val_main_cst_25_apply]; exact Ideal.ofBits_zero_f32

/-- The id vector as a column holds row n's id at row n. -/
theorem id_v102 (x3 : (⟨S262144, .i32⟩ : BufTy).Contents (Elt Ideal)) (n : Fin 262144) : val_main_v102 (F := Ideal) x3 (ix2 n 0) = x3 (ix1 n) := by
  unfold val_main_v102; exact bcast_col _ x3 n

/-- The ones: the counted updates, or the floor of a divisor. -/
theorem o_v104 (i) : val_main_v104 (F := Ideal) i = (1 : EReal) := by
  rw [val_main_v104_apply, val_main_cst_26_apply]; exact ofBits_one_f32

/-- The zeros an accumulation starts from. -/
theorem z_v105 (i) : val_main_v105 (F := Ideal) i = (0 : EReal) := by
  rw [val_main_v105_apply, val_main_cst_27_apply]; exact Ideal.ofBits_zero_f32

/-- The id vector as a column holds row n's id at row n. -/
theorem id_v106 (x3 : (⟨S262144, .i32⟩ : BufTy).Contents (Elt Ideal)) (n : Fin 262144) : val_main_v106 (F := Ideal) x3 (ix2 n 0) = x3 (ix1 n) := by
  unfold val_main_v106; exact bcast_col _ x3 n

/-- The ones scattered by the ids count each group's rows. -/
theorem cnt_v107 (x3 : (⟨S262144, .i32⟩ : BufTy).Contents (Elt Ideal)) (g : Fin 1024) : val_main_v107 (F := Ideal) x3 (ix1 g) = Spec.segCnt (idsOf x3) g := by
  unfold val_main_v107
  exact segCnt_count (val_main_v105 (F := Ideal)) (val_main_v106 (F := Ideal) x3) (val_main_v104 (F := Ideal)) (idsOf x3) g z_v105 (id_v106 x3) o_v104

/-- The ones: the counted updates, or the floor of a divisor. -/
theorem o_v108 (i) : val_main_v108 (F := Ideal) i = (1 : EReal) := by
  rw [val_main_v108_apply, val_main_cst_28_apply]; exact ofBits_one_f32

/-- The zeros an accumulation starts from. -/
theorem z_v129 (i) : val_main_v129 (F := Ideal) i = (0 : EReal) := by
  rw [val_main_v129_apply, val_main_cst_33_apply]; exact Ideal.ofBits_zero_f32

/-- The id vector as a column holds row n's id at row n. -/
theorem id_v130 (x3 : (⟨S262144, .i32⟩ : BufTy).Contents (Elt Ideal)) (n : Fin 262144) : val_main_v130 (F := Ideal) x3 (ix2 n 0) = x3 (ix1 n) := by
  unfold val_main_v130; exact bcast_col _ x3 n

/-- The ones: the counted updates, or the floor of a divisor. -/
theorem o_v132 (i) : val_main_v132 (F := Ideal) i = (1 : EReal) := by
  rw [val_main_v132_apply, val_main_cst_34_apply]; exact ofBits_one_f32

/-- The zeros an accumulation starts from. -/
theorem z_v133 (i) : val_main_v133 (F := Ideal) i = (0 : EReal) := by
  rw [val_main_v133_apply, val_main_cst_35_apply]; exact Ideal.ofBits_zero_f32

/-- The id vector as a column holds row n's id at row n. -/
theorem id_v134 (x3 : (⟨S262144, .i32⟩ : BufTy).Contents (Elt Ideal)) (n : Fin 262144) : val_main_v134 (F := Ideal) x3 (ix2 n 0) = x3 (ix1 n) := by
  unfold val_main_v134; exact bcast_col _ x3 n

/-- The ones scattered by the ids count each group's rows. -/
theorem cnt_v135 (x3 : (⟨S262144, .i32⟩ : BufTy).Contents (Elt Ideal)) (g : Fin 1024) : val_main_v135 (F := Ideal) x3 (ix1 g) = Spec.segCnt (idsOf x3) g := by
  unfold val_main_v135
  exact segCnt_count (val_main_v133 (F := Ideal)) (val_main_v134 (F := Ideal) x3) (val_main_v132 (F := Ideal)) (idsOf x3) g z_v133 (id_v134 x3) o_v132

/-- The ones: the counted updates, or the floor of a divisor. -/
theorem o_v136 (i) : val_main_v136 (F := Ideal) i = (1 : EReal) := by
  rw [val_main_v136_apply, val_main_cst_36_apply]; exact ofBits_one_f32

/-- The divisor of the target feature means: the larger of the group's row count and one. -/
theorem den_v99 (x3 : (⟨S262144, .i32⟩ : BufTy).Contents (Elt Ideal)) (g : Fin 1024) (d : Fin 256) :
    val_main_v99 (F := Ideal) x3 (ix2 g d) = max (Spec.segCnt (idsOf x3) g) 1 := by
  rw [val_main_v99_apply, val_main_v98_apply, val_main_v97_apply]
  have hi : idx_main_v98 (idx_main_v99 (ix2 g d)) = ix1 g := by
    funext a; match a with | ⟨0, _⟩ => rfl
  rw [hi, Ideal.maximumf_def, cnt_v95, o_v96] <;> rfl

/-- The divisor of the target target mean. -/
theorem den_v110 (x3 : (⟨S262144, .i32⟩ : BufTy).Contents (Elt Ideal)) (g : Fin 1024) :
    val_main_v110 (F := Ideal) x3 (ix2 g 0) = max (Spec.segCnt (idsOf x3) g) 1 := by
  rw [val_main_v110_apply, val_main_v109_apply]
  have hi : idx_main_v110 (ix2 g (0 : Fin 1)) = ix1 g := by
    funext a; match a with | ⟨0, _⟩ => rfl
  rw [hi, Ideal.maximumf_def, cnt_v107, o_v108] <;> rfl

/-- The divisor of the target relative-feature means. -/
theorem den_v139 (x3 : (⟨S262144, .i32⟩ : BufTy).Contents (Elt Ideal)) (g : Fin 1024) (d : Fin 257) :
    val_main_v139 (F := Ideal) x3 (ix2 g d) = max (Spec.segCnt (idsOf x3) g) 1 := by
  rw [val_main_v139_apply, val_main_v138_apply, val_main_v137_apply]
  have hi : idx_main_v138 (idx_main_v139 (ix2 g d)) = ix1 g := by
    funext a; match a with | ⟨0, _⟩ => rfl
  rw [hi, Ideal.maximumf_def, cnt_v135, o_v136] <;> rfl

/-- The target feature anchors are the segment means of the features. -/
theorem ref_txa (x3 : (⟨S262144, .i32⟩ : BufTy).Contents (Elt Ideal)) (x4 : (⟨S262144x256, .f32⟩ : BufTy).Contents (Elt Ideal)) (g : Fin 1024) (d : Fin 256) :
    val_main_v100 (F := Ideal) x3 x4 (ix2 g d) =
      Spec.segMean (fun n => x3 (ix1 n)) (fun n d => x4 (ix2 n d)) g d := by
  rw [val_main_v100_apply, Ideal.hostDivf_def, den_v99]
  unfold val_main_v91
  rw [segSum_rows256 (val_main_v89 (F := Ideal)) (val_main_v90 (F := Ideal) x3) x4 (idsOf x3) g d z_v89 (id_v90 x3)]
  rfl

/-- The target target anchor is the segment mean of the targets. -/
theorem ref_tya (x3 : (⟨S262144, .i32⟩ : BufTy).Contents (Elt Ideal)) (x5 : (⟨S262144x1, .f32⟩ : BufTy).Contents (Elt Ideal)) (g : Fin 1024) :
    val_main_v111 (F := Ideal) x3 x5 (ix2 g 0) =
      Spec.segMean (fun n => x3 (ix1 n)) (fun n (_ : Fin 1) => x5 (ix2 n 0)) g 0 := by
  rw [val_main_v111_apply, Ideal.hostDivf_def, den_v110]
  unfold val_main_v103
  rw [segSum_rows1 (val_main_v101 (F := Ideal)) (val_main_v102 (F := Ideal) x3) x5 (idsOf x3) g z_v101 (id_v102 x3)]
  rfl

/-- At a row of group g the first normalised id column of the target side holds the word of g. -/
theorem nid_v117 (x3 : (⟨S262144, .i32⟩ : BufTy).Contents (Elt Ideal)) (n : Fin 262144) (g : Fin 1024) (h : x3 (ix1 n) = Spec.gw g) :
    val_main_v117 (F := Ideal) x3 (ix2 n 0) = Spec.gw g := by
  unfold val_main_v117 val_main_v116 val_main_v113 val_main_v115
  refine normId_col _ x3 _ _ n g ?_ h
  rw [val_main_v112_apply, val_main_c_29_apply] <;> rfl

/-- At a row of group g the second normalised id column of the target side holds the word of g. -/
theorem nid_v125 (x3 : (⟨S262144, .i32⟩ : BufTy).Contents (Elt Ideal)) (n : Fin 262144) (g : Fin 1024) (h : x3 (ix1 n) = Spec.gw g) :
    val_main_v125 (F := Ideal) x3 (ix2 n 0) = Spec.gw g := by
  unfold val_main_v125 val_main_v124 val_main_v121 val_main_v123
  refine normId_col _ x3 _ _ n g ?_ h
  rw [val_main_v120_apply, val_main_c_31_apply] <;> rfl

/-- A target row's relative features, for a row of group g: the row less the group's anchor. -/
theorem feats_v128 (x3 : (⟨S262144, .i32⟩ : BufTy).Contents (Elt Ideal)) (x4 : (⟨S262144x256, .f32⟩ : BufTy).Contents (Elt Ideal)) (x5 : (⟨S262144x1, .f32⟩ : BufTy).Contents (Elt Ideal)) (n : Fin 262144) (g : Fin 1024) (d : Fin 257)
    (h : x3 (ix1 n) = Spec.gw g) :
    val_main_v128 (F := Ideal) x3 x4 x5 (ix2 n d) =
      xy x4 x5 n d - Spec.segMean (idsOf x3) (xy x4 x5) g d := by
  unfold val_main_v128
  by_cases hd : d.val < 256
  · rw [concatenate_pair_apply_left (t := S262144x257) (s₁ := S262144x256) (s₂ := S262144x1) 1 (val_main_v119 (F := Ideal) x3 x4)
      (val_main_v127 (F := Ideal) x3 x5) concatenates_S262144x256_S262144x1_S262144x257_d1 (ix2 n d) rfl (ix2 n (⟨d.val, hd⟩ : Fin 256))
      (fun b => match b with | ⟨0, _⟩ => rfl | ⟨1, _⟩ => rfl)]
    rw [val_main_v119_apply, Ideal.subf_def]
    unfold val_main_v118
    rw [gather_rows256 (val_main_v100 (F := Ideal) x3 x4) (val_main_v117 (F := Ideal) x3) n ⟨d.val, hd⟩ g (nid_v117 x3 n g h), ref_txa,
      xy_lt x4 x5 n d hd, segMean_xy_lt (idsOf x3) x4 x5 g d hd] <;> rfl
  · have hd' : d.val = 256 := by have := d.isLt; omega
    rw [concatenate_pair_apply_right (t := S262144x257) (s₁ := S262144x256) (s₂ := S262144x1) 1 (val_main_v119 (F := Ideal) x3 x4)
      (val_main_v127 (F := Ideal) x3 x5) concatenates_S262144x256_S262144x1_S262144x257_d1 (ix2 n d) rfl rfl (ix2 n (0 : Fin 1))
      (fun b hb => match b, hb with | ⟨0, _⟩, _ => rfl | ⟨1, _⟩, hb => (hb rfl).elim)
      (by show (0 : ℕ) + 256 = d.val; omega)]
    rw [val_main_v127_apply, Ideal.subf_def]
    unfold val_main_v126
    rw [gather_rows1 (val_main_v111 (F := Ideal) x3 x5) (val_main_v125 (F := Ideal) x3) n 0 g (nid_v125 x3 n g h), ref_tya,
      xy_ge x4 x5 n d hd, segMean_xy_ge (idsOf x3) x4 x5 g d hd] <;> rfl

/-- The target relative-feature means in the shared closed form. -/
theorem ref_htgt (x3 : (⟨S262144, .i32⟩ : BufTy).Contents (Elt Ideal)) (x4 : (⟨S262144x256, .f32⟩ : BufTy).Contents (Elt Ideal)) (x5 : (⟨S262144x1, .f32⟩ : BufTy).Contents (Elt Ideal)) (g : Fin 1024) (d : Fin 257) :
    val_main_v140 (F := Ideal) x3 x4 x5 (ix2 g d) =
      Spec.resMean (fun n => x3 (ix1 n)) (xy x4 x5)
        (fun g d => Spec.segMean (fun n => x3 (ix1 n)) (xy x4 x5) g d) g d := by
  rw [val_main_v140_apply, Ideal.hostDivf_def, den_v139]
  unfold val_main_v131
  rw [segSum_rows257 (val_main_v129 (F := Ideal)) (val_main_v130 (F := Ideal) x3) (val_main_v128 (F := Ideal) x3 x4 x5) (idsOf x3) g d z_v129 (id_v130 x3)]
  rw [resMean_eq]
  refine div_congr_left ?_
  refine segSum_congr _ _ _ g d d fun n hn => ?_
  have hn' : x3 (ix1 n) = Spec.gw g := hn
  rw [resid_eq, feats_v128 x3 x4 x5 n g d hn', hn', pick_gw] <;> rfl

end Cert.Value.Ref

end
-- ==== Proof.Value.RefGather.lean ====
/-
  The row gather read at an element, and the id normalisation on a group's word.

  A table [G × W] gathered by a column [n × 1] of row numbers (one collapsed, start-indexed row axis, the column axis
  carried whole as the offset axis) reads, at (p, q), the table at the row the p-th number names, read signed and
  clamped into [0, G − 1], and at column q. A group's word g < 1024 is non-negative, so the "add the table height to a
  negative id" step leaves it unchanged, and signed and clamped it is g.
-/
import Idealize.ShloMosaic.Lib.ValueIdx
import Idealize.ShloMosaic.Lib.StableHlo.Predicate

noncomputable section

namespace Cert.Value.RefGather

open Idealize.ShloMosaic Idealize.ShloMosaic.ValueIdx

/-- A one-element list's entries. -/
private theorem getElem_of_eq_singleton {β : Type} {l : List β} {b : β} (h : l = [b]) (k : Nat) (hk : k < l.length) :
    l[k] = b := by
  subst h
  have : k = 0 := by simpa using hk
  subst this; rfl

/-- THE ROW GATHER AT (p, q): the table at the row number idx[p, 0], read signed and clamped into [0, G − 1], column q. -/
theorem gather_row_apply {α : Type} {G W n w : Nat}
    (d : GatherDims ⟨2, ![G, W]⟩ ⟨2, ![n, 1]⟩ ⟨2, ![n, W]⟩)
    (hoff : d.offsetDims = [1]) (hcoll : d.collapsedSliceDims = [0]) (hob : d.operandBatchingDims = [])
    (hsim : d.startIndexMap = [0]) (hivd : d.indexVectorDim = 1)
    (x : (⟨2, ![G, W]⟩ : Shape).Idx → α) (idx : IVec ⟨2, ![n, 1]⟩ w) (p : Fin n) (q : Fin W) (hG : 0 < G) :
    Host.gather d x idx (ix2 p q)
      = x (ix2 (⟨min (idx (ix2 p (0 : Fin 1))).toInt.toNat (G - 1), by omega⟩ : Fin G) q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero, GatherDims.start, dif_pos hm]
    show min (idx _).toInt.toNat (G - d.sliceSizes 0) = min (idx (ix2 p (0 : Fin 1))).toInt.toNat (G - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      -- the result's batch axis is axis 0
      have hbd : d.batchDims = [0] := by
        show (⟨2, ![n, W]⟩ : Shape).kept d.offsetDims = [0]
        rw [hoff]; rfl
      have e : ∀ (k : Nat) (hk : k < d.batchDims.length), ((ix2 p q : (⟨2, ![n, W]⟩ : Shape).Idx) (d.batchDims[k])).val = p.val :=
        fun k hk => by rw [getElem_of_eq_singleton hbd k hk]; rfl
      exact e _ _
    | ⟨1, _⟩ =>
      unfold GatherDims.siIdx
      rw [dif_pos (by rw [hivd])]
      apply Fin.ext
      show List.idxOf (0 : Fin 2) d.startIndexMap = 0
      rw [hsim]; simp
  | ⟨1, _⟩ =>
    have h10 : (1 : Fin 2) ∉ [(0 : Fin 2)] := fun h =>
      absurd (congrArg Fin.val (List.mem_singleton.mp h)) Nat.one_ne_zero
    have hk : (1 : Fin 2) ∈ d.sKept := by rw [GatherDims.mem_sKept, hcoll]; exact ⟨h10, hb 1⟩
    have hm : (1 : Fin 2) ∉ d.startIndexMap := by rw [hsim]; exact h10
    show d.start (ix2 p q) idx 1 + d.batchCoord (ix2 p q) 1 + d.offCoord (ix2 p q) 1 = q.val
    rw [GatherDims.batchCoord_eq_zero _ _ _ (hb 1)]
    simp only [GatherDims.start, dif_neg hm, GatherDims.offCoord, dif_pos hk, Nat.add_zero, Nat.zero_add]
    have e : ∀ (k : Nat) (hk : k < d.offsetDims.length), ((ix2 p q : (⟨2, ![n, W]⟩ : Shape).Idx) (d.offsetDims[k])).val = q.val :=
      fun k hk => by rw [getElem_of_eq_singleton hoff k hk]; rfl
    exact e _ _

/-! ## The id normalisation on a group's word -/

/-- The word of a group number is below 2³¹. -/
theorem toNat_ofNat_group (g : Fin 1024) : (BitVec.ofNat 32 g.val).toNat = g.val := by
  rw [BitVec.toNat_ofNat]; exact Nat.mod_eq_of_lt (by have := g.isLt; omega)

/-- A group's word is not negative: "id < 0 ? id + 1024 : id" is the id. -/
theorem normalise_group (g : Fin 1024) :
    Scalar.select (IntOp.cmpi .slt (BitVec.ofNat 32 g.val) 0#32) (IntOp.addi (BitVec.ofNat 32 g.val) 1024#32)
      (BitVec.ofNat 32 g.val) = BitVec.ofNat 32 g.val := by
  have h : IntOp.cmpi .slt (BitVec.ofNat 32 g.val) 0#32 ≠ 1#1 := by
    rw [Ne, StableHlo.Predicate.slt_iff_toNat (by rw [toNat_ofNat_group]; have := g.isLt; omega) (by decide)]
    simp
  unfold Scalar.select
  exact if_neg h

/-- A group's word read signed and clamped into [0, 1023] is the group number. -/
theorem clamp_group (g : Fin 1024) : min (BitVec.ofNat 32 g.val).toInt.toNat (1024 - 1) = g.val := by
  rw [StableHlo.Predicate.toInt_ofNat_small g.val (by have := g.isLt; omega)]
  have := g.isLt
  simp only [Int.toNat_natCast]; omega

/-- THE ROW GATHER BY A GROUP'S WORD: when the p-th row number is the word of group g, element (p, q) is the table's (g, q). -/
theorem gather_row_group {α : Type} {W n : Nat}
    (d : GatherDims ⟨2, ![1024, W]⟩ ⟨2, ![n, 1]⟩ ⟨2, ![n, W]⟩)
    (hoff : d.offsetDims = [1]) (hcoll : d.collapsedSliceDims = [0]) (hob : d.operandBatchingDims = [])
    (hsim : d.startIndexMap = [0]) (hivd : d.indexVectorDim = 1)
    (x : (⟨2, ![1024, W]⟩ : Shape).Idx → α) (idx : IVec ⟨2, ![n, 1]⟩ 32) (p : Fin n) (q : Fin W) (g : Fin 1024)
    (hid : idx (ix2 p (0 : Fin 1)) = BitVec.ofNat 32 g.val) :
    Host.gather d x idx (ix2 p q) = x (ix2 g q) := by
  rw [gather_row_apply d hoff hcoll hob hsim hivd x idx p q (by decide)]
  have e : ∀ (m : Nat) (hm : m < 1024), m = g.val → x (ix2 (⟨m, hm⟩ : Fin 1024) q) = x (ix2 g q) := by
    intro m hm h; subst h; rfl
  exact e _ _ (by rw [hid]; exact clamp_group g)

end Cert.Value.RefGather

end
-- ==== Proof.Value.RefDecode.lean ====
/-
  The reference's two per-row results in the shared closed form, for a row whose id names a group.

  Row n of the reference's decoder gathers row g of five group tables by the row's id (the anchor features, the anchor
  target, the mixture weights, the scales and the scale-weight products), passes the features relative to the anchor
  through the tanh layer and the linear layer, and combines the eight outputs: the predicted value is the weighted, scaled
  means summed plus the anchor target; the predicted spread is the root of the summed squares of product times
  (softplus · 0.99 + 0.01). With the five gathered rows laid side by side as one 269-wide row, these are the shared
  specification's two functions.
-/
import proofs.«430159_j88974542504689_1_alg».proof.Proof.RefRead
import proofs.«430159_j88974542504689_1_alg».proof.Proof.Value.Spec
import proofs.«430159_j88974542504689_1_alg».proof.Proof.Value.RefGather

noncomputable section

open scoped BigOperators

namespace Cert.Value.RefDecode

open Cert.ReferenceIdeal Cert.ReferenceIdeal.ReadP Idealize.ShloMosaic Idealize.ShloMosaic.ValueIdx Cert.Value.RefGather

variable (x3 : (⟨S262144, .i32⟩ : BufTy).Contents (Elt Ideal)) (x4 : (⟨S262144x256, .f32⟩ : BufTy).Contents (Elt Ideal)) (x5 : (⟨S262144x1, .f32⟩ : BufTy).Contents (Elt Ideal))
  (x6 : (⟨S257x128, .f32⟩ : BufTy).Contents (Elt Ideal)) (x7 : (⟨S128, .f32⟩ : BufTy).Contents (Elt Ideal)) (x8 : (⟨S128x4, .f32⟩ : BufTy).Contents (Elt Ideal)) (x9 : (⟨S4, .f32⟩ : BufTy).Contents (Elt Ideal))
  (x10 : (⟨S128x8, .f32⟩ : BufTy).Contents (Elt Ideal)) (x11 : (⟨S8, .f32⟩ : BufTy).Contents (Elt Ideal)) (x12 : (⟨S256x128, .f32⟩ : BufTy).Contents (Elt Ideal)) (x13 : (⟨S128, .f32⟩ : BufTy).Contents (Elt Ideal))
  (x14 : (⟨S128x8, .f32⟩ : BufTy).Contents (Elt Ideal)) (x15 : (⟨S8, .f32⟩ : BufTy).Contents (Elt Ideal))

/-! ## The group table's row -/

/-- Row g of the group table, 269 wide: the anchor features (columns 0..255), the anchor target (256), the mixture
    weights (257..260), the scales (261..264) and the scale-weight products (265..268). -/
def refTab (g : Fin 1024) : Fin 269 → EReal := fun c =>
  if h0 : c.val < 256 then val_main_v100 (F := Ideal) x3 x4 (ix2 g ⟨c.val, h0⟩)
  else if h1 : c.val < 257 then val_main_v111 (F := Ideal) x3 x5 (ix2 g (0 : Fin 1))
  else if h2 : c.val < 261 then val_main_v160 (F := Ideal) x3 x4 x5 x6 x7 x8 x9 (ix2 g ⟨c.val - 257, by omega⟩)
  else if h3 : c.val < 265 then val_main_v177 (F := Ideal) x3 x4 x5 x6 x7 x10 x11 (ix2 g ⟨c.val - 261, by omega⟩)
  else val_main_v228 (F := Ideal) x3 x4 x5 x6 x7 x8 x9 x10 x11 (ix2 g ⟨c.val - 265, by have := c.isLt; omega⟩)

/-- Reading a table at a column given by a number equal to k's. -/
private theorem at_col {W : Nat} (A : (⟨2, ![1024, W]⟩ : Shape).Idx → EReal) (g : Fin 1024) (k : Fin W) (m : Nat) (hm : m < W)
    (h : m = k.val) : A (ix2 g (⟨m, hm⟩ : Fin W)) = A (ix2 g k) := by subst h; rfl

theorem refTab_anchor (g : Fin 1024) (d : Fin 256) :
    refTab x3 x4 x5 x6 x7 x8 x9 x10 x11 g ⟨d.val, by omega⟩ = val_main_v100 (F := Ideal) x3 x4 (ix2 g d) := by
  unfold refTab
  rw [dif_pos (show (⟨d.val, by omega⟩ : Fin 269).val < 256 from d.isLt)]

theorem refTab_target (g : Fin 1024) :
    refTab x3 x4 x5 x6 x7 x8 x9 x10 x11 g ⟨256, by omega⟩ = val_main_v111 (F := Ideal) x3 x5 (ix2 g (0 : Fin 1)) := by
  unfold refTab
  rw [dif_neg (show ¬ (⟨256, by omega⟩ : Fin 269).val < 256 by simp), dif_pos (show (⟨256, by omega⟩ : Fin 269).val < 257 by simp)]

theorem refTab_weight (g : Fin 1024) (k : Fin 4) :
    refTab x3 x4 x5 x6 x7 x8 x9 x10 x11 g ⟨257 + k.val, by omega⟩ = val_main_v160 (F := Ideal) x3 x4 x5 x6 x7 x8 x9 (ix2 g k) := by
  have hk := k.isLt
  unfold refTab
  rw [dif_neg (show ¬ (⟨257 + k.val, by omega⟩ : Fin 269).val < 256 by simp; omega),
    dif_neg (show ¬ (⟨257 + k.val, by omega⟩ : Fin 269).val < 257 by simp),
    dif_pos (show (⟨257 + k.val, by omega⟩ : Fin 269).val < 261 by simp; omega)]
  exact at_col _ g k _ _ (by simp)

theorem refTab_scale (g : Fin 1024) (k : Fin 4) :
    refTab x3 x4 x5 x6 x7 x8 x9 x10 x11 g ⟨261 + k.val, by omega⟩ = val_main_v177 (F := Ideal) x3 x4 x5 x6 x7 x10 x11 (ix2 g k) := by
  have hk := k.isLt
  unfold refTab
  rw [dif_neg (show ¬ (⟨261 + k.val, by omega⟩ : Fin 269).val < 256 by simp; omega),
    dif_neg (show ¬ (⟨261 + k.val, by omega⟩ : Fin 269).val < 257 by simp; omega),
    dif_neg (show ¬ (⟨261 + k.val, by omega⟩ : Fin 269).val < 261 by simp),
    dif_pos (show (⟨261 + k.val, by omega⟩ : Fin 269).val < 265 by simp; omega)]
  exact at_col _ g k _ _ (by simp)

theorem refTab_product (g : Fin 1024) (k : Fin 4) :
    refTab x3 x4 x5 x6 x7 x8 x9 x10 x11 g ⟨265 + k.val, by omega⟩
      = val_main_v228 (F := Ideal) x3 x4 x5 x6 x7 x8 x9 x10 x11 (ix2 g k) := by
  have hk := k.isLt
  unfold refTab
  rw [dif_neg (show ¬ (⟨265 + k.val, by omega⟩ : Fin 269).val < 256 by simp; omega),
    dif_neg (show ¬ (⟨265 + k.val, by omega⟩ : Fin 269).val < 257 by simp; omega),
    dif_neg (show ¬ (⟨265 + k.val, by omega⟩ : Fin 269).val < 261 by simp; omega),
    dif_neg (show ¬ (⟨265 + k.val, by omega⟩ : Fin 269).val < 265 by simp)]
  exact at_col _ g k _ _ (by simp)

/-! ## The id column: a group's word passes the "negative id" step unchanged -/

section Column
variable (n : Fin 262144) (g : Fin 1024) (hid : x3 (ix1 n) = Spec.gw g)
include hid

theorem col183 : val_main_v183 (F := Ideal) x3 (ix2 n (0 : Fin 1)) = BitVec.ofNat 32 g.val := by
  have e : idx_main_v183 (ix2 n (0 : Fin 1)) = ix1 n := by funext a; match a with | ⟨0, _⟩ => rfl
  rw [val_main_v183_apply, val_main_v182_apply, val_main_v179_apply, val_main_v181_apply, val_main_v178_apply,
    val_main_v180_apply, val_main_c_44_apply, val_main_c_45_apply, e, hid]
  exact normalise_group g

theorem col207 : val_main_v207 (F := Ideal) x3 (ix2 n (0 : Fin 1)) = BitVec.ofNat 32 g.val := by
  have e : idx_main_v207 (ix2 n (0 : Fin 1)) = ix1 n := by funext a; match a with | ⟨0, _⟩ => rfl
  rw [val_main_v207_apply, val_main_v206_apply, val_main_v203_apply, val_main_v205_apply, val_main_v202_apply,
    val_main_v204_apply, val_main_c_48_apply, val_main_c_49_apply, e, hid]
  exact normalise_group g

theorem col215 : val_main_v215 (F := Ideal) x3 (ix2 n (0 : Fin 1)) = BitVec.ofNat 32 g.val := by
  have e : idx_main_v215 (ix2 n (0 : Fin 1)) = ix1 n := by funext a; match a with | ⟨0, _⟩ => rfl
  rw [val_main_v215_apply, val_main_v214_apply, val_main_v211_apply, val_main_v213_apply, val_main_v210_apply,
    val_main_v212_apply, val_main_c_50_apply, val_main_c_51_apply, e, hid]
  exact normalise_group g

theorem col225 : val_main_v225 (F := Ideal) x3 (ix2 n (0 : Fin 1)) = BitVec.ofNat 32 g.val := by
  have e : idx_main_v225 (ix2 n (0 : Fin 1)) = ix1 n := by funext a; match a with | ⟨0, _⟩ => rfl
  rw [val_main_v225_apply, val_main_v224_apply, val_main_v221_apply, val_main_v223_apply, val_main_v220_apply,
    val_main_v222_apply, val_main_c_53_apply, val_main_c_54_apply, e, hid]
  exact normalise_group g

theorem col234 : val_main_v234 (F := Ideal) x3 (ix2 n (0 : Fin 1)) = BitVec.ofNat 32 g.val := by
  have e : idx_main_v234 (ix2 n (0 : Fin 1)) = ix1 n := by funext a; match a with | ⟨0, _⟩ => rfl
  rw [val_main_v234_apply, val_main_v233_apply, val_main_v230_apply, val_main_v232_apply, val_main_v229_apply,
    val_main_v231_apply, val_main_c_55_apply, val_main_c_56_apply, e, hid]
  exact normalise_group g

/-! ## The five gathers at the row: each reads row g of its table -/

theorem anchor_at (d : Fin 256) :
    val_main_v184 (F := Ideal) x3 x4 (ix2 n d) = val_main_v100 (F := Ideal) x3 x4 (ix2 g d) :=
  gather_row_group gather_S1024x256_S262144x1_S262144x256_1_0_n_n_0_1_1256 rfl rfl rfl rfl rfl
    (val_main_v100 (F := Ideal) x3 x4) (val_main_v183 (F := Ideal) x3) n d g (col183 x3 n g hid)

theorem scale_at (k : Fin 4) :
    val_main_v208 (F := Ideal) x3 x4 x5 x6 x7 x10 x11 (ix2 n k) = val_main_v177 (F := Ideal) x3 x4 x5 x6 x7 x10 x11 (ix2 g k) :=
  gather_row_group gather_S1024x4_S262144x1_S262144x4_1_0_n_n_0_1_14 rfl rfl rfl rfl rfl
    (val_main_v177 (F := Ideal) x3 x4 x5 x6 x7 x10 x11) (val_main_v207 (F := Ideal) x3) n k g (col207 x3 n g hid)

theorem weight_at (k : Fin 4) :
    val_main_v216 (F := Ideal) x3 x4 x5 x6 x7 x8 x9 (ix2 n k) = val_main_v160 (F := Ideal) x3 x4 x5 x6 x7 x8 x9 (ix2 g k) :=
  gather_row_group gather_S1024x4_S262144x1_S262144x4_1_0_n_n_0_1_14 rfl rfl rfl rfl rfl
    (val_main_v160 (F := Ideal) x3 x4 x5 x6 x7 x8 x9) (val_main_v215 (F := Ideal) x3) n k g (col215 x3 n g hid)

theorem target_at :
    val_main_v226 (F := Ideal) x3 x5 (ix2 n (0 : Fin 1)) = val_main_v111 (F := Ideal) x3 x5 (ix2 g (0 : Fin 1)) :=
  gather_row_group gather_S1024x1_S262144x1_S262144x1_1_0_n_n_0_1_11 rfl rfl rfl rfl rfl
    (val_main_v111 (F := Ideal) x3 x5) (val_main_v225 (F := Ideal) x3) n (0 : Fin 1) g (col225 x3 n g hid)

theorem product_at (k : Fin 4) :
    val_main_v235 (F := Ideal) x3 x4 x5 x6 x7 x8 x9 x10 x11 (ix2 n k)
      = val_main_v228 (F := Ideal) x3 x4 x5 x6 x7 x8 x9 x10 x11 (ix2 g k) :=
  gather_row_group gather_S1024x4_S262144x1_S262144x4_1_0_n_n_0_1_14 rfl rfl rfl rfl rfl
    (val_main_v228 (F := Ideal) x3 x4 x5 x6 x7 x8 x9 x10 x11) (val_main_v234 (F := Ideal) x3) n k g (col234 x3 n g hid)

/-! ## The decoder at the row -/

/-- The tanh layer at (n, j). -/
theorem hidden_at (j : Fin 128) :
    val_main_v190 (F := Ideal) x3 x4 x12 x13 (ix2 n j)
      = Spec.hidden (fun d => x4 (ix2 n d)) (refTab x3 x4 x5 x6 x7 x8 x9 x10 x11 g) (fun d j => x12 (ix2 d j))
          (fun j => x13 (ix1 j)) j := by
  have eb : idx_main_v187 (idx_main_v188 (ix2 n j)) = ix1 j := by funext a; match a with | ⟨0, _⟩ => rfl
  have hs : ∀ d : Fin 256, val_main_v185 (F := Ideal) x3 x4 (lidx_main_v186 (ix2 n j) d) * x12 (ridx_main_v186 (ix2 n j) d)
      = (x4 (ix2 n d) - refTab x3 x4 x5 x6 x7 x8 x9 x10 x11 g ⟨d.val, by omega⟩) * x12 (ix2 d j) := fun d => by
    have el : lidx_main_v186 (ix2 n j) d = ix2 n d := by funext a; match a with | ⟨0, _⟩ => rfl | ⟨1, _⟩ => rfl
    have er : ridx_main_v186 (ix2 n j) d = ix2 d j := by funext a; match a with | ⟨0, _⟩ => rfl | ⟨1, _⟩ => rfl
    rw [el, er, val_main_v185_apply, anchor_at x3 x4 n g hid d, refTab_anchor]
    simp only [Ideal.subf_def]
  rw [val_main_v190_apply, val_main_v189_apply, val_main_v188_apply, val_main_v187_apply, eb, val_main_v186_apply,
    Finset.sum_congr rfl fun d _ => hs d]
  unfold Spec.hidden
  simp only [Ideal.hostUnary_tanh_def, Ideal.addf_def]

/-- The linear layer at (n, k). -/
theorem pred_at (k : Fin 8) :
    val_main_v194 (F := Ideal) x3 x4 x12 x13 x14 x15 (ix2 n k)
      = Spec.pred (fun d => x4 (ix2 n d)) (refTab x3 x4 x5 x6 x7 x8 x9 x10 x11 g) (fun d j => x12 (ix2 d j))
          (fun j => x13 (ix1 j)) (fun j k => x14 (ix2 j k)) (fun k => x15 (ix1 k)) k := by
  have eb : idx_main_v192 (idx_main_v193 (ix2 n k)) = ix1 k := by funext a; match a with | ⟨0, _⟩ => rfl
  have hs : ∀ j : Fin 128, val_main_v190 (F := Ideal) x3 x4 x12 x13 (lidx_main_v191 (ix2 n k) j) * x14 (ridx_main_v191 (ix2 n k) j)
      = Spec.hidden (fun d => x4 (ix2 n d)) (refTab x3 x4 x5 x6 x7 x8 x9 x10 x11 g) (fun d j => x12 (ix2 d j))
          (fun j => x13 (ix1 j)) j * x14 (ix2 j k) := fun j => by
    have el : lidx_main_v191 (ix2 n k) j = ix2 n j := by funext a; match a with | ⟨0, _⟩ => rfl | ⟨1, _⟩ => rfl
    have er : ridx_main_v191 (ix2 n k) j = ix2 j k := by funext a; match a with | ⟨0, _⟩ => rfl | ⟨1, _⟩ => rfl
    rw [el, er, hidden_at x3 x4 x5 x6 x7 x8 x9 x10 x11 x12 x13 n g hid j]
  rw [val_main_v194_apply, val_main_v193_apply, val_main_v192_apply, eb, val_main_v191_apply,
    Finset.sum_congr rfl fun j _ => hs j]
  unfold Spec.pred
  simp only [Ideal.addf_def]

/-- The predicted value of row n. -/
theorem ref_ypred :
    val_main_v227 (F := Ideal) x3 x4 x5 x6 x7 x8 x9 x10 x11 x12 x13 x14 x15 (ix2 n (0 : Fin 1))
      = Spec.yPred (fun d => x4 (ix2 n d)) (refTab x3 x4 x5 x6 x7 x8 x9 x10 x11 g) (fun d j => x12 (ix2 d j))
          (fun j => x13 (ix1 j)) (fun j k => x14 (ix2 j k)) (fun k => x15 (ix1 k)) := by
  have e219 : idx_main_v219 (ix2 n (0 : Fin 1)) = ix1 n := by funext a; match a with | ⟨0, _⟩ => rfl
  have hs : ∀ k : Fin 4, val_main_v217 (F := Ideal) x3 x4 x5 x6 x7 x8 x9 x10 x11 x12 x13 x14 x15 (idx_main_v218 (ix1 n) k)
      = refTab x3 x4 x5 x6 x7 x8 x9 x10 x11 g ⟨257 + k.val, by omega⟩
        * (refTab x3 x4 x5 x6 x7 x8 x9 x10 x11 g ⟨261 + k.val, by omega⟩
          * Spec.pred (fun d => x4 (ix2 n d)) (refTab x3 x4 x5 x6 x7 x8 x9 x10 x11 g) (fun d j => x12 (ix2 d j))
          (fun j => x13 (ix1 j)) (fun j k => x14 (ix2 j k)) (fun k => x15 (ix1 k)) ⟨k.val, by omega⟩) := fun k => by
    have e218 : idx_main_v218 (ix1 n) k = ix2 n k := by funext a; match a with | ⟨0, _⟩ => rfl | ⟨1, _⟩ => rfl
    have e195 : idx_main_v195 (ix2 n k) = ix2 n (⟨k.val, by omega⟩ : Fin 8) := by
      funext a; match a with | ⟨0, _⟩ => rfl | ⟨1, _⟩ => rfl
    rw [e218, val_main_v217_apply, val_main_v209_apply, val_main_v195_apply, e195,
      weight_at x3 x4 x5 x6 x7 x8 x9 n g hid k, scale_at x3 x4 x5 x6 x7 x10 x11 n g hid k,
      pred_at x3 x4 x5 x6 x7 x8 x9 x10 x11 x12 x13 x14 x15 n g hid, refTab_weight, refTab_scale]
    simp only [Ideal.mulf_def]
  rw [val_main_v227_apply, val_main_v219_apply, e219, val_main_v218_apply, val_main_cst_52_apply,
    target_at x3 x5 n g hid, Finset.sum_congr rfl fun k _ => hs k]
  unfold Spec.yPred
  simp only [Ideal.addf_def, Ideal.ofBits_def, Ideal.ofBits_zero_f32, zero_add]
  rw [refTab_target]

/-- softplus of the k-th scale output at row n: the "is it a NaN" branch is never taken over the extended reals. -/
theorem softplus_at (k : Fin 4) :
    val_main_v197 (F := Ideal) x3 x4 x12 x13 x14 x15 (ix2 n k)
      = Spec.softplus (Spec.pred (fun d => x4 (ix2 n d)) (refTab x3 x4 x5 x6 x7 x8 x9 x10 x11 g) (fun d j => x12 (ix2 d j))
          (fun j => x13 (ix1 j)) (fun j k => x14 (ix2 j k)) (fun k => x15 (ix1 k)) ⟨4 + k.val, by omega⟩) := by
  have e196 : idx_main_v196 (ix2 n k) = ix2 n (⟨4 + k.val, by omega⟩ : Fin 8) := by
    funext a; match a with | ⟨0, _⟩ => rfl | ⟨1, _⟩ => rfl
  have hp := pred_at x3 x4 x5 x6 x7 x8 x9 x10 x11 x12 x13 x14 x15 n g hid ⟨4 + k.val, by omega⟩
  rw [val_main_v197_apply, val_main_call6_v4_apply, val_main_call6_v6_apply, val_main_call6_v11_apply,
    val_main_call6_v1_apply, val_main_call6_v10_apply, val_main_call6_v9_apply, val_main_call6_v8_apply,
    val_main_call6_v7_apply, val_main_call6_v3_apply, val_main_call6_v0_apply, val_main_call6_v2_apply,
    val_main_call6_v5_apply, val_main_call6_cst_apply, val_main_v196_apply, e196, hp]
  unfold Spec.softplus
  simp only [Ideal.addf_def, Ideal.subf_def, Ideal.maximumf_def, Ideal.ofBits_def, Ideal.ofBits_zero_f32, sub_zero,
    Ideal.hostUnary_exp_def, Ideal.hostUnary_log1p_def, Ideal.hostNegf_def, Ideal.hostAbsf_def, Ideal.negf_def,
    Ideal.cmpf_def]
  have hne : ∀ a : EReal, Ideal.cmp .une a a = 0#1 := fun a => by simp [Ideal.cmp]
  rw [hne, select_zero]

/-- The predicted spread of row n. -/
theorem ref_ysigma :
    val_main_v239 (F := Ideal) x3 x4 x5 x6 x7 x8 x9 x10 x11 x12 x13 x14 x15 (ix1 n)
      = Spec.ySigma (fun d => x4 (ix2 n d)) (refTab x3 x4 x5 x6 x7 x8 x9 x10 x11 g) (fun d j => x12 (ix2 d j))
          (fun j => x13 (ix1 j)) (fun j k => x14 (ix2 j k)) (fun k => x15 (ix1 k)) := by
  have h236 : ∀ k : Fin 4, val_main_v236 (F := Ideal) x3 x4 x5 x6 x7 x8 x9 x10 x11 x12 x13 x14 x15 (ix2 n k)
      = refTab x3 x4 x5 x6 x7 x8 x9 x10 x11 g ⟨265 + k.val, by omega⟩
        * (Spec.softplus (Spec.pred (fun d => x4 (ix2 n d)) (refTab x3 x4 x5 x6 x7 x8 x9 x10 x11 g) (fun d j => x12 (ix2 d j))
          (fun j => x13 (ix1 j)) (fun j k => x14 (ix2 j k)) (fun k => x15 (ix1 k)) ⟨4 + k.val, by omega⟩) * Spec.c99 + Spec.c01) := fun k => by
    rw [val_main_v236_apply, val_main_v201_apply, val_main_v199_apply, val_main_v198_apply, val_main_v200_apply,
      val_main_cst_46_apply, val_main_cst_47_apply, product_at x3 x4 x5 x6 x7 x8 x9 x10 x11 n g hid k,
      softplus_at x3 x4 x5 x6 x7 x8 x9 x10 x11 x12 x13 x14 x15 n g hid k, refTab_product]
    simp only [Ideal.mulf_def, Ideal.addf_def, Ideal.ofBits_def]
  have hs : ∀ k : Fin 4, val_main_v237 (F := Ideal) x3 x4 x5 x6 x7 x8 x9 x10 x11 x12 x13 x14 x15 (idx_main_v238 (ix1 n) k)
      = (refTab x3 x4 x5 x6 x7 x8 x9 x10 x11 g ⟨265 + k.val, by omega⟩
          * (Spec.softplus (Spec.pred (fun d => x4 (ix2 n d)) (refTab x3 x4 x5 x6 x7 x8 x9 x10 x11 g) (fun d j => x12 (ix2 d j))
          (fun j => x13 (ix1 j)) (fun j k => x14 (ix2 j k)) (fun k => x15 (ix1 k)) ⟨4 + k.val, by omega⟩) * Spec.c99 + Spec.c01))
        * (refTab x3 x4 x5 x6 x7 x8 x9 x10 x11 g ⟨265 + k.val, by omega⟩
          * (Spec.softplus (Spec.pred (fun d => x4 (ix2 n d)) (refTab x3 x4 x5 x6 x7 x8 x9 x10 x11 g) (fun d j => x12 (ix2 d j))
          (fun j => x13 (ix1 j)) (fun j k => x14 (ix2 j k)) (fun k => x15 (ix1 k)) ⟨4 + k.val, by omega⟩) * Spec.c99 + Spec.c01)) := fun k => by
    have e238 : idx_main_v238 (ix1 n) k = ix2 n k := by funext a; match a with | ⟨0, _⟩ => rfl | ⟨1, _⟩ => rfl
    rw [e238, val_main_v237_apply, h236 k]
    simp only [Ideal.mulf_def]
  rw [val_main_v239_apply, val_main_v238_apply, val_main_cst_57_apply, Finset.sum_congr rfl fun k _ => hs k]
  unfold Spec.ySigma
  simp only [Ideal.hostUnary_sqrt_def, Ideal.ofBits_def, Ideal.ofBits_zero_f32, zero_add]

end Column

end Cert.Value.RefDecode

end
-- ==== Proof.Value.KernelHostLayout.lean ====
/-
  Reading a laid-out array at one entry.

  The host side of the program only moves entries around between the kernels: a vector of N entries is viewed as one
  row or as one column, a 256-wide table and a single column are laid side by side into a 257-wide table, one column of
  a two-column table is taken out, and a 257-wide table and three 4-wide tables are laid side by side into a 269-wide
  table. Each lemma here says which entry of which operand a given entry of the result is.
-/
import Idealize.ShloMosaic.Lib.ValueLayout

namespace Cert.Value.KHost

open Idealize.ShloMosaic Idealize.ShloMosaic.ValueIdx

variable {α : Type}

/-! ## A vector as a column, and a column as a vector -/

/-- A vector of a entries viewed as an a-by-1 table: entry (i, 0) is entry i. -/
theorem col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 table viewed as a vector: entry i is entry (i, 0). -/
theorem uncol_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## One column of a two-column table -/

/-- Column o of an N-by-2 table, as an N-by-1 table: entry (n, 0) is entry (n, o). -/
theorem column_apply {N : ℕ} (o : ℕ) (X : (⟨2, ![N, 2]⟩ : Shape).Idx → α)
    (h : (⟨2, ![N, 2]⟩ : Shape).Slices ![0, o] ⟨2, ![N, 1]⟩) (n : Fin N) (u : Fin 1) (k : Fin 2) (hk : k.val = o) :
    extractStridedSlice ⟨2, ![N, 1]⟩ ![0, o] X h (ix2 n u) = X (ix2 n k) :=
  slice2_axis1_apply o X h n u k (by
    have hu := u.isLt
    omega)

/-! ## A 256-wide table and one more column, side by side -/

/-- The 257-wide table made of a 256-wide table and a single column: a column below 256 reads the wide table, column 256
    reads the single column. -/
theorem widen_apply {N : ℕ} (x : (⟨2, ![N, 256]⟩ : Shape).Idx → α) (y : (⟨2, ![N, 1]⟩ : Shape).Idx → α)
    (h : Shape.Concatenates [(⟨2, ![N, 256]⟩ : Shape), ⟨2, ![N, 1]⟩] ⟨2, ![N, 257]⟩ 1) (n : Fin N) (d : Fin 257) :
    concatenate ⟨2, ![N, 257]⟩ 1 [⟨⟨2, ![N, 256]⟩, x⟩, ⟨⟨2, ![N, 1]⟩, y⟩] h (ix2 n d)
      = if hd : d.val < 256 then x (ix2 n ⟨d.val, hd⟩) else y (ix2 n (0 : Fin 1)) := by
  by_cases hd : d.val < 256
  · rw [dif_pos hd]
    exact concatenate_pair_apply_left (t := ⟨2, ![N, 257]⟩) (s₁ := ⟨2, ![N, 256]⟩) (s₂ := ⟨2, ![N, 1]⟩) (1 : Fin 2) x y h
      (ix2 n d) rfl (ix2 n ⟨d.val, hd⟩) (fun b => by
        match b with
        | ⟨0, _⟩ => rfl
        | ⟨1, _⟩ => rfl)
  · rw [dif_neg hd]
    exact concatenate_pair_apply_right (t := ⟨2, ![N, 257]⟩) (s₁ := ⟨2, ![N, 256]⟩) (s₂ := ⟨2, ![N, 1]⟩) (1 : Fin 2) x y h
      (ix2 n d) rfl rfl (ix2 n (0 : Fin 1)) (fun b hb => by
        match b with
        | ⟨0, _⟩ => rfl
        | ⟨1, _⟩ => exact absurd rfl hb) (by
        show 0 + 256 = d.val
        have := d.isLt
        omega)

/-! ## The 269-wide group table -/

/-- The 269-wide table made of a 257-wide table and three 4-wide tables: columns 0..256 read the first, 257..260 the
    second, 261..264 the third, 265..268 the fourth. -/
theorem table_apply (A : (⟨2, ![1024, 257]⟩ : Shape).Idx → α) (P Q R : (⟨2, ![1024, 4]⟩ : Shape).Idx → α)
    (h : Shape.Concatenates [(⟨2, ![1024, 257]⟩ : Shape), ⟨2, ![1024, 4]⟩, ⟨2, ![1024, 4]⟩, ⟨2, ![1024, 4]⟩]
      ⟨2, ![1024, 269]⟩ 1) (g : Fin 1024) (j : Fin 269) :
    concatenate ⟨2, ![1024, 269]⟩ 1
        [⟨⟨2, ![1024, 257]⟩, A⟩, ⟨⟨2, ![1024, 4]⟩, P⟩, ⟨⟨2, ![1024, 4]⟩, Q⟩, ⟨⟨2, ![1024, 4]⟩, R⟩] h (ix2 g j)
      = if h0 : j.val < 257 then A (ix2 g ⟨j.val, h0⟩)
        else if h1 : j.val < 261 then P (ix2 g ⟨j.val - 257, by omega⟩)
        else if h2 : j.val < 265 then Q (ix2 g ⟨j.val - 261, by omega⟩)
        else R (ix2 g ⟨j.val - 265, by have := j.isLt; omega⟩) := by
  have hj := j.isLt
  by_cases h0 : j.val < 257
  · rw [dif_pos h0]
    exact concatenate_apply_piece (t := ⟨2, ![1024, 269]⟩) (1 : Fin 2)
              [⟨⟨2, ![1024, 257]⟩, A⟩, ⟨⟨2, ![1024, 4]⟩, P⟩, ⟨⟨2, ![1024, 4]⟩, Q⟩, ⟨⟨2, ![1024, 4]⟩, R⟩] h (ix2 g j) 0 (by show 0 < 4; omega) ⟨2, ![1024, 257]⟩ A rfl rfl
      0 rfl (ix2 g ⟨j.val, h0⟩) (fun b hb => by
        match b with
        | ⟨0, _⟩ => rfl
        | ⟨1, _⟩ => exact absurd rfl hb) (by show 0 + j.val = j.val; omega)
  · rw [dif_neg h0]
    by_cases h1 : j.val < 261
    · rw [dif_pos h1]
      exact concatenate_apply_piece (t := ⟨2, ![1024, 269]⟩) (1 : Fin 2)
              [⟨⟨2, ![1024, 257]⟩, A⟩, ⟨⟨2, ![1024, 4]⟩, P⟩, ⟨⟨2, ![1024, 4]⟩, Q⟩, ⟨⟨2, ![1024, 4]⟩, R⟩] h (ix2 g j) 1 (by show 1 < 4; omega) ⟨2, ![1024, 4]⟩ P rfl rfl
        257 rfl (ix2 g ⟨j.val - 257, by omega⟩) (fun b hb => by
          match b with
          | ⟨0, _⟩ => rfl
          | ⟨1, _⟩ => exact absurd rfl hb) (by show 257 + (j.val - 257) = j.val; omega)
    · rw [dif_neg h1]
      by_cases h2 : j.val < 265
      · rw [dif_pos h2]
        exact concatenate_apply_piece (t := ⟨2, ![1024, 269]⟩) (1 : Fin 2)
              [⟨⟨2, ![1024, 257]⟩, A⟩, ⟨⟨2, ![1024, 4]⟩, P⟩, ⟨⟨2, ![1024, 4]⟩, Q⟩, ⟨⟨2, ![1024, 4]⟩, R⟩] h (ix2 g j) 2 (by show 2 < 4; omega) ⟨2, ![1024, 4]⟩ Q rfl rfl
          261 rfl (ix2 g ⟨j.val - 261, by omega⟩) (fun b hb => by
            match b with
            | ⟨0, _⟩ => rfl
            | ⟨1, _⟩ => exact absurd rfl hb) (by show 261 + (j.val - 261) = j.val; omega)
      · rw [dif_neg h2]
        exact concatenate_apply_piece (t := ⟨2, ![1024, 269]⟩) (1 : Fin 2)
              [⟨⟨2, ![1024, 257]⟩, A⟩, ⟨⟨2, ![1024, 4]⟩, P⟩, ⟨⟨2, ![1024, 4]⟩, Q⟩, ⟨⟨2, ![1024, 4]⟩, R⟩] h (ix2 g j) 3 (by show 3 < 4; omega) ⟨2, ![1024, 4]⟩ R rfl rfl
          265 rfl (ix2 g ⟨j.val - 265, by omega⟩) (fun b hb => by
            match b with
            | ⟨0, _⟩ => rfl
            | ⟨1, _⟩ => exact absurd rfl hb) (by show 265 + (j.val - 265) = j.val; omega)

end Cert.Value.KHost
-- ==== Proof.Value.KernelHostStretch.lean ====
/-
  What each stretch of host operations computes, from whatever the buffers held before it.

  Between the kernels the program runs short straight lines of tensor operations. Each lemma reads one buffer after
  one such line, started from arbitrary buffer contents W, as the composition of the line's operations applied to the
  buffers the line itself does not write. The cluster head's pieces are named as in the file of the small dense
  computations (hidden representation, logits, softmax, log-softmax, means, scales, softplus).
-/
import proofs.«430159_j88974542504689_1_alg».proof.Proof.Gen.KernelIdeal.Launch
import proofs.«430159_j88974542504689_1_alg».proof.Proof.Value.Tails

-- deciding that two of the program's 272 references differ recurses past the default depth
set_option maxRecDepth 1600

noncomputable section

namespace Cert.Value.KHost

open Cert.KernelIdeal Cert.KernelIdeal.Gen
open Idealize.ShloMosaic Idealize.ShloMosaic.TcCoe
open Idealize.ShloMosaic.StableHlo (after_cons after_nil)

variable {F : FTy → Type} [FloatOps F]
variable (W : Valuation τ sig (Elt F))

/-- The context rows' features and targets side by side. -/
theorem s0_v0 :
    StableHlo.after hostOps0 W (Proc.devRef .tc main_v0)
      = concatenate S262144x257 1 [⟨S262144x256, W main_arg1⟩, ⟨S262144x1, W main_arg2⟩]
          concatenates_S262144x256_S262144x1_S262144x257_d1 := by
  after_results <;> rfl

/-- The target rows' features and targets side by side. -/
theorem s0_v1 :
    StableHlo.after hostOps0 W (Proc.devRef .tc main_v1)
      = concatenate S262144x257 1 [⟨S262144x256, W main_arg4⟩, ⟨S262144x1, W main_arg5⟩]
          concatenates_S262144x256_S262144x1_S262144x257_d1 := by
  after_results <;> rfl

/-- The context rows' group ids as one row. -/
theorem s0_v2 :
    StableHlo.after hostOps0 W (Proc.devRef .tc main_v2)
      = shapeCast S1x262144 (W main_arg0) shapeCasts_S262144_S1x262144 := by
  after_results <;> rfl

/-- The target rows' group ids as one row. -/
theorem s1_v4 :
    StableHlo.after hostOps1 W (Proc.devRef .tc main_v4)
      = shapeCast S1x262144 (W main_arg3) shapeCasts_S262144_S1x262144 := by
  after_results <;> rfl

/-- The context rows' group ids as one row, again. -/
theorem s2_v6 :
    StableHlo.after hostOps2 W (Proc.devRef .tc main_v6)
      = shapeCast S1x262144 (W main_arg0) shapeCasts_S262144_S1x262144 := by
  after_results <;> rfl

/-- The context rows' group ids as one column. -/
theorem s2_v7 :
    StableHlo.after hostOps2 W (Proc.devRef .tc main_v7)
      = shapeCast S262144x1 (W main_arg0) shapeCasts_S262144_S262144x1 := by
  after_results <;> rfl

/-- The target rows' group ids as one row, again. -/
theorem s3_v9 :
    StableHlo.after hostOps3 W (Proc.devRef .tc main_v9)
      = shapeCast S1x262144 (W main_arg3) shapeCasts_S262144_S1x262144 := by
  after_results <;> rfl

/-- The target rows' group ids as one column. -/
theorem s3_v10 :
    StableHlo.after hostOps3 W (Proc.devRef .tc main_v10)
      = shapeCast S262144x1 (W main_arg3) shapeCasts_S262144_S262144x1 := by
  after_results <;> rfl

set_option maxHeartbeats 1000000 in
/-- The context's hidden representation. -/
theorem s4_v16 :
    StableHlo.after hostOps4 W (Proc.devRef .tc main_v16)
      = Tails.rep (W main_v8) (W main_arg6) (W main_arg7) := by
  after_results <;> rfl

set_option maxHeartbeats 1000000 in
/-- The context's mixture logits. -/
theorem s4_v20 :
    StableHlo.after hostOps4 W (Proc.devRef .tc main_v20)
      = Tails.logits (Tails.rep (W main_v8) (W main_arg6) (W main_arg7)) (W main_arg8) (W main_arg9) := by
  after_results <;> rfl

set_option maxHeartbeats 1000000 in
/-- The context's log mixture weights. -/
theorem s4_1_v32 :
    StableHlo.after hostOps4_1 W (Proc.devRef .tc main_v32)
      = Tails.logp (W main_v20) := by
  after_results <;> (try simp only [StableHlo.TRef.ofBuf, StableHlo.TRef.toBuf, cast_eq]) <;> rfl

/-- The context's means. -/
theorem s4_2_v37 :
    StableHlo.after hostOps4_2 W (Proc.devRef .tc main_v37)
      = Tails.pm (Tails.prec (W main_v16) (W main_arg10) (W main_arg11)) := by
  after_results <;> rfl

/-- The context's scales before softplus. -/
theorem s4_2_v38 :
    StableHlo.after hostOps4_2 W (Proc.devRef .tc main_v38)
      = Tails.pls (Tails.prec (W main_v16) (W main_arg10) (W main_arg11)) := by
  after_results <;> rfl

set_option maxHeartbeats 1000000 in
/-- softplus of the context's scales. -/
theorem s4_3_v39 :
    StableHlo.after hostOps4_3 W (Proc.devRef .tc main_v39)
      = Tails.sp (W main_v38) := by
  after_results <;> (try simp only [StableHlo.TRef.ofBuf, StableHlo.TRef.toBuf, cast_eq]) <;> rfl

/-- The context's scales: softplus times 0.99 plus 0.01. -/
theorem s4_4_v43 :
    StableHlo.after hostOps4_4 W (Proc.devRef .tc main_v43)
      = addf (F := F) (mulf (F := F) (W main_v39) (Tails.splat4 0x3F7D70A4#32)) (Tails.splat4 0x3C23D70A#32) := by
  after_results <;> rfl

set_option maxHeartbeats 1000000 in
/-- The target's hidden representation. -/
theorem s4_6_v53 :
    StableHlo.after hostOps4_6 W (Proc.devRef .tc main_v53)
      = Tails.rep (W main_v11) (W main_arg6) (W main_arg7) := by
  after_results_simp <;> rfl

set_option maxHeartbeats 1000000 in
/-- The target's mixture logits. -/
theorem s4_6_v57 :
    StableHlo.after hostOps4_6 W (Proc.devRef .tc main_v57)
      = Tails.logits (Tails.rep (W main_v11) (W main_arg6) (W main_arg7)) (W main_arg8) (W main_arg9) := by
  after_results_simp <;> rfl

set_option maxHeartbeats 2000000 in
/-- The target's mixture weights. -/
theorem s4_6_v68 :
    StableHlo.after hostOps4_6 W (Proc.devRef .tc main_v68)
      = Tails.prob (Tails.logits (Tails.rep (W main_v11) (W main_arg6) (W main_arg7)) (W main_arg8) (W main_arg9)) := by
  after_results_simp <;> rfl

set_option maxHeartbeats 1000000 in
/-- The target's log mixture weights. -/
theorem s4_7_v69 :
    StableHlo.after hostOps4_7 W (Proc.devRef .tc main_v69)
      = Tails.logp (W main_v57) := by
  after_results <;> (try simp only [StableHlo.TRef.ofBuf, StableHlo.TRef.toBuf, cast_eq]) <;> rfl

/-- The target's means. -/
theorem s4_8_v74 :
    StableHlo.after hostOps4_8 W (Proc.devRef .tc main_v74)
      = Tails.pm (Tails.prec (W main_v53) (W main_arg10) (W main_arg11)) := by
  after_results <;> rfl

/-- The target's scales before softplus. -/
theorem s4_8_v75 :
    StableHlo.after hostOps4_8 W (Proc.devRef .tc main_v75)
      = Tails.pls (Tails.prec (W main_v53) (W main_arg10) (W main_arg11)) := by
  after_results <;> rfl

set_option maxHeartbeats 1000000 in
/-- softplus of the target's scales. -/
theorem s4_9_v76 :
    StableHlo.after hostOps4_9 W (Proc.devRef .tc main_v76)
      = Tails.sp (W main_v75) := by
  after_results <;> (try simp only [StableHlo.TRef.ofBuf, StableHlo.TRef.toBuf, cast_eq]) <;> rfl

/-- The target's scales. -/
theorem s4_10_v80 :
    StableHlo.after hostOps4_10 W (Proc.devRef .tc main_v80)
      = addf (F := F) (mulf (F := F) (W main_v76) (Tails.splat4 0x3F7D70A4#32)) (Tails.splat4 0x3C23D70A#32) := by
  after_results <;> rfl

set_option maxHeartbeats 1000000 in
/-- softplus of the target's means' columns. -/
theorem s4_11_v81 :
    StableHlo.after hostOps4_11 W (Proc.devRef .tc main_v81)
      = Tails.sp (W main_v74) := by
  after_results <;> (try simp only [StableHlo.TRef.ofBuf, StableHlo.TRef.toBuf, cast_eq]) <;> rfl

/-- The target's scales on the means' columns. -/
theorem s4_12_v85 :
    StableHlo.after hostOps4_12 W (Proc.devRef .tc main_v85)
      = addf (F := F) (mulf (F := F) (W main_v81) (Tails.splat4 0x3F7D70A4#32)) (Tails.splat4 0x3C23D70A#32) := by
  after_results <;> rfl

set_option maxHeartbeats 1000000 in
/-- The group table: anchor means, mixture weights, scales, and their products, side by side. -/
theorem s4_12_v87 :
    StableHlo.after hostOps4_12 W (Proc.devRef .tc main_v87)
      = concatenate S1024x269 1
          [⟨S1024x257, W main_v5⟩, ⟨S1024x4, W main_v68⟩, ⟨S1024x4, addf (F := F) (mulf (F := F) (W main_v81) (Tails.splat4 0x3F7D70A4#32)) (Tails.splat4 0x3C23D70A#32)⟩,
            ⟨S1024x4, mulf (F := F) (addf (F := F) (mulf (F := F) (W main_v81) (Tails.splat4 0x3F7D70A4#32)) (Tails.splat4 0x3C23D70A#32)) (W main_v68)⟩]
          concatenates_S1024x257_S1024x4_S1024x4_S1024x4_S1024x269_d1 := by
  after_results <;> rfl

/-- The target rows' group ids as one column, for the decoder. -/
theorem s4_12_v88 :
    StableHlo.after hostOps4_12 W (Proc.devRef .tc main_v88)
      = shapeCast S262144x1 (W main_arg3) shapeCasts_S262144_S262144x1 := by
  after_results <;> rfl

/-- The decoder's first bias as one row. -/
theorem s4_12_v89 :
    StableHlo.after hostOps4_12 W (Proc.devRef .tc main_v89)
      = shapeCast S1x128 (W main_arg13) shapeCasts_S128_S1x128 := by
  after_results <;> rfl

/-- The decoder's second bias as one row. -/
theorem s4_12_v90 :
    StableHlo.after hostOps4_12 W (Proc.devRef .tc main_v90)
      = shapeCast S1x8 (W main_arg15) shapeCasts_S8_S1x8 := by
  after_results <;> rfl

set_option maxHeartbeats 1000000 in
/-- The first column of the decoder's output. -/
theorem s5_v92 :
    StableHlo.after hostOps5 W (Proc.devRef .tc main_v92)
      = extractStridedSlice S262144x1 ![0, 0] (W main_v91) slices_S262144x2_S262144x1_0_0 := by
  after_results_simp <;> rfl

set_option maxHeartbeats 1000000 in
/-- The second column of the decoder's output, as a vector. -/
theorem s5_v94 :
    StableHlo.after hostOps5 W (Proc.devRef .tc main_v94)
      = shapeCast S262144 (extractStridedSlice S262144x1 ![0, 1] (W main_v91) slices_S262144x2_S262144x1_0_1)
          shapeCasts_S262144x1_S262144 := by
  after_results_simp <;> rfl

set_option maxHeartbeats 2000000 in
/-- The per-group divergence from the stored pieces. -/
theorem s5_v112 :
    StableHlo.after hostOps5 W (Proc.devRef .tc main_v112)
      = Tails.distKl (W main_v68) (W main_v69) (W main_v32) (W main_v43) (W main_v80) (W main_v74) (W main_v37) := by
  after_results_simp <;> rfl

end Cert.Value.KHost

end
-- ==== Proof.Value.KernelHostEntries.lean ====
/-
  What the first four kernels find in their input arrays.

  Before each of the first four kernels the host lays the rows' features and target value side by side (a 257-wide
  table), and views the rows' group ids as one row or as one column. Each lemma reads such an array at one entry, in
  terms of the arrays the program was launched with; the arrays a kernel reads that an earlier step made are carried
  unchanged across the steps in between.
-/
import proofs.«430159_j88974542504689_1_alg».proof.Proof.Gen.KernelIdeal.Regions
import proofs.«430159_j88974542504689_1_alg».proof.Proof.Value.KernelHostLayout
import proofs.«430159_j88974542504689_1_alg».proof.Proof.Value.KernelHostStretch

-- deciding that a reference is none of those a stretch writes recurses past the default depth
set_option maxRecDepth 1600

noncomputable section

namespace Cert.Value.KHost

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (outs : Outs (F := F))

/-- Argument 3 is still as launched. -/
theorem V2_arg3 (c : Dev nD) : V2 m outs c main_arg3 = m ((c : Thread nD τ).loc main_arg3) :=
  (V2_of m outs c main_arg3 (by decide)).trans <|
    (V1_of m c main_arg3 (by decide))

/-- Argument 0 is still as launched. -/
theorem V4_arg0 (c : Dev nD) : V4 m outs c main_arg0 = m ((c : Thread nD τ).loc main_arg0) :=
  (V4_of m outs c main_arg0 (by decide)).trans <|
    (V3_of m outs c main_arg0 (by decide)).trans <|
    (V2_of m outs c main_arg0 (by decide)).trans <|
    (V1_of m c main_arg0 (by decide))

/-- Argument 3 is still as launched. -/
theorem V6_arg3 (c : Dev nD) : V6 m outs c main_arg3 = m ((c : Thread nD τ).loc main_arg3) :=
  (V6_of m outs c main_arg3 (by decide)).trans <|
    (V5_of m outs c main_arg3 (by decide)).trans <|
    (V4_of m outs c main_arg3 (by decide)).trans <|
    (V3_of m outs c main_arg3 (by decide)).trans <|
    (V2_of m outs c main_arg3 (by decide)).trans <|
    (V1_of m c main_arg3 (by decide))

/-! ## What region 0 finds -/

/-- Entry (n, d) of the 257-wide table: the features for d below 256, the target value at d = 256. -/
theorem V1_main_v0_apply (c : Dev nD) (n : Fin 262144) (d : Fin 257) :
    (V1 m c main_v0 : Vec F S262144x257 .f32) (ix2 n d)
      = if hd : d.val < 256 then (m ((c : Thread nD τ).loc main_arg1) : Vec F S262144x256 .f32) (ix2 n ⟨d.val, hd⟩)
        else (m ((c : Thread nD τ).loc main_arg2) : Vec F S262144x1 .f32) (ix2 n (0 : Fin 1)) :=
  (congrFun (s0_v0 (V0 m c)) (ix2 n d)).trans
    (widen_apply (α := Elt F .f32) (m ((c : Thread nD τ).loc main_arg1)) (m ((c : Thread nD τ).loc main_arg2))
      concatenates_S262144x256_S262144x1_S262144x257_d1 n d)

/-- Entry (n, d) of the 257-wide table: the features for d below 256, the target value at d = 256. -/
theorem V1_main_v1_apply (c : Dev nD) (n : Fin 262144) (d : Fin 257) :
    (V1 m c main_v1 : Vec F S262144x257 .f32) (ix2 n d)
      = if hd : d.val < 256 then (m ((c : Thread nD τ).loc main_arg4) : Vec F S262144x256 .f32) (ix2 n ⟨d.val, hd⟩)
        else (m ((c : Thread nD τ).loc main_arg5) : Vec F S262144x1 .f32) (ix2 n (0 : Fin 1)) :=
  (congrFun (s0_v1 (V0 m c)) (ix2 n d)).trans
    (widen_apply (α := Elt F .f32) (m ((c : Thread nD τ).loc main_arg4)) (m ((c : Thread nD τ).loc main_arg5))
      concatenates_S262144x256_S262144x1_S262144x257_d1 n d)

/-- The ids as one row: entry (0, n) is id n. -/
theorem V1_main_v2_apply (c : Dev nD) (n : Fin 262144) :
    (V1 m c main_v2 : Vec F S1x262144 .i32) (ix2 (0 : Fin 1) n)
      = (m ((c : Thread nD τ).loc main_arg0) : Vec F S262144 .i32) (ix1 n) :=
  (congrFun (s0_v2 (V0 m c)) (ix2 (0 : Fin 1) n)).trans
    (shapeCast_a_1a_apply (α := Elt F .i32) (m ((c : Thread nD τ).loc main_arg0)) shapeCasts_S262144_S1x262144 (0 : Fin 1) n)

/-! ## What region 1 finds -/

/-- The target rows' ids as one row: entry (0, n) is id n. -/
theorem V3_main_v4_apply (c : Dev nD) (n : Fin 262144) :
    (V3 m outs c main_v4 : Vec F S1x262144 .i32) (ix2 (0 : Fin 1) n)
      = (m ((c : Thread nD τ).loc main_arg3) : Vec F S262144 .i32) (ix1 n) :=
  (congrFun (s1_v4 (V2 m outs c)) (ix2 (0 : Fin 1) n)).trans <|
    (shapeCast_a_1a_apply (α := Elt F .i32) (V2 m outs c main_arg3) shapeCasts_S262144_S1x262144 (0 : Fin 1) n).trans
      (congrFun (V2_arg3 m outs c) (ix1 n))

/-- The target rows' 257-wide table is as the first stretch left it. -/
theorem V3_main_v1 (c : Dev nD) : V3 m outs c main_v1 = V1 m c main_v1 :=
  (V3_of m outs c main_v1 (by decide)).trans <|
    (V2_of m outs c main_v1 (by decide))

/-! ## What region 2 finds -/

/-- The context rows' ids as one row: entry (0, n) is id n. -/
theorem V5_main_v6_apply (c : Dev nD) (n : Fin 262144) :
    (V5 m outs c main_v6 : Vec F S1x262144 .i32) (ix2 (0 : Fin 1) n)
      = (m ((c : Thread nD τ).loc main_arg0) : Vec F S262144 .i32) (ix1 n) :=
  (congrFun (s2_v6 (V4 m outs c)) (ix2 (0 : Fin 1) n)).trans <|
    (shapeCast_a_1a_apply (α := Elt F .i32) (V4 m outs c main_arg0) shapeCasts_S262144_S1x262144 (0 : Fin 1) n).trans
      (congrFun (V4_arg0 m outs c) (ix1 n))

/-- The context rows' ids as one column: entry (n, 0) is id n. -/
theorem V5_main_v7_apply (c : Dev nD) (n : Fin 262144) :
    (V5 m outs c main_v7 : Vec F S262144x1 .i32) (ix2 n (0 : Fin 1))
      = (m ((c : Thread nD τ).loc main_arg0) : Vec F S262144 .i32) (ix1 n) :=
  (congrFun (s2_v7 (V4 m outs c)) (ix2 n (0 : Fin 1))).trans <|
    (col_apply (α := Elt F .i32) (V4 m outs c main_arg0) shapeCasts_S262144_S262144x1 n (0 : Fin 1)).trans
      (congrFun (V4_arg0 m outs c) (ix1 n))

/-- The context rows' 257-wide table is as the first stretch left it. -/
theorem V5_main_v0 (c : Dev nD) : V5 m outs c main_v0 = V1 m c main_v0 :=
  (V5_of m outs c main_v0 (by decide)).trans <|
    (V4_of m outs c main_v0 (by decide)).trans <|
    (V3_of m outs c main_v0 (by decide)).trans <|
    (V2_of m outs c main_v0 (by decide))

/-- The context anchors are what region 0 left. -/
theorem V5_main_v3 (c : Dev nD) : V5 m outs c main_v3 = outs 2 main_v3 c :=
  ((V5_of m outs c main_v3 (by decide)).trans <|
    (V4_of m outs c main_v3 (by decide)).trans <|
    (V3_of m outs c main_v3 (by decide))).trans (Function.update_self _ _ _)

/-! ## What region 3 finds -/

/-- The target rows' ids as one row: entry (0, n) is id n. -/
theorem V7_main_v9_apply (c : Dev nD) (n : Fin 262144) :
    (V7 m outs c main_v9 : Vec F S1x262144 .i32) (ix2 (0 : Fin 1) n)
      = (m ((c : Thread nD τ).loc main_arg3) : Vec F S262144 .i32) (ix1 n) :=
  (congrFun (s3_v9 (V6 m outs c)) (ix2 (0 : Fin 1) n)).trans <|
    (shapeCast_a_1a_apply (α := Elt F .i32) (V6 m outs c main_arg3) shapeCasts_S262144_S1x262144 (0 : Fin 1) n).trans
      (congrFun (V6_arg3 m outs c) (ix1 n))

/-- The target rows' ids as one column: entry (n, 0) is id n. -/
theorem V7_main_v10_apply (c : Dev nD) (n : Fin 262144) :
    (V7 m outs c main_v10 : Vec F S262144x1 .i32) (ix2 n (0 : Fin 1))
      = (m ((c : Thread nD τ).loc main_arg3) : Vec F S262144 .i32) (ix1 n) :=
  (congrFun (s3_v10 (V6 m outs c)) (ix2 n (0 : Fin 1))).trans <|
    (col_apply (α := Elt F .i32) (V6 m outs c main_arg3) shapeCasts_S262144_S262144x1 n (0 : Fin 1)).trans
      (congrFun (V6_arg3 m outs c) (ix1 n))

/-- The target rows' 257-wide table is as the first stretch left it. -/
theorem V7_main_v1 (c : Dev nD) : V7 m outs c main_v1 = V1 m c main_v1 :=
  (V7_of m outs c main_v1 (by decide)).trans <|
    (V6_of m outs c main_v1 (by decide)).trans <|
    (V5_of m outs c main_v1 (by decide)).trans <|
    (V4_of m outs c main_v1 (by decide)).trans <|
    (V3_of m outs c main_v1 (by decide)).trans <|
    (V2_of m outs c main_v1 (by decide))

/-- The target anchors are what region 1 left. -/
theorem V7_main_v5 (c : Dev nD) : V7 m outs c main_v5 = outs 4 main_v5 c :=
  ((V7_of m outs c main_v5 (by decide)).trans <|
    (V6_of m outs c main_v5 (by decide)).trans <|
    (V5_of m outs c main_v5 (by decide))).trans (Function.update_self _ _ _)

end Cert.Value.KHost

end
-- ==== Proof.Value.KernelHostHeads.lean ====
/-
  What the last kernel finds, and what the program returns.

  After the four mean kernels the host applies the cluster head to the context's and to the target's mean arrays,
  assembles the 269-wide group table the decoder kernel reads, and after the decoder splits its two output columns and
  forms the divergence between the two cluster distributions. Each buffer is followed from the stretch that writes it
  to where it is read: it is the named function of what the mean kernels left and of the launched weights.
-/
import proofs.«430159_j88974542504689_1_alg».proof.Proof.Gen.KernelIdeal.Regions
import proofs.«430159_j88974542504689_1_alg».proof.Proof.Value.KernelHostLayout
import proofs.«430159_j88974542504689_1_alg».proof.Proof.Value.KernelHostStretch

-- deciding that a reference is none of those a stretch writes recurses past the default depth
set_option maxRecDepth 1600

noncomputable section

namespace Cert.Value.KHost

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (outs : Outs (F := F))

/-- Argument 6 is still as launched. -/
theorem V8_arg6 (c : Dev nD) : V8 m outs c main_arg6 = m ((c : Thread nD τ).loc main_arg6) :=
  (V8_of m outs c main_arg6 (by decide)).trans <|
    (V7_of m outs c main_arg6 (by decide)).trans <|
    (V6_of m outs c main_arg6 (by decide)).trans <|
    (V5_of m outs c main_arg6 (by decide)).trans <|
    (V4_of m outs c main_arg6 (by decide)).trans <|
    (V3_of m outs c main_arg6 (by decide)).trans <|
    (V2_of m outs c main_arg6 (by decide)).trans <|
    (V1_of m c main_arg6 (by decide))

/-- Argument 7 is still as launched. -/
theorem V8_arg7 (c : Dev nD) : V8 m outs c main_arg7 = m ((c : Thread nD τ).loc main_arg7) :=
  (V8_of m outs c main_arg7 (by decide)).trans <|
    (V7_of m outs c main_arg7 (by decide)).trans <|
    (V6_of m outs c main_arg7 (by decide)).trans <|
    (V5_of m outs c main_arg7 (by decide)).trans <|
    (V4_of m outs c main_arg7 (by decide)).trans <|
    (V3_of m outs c main_arg7 (by decide)).trans <|
    (V2_of m outs c main_arg7 (by decide)).trans <|
    (V1_of m c main_arg7 (by decide))

/-- Argument 8 is still as launched. -/
theorem V8_arg8 (c : Dev nD) : V8 m outs c main_arg8 = m ((c : Thread nD τ).loc main_arg8) :=
  (V8_of m outs c main_arg8 (by decide)).trans <|
    (V7_of m outs c main_arg8 (by decide)).trans <|
    (V6_of m outs c main_arg8 (by decide)).trans <|
    (V5_of m outs c main_arg8 (by decide)).trans <|
    (V4_of m outs c main_arg8 (by decide)).trans <|
    (V3_of m outs c main_arg8 (by decide)).trans <|
    (V2_of m outs c main_arg8 (by decide)).trans <|
    (V1_of m c main_arg8 (by decide))

/-- Argument 9 is still as launched. -/
theorem V8_arg9 (c : Dev nD) : V8 m outs c main_arg9 = m ((c : Thread nD τ).loc main_arg9) :=
  (V8_of m outs c main_arg9 (by decide)).trans <|
    (V7_of m outs c main_arg9 (by decide)).trans <|
    (V6_of m outs c main_arg9 (by decide)).trans <|
    (V5_of m outs c main_arg9 (by decide)).trans <|
    (V4_of m outs c main_arg9 (by decide)).trans <|
    (V3_of m outs c main_arg9 (by decide)).trans <|
    (V2_of m outs c main_arg9 (by decide)).trans <|
    (V1_of m c main_arg9 (by decide))

/-- Argument 10 is still as launched. -/
theorem V10_arg10 (c : Dev nD) : V10 m outs c main_arg10 = m ((c : Thread nD τ).loc main_arg10) :=
  (V10_of m outs c main_arg10 (by decide)).trans <|
    (V9_of m outs c main_arg10 (by decide)).trans <|
    (V8_of m outs c main_arg10 (by decide)).trans <|
    (V7_of m outs c main_arg10 (by decide)).trans <|
    (V6_of m outs c main_arg10 (by decide)).trans <|
    (V5_of m outs c main_arg10 (by decide)).trans <|
    (V4_of m outs c main_arg10 (by decide)).trans <|
    (V3_of m outs c main_arg10 (by decide)).trans <|
    (V2_of m outs c main_arg10 (by decide)).trans <|
    (V1_of m c main_arg10 (by decide))

/-- Argument 11 is still as launched. -/
theorem V10_arg11 (c : Dev nD) : V10 m outs c main_arg11 = m ((c : Thread nD τ).loc main_arg11) :=
  (V10_of m outs c main_arg11 (by decide)).trans <|
    (V9_of m outs c main_arg11 (by decide)).trans <|
    (V8_of m outs c main_arg11 (by decide)).trans <|
    (V7_of m outs c main_arg11 (by decide)).trans <|
    (V6_of m outs c main_arg11 (by decide)).trans <|
    (V5_of m outs c main_arg11 (by decide)).trans <|
    (V4_of m outs c main_arg11 (by decide)).trans <|
    (V3_of m outs c main_arg11 (by decide)).trans <|
    (V2_of m outs c main_arg11 (by decide)).trans <|
    (V1_of m c main_arg11 (by decide))

/-- Argument 6 is still as launched. -/
theorem V14_arg6 (c : Dev nD) : V14 m outs c main_arg6 = m ((c : Thread nD τ).loc main_arg6) :=
  (V14_of m outs c main_arg6 (by decide)).trans <|
    (V13_of m outs c main_arg6 (by decide)).trans <|
    (V12_of m outs c main_arg6 (by decide)).trans <|
    (V11_of m outs c main_arg6 (by decide)).trans <|
    (V10_of m outs c main_arg6 (by decide)).trans <|
    (V9_of m outs c main_arg6 (by decide)).trans <|
    (V8_of m outs c main_arg6 (by decide)).trans <|
    (V7_of m outs c main_arg6 (by decide)).trans <|
    (V6_of m outs c main_arg6 (by decide)).trans <|
    (V5_of m outs c main_arg6 (by decide)).trans <|
    (V4_of m outs c main_arg6 (by decide)).trans <|
    (V3_of m outs c main_arg6 (by decide)).trans <|
    (V2_of m outs c main_arg6 (by decide)).trans <|
    (V1_of m c main_arg6 (by decide))

/-- Argument 7 is still as launched. -/
theorem V14_arg7 (c : Dev nD) : V14 m outs c main_arg7 = m ((c : Thread nD τ).loc main_arg7) :=
  (V14_of m outs c main_arg7 (by decide)).trans <|
    (V13_of m outs c main_arg7 (by decide)).trans <|
    (V12_of m outs c main_arg7 (by decide)).trans <|
    (V11_of m outs c main_arg7 (by decide)).trans <|
    (V10_of m outs c main_arg7 (by decide)).trans <|
    (V9_of m outs c main_arg7 (by decide)).trans <|
    (V8_of m outs c main_arg7 (by decide)).trans <|
    (V7_of m outs c main_arg7 (by decide)).trans <|
    (V6_of m outs c main_arg7 (by decide)).trans <|
    (V5_of m outs c main_arg7 (by decide)).trans <|
    (V4_of m outs c main_arg7 (by decide)).trans <|
    (V3_of m outs c main_arg7 (by decide)).trans <|
    (V2_of m outs c main_arg7 (by decide)).trans <|
    (V1_of m c main_arg7 (by decide))

/-- Argument 8 is still as launched. -/
theorem V14_arg8 (c : Dev nD) : V14 m outs c main_arg8 = m ((c : Thread nD τ).loc main_arg8) :=
  (V14_of m outs c main_arg8 (by decide)).trans <|
    (V13_of m outs c main_arg8 (by decide)).trans <|
    (V12_of m outs c main_arg8 (by decide)).trans <|
    (V11_of m outs c main_arg8 (by decide)).trans <|
    (V10_of m outs c main_arg8 (by decide)).trans <|
    (V9_of m outs c main_arg8 (by decide)).trans <|
    (V8_of m outs c main_arg8 (by decide)).trans <|
    (V7_of m outs c main_arg8 (by decide)).trans <|
    (V6_of m outs c main_arg8 (by decide)).trans <|
    (V5_of m outs c main_arg8 (by decide)).trans <|
    (V4_of m outs c main_arg8 (by decide)).trans <|
    (V3_of m outs c main_arg8 (by decide)).trans <|
    (V2_of m outs c main_arg8 (by decide)).trans <|
    (V1_of m c main_arg8 (by decide))

/-- Argument 9 is still as launched. -/
theorem V14_arg9 (c : Dev nD) : V14 m outs c main_arg9 = m ((c : Thread nD τ).loc main_arg9) :=
  (V14_of m outs c main_arg9 (by decide)).trans <|
    (V13_of m outs c main_arg9 (by decide)).trans <|
    (V12_of m outs c main_arg9 (by decide)).trans <|
    (V11_of m outs c main_arg9 (by decide)).trans <|
    (V10_of m outs c main_arg9 (by decide)).trans <|
    (V9_of m outs c main_arg9 (by decide)).trans <|
    (V8_of m outs c main_arg9 (by decide)).trans <|
    (V7_of m outs c main_arg9 (by decide)).trans <|
    (V6_of m outs c main_arg9 (by decide)).trans <|
    (V5_of m outs c main_arg9 (by decide)).trans <|
    (V4_of m outs c main_arg9 (by decide)).trans <|
    (V3_of m outs c main_arg9 (by decide)).trans <|
    (V2_of m outs c main_arg9 (by decide)).trans <|
    (V1_of m c main_arg9 (by decide))

/-- Argument 10 is still as launched. -/
theorem V16_arg10 (c : Dev nD) : V16 m outs c main_arg10 = m ((c : Thread nD τ).loc main_arg10) :=
  (V16_of m outs c main_arg10 (by decide)).trans <|
    (V15_of m outs c main_arg10 (by decide)).trans <|
    (V14_of m outs c main_arg10 (by decide)).trans <|
    (V13_of m outs c main_arg10 (by decide)).trans <|
    (V12_of m outs c main_arg10 (by decide)).trans <|
    (V11_of m outs c main_arg10 (by decide)).trans <|
    (V10_of m outs c main_arg10 (by decide)).trans <|
    (V9_of m outs c main_arg10 (by decide)).trans <|
    (V8_of m outs c main_arg10 (by decide)).trans <|
    (V7_of m outs c main_arg10 (by decide)).trans <|
    (V6_of m outs c main_arg10 (by decide)).trans <|
    (V5_of m outs c main_arg10 (by decide)).trans <|
    (V4_of m outs c main_arg10 (by decide)).trans <|
    (V3_of m outs c main_arg10 (by decide)).trans <|
    (V2_of m outs c main_arg10 (by decide)).trans <|
    (V1_of m c main_arg10 (by decide))

/-- Argument 11 is still as launched. -/
theorem V16_arg11 (c : Dev nD) : V16 m outs c main_arg11 = m ((c : Thread nD τ).loc main_arg11) :=
  (V16_of m outs c main_arg11 (by decide)).trans <|
    (V15_of m outs c main_arg11 (by decide)).trans <|
    (V14_of m outs c main_arg11 (by decide)).trans <|
    (V13_of m outs c main_arg11 (by decide)).trans <|
    (V12_of m outs c main_arg11 (by decide)).trans <|
    (V11_of m outs c main_arg11 (by decide)).trans <|
    (V10_of m outs c main_arg11 (by decide)).trans <|
    (V9_of m outs c main_arg11 (by decide)).trans <|
    (V8_of m outs c main_arg11 (by decide)).trans <|
    (V7_of m outs c main_arg11 (by decide)).trans <|
    (V6_of m outs c main_arg11 (by decide)).trans <|
    (V5_of m outs c main_arg11 (by decide)).trans <|
    (V4_of m outs c main_arg11 (by decide)).trans <|
    (V3_of m outs c main_arg11 (by decide)).trans <|
    (V2_of m outs c main_arg11 (by decide)).trans <|
    (V1_of m c main_arg11 (by decide))

/-- Argument 3 is still as launched. -/
theorem V20_arg3 (c : Dev nD) : V20 m outs c main_arg3 = m ((c : Thread nD τ).loc main_arg3) :=
  (V20_of m outs c main_arg3 (by decide)).trans <|
    (V19_of m outs c main_arg3 (by decide)).trans <|
    (V18_of m outs c main_arg3 (by decide)).trans <|
    (V17_of m outs c main_arg3 (by decide)).trans <|
    (V16_of m outs c main_arg3 (by decide)).trans <|
    (V15_of m outs c main_arg3 (by decide)).trans <|
    (V14_of m outs c main_arg3 (by decide)).trans <|
    (V13_of m outs c main_arg3 (by decide)).trans <|
    (V12_of m outs c main_arg3 (by decide)).trans <|
    (V11_of m outs c main_arg3 (by decide)).trans <|
    (V10_of m outs c main_arg3 (by decide)).trans <|
    (V9_of m outs c main_arg3 (by decide)).trans <|
    (V8_of m outs c main_arg3 (by decide)).trans <|
    (V7_of m outs c main_arg3 (by decide)).trans <|
    (V6_of m outs c main_arg3 (by decide)).trans <|
    (V5_of m outs c main_arg3 (by decide)).trans <|
    (V4_of m outs c main_arg3 (by decide)).trans <|
    (V3_of m outs c main_arg3 (by decide)).trans <|
    (V2_of m outs c main_arg3 (by decide)).trans <|
    (V1_of m c main_arg3 (by decide))

/-- Argument 13 is still as launched. -/
theorem V20_arg13 (c : Dev nD) : V20 m outs c main_arg13 = m ((c : Thread nD τ).loc main_arg13) :=
  (V20_of m outs c main_arg13 (by decide)).trans <|
    (V19_of m outs c main_arg13 (by decide)).trans <|
    (V18_of m outs c main_arg13 (by decide)).trans <|
    (V17_of m outs c main_arg13 (by decide)).trans <|
    (V16_of m outs c main_arg13 (by decide)).trans <|
    (V15_of m outs c main_arg13 (by decide)).trans <|
    (V14_of m outs c main_arg13 (by decide)).trans <|
    (V13_of m outs c main_arg13 (by decide)).trans <|
    (V12_of m outs c main_arg13 (by decide)).trans <|
    (V11_of m outs c main_arg13 (by decide)).trans <|
    (V10_of m outs c main_arg13 (by decide)).trans <|
    (V9_of m outs c main_arg13 (by decide)).trans <|
    (V8_of m outs c main_arg13 (by decide)).trans <|
    (V7_of m outs c main_arg13 (by decide)).trans <|
    (V6_of m outs c main_arg13 (by decide)).trans <|
    (V5_of m outs c main_arg13 (by decide)).trans <|
    (V4_of m outs c main_arg13 (by decide)).trans <|
    (V3_of m outs c main_arg13 (by decide)).trans <|
    (V2_of m outs c main_arg13 (by decide)).trans <|
    (V1_of m c main_arg13 (by decide))

/-- Argument 15 is still as launched. -/
theorem V20_arg15 (c : Dev nD) : V20 m outs c main_arg15 = m ((c : Thread nD τ).loc main_arg15) :=
  (V20_of m outs c main_arg15 (by decide)).trans <|
    (V19_of m outs c main_arg15 (by decide)).trans <|
    (V18_of m outs c main_arg15 (by decide)).trans <|
    (V17_of m outs c main_arg15 (by decide)).trans <|
    (V16_of m outs c main_arg15 (by decide)).trans <|
    (V15_of m outs c main_arg15 (by decide)).trans <|
    (V14_of m outs c main_arg15 (by decide)).trans <|
    (V13_of m outs c main_arg15 (by decide)).trans <|
    (V12_of m outs c main_arg15 (by decide)).trans <|
    (V11_of m outs c main_arg15 (by decide)).trans <|
    (V10_of m outs c main_arg15 (by decide)).trans <|
    (V9_of m outs c main_arg15 (by decide)).trans <|
    (V8_of m outs c main_arg15 (by decide)).trans <|
    (V7_of m outs c main_arg15 (by decide)).trans <|
    (V6_of m outs c main_arg15 (by decide)).trans <|
    (V5_of m outs c main_arg15 (by decide)).trans <|
    (V4_of m outs c main_arg15 (by decide)).trans <|
    (V3_of m outs c main_arg15 (by decide)).trans <|
    (V2_of m outs c main_arg15 (by decide)).trans <|
    (V1_of m c main_arg15 (by decide))

/-- Argument 4 is still as launched. -/
theorem V21_arg4 (c : Dev nD) : V21 m outs c main_arg4 = m ((c : Thread nD τ).loc main_arg4) :=
  (V21_of m outs c main_arg4 (by decide)).trans <|
    (V20_of m outs c main_arg4 (by decide)).trans <|
    (V19_of m outs c main_arg4 (by decide)).trans <|
    (V18_of m outs c main_arg4 (by decide)).trans <|
    (V17_of m outs c main_arg4 (by decide)).trans <|
    (V16_of m outs c main_arg4 (by decide)).trans <|
    (V15_of m outs c main_arg4 (by decide)).trans <|
    (V14_of m outs c main_arg4 (by decide)).trans <|
    (V13_of m outs c main_arg4 (by decide)).trans <|
    (V12_of m outs c main_arg4 (by decide)).trans <|
    (V11_of m outs c main_arg4 (by decide)).trans <|
    (V10_of m outs c main_arg4 (by decide)).trans <|
    (V9_of m outs c main_arg4 (by decide)).trans <|
    (V8_of m outs c main_arg4 (by decide)).trans <|
    (V7_of m outs c main_arg4 (by decide)).trans <|
    (V6_of m outs c main_arg4 (by decide)).trans <|
    (V5_of m outs c main_arg4 (by decide)).trans <|
    (V4_of m outs c main_arg4 (by decide)).trans <|
    (V3_of m outs c main_arg4 (by decide)).trans <|
    (V2_of m outs c main_arg4 (by decide)).trans <|
    (V1_of m c main_arg4 (by decide))

/-- Argument 12 is still as launched. -/
theorem V21_arg12 (c : Dev nD) : V21 m outs c main_arg12 = m ((c : Thread nD τ).loc main_arg12) :=
  (V21_of m outs c main_arg12 (by decide)).trans <|
    (V20_of m outs c main_arg12 (by decide)).trans <|
    (V19_of m outs c main_arg12 (by decide)).trans <|
    (V18_of m outs c main_arg12 (by decide)).trans <|
    (V17_of m outs c main_arg12 (by decide)).trans <|
    (V16_of m outs c main_arg12 (by decide)).trans <|
    (V15_of m outs c main_arg12 (by decide)).trans <|
    (V14_of m outs c main_arg12 (by decide)).trans <|
    (V13_of m outs c main_arg12 (by decide)).trans <|
    (V12_of m outs c main_arg12 (by decide)).trans <|
    (V11_of m outs c main_arg12 (by decide)).trans <|
    (V10_of m outs c main_arg12 (by decide)).trans <|
    (V9_of m outs c main_arg12 (by decide)).trans <|
    (V8_of m outs c main_arg12 (by decide)).trans <|
    (V7_of m outs c main_arg12 (by decide)).trans <|
    (V6_of m outs c main_arg12 (by decide)).trans <|
    (V5_of m outs c main_arg12 (by decide)).trans <|
    (V4_of m outs c main_arg12 (by decide)).trans <|
    (V3_of m outs c main_arg12 (by decide)).trans <|
    (V2_of m outs c main_arg12 (by decide)).trans <|
    (V1_of m c main_arg12 (by decide))

/-- Argument 14 is still as launched. -/
theorem V21_arg14 (c : Dev nD) : V21 m outs c main_arg14 = m ((c : Thread nD τ).loc main_arg14) :=
  (V21_of m outs c main_arg14 (by decide)).trans <|
    (V20_of m outs c main_arg14 (by decide)).trans <|
    (V19_of m outs c main_arg14 (by decide)).trans <|
    (V18_of m outs c main_arg14 (by decide)).trans <|
    (V17_of m outs c main_arg14 (by decide)).trans <|
    (V16_of m outs c main_arg14 (by decide)).trans <|
    (V15_of m outs c main_arg14 (by decide)).trans <|
    (V14_of m outs c main_arg14 (by decide)).trans <|
    (V13_of m outs c main_arg14 (by decide)).trans <|
    (V12_of m outs c main_arg14 (by decide)).trans <|
    (V11_of m outs c main_arg14 (by decide)).trans <|
    (V10_of m outs c main_arg14 (by decide)).trans <|
    (V9_of m outs c main_arg14 (by decide)).trans <|
    (V8_of m outs c main_arg14 (by decide)).trans <|
    (V7_of m outs c main_arg14 (by decide)).trans <|
    (V6_of m outs c main_arg14 (by decide)).trans <|
    (V5_of m outs c main_arg14 (by decide)).trans <|
    (V4_of m outs c main_arg14 (by decide)).trans <|
    (V3_of m outs c main_arg14 (by decide)).trans <|
    (V2_of m outs c main_arg14 (by decide)).trans <|
    (V1_of m c main_arg14 (by decide))

/-! ## What the kernels left, where the host reads it -/

/-- The context's mean array is what region 2 left. -/
theorem V8_v8 (c : Dev nD) : V8 m outs c main_v8 = outs 6 main_v8 c :=
  ((V8_of m outs c main_v8 (by decide)).trans <|
    (V7_of m outs c main_v8 (by decide))).trans (Function.update_self _ _ _)

/-- The target's mean array is what region 3 left. -/
theorem V14_v11 (c : Dev nD) : V14 m outs c main_v11 = outs 8 main_v11 c :=
  ((V14_of m outs c main_v11 (by decide)).trans <|
    (V13_of m outs c main_v11 (by decide)).trans <|
    (V12_of m outs c main_v11 (by decide)).trans <|
    (V11_of m outs c main_v11 (by decide)).trans <|
    (V10_of m outs c main_v11 (by decide)).trans <|
    (V9_of m outs c main_v11 (by decide))).trans (Function.update_self _ _ _)

/-- The target anchors are what region 1 left. -/
theorem V20_v5 (c : Dev nD) : V20 m outs c main_v5 = outs 4 main_v5 c :=
  ((V20_of m outs c main_v5 (by decide)).trans <|
    (V19_of m outs c main_v5 (by decide)).trans <|
    (V18_of m outs c main_v5 (by decide)).trans <|
    (V17_of m outs c main_v5 (by decide)).trans <|
    (V16_of m outs c main_v5 (by decide)).trans <|
    (V15_of m outs c main_v5 (by decide)).trans <|
    (V14_of m outs c main_v5 (by decide)).trans <|
    (V13_of m outs c main_v5 (by decide)).trans <|
    (V12_of m outs c main_v5 (by decide)).trans <|
    (V11_of m outs c main_v5 (by decide)).trans <|
    (V10_of m outs c main_v5 (by decide)).trans <|
    (V9_of m outs c main_v5 (by decide)).trans <|
    (V8_of m outs c main_v5 (by decide)).trans <|
    (V7_of m outs c main_v5 (by decide)).trans <|
    (V6_of m outs c main_v5 (by decide)).trans <|
    (V5_of m outs c main_v5 (by decide))).trans (Function.update_self _ _ _)

/-- The decoder's output is what region 4 left. -/
theorem V22_v91 (c : Dev nD) : V22 m outs c main_v91 = outs 22 main_v91 c :=
  Function.update_self _ _ _

/-! ## The context's head -/

/-- The context's hidden representation. -/
theorem V9_v16 (c : Dev nD) : V9 m outs c main_v16 = (Tails.rep (outs 6 main_v8 c) (m ((c : Thread nD τ).loc main_arg6)) (m ((c : Thread nD τ).loc main_arg7))) :=
  (s4_v16 (V8 m outs c)).trans (by rw [V8_v8 m outs c, V8_arg6 m outs c, V8_arg7 m outs c])

/-- The context's mixture logits. -/
theorem V9_v20 (c : Dev nD) : V9 m outs c main_v20 = (Tails.logits (Tails.rep (outs 6 main_v8 c) (m ((c : Thread nD τ).loc main_arg6)) (m ((c : Thread nD τ).loc main_arg7))) (m ((c : Thread nD τ).loc main_arg8)) (m ((c : Thread nD τ).loc main_arg9))) :=
  (s4_v20 (V8 m outs c)).trans (by rw [V8_v8 m outs c, V8_arg6 m outs c, V8_arg7 m outs c, V8_arg8 m outs c, V8_arg9 m outs c])

/-- The context's log mixture weights. -/
theorem V10_v32 (c : Dev nD) : V10 m outs c main_v32 = Tails.logp (Tails.logits (Tails.rep (outs 6 main_v8 c) (m ((c : Thread nD τ).loc main_arg6)) (m ((c : Thread nD τ).loc main_arg7))) (m ((c : Thread nD τ).loc main_arg8)) (m ((c : Thread nD τ).loc main_arg9))) :=
  (s4_1_v32 (V9 m outs c)).trans (by rw [V9_v20 m outs c])

/-- The context's hidden representation, one stretch on. -/
theorem V10_v16 (c : Dev nD) : V10 m outs c main_v16 = (Tails.rep (outs 6 main_v8 c) (m ((c : Thread nD τ).loc main_arg6)) (m ((c : Thread nD τ).loc main_arg7))) :=
  ((V10_of m outs c main_v16 (by decide))).trans (V9_v16 m outs c)

/-- The context's means. -/
theorem V11_v37 (c : Dev nD) : V11 m outs c main_v37 = Tails.pm (Tails.prec (Tails.rep (outs 6 main_v8 c) (m ((c : Thread nD τ).loc main_arg6)) (m ((c : Thread nD τ).loc main_arg7))) (m ((c : Thread nD τ).loc main_arg10)) (m ((c : Thread nD τ).loc main_arg11))) :=
  (s4_2_v37 (V10 m outs c)).trans (by rw [V10_v16 m outs c, V10_arg10 m outs c, V10_arg11 m outs c])

/-- The context's scales before softplus. -/
theorem V11_v38 (c : Dev nD) : V11 m outs c main_v38 = Tails.pls (Tails.prec (Tails.rep (outs 6 main_v8 c) (m ((c : Thread nD τ).loc main_arg6)) (m ((c : Thread nD τ).loc main_arg7))) (m ((c : Thread nD τ).loc main_arg10)) (m ((c : Thread nD τ).loc main_arg11))) :=
  (s4_2_v38 (V10 m outs c)).trans (by rw [V10_v16 m outs c, V10_arg10 m outs c, V10_arg11 m outs c])

/-- softplus of the context's scales. -/
theorem V12_v39 (c : Dev nD) : V12 m outs c main_v39 = Tails.sp (Tails.pls (Tails.prec (Tails.rep (outs 6 main_v8 c) (m ((c : Thread nD τ).loc main_arg6)) (m ((c : Thread nD τ).loc main_arg7))) (m ((c : Thread nD τ).loc main_arg10)) (m ((c : Thread nD τ).loc main_arg11)))) :=
  (s4_3_v39 (V11 m outs c)).trans (by rw [V11_v38 m outs c])

/-- The context's scales. -/
theorem V13_v43 (c : Dev nD) : V13 m outs c main_v43 = Tails.scaled (Tails.pls (Tails.prec (Tails.rep (outs 6 main_v8 c) (m ((c : Thread nD τ).loc main_arg6)) (m ((c : Thread nD τ).loc main_arg7))) (m ((c : Thread nD τ).loc main_arg10)) (m ((c : Thread nD τ).loc main_arg11)))) :=
  (s4_4_v43 (V12 m outs c)).trans (by rw [V12_v39 m outs c] <;> rfl)

/-! ## The target's head -/

/-- The target's hidden representation. -/
theorem V15_v53 (c : Dev nD) : V15 m outs c main_v53 = (Tails.rep (outs 8 main_v11 c) (m ((c : Thread nD τ).loc main_arg6)) (m ((c : Thread nD τ).loc main_arg7))) :=
  (s4_6_v53 (V14 m outs c)).trans (by rw [V14_v11 m outs c, V14_arg6 m outs c, V14_arg7 m outs c])

/-- The target's mixture logits. -/
theorem V15_v57 (c : Dev nD) : V15 m outs c main_v57 = (Tails.logits (Tails.rep (outs 8 main_v11 c) (m ((c : Thread nD τ).loc main_arg6)) (m ((c : Thread nD τ).loc main_arg7))) (m ((c : Thread nD τ).loc main_arg8)) (m ((c : Thread nD τ).loc main_arg9))) :=
  (s4_6_v57 (V14 m outs c)).trans (by rw [V14_v11 m outs c, V14_arg6 m outs c, V14_arg7 m outs c, V14_arg8 m outs c, V14_arg9 m outs c])

/-- The target's mixture weights. -/
theorem V15_v68 (c : Dev nD) : V15 m outs c main_v68 = Tails.prob (Tails.logits (Tails.rep (outs 8 main_v11 c) (m ((c : Thread nD τ).loc main_arg6)) (m ((c : Thread nD τ).loc main_arg7))) (m ((c : Thread nD τ).loc main_arg8)) (m ((c : Thread nD τ).loc main_arg9))) :=
  (s4_6_v68 (V14 m outs c)).trans (by rw [V14_v11 m outs c, V14_arg6 m outs c, V14_arg7 m outs c, V14_arg8 m outs c, V14_arg9 m outs c])

/-- The target's log mixture weights. -/
theorem V16_v69 (c : Dev nD) : V16 m outs c main_v69 = Tails.logp (Tails.logits (Tails.rep (outs 8 main_v11 c) (m ((c : Thread nD τ).loc main_arg6)) (m ((c : Thread nD τ).loc main_arg7))) (m ((c : Thread nD τ).loc main_arg8)) (m ((c : Thread nD τ).loc main_arg9))) :=
  (s4_7_v69 (V15 m outs c)).trans (by rw [V15_v57 m outs c])

/-- The target's hidden representation, one stretch on. -/
theorem V16_v53 (c : Dev nD) : V16 m outs c main_v53 = (Tails.rep (outs 8 main_v11 c) (m ((c : Thread nD τ).loc main_arg6)) (m ((c : Thread nD τ).loc main_arg7))) :=
  ((V16_of m outs c main_v53 (by decide))).trans (V15_v53 m outs c)

/-- The target's means. -/
theorem V17_v74 (c : Dev nD) : V17 m outs c main_v74 = Tails.pm (Tails.prec (Tails.rep (outs 8 main_v11 c) (m ((c : Thread nD τ).loc main_arg6)) (m ((c : Thread nD τ).loc main_arg7))) (m ((c : Thread nD τ).loc main_arg10)) (m ((c : Thread nD τ).loc main_arg11))) :=
  (s4_8_v74 (V16 m outs c)).trans (by rw [V16_v53 m outs c, V16_arg10 m outs c, V16_arg11 m outs c])

/-- The target's scales before softplus. -/
theorem V17_v75 (c : Dev nD) : V17 m outs c main_v75 = Tails.pls (Tails.prec (Tails.rep (outs 8 main_v11 c) (m ((c : Thread nD τ).loc main_arg6)) (m ((c : Thread nD τ).loc main_arg7))) (m ((c : Thread nD τ).loc main_arg10)) (m ((c : Thread nD τ).loc main_arg11))) :=
  (s4_8_v75 (V16 m outs c)).trans (by rw [V16_v53 m outs c, V16_arg10 m outs c, V16_arg11 m outs c])

/-- softplus of the target's scales. -/
theorem V18_v76 (c : Dev nD) : V18 m outs c main_v76 = Tails.sp (Tails.pls (Tails.prec (Tails.rep (outs 8 main_v11 c) (m ((c : Thread nD τ).loc main_arg6)) (m ((c : Thread nD τ).loc main_arg7))) (m ((c : Thread nD τ).loc main_arg10)) (m ((c : Thread nD τ).loc main_arg11)))) :=
  (s4_9_v76 (V17 m outs c)).trans (by rw [V17_v75 m outs c])

/-- The target's scales. -/
theorem V19_v80 (c : Dev nD) : V19 m outs c main_v80 = Tails.scaled (Tails.pls (Tails.prec (Tails.rep (outs 8 main_v11 c) (m ((c : Thread nD τ).loc main_arg6)) (m ((c : Thread nD τ).loc main_arg7))) (m ((c : Thread nD τ).loc main_arg10)) (m ((c : Thread nD τ).loc main_arg11)))) :=
  (s4_10_v80 (V18 m outs c)).trans (by rw [V18_v76 m outs c] <;> rfl)

/-- The target's means, two stretches on. -/
theorem V19_v74 (c : Dev nD) : V19 m outs c main_v74 = Tails.pm (Tails.prec (Tails.rep (outs 8 main_v11 c) (m ((c : Thread nD τ).loc main_arg6)) (m ((c : Thread nD τ).loc main_arg7))) (m ((c : Thread nD τ).loc main_arg10)) (m ((c : Thread nD τ).loc main_arg11))) :=
  ((V19_of m outs c main_v74 (by decide)).trans <|
    (V18_of m outs c main_v74 (by decide))).trans (V17_v74 m outs c)

/-- softplus of the target's means' columns. -/
theorem V20_v81 (c : Dev nD) : V20 m outs c main_v81 = Tails.sp (Tails.pm (Tails.prec (Tails.rep (outs 8 main_v11 c) (m ((c : Thread nD τ).loc main_arg6)) (m ((c : Thread nD τ).loc main_arg7))) (m ((c : Thread nD τ).loc main_arg10)) (m ((c : Thread nD τ).loc main_arg11)))) :=
  (s4_11_v81 (V19 m outs c)).trans (by rw [V19_v74 m outs c])

/-- The target's mixture weights, where the group table is assembled. -/
theorem V20_v68 (c : Dev nD) : V20 m outs c main_v68 = Tails.prob (Tails.logits (Tails.rep (outs 8 main_v11 c) (m ((c : Thread nD τ).loc main_arg6)) (m ((c : Thread nD τ).loc main_arg7))) (m ((c : Thread nD τ).loc main_arg8)) (m ((c : Thread nD τ).loc main_arg9))) :=
  ((V20_of m outs c main_v68 (by decide)).trans <|
    (V19_of m outs c main_v68 (by decide)).trans <|
    (V18_of m outs c main_v68 (by decide)).trans <|
    (V17_of m outs c main_v68 (by decide)).trans <|
    (V16_of m outs c main_v68 (by decide))).trans (V15_v68 m outs c)

/-! ## What region 4 finds -/

/-- The target's scales on the means' columns. -/
theorem V21_v85 (c : Dev nD) : V21 m outs c main_v85 = (Tails.tScale (outs 8 main_v11 c) (m ((c : Thread nD τ).loc main_arg6)) (m ((c : Thread nD τ).loc main_arg7)) (m ((c : Thread nD τ).loc main_arg10)) (m ((c : Thread nD τ).loc main_arg11))) :=
  (s4_12_v85 (V20 m outs c)).trans (by rw [V20_v81 m outs c] <;> rfl)

set_option maxHeartbeats 1000000 in
/-- The group table as the four tables laid side by side. -/
theorem V21_v87 (c : Dev nD) : V21 m outs c main_v87
    = concatenate S1024x269 1
        [⟨S1024x257, outs 4 main_v5 c⟩, ⟨S1024x4, (Tails.tProb (outs 8 main_v11 c) (m ((c : Thread nD τ).loc main_arg6)) (m ((c : Thread nD τ).loc main_arg7)) (m ((c : Thread nD τ).loc main_arg8)) (m ((c : Thread nD τ).loc main_arg9)))⟩,
          ⟨S1024x4, (Tails.tScale (outs 8 main_v11 c) (m ((c : Thread nD τ).loc main_arg6)) (m ((c : Thread nD τ).loc main_arg7)) (m ((c : Thread nD τ).loc main_arg10)) (m ((c : Thread nD τ).loc main_arg11)))⟩,
          ⟨S1024x4, Tails.tsp (Tails.tScale (outs 8 main_v11 c) (m ((c : Thread nD τ).loc main_arg6)) (m ((c : Thread nD τ).loc main_arg7)) (m ((c : Thread nD τ).loc main_arg10)) (m ((c : Thread nD τ).loc main_arg11))) (Tails.tProb (outs 8 main_v11 c) (m ((c : Thread nD τ).loc main_arg6)) (m ((c : Thread nD τ).loc main_arg7)) (m ((c : Thread nD τ).loc main_arg8)) (m ((c : Thread nD τ).loc main_arg9)))⟩]
        concatenates_S1024x257_S1024x4_S1024x4_S1024x4_S1024x269_d1 :=
  (s4_12_v87 (V20 m outs c)).trans (by rw [V20_v5 m outs c, V20_v68 m outs c, V20_v81 m outs c] <;> rfl)

/-- The group table at one entry: the target anchors' means in columns 0..256, the mixture weights in 257..260, the
    scales in 261..264, their products in 265..268. -/
theorem V21_main_v87_apply (c : Dev nD) (g : Fin 1024) (j : Fin 269) :
    (V21 m outs c main_v87 : Vec F S1024x269 .f32) (ix2 g j)
      = if h0 : j.val < 257 then (outs 4 main_v5 c : Vec F S1024x257 .f32) (ix2 g ⟨j.val, h0⟩)
        else if h1 : j.val < 261 then (Tails.tProb (outs 8 main_v11 c) (m ((c : Thread nD τ).loc main_arg6)) (m ((c : Thread nD τ).loc main_arg7)) (m ((c : Thread nD τ).loc main_arg8)) (m ((c : Thread nD τ).loc main_arg9))) (ix2 g ⟨j.val - 257, by omega⟩)
        else if h2 : j.val < 265 then (Tails.tScale (outs 8 main_v11 c) (m ((c : Thread nD τ).loc main_arg6)) (m ((c : Thread nD τ).loc main_arg7)) (m ((c : Thread nD τ).loc main_arg10)) (m ((c : Thread nD τ).loc main_arg11))) (ix2 g ⟨j.val - 261, by omega⟩)
        else Tails.tsp (Tails.tScale (outs 8 main_v11 c) (m ((c : Thread nD τ).loc main_arg6)) (m ((c : Thread nD τ).loc main_arg7)) (m ((c : Thread nD τ).loc main_arg10)) (m ((c : Thread nD τ).loc main_arg11))) (Tails.tProb (outs 8 main_v11 c) (m ((c : Thread nD τ).loc main_arg6)) (m ((c : Thread nD τ).loc main_arg7)) (m ((c : Thread nD τ).loc main_arg8)) (m ((c : Thread nD τ).loc main_arg9)))
          (ix2 g ⟨j.val - 265, by have := j.isLt; omega⟩) :=
  (congrFun (V21_v87 m outs c) (ix2 g j)).trans
    (table_apply (α := Elt F .f32) (outs 4 main_v5 c) (Tails.tProb (outs 8 main_v11 c) (m ((c : Thread nD τ).loc main_arg6)) (m ((c : Thread nD τ).loc main_arg7)) (m ((c : Thread nD τ).loc main_arg8)) (m ((c : Thread nD τ).loc main_arg9)))
      (Tails.tScale (outs 8 main_v11 c) (m ((c : Thread nD τ).loc main_arg6)) (m ((c : Thread nD τ).loc main_arg7)) (m ((c : Thread nD τ).loc main_arg10)) (m ((c : Thread nD τ).loc main_arg11)))
      (Tails.tsp (Tails.tScale (outs 8 main_v11 c) (m ((c : Thread nD τ).loc main_arg6)) (m ((c : Thread nD τ).loc main_arg7)) (m ((c : Thread nD τ).loc main_arg10)) (m ((c : Thread nD τ).loc main_arg11))) (Tails.tProb (outs 8 main_v11 c) (m ((c : Thread nD τ).loc main_arg6)) (m ((c : Thread nD τ).loc main_arg7)) (m ((c : Thread nD τ).loc main_arg8)) (m ((c : Thread nD τ).loc main_arg9))))
      concatenates_S1024x257_S1024x4_S1024x4_S1024x4_S1024x269_d1 g j)

/-- The target rows' ids as one column: entry (n, 0) is id n. -/
theorem V21_main_v88_apply (c : Dev nD) (n : Fin 262144) :
    (V21 m outs c main_v88 : Vec F S262144x1 .i32) (ix2 n (0 : Fin 1))
      = (m ((c : Thread nD τ).loc main_arg3) : Vec F S262144 .i32) (ix1 n) :=
  (congrFun (s4_12_v88 (V20 m outs c)) (ix2 n (0 : Fin 1))).trans <|
    (col_apply (α := Elt F .i32) (V20 m outs c main_arg3) shapeCasts_S262144_S262144x1 n (0 : Fin 1)).trans
      (congrFun (V20_arg3 m outs c) (ix1 n))

/-- The decoder's first bias as one row: entry (0, j) is entry j. -/
theorem V21_main_v89_apply (c : Dev nD) (j : Fin 128) :
    (V21 m outs c main_v89 : Vec F S1x128 .f32) (ix2 (0 : Fin 1) j)
      = (m ((c : Thread nD τ).loc main_arg13) : Vec F S128 .f32) (ix1 j) :=
  (congrFun (s4_12_v89 (V20 m outs c)) (ix2 (0 : Fin 1) j)).trans <|
    (shapeCast_a_1a_apply (α := Elt F .f32) (V20 m outs c main_arg13) shapeCasts_S128_S1x128 (0 : Fin 1) j).trans
      (congrFun (V20_arg13 m outs c) (ix1 j))

/-- The decoder's second bias as one row: entry (0, k) is entry k. -/
theorem V21_main_v90_apply (c : Dev nD) (k : Fin 8) :
    (V21 m outs c main_v90 : Vec F S1x8 .f32) (ix2 (0 : Fin 1) k)
      = (m ((c : Thread nD τ).loc main_arg15) : Vec F S8 .f32) (ix1 k) :=
  (congrFun (s4_12_v90 (V20 m outs c)) (ix2 (0 : Fin 1) k)).trans <|
    (shapeCast_a_1a_apply (α := Elt F .f32) (V20 m outs c main_arg15) shapeCasts_S8_S1x8 (0 : Fin 1) k).trans
      (congrFun (V20_arg15 m outs c) (ix1 k))

/-! ## The results -/

/-- The first result: the first column of what region 4 left. -/
theorem V23_main_v92_apply (c : Dev nD) (n : Fin 262144) :
    (V23 m outs c main_v92 : Vec F S262144x1 .f32) (ix2 n (0 : Fin 1))
      = (outs 22 main_v91 c : Vec F S262144x2 .f32) (ix2 n (0 : Fin 2)) :=
  (congrFun (s5_v92 (V22 m outs c)) (ix2 n (0 : Fin 1))).trans <|
    (column_apply (α := Elt F .f32) 0 (V22 m outs c main_v91) slices_S262144x2_S262144x1_0_0 n (0 : Fin 1) (0 : Fin 2) rfl).trans
      (congrFun (V22_v91 m outs c) (ix2 n (0 : Fin 2)))

/-- The second result: the second column of what region 4 left. -/
theorem V23_main_v94_apply (c : Dev nD) (n : Fin 262144) :
    (V23 m outs c main_v94 : Vec F S262144 .f32) (ix1 n)
      = (outs 22 main_v91 c : Vec F S262144x2 .f32) (ix2 n (1 : Fin 2)) :=
  (congrFun (s5_v94 (V22 m outs c)) (ix1 n)).trans <|
    (uncol_apply (α := Elt F .f32)
      (extractStridedSlice S262144x1 ![0, 1] (V22 m outs c main_v91) slices_S262144x2_S262144x1_0_1)
      shapeCasts_S262144x1_S262144 n).trans <|
    (column_apply (α := Elt F .f32) 1 (V22 m outs c main_v91) slices_S262144x2_S262144x1_0_1 n (0 : Fin 1) (1 : Fin 2) rfl).trans
      (congrFun (V22_v91 m outs c) (ix2 n (1 : Fin 2)))

/-- The third result: the target's mixture weights. -/
theorem V23_main_v68 (c : Dev nD) : V23 m outs c main_v68 = (Tails.tProb (outs 8 main_v11 c) (m ((c : Thread nD τ).loc main_arg6)) (m ((c : Thread nD τ).loc main_arg7)) (m ((c : Thread nD τ).loc main_arg8)) (m ((c : Thread nD τ).loc main_arg9))) :=
  ((V23_of m outs c main_v68 (by decide)).trans <|
    (V22_of m outs c main_v68 (by decide)).trans <|
    (V21_of m outs c main_v68 (by decide)).trans <|
    (V20_of m outs c main_v68 (by decide)).trans <|
    (V19_of m outs c main_v68 (by decide)).trans <|
    (V18_of m outs c main_v68 (by decide)).trans <|
    (V17_of m outs c main_v68 (by decide)).trans <|
    (V16_of m outs c main_v68 (by decide))).trans (V15_v68 m outs c)

/-- The fourth result: the target's hidden representation. -/
theorem V23_main_v53 (c : Dev nD) : V23 m outs c main_v53 = (Tails.tRep (outs 8 main_v11 c) (m ((c : Thread nD τ).loc main_arg6)) (m ((c : Thread nD τ).loc main_arg7))) :=
  ((V23_of m outs c main_v53 (by decide)).trans <|
    (V22_of m outs c main_v53 (by decide)).trans <|
    (V21_of m outs c main_v53 (by decide)).trans <|
    (V20_of m outs c main_v53 (by decide)).trans <|
    (V19_of m outs c main_v53 (by decide)).trans <|
    (V18_of m outs c main_v53 (by decide)).trans <|
    (V17_of m outs c main_v53 (by decide)).trans <|
    (V16_of m outs c main_v53 (by decide))).trans (V15_v53 m outs c)

/-- The sixth result: the target's scales on the means' columns. -/
theorem V23_main_v85 (c : Dev nD) : V23 m outs c main_v85 = (Tails.tScale (outs 8 main_v11 c) (m ((c : Thread nD τ).loc main_arg6)) (m ((c : Thread nD τ).loc main_arg7)) (m ((c : Thread nD τ).loc main_arg10)) (m ((c : Thread nD τ).loc main_arg11))) :=
  ((V23_of m outs c main_v85 (by decide)).trans <|
    (V22_of m outs c main_v85 (by decide))).trans (V21_v85 m outs c)

/-- The target's mixture weights, where the divergence is formed. -/
theorem V22_v68 (c : Dev nD) : V22 m outs c main_v68 = Tails.prob (Tails.logits (Tails.rep (outs 8 main_v11 c) (m ((c : Thread nD τ).loc main_arg6)) (m ((c : Thread nD τ).loc main_arg7))) (m ((c : Thread nD τ).loc main_arg8)) (m ((c : Thread nD τ).loc main_arg9))) :=
  ((V22_of m outs c main_v68 (by decide)).trans <|
    (V21_of m outs c main_v68 (by decide)).trans <|
    (V20_of m outs c main_v68 (by decide)).trans <|
    (V19_of m outs c main_v68 (by decide)).trans <|
    (V18_of m outs c main_v68 (by decide)).trans <|
    (V17_of m outs c main_v68 (by decide)).trans <|
    (V16_of m outs c main_v68 (by decide))).trans (V15_v68 m outs c)

/-- The target's log mixture weights, where the divergence is formed. -/
theorem V22_v69 (c : Dev nD) : V22 m outs c main_v69 = Tails.logp (Tails.logits (Tails.rep (outs 8 main_v11 c) (m ((c : Thread nD τ).loc main_arg6)) (m ((c : Thread nD τ).loc main_arg7))) (m ((c : Thread nD τ).loc main_arg8)) (m ((c : Thread nD τ).loc main_arg9))) :=
  ((V22_of m outs c main_v69 (by decide)).trans <|
    (V21_of m outs c main_v69 (by decide)).trans <|
    (V20_of m outs c main_v69 (by decide)).trans <|
    (V19_of m outs c main_v69 (by decide)).trans <|
    (V18_of m outs c main_v69 (by decide)).trans <|
    (V17_of m outs c main_v69 (by decide))).trans (V16_v69 m outs c)

/-- The context's log mixture weights, where the divergence is formed. -/
theorem V22_v32 (c : Dev nD) : V22 m outs c main_v32 = Tails.logp (Tails.logits (Tails.rep (outs 6 main_v8 c) (m ((c : Thread nD τ).loc main_arg6)) (m ((c : Thread nD τ).loc main_arg7))) (m ((c : Thread nD τ).loc main_arg8)) (m ((c : Thread nD τ).loc main_arg9))) :=
  ((V22_of m outs c main_v32 (by decide)).trans <|
    (V21_of m outs c main_v32 (by decide)).trans <|
    (V20_of m outs c main_v32 (by decide)).trans <|
    (V19_of m outs c main_v32 (by decide)).trans <|
    (V18_of m outs c main_v32 (by decide)).trans <|
    (V17_of m outs c main_v32 (by decide)).trans <|
    (V16_of m outs c main_v32 (by decide)).trans <|
    (V15_of m outs c main_v32 (by decide)).trans <|
    (V14_of m outs c main_v32 (by decide)).trans <|
    (V13_of m outs c main_v32 (by decide)).trans <|
    (V12_of m outs c main_v32 (by decide)).trans <|
    (V11_of m outs c main_v32 (by decide))).trans (V10_v32 m outs c)

/-- The context's scales, where the divergence is formed. -/
theorem V22_v43 (c : Dev nD) : V22 m outs c main_v43 = Tails.scaled (Tails.pls (Tails.prec (Tails.rep (outs 6 main_v8 c) (m ((c : Thread nD τ).loc main_arg6)) (m ((c : Thread nD τ).loc main_arg7))) (m ((c : Thread nD τ).loc main_arg10)) (m ((c : Thread nD τ).loc main_arg11)))) :=
  ((V22_of m outs c main_v43 (by decide)).trans <|
    (V21_of m outs c main_v43 (by decide)).trans <|
    (V20_of m outs c main_v43 (by decide)).trans <|
    (V19_of m outs c main_v43 (by decide)).trans <|
    (V18_of m outs c main_v43 (by decide)).trans <|
    (V17_of m outs c main_v43 (by decide)).trans <|
    (V16_of m outs c main_v43 (by decide)).trans <|
    (V15_of m outs c main_v43 (by decide)).trans <|
    (V14_of m outs c main_v43 (by decide))).trans (V13_v43 m outs c)

/-- The target's scales, where the divergence is formed. -/
theorem V22_v80 (c : Dev nD) : V22 m outs c main_v80 = Tails.scaled (Tails.pls (Tails.prec (Tails.rep (outs 8 main_v11 c) (m ((c : Thread nD τ).loc main_arg6)) (m ((c : Thread nD τ).loc main_arg7))) (m ((c : Thread nD τ).loc main_arg10)) (m ((c : Thread nD τ).loc main_arg11)))) :=
  ((V22_of m outs c main_v80 (by decide)).trans <|
    (V21_of m outs c main_v80 (by decide)).trans <|
    (V20_of m outs c main_v80 (by decide))).trans (V19_v80 m outs c)

/-- The target's means, where the divergence is formed. -/
theorem V22_v74 (c : Dev nD) : V22 m outs c main_v74 = Tails.pm (Tails.prec (Tails.rep (outs 8 main_v11 c) (m ((c : Thread nD τ).loc main_arg6)) (m ((c : Thread nD τ).loc main_arg7))) (m ((c : Thread nD τ).loc main_arg10)) (m ((c : Thread nD τ).loc main_arg11))) :=
  ((V22_of m outs c main_v74 (by decide)).trans <|
    (V21_of m outs c main_v74 (by decide)).trans <|
    (V20_of m outs c main_v74 (by decide)).trans <|
    (V19_of m outs c main_v74 (by decide)).trans <|
    (V18_of m outs c main_v74 (by decide))).trans (V17_v74 m outs c)

/-- The context's means, where the divergence is formed. -/
theorem V22_v37 (c : Dev nD) : V22 m outs c main_v37 = Tails.pm (Tails.prec (Tails.rep (outs 6 main_v8 c) (m ((c : Thread nD τ).loc main_arg6)) (m ((c : Thread nD τ).loc main_arg7))) (m ((c : Thread nD τ).loc main_arg10)) (m ((c : Thread nD τ).loc main_arg11))) :=
  ((V22_of m outs c main_v37 (by decide)).trans <|
    (V21_of m outs c main_v37 (by decide)).trans <|
    (V20_of m outs c main_v37 (by decide)).trans <|
    (V19_of m outs c main_v37 (by decide)).trans <|
    (V18_of m outs c main_v37 (by decide)).trans <|
    (V17_of m outs c main_v37 (by decide)).trans <|
    (V16_of m outs c main_v37 (by decide)).trans <|
    (V15_of m outs c main_v37 (by decide)).trans <|
    (V14_of m outs c main_v37 (by decide)).trans <|
    (V13_of m outs c main_v37 (by decide)).trans <|
    (V12_of m outs c main_v37 (by decide))).trans (V11_v37 m outs c)

set_option maxHeartbeats 1000000 in
/-- The fifth result: the per-group divergence of the target's cluster distribution from the context's. -/
theorem V23_main_v112 (c : Dev nD) : V23 m outs c main_v112
    = Tails.distKlOf (outs 6 main_v8 c) (outs 8 main_v11 c) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) :=
  (s5_v112 (V22 m outs c)).trans (by
    rw [V22_v68 m outs c, V22_v69 m outs c, V22_v32 m outs c, V22_v43 m outs c, V22_v80 m outs c, V22_v74 m outs c,
      V22_v37 m outs c] <;> rfl)

end Cert.Value.KHost

end
-- ==== Proof.KI.R0Step.lean ====
/- REGION 0: what the anchor kernel's body leaves at a point, opened to the kernel's named values — one step of the
   accumulation as a function of the point's block of rows, its row of segment indices, and the running sums and
   counts it starts from (zeros at the first point). -/
import proofs.«430159_j88974542504689_1_alg».proof.Proof.KI.R0Frame
import Idealize.ShloMosaic.Lib.Pipeline.Value

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Every access of the body is at offset zero of its buffer. -/
theorem hz0 : (![0, 0] : Fin 2 → Nat) = fun _ => 0 := funext fun a => by fin_cases a <;> rfl

/-! ## What each case leaves, as the kernel's named values -/

/-- A later point adds the block's contribution onto the sums it found. -/
theorem sums0_B (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) :
    sout0_B_0 c i arg1 harg1 arg2 harg2 arg3 harg3 arg4 harg4 arg5 harg5 hc0 x0 x1 xs0 xs1 = k0_pay4 x1 x0 xs0 := by
  unfold sout0_B_0
  rw [View.read_writes_eq_canon _ _ _ (scover0_B_0 c i arg1 harg1 arg2 harg2 arg3 harg3 arg4 harg4 arg5 harg5 hc0 x0 x1 xs0 xs1)]
  unfold kernelRun0_B
  dsimp only
  try sl_unfold_words
  rw [View.canon_unit_zero hz0]
  simp only [View.readCov_cons_toLoadRect, View.readCov_unit_zero (S := S1024x257) _ hz0, View.readCov_unit_zero (S := S1024x1) _ hz0, View.readAt_eq_ld, harg1.read_unread, harg2.read_unread, harg4.read_unread, harg5.read_unread, View.ld_unit_zero (S := S1024x257) hz0, View.ld_unit_zero (S := S1x1024) hz0, View.ld_unit_zero (S := S1024x1) hz0]

/-- A later point adds the block's contribution onto the counts it found. -/
theorem counts0_B (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) :
    sout0_B_1 c i arg1 harg1 arg2 harg2 arg3 harg3 arg4 harg4 arg5 harg5 hc0 x0 x1 xs0 xs1 = k0_pay5 x1 xs1 := by
  unfold sout0_B_1
  rw [View.read_writes_eq_canon _ _ _ (scover0_B_1 c i arg1 harg1 arg2 harg2 arg3 harg3 arg4 harg4 arg5 harg5 hc0 x0 x1 xs0 xs1)]
  unfold kernelRun0_B
  dsimp only
  try sl_unfold_words
  rw [View.canon_unit_zero hz0]
  simp only [View.readCov_cons_toLoadRect, View.readCov_unit_zero (S := S1024x257) _ hz0, View.readCov_unit_zero (S := S1024x1) _ hz0, View.readAt_eq_ld, harg1.read_unread, harg2.read_unread, harg4.read_unread, harg5.read_unread, View.ld_unit_zero (S := S1024x257) hz0, View.ld_unit_zero (S := S1x1024) hz0, View.ld_unit_zero (S := S1024x1) hz0]

/-- A later point's output block: the new sums over the new counts. -/
theorem outv0_B (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond0_0 i)
    (x0 : Vec F S1024x257 .f32) (x1 : Vec F S1x1024 .i32) (xs0 : Vec F S1024x257 .f32) (xs1 : Vec F S1024x1 .f32) :
    out0_B_2 c i arg1 harg1 arg2 harg2 arg3 harg3 arg4 harg4 arg5 harg5 hc0 x0 x1 xs0 xs1 = k0_pay6 (k0_pay4 x1 x0 xs0) (k0_pay5 x1 xs1) := by
  unfold out0_B_2
  rw [View.read_writes_eq_canon _ _ _ (cover0_B_2 c i arg1 harg1 arg2 harg2 arg3 harg3 arg4 harg4 arg5 harg5 hc0 x0 x1 xs0 xs1)]
  unfold kernelRun0_B
  dsimp only
  try sl_unfold_words
  rw [View.canon_unit_zero hz0]
  simp only [View.readCov_cons_toLoadRect, View.readCov_unit_zero (S := S1024x257) _ hz0, View.readCov_unit_zero (S := S1024x1) _ hz0, View.readAt_eq_ld, harg1.read_unread, harg2.read_unread, harg4.read_unread, harg5.read_unread, View.ld_unit_zero (S := S1024x257) hz0, View.ld_unit_zero (S := S1x1024) hz0, View.ld_unit_zero (S := S1024x1) hz0]

/-- The first point adds the block's contribution onto zero sums. -/
theorem sums0_A (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) :
    sout0_A_0 c i arg1 harg1 arg2 harg2 arg3 harg3 arg4 harg4 arg5 harg5 hc0 x0 x1 = k0_pay4 x1 x0 k0_pay1 := by
  unfold sout0_A_0
  rw [View.read_writes_eq_canon _ _ _ (scover0_A_0 c i arg1 harg1 arg2 harg2 arg3 harg3 arg4 harg4 arg5 harg5 hc0 x0 x1)]
  unfold kernelRun0_A
  dsimp only
  try sl_unfold_words
  rw [View.canon_cons_unit_zero (S := S1024x257) hz0]
  simp only [View.readCov_cons_toLoadRect, View.readCov_unit_zero (S := S1024x257) _ hz0, View.readCov_unit_zero (S := S1024x1) _ hz0, View.readAt_eq_ld, harg1.read_unread, harg2.read_unread, harg4.read_unread, harg5.read_unread, View.ld_unit_zero (S := S1024x257) hz0, View.ld_unit_zero (S := S1x1024) hz0, View.ld_unit_zero (S := S1024x1) hz0]

/-- The first point adds the block's contribution onto zero counts. -/
theorem counts0_A (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) :
    sout0_A_1 c i arg1 harg1 arg2 harg2 arg3 harg3 arg4 harg4 arg5 harg5 hc0 x0 x1 = k0_pay5 x1 k0_pay2 := by
  unfold sout0_A_1
  rw [View.read_writes_eq_canon _ _ _ (scover0_A_1 c i arg1 harg1 arg2 harg2 arg3 harg3 arg4 harg4 arg5 harg5 hc0 x0 x1)]
  unfold kernelRun0_A
  dsimp only
  try sl_unfold_words
  rw [View.canon_cons_unit_zero (S := S1024x1) hz0]
  simp only [View.readCov_cons_toLoadRect, View.readCov_unit_zero (S := S1024x257) _ hz0, View.readCov_unit_zero (S := S1024x1) _ hz0, View.readAt_eq_ld, harg1.read_unread, harg2.read_unread, harg4.read_unread, harg5.read_unread, View.ld_unit_zero (S := S1024x257) hz0, View.ld_unit_zero (S := S1x1024) hz0, View.ld_unit_zero (S := S1024x1) hz0]

/-- The first point's output block: the new sums over the new counts. -/
theorem outv0_A (c : Dev nD) (i : grid0.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond0_0 i)
    (x0 : Vec F S1024x257 .f32) (x1 : Vec F S1x1024 .i32) :
    out0_A_2 c i arg1 harg1 arg2 harg2 arg3 harg3 arg4 harg4 arg5 harg5 hc0 x0 x1 = k0_pay6 (k0_pay4 x1 x0 k0_pay1) (k0_pay5 x1 k0_pay2) := by
  unfold out0_A_2
  rw [View.read_writes_eq_canon _ _ _ (cover0_A_2 c i arg1 harg1 arg2 harg2 arg3 harg3 arg4 harg4 arg5 harg5 hc0 x0 x1)]
  unfold kernelRun0_A
  dsimp only
  try sl_unfold_words
  rw [View.canon_unit_zero hz0]
  simp only [View.readCov_cons_toLoadRect, View.readCov_unit_zero (S := S1024x257) _ hz0, View.readCov_unit_zero (S := S1024x1) _ hz0, View.readAt_eq_ld, harg1.read_unread, harg2.read_unread, harg4.read_unread, harg5.read_unread, View.ld_unit_zero (S := S1024x257) hz0, View.ld_unit_zero (S := S1x1024) hz0, View.ld_unit_zero (S := S1024x1) hz0]

/-! ## One step of the accumulation -/

/-- One step of the accumulation: from the block of rows `x`, the row of segment indices `ids`, the running sums
    `s` and the running counts `k`, the new sums and counts (each the old plus the block's contribution) and the
    output block (the new sums divided by the new counts, the counts floored at one). -/
def anchorStep0 (x : Vec F S1024x257 .f32) (ids : Vec F S1x1024 .i32) (s : Vec F S1024x257 .f32) (k : Vec F S1024x1 .f32) :
    Vec F S1024x257 .f32 × Vec F S1024x257 .f32 × Vec F S1024x1 .f32 :=
  (k0_pay6 (k0_pay4 ids x s) (k0_pay5 ids k), k0_pay4 ids x s, k0_pay5 ids k)

/-- The first point's triple is one step from zero sums and zero counts. -/
theorem stepA0_eq (c : Dev nD) (t : Fin cfg0.N) (hc0 : cond0_0 (grid0.coords t)) :
    stepA0 V c t hc0 = anchorStep0 (xblk0 V c t) (idblk0 V c t) k0_pay1 k0_pay2 := by
  unfold stepA0 anchorStep0
  exact congrArg₂ Prod.mk (outv0_A c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t))
    (congrArg₂ Prod.mk (sums0_A c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t)) (counts0_A c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t)))

/-- A later point's triple is one step from the sums and counts it found. -/
theorem stepB0_eq (c : Dev nD) (t : Fin cfg0.N) (hc0 : ¬cond0_0 (grid0.coords t)) (xs0 : Vec F S1024x257 .f32) (xs1 : Vec F S1024x1 .f32) :
    stepB0 V c t hc0 xs0 xs1 = anchorStep0 (xblk0 V c t) (idblk0 V c t) xs0 xs1 := by
  unfold stepB0 anchorStep0
  exact congrArg₂ Prod.mk (outv0_B c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t) xs0 xs1)
    (congrArg₂ Prod.mk (sums0_B c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t) xs0 xs1) (counts0_B c (grid0.coords t) (ms0_0 t) (hs0_0 t) (ms0_1 t) (hs0_1 t) (ms0_2 t) (hs0_2 t) scM0_0 (Memref.isWhole_whole _) scM0_1 (Memref.isWhole_whole _) hc0 (xblk0 V c t) (idblk0 V c t) xs0 xs1))

/-- The first point: one step from zero sums and zero counts. -/
theorem outsAt0_first (c : Dev nD) (h : 0 < cfg0.N) :
    outsAt0 V c 0 h = anchorStep0 (xblk0 V c ⟨0, h⟩) (idblk0 V c ⟨0, h⟩) k0_pay1 k0_pay2 :=
  stepA0_eq V c ⟨0, h⟩ ((hcond0_0 ⟨0, h⟩).mpr rfl)

/-- A later point: one step from what the point before left. -/
theorem outsAt0_next (c : Dev nD) (n : ℕ) (h : n + 1 < cfg0.N) :
    outsAt0 V c (n + 1) h = anchorStep0 (xblk0 V c ⟨n + 1, h⟩) (idblk0 V c ⟨n + 1, h⟩)
      (outsAt0 V c n (Nat.lt_of_succ_lt h)).2.1 (outsAt0 V c n (Nat.lt_of_succ_lt h)).2.2 :=
  stepB0_eq V c ⟨n + 1, h⟩ (fun hh => Nat.succ_ne_zero n ((hcond0_0 ⟨n + 1, h⟩).mp hh))
    (outsAt0 V c n (Nat.lt_of_succ_lt h)).2.1 (outsAt0 V c n (Nat.lt_of_succ_lt h)).2.2

end Cert.KernelIdeal.Hand

end
-- ==== Proof.Value.AnchorMath.lean ====
/-
  The anchor kernels' arithmetic, one block at a time, over the extended reals.

  A block carries 1024 rows of 257 features and the rows' 1024 group ids. The one-hot table of the ids has entry (g, r)
  one when row r's id is the word of group g and zero otherwise; its product with the block adds to each group's running
  sums the block's rows of that group, its product with a column of ones adds to each group's running count the number
  of such rows, and the block the step leaves is the sums over the larger of the count and one. Casts between the two
  float formats are identities here and a product into a zero accumulator is the exact sum over the 1024 rows.
  Both anchor kernels (context rows, target rows) are the same text; every statement is made once for each.
-/
import proofs.«430159_j88974542504689_1_alg».proof.Proof.Gen.KernelIdeal.Skeleton
import proofs.«430159_j88974542504689_1_alg».proof.Proof.Value.Spec
import Idealize.ShloMosaic.PureOps.Ideal
import Idealize.ShloMosaic.PureOps.Ideal.Laws
import Idealize.ShloMosaic.Lib.ValueIdx
import Idealize.ShloMosaic.Lib.IdealHost
import Idealize.ShloMosaic.Lib.Affine
import Idealize.ShloMosaic.Lib.Pipeline.Value

noncomputable section

open scoped BigOperators

namespace Cert.Value

open Idealize.ShloMosaic Idealize.ShloMosaic.ValueIdx Cert.KernelIdeal Cert.KernelIdeal.Gen

/-! ## Words and layouts at an index -/

/-- A one-bit word widened to 32 bits and read as a signed integer is one or zero. -/
theorem bit_toEReal (b : BitVec 1) : (((b.setWidth 32).toInt : ℝ) : EReal) = if b = 1#1 then 1 else 0 := by
  rcases BitVec.eq_zero_or_eq_one b with h | h
  · subst h
    have e : ((0#1 : BitVec 1).setWidth 32).toInt = 0 := by decide
    rw [e, if_neg (by decide)]; simp
  · subst h
    have e : ((1#1 : BitVec 1).setWidth 32).toInt = 1 := by decide
    rw [e, if_pos rfl]; simp

/-- The row counter of a 1024 × 1024 array reads the word of its row. -/
theorem rowIota_apply (h : S1024x1024.Iotas .tc 32 [0]) (g r : Fin 1024) :
    iota .tc S1024x1024 32 [0] h (ix2 g r) = Spec.gw g :=
  iota_single_apply .tc S1024x1024 32 0 h (ix2 g r)

/-- A row of 1024 words repeated down 1024 rows reads the row's entry of the column. -/
theorem rowBcast_apply {α : Type} (x : S1x1024.Idx → α) (h : S1x1024.Broadcasts S1024x1024) (g r : Fin 1024) :
    broadcastTo S1024x1024 x h (ix2 g r) = x (ix2 0 r) :=
  broadcastTo_apply x h (ix2 g r) (ix2 0 r) (fun a => match a with
    | ⟨0, _⟩ => by show (0 : ℕ) = if (1 : ℕ) = 1 then 0 else _; rw [if_pos rfl]
    | ⟨1, _⟩ => by show r.val = if (1024 : ℕ) = 1 then 0 else r.val; rw [if_neg (by decide)])

/-- A column of 1024 entries repeated across 257 columns reads the column's entry of the row. -/
theorem colBcast_apply {α : Type} (x : S1024x1.Idx → α) (h : S1024x1.Broadcasts S1024x257) (g : Fin 1024) (d : Fin 257) :
    broadcastTo S1024x257 x h (ix2 g d) = x (ix2 g 0) :=
  broadcastTo_apply x h (ix2 g d) (ix2 g 0) (fun a => match a with
    | ⟨0, _⟩ => by show g.val = if (1024 : ℕ) = 1 then 0 else g.val; rw [if_neg (by decide)]
    | ⟨1, _⟩ => by show (0 : ℕ) = if (1 : ℕ) = 1 then 0 else _; rw [if_pos rfl])

/-! ## The two products with the one-hot table -/

theorem lhsS_0 (i : S1024x257.Idx) (q : dot_S1024x1024_S1024x257_S1024x257_1_0_0_1_n_n.contr.Idx) :
    (dot_S1024x1024_S1024x257_S1024x257_1_0_0_1_n_n.lhsIdx i q 0).val = (i 0).val := by
  unfold DotDims.lhsIdx
  rw [dif_neg (show ¬(0 : Fin S1024x1024.rank) ∈ dot_S1024x1024_S1024x257_S1024x257_1_0_0_1_n_n.lhsBatch by decide), dif_pos (show (0 : Fin S1024x1024.rank) ∈ dot_S1024x1024_S1024x257_S1024x257_1_0_0_1_n_n.lhsNonContracting by decide)]
  rfl
theorem lhsS_1 (i : S1024x257.Idx) (q : dot_S1024x1024_S1024x257_S1024x257_1_0_0_1_n_n.contr.Idx) :
    (dot_S1024x1024_S1024x257_S1024x257_1_0_0_1_n_n.lhsIdx i q 1).val = (q ⟨0, by decide⟩).val :=
  dot_S1024x1024_S1024x257_S1024x257_1_0_0_1_n_n.lhsIdx_val_of_single rfl i q
theorem rhsS_0 (i : S1024x257.Idx) (q : dot_S1024x1024_S1024x257_S1024x257_1_0_0_1_n_n.contr.Idx) :
    (dot_S1024x1024_S1024x257_S1024x257_1_0_0_1_n_n.rhsIdx i q 0).val = (q ⟨0, by decide⟩).val :=
  dot_S1024x1024_S1024x257_S1024x257_1_0_0_1_n_n.rhsIdx_val_of_single rfl i q
theorem rhsS_1 (i : S1024x257.Idx) (q : dot_S1024x1024_S1024x257_S1024x257_1_0_0_1_n_n.contr.Idx) :
    (dot_S1024x1024_S1024x257_S1024x257_1_0_0_1_n_n.rhsIdx i q 1).val = (i 1).val := by
  unfold DotDims.rhsIdx
  rw [dif_neg (show ¬(1 : Fin S1024x257.rank) ∈ dot_S1024x1024_S1024x257_S1024x257_1_0_0_1_n_n.rhsBatch by decide), dif_pos (show (1 : Fin S1024x257.rank) ∈ dot_S1024x1024_S1024x257_S1024x257_1_0_0_1_n_n.rhsNonContracting by decide)]
  rfl

/-- The table times a 1024 × 257 block into a zero accumulator, at (g, d): the sum over the block's rows. -/
theorem tableTimesBlock_apply (l : FVec Ideal S1024x1024 .bf16) (x : FVec Ideal S1024x257 .bf16) (g : Fin 1024) (d : Fin 257) :
    matmul dot_S1024x1024_S1024x257_S1024x257_1_0_0_1_n_n none l x (constant (F := Ideal) S1024x257 .f32 0x00000000#32) (ix2 g d)
      = ∑ r : Fin 1024, l (ix2 g r) * x (ix2 r d) := by
  simp only [matmul]
  rw [Ideal.matmul_constant_zero_apply, ← Equiv.sum_comp (contrEquiv1 dot_S1024x1024_S1024x257_S1024x257_1_0_0_1_n_n 1024 rfl rfl).symm]
  refine Finset.sum_congr rfl fun k _ => ?_
  have hk := contrEquiv1_symm_val dot_S1024x1024_S1024x257_S1024x257_1_0_0_1_n_n 1024 rfl rfl k
  have el : dot_S1024x1024_S1024x257_S1024x257_1_0_0_1_n_n.lhsIdx (ix2 g d) ((contrEquiv1 dot_S1024x1024_S1024x257_S1024x257_1_0_0_1_n_n 1024 rfl rfl).symm k) = ix2 g k := funext fun a => Fin.ext (by
    match a with
    | ⟨0, _⟩ => exact lhsS_0 _ _
    | ⟨1, _⟩ => exact (lhsS_1 _ _).trans hk)
  have er : dot_S1024x1024_S1024x257_S1024x257_1_0_0_1_n_n.rhsIdx (ix2 g d) ((contrEquiv1 dot_S1024x1024_S1024x257_S1024x257_1_0_0_1_n_n 1024 rfl rfl).symm k) = ix2 k d := funext fun a => Fin.ext (by
    match a with
    | ⟨0, _⟩ => exact (rhsS_0 _ _).trans hk
    | ⟨1, _⟩ => exact rhsS_1 _ _)
  rw [el, er]

theorem lhsC_0 (i : S1024x1.Idx) (q : dot_S1024x1024_S1024x1_S1024x1_1_0_0_1_n_n.contr.Idx) :
    (dot_S1024x1024_S1024x1_S1024x1_1_0_0_1_n_n.lhsIdx i q 0).val = (i 0).val := by
  unfold DotDims.lhsIdx
  rw [dif_neg (show ¬(0 : Fin S1024x1024.rank) ∈ dot_S1024x1024_S1024x1_S1024x1_1_0_0_1_n_n.lhsBatch by decide), dif_pos (show (0 : Fin S1024x1024.rank) ∈ dot_S1024x1024_S1024x1_S1024x1_1_0_0_1_n_n.lhsNonContracting by decide)]
  rfl
theorem lhsC_1 (i : S1024x1.Idx) (q : dot_S1024x1024_S1024x1_S1024x1_1_0_0_1_n_n.contr.Idx) :
    (dot_S1024x1024_S1024x1_S1024x1_1_0_0_1_n_n.lhsIdx i q 1).val = (q ⟨0, by decide⟩).val :=
  dot_S1024x1024_S1024x1_S1024x1_1_0_0_1_n_n.lhsIdx_val_of_single rfl i q
theorem rhsC_0 (i : S1024x1.Idx) (q : dot_S1024x1024_S1024x1_S1024x1_1_0_0_1_n_n.contr.Idx) :
    (dot_S1024x1024_S1024x1_S1024x1_1_0_0_1_n_n.rhsIdx i q 0).val = (q ⟨0, by decide⟩).val :=
  dot_S1024x1024_S1024x1_S1024x1_1_0_0_1_n_n.rhsIdx_val_of_single rfl i q
theorem rhsC_1 (i : S1024x1.Idx) (q : dot_S1024x1024_S1024x1_S1024x1_1_0_0_1_n_n.contr.Idx) :
    (dot_S1024x1024_S1024x1_S1024x1_1_0_0_1_n_n.rhsIdx i q 1).val = (i 1).val := by
  unfold DotDims.rhsIdx
  rw [dif_neg (show ¬(1 : Fin S1024x1.rank) ∈ dot_S1024x1024_S1024x1_S1024x1_1_0_0_1_n_n.rhsBatch by decide), dif_pos (show (1 : Fin S1024x1.rank) ∈ dot_S1024x1024_S1024x1_S1024x1_1_0_0_1_n_n.rhsNonContracting by decide)]
  rfl

/-- The table times a column of 1024 entries into a zero accumulator, at row g. -/
theorem tableTimesColumn_apply (l : FVec Ideal S1024x1024 .bf16) (y : FVec Ideal S1024x1 .bf16) (g : Fin 1024) :
    matmul dot_S1024x1024_S1024x1_S1024x1_1_0_0_1_n_n none l y (constant (F := Ideal) S1024x1 .f32 0x00000000#32) (ix2 g 0)
      = ∑ r : Fin 1024, l (ix2 g r) * y (ix2 r 0) := by
  simp only [matmul]
  rw [Ideal.matmul_constant_zero_apply, ← Equiv.sum_comp (contrEquiv1 dot_S1024x1024_S1024x1_S1024x1_1_0_0_1_n_n 1024 rfl rfl).symm]
  refine Finset.sum_congr rfl fun k _ => ?_
  have hk := contrEquiv1_symm_val dot_S1024x1024_S1024x1_S1024x1_1_0_0_1_n_n 1024 rfl rfl k
  have el : dot_S1024x1024_S1024x1_S1024x1_1_0_0_1_n_n.lhsIdx (ix2 g 0) ((contrEquiv1 dot_S1024x1024_S1024x1_S1024x1_1_0_0_1_n_n 1024 rfl rfl).symm k) = ix2 g k := funext fun a => Fin.ext (by
    match a with
    | ⟨0, _⟩ => exact lhsC_0 _ _
    | ⟨1, _⟩ => exact (lhsC_1 _ _).trans hk)
  have er : dot_S1024x1024_S1024x1_S1024x1_1_0_0_1_n_n.rhsIdx (ix2 g 0) ((contrEquiv1 dot_S1024x1024_S1024x1_S1024x1_1_0_0_1_n_n 1024 rfl rfl).symm k) = ix2 k 0 := funext fun a => Fin.ext (by
    match a with
    | ⟨0, _⟩ => exact (rhsC_0 _ _).trans hk
    | ⟨1, _⟩ => exact rhsC_1 _ _)
  rw [el, er]

/-! ## The one-hot table of a block of ids -/

/-- Entry (g, r) of the one-hot table: one when row r's id is the word of g, else zero. -/
theorem onehot0_apply (ids : Vec Ideal S1x1024 .i32) (g r : Fin 1024) :
    k0_pay3 (F := Ideal) ids (ix2 g r) = if ids (ix2 0 r) = Spec.gw g then 1 else 0 := by
  show ((((IntOp.cmpi .eq (iota .tc S1024x1024 32 [0] iota_S1024x1024_d0_w32 (ix2 g r))
      (broadcastTo S1024x1024 (shapeCast S1x1024 (shapeCast S1x1024 ids shapeCasts_S1x1024_S1x1024) shapeCasts_S1x1024_S1x1024)
        broadcasts_S1x1024_S1024x1024 (ix2 g r))).setWidth 32).toInt : ℝ) : EReal) = _
  rw [rowIota_apply, shapeCast_self, shapeCast_self, rowBcast_apply, bit_toEReal]
  by_cases h : ids (ix2 0 r) = Spec.gw g
  · rw [if_pos h, if_pos (IntOp.cmpi_eq.mpr h.symm)]
  · rw [if_neg h, if_neg (fun h' => h (IntOp.cmpi_eq.mp h').symm)]

/-! ## The step's three results at an index -/

/-- The cleared sums. -/
theorem zeroSums0_apply (g : Fin 1024) (d : Fin 257) : k0_pay1 (F := Ideal) (ix2 g d) = 0 := by
  show shapeCast S1024x257 (broadcast S1024x257 (Ideal.ofBits .f32 0x00000000#32)) shapeCasts_S1024x257_S1024x257 (ix2 g d) = _
  rw [shapeCast_self]
  exact Ideal.ofBits_zero_f32

/-- The cleared counts. -/
theorem zeroCounts0_apply (g : Fin 1024) : k0_pay2 (F := Ideal) (ix2 g 0) = 0 := by
  show shapeCast S1024x1 (broadcast S1024x1 (Ideal.ofBits .f32 0x00000000#32)) shapeCasts_S1024x1_S1024x1 (ix2 g 0) = _
  rw [shapeCast_self]
  exact Ideal.ofBits_zero_f32

/-- The running sums after a block: each group gains the block's rows of that group. -/
theorem sums0_apply (ids : Vec Ideal S1x1024 .i32) (x s : Vec Ideal S1024x257 .f32) (g : Fin 1024) (d : Fin 257) :
    k0_pay4 (F := Ideal) ids x s (ix2 g d)
      = s (ix2 g d) + ∑ r : Fin 1024, (if ids (ix2 0 r) = Spec.gw g then x (ix2 r d) else 0) := by
  show shapeCast S1024x257 (addf (F := Ideal) s (matmul dot_S1024x1024_S1024x257_S1024x257_1_0_0_1_n_n none (k0_pay3 (F := Ideal) ids)
      (truncf (F := Ideal) .bf16 (shapeCast S1024x257 x shapeCasts_S1024x257_S1024x257) bitsLt_bf16_f32)
      (constant (F := Ideal) S1024x257 .f32 0x00000000#32))) shapeCasts_S1024x257_S1024x257 (ix2 g d) = _
  rw [shapeCast_self, shapeCast_self]
  show s (ix2 g d) + matmul dot_S1024x1024_S1024x257_S1024x257_1_0_0_1_n_n none (k0_pay3 (F := Ideal) ids)
      (truncf (F := Ideal) .bf16 x bitsLt_bf16_f32) (constant (F := Ideal) S1024x257 .f32 0x00000000#32) (ix2 g d) = _
  rw [tableTimesBlock_apply]
  refine congrArg (s (ix2 g d) + ·) (Finset.sum_congr rfl fun r _ => ?_)
  rw [onehot0_apply]
  show (if ids (ix2 0 r) = Spec.gw g then (1 : EReal) else 0) * x (ix2 r d) = _
  by_cases h : ids (ix2 0 r) = Spec.gw g
  · rw [if_pos h, if_pos h, one_mul]
  · rw [if_neg h, if_neg h, zero_mul]

/-- The running counts after a block: each group gains the number of the block's rows of that group. -/
theorem counts0_apply (ids : Vec Ideal S1x1024 .i32) (k : Vec Ideal S1024x1 .f32) (g : Fin 1024) :
    k0_pay5 (F := Ideal) ids k (ix2 g 0)
      = k (ix2 g 0) + ∑ r : Fin 1024, (if ids (ix2 0 r) = Spec.gw g then (1 : EReal) else 0) := by
  show shapeCast S1024x1 (addf (F := Ideal) k (matmul dot_S1024x1024_S1024x1_S1024x1_1_0_0_1_n_n none (k0_pay3 (F := Ideal) ids)
      (broadcast S1024x1 (Ideal.ofBits .bf16 0x3F80#16))
      (constant (F := Ideal) S1024x1 .f32 0x00000000#32))) shapeCasts_S1024x1_S1024x1 (ix2 g 0) = _
  rw [shapeCast_self]
  show k (ix2 g 0) + matmul dot_S1024x1024_S1024x1_S1024x1_1_0_0_1_n_n none (k0_pay3 (F := Ideal) ids)
      (broadcast S1024x1 (Ideal.ofBits .bf16 0x3F80#16)) (constant (F := Ideal) S1024x1 .f32 0x00000000#32) (ix2 g 0) = _
  rw [tableTimesColumn_apply]
  refine congrArg (k (ix2 g 0) + ·) (Finset.sum_congr rfl fun r _ => ?_)
  rw [onehot0_apply]
  show (if ids (ix2 0 r) = Spec.gw g then (1 : EReal) else 0) * Ideal.ofBits .bf16 0x3F80#16 = _
  rw [Ideal.ofBits_one_bf16, mul_one]

/-- The mean: the sums over the larger of the count and one. -/
theorem mean0_apply (s : Vec Ideal S1024x257 .f32) (k : Vec Ideal S1024x1 .f32) (g : Fin 1024) (d : Fin 257) :
    k0_pay6 (F := Ideal) s k (ix2 g d) = Ideal.div (s (ix2 g d)) (max (k (ix2 g 0)) 1) := by
  show Ideal.div (s (ix2 g d)) (broadcastTo S1024x257 (maximumf (F := Ideal) k (broadcast S1024x1 (Ideal.ofBits .f32 0x3F800000#32)))
      broadcasts_S1024x1_S1024x257 (ix2 g d)) = _
  rw [colBcast_apply, Ideal.ofBits_one_f32]
  rfl

/-! ## The same table in the second anchor kernel -/

/-- Entry (g, r) of the one-hot table: one when row r's id is the word of g, else zero. -/
theorem onehot1_apply (ids : Vec Ideal S1x1024 .i32) (g r : Fin 1024) :
    k1_pay3 (F := Ideal) ids (ix2 g r) = if ids (ix2 0 r) = Spec.gw g then 1 else 0 := by
  show ((((IntOp.cmpi .eq (iota .tc S1024x1024 32 [0] iota_S1024x1024_d0_w32 (ix2 g r))
      (broadcastTo S1024x1024 (shapeCast S1x1024 (shapeCast S1x1024 ids shapeCasts_S1x1024_S1x1024) shapeCasts_S1x1024_S1x1024)
        broadcasts_S1x1024_S1024x1024 (ix2 g r))).setWidth 32).toInt : ℝ) : EReal) = _
  rw [rowIota_apply, shapeCast_self, shapeCast_self, rowBcast_apply, bit_toEReal]
  by_cases h : ids (ix2 0 r) = Spec.gw g
  · rw [if_pos h, if_pos (IntOp.cmpi_eq.mpr h.symm)]
  · rw [if_neg h, if_neg (fun h' => h (IntOp.cmpi_eq.mp h').symm)]

/-! ## The second anchor kernel's step at an index -/

/-- The cleared sums. -/
theorem zeroSums1_apply (g : Fin 1024) (d : Fin 257) : k1_pay1 (F := Ideal) (ix2 g d) = 0 := by
  show shapeCast S1024x257 (broadcast S1024x257 (Ideal.ofBits .f32 0x00000000#32)) shapeCasts_S1024x257_S1024x257 (ix2 g d) = _
  rw [shapeCast_self]
  exact Ideal.ofBits_zero_f32

/-- The cleared counts. -/
theorem zeroCounts1_apply (g : Fin 1024) : k1_pay2 (F := Ideal) (ix2 g 0) = 0 := by
  show shapeCast S1024x1 (broadcast S1024x1 (Ideal.ofBits .f32 0x00000000#32)) shapeCasts_S1024x1_S1024x1 (ix2 g 0) = _
  rw [shapeCast_self]
  exact Ideal.ofBits_zero_f32

/-- The running sums after a block: each group gains the block's rows of that group. -/
theorem sums1_apply (ids : Vec Ideal S1x1024 .i32) (x s : Vec Ideal S1024x257 .f32) (g : Fin 1024) (d : Fin 257) :
    k1_pay4 (F := Ideal) ids x s (ix2 g d)
      = s (ix2 g d) + ∑ r : Fin 1024, (if ids (ix2 0 r) = Spec.gw g then x (ix2 r d) else 0) := by
  show shapeCast S1024x257 (addf (F := Ideal) s (matmul dot_S1024x1024_S1024x257_S1024x257_1_0_0_1_n_n none (k1_pay3 (F := Ideal) ids)
      (truncf (F := Ideal) .bf16 (shapeCast S1024x257 x shapeCasts_S1024x257_S1024x257) bitsLt_bf16_f32)
      (constant (F := Ideal) S1024x257 .f32 0x00000000#32))) shapeCasts_S1024x257_S1024x257 (ix2 g d) = _
  rw [shapeCast_self, shapeCast_self]
  show s (ix2 g d) + matmul dot_S1024x1024_S1024x257_S1024x257_1_0_0_1_n_n none (k1_pay3 (F := Ideal) ids)
      (truncf (F := Ideal) .bf16 x bitsLt_bf16_f32) (constant (F := Ideal) S1024x257 .f32 0x00000000#32) (ix2 g d) = _
  rw [tableTimesBlock_apply]
  refine congrArg (s (ix2 g d) + ·) (Finset.sum_congr rfl fun r _ => ?_)
  rw [onehot1_apply]
  show (if ids (ix2 0 r) = Spec.gw g then (1 : EReal) else 0) * x (ix2 r d) = _
  by_cases h : ids (ix2 0 r) = Spec.gw g
  · rw [if_pos h, if_pos h, one_mul]
  · rw [if_neg h, if_neg h, zero_mul]

/-- The running counts after a block: each group gains the number of the block's rows of that group. -/
theorem counts1_apply (ids : Vec Ideal S1x1024 .i32) (k : Vec Ideal S1024x1 .f32) (g : Fin 1024) :
    k1_pay5 (F := Ideal) ids k (ix2 g 0)
      = k (ix2 g 0) + ∑ r : Fin 1024, (if ids (ix2 0 r) = Spec.gw g then (1 : EReal) else 0) := by
  show shapeCast S1024x1 (addf (F := Ideal) k (matmul dot_S1024x1024_S1024x1_S1024x1_1_0_0_1_n_n none (k1_pay3 (F := Ideal) ids)
      (broadcast S1024x1 (Ideal.ofBits .bf16 0x3F80#16))
      (constant (F := Ideal) S1024x1 .f32 0x00000000#32))) shapeCasts_S1024x1_S1024x1 (ix2 g 0) = _
  rw [shapeCast_self]
  show k (ix2 g 0) + matmul dot_S1024x1024_S1024x1_S1024x1_1_0_0_1_n_n none (k1_pay3 (F := Ideal) ids)
      (broadcast S1024x1 (Ideal.ofBits .bf16 0x3F80#16)) (constant (F := Ideal) S1024x1 .f32 0x00000000#32) (ix2 g 0) = _
  rw [tableTimesColumn_apply]
  refine congrArg (k (ix2 g 0) + ·) (Finset.sum_congr rfl fun r _ => ?_)
  rw [onehot1_apply]
  show (if ids (ix2 0 r) = Spec.gw g then (1 : EReal) else 0) * Ideal.ofBits .bf16 0x3F80#16 = _
  rw [Ideal.ofBits_one_bf16, mul_one]

/-- The mean: the sums over the larger of the count and one. -/
theorem mean1_apply (s : Vec Ideal S1024x257 .f32) (k : Vec Ideal S1024x1 .f32) (g : Fin 1024) (d : Fin 257) :
    k1_pay6 (F := Ideal) s k (ix2 g d) = Ideal.div (s (ix2 g d)) (max (k (ix2 g 0)) 1) := by
  show Ideal.div (s (ix2 g d)) (broadcastTo S1024x257 (maximumf (F := Ideal) k (broadcast S1024x1 (Ideal.ofBits .f32 0x3F800000#32)))
      broadcasts_S1024x1_S1024x257 (ix2 g d)) = _
  rw [colBcast_apply, Ideal.ofBits_one_f32]
  rfl

end Cert.Value

end
-- ==== Proof.Value.TileSum.lean ====
/-
  A sum over the 262144 rows, cut into 256 tiles of 1024 consecutive rows: the whole sum is the sum of the tiles' sums,
  and the tiles below a point, summed, grow by one tile per point. Stated in any commutative additive monoid: no
  finiteness is asked of the terms.
-/
import Mathlib.Algebra.BigOperators.Group.Finset.Basic
import Mathlib.Algebra.BigOperators.Fin
import Mathlib.Data.Fintype.BigOperators
import Mathlib.Logic.Equiv.Fin.Basic

open scoped BigOperators

namespace Cert.Value

variable {M : Type*} [AddCommMonoid M]

/-- Row r of tile t. -/
abbrev tileRow (t : Fin 256) (r : Fin 1024) : Fin 262144 := ⟨1024 * t.val + r.val, by omega⟩

/-- The rows of tile t summed. -/
def tileSum (φ : Fin 262144 → M) (t : Fin 256) : M := ∑ r : Fin 1024, φ (tileRow t r)

/-- The tiles below m summed. -/
def tilesBelow (φ : Fin 262144 → M) (m : ℕ) : M :=
  ∑ t ∈ Finset.range m, if h : t < 256 then tileSum φ ⟨t, h⟩ else 0

/-- The whole sum is the sum over the tiles of each tile's rows. -/
theorem sum_tiles (φ : Fin 262144 → M) : ∑ n : Fin 262144, φ n = ∑ t : Fin 256, tileSum φ t := by
  have e := Equiv.sum_comp (finProdFinEquiv (m := 256) (n := 1024)) (fun n : Fin (256 * 1024) => φ n)
  rw [Fintype.sum_prod_type] at e
  refine e.symm.trans (Finset.sum_congr rfl fun t _ => Finset.sum_congr rfl fun r _ => congrArg φ (Fin.ext ?_))
  show r.val + 1024 * t.val = 1024 * t.val + r.val
  omega

theorem tilesBelow_zero (φ : Fin 262144 → M) : tilesBelow φ 0 = 0 := Finset.sum_range_zero _

/-- One more point adds its tile. -/
theorem tilesBelow_succ (φ : Fin 262144 → M) (m : ℕ) (h : m < 256) :
    tilesBelow φ (m + 1) = tilesBelow φ m + tileSum φ ⟨m, h⟩ := by
  unfold tilesBelow
  rw [Finset.sum_range_succ, dif_pos h]

/-- All 256 tiles are the whole sum. -/
theorem tilesBelow_all (φ : Fin 262144 → M) : tilesBelow φ 256 = ∑ n : Fin 262144, φ n := by
  rw [sum_tiles]
  unfold tilesBelow
  rw [Finset.sum_range]
  exact Finset.sum_congr rfl fun t _ => dif_pos t.isLt

end Cert.Value
-- ==== Proof.Value.AnchorValue0.lean ====
/-
  REGION 0 (the anchor kernel on the context rows): what it leaves in its output array, in closed form.

  Point t of the 256 reads rows 1024 t … 1024 t + 1023 of the feature array and the same stretch of the id row. One
  step adds to each group's running sums and count the block's rows of that group, so after point t the sums and counts
  are those of the rows below 1024 (t + 1) (induction on the point), and the block the step leaves is their quotient,
  the count floored at one. The output window's block never moves and is written back once, after the last point: the
  array ends holding the segment mean over all 262144 rows.
-/
import proofs.«430159_j88974542504689_1_alg».proof.Proof.KI.R0Step
import proofs.«430159_j88974542504689_1_alg».proof.Proof.Value.AnchorMath
import proofs.«430159_j88974542504689_1_alg».proof.Proof.Value.TileSum
import Idealize.ShloMosaic.Lib.Pipeline.Value

set_option maxRecDepth 16384

noncomputable section

open scoped BigOperators

namespace Cert.Value.Anchor0

open Cert.KernelIdeal Cert.KernelIdeal.Gen Cert.KernelIdeal.Hand Cert.Value
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## The two arrays the region reads, and the terms of a group's sums -/

/-- The feature array: 262144 rows of 257 columns. -/
abbrev rows (c : Dev nD) : Vec Ideal S262144x257 .f32 := V c main_v0
/-- The row of 262144 group ids. -/
abbrev ids (c : Dev nD) : Vec Ideal S1x262144 .i32 := V c main_v2

/-- Row n's term of group g's sum of column d. -/
abbrev sumTerm (c : Dev nD) (g : Fin 1024) (d : Fin 257) (n : Fin 262144) : EReal :=
  if ids V c (ix2 0 n) = Spec.gw g then rows V c (ix2 n d) else 0
/-- Row n's term of group g's count. -/
abbrev cntTerm (c : Dev nD) (g : Fin 1024) (n : Fin 262144) : EReal :=
  if ids V c (ix2 0 n) = Spec.gw g then (1 : EReal) else 0

/-! ## The blocks at a point are stretches of the arrays -/

/-- The windows' block indices over the grid: the two inputs move with the point, the output stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)

/-- The point as a tile number. -/
abbrev tile (t : Fin cfg0.N) : Fin 256 := Fin.cast N_0 t

/-- Row r of the block of rows at point t is row 1024 t + r of the feature array. -/
theorem xblk_apply (c : Dev nD) (t : Fin cfg0.N) (r : Fin 1024) (d : Fin 257) :
    xblk0 V c t (ix2 r d) = rows V c (ix2 (tileRow (tile t) r) d) := by
  have hi := idx_facts t
  unfold xblk0 iblk0
  rw [View.read_apply]
  show V c main_v0 _ = V c main_v0 _
  congr 1
  funext a
  apply Fin.ext
  match a with
  | ⟨0, _⟩ => show win0_0.index t 0 * 1024 + 1 * r.val = 1024 * t.val + r.val; rw [hi.1]; omega
  | ⟨1, _⟩ => show win0_0.index t 1 * 257 + 1 * d.val = d.val; rw [hi.2.1]; omega

/-- Entry r of the row of ids at point t is entry 1024 t + r of the id row. -/
theorem idblk_apply (c : Dev nD) (t : Fin cfg0.N) (r : Fin 1024) :
    idblk0 V c t (ix2 0 r) = ids V c (ix2 0 (tileRow (tile t) r)) := by
  have hi := idx_facts t
  unfold idblk0 iblk0
  rw [View.read_apply]
  show V c main_v2 _ = V c main_v2 _
  congr 1
  funext a
  apply Fin.ext
  match a with
  | ⟨0, _⟩ => show win0_1.index t 0 * 1 + 1 * 0 = 0; rw [hi.2.2.1]
  | ⟨1, _⟩ => show win0_1.index t 1 * 1024 + 1 * r.val = 1024 * t.val + r.val; rw [hi.2.2.2.1]; omega

/-! ## One step, on the blocks of a point -/

/-- The sums gain the point's tile of the group's terms. -/
theorem step_sums (c : Dev nD) (t : Fin cfg0.N) (s : Vec Ideal S1024x257 .f32) (g : Fin 1024) (d : Fin 257) :
    k0_pay4 (F := Ideal) (idblk0 V c t) (xblk0 V c t) s (ix2 g d) = s (ix2 g d) + tileSum (sumTerm V c g d) (tile t) := by
  rw [sums0_apply]
  refine congrArg (s (ix2 g d) + ·) (Finset.sum_congr rfl fun r _ => ?_)
  rw [idblk_apply V c t r, xblk_apply V c t r d]

/-- The counts gain the point's tile of the group's unit terms. -/
theorem step_counts (c : Dev nD) (t : Fin cfg0.N) (k : Vec Ideal S1024x1 .f32) (g : Fin 1024) :
    k0_pay5 (F := Ideal) (idblk0 V c t) k (ix2 g 0) = k (ix2 g 0) + tileSum (cntTerm V c g) (tile t) := by
  rw [counts0_apply]
  refine congrArg (k (ix2 g 0) + ·) (Finset.sum_congr rfl fun r _ => ?_)
  rw [idblk_apply V c t r]

/-- The block a step leaves is its sums over its counts floored at one. -/
theorem step_out (x : Vec Ideal S1024x257 .f32) (i : Vec Ideal S1x1024 .i32) (s : Vec Ideal S1024x257 .f32) (k : Vec Ideal S1024x1 .f32)
    (g : Fin 1024) (d : Fin 257) :
    (anchorStep0 (F := Ideal) x i s k).1 (ix2 g d)
      = Ideal.div ((anchorStep0 (F := Ideal) x i s k).2.1 (ix2 g d)) (max ((anchorStep0 (F := Ideal) x i s k).2.2 (ix2 g 0)) 1) :=
  mean0_apply _ _ g d

/-! ## After each point: the sums and counts of the rows so far -/

/-- The running sums after point n are the group's terms over the tiles 0 … n. -/
theorem sums_after (c : Dev nD) : ∀ (n : ℕ) (h : n < cfg0.N) (g : Fin 1024) (d : Fin 257),
    (outsAt0 V c n h).2.1 (ix2 g d) = tilesBelow (sumTerm V c g d) (n + 1)
  | 0, h, g, d => by
    rw [outsAt0_first V c h]
    show k0_pay4 (F := Ideal) (idblk0 V c ⟨0, h⟩) (xblk0 V c ⟨0, h⟩) (k0_pay1 (F := Ideal)) (ix2 g d) = _
    rw [step_sums V c ⟨0, h⟩ _ g d, zeroSums0_apply, zero_add, tilesBelow_succ _ 0 (by decide), tilesBelow_zero, zero_add]
    rfl
  | n + 1, h, g, d => by
    have hN : cfg0.N = 256 := N_0
    rw [outsAt0_next V c n h]
    show k0_pay4 (F := Ideal) (idblk0 V c ⟨n + 1, h⟩) (xblk0 V c ⟨n + 1, h⟩) (outsAt0 V c n (Nat.lt_of_succ_lt h)).2.1 (ix2 g d) = _
    rw [step_sums V c ⟨n + 1, h⟩ _ g d, sums_after c n (Nat.lt_of_succ_lt h) g d, tilesBelow_succ _ (n + 1) (by omega)]
    rfl

/-- The running counts after point n are the group's unit terms over the tiles 0 … n. -/
theorem counts_after (c : Dev nD) : ∀ (n : ℕ) (h : n < cfg0.N) (g : Fin 1024),
    (outsAt0 V c n h).2.2 (ix2 g 0) = tilesBelow (cntTerm V c g) (n + 1)
  | 0, h, g => by
    rw [outsAt0_first V c h]
    show k0_pay5 (F := Ideal) (idblk0 V c ⟨0, h⟩) (k0_pay2 (F := Ideal)) (ix2 g 0) = _
    rw [step_counts V c ⟨0, h⟩ _ g, zeroCounts0_apply, zero_add, tilesBelow_succ _ 0 (by decide), tilesBelow_zero, zero_add]
    rfl
  | n + 1, h, g => by
    have hN : cfg0.N = 256 := N_0
    rw [outsAt0_next V c n h]
    show k0_pay5 (F := Ideal) (idblk0 V c ⟨n + 1, h⟩) (outsAt0 V c n (Nat.lt_of_succ_lt h)).2.2 (ix2 g 0) = _
    rw [step_counts V c ⟨n + 1, h⟩ _ g, counts_after c n (Nat.lt_of_succ_lt h) g, tilesBelow_succ _ (n + 1) (by omega)]
    rfl

/-- The block after point n is the quotient of the two. -/
theorem out_after (c : Dev nD) (n : ℕ) (h : n < cfg0.N) (g : Fin 1024) (d : Fin 257) :
    (outsAt0 V c n h).1 (ix2 g d)
      = Ideal.div ((outsAt0 V c n h).2.1 (ix2 g d)) (max ((outsAt0 V c n h).2.2 (ix2 g 0)) 1) := by
  cases n with
  | zero => rw [outsAt0_first V c h]; exact step_out _ _ _ _ g d
  | succ n => rw [outsAt0_next V c n h]; exact step_out _ _ _ _ g d

/-! ## The output array -/

/-- The segment means of the feature array by the id row, as contents of the output array. -/
abbrev means (c : Dev nD) : Buf (Elt Ideal) ((c : Thread nD τ).loc main_v3) :=
  fun i : S1024x257.Idx => Spec.segMean (fun n => ids V c (ix2 0 n)) (fun n d => rows V c (ix2 n d))
    ⟨(i 0).val, idx2_lt0 i⟩ ⟨(i 1).val, idx2_lt1 i⟩

/-- After the last point the output block holds the segment means. -/
theorem out_last (c : Dev nD) (t : Fin cfg0.N) (ht : t.val = 255) :
    (outsAt0 V c t.val t.isLt).1 = (means V c : Vec Ideal S1024x257 .f32) := by
  funext i
  obtain ⟨g, d, rfl⟩ : ∃ (g : Fin 1024) (d : Fin 257), i = ix2 g d := ⟨i 0, i 1, eq_ix2 i⟩
  rw [out_after V c t.val t.isLt g d, sums_after V c t.val t.isLt g d, counts_after V c t.val t.isLt g]
  rw [show t.val + 1 = 256 by omega, tilesBelow_all, tilesBelow_all]
  rfl

/-- The last point. -/
abbrev lastPt : Fin cfg0.N := ⟨255, by rw [show cfg0.N = 256 from N_0]; decide⟩

/-- The one write-back, at the last point, writes the segment means: the output's block is the whole array. -/
theorem flushed_eq (c : Dev nD) (t : Fin cfg0.N) (hf : (cfg0.win 2).flush t = true) :
    (dat0 V c).flushed 2 t = ((cfg0.win 2).blk t).view.read (Elt Ideal) (means V c) := by
  have hN : cfg0.N = 256 := N_0
  have h255 : t.val = 255 := by have := (flush0_2 t).mp hf; have := t.isLt; omega
  have hi := idx_facts t
  show (cfg0.win 2).cut (grid0.coords t) ((dat0 V c).after 2 t) = _
  rw [after0_2, out_last V c t h255]
  have hz' : (fun a => win0_2.index t a * main_v3.ty.shape.size a) = fun _ => 0 := funext fun a => by
    match a with
    | ⟨0, _⟩ => show win0_2.index t 0 * 1024 = 0; rw [hi.2.2.2.2.1]
    | ⟨1, _⟩ => show win0_2.index t 1 * 257 = 0; rw [hi.2.2.2.2.2]
  exact (Memref.read_access_unit_zero (Elt Ideal) main_v3 hz' (fun a => by rw [congrFun hz' a]; simp) (means V c)).symm

/-- So the output array ends holding the segment means. -/
theorem final_array (c : Dev nD) : (dat0 V c).arrAt 2 cfg0.N = means V c :=
  (dat0 V c).arrAt_eq_of_cover 2 (means V c) (flushed_eq V c) fun i =>
    ⟨lastPt, (flush0_2 lastPt).mpr rfl, by
      show i ∈ ((View.whole main_v3).slice (win0_2.rect lastPt)).set
      rw [View.set_slice_whole, Rect.mem_set_unit]
      intro a
      have h0 : (i 0 : Nat) < 1024 := (i 0).isLt
      have h1 : (i 1 : Nat) < 257 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1024 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 257 from by decide +kernel]; omega⟩

end Cert.Value.Anchor0

namespace Cert.Value

open Cert.KernelIdeal Cert.KernelIdeal.Gen Cert.KernelIdeal.Hand
open Idealize.ShloMosaic Idealize.ShloMosaic.TcCoe Idealize.ShloMosaic.ValueIdx Idealize.SL.Sem

/-- REGION 0's output array at (g, d): the mean over the rows of group g of column d. -/
theorem anchor0_final (V : (c : Dev nD) → (b : Ref sig .tc) → Buf (Elt Ideal) ((c : Thread nD τ).loc b)) (c : Dev nD)
    (g : Fin 1024) (d : Fin 257) :
    ((dat0 (F := Ideal) V c).arrAt 2 cfg0.N : Vec Ideal S1024x257 .f32) (ix2 g d)
      = Spec.segMean (fun n => (V c main_v2 : Vec Ideal S1x262144 .i32) (ix2 0 n))
          (fun n d => (V c main_v0 : Vec Ideal S262144x257 .f32) (ix2 n d)) g d := by
  rw [Anchor0.final_array V c]

end Cert.Value

end
-- ==== Proof.KI.R1Step.lean ====
/- REGION 1: what the anchor kernel's body leaves at a point, opened to the kernel's named values — one step of the
   accumulation as a function of the point's block of rows, its row of segment indices, and the running sums and
   counts it starts from (zeros at the first point). -/
import proofs.«430159_j88974542504689_1_alg».proof.Proof.KI.R1Frame
import Idealize.ShloMosaic.Lib.Pipeline.Value

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Every access of the body is at offset zero of its buffer. -/
theorem hz1 : (![0, 0] : Fin 2 → Nat) = fun _ => 0 := funext fun a => by fin_cases a <;> rfl

/-! ## What each case leaves, as the kernel's named values -/

/-- A later point adds the block's contribution onto the sums it found. -/
theorem sums1_B (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) :
    sout1_B_0 c i arg1 harg1 arg2 harg2 arg3 harg3 arg4 harg4 arg5 harg5 hc0 x0 x1 xs0 xs1 = k1_pay4 x1 x0 xs0 := by
  unfold sout1_B_0
  rw [View.read_writes_eq_canon _ _ _ (scover1_B_0 c i arg1 harg1 arg2 harg2 arg3 harg3 arg4 harg4 arg5 harg5 hc0 x0 x1 xs0 xs1)]
  unfold kernelRun1_B
  dsimp only
  try sl_unfold_words
  rw [View.canon_unit_zero hz1]
  simp only [View.readCov_cons_toLoadRect, View.readCov_unit_zero (S := S1024x257) _ hz1, View.readCov_unit_zero (S := S1024x1) _ hz1, View.readAt_eq_ld, harg1.read_unread, harg2.read_unread, harg4.read_unread, harg5.read_unread, View.ld_unit_zero (S := S1024x257) hz1, View.ld_unit_zero (S := S1x1024) hz1, View.ld_unit_zero (S := S1024x1) hz1]

/-- A later point adds the block's contribution onto the counts it found. -/
theorem counts1_B (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) :
    sout1_B_1 c i arg1 harg1 arg2 harg2 arg3 harg3 arg4 harg4 arg5 harg5 hc0 x0 x1 xs0 xs1 = k1_pay5 x1 xs1 := by
  unfold sout1_B_1
  rw [View.read_writes_eq_canon _ _ _ (scover1_B_1 c i arg1 harg1 arg2 harg2 arg3 harg3 arg4 harg4 arg5 harg5 hc0 x0 x1 xs0 xs1)]
  unfold kernelRun1_B
  dsimp only
  try sl_unfold_words
  rw [View.canon_unit_zero hz1]
  simp only [View.readCov_cons_toLoadRect, View.readCov_unit_zero (S := S1024x257) _ hz1, View.readCov_unit_zero (S := S1024x1) _ hz1, View.readAt_eq_ld, harg1.read_unread, harg2.read_unread, harg4.read_unread, harg5.read_unread, View.ld_unit_zero (S := S1024x257) hz1, View.ld_unit_zero (S := S1x1024) hz1, View.ld_unit_zero (S := S1024x1) hz1]

/-- A later point's output block: the new sums over the new counts. -/
theorem outv1_B (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : ¬cond1_0 i)
    (x0 : Vec F S1024x257 .f32) (x1 : Vec F S1x1024 .i32) (xs0 : Vec F S1024x257 .f32) (xs1 : Vec F S1024x1 .f32) :
    out1_B_2 c i arg1 harg1 arg2 harg2 arg3 harg3 arg4 harg4 arg5 harg5 hc0 x0 x1 xs0 xs1 = k1_pay6 (k1_pay4 x1 x0 xs0) (k1_pay5 x1 xs1) := by
  unfold out1_B_2
  rw [View.read_writes_eq_canon _ _ _ (cover1_B_2 c i arg1 harg1 arg2 harg2 arg3 harg3 arg4 harg4 arg5 harg5 hc0 x0 x1 xs0 xs1)]
  unfold kernelRun1_B
  dsimp only
  try sl_unfold_words
  rw [View.canon_unit_zero hz1]
  simp only [View.readCov_cons_toLoadRect, View.readCov_unit_zero (S := S1024x257) _ hz1, View.readCov_unit_zero (S := S1024x1) _ hz1, View.readAt_eq_ld, harg1.read_unread, harg2.read_unread, harg4.read_unread, harg5.read_unread, View.ld_unit_zero (S := S1024x257) hz1, View.ld_unit_zero (S := S1x1024) hz1, View.ld_unit_zero (S := S1024x1) hz1]

/-- The first point adds the block's contribution onto zero sums. -/
theorem sums1_A (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) :
    sout1_A_0 c i arg1 harg1 arg2 harg2 arg3 harg3 arg4 harg4 arg5 harg5 hc0 x0 x1 = k1_pay4 x1 x0 k1_pay1 := by
  unfold sout1_A_0
  rw [View.read_writes_eq_canon _ _ _ (scover1_A_0 c i arg1 harg1 arg2 harg2 arg3 harg3 arg4 harg4 arg5 harg5 hc0 x0 x1)]
  unfold kernelRun1_A
  dsimp only
  try sl_unfold_words
  rw [View.canon_cons_unit_zero (S := S1024x257) hz1]
  simp only [View.readCov_cons_toLoadRect, View.readCov_unit_zero (S := S1024x257) _ hz1, View.readCov_unit_zero (S := S1024x1) _ hz1, View.readAt_eq_ld, harg1.read_unread, harg2.read_unread, harg4.read_unread, harg5.read_unread, View.ld_unit_zero (S := S1024x257) hz1, View.ld_unit_zero (S := S1x1024) hz1, View.ld_unit_zero (S := S1024x1) hz1]

/-- The first point adds the block's contribution onto zero counts. -/
theorem counts1_A (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) :
    sout1_A_1 c i arg1 harg1 arg2 harg2 arg3 harg3 arg4 harg4 arg5 harg5 hc0 x0 x1 = k1_pay5 x1 k1_pay2 := by
  unfold sout1_A_1
  rw [View.read_writes_eq_canon _ _ _ (scover1_A_1 c i arg1 harg1 arg2 harg2 arg3 harg3 arg4 harg4 arg5 harg5 hc0 x0 x1)]
  unfold kernelRun1_A
  dsimp only
  try sl_unfold_words
  rw [View.canon_cons_unit_zero (S := S1024x1) hz1]
  simp only [View.readCov_cons_toLoadRect, View.readCov_unit_zero (S := S1024x257) _ hz1, View.readCov_unit_zero (S := S1024x1) _ hz1, View.readAt_eq_ld, harg1.read_unread, harg2.read_unread, harg4.read_unread, harg5.read_unread, View.ld_unit_zero (S := S1024x257) hz1, View.ld_unit_zero (S := S1x1024) hz1, View.ld_unit_zero (S := S1024x1) hz1]

/-- The first point's output block: the new sums over the new counts. -/
theorem outv1_A (c : Dev nD) (i : grid1.Coords) (arg1 : Memref sig .tc .vmem S1024x257 .f32) (harg1 : arg1.IsWhole) (arg2 : Memref sig .tc .vmem S1x1024 .i32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x1 .f32) (harg5 : arg5.IsWhole) (hc0 : cond1_0 i)
    (x0 : Vec F S1024x257 .f32) (x1 : Vec F S1x1024 .i32) :
    out1_A_2 c i arg1 harg1 arg2 harg2 arg3 harg3 arg4 harg4 arg5 harg5 hc0 x0 x1 = k1_pay6 (k1_pay4 x1 x0 k1_pay1) (k1_pay5 x1 k1_pay2) := by
  unfold out1_A_2
  rw [View.read_writes_eq_canon _ _ _ (cover1_A_2 c i arg1 harg1 arg2 harg2 arg3 harg3 arg4 harg4 arg5 harg5 hc0 x0 x1)]
  unfold kernelRun1_A
  dsimp only
  try sl_unfold_words
  rw [View.canon_unit_zero hz1]
  simp only [View.readCov_cons_toLoadRect, View.readCov_unit_zero (S := S1024x257) _ hz1, View.readCov_unit_zero (S := S1024x1) _ hz1, View.readAt_eq_ld, harg1.read_unread, harg2.read_unread, harg4.read_unread, harg5.read_unread, View.ld_unit_zero (S := S1024x257) hz1, View.ld_unit_zero (S := S1x1024) hz1, View.ld_unit_zero (S := S1024x1) hz1]

/-! ## One step of the accumulation -/

/-- One step of the accumulation: from the block of rows `x`, the row of segment indices `ids`, the running sums
    `s` and the running counts `k`, the new sums and counts (each the old plus the block's contribution) and the
    output block (the new sums divided by the new counts, the counts floored at one). -/
def anchorStep1 (x : Vec F S1024x257 .f32) (ids : Vec F S1x1024 .i32) (s : Vec F S1024x257 .f32) (k : Vec F S1024x1 .f32) :
    Vec F S1024x257 .f32 × Vec F S1024x257 .f32 × Vec F S1024x1 .f32 :=
  (k1_pay6 (k1_pay4 ids x s) (k1_pay5 ids k), k1_pay4 ids x s, k1_pay5 ids k)

/-- The first point's triple is one step from zero sums and zero counts. -/
theorem stepA1_eq (c : Dev nD) (t : Fin cfg1.N) (hc0 : cond1_0 (grid1.coords t)) :
    stepA1 V c t hc0 = anchorStep1 (xblk1 V c t) (idblk1 V c t) k1_pay1 k1_pay2 := by
  unfold stepA1 anchorStep1
  exact congrArg₂ Prod.mk (outv1_A c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t))
    (congrArg₂ Prod.mk (sums1_A c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t)) (counts1_A c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t)))

/-- A later point's triple is one step from the sums and counts it found. -/
theorem stepB1_eq (c : Dev nD) (t : Fin cfg1.N) (hc0 : ¬cond1_0 (grid1.coords t)) (xs0 : Vec F S1024x257 .f32) (xs1 : Vec F S1024x1 .f32) :
    stepB1 V c t hc0 xs0 xs1 = anchorStep1 (xblk1 V c t) (idblk1 V c t) xs0 xs1 := by
  unfold stepB1 anchorStep1
  exact congrArg₂ Prod.mk (outv1_B c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t) xs0 xs1)
    (congrArg₂ Prod.mk (sums1_B c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t) xs0 xs1) (counts1_B c (grid1.coords t) (ms1_0 t) (hs1_0 t) (ms1_1 t) (hs1_1 t) (ms1_2 t) (hs1_2 t) scM1_0 (Memref.isWhole_whole _) scM1_1 (Memref.isWhole_whole _) hc0 (xblk1 V c t) (idblk1 V c t) xs0 xs1))

/-- The first point: one step from zero sums and zero counts. -/
theorem outsAt1_first (c : Dev nD) (h : 0 < cfg1.N) :
    outsAt1 V c 0 h = anchorStep1 (xblk1 V c ⟨0, h⟩) (idblk1 V c ⟨0, h⟩) k1_pay1 k1_pay2 :=
  stepA1_eq V c ⟨0, h⟩ ((hcond1_0 ⟨0, h⟩).mpr rfl)

/-- A later point: one step from what the point before left. -/
theorem outsAt1_next (c : Dev nD) (n : ℕ) (h : n + 1 < cfg1.N) :
    outsAt1 V c (n + 1) h = anchorStep1 (xblk1 V c ⟨n + 1, h⟩) (idblk1 V c ⟨n + 1, h⟩)
      (outsAt1 V c n (Nat.lt_of_succ_lt h)).2.1 (outsAt1 V c n (Nat.lt_of_succ_lt h)).2.2 :=
  stepB1_eq V c ⟨n + 1, h⟩ (fun hh => Nat.succ_ne_zero n ((hcond1_0 ⟨n + 1, h⟩).mp hh))
    (outsAt1 V c n (Nat.lt_of_succ_lt h)).2.1 (outsAt1 V c n (Nat.lt_of_succ_lt h)).2.2

end Cert.KernelIdeal.Hand

end
-- ==== Proof.Value.AnchorValue1.lean ====
/-
  REGION 1 (the anchor kernel on the target rows): what it leaves in its output array, in closed form.

  Point t of the 256 reads rows 1024 t … 1024 t + 1023 of the feature array and the same stretch of the id row. One
  step adds to each group's running sums and count the block's rows of that group, so after point t the sums and counts
  are those of the rows below 1024 (t + 1) (induction on the point), and the block the step leaves is their quotient,
  the count floored at one. The output window's block never moves and is written back once, after the last point: the
  array ends holding the segment mean over all 262144 rows.
-/
import proofs.«430159_j88974542504689_1_alg».proof.Proof.KI.R1Step
import proofs.«430159_j88974542504689_1_alg».proof.Proof.Value.AnchorMath
import proofs.«430159_j88974542504689_1_alg».proof.Proof.Value.TileSum
import Idealize.ShloMosaic.Lib.Pipeline.Value

set_option maxRecDepth 16384

noncomputable section

open scoped BigOperators

namespace Cert.Value.Anchor1

open Cert.KernelIdeal Cert.KernelIdeal.Gen Cert.KernelIdeal.Hand Cert.Value
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## The two arrays the region reads, and the terms of a group's sums -/

/-- The feature array: 262144 rows of 257 columns. -/
abbrev rows (c : Dev nD) : Vec Ideal S262144x257 .f32 := V c main_v1
/-- The row of 262144 group ids. -/
abbrev ids (c : Dev nD) : Vec Ideal S1x262144 .i32 := V c main_v4

/-- Row n's term of group g's sum of column d. -/
abbrev sumTerm (c : Dev nD) (g : Fin 1024) (d : Fin 257) (n : Fin 262144) : EReal :=
  if ids V c (ix2 0 n) = Spec.gw g then rows V c (ix2 n d) else 0
/-- Row n's term of group g's count. -/
abbrev cntTerm (c : Dev nD) (g : Fin 1024) (n : Fin 262144) : EReal :=
  if ids V c (ix2 0 n) = Spec.gw g then (1 : EReal) else 0

/-! ## The blocks at a point are stretches of the arrays -/

/-- The windows' block indices over the grid: the two inputs move with the point, the output stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0 :=
  (by decide +kernel : ∀ t : Fin grid1.N, _)

/-- The point as a tile number. -/
abbrev tile (t : Fin cfg1.N) : Fin 256 := Fin.cast N_1 t

/-- Row r of the block of rows at point t is row 1024 t + r of the feature array. -/
theorem xblk_apply (c : Dev nD) (t : Fin cfg1.N) (r : Fin 1024) (d : Fin 257) :
    xblk1 V c t (ix2 r d) = rows V c (ix2 (tileRow (tile t) r) d) := by
  have hi := idx_facts t
  unfold xblk1 iblk1
  rw [View.read_apply]
  show V c main_v1 _ = V c main_v1 _
  congr 1
  funext a
  apply Fin.ext
  match a with
  | ⟨0, _⟩ => show win1_0.index t 0 * 1024 + 1 * r.val = 1024 * t.val + r.val; rw [hi.1]; omega
  | ⟨1, _⟩ => show win1_0.index t 1 * 257 + 1 * d.val = d.val; rw [hi.2.1]; omega

/-- Entry r of the row of ids at point t is entry 1024 t + r of the id row. -/
theorem idblk_apply (c : Dev nD) (t : Fin cfg1.N) (r : Fin 1024) :
    idblk1 V c t (ix2 0 r) = ids V c (ix2 0 (tileRow (tile t) r)) := by
  have hi := idx_facts t
  unfold idblk1 iblk1
  rw [View.read_apply]
  show V c main_v4 _ = V c main_v4 _
  congr 1
  funext a
  apply Fin.ext
  match a with
  | ⟨0, _⟩ => show win1_1.index t 0 * 1 + 1 * 0 = 0; rw [hi.2.2.1]
  | ⟨1, _⟩ => show win1_1.index t 1 * 1024 + 1 * r.val = 1024 * t.val + r.val; rw [hi.2.2.2.1]; omega

/-! ## One step, on the blocks of a point -/

/-- The sums gain the point's tile of the group's terms. -/
theorem step_sums (c : Dev nD) (t : Fin cfg1.N) (s : Vec Ideal S1024x257 .f32) (g : Fin 1024) (d : Fin 257) :
    k1_pay4 (F := Ideal) (idblk1 V c t) (xblk1 V c t) s (ix2 g d) = s (ix2 g d) + tileSum (sumTerm V c g d) (tile t) := by
  rw [sums1_apply]
  refine congrArg (s (ix2 g d) + ·) (Finset.sum_congr rfl fun r _ => ?_)
  rw [idblk_apply V c t r, xblk_apply V c t r d]

/-- The counts gain the point's tile of the group's unit terms. -/
theorem step_counts (c : Dev nD) (t : Fin cfg1.N) (k : Vec Ideal S1024x1 .f32) (g : Fin 1024) :
    k1_pay5 (F := Ideal) (idblk1 V c t) k (ix2 g 0) = k (ix2 g 0) + tileSum (cntTerm V c g) (tile t) := by
  rw [counts1_apply]
  refine congrArg (k (ix2 g 0) + ·) (Finset.sum_congr rfl fun r _ => ?_)
  rw [idblk_apply V c t r]

/-- The block a step leaves is its sums over its counts floored at one. -/
theorem step_out (x : Vec Ideal S1024x257 .f32) (i : Vec Ideal S1x1024 .i32) (s : Vec Ideal S1024x257 .f32) (k : Vec Ideal S1024x1 .f32)
    (g : Fin 1024) (d : Fin 257) :
    (anchorStep1 (F := Ideal) x i s k).1 (ix2 g d)
      = Ideal.div ((anchorStep1 (F := Ideal) x i s k).2.1 (ix2 g d)) (max ((anchorStep1 (F := Ideal) x i s k).2.2 (ix2 g 0)) 1) :=
  mean1_apply _ _ g d

/-! ## After each point: the sums and counts of the rows so far -/

/-- The running sums after point n are the group's terms over the tiles 0 … n. -/
theorem sums_after (c : Dev nD) : ∀ (n : ℕ) (h : n < cfg1.N) (g : Fin 1024) (d : Fin 257),
    (outsAt1 V c n h).2.1 (ix2 g d) = tilesBelow (sumTerm V c g d) (n + 1)
  | 0, h, g, d => by
    rw [outsAt1_first V c h]
    show k1_pay4 (F := Ideal) (idblk1 V c ⟨0, h⟩) (xblk1 V c ⟨0, h⟩) (k1_pay1 (F := Ideal)) (ix2 g d) = _
    rw [step_sums V c ⟨0, h⟩ _ g d, zeroSums1_apply, zero_add, tilesBelow_succ _ 0 (by decide), tilesBelow_zero, zero_add]
    rfl
  | n + 1, h, g, d => by
    have hN : cfg1.N = 256 := N_1
    rw [outsAt1_next V c n h]
    show k1_pay4 (F := Ideal) (idblk1 V c ⟨n + 1, h⟩) (xblk1 V c ⟨n + 1, h⟩) (outsAt1 V c n (Nat.lt_of_succ_lt h)).2.1 (ix2 g d) = _
    rw [step_sums V c ⟨n + 1, h⟩ _ g d, sums_after c n (Nat.lt_of_succ_lt h) g d, tilesBelow_succ _ (n + 1) (by omega)]
    rfl

/-- The running counts after point n are the group's unit terms over the tiles 0 … n. -/
theorem counts_after (c : Dev nD) : ∀ (n : ℕ) (h : n < cfg1.N) (g : Fin 1024),
    (outsAt1 V c n h).2.2 (ix2 g 0) = tilesBelow (cntTerm V c g) (n + 1)
  | 0, h, g => by
    rw [outsAt1_first V c h]
    show k1_pay5 (F := Ideal) (idblk1 V c ⟨0, h⟩) (k1_pay2 (F := Ideal)) (ix2 g 0) = _
    rw [step_counts V c ⟨0, h⟩ _ g, zeroCounts1_apply, zero_add, tilesBelow_succ _ 0 (by decide), tilesBelow_zero, zero_add]
    rfl
  | n + 1, h, g => by
    have hN : cfg1.N = 256 := N_1
    rw [outsAt1_next V c n h]
    show k1_pay5 (F := Ideal) (idblk1 V c ⟨n + 1, h⟩) (outsAt1 V c n (Nat.lt_of_succ_lt h)).2.2 (ix2 g 0) = _
    rw [step_counts V c ⟨n + 1, h⟩ _ g, counts_after c n (Nat.lt_of_succ_lt h) g, tilesBelow_succ _ (n + 1) (by omega)]
    rfl

/-- The block after point n is the quotient of the two. -/
theorem out_after (c : Dev nD) (n : ℕ) (h : n < cfg1.N) (g : Fin 1024) (d : Fin 257) :
    (outsAt1 V c n h).1 (ix2 g d)
      = Ideal.div ((outsAt1 V c n h).2.1 (ix2 g d)) (max ((outsAt1 V c n h).2.2 (ix2 g 0)) 1) := by
  cases n with
  | zero => rw [outsAt1_first V c h]; exact step_out _ _ _ _ g d
  | succ n => rw [outsAt1_next V c n h]; exact step_out _ _ _ _ g d

/-! ## The output array -/

/-- The segment means of the feature array by the id row, as contents of the output array. -/
abbrev means (c : Dev nD) : Buf (Elt Ideal) ((c : Thread nD τ).loc main_v5) :=
  fun i : S1024x257.Idx => Spec.segMean (fun n => ids V c (ix2 0 n)) (fun n d => rows V c (ix2 n d))
    ⟨(i 0).val, idx2_lt0 i⟩ ⟨(i 1).val, idx2_lt1 i⟩

/-- After the last point the output block holds the segment means. -/
theorem out_last (c : Dev nD) (t : Fin cfg1.N) (ht : t.val = 255) :
    (outsAt1 V c t.val t.isLt).1 = (means V c : Vec Ideal S1024x257 .f32) := by
  funext i
  obtain ⟨g, d, rfl⟩ : ∃ (g : Fin 1024) (d : Fin 257), i = ix2 g d := ⟨i 0, i 1, eq_ix2 i⟩
  rw [out_after V c t.val t.isLt g d, sums_after V c t.val t.isLt g d, counts_after V c t.val t.isLt g]
  rw [show t.val + 1 = 256 by omega, tilesBelow_all, tilesBelow_all]
  rfl

/-- The last point. -/
abbrev lastPt : Fin cfg1.N := ⟨255, by rw [show cfg1.N = 256 from N_1]; decide⟩

/-- The one write-back, at the last point, writes the segment means: the output's block is the whole array. -/
theorem flushed_eq (c : Dev nD) (t : Fin cfg1.N) (hf : (cfg1.win 2).flush t = true) :
    (dat1 V c).flushed 2 t = ((cfg1.win 2).blk t).view.read (Elt Ideal) (means V c) := by
  have hN : cfg1.N = 256 := N_1
  have h255 : t.val = 255 := by have := (flush1_2 t).mp hf; have := t.isLt; omega
  have hi := idx_facts t
  show (cfg1.win 2).cut (grid1.coords t) ((dat1 V c).after 2 t) = _
  rw [after1_2, out_last V c t h255]
  have hz' : (fun a => win1_2.index t a * main_v5.ty.shape.size a) = fun _ => 0 := funext fun a => by
    match a with
    | ⟨0, _⟩ => show win1_2.index t 0 * 1024 = 0; rw [hi.2.2.2.2.1]
    | ⟨1, _⟩ => show win1_2.index t 1 * 257 = 0; rw [hi.2.2.2.2.2]
  exact (Memref.read_access_unit_zero (Elt Ideal) main_v5 hz' (fun a => by rw [congrFun hz' a]; simp) (means V c)).symm

/-- So the output array ends holding the segment means. -/
theorem final_array (c : Dev nD) : (dat1 V c).arrAt 2 cfg1.N = means V c :=
  (dat1 V c).arrAt_eq_of_cover 2 (means V c) (flushed_eq V c) fun i =>
    ⟨lastPt, (flush1_2 lastPt).mpr rfl, by
      show i ∈ ((View.whole main_v5).slice (win1_2.rect lastPt)).set
      rw [View.set_slice_whole, Rect.mem_set_unit]
      intro a
      have h0 : (i 0 : Nat) < 1024 := (i 0).isLt
      have h1 : (i 1 : Nat) < 257 := (i 1).isLt
      match a with
      | ⟨0, _⟩ => show win1_2.index lastPt 0 * win1_2.size 0 ≤ (i 0 : Nat) ∧ (i 0 : Nat) < win1_2.index lastPt 0 * win1_2.size 0 + win1_2.xsize (grid1.coords lastPt) 0
                  rw [show win1_2.index lastPt 0 * win1_2.size 0 = 0 from by decide +kernel, show win1_2.xsize (grid1.coords lastPt) 0 = 1024 from by decide +kernel]; omega
      | ⟨1, _⟩ => show win1_2.index lastPt 1 * win1_2.size 1 ≤ (i 1 : Nat) ∧ (i 1 : Nat) < win1_2.index lastPt 1 * win1_2.size 1 + win1_2.xsize (grid1.coords lastPt) 1
                  rw [show win1_2.index lastPt 1 * win1_2.size 1 = 0 from by decide +kernel, show win1_2.xsize (grid1.coords lastPt) 1 = 257 from by decide +kernel]; omega⟩

end Cert.Value.Anchor1

namespace Cert.Value

open Cert.KernelIdeal Cert.KernelIdeal.Gen Cert.KernelIdeal.Hand
open Idealize.ShloMosaic Idealize.ShloMosaic.TcCoe Idealize.ShloMosaic.ValueIdx Idealize.SL.Sem

/-- REGION 1's output array at (g, d): the mean over the rows of group g of column d. -/
theorem anchor1_final (V : (c : Dev nD) → (b : Ref sig .tc) → Buf (Elt Ideal) ((c : Thread nD τ).loc b)) (c : Dev nD)
    (g : Fin 1024) (d : Fin 257) :
    ((dat1 (F := Ideal) V c).arrAt 2 cfg1.N : Vec Ideal S1024x257 .f32) (ix2 g d)
      = Spec.segMean (fun n => (V c main_v4 : Vec Ideal S1x262144 .i32) (ix2 0 n))
          (fun n d => (V c main_v1 : Vec Ideal S262144x257 .f32) (ix2 n d)) g d := by
  rw [Anchor1.final_array V c]

end Cert.Value

end
-- ==== Proof.Value.AnchorValue.lean ====
/-
  The two anchor regions' output arrays in closed form: the segment means of the context rows and of the target rows.
-/
import proofs.«430159_j88974542504689_1_alg».proof.Proof.Value.AnchorValue0
import proofs.«430159_j88974542504689_1_alg».proof.Proof.Value.AnchorValue1
-- ==== Proof.KI.R2Step.lean ====
/- REGION 2, the accumulation step by step: what one grid point makes of its blocks and of the running sums and
   counts the point before left, as one function of the body's arithmetic; and the recursion `outsAt2` follows. -/
import proofs.«430159_j88974542504689_1_alg».proof.Proof.KI.R2Frame
import Idealize.ShloMosaic.Lib.Pipeline.Value

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- The zero offsets of a whole-buffer access, however spelt. -/
theorem hz2 : (![0, 0] : Fin 2 → Nat) = fun _ => 0 := funext fun a => by fin_cases a <;> rfl

/-- A load of the whole buffer after a whole-buffer store (whatever was stored before it) reads that store's payload. -/
theorem readCov_cons_unit_zero2 {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- One step of the accumulation, from the point's block of rows `x`, its segment indices as a row and as a column,
    the anchors, and the running sums `s` and counts `k`: the residuals of the rows against their segments'
    anchors are added to the sums segment by segment, the rows are counted, and the output is the sums over the
    counts (no less than one). The triple is (output, sums, counts). -/
def residualStep2 (x : Vec F S512x257 .f32) (idrow : Vec F S1x512 .i32) (idcol : Vec F S512x1 .i32) (anchor : Vec F S1024x257 .f32)
    (s : Vec F S1024x257 .f32) (k : Vec F S1024x1 .f32) : Vec F S1024x257 .f32 × Vec F S1024x257 .f32 × Vec F S1024x1 .f32 :=
  (k2_pay2 (k2_pay6 idcol anchor x idrow s) (k2_pay1 (k2_pay5 idrow) (k2_pay7 (F := F)) k (constant S1024x1 .f32 0x00000000#32)),
   k2_pay6 idcol anchor x idrow s,
   k2_pay1 (k2_pay5 idrow) (k2_pay7 (F := F)) k (constant S1024x1 .f32 0x00000000#32))

/-! ## What each case leaves, as the body's arithmetic -/

/-- At the first point the running sums are the point's residual sums over zero. -/
theorem sout2_A_0_eq (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) :
    sout2_A_0 c i arg1 harg1 arg2 harg2 arg3 harg3 arg4 harg4 arg5 harg5 arg6 harg6 arg7 harg7 hc0 x0 x1 x2 x3 = (k2_pay6 x2 x3 x0 x1 (k2_pay3 (F := F))) := by
  unfold sout2_A_0
  rw [View.read_writes_eq_canon _ _ _ (scover2_A_0 c i arg1 harg1 arg2 harg2 arg3 harg3 arg4 harg4 arg5 harg5 arg6 harg6 arg7 harg7 hc0 x0 x1 x2 x3)]
  unfold kernelRun2_A
  dsimp only
  sl_unfold_words
  rw [View.canon_cons_unit_zero (S := S1024x257) hz2]
  simp only [View.readAt_eq_ld, harg1.read_unread, harg2.read_unread, harg3.read_unread, harg4.read_unread, View.ld_unit_zero (S := S512x257) hz2, View.ld_unit_zero (S := S1x512) hz2, View.ld_unit_zero (S := S512x1) hz2, View.ld_unit_zero (S := S1024x257) hz2, View.ld_unit_zero (S := S1024x1) hz2,
    View.readCov_unit_zero (S := S1024x257) _ hz2, View.readCov_unit_zero (S := S1024x1) _ hz2,
    readCov_cons_unit_zero2 (S := S1024x257) _ hz2, readCov_cons_unit_zero2 (S := S1024x1) _ hz2]

/-- At the first point the running counts are the point's counts over zero. -/
theorem sout2_A_1_eq (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) :
    sout2_A_1 c i arg1 harg1 arg2 harg2 arg3 harg3 arg4 harg4 arg5 harg5 arg6 harg6 arg7 harg7 hc0 x0 x1 x2 x3 = (k2_pay1 (k2_pay5 x1) (k2_pay7 (F := F)) (k2_pay4 (F := F)) (constant S1024x1 .f32 0x00000000#32)) := by
  unfold sout2_A_1
  rw [View.read_writes_eq_canon _ _ _ (scover2_A_1 c i arg1 harg1 arg2 harg2 arg3 harg3 arg4 harg4 arg5 harg5 arg6 harg6 arg7 harg7 hc0 x0 x1 x2 x3)]
  unfold kernelRun2_A
  dsimp only
  sl_unfold_words
  rw [View.canon_cons_unit_zero (S := S1024x1) hz2]
  simp only [View.readAt_eq_ld, harg1.read_unread, harg2.read_unread, harg3.read_unread, harg4.read_unread, View.ld_unit_zero (S := S512x257) hz2, View.ld_unit_zero (S := S1x512) hz2, View.ld_unit_zero (S := S512x1) hz2, View.ld_unit_zero (S := S1024x257) hz2, View.ld_unit_zero (S := S1024x1) hz2,
    View.readCov_unit_zero (S := S1024x257) _ hz2, View.readCov_unit_zero (S := S1024x1) _ hz2,
    readCov_cons_unit_zero2 (S := S1024x257) _ hz2, readCov_cons_unit_zero2 (S := S1024x1) _ hz2]

/-- At the first point the output is the quotient of the two. -/
theorem out2_A_4_eq (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond2_0 i)
    (x0 : Vec F S512x257 .f32) (x1 : Vec F S1x512 .i32) (x2 : Vec F S512x1 .i32) (x3 : Vec F S1024x257 .f32) :
    out2_A_4 c i arg1 harg1 arg2 harg2 arg3 harg3 arg4 harg4 arg5 harg5 arg6 harg6 arg7 harg7 hc0 x0 x1 x2 x3 = k2_pay2 (k2_pay6 x2 x3 x0 x1 (k2_pay3 (F := F))) (k2_pay1 (k2_pay5 x1) (k2_pay7 (F := F)) (k2_pay4 (F := F)) (constant S1024x1 .f32 0x00000000#32)) := by
  unfold out2_A_4
  rw [View.read_writes_eq_canon _ _ _ (cover2_A_4 c i arg1 harg1 arg2 harg2 arg3 harg3 arg4 harg4 arg5 harg5 arg6 harg6 arg7 harg7 hc0 x0 x1 x2 x3)]
  unfold kernelRun2_A
  dsimp only
  sl_unfold_words
  rw [View.canon_unit_zero (S := S1024x257) hz2]
  simp only [View.readAt_eq_ld, harg1.read_unread, harg2.read_unread, harg3.read_unread, harg4.read_unread, View.ld_unit_zero (S := S512x257) hz2, View.ld_unit_zero (S := S1x512) hz2, View.ld_unit_zero (S := S512x1) hz2, View.ld_unit_zero (S := S1024x257) hz2, View.ld_unit_zero (S := S1024x1) hz2,
    View.readCov_unit_zero (S := S1024x257) _ hz2, View.readCov_unit_zero (S := S1024x1) _ hz2,
    readCov_cons_unit_zero2 (S := S1024x257) _ hz2, readCov_cons_unit_zero2 (S := S1024x1) _ hz2]

/-- At a later point the running sums are the point's residual sums over what the point before left. -/
theorem sout2_B_0_eq (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) :
    sout2_B_0 c i arg1 harg1 arg2 harg2 arg3 harg3 arg4 harg4 arg5 harg5 arg6 harg6 arg7 harg7 hc0 x0 x1 x2 x3 xs0 xs1 = (k2_pay6 x2 x3 x0 x1 xs0) := by
  unfold sout2_B_0
  rw [View.read_writes_eq_canon _ _ _ (scover2_B_0 c i arg1 harg1 arg2 harg2 arg3 harg3 arg4 harg4 arg5 harg5 arg6 harg6 arg7 harg7 hc0 x0 x1 x2 x3 xs0 xs1)]
  unfold kernelRun2_B
  dsimp only
  sl_unfold_words
  rw [View.canon_unit_zero (S := S1024x257) hz2]
  simp only [View.readAt_eq_ld, harg1.read_unread, harg2.read_unread, harg3.read_unread, harg4.read_unread, harg6.read_unread, harg7.read_unread, View.ld_unit_zero (S := S512x257) hz2, View.ld_unit_zero (S := S1x512) hz2, View.ld_unit_zero (S := S512x1) hz2, View.ld_unit_zero (S := S1024x257) hz2, View.ld_unit_zero (S := S1024x1) hz2,
    View.readCov_unit_zero (S := S1024x257) _ hz2, View.readCov_unit_zero (S := S1024x1) _ hz2,
    readCov_cons_unit_zero2 (S := S1024x257) _ hz2, readCov_cons_unit_zero2 (S := S1024x1) _ hz2]

/-- At a later point the running counts are the point's counts over what the point before left. -/
theorem sout2_B_1_eq (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) :
    sout2_B_1 c i arg1 harg1 arg2 harg2 arg3 harg3 arg4 harg4 arg5 harg5 arg6 harg6 arg7 harg7 hc0 x0 x1 x2 x3 xs0 xs1 = (k2_pay1 (k2_pay5 x1) (k2_pay7 (F := F)) xs1 (constant S1024x1 .f32 0x00000000#32)) := by
  unfold sout2_B_1
  rw [View.read_writes_eq_canon _ _ _ (scover2_B_1 c i arg1 harg1 arg2 harg2 arg3 harg3 arg4 harg4 arg5 harg5 arg6 harg6 arg7 harg7 hc0 x0 x1 x2 x3 xs0 xs1)]
  unfold kernelRun2_B
  dsimp only
  sl_unfold_words
  rw [View.canon_unit_zero (S := S1024x1) hz2]
  simp only [View.readAt_eq_ld, harg1.read_unread, harg2.read_unread, harg3.read_unread, harg4.read_unread, harg6.read_unread, harg7.read_unread, View.ld_unit_zero (S := S512x257) hz2, View.ld_unit_zero (S := S1x512) hz2, View.ld_unit_zero (S := S512x1) hz2, View.ld_unit_zero (S := S1024x257) hz2, View.ld_unit_zero (S := S1024x1) hz2,
    View.readCov_unit_zero (S := S1024x257) _ hz2, View.readCov_unit_zero (S := S1024x1) _ hz2,
    readCov_cons_unit_zero2 (S := S1024x257) _ hz2, readCov_cons_unit_zero2 (S := S1024x1) _ hz2]

/-- At a later point the output is the quotient of the two. -/
theorem out2_B_4_eq (c : Dev nD) (i : grid2.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond2_0 i)
    (x0 : Vec F S512x257 .f32) (x1 : Vec F S1x512 .i32) (x2 : Vec F S512x1 .i32) (x3 : Vec F S1024x257 .f32) (xs0 : Vec F S1024x257 .f32) (xs1 : Vec F S1024x1 .f32) :
    out2_B_4 c i arg1 harg1 arg2 harg2 arg3 harg3 arg4 harg4 arg5 harg5 arg6 harg6 arg7 harg7 hc0 x0 x1 x2 x3 xs0 xs1 = k2_pay2 (k2_pay6 x2 x3 x0 x1 xs0) (k2_pay1 (k2_pay5 x1) (k2_pay7 (F := F)) xs1 (constant S1024x1 .f32 0x00000000#32)) := by
  unfold out2_B_4
  rw [View.read_writes_eq_canon _ _ _ (cover2_B_4 c i arg1 harg1 arg2 harg2 arg3 harg3 arg4 harg4 arg5 harg5 arg6 harg6 arg7 harg7 hc0 x0 x1 x2 x3 xs0 xs1)]
  unfold kernelRun2_B
  dsimp only
  sl_unfold_words
  rw [View.canon_unit_zero (S := S1024x257) hz2]
  simp only [View.readAt_eq_ld, harg1.read_unread, harg2.read_unread, harg3.read_unread, harg4.read_unread, harg6.read_unread, harg7.read_unread, View.ld_unit_zero (S := S512x257) hz2, View.ld_unit_zero (S := S1x512) hz2, View.ld_unit_zero (S := S512x1) hz2, View.ld_unit_zero (S := S1024x257) hz2, View.ld_unit_zero (S := S1024x1) hz2,
    View.readCov_unit_zero (S := S1024x257) _ hz2, View.readCov_unit_zero (S := S1024x1) _ hz2,
    readCov_cons_unit_zero2 (S := S1024x257) _ hz2, readCov_cons_unit_zero2 (S := S1024x1) _ hz2]

/-! ## The recursion -/

/-- At the first point the step starts from zero sums and zero counts. -/
theorem outsAt2_first (c : Dev nD) (h : 0 < cfg2.N) :
    outsAt2 V c 0 h = residualStep2 (xblk2 V c ⟨0, h⟩) (idrow2 V c ⟨0, h⟩) (idcol2 V c ⟨0, h⟩) (anchor2 V c ⟨0, h⟩) (k2_pay3 (F := F)) (k2_pay4 (F := F)) := by
  refine Eq.trans (b := (out2_A_4 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) scM2_0 (Memref.isWhole_whole _) scM2_1 (Memref.isWhole_whole _) ((hcond2_0 ⟨0, h⟩).mpr rfl) (iblk2 V c 0 ⟨0, h⟩) (iblk2 V c 1 ⟨0, h⟩) (iblk2 V c 2 ⟨0, h⟩) (iblk2 V c 3 ⟨0, h⟩), sout2_A_0 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) scM2_0 (Memref.isWhole_whole _) scM2_1 (Memref.isWhole_whole _) ((hcond2_0 ⟨0, h⟩).mpr rfl) (iblk2 V c 0 ⟨0, h⟩) (iblk2 V c 1 ⟨0, h⟩) (iblk2 V c 2 ⟨0, h⟩) (iblk2 V c 3 ⟨0, h⟩), sout2_A_1 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) scM2_0 (Memref.isWhole_whole _) scM2_1 (Memref.isWhole_whole _) ((hcond2_0 ⟨0, h⟩).mpr rfl) (iblk2 V c 0 ⟨0, h⟩) (iblk2 V c 1 ⟨0, h⟩) (iblk2 V c 2 ⟨0, h⟩) (iblk2 V c 3 ⟨0, h⟩))) rfl ?_
  unfold residualStep2
  rw [out2_A_4_eq (F := F) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) scM2_0 (Memref.isWhole_whole _) scM2_1 (Memref.isWhole_whole _) ((hcond2_0 ⟨0, h⟩).mpr rfl) (iblk2 V c 0 ⟨0, h⟩) (iblk2 V c 1 ⟨0, h⟩) (iblk2 V c 2 ⟨0, h⟩) (iblk2 V c 3 ⟨0, h⟩),
    sout2_A_0_eq (F := F) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) scM2_0 (Memref.isWhole_whole _) scM2_1 (Memref.isWhole_whole _) ((hcond2_0 ⟨0, h⟩).mpr rfl) (iblk2 V c 0 ⟨0, h⟩) (iblk2 V c 1 ⟨0, h⟩) (iblk2 V c 2 ⟨0, h⟩) (iblk2 V c 3 ⟨0, h⟩),
    sout2_A_1_eq (F := F) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) scM2_0 (Memref.isWhole_whole _) scM2_1 (Memref.isWhole_whole _) ((hcond2_0 ⟨0, h⟩).mpr rfl) (iblk2 V c 0 ⟨0, h⟩) (iblk2 V c 1 ⟨0, h⟩) (iblk2 V c 2 ⟨0, h⟩) (iblk2 V c 3 ⟨0, h⟩)]

/-- At every later point it starts from what the point before left. -/
theorem outsAt2_next (c : Dev nD) (n : ℕ) (h : n + 1 < cfg2.N) :
    outsAt2 V c (n + 1) h = residualStep2 (xblk2 V c ⟨n + 1, h⟩) (idrow2 V c ⟨n + 1, h⟩) (idcol2 V c ⟨n + 1, h⟩) (anchor2 V c ⟨n + 1, h⟩)
      (outsAt2 V c n (Nat.lt_of_succ_lt h)).2.1 (outsAt2 V c n (Nat.lt_of_succ_lt h)).2.2 := by
  refine Eq.trans (b := (out2_B_4 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun hh => Nat.succ_ne_zero n ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.1 (outsAt2 V c n (Nat.lt_of_succ_lt h)).2.2, sout2_B_0 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun hh => Nat.succ_ne_zero n ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.1 (outsAt2 V c n (Nat.lt_of_succ_lt h)).2.2, sout2_B_1 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun hh => Nat.succ_ne_zero n ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.1 (outsAt2 V c n (Nat.lt_of_succ_lt h)).2.2)) rfl ?_
  unfold residualStep2
  rw [out2_B_4_eq (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun hh => Nat.succ_ne_zero n ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.1 (outsAt2 V c n (Nat.lt_of_succ_lt h)).2.2,
    sout2_B_0_eq (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun hh => Nat.succ_ne_zero n ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.1 (outsAt2 V c n (Nat.lt_of_succ_lt h)).2.2,
    sout2_B_1_eq (F := F) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) scM2_0 (Memref.isWhole_whole _) scM2_1 (Memref.isWhole_whole _) (fun hh => Nat.succ_ne_zero n ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.1 (outsAt2 V c n (Nat.lt_of_succ_lt h)).2.2]

end Cert.KernelIdeal.Hand

end
-- ==== Proof.Value.ResidualSums.lean ====
/-
  Sums over the 262144 rows, cut into 512 tiles of 512 rows, and the small facts about one-hot factors that the
  residual kernel's arithmetic comes down to.

  A row index n is 512 t + r with t the tile and r the row inside the tile; a sum over all rows is the sum over the
  tiles of the sums over a tile's rows, and a running total that starts at zero and adds one tile's sum per step is,
  after the last step, the sum over all rows. A one-hot factor is the word comparison turned into the real 1 or 0;
  multiplying by it keeps or drops the other factor.
-/
import Idealize.ShloMosaic.PureOps.Ideal
import Idealize.ShloMosaic.PureOps.Ideal.Laws
import Mathlib.Algebra.BigOperators.Fin
import Mathlib.Algebra.BigOperators.Group.Finset.Basic
import Mathlib.Data.Fintype.BigOperators
import Mathlib.Logic.Equiv.Fin.Basic

noncomputable section

open scoped BigOperators

namespace Cert.Value

open Idealize.ShloMosaic

/-! ## The literals one -/

/-- The binary32 word of one is the real one. -/
theorem one_f32 : Ideal.ofBits .f32 0x3F800000#32 = 1 := by
  simp [Ideal.ofBits, Ideal.ieee]
  rw [← EReal.coe_mul, ← EReal.coe_one]
  exact congrArg _ (by norm_num)

/-- The bfloat16 word of one is the real one. -/
theorem one_bf16 : Ideal.ofBits .bf16 0x3F80#16 = 1 := by
  simp [Ideal.ofBits, Ideal.ieee]
  rw [← EReal.coe_mul, ← EReal.coe_one]
  exact congrArg _ (by norm_num)

/-! ## One-hot factors -/

/-- A word comparison, widened to 32 bits and read as a signed integer, is the real 1 when the words agree and 0
    otherwise. -/
theorem onehot_word (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    rw [if_pos rfl]
    have : (IntOp.cmpi .eq a a).setWidth 32 = 1#32 := by
      simp [IntOp.cmpi]
    rw [this]
    simp
  · rw [if_neg h]
    have hb : (a == b) = false := beq_eq_false_iff_ne.mpr h
    have : (IntOp.cmpi .eq a b).setWidth 32 = 0#32 := by
      simp only [IntOp.cmpi, hb]
      rfl
    rw [this]
    simp

/-- Multiplying by a one-hot factor keeps the other factor or drops it. -/
theorem onehot_mul (c : Prop) [Decidable c] (x : EReal) : (if c then (1 : EReal) else 0) * x = if c then x else 0 := by
  by_cases h : c
  · rw [if_pos h, if_pos h, one_mul]
  · rw [if_neg h, if_neg h, zero_mul]

/-! ## Rows as tiles -/

/-- Row r of tile t. -/
abbrev rowOf (t r : Fin 512) : Fin 262144 := ⟨512 * t.val + r.val, by omega⟩

/-- A sum over all rows is the sum over the tiles of the sums over each tile's rows. -/
theorem sum_rows_eq_tiles {M : Type*} [AddCommMonoid M] (f : Fin 262144 → M) :
    ∑ n : Fin 262144, f n = ∑ t : Fin 512, ∑ r : Fin 512, f (rowOf t r) := by
  rw [← Fintype.sum_prod_type']
  refine (Equiv.sum_comp (finProdFinEquiv : Fin 512 × Fin 512 ≃ Fin (512 * 512)) f).symm.trans ?_
  refine Finset.sum_congr rfl fun x _ => congrArg f (Fin.ext ?_)
  show x.2.val + 512 * x.1.val = 512 * x.1.val + x.2.val
  omega

/-- The sum over the first n tiles, as a sum over a range of naturals: tile t contributes its rows' sum while t is a
    tile, and nothing beyond. -/
def tilesUpTo {M : Type*} [AddCommMonoid M] (f : Fin 262144 → M) (n : ℕ) : M :=
  ∑ t ∈ Finset.range n, if h : t < 512 then ∑ r : Fin 512, f (rowOf ⟨t, h⟩ r) else 0

theorem tilesUpTo_zero {M : Type*} [AddCommMonoid M] (f : Fin 262144 → M) : tilesUpTo f 0 = 0 := by
  unfold tilesUpTo; rw [Finset.range_zero, Finset.sum_empty]

/-- One more tile adds that tile's rows. -/
theorem tilesUpTo_succ {M : Type*} [AddCommMonoid M] (f : Fin 262144 → M) (n : ℕ) (h : n < 512) :
    tilesUpTo f (n + 1) = tilesUpTo f n + ∑ r : Fin 512, f (rowOf ⟨n, h⟩ r) := by
  unfold tilesUpTo; rw [Finset.sum_range_succ, dif_pos h]

/-- All 512 tiles are all rows. -/
theorem tilesUpTo_all {M : Type*} [AddCommMonoid M] (f : Fin 262144 → M) : tilesUpTo f 512 = ∑ n : Fin 262144, f n := by
  unfold tilesUpTo
  rw [Finset.sum_range, sum_rows_eq_tiles]
  exact Finset.sum_congr rfl fun t _ => by rw [dif_pos t.isLt]

end Cert.Value

end
-- ==== Proof.Value.ResidualMath.lean ====
/-
  The residual kernel's arithmetic at one entry, over the extended reals.

  A tile is 512 rows. The column one-hot (row r, group g') is 1 when the row's id, read from the id column, is the word
  of g'; its product with the anchor table picks the anchor of the row's group. The row one-hot (group g, row r) is 1
  when the row's id, read from the id row, is the word of g; its product with the rows' features less their picked
  anchors adds, into group g, the relative features of the tile's rows of that group, and its product with a column of
  ones counts them. The output divides the running sums by the larger of the running count and one.
-/
import proofs.«430159_j88974542504689_1_alg».proof.Proof.Gen.KernelIdeal.Skeleton
import proofs.«430159_j88974542504689_1_alg».proof.Proof.Value.Spec
import proofs.«430159_j88974542504689_1_alg».proof.Proof.Value.ResidualSums
import Idealize.ShloMosaic.Lib.ValueIdx
import Idealize.ShloMosaic.Lib.Pipeline.Value
import Idealize.ShloMosaic.PureOps.Ideal.Laws

noncomputable section

open scoped BigOperators

namespace Cert.Value

open Idealize.ShloMosaic Idealize.ShloMosaic.ValueIdx
open Cert.KernelIdeal Cert.KernelIdeal.Gen

/-! ## The three products, entry by entry -/

theorem lhs_pick_0 (i : S512x257.Idx) (q : dot_S512x1024_S1024x257_S512x257_1_0_0_1_n_n.contr.Idx) :
    (dot_S512x1024_S1024x257_S512x257_1_0_0_1_n_n.lhsIdx i q 0).val = (i 0).val := by
  unfold DotDims.lhsIdx
  rw [dif_neg (show ¬(0 : Fin S512x1024.rank) ∈ dot_S512x1024_S1024x257_S512x257_1_0_0_1_n_n.lhsBatch by decide), dif_pos (show (0 : Fin S512x1024.rank) ∈ dot_S512x1024_S1024x257_S512x257_1_0_0_1_n_n.lhsNonContracting by decide)]
  rfl
theorem lhs_pick_1 (i : S512x257.Idx) (q : dot_S512x1024_S1024x257_S512x257_1_0_0_1_n_n.contr.Idx) :
    (dot_S512x1024_S1024x257_S512x257_1_0_0_1_n_n.lhsIdx i q 1).val = (q ⟨0, by decide⟩).val :=
  dot_S512x1024_S1024x257_S512x257_1_0_0_1_n_n.lhsIdx_val_of_single rfl i q
theorem rhs_pick_0 (i : S512x257.Idx) (q : dot_S512x1024_S1024x257_S512x257_1_0_0_1_n_n.contr.Idx) :
    (dot_S512x1024_S1024x257_S512x257_1_0_0_1_n_n.rhsIdx i q 0).val = (q ⟨0, by decide⟩).val :=
  dot_S512x1024_S1024x257_S512x257_1_0_0_1_n_n.rhsIdx_val_of_single rfl i q
theorem rhs_pick_1 (i : S512x257.Idx) (q : dot_S512x1024_S1024x257_S512x257_1_0_0_1_n_n.contr.Idx) :
    (dot_S512x1024_S1024x257_S512x257_1_0_0_1_n_n.rhsIdx i q 1).val = (i 1).val := by
  unfold DotDims.rhsIdx
  rw [dif_neg (show ¬(1 : Fin S1024x257.rank) ∈ dot_S512x1024_S1024x257_S512x257_1_0_0_1_n_n.rhsBatch by decide), dif_pos (show (1 : Fin S1024x257.rank) ∈ dot_S512x1024_S1024x257_S512x257_1_0_0_1_n_n.rhsNonContracting by decide)]
  rfl

theorem lhs_seg_0 (i : S1024x257.Idx) (q : dot_S1024x512_S512x257_S1024x257_1_0_0_1_n_n.contr.Idx) :
    (dot_S1024x512_S512x257_S1024x257_1_0_0_1_n_n.lhsIdx i q 0).val = (i 0).val := by
  unfold DotDims.lhsIdx
  rw [dif_neg (show ¬(0 : Fin S1024x512.rank) ∈ dot_S1024x512_S512x257_S1024x257_1_0_0_1_n_n.lhsBatch by decide), dif_pos (show (0 : Fin S1024x512.rank) ∈ dot_S1024x512_S512x257_S1024x257_1_0_0_1_n_n.lhsNonContracting by decide)]
  rfl
theorem lhs_seg_1 (i : S1024x257.Idx) (q : dot_S1024x512_S512x257_S1024x257_1_0_0_1_n_n.contr.Idx) :
    (dot_S1024x512_S512x257_S1024x257_1_0_0_1_n_n.lhsIdx i q 1).val = (q ⟨0, by decide⟩).val :=
  dot_S1024x512_S512x257_S1024x257_1_0_0_1_n_n.lhsIdx_val_of_single rfl i q
theorem rhs_seg_0 (i : S1024x257.Idx) (q : dot_S1024x512_S512x257_S1024x257_1_0_0_1_n_n.contr.Idx) :
    (dot_S1024x512_S512x257_S1024x257_1_0_0_1_n_n.rhsIdx i q 0).val = (q ⟨0, by decide⟩).val :=
  dot_S1024x512_S512x257_S1024x257_1_0_0_1_n_n.rhsIdx_val_of_single rfl i q
theorem rhs_seg_1 (i : S1024x257.Idx) (q : dot_S1024x512_S512x257_S1024x257_1_0_0_1_n_n.contr.Idx) :
    (dot_S1024x512_S512x257_S1024x257_1_0_0_1_n_n.rhsIdx i q 1).val = (i 1).val := by
  unfold DotDims.rhsIdx
  rw [dif_neg (show ¬(1 : Fin S512x257.rank) ∈ dot_S1024x512_S512x257_S1024x257_1_0_0_1_n_n.rhsBatch by decide), dif_pos (show (1 : Fin S512x257.rank) ∈ dot_S1024x512_S512x257_S1024x257_1_0_0_1_n_n.rhsNonContracting by decide)]
  rfl

theorem lhs_cnt_0 (i : S1024x1.Idx) (q : dot_S1024x512_S512x1_S1024x1_1_0_0_1_n_n.contr.Idx) :
    (dot_S1024x512_S512x1_S1024x1_1_0_0_1_n_n.lhsIdx i q 0).val = (i 0).val := by
  unfold DotDims.lhsIdx
  rw [dif_neg (show ¬(0 : Fin S1024x512.rank) ∈ dot_S1024x512_S512x1_S1024x1_1_0_0_1_n_n.lhsBatch by decide), dif_pos (show (0 : Fin S1024x512.rank) ∈ dot_S1024x512_S512x1_S1024x1_1_0_0_1_n_n.lhsNonContracting by decide)]
  rfl
theorem lhs_cnt_1 (i : S1024x1.Idx) (q : dot_S1024x512_S512x1_S1024x1_1_0_0_1_n_n.contr.Idx) :
    (dot_S1024x512_S512x1_S1024x1_1_0_0_1_n_n.lhsIdx i q 1).val = (q ⟨0, by decide⟩).val :=
  dot_S1024x512_S512x1_S1024x1_1_0_0_1_n_n.lhsIdx_val_of_single rfl i q
theorem rhs_cnt_0 (i : S1024x1.Idx) (q : dot_S1024x512_S512x1_S1024x1_1_0_0_1_n_n.contr.Idx) :
    (dot_S1024x512_S512x1_S1024x1_1_0_0_1_n_n.rhsIdx i q 0).val = (q ⟨0, by decide⟩).val :=
  dot_S1024x512_S512x1_S1024x1_1_0_0_1_n_n.rhsIdx_val_of_single rfl i q
theorem rhs_cnt_1 (i : S1024x1.Idx) (q : dot_S1024x512_S512x1_S1024x1_1_0_0_1_n_n.contr.Idx) :
    (dot_S1024x512_S512x1_S1024x1_1_0_0_1_n_n.rhsIdx i q 1).val = (i 1).val := by
  unfold DotDims.rhsIdx
  rw [dif_neg (show ¬(1 : Fin S512x1.rank) ∈ dot_S1024x512_S512x1_S1024x1_1_0_0_1_n_n.rhsBatch by decide), dif_pos (show (1 : Fin S512x1.rank) ∈ dot_S1024x512_S512x1_S1024x1_1_0_0_1_n_n.rhsNonContracting by decide)]
  rfl

/-- Rows by groups times groups by columns, into zero: entry (r, d) sums over the groups. -/
theorem matmul_pick_apply {φ₁ φ₂ : FTy} (l : FVec Ideal S512x1024 φ₁) (r : FVec Ideal S1024x257 φ₂) (p : Fin 512) (q : Fin 257) :
    matmul dot_S512x1024_S1024x257_S512x257_1_0_0_1_n_n none l r (constant S512x257 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x257_S512x257_1_0_0_1_n_n 1024 rfl rfl).symm]
  refine Finset.sum_congr rfl fun k _ => ?_
  have hk := contrEquiv1_symm_val dot_S512x1024_S1024x257_S512x257_1_0_0_1_n_n 1024 rfl rfl k
  have el : dot_S512x1024_S1024x257_S512x257_1_0_0_1_n_n.lhsIdx (ix2 p q) ((contrEquiv1 dot_S512x1024_S1024x257_S512x257_1_0_0_1_n_n 1024 rfl rfl).symm k) = ix2 p k := funext fun a => Fin.ext (by
    match a with
    | ⟨0, _⟩ => exact lhs_pick_0 _ _
    | ⟨1, _⟩ => exact (lhs_pick_1 _ _).trans hk)
  have er : dot_S512x1024_S1024x257_S512x257_1_0_0_1_n_n.rhsIdx (ix2 p q) ((contrEquiv1 dot_S512x1024_S1024x257_S512x257_1_0_0_1_n_n 1024 rfl rfl).symm k) = ix2 k q := funext fun a => Fin.ext (by
    match a with
    | ⟨0, _⟩ => exact (rhs_pick_0 _ _).trans hk
    | ⟨1, _⟩ => exact rhs_pick_1 _ _)
  rw [el, er]

/-- Groups by rows times rows by columns, into zero: entry (g, d) sums over the tile's rows. -/
theorem matmul_seg_apply {φ₁ φ₂ : FTy} (l : FVec Ideal S1024x512 φ₁) (r : FVec Ideal S512x257 φ₂) (p : Fin 1024) (q : Fin 257) :
    matmul dot_S1024x512_S512x257_S1024x257_1_0_0_1_n_n none l r (constant S1024x257 .f32 0x00000000#32) (ix2 p q)
      = ∑ k : Fin 512, l (ix2 p k) * r (ix2 k q) := by
  simp only [matmul]
  rw [Ideal.matmul_constant_zero_apply, ← Equiv.sum_comp (contrEquiv1 dot_S1024x512_S512x257_S1024x257_1_0_0_1_n_n 512 rfl rfl).symm]
  refine Finset.sum_congr rfl fun k _ => ?_
  have hk := contrEquiv1_symm_val dot_S1024x512_S512x257_S1024x257_1_0_0_1_n_n 512 rfl rfl k
  have el : dot_S1024x512_S512x257_S1024x257_1_0_0_1_n_n.lhsIdx (ix2 p q) ((contrEquiv1 dot_S1024x512_S512x257_S1024x257_1_0_0_1_n_n 512 rfl rfl).symm k) = ix2 p k := funext fun a => Fin.ext (by
    match a with
    | ⟨0, _⟩ => exact lhs_seg_0 _ _
    | ⟨1, _⟩ => exact (lhs_seg_1 _ _).trans hk)
  have er : dot_S1024x512_S512x257_S1024x257_1_0_0_1_n_n.rhsIdx (ix2 p q) ((contrEquiv1 dot_S1024x512_S512x257_S1024x257_1_0_0_1_n_n 512 rfl rfl).symm k) = ix2 k q := funext fun a => Fin.ext (by
    match a with
    | ⟨0, _⟩ => exact (rhs_seg_0 _ _).trans hk
    | ⟨1, _⟩ => exact rhs_seg_1 _ _)
  rw [el, er]

/-- Groups by rows times a column, into zero: entry (g, 0) sums over the tile's rows. -/
theorem matmul_cnt_apply {φ₁ φ₂ : FTy} (l : FVec Ideal S1024x512 φ₁) (r : FVec Ideal S512x1 φ₂) (p : Fin 1024) (q : Fin 1) :
    matmul dot_S1024x512_S512x1_S1024x1_1_0_0_1_n_n none l r (constant S1024x1 .f32 0x00000000#32) (ix2 p q)
      = ∑ k : Fin 512, l (ix2 p k) * r (ix2 k q) := by
  simp only [matmul]
  rw [Ideal.matmul_constant_zero_apply, ← Equiv.sum_comp (contrEquiv1 dot_S1024x512_S512x1_S1024x1_1_0_0_1_n_n 512 rfl rfl).symm]
  refine Finset.sum_congr rfl fun k _ => ?_
  have hk := contrEquiv1_symm_val dot_S1024x512_S512x1_S1024x1_1_0_0_1_n_n 512 rfl rfl k
  have el : dot_S1024x512_S512x1_S1024x1_1_0_0_1_n_n.lhsIdx (ix2 p q) ((contrEquiv1 dot_S1024x512_S512x1_S1024x1_1_0_0_1_n_n 512 rfl rfl).symm k) = ix2 p k := funext fun a => Fin.ext (by
    match a with
    | ⟨0, _⟩ => exact lhs_cnt_0 _ _
    | ⟨1, _⟩ => exact (lhs_cnt_1 _ _).trans hk)
  have er : dot_S1024x512_S512x1_S1024x1_1_0_0_1_n_n.rhsIdx (ix2 p q) ((contrEquiv1 dot_S1024x512_S512x1_S1024x1_1_0_0_1_n_n 512 rfl rfl).symm k) = ix2 k q := funext fun a => Fin.ext (by
    match a with
    | ⟨0, _⟩ => exact (rhs_cnt_0 _ _).trans hk
    | ⟨1, _⟩ => exact rhs_cnt_1 _ _)
  rw [el, er]

/-! ## The two one-hot matrices -/

/-- Groups by rows: the id row, spread down the groups, compared with the group numbers. -/
def onehotRows (idrow : Vec Ideal S1x512 .i32) : FVec Ideal S1024x512 .bf16 :=
  truncf .bf16 (sitofp .f32 (extui 32 (cmpi .eq (iota .tc S1024x512 32 [0] iota_S1024x512_d0_w32)
    (broadcastTo S1024x512 (shapeCast S1x512 (shapeCast S1x512 idrow shapeCasts_S1x512_S1x512) shapeCasts_S1x512_S1x512) broadcasts_S1x512_S1024x512)) natLt_1_32)) bitsLt_bf16_f32

/-- Rows by groups: the id column, spread along the groups, compared with the group numbers. -/
def onehotCols (idcol : Vec Ideal S512x1 .i32) : FVec Ideal S512x1024 .bf16 :=
  truncf .bf16 (sitofp .f32 (extui 32 (cmpi .eq (iota .tc S512x1024 32 [1] iota_S512x1024_d1_w32)
    (broadcastTo S512x1024 (shapeCast S512x1 (shapeCast S512x1 idcol shapeCasts_S512x1_S512x1) shapeCasts_S512x1_S512x1) broadcasts_S512x1_S512x1024)) natLt_1_32)) bitsLt_bf16_f32

theorem onehotRows_apply (idrow : Vec Ideal S1x512 .i32) (g : Fin 1024) (r : Fin 512) :
    onehotRows idrow (ix2 g r) = if idrow (ix2 0 r) = Spec.gw g then 1 else 0 := by
  have e1 : iota .tc S1024x512 32 [0] iota_S1024x512_d0_w32 (ix2 g r) = Spec.gw g :=
    iota_single_apply .tc S1024x512 32 0 iota_S1024x512_d0_w32 (ix2 g r)
  have e2 : broadcastTo S1024x512 (shapeCast S1x512 (shapeCast S1x512 idrow shapeCasts_S1x512_S1x512) shapeCasts_S1x512_S1x512) broadcasts_S1x512_S1024x512 (ix2 g r)
      = idrow (ix2 0 r) := by
    rw [shapeCast_self, shapeCast_self]
    exact broadcastTo_apply idrow broadcasts_S1x512_S1024x512 (ix2 g r) (ix2 0 r) (fun a => match a with
      | ⟨0, _⟩ => by show 0 = if (1 : Nat) = 1 then 0 else _; rw [if_pos rfl]
      | ⟨1, _⟩ => by show r.val = if (512 : Nat) = 1 then 0 else r.val; rw [if_neg (by decide)])
  show (FloatOps.sitofp (F := Ideal) .f32 ((IntOp.cmpi .eq (iota .tc S1024x512 32 [0] iota_S1024x512_d0_w32 (ix2 g r))
    (broadcastTo S1024x512 (shapeCast S1x512 (shapeCast S1x512 idrow shapeCasts_S1x512_S1x512) shapeCasts_S1x512_S1x512) broadcasts_S1x512_S1024x512 (ix2 g r))).setWidth 32) : EReal) = _
  rw [e1, e2, onehot_word]
  exact if_congr eq_comm rfl rfl

theorem onehotCols_apply (idcol : Vec Ideal S512x1 .i32) (r : Fin 512) (g : Fin 1024) :
    onehotCols idcol (ix2 r g) = if idcol (ix2 r 0) = Spec.gw g then 1 else 0 := by
  have e1 : iota .tc S512x1024 32 [1] iota_S512x1024_d1_w32 (ix2 r g) = Spec.gw g :=
    iota_single_apply .tc S512x1024 32 1 iota_S512x1024_d1_w32 (ix2 r g)
  have e2 : broadcastTo S512x1024 (shapeCast S512x1 (shapeCast S512x1 idcol shapeCasts_S512x1_S512x1) shapeCasts_S512x1_S512x1) broadcasts_S512x1_S512x1024 (ix2 r g)
      = idcol (ix2 r 0) := by
    rw [shapeCast_self, shapeCast_self]
    exact broadcastTo_apply idcol broadcasts_S512x1_S512x1024 (ix2 r g) (ix2 r 0) (fun a => match a with
      | ⟨0, _⟩ => by show r.val = if (512 : Nat) = 1 then 0 else r.val; rw [if_neg (by decide)]
      | ⟨1, _⟩ => by show 0 = if (1 : Nat) = 1 then 0 else _; rw [if_pos rfl])
  show (FloatOps.sitofp (F := Ideal) .f32 ((IntOp.cmpi .eq (iota .tc S512x1024 32 [1] iota_S512x1024_d1_w32 (ix2 r g))
    (broadcastTo S512x1024 (shapeCast S512x1 (shapeCast S512x1 idcol shapeCasts_S512x1_S512x1) shapeCasts_S512x1_S512x1) broadcasts_S512x1_S512x1024 (ix2 r g))).setWidth 32) : EReal) = _
  rw [e1, e2, onehot_word]
  exact if_congr eq_comm rfl rfl

/-! ## One point's step, as the three products over the one-hot matrices -/

/-- The anchors the tile's rows pick. -/
def picked (idcol : Vec Ideal S512x1 .i32) (anchor : Vec Ideal S1024x257 .f32) : FVec Ideal S512x257 .f32 :=
  matmul dot_S512x1024_S1024x257_S512x257_1_0_0_1_n_n none (onehotCols idcol) (truncf .bf16 anchor bitsLt_bf16_f32) (constant S512x257 .f32 0x00000000#32)

theorem picked_apply (idcol : Vec Ideal S512x1 .i32) (anchor : Vec Ideal S1024x257 .f32) (r : Fin 512) (d : Fin 257) :
    picked idcol anchor (ix2 r d) = Spec.pick (fun g' d' => anchor (ix2 g' d')) (idcol (ix2 r 0)) d := by
  unfold picked Spec.pick
  rw [matmul_pick_apply]
  exact Finset.sum_congr rfl fun g' _ => by rw [onehotCols_apply, truncf_apply]

/-- The sums after the point. -/
def accumulate (idcol : Vec Ideal S512x1 .i32) (anchor : Vec Ideal S1024x257 .f32) (x : Vec Ideal S512x257 .f32)
    (idrow : Vec Ideal S1x512 .i32) (s : Vec Ideal S1024x257 .f32) : FVec Ideal S1024x257 .f32 :=
  addf s (matmul dot_S1024x512_S512x257_S1024x257_1_0_0_1_n_n none (onehotRows idrow)
    (truncf .bf16 (subf x (matmul dot_S512x1024_S1024x257_S512x257_1_0_0_1_n_n none (onehotCols idcol) (truncf .bf16 anchor bitsLt_bf16_f32) (constant S512x257 .f32 0x00000000#32))) bitsLt_bf16_f32)
    (constant S1024x257 .f32 0x00000000#32))

theorem accumulate_apply (idcol : Vec Ideal S512x1 .i32) (anchor : Vec Ideal S1024x257 .f32) (x : Vec Ideal S512x257 .f32)
    (idrow : Vec Ideal S1x512 .i32) (s : Vec Ideal S1024x257 .f32) (g : Fin 1024) (d : Fin 257) :
    accumulate idcol anchor x idrow s (ix2 g d)
      = s (ix2 g d) + ∑ r : Fin 512, (if idrow (ix2 0 r) = Spec.gw g then x (ix2 r d) - Spec.pick (fun g' d' => anchor (ix2 g' d')) (idcol (ix2 r 0)) d else 0) := by
  unfold accumulate
  rw [addf_apply, matmul_seg_apply]
  refine congrArg (s (ix2 g d) + ·) (Finset.sum_congr rfl fun r _ => ?_)
  rw [onehotRows_apply, truncf_apply, subf_apply, onehot_mul]
  exact if_congr Iff.rfl (congrArg (x (ix2 r d) - ·) (picked_apply idcol anchor r d)) rfl

/-- The counts after the point. -/
def count (idrow : Vec Ideal S1x512 .i32) (k : Vec Ideal S1024x1 .f32) : FVec Ideal S1024x1 .f32 :=
  addf k (matmul dot_S1024x512_S512x1_S1024x1_1_0_0_1_n_n none (onehotRows idrow) (broadcast S512x1 (Scalar.ofBits (F := Ideal) .bf16 0x3F80#16))
    (constant S1024x1 .f32 0x00000000#32))

theorem count_apply (idrow : Vec Ideal S1x512 .i32) (k : Vec Ideal S1024x1 .f32) (g : Fin 1024) :
    count idrow k (ix2 g 0) = k (ix2 g 0) + ∑ r : Fin 512, (if idrow (ix2 0 r) = Spec.gw g then (1 : EReal) else 0) := by
  unfold count
  rw [addf_apply, matmul_cnt_apply]
  refine congrArg (k (ix2 g 0) + ·) (Finset.sum_congr rfl fun r _ => ?_)
  rw [onehotRows_apply, onehot_mul]
  exact if_congr Iff.rfl one_bf16 rfl

/-- The quotient. -/
theorem quotient_apply (s : Vec Ideal S1024x257 .f32) (k : Vec Ideal S1024x1 .f32) (g : Fin 1024) (d : Fin 257) :
    divf s (broadcastTo S1024x257 (maximumf k (broadcast S1024x1 (Scalar.ofBits (F := Ideal) .f32 0x3F800000#32))) broadcasts_S1024x1_S1024x257) (ix2 g d)
      = Ideal.div (s (ix2 g d)) (max (k (ix2 g 0)) 1) := by
  rw [divf_apply]
  refine congrArg (Ideal.div (s (ix2 g d))) ?_
  refine (broadcastTo_apply _ broadcasts_S1024x1_S1024x257 (ix2 g d) (ix2 g 0) (fun a => match a with
      | ⟨0, _⟩ => by show g.val = if (1024 : Nat) = 1 then 0 else g.val; rw [if_neg (by decide)]
      | ⟨1, _⟩ => by show 0 = if (1 : Nat) = 1 then 0 else _; rw [if_pos rfl])).trans ?_
  rw [maximumf_apply]
  exact congrArg (max (k (ix2 g 0))) one_f32

/-! ## Region 2: the body's arithmetic at an index -/

/-- The segment one-hot: entry (g, r) compares the r-th row id of the tile with the word of group g. -/
theorem pay5_2_apply (idrow : Vec Ideal S1x512 .i32) (g : Fin 1024) (r : Fin 512) :
    k2_pay5 (F := Ideal) idrow (ix2 g r) = if idrow (ix2 0 r) = Spec.gw g then 1 else 0 := by
  unfold k2_pay5
  exact onehotRows_apply idrow g r

/-- The running sums after a point: what was there plus, for every row of the tile in group g, the row's features less
    the anchor its column id picks. -/
theorem pay6_2_apply (idcol : Vec Ideal S512x1 .i32) (anchor : Vec Ideal S1024x257 .f32) (x : Vec Ideal S512x257 .f32)
    (idrow : Vec Ideal S1x512 .i32) (s : Vec Ideal S1024x257 .f32) (g : Fin 1024) (d : Fin 257) :
    k2_pay6 (F := Ideal) idcol anchor x idrow s (ix2 g d)
      = s (ix2 g d) + ∑ r : Fin 512, (if idrow (ix2 0 r) = Spec.gw g then x (ix2 r d) - Spec.pick (fun g' d' => anchor (ix2 g' d')) (idcol (ix2 r 0)) d else 0) := by
  have e : k2_pay6 (F := Ideal) idcol anchor x idrow s = accumulate idcol anchor x idrow s := by
    unfold k2_pay6 k2_pay5 accumulate onehotRows onehotCols
    simp only [shapeCast_self]
  rw [e]
  exact accumulate_apply idcol anchor x idrow s g d

/-- The running counts after a point: what was there plus the number of the tile's rows in group g. -/
theorem pay1_2_apply (idrow : Vec Ideal S1x512 .i32) (k : Vec Ideal S1024x1 .f32) (g : Fin 1024) :
    k2_pay1 (F := Ideal) (k2_pay5 idrow) (k2_pay7 (F := Ideal)) k (constant S1024x1 .f32 0x00000000#32) (ix2 g 0)
      = k (ix2 g 0) + ∑ r : Fin 512, (if idrow (ix2 0 r) = Spec.gw g then (1 : EReal) else 0) := by
  have e : k2_pay1 (F := Ideal) (k2_pay5 idrow) (k2_pay7 (F := Ideal)) k (constant S1024x1 .f32 0x00000000#32) = count idrow k := by
    unfold k2_pay1 k2_pay5 k2_pay7 count onehotRows
    simp only [shapeCast_self]
  rw [e]
  exact count_apply idrow k g

/-- The output: the sums over the larger of the count and one. -/
theorem pay2_2_apply (s : Vec Ideal S1024x257 .f32) (k : Vec Ideal S1024x1 .f32) (g : Fin 1024) (d : Fin 257) :
    k2_pay2 (F := Ideal) s k (ix2 g d) = Ideal.div (s (ix2 g d)) (max (k (ix2 g 0)) 1) := by
  unfold k2_pay2
  exact quotient_apply s k g d

/-- The sums start at zero. -/
theorem pay3_2_apply (g : Fin 1024) (d : Fin 257) : k2_pay3 (F := Ideal) (ix2 g d) = 0 := by
  unfold k2_pay3
  rw [shapeCast_self]
  exact Ideal.ofBits_zero_f32

/-- The counts start at zero. -/
theorem pay4_2_apply (g : Fin 1024) : k2_pay4 (F := Ideal) (ix2 g 0) = 0 := by
  unfold k2_pay4
  rw [shapeCast_self]
  exact Ideal.ofBits_zero_f32

/-! ## Region 3: the body's arithmetic at an index -/

/-- The segment one-hot: entry (g, r) compares the r-th row id of the tile with the word of group g. -/
theorem pay5_3_apply (idrow : Vec Ideal S1x512 .i32) (g : Fin 1024) (r : Fin 512) :
    k3_pay5 (F := Ideal) idrow (ix2 g r) = if idrow (ix2 0 r) = Spec.gw g then 1 else 0 := by
  unfold k3_pay5
  exact onehotRows_apply idrow g r

/-- The running sums after a point: what was there plus, for every row of the tile in group g, the row's features less
    the anchor its column id picks. -/
theorem pay6_3_apply (idcol : Vec Ideal S512x1 .i32) (anchor : Vec Ideal S1024x257 .f32) (x : Vec Ideal S512x257 .f32)
    (idrow : Vec Ideal S1x512 .i32) (s : Vec Ideal S1024x257 .f32) (g : Fin 1024) (d : Fin 257) :
    k3_pay6 (F := Ideal) idcol anchor x idrow s (ix2 g d)
      = s (ix2 g d) + ∑ r : Fin 512, (if idrow (ix2 0 r) = Spec.gw g then x (ix2 r d) - Spec.pick (fun g' d' => anchor (ix2 g' d')) (idcol (ix2 r 0)) d else 0) := by
  have e : k3_pay6 (F := Ideal) idcol anchor x idrow s = accumulate idcol anchor x idrow s := by
    unfold k3_pay6 k3_pay5 accumulate onehotRows onehotCols
    simp only [shapeCast_self]
  rw [e]
  exact accumulate_apply idcol anchor x idrow s g d

/-- The running counts after a point: what was there plus the number of the tile's rows in group g. -/
theorem pay1_3_apply (idrow : Vec Ideal S1x512 .i32) (k : Vec Ideal S1024x1 .f32) (g : Fin 1024) :
    k3_pay1 (F := Ideal) (k3_pay5 idrow) (k3_pay7 (F := Ideal)) k (constant S1024x1 .f32 0x00000000#32) (ix2 g 0)
      = k (ix2 g 0) + ∑ r : Fin 512, (if idrow (ix2 0 r) = Spec.gw g then (1 : EReal) else 0) := by
  have e : k3_pay1 (F := Ideal) (k3_pay5 idrow) (k3_pay7 (F := Ideal)) k (constant S1024x1 .f32 0x00000000#32) = count idrow k := by
    unfold k3_pay1 k3_pay5 k3_pay7 count onehotRows
    simp only [shapeCast_self]
  rw [e]
  exact count_apply idrow k g

/-- The output: the sums over the larger of the count and one. -/
theorem pay2_3_apply (s : Vec Ideal S1024x257 .f32) (k : Vec Ideal S1024x1 .f32) (g : Fin 1024) (d : Fin 257) :
    k3_pay2 (F := Ideal) s k (ix2 g d) = Ideal.div (s (ix2 g d)) (max (k (ix2 g 0)) 1) := by
  unfold k3_pay2
  exact quotient_apply s k g d

/-- The sums start at zero. -/
theorem pay3_3_apply (g : Fin 1024) (d : Fin 257) : k3_pay3 (F := Ideal) (ix2 g d) = 0 := by
  unfold k3_pay3
  rw [shapeCast_self]
  exact Ideal.ofBits_zero_f32

/-- The counts start at zero. -/
theorem pay4_3_apply (g : Fin 1024) : k3_pay4 (F := Ideal) (ix2 g 0) = 0 := by
  unfold k3_pay4
  rw [shapeCast_self]
  exact Ideal.ofBits_zero_f32

end Cert.Value

end
-- ==== Proof.Value.Residual2Value.lean ====
/-
  REGION 2, the value: what the residual kernel on the context rows leaves in its output array.

  The grid's point t handles the 512 rows 512 t … 512 t + 511: its block of rows, the rows' ids once as a row and
  once as a column, and the whole anchor table. Its step adds, for every group, the tile's rows of that group less
  their picked anchors to the running sums, counts them into the running counts, and writes the quotient to the
  output block, which is the whole output array and is written back after the last point only. So the running sums
  after point t are the sums over the first t + 1 tiles, after the last point the sum over all rows, and the output
  array ends at the segment mean of the rows relative to their picked anchors.
-/
import proofs.«430159_j88974542504689_1_alg».proof.Proof.KI.R2Step
import proofs.«430159_j88974542504689_1_alg».proof.Proof.Value.ResidualMath
import Idealize.ShloMosaic.Lib.Pipeline.Value

noncomputable section

open scoped BigOperators

namespace Cert.Value

open Idealize.ShloMosaic Idealize.ShloMosaic.ValueIdx Idealize.ShloMosaic.TcCoe
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## The arrays, by coordinates -/

/-- The rows' ids, read from the id row. -/
abbrev rowIds2 (c : Dev nD) : Fin 262144 → BitVec 32 := fun n => (V c main_v6 : S1x262144.Idx → BitVec 32) (ix2 0 n)
/-- The rows' ids, read from the id column. -/
abbrev colIds2 (c : Dev nD) : Fin 262144 → BitVec 32 := fun n => (V c main_v7 : S262144x1.Idx → BitVec 32) (ix2 n 0)
/-- The rows' features. -/
abbrev rows2 (c : Dev nD) : Fin 262144 → Fin 257 → EReal := fun n d => (V c main_v0 : S262144x257.Idx → EReal) (ix2 n d)
/-- The anchor table. -/
abbrev anchors2 (c : Dev nD) : Fin 1024 → Fin 257 → EReal := fun g d => (V c main_v3 : S1024x257.Idx → EReal) (ix2 g d)

/-! ## Which block each window reads at a point -/

theorem index2_0 : ∀ t : Fin grid2.N, win2_0.index t 0 = t.val ∧ win2_0.index t 1 = 0 := by decide +kernel
theorem index2_1 : ∀ t : Fin grid2.N, win2_1.index t 0 = 0 ∧ win2_1.index t 1 = t.val := by decide +kernel
theorem index2_2 : ∀ t : Fin grid2.N, win2_2.index t 0 = t.val ∧ win2_2.index t 1 = 0 := by decide +kernel
theorem index2_3 : ∀ t : Fin grid2.N, win2_3.index t 0 = 0 ∧ win2_3.index t 1 = 0 := by decide +kernel
theorem index2_4 : ∀ t : Fin grid2.N, win2_4.index t 0 = 0 ∧ win2_4.index t 1 = 0 := by decide +kernel

/-- The block of rows at point t is rows 512 t … 512 t + 511 of the array. -/
theorem xblk2_apply (c : Dev nD) (t : Fin cfg2.N) (ht : t.val < 512) (r : Fin 512) (d : Fin 257) :
    xblk2 V c t (ix2 r d) = rows2 V c (rowOf ⟨t.val, ht⟩ r) d := by
  have hi := index2_0 t
  unfold xblk2 iblk2
  rw [View.read_apply]
  show (V c main_v0 : S262144x257.Idx → EReal) _ = (V c main_v0 : S262144x257.Idx → EReal) _
  refine congrArg (V c main_v0 : S262144x257.Idx → EReal) (funext fun a => Fin.ext ?_)
  match a with
  | ⟨0, _⟩ => show win2_0.index t 0 * 512 + 1 * r.val = 512 * t.val + r.val; rw [hi.1]; omega
  | ⟨1, _⟩ => show win2_0.index t 1 * 257 + 1 * d.val = d.val; rw [hi.2]; omega

/-- The id row's block at point t is its columns 512 t … 512 t + 511. -/
theorem idrow2_apply (c : Dev nD) (t : Fin cfg2.N) (ht : t.val < 512) (r : Fin 512) :
    idrow2 V c t (ix2 0 r) = rowIds2 V c (rowOf ⟨t.val, ht⟩ r) := by
  have hi := index2_1 t
  unfold idrow2 iblk2
  rw [View.read_apply]
  show (V c main_v6 : S1x262144.Idx → BitVec 32) _ = (V c main_v6 : S1x262144.Idx → BitVec 32) _
  refine congrArg (V c main_v6 : S1x262144.Idx → BitVec 32) (funext fun a => Fin.ext ?_)
  match a with
  | ⟨0, _⟩ => show win2_1.index t 0 * 1 + 1 * 0 = 0; rw [hi.1]
  | ⟨1, _⟩ => show win2_1.index t 1 * 512 + 1 * r.val = 512 * t.val + r.val; rw [hi.2]; omega

/-- The id column's block at point t is its rows 512 t … 512 t + 511. -/
theorem idcol2_apply (c : Dev nD) (t : Fin cfg2.N) (ht : t.val < 512) (r : Fin 512) :
    idcol2 V c t (ix2 r 0) = colIds2 V c (rowOf ⟨t.val, ht⟩ r) := by
  have hi := index2_2 t
  unfold idcol2 iblk2
  rw [View.read_apply]
  show (V c main_v7 : S262144x1.Idx → BitVec 32) _ = (V c main_v7 : S262144x1.Idx → BitVec 32) _
  refine congrArg (V c main_v7 : S262144x1.Idx → BitVec 32) (funext fun a => Fin.ext ?_)
  match a with
  | ⟨0, _⟩ => show win2_2.index t 0 * 512 + 1 * r.val = 512 * t.val + r.val; rw [hi.1]; omega
  | ⟨1, _⟩ => show win2_2.index t 1 * 1 + 1 * 0 = 0; rw [hi.2]

/-- The anchor window's block is the whole table at every point. -/
theorem anchor2_apply (c : Dev nD) (t : Fin cfg2.N) (g : Fin 1024) (d : Fin 257) :
    anchor2 V c t (ix2 g d) = anchors2 V c g d := by
  have hi := index2_3 t
  unfold anchor2 iblk2
  rw [View.read_apply]
  show (V c main_v3 : S1024x257.Idx → EReal) _ = (V c main_v3 : S1024x257.Idx → EReal) _
  refine congrArg (V c main_v3 : S1024x257.Idx → EReal) (funext fun a => Fin.ext ?_)
  match a with
  | ⟨0, _⟩ => show win2_3.index t 0 * 1024 + 1 * g.val = g.val; rw [hi.1]; omega
  | ⟨1, _⟩ => show win2_3.index t 1 * 257 + 1 * d.val = d.val; rw [hi.2]; omega

/-! ## One step, entry by entry -/

theorem step2_sums (x : Vec Ideal S512x257 .f32) (idrow : Vec Ideal S1x512 .i32) (idcol : Vec Ideal S512x1 .i32)
    (anchor : Vec Ideal S1024x257 .f32) (s : Vec Ideal S1024x257 .f32) (k : Vec Ideal S1024x1 .f32) (g : Fin 1024) (d : Fin 257) :
    (residualStep2 (F := Ideal) x idrow idcol anchor s k).2.1 (ix2 g d)
      = s (ix2 g d) + ∑ r : Fin 512, (if idrow (ix2 0 r) = Spec.gw g then x (ix2 r d) - Spec.pick (fun g' d' => anchor (ix2 g' d')) (idcol (ix2 r 0)) d else 0) :=
  pay6_2_apply idcol anchor x idrow s g d

theorem step2_counts (x : Vec Ideal S512x257 .f32) (idrow : Vec Ideal S1x512 .i32) (idcol : Vec Ideal S512x1 .i32)
    (anchor : Vec Ideal S1024x257 .f32) (s : Vec Ideal S1024x257 .f32) (k : Vec Ideal S1024x1 .f32) (g : Fin 1024) :
    (residualStep2 (F := Ideal) x idrow idcol anchor s k).2.2 (ix2 g 0)
      = k (ix2 g 0) + ∑ r : Fin 512, (if idrow (ix2 0 r) = Spec.gw g then (1 : EReal) else 0) :=
  pay1_2_apply idrow k g

theorem step2_out (x : Vec Ideal S512x257 .f32) (idrow : Vec Ideal S1x512 .i32) (idcol : Vec Ideal S512x1 .i32)
    (anchor : Vec Ideal S1024x257 .f32) (s : Vec Ideal S1024x257 .f32) (k : Vec Ideal S1024x1 .f32) (g : Fin 1024) (d : Fin 257) :
    (residualStep2 (F := Ideal) x idrow idcol anchor s k).1 (ix2 g d)
      = Ideal.div ((residualStep2 (F := Ideal) x idrow idcol anchor s k).2.1 (ix2 g d))
          (max ((residualStep2 (F := Ideal) x idrow idcol anchor s k).2.2 (ix2 g 0)) 1) :=
  pay2_2_apply _ _ g d

/-! ## The running sums and counts are the sums over the tiles so far -/

/-- Row n's contribution to group g's column d. -/
abbrev sumTerm2 (c : Dev nD) (g : Fin 1024) (d : Fin 257) (n : Fin 262144) : EReal :=
  if rowIds2 V c n = Spec.gw g then Spec.resid (colIds2 V c) (rows2 V c) (anchors2 V c) n d else 0

/-- Row n's contribution to group g's count. -/
abbrev cntTerm2 (c : Dev nD) (g : Fin 1024) (n : Fin 262144) : EReal :=
  if rowIds2 V c n = Spec.gw g then (1 : EReal) else 0

/-- The tile's rows of group g, read through the blocks, are those rows of the arrays. -/
theorem tile2_sums (c : Dev nD) (t : Fin cfg2.N) (ht : t.val < 512) (g : Fin 1024) (d : Fin 257) :
    (∑ r : Fin 512, (if idrow2 V c t (ix2 0 r) = Spec.gw g then xblk2 V c t (ix2 r d)
        - Spec.pick (fun g' d' => anchor2 V c t (ix2 g' d')) (idcol2 V c t (ix2 r 0)) d else 0))
      = ∑ r : Fin 512, sumTerm2 V c g d (rowOf ⟨t.val, ht⟩ r) := by
  have ha : (fun g' d' => anchor2 V c t (ix2 g' d')) = anchors2 V c := funext fun g' => funext fun d' => anchor2_apply V c t g' d'
  rw [ha]
  refine Finset.sum_congr rfl fun r _ => ?_
  rw [idrow2_apply V c t ht r, xblk2_apply V c t ht r d, idcol2_apply V c t ht r]
  rfl

theorem tile2_counts (c : Dev nD) (t : Fin cfg2.N) (ht : t.val < 512) (g : Fin 1024) :
    (∑ r : Fin 512, (if idrow2 V c t (ix2 0 r) = Spec.gw g then (1 : EReal) else 0))
      = ∑ r : Fin 512, cntTerm2 V c g (rowOf ⟨t.val, ht⟩ r) := by
  refine Finset.sum_congr rfl fun r _ => ?_
  rw [idrow2_apply V c t ht r]

/-- After point n the running sums hold the first n + 1 tiles' rows. -/
theorem sums2_eq (c : Dev nD) (g : Fin 1024) (d : Fin 257) : ∀ (n : ℕ) (h : n < cfg2.N),
    (outsAt2 V c n h).2.1 (ix2 g d) = tilesUpTo (sumTerm2 V c g d) (n + 1)
  | 0, h => by
    have hN : cfg2.N = 512 := N_2
    rw [outsAt2_first V c h]
    refine (step2_sums (xblk2 V c ⟨0, h⟩) (idrow2 V c ⟨0, h⟩) (idcol2 V c ⟨0, h⟩) (anchor2 V c ⟨0, h⟩) (k2_pay3 (F := Ideal)) (k2_pay4 (F := Ideal)) g d).trans ?_
    rw [pay3_2_apply, tile2_sums V c ⟨0, h⟩ (by omega) g d, tilesUpTo_succ _ 0 (by omega), tilesUpTo_zero]
  | n + 1, h => by
    have hN : cfg2.N = 512 := N_2
    rw [outsAt2_next V c n h]
    refine (step2_sums (xblk2 V c ⟨n + 1, h⟩) (idrow2 V c ⟨n + 1, h⟩) (idcol2 V c ⟨n + 1, h⟩) (anchor2 V c ⟨n + 1, h⟩)
      (outsAt2 V c n (Nat.lt_of_succ_lt h)).2.1 (outsAt2 V c n (Nat.lt_of_succ_lt h)).2.2 g d).trans ?_
    rw [sums2_eq c g d n (Nat.lt_of_succ_lt h), tile2_sums V c ⟨n + 1, h⟩ (by omega) g d, tilesUpTo_succ _ (n + 1) (by omega)]

/-- After point n the running counts hold the first n + 1 tiles' rows, counted. -/
theorem counts2_eq (c : Dev nD) (g : Fin 1024) : ∀ (n : ℕ) (h : n < cfg2.N),
    (outsAt2 V c n h).2.2 (ix2 g 0) = tilesUpTo (cntTerm2 V c g) (n + 1)
  | 0, h => by
    have hN : cfg2.N = 512 := N_2
    rw [outsAt2_first V c h]
    refine (step2_counts (xblk2 V c ⟨0, h⟩) (idrow2 V c ⟨0, h⟩) (idcol2 V c ⟨0, h⟩) (anchor2 V c ⟨0, h⟩) (k2_pay3 (F := Ideal)) (k2_pay4 (F := Ideal)) g).trans ?_
    rw [pay4_2_apply, tile2_counts V c ⟨0, h⟩ (by omega) g, tilesUpTo_succ _ 0 (by omega), tilesUpTo_zero]
  | n + 1, h => by
    have hN : cfg2.N = 512 := N_2
    rw [outsAt2_next V c n h]
    refine (step2_counts (xblk2 V c ⟨n + 1, h⟩) (idrow2 V c ⟨n + 1, h⟩) (idcol2 V c ⟨n + 1, h⟩) (anchor2 V c ⟨n + 1, h⟩)
      (outsAt2 V c n (Nat.lt_of_succ_lt h)).2.1 (outsAt2 V c n (Nat.lt_of_succ_lt h)).2.2 g).trans ?_
    rw [counts2_eq c g n (Nat.lt_of_succ_lt h), tile2_counts V c ⟨n + 1, h⟩ (by omega) g, tilesUpTo_succ _ (n + 1) (by omega)]

/-- The output block after point n is the quotient of the two. -/
theorem out2_eq (c : Dev nD) (g : Fin 1024) (d : Fin 257) (n : ℕ) (h : n < cfg2.N) :
    (outsAt2 V c n h).1 (ix2 g d) = Ideal.div ((outsAt2 V c n h).2.1 (ix2 g d)) (max ((outsAt2 V c n h).2.2 (ix2 g 0)) 1) := by
  cases n with
  | zero =>
    rw [outsAt2_first V c h]
    exact step2_out (xblk2 V c ⟨0, h⟩) (idrow2 V c ⟨0, h⟩) (idcol2 V c ⟨0, h⟩) (anchor2 V c ⟨0, h⟩) (k2_pay3 (F := Ideal)) (k2_pay4 (F := Ideal)) g d
  | succ n =>
    rw [outsAt2_next V c n h]
    exact step2_out (xblk2 V c ⟨n + 1, h⟩) (idrow2 V c ⟨n + 1, h⟩) (idcol2 V c ⟨n + 1, h⟩) (anchor2 V c ⟨n + 1, h⟩)
      (outsAt2 V c n (Nat.lt_of_succ_lt h)).2.1 (outsAt2 V c n (Nat.lt_of_succ_lt h)).2.2 g d

/-! ## The output array -/

/-- What the region leaves: the segment mean, by the row ids, of the rows relative to the anchors their column ids pick. -/
def result2 (c : Dev nD) : S1024x257.Idx → EReal := fun i =>
  Spec.segMean (rowIds2 V c) (Spec.resid (colIds2 V c) (rows2 V c) (anchors2 V c)) (i 0) (i 1)

/-- After the last point the output block is the result. -/
theorem out2_last (c : Dev nD) (h : 511 < cfg2.N) : (outsAt2 V c 511 h).1 = result2 V c := by
  funext i
  obtain ⟨g, d, rfl⟩ : ∃ (g : Fin 1024) (d : Fin 257), i = ix2 g d := ⟨i 0, i 1, eq_ix2 i⟩
  rw [out2_eq V c g d 511 h, sums2_eq V c g d 511 h, counts2_eq V c g 511 h, tilesUpTo_all, tilesUpTo_all]
  rfl

/-- The one write-back, after the last point, writes the result: the output's block is the whole array. -/
theorem flushed2_eq (c : Dev nD) (t : Fin cfg2.N) (hf : (cfg2.win 4).flush t = true) :
    (dat2 (F := Ideal) V c).flushed 4 t = ((cfg2.win 4).blk t).view.read (Elt Ideal) (result2 V c) := by
  have hN : cfg2.N = 512 := N_2
  have h511 : t.val = 511 := by have := (flush2_4 t).mp hf; have := t.isLt; omega
  have hi := index2_4 t
  show (cfg2.win 4).cut (grid2.coords t) ((dat2 (F := Ideal) V c).after 4 t) = _
  rw [after2_4]
  have hl : (outsAt2 V c t.val t.isLt).1 = result2 V c := by
    have e : ∀ (n : ℕ) (h : n < cfg2.N), n = 511 → (outsAt2 V c n h).1 = result2 V c := fun n h hn => by
      subst hn; exact out2_last V c h
    exact e t.val t.isLt h511
  rw [hl]
  have hz' : (fun a => win2_4.index t a * main_v8.ty.shape.size a) = fun _ => 0 := funext fun a => by
    match a with
    | ⟨0, _⟩ => show win2_4.index t 0 * 1024 = 0; rw [hi.1]
    | ⟨1, _⟩ => show win2_4.index t 1 * 257 = 0; rw [hi.2]
  exact (Memref.read_access_unit_zero (Elt Ideal) main_v8 hz' (fun a => by rw [congrFun hz' a]; simp) (result2 V c)).symm

/-- So the output array ends holding the result. -/
theorem final2 (c : Dev nD) : (dat2 (F := Ideal) V c).arrAt 4 cfg2.N = result2 V c :=
  (dat2 (F := Ideal) V c).arrAt_eq_of_cover 4 (result2 V c) (flushed2_eq V c) fun i => by
    have hN : grid2.N = 512 := N_2
    have h511 : 511 < grid2.N := by omega
    refine ⟨⟨511, h511⟩, (flush2_4 _).mpr rfl, ?_⟩
    have hi := index2_4 ⟨511, h511⟩
    show i ∈ ((View.whole main_v8).slice (win2_4.rect ⟨511, h511⟩)).set
    rw [View.set_slice_whole, Rect.mem_set_unit]
    intro a
    have h0 : (i 0 : Nat) < 1024 := (i 0).isLt
    have h1 : (i 1 : Nat) < 257 := (i 1).isLt
    match a with
    | ⟨0, _⟩ =>
      show win2_4.index ⟨511, h511⟩ 0 * 1024 ≤ (i 0 : Nat) ∧ (i 0 : Nat) < win2_4.index ⟨511, h511⟩ 0 * 1024 + 1024
      rw [hi.1]; omega
    | ⟨1, _⟩ =>
      show win2_4.index ⟨511, h511⟩ 1 * 257 ≤ (i 1 : Nat) ∧ (i 1 : Nat) < win2_4.index ⟨511, h511⟩ 1 * 257 + 257
      rw [hi.2]; omega

/-- Entry by entry, with no hypothesis: the groups are cut by the row ids, the anchors picked by the column ids. -/
theorem residual2_final' (c : Dev nD) (g : Fin 1024) (d : Fin 257) :
    (dat2 (F := Ideal) V c).arrAt 4 cfg2.N (ix2 g d)
      = Spec.segMean (fun n => V c main_v6 (ix2 0 n)) (Spec.resid (fun n => V c main_v7 (ix2 n 0)) (fun n d => V c main_v0 (ix2 n d)) (fun g d => V c main_v3 (ix2 g d))) g d := by
  rw [final2 V c]
  rfl

/-- When the id row and the id column hold the same ids, the output array is the residual mean. -/
theorem residual2_final (c : Dev nD) (g : Fin 1024) (d : Fin 257)
    (hids : ∀ n : Fin 262144, V c main_v6 (ix2 0 n) = V c main_v7 (ix2 n 0)) :
    (dat2 (F := Ideal) V c).arrAt 4 cfg2.N (ix2 g d)
      = Spec.resMean (fun n => V c main_v6 (ix2 0 n)) (fun n d => V c main_v0 (ix2 n d)) (fun g d => V c main_v3 (ix2 g d)) g d := by
  rw [residual2_final' V c g d]
  unfold Spec.resMean
  have e : (fun n : Fin 262144 => V c main_v7 (ix2 n 0)) = fun n => V c main_v6 (ix2 0 n) := funext fun n => (hids n).symm
  rw [e]

end Cert.Value

end
-- ==== Proof.KI.R3Step.lean ====
/- REGION 3, the accumulation step by step: what one grid point makes of its blocks and of the running sums and
   counts the point before left, as one function of the body's arithmetic; and the recursion `outsAt3` follows. -/
import proofs.«430159_j88974542504689_1_alg».proof.Proof.KI.R3Frame
import Idealize.ShloMosaic.Lib.Pipeline.Value

-- membership in a rectangle of the kernel's extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- The zero offsets of a whole-buffer access, however spelt. -/
theorem hz3 : (![0, 0] : Fin 2 → Nat) = fun _ => 0 := funext fun a => by fin_cases a <;> rfl

/-- A load of the whole buffer after a whole-buffer store (whatever was stored before it) reads that store's payload. -/
theorem readCov_cons_unit_zero3 {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- One step of the accumulation, from the point's block of rows `x`, its segment indices as a row and as a column,
    the anchors, and the running sums `s` and counts `k`: the residuals of the rows against their segments'
    anchors are added to the sums segment by segment, the rows are counted, and the output is the sums over the
    counts (no less than one). The triple is (output, sums, counts). -/
def residualStep3 (x : Vec F S512x257 .f32) (idrow : Vec F S1x512 .i32) (idcol : Vec F S512x1 .i32) (anchor : Vec F S1024x257 .f32)
    (s : Vec F S1024x257 .f32) (k : Vec F S1024x1 .f32) : Vec F S1024x257 .f32 × Vec F S1024x257 .f32 × Vec F S1024x1 .f32 :=
  (k3_pay2 (k3_pay6 idcol anchor x idrow s) (k3_pay1 (k3_pay5 idrow) (k3_pay7 (F := F)) k (constant S1024x1 .f32 0x00000000#32)),
   k3_pay6 idcol anchor x idrow s,
   k3_pay1 (k3_pay5 idrow) (k3_pay7 (F := F)) k (constant S1024x1 .f32 0x00000000#32))

/-! ## What each case leaves, as the body's arithmetic -/

/-- At the first point the running sums are the point's residual sums over zero. -/
theorem sout3_A_0_eq (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) :
    sout3_A_0 c i arg1 harg1 arg2 harg2 arg3 harg3 arg4 harg4 arg5 harg5 arg6 harg6 arg7 harg7 hc0 x0 x1 x2 x3 = (k3_pay6 x2 x3 x0 x1 (k3_pay3 (F := F))) := by
  unfold sout3_A_0
  rw [View.read_writes_eq_canon _ _ _ (scover3_A_0 c i arg1 harg1 arg2 harg2 arg3 harg3 arg4 harg4 arg5 harg5 arg6 harg6 arg7 harg7 hc0 x0 x1 x2 x3)]
  unfold kernelRun3_A
  dsimp only
  sl_unfold_words
  rw [View.canon_cons_unit_zero (S := S1024x257) hz3]
  simp only [View.readAt_eq_ld, harg1.read_unread, harg2.read_unread, harg3.read_unread, harg4.read_unread, View.ld_unit_zero (S := S512x257) hz3, View.ld_unit_zero (S := S1x512) hz3, View.ld_unit_zero (S := S512x1) hz3, View.ld_unit_zero (S := S1024x257) hz3, View.ld_unit_zero (S := S1024x1) hz3,
    View.readCov_unit_zero (S := S1024x257) _ hz3, View.readCov_unit_zero (S := S1024x1) _ hz3,
    readCov_cons_unit_zero3 (S := S1024x257) _ hz3, readCov_cons_unit_zero3 (S := S1024x1) _ hz3]

/-- At the first point the running counts are the point's counts over zero. -/
theorem sout3_A_1_eq (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) :
    sout3_A_1 c i arg1 harg1 arg2 harg2 arg3 harg3 arg4 harg4 arg5 harg5 arg6 harg6 arg7 harg7 hc0 x0 x1 x2 x3 = (k3_pay1 (k3_pay5 x1) (k3_pay7 (F := F)) (k3_pay4 (F := F)) (constant S1024x1 .f32 0x00000000#32)) := by
  unfold sout3_A_1
  rw [View.read_writes_eq_canon _ _ _ (scover3_A_1 c i arg1 harg1 arg2 harg2 arg3 harg3 arg4 harg4 arg5 harg5 arg6 harg6 arg7 harg7 hc0 x0 x1 x2 x3)]
  unfold kernelRun3_A
  dsimp only
  sl_unfold_words
  rw [View.canon_cons_unit_zero (S := S1024x1) hz3]
  simp only [View.readAt_eq_ld, harg1.read_unread, harg2.read_unread, harg3.read_unread, harg4.read_unread, View.ld_unit_zero (S := S512x257) hz3, View.ld_unit_zero (S := S1x512) hz3, View.ld_unit_zero (S := S512x1) hz3, View.ld_unit_zero (S := S1024x257) hz3, View.ld_unit_zero (S := S1024x1) hz3,
    View.readCov_unit_zero (S := S1024x257) _ hz3, View.readCov_unit_zero (S := S1024x1) _ hz3,
    readCov_cons_unit_zero3 (S := S1024x257) _ hz3, readCov_cons_unit_zero3 (S := S1024x1) _ hz3]

/-- At the first point the output is the quotient of the two. -/
theorem out3_A_4_eq (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : cond3_0 i)
    (x0 : Vec F S512x257 .f32) (x1 : Vec F S1x512 .i32) (x2 : Vec F S512x1 .i32) (x3 : Vec F S1024x257 .f32) :
    out3_A_4 c i arg1 harg1 arg2 harg2 arg3 harg3 arg4 harg4 arg5 harg5 arg6 harg6 arg7 harg7 hc0 x0 x1 x2 x3 = k3_pay2 (k3_pay6 x2 x3 x0 x1 (k3_pay3 (F := F))) (k3_pay1 (k3_pay5 x1) (k3_pay7 (F := F)) (k3_pay4 (F := F)) (constant S1024x1 .f32 0x00000000#32)) := by
  unfold out3_A_4
  rw [View.read_writes_eq_canon _ _ _ (cover3_A_4 c i arg1 harg1 arg2 harg2 arg3 harg3 arg4 harg4 arg5 harg5 arg6 harg6 arg7 harg7 hc0 x0 x1 x2 x3)]
  unfold kernelRun3_A
  dsimp only
  sl_unfold_words
  rw [View.canon_unit_zero (S := S1024x257) hz3]
  simp only [View.readAt_eq_ld, harg1.read_unread, harg2.read_unread, harg3.read_unread, harg4.read_unread, View.ld_unit_zero (S := S512x257) hz3, View.ld_unit_zero (S := S1x512) hz3, View.ld_unit_zero (S := S512x1) hz3, View.ld_unit_zero (S := S1024x257) hz3, View.ld_unit_zero (S := S1024x1) hz3,
    View.readCov_unit_zero (S := S1024x257) _ hz3, View.readCov_unit_zero (S := S1024x1) _ hz3,
    readCov_cons_unit_zero3 (S := S1024x257) _ hz3, readCov_cons_unit_zero3 (S := S1024x1) _ hz3]

/-- At a later point the running sums are the point's residual sums over what the point before left. -/
theorem sout3_B_0_eq (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) :
    sout3_B_0 c i arg1 harg1 arg2 harg2 arg3 harg3 arg4 harg4 arg5 harg5 arg6 harg6 arg7 harg7 hc0 x0 x1 x2 x3 xs0 xs1 = (k3_pay6 x2 x3 x0 x1 xs0) := by
  unfold sout3_B_0
  rw [View.read_writes_eq_canon _ _ _ (scover3_B_0 c i arg1 harg1 arg2 harg2 arg3 harg3 arg4 harg4 arg5 harg5 arg6 harg6 arg7 harg7 hc0 x0 x1 x2 x3 xs0 xs1)]
  unfold kernelRun3_B
  dsimp only
  sl_unfold_words
  rw [View.canon_unit_zero (S := S1024x257) hz3]
  simp only [View.readAt_eq_ld, harg1.read_unread, harg2.read_unread, harg3.read_unread, harg4.read_unread, harg6.read_unread, harg7.read_unread, View.ld_unit_zero (S := S512x257) hz3, View.ld_unit_zero (S := S1x512) hz3, View.ld_unit_zero (S := S512x1) hz3, View.ld_unit_zero (S := S1024x257) hz3, View.ld_unit_zero (S := S1024x1) hz3,
    View.readCov_unit_zero (S := S1024x257) _ hz3, View.readCov_unit_zero (S := S1024x1) _ hz3,
    readCov_cons_unit_zero3 (S := S1024x257) _ hz3, readCov_cons_unit_zero3 (S := S1024x1) _ hz3]

/-- At a later point the running counts are the point's counts over what the point before left. -/
theorem sout3_B_1_eq (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) :
    sout3_B_1 c i arg1 harg1 arg2 harg2 arg3 harg3 arg4 harg4 arg5 harg5 arg6 harg6 arg7 harg7 hc0 x0 x1 x2 x3 xs0 xs1 = (k3_pay1 (k3_pay5 x1) (k3_pay7 (F := F)) xs1 (constant S1024x1 .f32 0x00000000#32)) := by
  unfold sout3_B_1
  rw [View.read_writes_eq_canon _ _ _ (scover3_B_1 c i arg1 harg1 arg2 harg2 arg3 harg3 arg4 harg4 arg5 harg5 arg6 harg6 arg7 harg7 hc0 x0 x1 x2 x3 xs0 xs1)]
  unfold kernelRun3_B
  dsimp only
  sl_unfold_words
  rw [View.canon_unit_zero (S := S1024x1) hz3]
  simp only [View.readAt_eq_ld, harg1.read_unread, harg2.read_unread, harg3.read_unread, harg4.read_unread, harg6.read_unread, harg7.read_unread, View.ld_unit_zero (S := S512x257) hz3, View.ld_unit_zero (S := S1x512) hz3, View.ld_unit_zero (S := S512x1) hz3, View.ld_unit_zero (S := S1024x257) hz3, View.ld_unit_zero (S := S1024x1) hz3,
    View.readCov_unit_zero (S := S1024x257) _ hz3, View.readCov_unit_zero (S := S1024x1) _ hz3,
    readCov_cons_unit_zero3 (S := S1024x257) _ hz3, readCov_cons_unit_zero3 (S := S1024x1) _ hz3]

/-- At a later point the output is the quotient of the two. -/
theorem out3_B_4_eq (c : Dev nD) (i : grid3.Coords) (arg1 : Memref sig .tc .vmem S512x257 .f32) (harg1 : arg1.IsWhole) (arg2 : Memref sig .tc .vmem S1x512 .i32) (harg2 : arg2.IsWhole) (arg3 : Memref sig .tc .vmem S512x1 .i32) (harg3 : arg3.IsWhole) (arg4 : Memref sig .tc .vmem S1024x257 .f32) (harg4 : arg4.IsWhole) (arg5 : Memref sig .tc .vmem S1024x257 .f32) (harg5 : arg5.IsWhole) (arg6 : Memref sig .tc .vmem S1024x257 .f32) (harg6 : arg6.IsWhole) (arg7 : Memref sig .tc .vmem S1024x1 .f32) (harg7 : arg7.IsWhole) (hc0 : ¬cond3_0 i)
    (x0 : Vec F S512x257 .f32) (x1 : Vec F S1x512 .i32) (x2 : Vec F S512x1 .i32) (x3 : Vec F S1024x257 .f32) (xs0 : Vec F S1024x257 .f32) (xs1 : Vec F S1024x1 .f32) :
    out3_B_4 c i arg1 harg1 arg2 harg2 arg3 harg3 arg4 harg4 arg5 harg5 arg6 harg6 arg7 harg7 hc0 x0 x1 x2 x3 xs0 xs1 = k3_pay2 (k3_pay6 x2 x3 x0 x1 xs0) (k3_pay1 (k3_pay5 x1) (k3_pay7 (F := F)) xs1 (constant S1024x1 .f32 0x00000000#32)) := by
  unfold out3_B_4
  rw [View.read_writes_eq_canon _ _ _ (cover3_B_4 c i arg1 harg1 arg2 harg2 arg3 harg3 arg4 harg4 arg5 harg5 arg6 harg6 arg7 harg7 hc0 x0 x1 x2 x3 xs0 xs1)]
  unfold kernelRun3_B
  dsimp only
  sl_unfold_words
  rw [View.canon_unit_zero (S := S1024x257) hz3]
  simp only [View.readAt_eq_ld, harg1.read_unread, harg2.read_unread, harg3.read_unread, harg4.read_unread, harg6.read_unread, harg7.read_unread, View.ld_unit_zero (S := S512x257) hz3, View.ld_unit_zero (S := S1x512) hz3, View.ld_unit_zero (S := S512x1) hz3, View.ld_unit_zero (S := S1024x257) hz3, View.ld_unit_zero (S := S1024x1) hz3,
    View.readCov_unit_zero (S := S1024x257) _ hz3, View.readCov_unit_zero (S := S1024x1) _ hz3,
    readCov_cons_unit_zero3 (S := S1024x257) _ hz3, readCov_cons_unit_zero3 (S := S1024x1) _ hz3]

/-! ## The recursion -/

/-- At the first point the step starts from zero sums and zero counts. -/
theorem outsAt3_first (c : Dev nD) (h : 0 < cfg3.N) :
    outsAt3 V c 0 h = residualStep3 (xblk3 V c ⟨0, h⟩) (idrow3 V c ⟨0, h⟩) (idcol3 V c ⟨0, h⟩) (anchor3 V c ⟨0, h⟩) (k3_pay3 (F := F)) (k3_pay4 (F := F)) := by
  refine Eq.trans (b := (out3_A_4 c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) scM3_0 (Memref.isWhole_whole _) scM3_1 (Memref.isWhole_whole _) ((hcond3_0 ⟨0, h⟩).mpr rfl) (iblk3 V c 0 ⟨0, h⟩) (iblk3 V c 1 ⟨0, h⟩) (iblk3 V c 2 ⟨0, h⟩) (iblk3 V c 3 ⟨0, h⟩), sout3_A_0 c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) scM3_0 (Memref.isWhole_whole _) scM3_1 (Memref.isWhole_whole _) ((hcond3_0 ⟨0, h⟩).mpr rfl) (iblk3 V c 0 ⟨0, h⟩) (iblk3 V c 1 ⟨0, h⟩) (iblk3 V c 2 ⟨0, h⟩) (iblk3 V c 3 ⟨0, h⟩), sout3_A_1 c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) scM3_0 (Memref.isWhole_whole _) scM3_1 (Memref.isWhole_whole _) ((hcond3_0 ⟨0, h⟩).mpr rfl) (iblk3 V c 0 ⟨0, h⟩) (iblk3 V c 1 ⟨0, h⟩) (iblk3 V c 2 ⟨0, h⟩) (iblk3 V c 3 ⟨0, h⟩))) rfl ?_
  unfold residualStep3
  rw [out3_A_4_eq (F := F) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) scM3_0 (Memref.isWhole_whole _) scM3_1 (Memref.isWhole_whole _) ((hcond3_0 ⟨0, h⟩).mpr rfl) (iblk3 V c 0 ⟨0, h⟩) (iblk3 V c 1 ⟨0, h⟩) (iblk3 V c 2 ⟨0, h⟩) (iblk3 V c 3 ⟨0, h⟩),
    sout3_A_0_eq (F := F) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) scM3_0 (Memref.isWhole_whole _) scM3_1 (Memref.isWhole_whole _) ((hcond3_0 ⟨0, h⟩).mpr rfl) (iblk3 V c 0 ⟨0, h⟩) (iblk3 V c 1 ⟨0, h⟩) (iblk3 V c 2 ⟨0, h⟩) (iblk3 V c 3 ⟨0, h⟩),
    sout3_A_1_eq (F := F) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) scM3_0 (Memref.isWhole_whole _) scM3_1 (Memref.isWhole_whole _) ((hcond3_0 ⟨0, h⟩).mpr rfl) (iblk3 V c 0 ⟨0, h⟩) (iblk3 V c 1 ⟨0, h⟩) (iblk3 V c 2 ⟨0, h⟩) (iblk3 V c 3 ⟨0, h⟩)]

/-- At every later point it starts from what the point before left. -/
theorem outsAt3_next (c : Dev nD) (n : ℕ) (h : n + 1 < cfg3.N) :
    outsAt3 V c (n + 1) h = residualStep3 (xblk3 V c ⟨n + 1, h⟩) (idrow3 V c ⟨n + 1, h⟩) (idcol3 V c ⟨n + 1, h⟩) (anchor3 V c ⟨n + 1, h⟩)
      (outsAt3 V c n (Nat.lt_of_succ_lt h)).2.1 (outsAt3 V c n (Nat.lt_of_succ_lt h)).2.2 := by
  refine Eq.trans (b := (out3_B_4 c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) scM3_1 (Memref.isWhole_whole _) (fun hh => Nat.succ_ne_zero n ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (outsAt3 V c n (Nat.lt_of_succ_lt h)).2.1 (outsAt3 V c n (Nat.lt_of_succ_lt h)).2.2, sout3_B_0 c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) scM3_1 (Memref.isWhole_whole _) (fun hh => Nat.succ_ne_zero n ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (outsAt3 V c n (Nat.lt_of_succ_lt h)).2.1 (outsAt3 V c n (Nat.lt_of_succ_lt h)).2.2, sout3_B_1 c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) scM3_1 (Memref.isWhole_whole _) (fun hh => Nat.succ_ne_zero n ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (outsAt3 V c n (Nat.lt_of_succ_lt h)).2.1 (outsAt3 V c n (Nat.lt_of_succ_lt h)).2.2)) rfl ?_
  unfold residualStep3
  rw [out3_B_4_eq (F := F) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) scM3_1 (Memref.isWhole_whole _) (fun hh => Nat.succ_ne_zero n ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (outsAt3 V c n (Nat.lt_of_succ_lt h)).2.1 (outsAt3 V c n (Nat.lt_of_succ_lt h)).2.2,
    sout3_B_0_eq (F := F) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) scM3_1 (Memref.isWhole_whole _) (fun hh => Nat.succ_ne_zero n ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (outsAt3 V c n (Nat.lt_of_succ_lt h)).2.1 (outsAt3 V c n (Nat.lt_of_succ_lt h)).2.2,
    sout3_B_1_eq (F := F) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) scM3_1 (Memref.isWhole_whole _) (fun hh => Nat.succ_ne_zero n ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (outsAt3 V c n (Nat.lt_of_succ_lt h)).2.1 (outsAt3 V c n (Nat.lt_of_succ_lt h)).2.2]

end Cert.KernelIdeal.Hand

end
-- ==== Proof.Value.Residual3Value.lean ====
/-
  REGION 3, the value: what the residual kernel on the target rows leaves in its output array.

  The grid's point t handles the 512 rows 512 t … 512 t + 511: its block of rows, the rows' ids once as a row and
  once as a column, and the whole anchor table. Its step adds, for every group, the tile's rows of that group less
  their picked anchors to the running sums, counts them into the running counts, and writes the quotient to the
  output block, which is the whole output array and is written back after the last point only. So the running sums
  after point t are the sums over the first t + 1 tiles, after the last point the sum over all rows, and the output
  array ends at the segment mean of the rows relative to their picked anchors.
-/
import proofs.«430159_j88974542504689_1_alg».proof.Proof.KI.R3Step
import proofs.«430159_j88974542504689_1_alg».proof.Proof.Value.ResidualMath
import Idealize.ShloMosaic.Lib.Pipeline.Value

noncomputable section

open scoped BigOperators

namespace Cert.Value

open Idealize.ShloMosaic Idealize.ShloMosaic.ValueIdx Idealize.ShloMosaic.TcCoe
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## The arrays, by coordinates -/

/-- The rows' ids, read from the id row. -/
abbrev rowIds3 (c : Dev nD) : Fin 262144 → BitVec 32 := fun n => (V c main_v9 : S1x262144.Idx → BitVec 32) (ix2 0 n)
/-- The rows' ids, read from the id column. -/
abbrev colIds3 (c : Dev nD) : Fin 262144 → BitVec 32 := fun n => (V c main_v10 : S262144x1.Idx → BitVec 32) (ix2 n 0)
/-- The rows' features. -/
abbrev rows3 (c : Dev nD) : Fin 262144 → Fin 257 → EReal := fun n d => (V c main_v1 : S262144x257.Idx → EReal) (ix2 n d)
/-- The anchor table. -/
abbrev anchors3 (c : Dev nD) : Fin 1024 → Fin 257 → EReal := fun g d => (V c main_v5 : S1024x257.Idx → EReal) (ix2 g d)

/-! ## Which block each window reads at a point -/

theorem index3_0 : ∀ t : Fin grid3.N, win3_0.index t 0 = t.val ∧ win3_0.index t 1 = 0 := by decide +kernel
theorem index3_1 : ∀ t : Fin grid3.N, win3_1.index t 0 = 0 ∧ win3_1.index t 1 = t.val := by decide +kernel
theorem index3_2 : ∀ t : Fin grid3.N, win3_2.index t 0 = t.val ∧ win3_2.index t 1 = 0 := by decide +kernel
theorem index3_3 : ∀ t : Fin grid3.N, win3_3.index t 0 = 0 ∧ win3_3.index t 1 = 0 := by decide +kernel
theorem index3_4 : ∀ t : Fin grid3.N, win3_4.index t 0 = 0 ∧ win3_4.index t 1 = 0 := by decide +kernel

/-- The block of rows at point t is rows 512 t … 512 t + 511 of the array. -/
theorem xblk3_apply (c : Dev nD) (t : Fin cfg3.N) (ht : t.val < 512) (r : Fin 512) (d : Fin 257) :
    xblk3 V c t (ix2 r d) = rows3 V c (rowOf ⟨t.val, ht⟩ r) d := by
  have hi := index3_0 t
  unfold xblk3 iblk3
  rw [View.read_apply]
  show (V c main_v1 : S262144x257.Idx → EReal) _ = (V c main_v1 : S262144x257.Idx → EReal) _
  refine congrArg (V c main_v1 : S262144x257.Idx → EReal) (funext fun a => Fin.ext ?_)
  match a with
  | ⟨0, _⟩ => show win3_0.index t 0 * 512 + 1 * r.val = 512 * t.val + r.val; rw [hi.1]; omega
  | ⟨1, _⟩ => show win3_0.index t 1 * 257 + 1 * d.val = d.val; rw [hi.2]; omega

/-- The id row's block at point t is its columns 512 t … 512 t + 511. -/
theorem idrow3_apply (c : Dev nD) (t : Fin cfg3.N) (ht : t.val < 512) (r : Fin 512) :
    idrow3 V c t (ix2 0 r) = rowIds3 V c (rowOf ⟨t.val, ht⟩ r) := by
  have hi := index3_1 t
  unfold idrow3 iblk3
  rw [View.read_apply]
  show (V c main_v9 : S1x262144.Idx → BitVec 32) _ = (V c main_v9 : S1x262144.Idx → BitVec 32) _
  refine congrArg (V c main_v9 : S1x262144.Idx → BitVec 32) (funext fun a => Fin.ext ?_)
  match a with
  | ⟨0, _⟩ => show win3_1.index t 0 * 1 + 1 * 0 = 0; rw [hi.1]
  | ⟨1, _⟩ => show win3_1.index t 1 * 512 + 1 * r.val = 512 * t.val + r.val; rw [hi.2]; omega

/-- The id column's block at point t is its rows 512 t … 512 t + 511. -/
theorem idcol3_apply (c : Dev nD) (t : Fin cfg3.N) (ht : t.val < 512) (r : Fin 512) :
    idcol3 V c t (ix2 r 0) = colIds3 V c (rowOf ⟨t.val, ht⟩ r) := by
  have hi := index3_2 t
  unfold idcol3 iblk3
  rw [View.read_apply]
  show (V c main_v10 : S262144x1.Idx → BitVec 32) _ = (V c main_v10 : S262144x1.Idx → BitVec 32) _
  refine congrArg (V c main_v10 : S262144x1.Idx → BitVec 32) (funext fun a => Fin.ext ?_)
  match a with
  | ⟨0, _⟩ => show win3_2.index t 0 * 512 + 1 * r.val = 512 * t.val + r.val; rw [hi.1]; omega
  | ⟨1, _⟩ => show win3_2.index t 1 * 1 + 1 * 0 = 0; rw [hi.2]

/-- The anchor window's block is the whole table at every point. -/
theorem anchor3_apply (c : Dev nD) (t : Fin cfg3.N) (g : Fin 1024) (d : Fin 257) :
    anchor3 V c t (ix2 g d) = anchors3 V c g d := by
  have hi := index3_3 t
  unfold anchor3 iblk3
  rw [View.read_apply]
  show (V c main_v5 : S1024x257.Idx → EReal) _ = (V c main_v5 : S1024x257.Idx → EReal) _
  refine congrArg (V c main_v5 : S1024x257.Idx → EReal) (funext fun a => Fin.ext ?_)
  match a with
  | ⟨0, _⟩ => show win3_3.index t 0 * 1024 + 1 * g.val = g.val; rw [hi.1]; omega
  | ⟨1, _⟩ => show win3_3.index t 1 * 257 + 1 * d.val = d.val; rw [hi.2]; omega

/-! ## One step, entry by entry -/

theorem step3_sums (x : Vec Ideal S512x257 .f32) (idrow : Vec Ideal S1x512 .i32) (idcol : Vec Ideal S512x1 .i32)
    (anchor : Vec Ideal S1024x257 .f32) (s : Vec Ideal S1024x257 .f32) (k : Vec Ideal S1024x1 .f32) (g : Fin 1024) (d : Fin 257) :
    (residualStep3 (F := Ideal) x idrow idcol anchor s k).2.1 (ix2 g d)
      = s (ix2 g d) + ∑ r : Fin 512, (if idrow (ix2 0 r) = Spec.gw g then x (ix2 r d) - Spec.pick (fun g' d' => anchor (ix2 g' d')) (idcol (ix2 r 0)) d else 0) :=
  pay6_3_apply idcol anchor x idrow s g d

theorem step3_counts (x : Vec Ideal S512x257 .f32) (idrow : Vec Ideal S1x512 .i32) (idcol : Vec Ideal S512x1 .i32)
    (anchor : Vec Ideal S1024x257 .f32) (s : Vec Ideal S1024x257 .f32) (k : Vec Ideal S1024x1 .f32) (g : Fin 1024) :
    (residualStep3 (F := Ideal) x idrow idcol anchor s k).2.2 (ix2 g 0)
      = k (ix2 g 0) + ∑ r : Fin 512, (if idrow (ix2 0 r) = Spec.gw g then (1 : EReal) else 0) :=
  pay1_3_apply idrow k g

theorem step3_out (x : Vec Ideal S512x257 .f32) (idrow : Vec Ideal S1x512 .i32) (idcol : Vec Ideal S512x1 .i32)
    (anchor : Vec Ideal S1024x257 .f32) (s : Vec Ideal S1024x257 .f32) (k : Vec Ideal S1024x1 .f32) (g : Fin 1024) (d : Fin 257) :
    (residualStep3 (F := Ideal) x idrow idcol anchor s k).1 (ix2 g d)
      = Ideal.div ((residualStep3 (F := Ideal) x idrow idcol anchor s k).2.1 (ix2 g d))
          (max ((residualStep3 (F := Ideal) x idrow idcol anchor s k).2.2 (ix2 g 0)) 1) :=
  pay2_3_apply _ _ g d

/-! ## The running sums and counts are the sums over the tiles so far -/

/-- Row n's contribution to group g's column d. -/
abbrev sumTerm3 (c : Dev nD) (g : Fin 1024) (d : Fin 257) (n : Fin 262144) : EReal :=
  if rowIds3 V c n = Spec.gw g then Spec.resid (colIds3 V c) (rows3 V c) (anchors3 V c) n d else 0

/-- Row n's contribution to group g's count. -/
abbrev cntTerm3 (c : Dev nD) (g : Fin 1024) (n : Fin 262144) : EReal :=
  if rowIds3 V c n = Spec.gw g then (1 : EReal) else 0

/-- The tile's rows of group g, read through the blocks, are those rows of the arrays. -/
theorem tile3_sums (c : Dev nD) (t : Fin cfg3.N) (ht : t.val < 512) (g : Fin 1024) (d : Fin 257) :
    (∑ r : Fin 512, (if idrow3 V c t (ix2 0 r) = Spec.gw g then xblk3 V c t (ix2 r d)
        - Spec.pick (fun g' d' => anchor3 V c t (ix2 g' d')) (idcol3 V c t (ix2 r 0)) d else 0))
      = ∑ r : Fin 512, sumTerm3 V c g d (rowOf ⟨t.val, ht⟩ r) := by
  have ha : (fun g' d' => anchor3 V c t (ix2 g' d')) = anchors3 V c := funext fun g' => funext fun d' => anchor3_apply V c t g' d'
  rw [ha]
  refine Finset.sum_congr rfl fun r _ => ?_
  rw [idrow3_apply V c t ht r, xblk3_apply V c t ht r d, idcol3_apply V c t ht r]
  rfl

theorem tile3_counts (c : Dev nD) (t : Fin cfg3.N) (ht : t.val < 512) (g : Fin 1024) :
    (∑ r : Fin 512, (if idrow3 V c t (ix2 0 r) = Spec.gw g then (1 : EReal) else 0))
      = ∑ r : Fin 512, cntTerm3 V c g (rowOf ⟨t.val, ht⟩ r) := by
  refine Finset.sum_congr rfl fun r _ => ?_
  rw [idrow3_apply V c t ht r]

/-- After point n the running sums hold the first n + 1 tiles' rows. -/
theorem sums3_eq (c : Dev nD) (g : Fin 1024) (d : Fin 257) : ∀ (n : ℕ) (h : n < cfg3.N),
    (outsAt3 V c n h).2.1 (ix2 g d) = tilesUpTo (sumTerm3 V c g d) (n + 1)
  | 0, h => by
    have hN : cfg3.N = 512 := N_3
    rw [outsAt3_first V c h]
    refine (step3_sums (xblk3 V c ⟨0, h⟩) (idrow3 V c ⟨0, h⟩) (idcol3 V c ⟨0, h⟩) (anchor3 V c ⟨0, h⟩) (k3_pay3 (F := Ideal)) (k3_pay4 (F := Ideal)) g d).trans ?_
    rw [pay3_3_apply, tile3_sums V c ⟨0, h⟩ (by omega) g d, tilesUpTo_succ _ 0 (by omega), tilesUpTo_zero]
  | n + 1, h => by
    have hN : cfg3.N = 512 := N_3
    rw [outsAt3_next V c n h]
    refine (step3_sums (xblk3 V c ⟨n + 1, h⟩) (idrow3 V c ⟨n + 1, h⟩) (idcol3 V c ⟨n + 1, h⟩) (anchor3 V c ⟨n + 1, h⟩)
      (outsAt3 V c n (Nat.lt_of_succ_lt h)).2.1 (outsAt3 V c n (Nat.lt_of_succ_lt h)).2.2 g d).trans ?_
    rw [sums3_eq c g d n (Nat.lt_of_succ_lt h), tile3_sums V c ⟨n + 1, h⟩ (by omega) g d, tilesUpTo_succ _ (n + 1) (by omega)]

/-- After point n the running counts hold the first n + 1 tiles' rows, counted. -/
theorem counts3_eq (c : Dev nD) (g : Fin 1024) : ∀ (n : ℕ) (h : n < cfg3.N),
    (outsAt3 V c n h).2.2 (ix2 g 0) = tilesUpTo (cntTerm3 V c g) (n + 1)
  | 0, h => by
    have hN : cfg3.N = 512 := N_3
    rw [outsAt3_first V c h]
    refine (step3_counts (xblk3 V c ⟨0, h⟩) (idrow3 V c ⟨0, h⟩) (idcol3 V c ⟨0, h⟩) (anchor3 V c ⟨0, h⟩) (k3_pay3 (F := Ideal)) (k3_pay4 (F := Ideal)) g).trans ?_
    rw [pay4_3_apply, tile3_counts V c ⟨0, h⟩ (by omega) g, tilesUpTo_succ _ 0 (by omega), tilesUpTo_zero]
  | n + 1, h => by
    have hN : cfg3.N = 512 := N_3
    rw [outsAt3_next V c n h]
    refine (step3_counts (xblk3 V c ⟨n + 1, h⟩) (idrow3 V c ⟨n + 1, h⟩) (idcol3 V c ⟨n + 1, h⟩) (anchor3 V c ⟨n + 1, h⟩)
      (outsAt3 V c n (Nat.lt_of_succ_lt h)).2.1 (outsAt3 V c n (Nat.lt_of_succ_lt h)).2.2 g).trans ?_
    rw [counts3_eq c g n (Nat.lt_of_succ_lt h), tile3_counts V c ⟨n + 1, h⟩ (by omega) g, tilesUpTo_succ _ (n + 1) (by omega)]

/-- The output block after point n is the quotient of the two. -/
theorem out3_eq (c : Dev nD) (g : Fin 1024) (d : Fin 257) (n : ℕ) (h : n < cfg3.N) :
    (outsAt3 V c n h).1 (ix2 g d) = Ideal.div ((outsAt3 V c n h).2.1 (ix2 g d)) (max ((outsAt3 V c n h).2.2 (ix2 g 0)) 1) := by
  cases n with
  | zero =>
    rw [outsAt3_first V c h]
    exact step3_out (xblk3 V c ⟨0, h⟩) (idrow3 V c ⟨0, h⟩) (idcol3 V c ⟨0, h⟩) (anchor3 V c ⟨0, h⟩) (k3_pay3 (F := Ideal)) (k3_pay4 (F := Ideal)) g d
  | succ n =>
    rw [outsAt3_next V c n h]
    exact step3_out (xblk3 V c ⟨n + 1, h⟩) (idrow3 V c ⟨n + 1, h⟩) (idcol3 V c ⟨n + 1, h⟩) (anchor3 V c ⟨n + 1, h⟩)
      (outsAt3 V c n (Nat.lt_of_succ_lt h)).2.1 (outsAt3 V c n (Nat.lt_of_succ_lt h)).2.2 g d

/-! ## The output array -/

/-- What the region leaves: the segment mean, by the row ids, of the rows relative to the anchors their column ids pick. -/
def result3 (c : Dev nD) : S1024x257.Idx → EReal := fun i =>
  Spec.segMean (rowIds3 V c) (Spec.resid (colIds3 V c) (rows3 V c) (anchors3 V c)) (i 0) (i 1)

/-- After the last point the output block is the result. -/
theorem out3_last (c : Dev nD) (h : 511 < cfg3.N) : (outsAt3 V c 511 h).1 = result3 V c := by
  funext i
  obtain ⟨g, d, rfl⟩ : ∃ (g : Fin 1024) (d : Fin 257), i = ix2 g d := ⟨i 0, i 1, eq_ix2 i⟩
  rw [out3_eq V c g d 511 h, sums3_eq V c g d 511 h, counts3_eq V c g 511 h, tilesUpTo_all, tilesUpTo_all]
  rfl

/-- The one write-back, after the last point, writes the result: the output's block is the whole array. -/
theorem flushed3_eq (c : Dev nD) (t : Fin cfg3.N) (hf : (cfg3.win 4).flush t = true) :
    (dat3 (F := Ideal) V c).flushed 4 t = ((cfg3.win 4).blk t).view.read (Elt Ideal) (result3 V c) := by
  have hN : cfg3.N = 512 := N_3
  have h511 : t.val = 511 := by have := (flush3_4 t).mp hf; have := t.isLt; omega
  have hi := index3_4 t
  show (cfg3.win 4).cut (grid3.coords t) ((dat3 (F := Ideal) V c).after 4 t) = _
  rw [after3_4]
  have hl : (outsAt3 V c t.val t.isLt).1 = result3 V c := by
    have e : ∀ (n : ℕ) (h : n < cfg3.N), n = 511 → (outsAt3 V c n h).1 = result3 V c := fun n h hn => by
      subst hn; exact out3_last V c h
    exact e t.val t.isLt h511
  rw [hl]
  have hz' : (fun a => win3_4.index t a * main_v11.ty.shape.size a) = fun _ => 0 := funext fun a => by
    match a with
    | ⟨0, _⟩ => show win3_4.index t 0 * 1024 = 0; rw [hi.1]
    | ⟨1, _⟩ => show win3_4.index t 1 * 257 = 0; rw [hi.2]
  exact (Memref.read_access_unit_zero (Elt Ideal) main_v11 hz' (fun a => by rw [congrFun hz' a]; simp) (result3 V c)).symm

/-- So the output array ends holding the result. -/
theorem final3 (c : Dev nD) : (dat3 (F := Ideal) V c).arrAt 4 cfg3.N = result3 V c :=
  (dat3 (F := Ideal) V c).arrAt_eq_of_cover 4 (result3 V c) (flushed3_eq V c) fun i => by
    have hN : grid3.N = 512 := N_3
    have h511 : 511 < grid3.N := by omega
    refine ⟨⟨511, h511⟩, (flush3_4 _).mpr rfl, ?_⟩
    have hi := index3_4 ⟨511, h511⟩
    show i ∈ ((View.whole main_v11).slice (win3_4.rect ⟨511, h511⟩)).set
    rw [View.set_slice_whole, Rect.mem_set_unit]
    intro a
    have h0 : (i 0 : Nat) < 1024 := (i 0).isLt
    have h1 : (i 1 : Nat) < 257 := (i 1).isLt
    match a with
    | ⟨0, _⟩ =>
      show win3_4.index ⟨511, h511⟩ 0 * 1024 ≤ (i 0 : Nat) ∧ (i 0 : Nat) < win3_4.index ⟨511, h511⟩ 0 * 1024 + 1024
      rw [hi.1]; omega
    | ⟨1, _⟩ =>
      show win3_4.index ⟨511, h511⟩ 1 * 257 ≤ (i 1 : Nat) ∧ (i 1 : Nat) < win3_4.index ⟨511, h511⟩ 1 * 257 + 257
      rw [hi.2]; omega

/-- Entry by entry, with no hypothesis: the groups are cut by the row ids, the anchors picked by the column ids. -/
theorem residual3_final' (c : Dev nD) (g : Fin 1024) (d : Fin 257) :
    (dat3 (F := Ideal) V c).arrAt 4 cfg3.N (ix2 g d)
      = Spec.segMean (fun n => V c main_v9 (ix2 0 n)) (Spec.resid (fun n => V c main_v10 (ix2 n 0)) (fun n d => V c main_v1 (ix2 n d)) (fun g d => V c main_v5 (ix2 g d))) g d := by
  rw [final3 V c]
  rfl

/-- When the id row and the id column hold the same ids, the output array is the residual mean. -/
theorem residual3_final (c : Dev nD) (g : Fin 1024) (d : Fin 257)
    (hids : ∀ n : Fin 262144, V c main_v9 (ix2 0 n) = V c main_v10 (ix2 n 0)) :
    (dat3 (F := Ideal) V c).arrAt 4 cfg3.N (ix2 g d)
      = Spec.resMean (fun n => V c main_v9 (ix2 0 n)) (fun n d => V c main_v1 (ix2 n d)) (fun g d => V c main_v5 (ix2 g d)) g d := by
  rw [residual3_final' V c g d]
  unfold Spec.resMean
  have e : (fun n : Fin 262144 => V c main_v10 (ix2 n 0)) = fun n => V c main_v9 (ix2 0 n) := funext fun n => (hids n).symm
  rw [e]

end Cert.Value

end
-- ==== Proof.Value.DecodeOps.lean ====
/-
  The decode kernel's operations read at one element, over the extended reals.

  A row of the block carries a 32-bit id; comparing it with the lane counter gives a row of zeros with a one where the
  lane's number is the id, and the product of that row with a table is the table's row the id names. The two layers of
  the decoder are products summed over the contracted coordinate, with a bias row repeated over the block's rows. The
  last steps sum four lanes of a row, put two columns side by side, and take the stable form of softplus, whose
  guard "x ≠ x" never holds on the extended reals.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Value.Ops

open Idealize.ShloMosaic Idealize.ShloMosaic.ValueIdx

/-! ## A product of an M×K matrix with a K×N matrix into zero, at an entry -/

theorem lhs_plain_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl
theorem lhs_plain_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs_plain_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs_plain_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- Rows times columns: entry (r, c) of the product into the zero accumulator is the sum over the contracted
    coordinate of the row's entry times the column's. -/
theorem matmul_plain_apply {M K N : Nat} {φ₁ φ₂ : FTy} (D : DotDims ⟨2, ![M, K]⟩ ⟨2, ![K, N]⟩ ⟨2, ![M, N]⟩)
    (hD : D = DotDims.plain M K N) (L : FVec Ideal ⟨2, ![M, K]⟩ φ₁) (R : FVec Ideal ⟨2, ![K, N]⟩ φ₂) (r : Fin M) (c : Fin N) :
    matmul D none L R (constant (F := Ideal) ⟨2, ![M, N]⟩ .f32 0x00000000#32) (ix2 r c) = ∑ k : Fin K, L (ix2 r k) * R (ix2 k c) := by
  subst hD
  refine (Ideal.matmul_constant_zero_apply (DotDims.plain M K N) none L R (ix2 r c)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_plain_0 M K N _ _
      | ⟨1, _⟩ => exact (lhs_plain_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_plain_0 M K N _ _).trans hk
      | ⟨1, _⟩ => exact rhs_plain_1 M K N _ _)
  rw [el, er]

/-! ## The one-hot row of an id -/

/-- The comparison word of two 32-bit words, widened and read as a number: one where they agree, else zero. -/
theorem onehot_word (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  unfold IntOp.cmpi
  by_cases h : a = b
  · have e : (a == b) = true := by simp [h]
    have t : (BitVec.setWidth 32 (BitVec.ofBool true)).toInt = 1 := by decide
    rw [if_pos h]; dsimp only; rw [e, t]; simp
  · have e : (a == b) = false := by simp [h]
    have t : (BitVec.setWidth 32 (BitVec.ofBool false)).toInt = 0 := by decide
    rw [if_neg h]; dsimp only; rw [e, t]; simp

/-- The lane counter along the columns reads the column's number. -/
theorem iota_cols_apply {m n : Nat} (h : (⟨2, ![m, n]⟩ : Shape).Iotas .tc 32 [1]) (r : Fin m) (g : Fin n) :
    iota .tc ⟨2, ![m, n]⟩ 32 [1] h (ix2 r g) = BitVec.ofNat 32 g.val :=
  iota_single_apply .tc ⟨2, ![m, n]⟩ 32 1 h (ix2 r g)

/-- A column repeated along the rows' lanes reads the row's one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : Nat) = 1 then 0 else c.val
    rw [if_pos rfl]

/-- A vector laid out as a column reads, at (i, 0), its entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Four lanes of a row summed; two columns side by side -/

/-- The sum over the lanes of a row of a block with four lanes. -/
theorem rowsum4_apply {m : ℕ} (src : FVec Ideal ⟨2, ![m, 4]⟩ .f32) (acc : BitVec 32) (h : (⟨2, ![m, 4]⟩ : Shape).Reduces [1] ⟨1, ![m]⟩)
    (hφ : FKind.Formats .f32) (hacc : acc = FKind.add.neutral .f32 hφ) (r : Fin m) :
    multiReduction .add [1] ⟨1, ![m]⟩ src acc h hφ hacc (ix1 r) = ∑ k : Fin 4, src (ix2 r k) := by
  refine (Ideal.multiReduction_add_single src acc h hφ hacc (ix1 r)).trans ?_
  show ∑ k : Fin 4, src (h.lift (ix1 r) k) = _
  refine Finset.sum_congr rfl fun k _ => congrArg src (funext fun a => Fin.ext ?_)
  match a with
  | ⟨0, _⟩ => rfl
  | ⟨1, _⟩ => rfl

/-- Two columns side by side: the left one is column 0, -/
theorem concat_cols_left {α : Type} {m : ℕ} (x₁ x₂ : (⟨2, ![m, 1]⟩ : Shape).Idx → α)
    (h : Shape.Concatenates [(⟨2, ![m, 1]⟩ : Shape), ⟨2, ![m, 1]⟩] ⟨2, ![m, 2]⟩ 1) (r : Fin m) :
    concatenate ⟨2, ![m, 2]⟩ 1 [⟨⟨2, ![m, 1]⟩, x₁⟩, ⟨⟨2, ![m, 1]⟩, x₂⟩] h (ix2 r (0 : Fin 2)) = x₁ (ix2 r (0 : Fin 1)) :=
  concatenate_pair_apply_left 1 x₁ x₂ h (ix2 r (0 : Fin 2)) rfl (ix2 r (0 : Fin 1)) fun b => by
    match b with
    | ⟨0, _⟩ => rfl
    | ⟨1, _⟩ => rfl

/-- and the right one is column 1. -/
theorem concat_cols_right {α : Type} {m : ℕ} (x₁ x₂ : (⟨2, ![m, 1]⟩ : Shape).Idx → α)
    (h : Shape.Concatenates [(⟨2, ![m, 1]⟩ : Shape), ⟨2, ![m, 1]⟩] ⟨2, ![m, 2]⟩ 1) (r : Fin m) :
    concatenate ⟨2, ![m, 2]⟩ 1 [⟨⟨2, ![m, 1]⟩, x₁⟩, ⟨⟨2, ![m, 1]⟩, x₂⟩] h (ix2 r (1 : Fin 2)) = x₂ (ix2 r (0 : Fin 1)) :=
  concatenate_pair_apply_right 1 x₁ x₂ h (ix2 r (1 : Fin 2)) rfl rfl (ix2 r (0 : Fin 1))
    (fun b hb => by
      match b with
      | ⟨0, _⟩ => rfl
      | ⟨1, _⟩ => exact absurd rfl hb)
    rfl

/-! ## The stable softplus -/

/-- On the extended reals "x ≠ x" never holds, so the guarded form takes its second branch, and with the zero
    constants gone that is max(x, 0) + log1p(exp(−|x|)). -/
theorem softplus_guard (x : EReal) :
    Scalar.select (FloatOps.cmpf (F := Ideal) (φ := .f32) .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32 - FloatOps.absf (F := Ideal) (φ := .f32) (x - Ideal.ofBits .f32 0x00000000#32))))
      = max x 0 + Ideal.log1p (Ideal.exp (-(FloatOps.absf (F := Ideal) (φ := .f32) x))) := by
  have hc : FloatOps.cmpf (F := Ideal) (φ := .f32) .one (x - Ideal.ofBits .f32 0x00000000#32) (x - Ideal.ofBits .f32 0x00000000#32) = 0#1 := by
    rw [Ideal.cmpf_def]; unfold Ideal.cmp; simp
  rw [hc, select_zero, Ideal.ofBits_zero_f32, sub_zero, zero_sub]

end Cert.Value.Ops

end
-- ==== Proof.Value.DecodeMath.lean ====
/-
  The decode kernel's arithmetic at one row of a block, over the extended reals.

  For row r of a block the kernel forms the one-hot row of the row's id, multiplies it with the group table and so
  holds the table's row the id picks (zero when the id names no group). The picked anchor features are subtracted
  from the row's features; a tanh layer and a linear layer give eight numbers, four means and four pre-softplus
  scales. Column 0 of the result is the weighted, scaled means summed plus the picked anchor target; column 1 is the
  root of the summed squares of weight-scale product times the softplus scale.
-/
import proofs.«430159_j88974542504689_1_alg».proof.KernelIdeal
import proofs.«430159_j88974542504689_1_alg».proof.Proof.Gen.KernelIdeal.Skeleton
import proofs.«430159_j88974542504689_1_alg».proof.Proof.Value.Spec
import proofs.«430159_j88974542504689_1_alg».proof.Proof.Value.DecodeOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Value

open Cert.KernelIdeal Cert.KernelIdeal.Gen
open Idealize.ShloMosaic Idealize.ShloMosaic.ValueIdx

/-- tanh and the square root of a block, at an element. -/
theorem tanh_at {s : Shape} {φ : FTy} (a : FVec Ideal s φ) (i : s.Idx) : tanh a i = Ideal.tanh (a i) := rfl
theorem sqrt_at {s : Shape} {φ : FTy} (a : FVec Ideal s φ) (i : s.Idx) : sqrt a i = Ideal.sqrt (a i) := rfl

/-! ## The picked table row -/

/-- The one-hot product: entry (r, d) is the table's column d at the row the id of r picks. -/
theorem pay2_apply (v0 : Vec Ideal S1024x1 .i32) (v9 : Vec Ideal S1024x269 .f32) (r : Fin 1024) (d : Fin 269) :
    k4_pay2 v0 v9 (ix2 r d) = Spec.pick (fun g j => v9 (ix2 g j)) (v0 (ix2 r (0 : Fin 1))) d := by
  unfold k4_pay2
  refine (Ops.matmul_plain_apply dot_S1024x1024_S1024x269_S1024x269_1_0_0_1_n_n rfl _ _ r d).trans ?_
  unfold Spec.pick
  refine Finset.sum_congr rfl fun g _ => ?_
  refine congrArg₂ (· * ·) ?_ ?_
  · refine (truncf_apply (φ := .f32) (ψ := .bf16) _ _ _).trans ?_
    refine (sitofp_apply (F := Ideal) (φ := .f32) _ _).trans ?_
    refine (congrArg (FloatOps.sitofp (F := Ideal) .f32) ?_).trans
      ((Ops.onehot_word (BitVec.ofNat 32 g.val) (v0 (ix2 r (0 : Fin 1)))).trans (if_congr eq_comm rfl rfl))
    refine congrArg (BitVec.setWidth 32) ?_
    refine congrArg₂ (IntOp.cmpi .eq) (Ops.iota_cols_apply _ r g) ?_
    refine (Ops.broadcastTo_a1_ab_apply _ _ r g).trans ?_
    exact (congrFun (shapeCast_self _ _) _).trans (congrFun (shapeCast_self _ _) _)
  · exact congrFun (shapeCast_self v9 _) (ix2 g d)

/-- The picked anchor target (column 256). -/
theorem pay3_apply (v0 : Vec Ideal S1024x1 .i32) (v9 : Vec Ideal S1024x269 .f32) (r : Fin 1024) :
    k4_pay3 v0 v9 (ix2 r (0 : Fin 1)) = Spec.pick (fun g j => v9 (ix2 g j)) (v0 (ix2 r (0 : Fin 1))) ⟨256, by omega⟩ := by
  unfold k4_pay3
  exact (slice2_axis1_apply 256 (k4_pay2 v0 v9) _ r (0 : Fin 1) ⟨256, by omega⟩ (by decide)).trans (pay2_apply v0 v9 r _)

/-- The picked mixture weights (columns 257..260). -/
theorem pay4_apply (v0 : Vec Ideal S1024x1 .i32) (v9 : Vec Ideal S1024x269 .f32) (r : Fin 1024) (k : Fin 4) :
    k4_pay4 v0 v9 (ix2 r k) = Spec.pick (fun g j => v9 (ix2 g j)) (v0 (ix2 r (0 : Fin 1))) ⟨257 + k.val, by omega⟩ := by
  unfold k4_pay4
  exact (slice2_axis1_apply 257 (k4_pay2 v0 v9) _ r k ⟨257 + k.val, by omega⟩ rfl).trans (pay2_apply v0 v9 r _)

/-- The picked scales (columns 261..264). -/
theorem pay5_apply (v0 : Vec Ideal S1024x1 .i32) (v9 : Vec Ideal S1024x269 .f32) (r : Fin 1024) (k : Fin 4) :
    k4_pay5 v0 v9 (ix2 r k) = Spec.pick (fun g j => v9 (ix2 g j)) (v0 (ix2 r (0 : Fin 1))) ⟨261 + k.val, by omega⟩ := by
  unfold k4_pay5
  exact (slice2_axis1_apply 261 (k4_pay2 v0 v9) _ r k ⟨261 + k.val, by omega⟩ rfl).trans (pay2_apply v0 v9 r _)

/-- The picked weight-scale products (columns 265..268). -/
theorem pay6_apply (v0 : Vec Ideal S1024x1 .i32) (v9 : Vec Ideal S1024x269 .f32) (r : Fin 1024) (k : Fin 4) :
    k4_pay6 v0 v9 (ix2 r k) = Spec.pick (fun g j => v9 (ix2 g j)) (v0 (ix2 r (0 : Fin 1))) ⟨265 + k.val, by omega⟩ := by
  unfold k4_pay6
  exact (slice2_axis1_apply 265 (k4_pay2 v0 v9) _ r k ⟨265 + k.val, by omega⟩ rfl).trans (pay2_apply v0 v9 r _)

/-! ## The decoder's two layers -/

/-- The eight outputs of the decoder for row r: a tanh layer on the features relative to the picked anchor, then a
    linear layer. -/
theorem pay7_apply (v0 : Vec Ideal S1024x1 .i32) (v9 : Vec Ideal S1024x269 .f32) (v18 : Vec Ideal S1024x256 .f32)
    (v21 : Vec Ideal S256x128 .f32) (v24 : Vec Ideal S1x128 .f32) (v30 : Vec Ideal S128x8 .f32) (v33 : Vec Ideal S1x8 .f32)
    (r : Fin 1024) (k : Fin 8) :
    k4_pay7 v0 v9 v18 v21 v24 v30 v33 (ix2 r k)
      = Spec.pred (fun d => v18 (ix2 r d)) (fun j => Spec.pick (fun g j => v9 (ix2 g j)) (v0 (ix2 r (0 : Fin 1))) j)
          (fun d j => v21 (ix2 d j)) (fun j => v24 (ix2 (0 : Fin 1) j)) (fun j k => v30 (ix2 j k)) (fun k => v33 (ix2 (0 : Fin 1) k)) k := by
  unfold k4_pay7
  refine (addf_apply (φ := .f32) _ _ (ix2 r k)).trans ?_
  unfold Spec.pred
  refine congrArg₂ (· + ·) ?_ ?_
  · refine (Ops.matmul_plain_apply dot_S1024x128_S128x8_S1024x8_1_0_0_1_n_n rfl _ _ r k).trans ?_
    refine Finset.sum_congr rfl fun j _ => ?_
    refine congrArg₂ (· * ·) ?_ rfl
    unfold Spec.hidden
    refine (truncf_apply (φ := .f32) (ψ := .bf16) _ _ _).trans ?_
    refine (tanh_at (φ := .f32) _ _).trans ?_
    refine congrArg Ideal.tanh ?_
    refine (addf_apply (φ := .f32) _ _ (ix2 r j)).trans ?_
    refine congrArg₂ (· + ·) ?_ ?_
    · refine (Ops.matmul_plain_apply dot_S1024x256_S256x128_S1024x128_1_0_0_1_n_n rfl _ _ r j).trans ?_
      refine Finset.sum_congr rfl fun d _ => ?_
      refine congrArg₂ (· * ·) ?_ rfl
      refine (truncf_apply (φ := .f32) (ψ := .bf16) _ _ _).trans ?_
      refine (subf_apply (φ := .f32) _ _ (ix2 r d)).trans ?_
      refine congrArg₂ (· - ·) rfl ?_
      exact (slice2_axis1_apply 0 (k4_pay2 v0 v9) _ r d ⟨d.val, by omega⟩ (Nat.zero_add _).symm).trans (pay2_apply v0 v9 r _)
    · exact (broadcastTo_1b_ab_apply _ _ r j).trans (congrFun (shapeCast_self v24 _) _)
  · exact (broadcastTo_1b_ab_apply _ _ r k).trans (congrFun (shapeCast_self v33 _) _)

/-- The four means. -/
theorem pay8_apply (v0 : Vec Ideal S1024x1 .i32) (v9 : Vec Ideal S1024x269 .f32) (v18 : Vec Ideal S1024x256 .f32)
    (v21 : Vec Ideal S256x128 .f32) (v24 : Vec Ideal S1x128 .f32) (v30 : Vec Ideal S128x8 .f32) (v33 : Vec Ideal S1x8 .f32)
    (r : Fin 1024) (k : Fin 4) :
    k4_pay8 v0 v9 v18 v21 v24 v30 v33 (ix2 r k)
      = Spec.pred (fun d => v18 (ix2 r d)) (fun j => Spec.pick (fun g j => v9 (ix2 g j)) (v0 (ix2 r (0 : Fin 1))) j)
          (fun d j => v21 (ix2 d j)) (fun j => v24 (ix2 (0 : Fin 1) j)) (fun j k => v30 (ix2 j k)) (fun k => v33 (ix2 (0 : Fin 1) k))
          ⟨k.val, by omega⟩ := by
  unfold k4_pay8
  exact (slice2_axis1_apply 0 (k4_pay7 v0 v9 v18 v21 v24 v30 v33) _ r k ⟨k.val, by omega⟩ (Nat.zero_add _).symm).trans
    (pay7_apply v0 v9 v18 v21 v24 v30 v33 r _)

/-- The four pre-softplus scales. -/
theorem pay9_apply (v0 : Vec Ideal S1024x1 .i32) (v9 : Vec Ideal S1024x269 .f32) (v18 : Vec Ideal S1024x256 .f32)
    (v21 : Vec Ideal S256x128 .f32) (v24 : Vec Ideal S1x128 .f32) (v30 : Vec Ideal S128x8 .f32) (v33 : Vec Ideal S1x8 .f32)
    (r : Fin 1024) (k : Fin 4) :
    k4_pay9 v0 v9 v18 v21 v24 v30 v33 (ix2 r k)
      = Spec.pred (fun d => v18 (ix2 r d)) (fun j => Spec.pick (fun g j => v9 (ix2 g j)) (v0 (ix2 r (0 : Fin 1))) j)
          (fun d j => v21 (ix2 d j)) (fun j => v24 (ix2 (0 : Fin 1) j)) (fun j k => v30 (ix2 j k)) (fun k => v33 (ix2 (0 : Fin 1) k))
          ⟨4 + k.val, by omega⟩ := by
  unfold k4_pay9
  exact (slice2_axis1_apply 4 (k4_pay7 v0 v9 v18 v21 v24 v30 v33) _ r k ⟨4 + k.val, by omega⟩ rfl).trans
    (pay7_apply v0 v9 v18 v21 v24 v30 v33 r _)

/-- The scales' positive parts: the larger of the scale and zero. -/
theorem pay10_apply (v0 : Vec Ideal S1024x1 .i32) (v9 : Vec Ideal S1024x269 .f32) (v18 : Vec Ideal S1024x256 .f32)
    (v21 : Vec Ideal S256x128 .f32) (v24 : Vec Ideal S1x128 .f32) (v30 : Vec Ideal S128x8 .f32) (v33 : Vec Ideal S1x8 .f32)
    (r : Fin 1024) (k : Fin 4) :
    k4_pay10 v0 v9 v18 v21 v24 v30 v33 (ix2 r k)
      = max (k4_pay9 v0 v9 v18 v21 v24 v30 v33 (ix2 r k) : EReal) (Ideal.ofBits .f32 0x00000000#32) := rfl

/-! ## The two result columns, from the parts -/

/-- Column 0: the weighted, scaled means summed over the four lanes, plus the anchor target. -/
theorem pay1_col0 (v14 : FVec Ideal S1024x1 .f32) (v15 v16 v17 v37 v38 : FVec Ideal S1024x4 .f32) (c : Ideal .f32)
    (v40 : FVec Ideal S1024x4 .f32) (r : Fin 1024) :
    k4_pay1 v14 v15 v16 v17 v37 v38 c v40 (ix2 r (0 : Fin 2))
      = (∑ k : Fin 4, v15 (ix2 r k) * (v16 (ix2 r k) * v37 (ix2 r k))) + v14 (ix2 r (0 : Fin 1)) := by
  unfold k4_pay1
  refine (Ops.concat_cols_left _ _ _ r).trans ?_
  refine (addf_apply (φ := .f32) _ _ _).trans ?_
  refine congrArg₂ (· + ·) ?_ rfl
  refine (Ops.shapeCast_a_a1_apply _ _ r (0 : Fin 1)).trans ?_
  refine (Ops.rowsum4_apply _ _ _ _ _ r).trans ?_
  rfl

/-- Column 1: the root of the summed squares of weight-scale product times the softplus scale; the positive part
    enters as its own operand (`h40`). -/
theorem pay1_col1 (v14 : FVec Ideal S1024x1 .f32) (v15 v16 v17 v37 v38 v40 : FVec Ideal S1024x4 .f32) (r : Fin 1024)
    (h40 : ∀ k : Fin 4, v40 (ix2 r k) = max (v38 (ix2 r k) : EReal) (Ideal.ofBits .f32 0x00000000#32)) :
    k4_pay1 v14 v15 v16 v17 v37 v38 (Scalar.ofBits .f32 0x00000000#32) v40 (ix2 r (1 : Fin 2))
      = Ideal.sqrt (∑ k : Fin 4,
          (v17 (ix2 r k) * (Spec.softplus (v38 (ix2 r k)) * Spec.c99 + Spec.c01))
            * (v17 (ix2 r k) * (Spec.softplus (v38 (ix2 r k)) * Spec.c99 + Spec.c01))) := by
  unfold k4_pay1
  refine (Ops.concat_cols_right _ _ _ r).trans ?_
  refine (sqrt_at (φ := .f32) _ _).trans ?_
  refine congrArg Ideal.sqrt ?_
  refine (Ops.shapeCast_a_a1_apply _ _ r (0 : Fin 1)).trans ?_
  refine (Ops.rowsum4_apply _ _ _ _ _ r).trans ?_
  refine Finset.sum_congr rfl fun k _ => ?_
  refine (mulf_apply (φ := .f32) _ _ _).trans ?_
  refine congrArg₂ (· * ·) ?_ ?_ <;>
  · refine (mulf_apply (φ := .f32) _ _ _).trans ?_
    refine congrArg (v17 (ix2 r k) * ·) ?_
    refine (addf_apply (φ := .f32) _ _ _).trans ?_
    refine congrArg₂ (· + ·) ?_ rfl
    refine (mulf_apply (φ := .f32) _ _ _).trans ?_
    refine congrArg₂ (· * ·) ?_ rfl
    refine (select_apply _ _ _ _).trans ?_
    refine Eq.trans ?_ (Ops.softplus_guard (v38 (ix2 r k)))
    rw [← h40 k]
    rfl

/-! ## The payload of the seven blocks at row r -/

/-- Column 0 of what the body leaves at row r is the predicted value of the row. -/
theorem decode_pay_col0 (x0 : Vec Ideal S1024x256 .f32) (x1 : Vec Ideal S1024x1 .i32) (x2 : Vec Ideal S1024x269 .f32)
    (x3 : Vec Ideal S256x128 .f32) (x4 : Vec Ideal S1x128 .f32) (x5 : Vec Ideal S128x8 .f32) (x6 : Vec Ideal S1x8 .f32) (r : Fin 1024) :
    k4_pay1 (k4_pay3 x1 x2) (k4_pay4 x1 x2) (k4_pay5 x1 x2) (k4_pay6 x1 x2) (k4_pay8 x1 x2 x0 x3 x4 x5 x6) (k4_pay9 x1 x2 x0 x3 x4 x5 x6)
        (Scalar.ofBits .f32 0x00000000#32) (k4_pay10 x1 x2 x0 x3 x4 x5 x6) (ix2 r (0 : Fin 2))
      = Spec.yPred (fun d => x0 (ix2 r d)) (fun j => Spec.pick (fun g j => x2 (ix2 g j)) (x1 (ix2 r 0)) j)
          (fun d j => x3 (ix2 d j)) (fun j => x4 (ix2 0 j)) (fun j k => x5 (ix2 j k)) (fun k => x6 (ix2 0 k)) := by
  refine (pay1_col0 _ _ _ _ _ _ _ _ r).trans ?_
  unfold Spec.yPred
  refine congrArg₂ (· + ·) (Finset.sum_congr rfl fun k _ => ?_) (pay3_apply x1 x2 r)
  exact congrArg₂ (· * ·) (pay4_apply x1 x2 r k)
    (congrArg₂ (· * ·) (pay5_apply x1 x2 r k) (pay8_apply x1 x2 x0 x3 x4 x5 x6 r k))

/-- Column 1 of what the body leaves at row r is the predicted spread of the row. -/
theorem decode_pay_col1 (x0 : Vec Ideal S1024x256 .f32) (x1 : Vec Ideal S1024x1 .i32) (x2 : Vec Ideal S1024x269 .f32)
    (x3 : Vec Ideal S256x128 .f32) (x4 : Vec Ideal S1x128 .f32) (x5 : Vec Ideal S128x8 .f32) (x6 : Vec Ideal S1x8 .f32) (r : Fin 1024) :
    k4_pay1 (k4_pay3 x1 x2) (k4_pay4 x1 x2) (k4_pay5 x1 x2) (k4_pay6 x1 x2) (k4_pay8 x1 x2 x0 x3 x4 x5 x6) (k4_pay9 x1 x2 x0 x3 x4 x5 x6)
        (Scalar.ofBits .f32 0x00000000#32) (k4_pay10 x1 x2 x0 x3 x4 x5 x6) (ix2 r (1 : Fin 2))
      = Spec.ySigma (fun d => x0 (ix2 r d)) (fun j => Spec.pick (fun g j => x2 (ix2 g j)) (x1 (ix2 r 0)) j)
          (fun d j => x3 (ix2 d j)) (fun j => x4 (ix2 0 j)) (fun j k => x5 (ix2 j k)) (fun k => x6 (ix2 0 k)) := by
  refine (pay1_col1 _ _ _ _ _ _ _ r (fun k => pay10_apply x1 x2 x0 x3 x4 x5 x6 r k)).trans ?_
  unfold Spec.ySigma
  refine congrArg Ideal.sqrt (Finset.sum_congr rfl fun k _ => ?_)
  have e := congrArg₂ (fun a b : EReal => a * (Spec.softplus b * Spec.c99 + Spec.c01))
    (pay6_apply x1 x2 r k) (pay9_apply x1 x2 x0 x3 x4 x5 x6 r k)
  exact congrArg₂ (· * ·) e e

end Cert.Value

end
-- ==== Proof.Value.DecodeValue.lean ====
/-
  The decode region's result array, row by row.

  The region's grid has 256 points; point t stages rows 1024·t … 1024·t + 1023 of the feature array and of the id
  column, the whole group table and the four decoder arrays (their block index is constant), and writes back a
  1024×2 block to rows 1024·t … of the result. So row r of point t's block is row n = 1024·t + r of the arrays, what
  the body leaves in that row is the predicted value (column 0) and the predicted spread (column 1) of row n, the
  256 written blocks tile the 262144 rows (row n lies in the block of point n / 1024), and the result array ends
  holding, at every row, the two functions of that row of the region's entry contents.
-/
import proofs.«430159_j88974542504689_1_alg».proof.Proof.KI.R4Frame
import proofs.«430159_j88974542504689_1_alg».proof.Proof.Value.Spec
import proofs.«430159_j88974542504689_1_alg».proof.Proof.Value.DecodeMath
import Idealize.ShloMosaic.Lib.Pipeline.Value
import Idealize.ShloMosaic.Lib.ValueIdx

noncomputable section

open scoped BigOperators

namespace Cert.Value

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## Where the blocks sit -/

/-- The block index maps over the grid: the feature block, the id block and the result block are block t along the
    rows; the table and the decoder arrays are always block 0. -/
theorem decode_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row r of the feature block at point t is row 1024·t + r of the feature array. -/
theorem xblk_apply (c : Dev nD) (t : Fin cfg4.N) (r : Fin 1024) (d : Fin 256) (n : Fin 262144)
    (hn : n.val = 1024 * t.val + r.val) :
    (iblk4 V c 0 t : Vec Ideal S1024x256 .f32) (ix2 r d) = (V c main_arg4 : S262144x256.Idx → EReal) (ix2 n d) := by
  obtain ⟨e00, e01, e10, e11, e20, e21, e30, e31, e40, e41, e50, e51, e60, e61, e70, e71⟩ := decode_idx t
  unfold iblk4
  rw [View.read_apply]
  show V c main_arg4 _ = V c main_arg4 _
  congr 1
  funext a
  apply Fin.ext
  match a with
  | ⟨0, _⟩ => show win4_0.index t (0 : Fin 2) * 1024 + 1 * r.val = n.val; rw [e00, hn]; omega
  | ⟨1, _⟩ => show win4_0.index t (1 : Fin 2) * 256 + 1 * d.val = d.val; rw [e01]; omega

/-- Row r of the id block at point t is row 1024·t + r of the id column. -/
theorem idblk_apply (c : Dev nD) (t : Fin cfg4.N) (r : Fin 1024) (n : Fin 262144)
    (hn : n.val = 1024 * t.val + r.val) :
    (iblk4 V c 1 t : Vec Ideal S1024x1 .i32) (ix2 r (0 : Fin 1)) = (V c main_v88 : S262144x1.Idx → BitVec 32) (ix2 n (0 : Fin 1)) := by
  obtain ⟨e00, e01, e10, e11, e20, e21, e30, e31, e40, e41, e50, e51, e60, e61, e70, e71⟩ := decode_idx t
  unfold iblk4
  rw [View.read_apply]
  show V c main_v88 _ = V c main_v88 _
  congr 1
  funext a
  apply Fin.ext
  match a with
  | ⟨0, _⟩ => show win4_1.index t (0 : Fin 2) * 1024 + 1 * r.val = n.val; rw [e10, hn]; omega
  | ⟨1, _⟩ => show win4_1.index t (1 : Fin 2) * 1 + 1 * (0 : Fin 1).val = (0 : Fin 1).val; rw [e11]; rfl

/-- The block of window 2 is the group table, whole, at every point. -/
theorem blk2_eq (c : Dev nD) (t : Fin cfg4.N) :
    (iblk4 V c 2 t : Vec Ideal S1024x269 .f32) = (V c main_v87 : S1024x269.Idx → EReal) := by
  obtain ⟨e00, e01, e10, e11, e20, e21, e30, e31, e40, e41, e50, e51, e60, e61, e70, e71⟩ := decode_idx t
  funext j
  unfold iblk4
  rw [View.read_apply]
  show V c main_v87 _ = V c main_v87 j
  congr 1
  funext a
  apply Fin.ext
  match a with
  | ⟨0, _⟩ => show win4_2.index t (0 : Fin 2) * 1024 + 1 * (j 0).val = (j 0).val; rw [e20]; omega
  | ⟨1, _⟩ => show win4_2.index t (1 : Fin 2) * 269 + 1 * (j 1).val = (j 1).val; rw [e21]; omega

/-- The block of window 3 is the first decoder weight, whole, at every point. -/
theorem blk3_eq (c : Dev nD) (t : Fin cfg4.N) :
    (iblk4 V c 3 t : Vec Ideal S256x128 .f32) = (V c main_arg12 : S256x128.Idx → EReal) := by
  obtain ⟨e00, e01, e10, e11, e20, e21, e30, e31, e40, e41, e50, e51, e60, e61, e70, e71⟩ := decode_idx t
  funext j
  unfold iblk4
  rw [View.read_apply]
  show V c main_arg12 _ = V c main_arg12 j
  congr 1
  funext a
  apply Fin.ext
  match a with
  | ⟨0, _⟩ => show win4_3.index t (0 : Fin 2) * 256 + 1 * (j 0).val = (j 0).val; rw [e30]; omega
  | ⟨1, _⟩ => show win4_3.index t (1 : Fin 2) * 128 + 1 * (j 1).val = (j 1).val; rw [e31]; omega

/-- The block of window 4 is the first decoder bias, whole, at every point. -/
theorem blk4_eq (c : Dev nD) (t : Fin cfg4.N) :
    (iblk4 V c 4 t : Vec Ideal S1x128 .f32) = (V c main_v89 : S1x128.Idx → EReal) := by
  obtain ⟨e00, e01, e10, e11, e20, e21, e30, e31, e40, e41, e50, e51, e60, e61, e70, e71⟩ := decode_idx t
  funext j
  unfold iblk4
  rw [View.read_apply]
  show V c main_v89 _ = V c main_v89 j
  congr 1
  funext a
  apply Fin.ext
  match a with
  | ⟨0, _⟩ => show win4_4.index t (0 : Fin 2) * 1 + 1 * (j 0).val = (j 0).val; rw [e40]; omega
  | ⟨1, _⟩ => show win4_4.index t (1 : Fin 2) * 128 + 1 * (j 1).val = (j 1).val; rw [e41]; omega

/-- The block of window 5 is the second decoder weight, whole, at every point. -/
theorem blk5_eq (c : Dev nD) (t : Fin cfg4.N) :
    (iblk4 V c 5 t : Vec Ideal S128x8 .f32) = (V c main_arg14 : S128x8.Idx → EReal) := by
  obtain ⟨e00, e01, e10, e11, e20, e21, e30, e31, e40, e41, e50, e51, e60, e61, e70, e71⟩ := decode_idx t
  funext j
  unfold iblk4
  rw [View.read_apply]
  show V c main_arg14 _ = V c main_arg14 j
  congr 1
  funext a
  apply Fin.ext
  match a with
  | ⟨0, _⟩ => show win4_5.index t (0 : Fin 2) * 128 + 1 * (j 0).val = (j 0).val; rw [e50]; omega
  | ⟨1, _⟩ => show win4_5.index t (1 : Fin 2) * 8 + 1 * (j 1).val = (j 1).val; rw [e51]; omega

/-- The block of window 6 is the second decoder bias, whole, at every point. -/
theorem blk6_eq (c : Dev nD) (t : Fin cfg4.N) :
    (iblk4 V c 6 t : Vec Ideal S1x8 .f32) = (V c main_v90 : S1x8.Idx → EReal) := by
  obtain ⟨e00, e01, e10, e11, e20, e21, e30, e31, e40, e41, e50, e51, e60, e61, e70, e71⟩ := decode_idx t
  funext j
  unfold iblk4
  rw [View.read_apply]
  show V c main_v90 _ = V c main_v90 j
  congr 1
  funext a
  apply Fin.ext
  match a with
  | ⟨0, _⟩ => show win4_6.index t (0 : Fin 2) * 1 + 1 * (j 0).val = (j 0).val; rw [e60]; omega
  | ⟨1, _⟩ => show win4_6.index t (1 : Fin 2) * 8 + 1 * (j 1).val = (j 1).val; rw [e61]; omega

/-! ## One row of one block -/

/-- What the body leaves in row r of the result block, from blocks whose row r is row n of the feature array and of
    the id column and whose other five blocks are the whole arrays: the predicted value and spread of row n. -/
theorem decode_row (x0 : Vec Ideal S1024x256 .f32) (x1 : Vec Ideal S1024x1 .i32) (x2 : Vec Ideal S1024x269 .f32)
    (x3 : Vec Ideal S256x128 .f32) (x4 : Vec Ideal S1x128 .f32) (x5 : Vec Ideal S128x8 .f32) (x6 : Vec Ideal S1x8 .f32)
    (A0 : S262144x256.Idx → EReal) (A1 : S262144x1.Idx → BitVec 32) (A2 : S1024x269.Idx → EReal) (A3 : S256x128.Idx → EReal)
    (A4 : S1x128.Idx → EReal) (A5 : S128x8.Idx → EReal) (A6 : S1x8.Idx → EReal) (r : Fin 1024) (n : Fin 262144)
    (h0 : ∀ d : Fin 256, x0 (ix2 r d) = A0 (ix2 n d)) (h1 : x1 (ix2 r (0 : Fin 1)) = A1 (ix2 n (0 : Fin 1)))
    (h2 : x2 = A2) (h3 : x3 = A3) (h4 : x4 = A4) (h5 : x5 = A5) (h6 : x6 = A6) :
    out4_7 x0 x1 x2 x3 x4 x5 x6 (ix2 r (0 : Fin 2)) = Spec.yPred (fun d => A0 (ix2 n d)) (fun j => Spec.pick (fun g j => A2 (ix2 g j)) (A1 (ix2 n 0)) j)
          (fun d j => A3 (ix2 d j)) (fun j => A4 (ix2 0 j)) (fun j k => A5 (ix2 j k)) (fun k => A6 (ix2 0 k))
    ∧ out4_7 x0 x1 x2 x3 x4 x5 x6 (ix2 r (1 : Fin 2)) = Spec.ySigma (fun d => A0 (ix2 n d)) (fun j => Spec.pick (fun g j => A2 (ix2 g j)) (A1 (ix2 n 0)) j)
          (fun d j => A3 (ix2 d j)) (fun j => A4 (ix2 0 j)) (fun j k => A5 (ix2 j k)) (fun k => A6 (ix2 0 k)) := by
  subst h2 h3 h4 h5 h6
  have e0 : (fun d : Fin 256 => x0 (ix2 r d)) = fun d => A0 (ix2 n d) := funext h0
  rw [out4_7_eq, decode_pay_col0, decode_pay_col1, h1, e0]
  exact ⟨rfl, rfl⟩

/-! ## The result array -/

/-- The predicted value of row n of the region's entry contents. -/
def predRow (c : Dev nD) (n : Fin 262144) : EReal :=
  Spec.yPred (fun d => (V c main_arg4 : S262144x256.Idx → EReal) (ix2 n d))
      (fun j => Spec.pick (fun g j => (V c main_v87 : S1024x269.Idx → EReal) (ix2 g j)) ((V c main_v88 : S262144x1.Idx → BitVec 32) (ix2 n 0)) j)
      (fun d j => (V c main_arg12 : S256x128.Idx → EReal) (ix2 d j)) (fun j => (V c main_v89 : S1x128.Idx → EReal) (ix2 0 j))
      (fun j k => (V c main_arg14 : S128x8.Idx → EReal) (ix2 j k)) (fun k => (V c main_v90 : S1x8.Idx → EReal) (ix2 0 k))

/-- The predicted spread of row n of the region's entry contents. -/
def sigmaRow (c : Dev nD) (n : Fin 262144) : EReal :=
  Spec.ySigma (fun d => (V c main_arg4 : S262144x256.Idx → EReal) (ix2 n d))
      (fun j => Spec.pick (fun g j => (V c main_v87 : S1024x269.Idx → EReal) (ix2 g j)) ((V c main_v88 : S262144x1.Idx → BitVec 32) (ix2 n 0)) j)
      (fun d j => (V c main_arg12 : S256x128.Idx → EReal) (ix2 d j)) (fun j => (V c main_v89 : S1x128.Idx → EReal) (ix2 0 j))
      (fun j k => (V c main_arg14 : S128x8.Idx → EReal) (ix2 j k)) (fun k => (V c main_v90 : S1x8.Idx → EReal) (ix2 0 k))

/-- The decoded array: each row's predicted value in column 0 and predicted spread in column 1. -/
def decoded (c : Dev nD) : S262144x2.Idx → EReal := fun i =>
  if (i 1).val = 0 then predRow V c (i 0) else sigmaRow V c (i 0)

/-- Point t writes back block t of the decoded array. -/
theorem decode_flushed (c : Dev nD) (t : Fin cfg4.N) :
    (dat4 (F := Ideal) V c).flushed 7 t = ((cfg4.win 7).blk t).view.read (Elt Ideal) (decoded V c) := by
  show (cfg4.win 7).cut (grid4.coords t) ((dat4 (F := Ideal) V c).after 7 t) = _
  rw [after4_7]
  obtain ⟨e00, e01, e10, e11, e20, e21, e30, e31, e40, e41, e50, e51, e60, e61, e70, e71⟩ := decode_idx t
  have hN : cfg4.N = 256 := N_4
  have ht : t.val < cfg4.N := t.isLt
  funext j
  obtain ⟨r, q, rfl⟩ : ∃ (r : Fin 1024) (q : Fin 2), j = ix2 r q := ⟨j 0, j 1, eq_ix2 j⟩
  obtain ⟨n, hn⟩ : ∃ n : Fin 262144, n.val = 1024 * t.val + r.val :=
    ⟨⟨1024 * t.val + r.val, by have := r.isLt; omega⟩, rfl⟩
  rw [View.read_apply]
  have hemb : ((cfg4.win 7).blk t).view.emb (ix2 r q) = (ix2 n q : S262144x2.Idx) := by
    funext a
    apply Fin.ext
    match a with
    | ⟨0, _⟩ => show win4_7.index t (0 : Fin 2) * 1024 + 1 * r.val = n.val; rw [e70, hn]; omega
    | ⟨1, _⟩ => show win4_7.index t (1 : Fin 2) * 2 + 1 * q.val = q.val; rw [e71]; omega
  obtain ⟨hc0, hc1⟩ := decode_row (iblk4 V c 0 t) (iblk4 V c 1 t) (iblk4 V c 2 t) (iblk4 V c 3 t) (iblk4 V c 4 t)
    (iblk4 V c 5 t) (iblk4 V c 6 t) (V c main_arg4) (V c main_v88) (V c main_v87) (V c main_arg12) (V c main_v89)
    (V c main_arg14) (V c main_v90) r n (fun d => xblk_apply V c t r d n hn) (idblk_apply V c t r n hn)
    (blk2_eq V c t) (blk3_eq V c t) (blk4_eq V c t) (blk5_eq V c t) (blk6_eq V c t)
  show out4_7 (iblk4 V c 0 t) (iblk4 V c 1 t) (iblk4 V c 2 t) (iblk4 V c 3 t) (iblk4 V c 4 t) (iblk4 V c 5 t) (iblk4 V c 6 t) (ix2 r q)
    = decoded V c (((cfg4.win 7).blk t).view.emb (ix2 r q))
  rw [hemb]
  match q with
  | ⟨0, _⟩ => exact hc0
  | ⟨1, _⟩ => exact hc1

/-- An index of the result array is in point t's block iff each coordinate is in the block's range on its axis. -/
theorem mem_blk7 (t : Fin cfg4.N) (i : S262144x2.Idx) :
    i ∈ ((cfg4.win 7).blk t).view.set ↔ ∀ a : Fin 2, win4_7.index t a * S1024x2.size a ≤ (i a).val ∧ (i a).val < win4_7.index t a * S1024x2.size a + S1024x2.size a := by
  show i ∈ ((View.whole main_v91).slice (win4_7.rect t)).set ↔ _
  rw [View.set_slice_whole, Rect.mem_set_unit]
  exact Iff.rfl

/-- Row n lies in the block point n / 1024 writes back: the 256 blocks tile the 262144 rows. -/
theorem decode_cover (i : S262144x2.Idx) :
    ∃ t : Fin cfg4.N, (cfg4.win 7).flush t = true ∧ i ∈ ((cfg4.win 7).blk t).view.set := by
  have hi0 : (i 0).val < 262144 := (i 0).isLt
  have hi1 : (i 1).val < 2 := (i 1).isLt
  have hN : cfg4.N = 256 := N_4
  obtain ⟨t, ht⟩ : ∃ t : Fin cfg4.N, t.val = (i 0).val / 1024 := ⟨⟨(i 0).val / 1024, by omega⟩, rfl⟩
  obtain ⟨e00, e01, e10, e11, e20, e21, e30, e31, e40, e41, e50, e51, e60, e61, e70, e71⟩ := decode_idx t
  refine ⟨t, flush4_7 t, ?_⟩
  rw [mem_blk7]
  intro a
  match a with
  | ⟨0, _⟩ => show win4_7.index t (0 : Fin 2) * 1024 ≤ (i 0).val ∧ (i 0).val < win4_7.index t (0 : Fin 2) * 1024 + 1024; rw [e70]; omega
  | ⟨1, _⟩ => show win4_7.index t (1 : Fin 2) * 2 ≤ (i 1).val ∧ (i 1).val < win4_7.index t (1 : Fin 2) * 2 + 2; rw [e71]; omega

/-- The result array after the region is the decoded array. -/
theorem decode_array (c : Dev nD) : (dat4 (F := Ideal) V c).arrAt 7 cfg4.N = decoded V c :=
  (dat4 (F := Ideal) V c).arrAt_eq_of_cover 7 (decoded V c) (fun t _ => decode_flushed V c t) decode_cover

/-- Row n of the result array after the region: the predicted value and the predicted spread of row n of the
    feature array, against the table row its id picks, through the two decoder layers. -/
theorem decode_final (c : Dev nD) (n : Fin 262144) :
    ((dat4 (F := Ideal) V c).arrAt 7 cfg4.N : S262144x2.Idx → EReal) (ix2 n (0 : Fin 2)) = Spec.yPred (fun d => (V c main_arg4 : S262144x256.Idx → EReal) (ix2 n d))
      (fun j => Spec.pick (fun g j => (V c main_v87 : S1024x269.Idx → EReal) (ix2 g j)) ((V c main_v88 : S262144x1.Idx → BitVec 32) (ix2 n 0)) j)
      (fun d j => (V c main_arg12 : S256x128.Idx → EReal) (ix2 d j)) (fun j => (V c main_v89 : S1x128.Idx → EReal) (ix2 0 j))
      (fun j k => (V c main_arg14 : S128x8.Idx → EReal) (ix2 j k)) (fun k => (V c main_v90 : S1x8.Idx → EReal) (ix2 0 k))
    ∧ ((dat4 (F := Ideal) V c).arrAt 7 cfg4.N : S262144x2.Idx → EReal) (ix2 n (1 : Fin 2)) = Spec.ySigma (fun d => (V c main_arg4 : S262144x256.Idx → EReal) (ix2 n d))
      (fun j => Spec.pick (fun g j => (V c main_v87 : S1024x269.Idx → EReal) (ix2 g j)) ((V c main_v88 : S262144x1.Idx → BitVec 32) (ix2 n 0)) j)
      (fun d j => (V c main_arg12 : S256x128.Idx → EReal) (ix2 d j)) (fun j => (V c main_v89 : S1x128.Idx → EReal) (ix2 0 j))
      (fun j k => (V c main_arg14 : S128x8.Idx → EReal) (ix2 j k)) (fun k => (V c main_v90 : S1x8.Idx → EReal) (ix2 0 k)) := by
  rw [decode_array]
  exact ⟨rfl, rfl⟩

end Cert.Value

end
-- ==== Proof.Value.Assemble.lean ====
/-
  The two programs compute the same six arrays.

  Both programs form, from the context rows and from the target rows, the per-group means of the rows relative to their
  group's anchor (the anchor being the per-group mean of the rows themselves), apply the cluster head to the two mean
  arrays, and decode every target row against the 269-wide table row of its group. The kernel program's five regions and
  host stretches leave, in closed form: the anchors (segment means), the relative means (segment means of the rows less
  their picked anchors), the head's outputs as the shared functions of the relative means, and the decoder's two columns
  as the shared functions of a row and the table row its id picks. The reference program's stages have the same closed
  forms. Under the precondition every target id is a group's word, so the pick is that group's table row; the table rows
  of the two programs agree column by column. Hence the six results agree entry by entry.
-/
import proofs.«430159_j88974542504689_1_alg».proof.Defs
import proofs.«430159_j88974542504689_1_alg».proof.Proof.Gen.Pre_finite_inputs
import proofs.«430159_j88974542504689_1_alg».proof.Proof.KI.Run
import proofs.«430159_j88974542504689_1_alg».proof.Proof.RefRun
import proofs.«430159_j88974542504689_1_alg».proof.Proof.RefRead
import proofs.«430159_j88974542504689_1_alg».proof.Proof.Value.PreRange
import proofs.«430159_j88974542504689_1_alg».proof.Proof.Value.LibSeg
import proofs.«430159_j88974542504689_1_alg».proof.Proof.Value.AssembleMath
import proofs.«430159_j88974542504689_1_alg».proof.Proof.Value.RefTails
import proofs.«430159_j88974542504689_1_alg».proof.Proof.Value.RefMeans
import proofs.«430159_j88974542504689_1_alg».proof.Proof.Value.RefDecode
import proofs.«430159_j88974542504689_1_alg».proof.Proof.Value.KernelHostEntries
import proofs.«430159_j88974542504689_1_alg».proof.Proof.Value.KernelHostHeads
import proofs.«430159_j88974542504689_1_alg».proof.Proof.Value.AnchorValue
import proofs.«430159_j88974542504689_1_alg».proof.Proof.Value.Residual2Value
import proofs.«430159_j88974542504689_1_alg».proof.Proof.Value.Residual3Value
import proofs.«430159_j88974542504689_1_alg».proof.Proof.Value.DecodeValue

-- decided memberships over the program's 272 references recurse past the default depth
set_option maxRecDepth 16384

noncomputable section

open scoped BigOperators

namespace Cert.Value.Assemble

open Cert.KernelIdeal Cert.KernelIdeal.Gen Cert.KernelIdeal.Hand
open Cert.ReferenceIdeal.ReadP
open Idealize.ShloMosaic Idealize.ShloMosaic.TcCoe Idealize.ShloMosaic.ValueIdx Idealize.SL.Sem
open Cert.Value.KHost Cert.Value.Ref

section AtDevice

variable (m : (ℓ : Loc nD τ sig) → Buf (Elt Ideal) ℓ) (c : Dev nD)

-- the sixteen launched arrays of the device, at their literal types
set_option quotPrecheck false

local notation "a0" => (m ((c : Thread nD τ).loc main_arg0) : Vec Ideal S262144 .i32)
local notation "a1" => (m ((c : Thread nD τ).loc main_arg1) : Vec Ideal S262144x256 .f32)
local notation "a2" => (m ((c : Thread nD τ).loc main_arg2) : Vec Ideal S262144x1 .f32)
local notation "a3" => (m ((c : Thread nD τ).loc main_arg3) : Vec Ideal S262144 .i32)
local notation "a4" => (m ((c : Thread nD τ).loc main_arg4) : Vec Ideal S262144x256 .f32)
local notation "a5" => (m ((c : Thread nD τ).loc main_arg5) : Vec Ideal S262144x1 .f32)
local notation "a6" => (m ((c : Thread nD τ).loc main_arg6) : Vec Ideal S257x128 .f32)
local notation "a7" => (m ((c : Thread nD τ).loc main_arg7) : Vec Ideal S128 .f32)
local notation "a8" => (m ((c : Thread nD τ).loc main_arg8) : Vec Ideal S128x4 .f32)
local notation "a9" => (m ((c : Thread nD τ).loc main_arg9) : Vec Ideal S4 .f32)
local notation "a10" => (m ((c : Thread nD τ).loc main_arg10) : Vec Ideal S128x8 .f32)
local notation "a11" => (m ((c : Thread nD τ).loc main_arg11) : Vec Ideal S8 .f32)
local notation "a12" => (m ((c : Thread nD τ).loc main_arg12) : Vec Ideal S256x128 .f32)
local notation "a13" => (m ((c : Thread nD τ).loc main_arg13) : Vec Ideal S128 .f32)
local notation "a14" => (m ((c : Thread nD τ).loc main_arg14) : Vec Ideal S128x8 .f32)
local notation "a15" => (m ((c : Thread nD τ).loc main_arg15) : Vec Ideal S8 .f32)

/-! ## The anchors: the segment means of the rows -/

/-- The context anchors region 0 leaves are the segment means of the context rows' 257 columns. -/
theorem ctx_anchor (g : Fin 1024) (d : Fin 257) :
    (outs m 2 main_v3 c : Vec Ideal S1024x257 .f32) (ix2 g d) = Spec.segMean (fun n => a0 (ix1 n)) (xy a1 a2) g d := by
  refine (congrFun (outs_2 m c) (ix2 g d)).trans ?_
  refine (anchor0_final (fun c b => V1 m c b) c g d).trans ?_
  exact segMean_congr (fun n => V1_main_v2_apply m c n) (fun n d => V1_main_v0_apply m c n d) g d

/-- The target anchors region 1 leaves are the segment means of the target rows' 257 columns. -/
theorem tgt_anchor (g : Fin 1024) (d : Fin 257) :
    (outs m 4 main_v5 c : Vec Ideal S1024x257 .f32) (ix2 g d) = Spec.segMean (fun n => a3 (ix1 n)) (xy a4 a5) g d := by
  refine (congrFun (outs_4 m c) (ix2 g d)).trans ?_
  refine (anchor1_final (fun c b => V3 m (outs m) c b) c g d).trans ?_
  exact segMean_congr (fun n => V3_main_v4_apply m (outs m) c n)
    (fun n d => (congrFun (V3_main_v1 m (outs m) c) (ix2 n d)).trans (V1_main_v1_apply m c n d)) g d

/-! ## The relative means: both programs' arrays are one array -/

/-- The context's array of relative means, as region 2 leaves it, is the reference's. -/
theorem ctx_means : (outs m 6 main_v8 c : Vec Ideal S1024x257 .f32) = val_main_v51 (F := Ideal) a0 a1 a2 := by
  funext i
  obtain ⟨g, d, rfl⟩ : ∃ (g : Fin 1024) (d : Fin 257), i = ix2 g d := ⟨i 0, i 1, eq_ix2 i⟩
  refine (congrFun (outs_6 m c) (ix2 g d)).trans ?_
  refine (residual2_final (fun c b => V5 m (outs m) c b) c g d
    (fun n => (V5_main_v6_apply m (outs m) c n).trans (V5_main_v7_apply m (outs m) c n).symm)).trans ?_
  refine (congrFun (congrFun (resMean_congr (fun n => V5_main_v6_apply m (outs m) c n)
    (fun n d => (congrFun (V5_main_v0 m (outs m) c) (ix2 n d)).trans (V1_main_v0_apply m c n d))
    (fun g d => (congrFun (V5_main_v3 m (outs m) c) (ix2 g d)).trans (ctx_anchor m c g d))) g) d).trans ?_
  exact (ref_hctx a0 a1 a2 g d).symm

/-- The target's array of relative means, as region 3 leaves it, is the reference's. -/
theorem tgt_means : (outs m 8 main_v11 c : Vec Ideal S1024x257 .f32) = val_main_v140 (F := Ideal) a3 a4 a5 := by
  funext i
  obtain ⟨g, d, rfl⟩ : ∃ (g : Fin 1024) (d : Fin 257), i = ix2 g d := ⟨i 0, i 1, eq_ix2 i⟩
  refine (congrFun (outs_8 m c) (ix2 g d)).trans ?_
  refine (residual3_final (fun c b => V7 m (outs m) c b) c g d
    (fun n => (V7_main_v9_apply m (outs m) c n).trans (V7_main_v10_apply m (outs m) c n).symm)).trans ?_
  refine (congrFun (congrFun (resMean_congr (fun n => V7_main_v9_apply m (outs m) c n)
    (fun n d => (congrFun (V7_main_v1 m (outs m) c) (ix2 n d)).trans (V1_main_v1_apply m c n d))
    (fun g d => (congrFun (V7_main_v5 m (outs m) c) (ix2 g d)).trans (tgt_anchor m c g d))) g) d).trans ?_
  exact (ref_htgt a3 a4 a5 g d).symm

/-! ## The head's four results -/

/-- The target's mixture weights. -/
theorem res_v68 : V23 m (outs m) c main_v68 = val_main_v160 (F := Ideal) a3 a4 a5 a6 a7 a8 a9 := by
  rw [V23_main_v68 m (outs m) c, tgt_means m c]
  exact (Cert.RefTails.ref_tProb a3 a4 a5 a6 a7 a8 a9).symm

/-- The target's hidden representation. -/
theorem res_v53 : V23 m (outs m) c main_v53 = val_main_v145 (F := Ideal) a3 a4 a5 a6 a7 := by
  rw [V23_main_v53 m (outs m) c, tgt_means m c]
  exact (Cert.RefTails.ref_tRep a3 a4 a5 a6 a7).symm

/-- The target's scales. -/
theorem res_v85 : V23 m (outs m) c main_v85 = val_main_v177 (F := Ideal) a3 a4 a5 a6 a7 a10 a11 := by
  rw [V23_main_v85 m (outs m) c, tgt_means m c]
  exact (Cert.RefTails.ref_tScale a3 a4 a5 a6 a7 a10 a11).symm

/-- The per-group divergence. -/
theorem res_v112 : V23 m (outs m) c main_v112 = val_main_v257 (F := Ideal) a0 a1 a2 a3 a4 a5 a6 a7 a8 a9 a10 a11 := by
  rw [V23_main_v112 m (outs m) c, ctx_means m c, tgt_means m c]
  exact (Cert.RefTails.ref_distKl a0 a1 a2 a3 a4 a5 a6 a7 a8 a9 a10 a11).symm

/-! ## The group table: the two programs' rows agree column by column -/

/-- The kernel program's mixture weights are the reference's. -/
theorem tProb_eq : Cert.Tails.tProb (outs m 8 main_v11 c) a6 a7 a8 a9 = val_main_v160 (F := Ideal) a3 a4 a5 a6 a7 a8 a9 := by
  rw [tgt_means m c]
  exact (Cert.RefTails.ref_tProb a3 a4 a5 a6 a7 a8 a9).symm

/-- The kernel program's scales are the reference's. -/
theorem tScale_eq : Cert.Tails.tScale (outs m 8 main_v11 c) a6 a7 a10 a11 = val_main_v177 (F := Ideal) a3 a4 a5 a6 a7 a10 a11 := by
  rw [tgt_means m c]
  exact (Cert.RefTails.ref_tScale a3 a4 a5 a6 a7 a10 a11).symm

/-- Row g of the table the decoder region reads is row g of the reference's five gathered tables laid side by side. -/
theorem table_row (g : Fin 1024) (j : Fin 269) :
    (V21 m (outs m) c main_v87 : Vec Ideal S1024x269 .f32) (ix2 g j)
      = RefDecode.refTab a3 a4 a5 a6 a7 a8 a9 a10 a11 g j := by
  have hj := j.isLt
  by_cases h0 : j.val < 256
  · have h0' : j.val < 257 := by omega
    have hl : (V21 m (outs m) c main_v87 : Vec Ideal S1024x269 .f32) (ix2 g j)
        = (outs m 4 main_v5 c : Vec Ideal S1024x257 .f32) (ix2 g ⟨j.val, h0'⟩) := by
      rw [V21_main_v87_apply m (outs m) c g j, dif_pos h0']
    have hr : RefDecode.refTab a3 a4 a5 a6 a7 a8 a9 a10 a11 g j = val_main_v100 (F := Ideal) a3 a4 (ix2 g ⟨j.val, h0⟩) := by
      unfold RefDecode.refTab
      rw [dif_pos h0]
    rw [hl, hr, tgt_anchor m c g ⟨j.val, h0'⟩, segMean_xy_lt (fun n => a3 (ix1 n)) a4 a5 g ⟨j.val, h0'⟩ h0]
    exact (ref_txa a3 a4 g ⟨j.val, h0⟩).symm
  · by_cases h1 : j.val < 257
    · have hl : (V21 m (outs m) c main_v87 : Vec Ideal S1024x269 .f32) (ix2 g j)
          = (outs m 4 main_v5 c : Vec Ideal S1024x257 .f32) (ix2 g ⟨j.val, h1⟩) := by
        rw [V21_main_v87_apply m (outs m) c g j, dif_pos h1]
      have hr : RefDecode.refTab a3 a4 a5 a6 a7 a8 a9 a10 a11 g j = val_main_v111 (F := Ideal) a3 a5 (ix2 g (0 : Fin 1)) := by
        unfold RefDecode.refTab
        rw [dif_neg h0, dif_pos h1]
      rw [hl, hr, tgt_anchor m c g ⟨j.val, h1⟩, segMean_xy_ge (fun n => a3 (ix1 n)) a4 a5 g ⟨j.val, h1⟩ h0]
      exact (ref_tya a3 a5 g).symm
    · by_cases h2 : j.val < 261
      · have hl : (V21 m (outs m) c main_v87 : Vec Ideal S1024x269 .f32) (ix2 g j)
            = Cert.Tails.tProb (outs m 8 main_v11 c) a6 a7 a8 a9 (ix2 g ⟨j.val - 257, by omega⟩) := by
          rw [V21_main_v87_apply m (outs m) c g j, dif_neg h1, dif_pos h2]
        have hr : RefDecode.refTab a3 a4 a5 a6 a7 a8 a9 a10 a11 g j
            = val_main_v160 (F := Ideal) a3 a4 a5 a6 a7 a8 a9 (ix2 g ⟨j.val - 257, by omega⟩) := by
          unfold RefDecode.refTab
          rw [dif_neg h0, dif_neg h1, dif_pos h2]
        rw [hl, hr, tProb_eq m c]
      · by_cases h3 : j.val < 265
        · have hl : (V21 m (outs m) c main_v87 : Vec Ideal S1024x269 .f32) (ix2 g j)
              = Cert.Tails.tScale (outs m 8 main_v11 c) a6 a7 a10 a11 (ix2 g ⟨j.val - 261, by omega⟩) := by
            rw [V21_main_v87_apply m (outs m) c g j, dif_neg h1, dif_neg h2, dif_pos h3]
          have hr : RefDecode.refTab a3 a4 a5 a6 a7 a8 a9 a10 a11 g j
              = val_main_v177 (F := Ideal) a3 a4 a5 a6 a7 a10 a11 (ix2 g ⟨j.val - 261, by omega⟩) := by
            unfold RefDecode.refTab
            rw [dif_neg h0, dif_neg h1, dif_neg h2, dif_pos h3]
          rw [hl, hr, tScale_eq m c]
        · have hl : (V21 m (outs m) c main_v87 : Vec Ideal S1024x269 .f32) (ix2 g j)
              = Cert.Tails.tsp (Cert.Tails.tScale (outs m 8 main_v11 c) a6 a7 a10 a11)
                  (Cert.Tails.tProb (outs m 8 main_v11 c) a6 a7 a8 a9) (ix2 g ⟨j.val - 265, by omega⟩) := by
            rw [V21_main_v87_apply m (outs m) c g j, dif_neg h1, dif_neg h2, dif_neg h3]
          have hr : RefDecode.refTab a3 a4 a5 a6 a7 a8 a9 a10 a11 g j
              = val_main_v228 (F := Ideal) a3 a4 a5 a6 a7 a8 a9 a10 a11 (ix2 g ⟨j.val - 265, by omega⟩) := by
            unfold RefDecode.refTab
            rw [dif_neg h0, dif_neg h1, dif_neg h2, dif_neg h3]
          rw [hl, hr, tScale_eq m c, tProb_eq m c]
          rfl

/-! ## The decoder's two columns -/

/-- The table row the decoder region picks for row n is the reference's row of the row's group. -/
theorem picked_row (n : Fin 262144) (g : Fin 1024) (hid : a3 (ix1 n) = Spec.gw g) (j : Fin 269) :
    Spec.pick (fun g j => (V21 m (outs m) c main_v87 : Vec Ideal S1024x269 .f32) (ix2 g j))
        ((V21 m (outs m) c main_v88 : Vec Ideal S262144x1 .i32) (ix2 n 0)) j
      = RefDecode.refTab a3 a4 a5 a6 a7 a8 a9 a10 a11 g j := by
  rw [V21_main_v88_apply m (outs m) c n, hid, Seg.pick_gw]
  exact table_row m c g j

/-- The first column of what the decoder region leaves, at row n. -/
theorem decode_y (n : Fin 262144) (g : Fin 1024) (hid : a3 (ix1 n) = Spec.gw g) :
    (outs m 22 main_v91 c : Vec Ideal S262144x2 .f32) (ix2 n (0 : Fin 2))
      = val_main_v227 (F := Ideal) a3 a4 a5 a6 a7 a8 a9 a10 a11 a12 a13 a14 a15 (ix2 n (0 : Fin 1)) := by
  refine (congrFun (outs_22 m c) (ix2 n (0 : Fin 2))).trans ?_
  refine (decode_final (fun c b => V21 m (outs m) c b) c n).1.trans ?_
  refine (yPred_congr (fun d => congrFun (V21_arg4 m (outs m) c) (ix2 n d)) (picked_row m c n g hid)
    (fun d j => congrFun (V21_arg12 m (outs m) c) (ix2 d j))
    (fun j => V21_main_v89_apply m (outs m) c j)
    (fun j k => congrFun (V21_arg14 m (outs m) c) (ix2 j k))
    (fun k => V21_main_v90_apply m (outs m) c k)).trans ?_
  exact (RefDecode.ref_ypred a3 a4 a5 a6 a7 a8 a9 a10 a11 a12 a13 a14 a15 n g hid).symm

/-- The second column of what the decoder region leaves, at row n. -/
theorem decode_sigma (n : Fin 262144) (g : Fin 1024) (hid : a3 (ix1 n) = Spec.gw g) :
    (outs m 22 main_v91 c : Vec Ideal S262144x2 .f32) (ix2 n (1 : Fin 2))
      = val_main_v239 (F := Ideal) a3 a4 a5 a6 a7 a8 a9 a10 a11 a12 a13 a14 a15 (ix1 n) := by
  refine (congrFun (outs_22 m c) (ix2 n (1 : Fin 2))).trans ?_
  refine (decode_final (fun c b => V21 m (outs m) c b) c n).2.trans ?_
  refine (ySigma_congr (fun d => congrFun (V21_arg4 m (outs m) c) (ix2 n d)) (picked_row m c n g hid)
    (fun d j => congrFun (V21_arg12 m (outs m) c) (ix2 d j))
    (fun j => V21_main_v89_apply m (outs m) c j)
    (fun j k => congrFun (V21_arg14 m (outs m) c) (ix2 j k))
    (fun k => V21_main_v90_apply m (outs m) c k)).trans ?_
  exact (RefDecode.ref_ysigma a3 a4 a5 a6 a7 a8 a9 a10 a11 a12 a13 a14 a15 n g hid).symm

/-- The predicted values. -/
theorem res_v92 (hpre : Cert.Pre_KernelIdeal m) :
    (V23 m (outs m) c main_v92 : Vec Ideal S262144x1 .f32)
      = val_main_v227 (F := Ideal) a3 a4 a5 a6 a7 a8 a9 a10 a11 a12 a13 a14 a15 := by
  funext i
  obtain ⟨n, u, rfl⟩ : ∃ (n : Fin 262144) (u : Fin 1), i = ix2 n u := ⟨i 0, i 1, eq_ix2 i⟩
  obtain rfl : u = 0 := Subsingleton.elim _ _
  obtain ⟨g, hg⟩ := Cert.Value.target_ids_in_range m hpre c n
  exact (V23_main_v92_apply m (outs m) c n).trans (decode_y m c n g hg)

/-- The predicted spreads. -/
theorem res_v94 (hpre : Cert.Pre_KernelIdeal m) :
    (V23 m (outs m) c main_v94 : Vec Ideal S262144 .f32)
      = val_main_v239 (F := Ideal) a3 a4 a5 a6 a7 a8 a9 a10 a11 a12 a13 a14 a15 := by
  funext i
  obtain ⟨n, rfl⟩ : ∃ n : Fin 262144, i = ix1 n := ⟨i 0, eq_ix1 i⟩
  obtain ⟨g, hg⟩ := Cert.Value.target_ids_in_range m hpre c n
  exact (V23_main_v94_apply m (outs m) c n).trans (decode_sigma m c n g hg)

end AtDevice

/-! ## The runs -/

/-- The kernel program runs, leaves the last valuation's six result arrays, and leaves its arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v92) = V23 m (outs m) c main_v92
      ∧ r.2.mem ((c.tc : Thread nD τ).loc main_v94) = V23 m (outs m) c main_v94
      ∧ r.2.mem ((c.tc : Thread nD τ).loc main_v68) = V23 m (outs m) c main_v68
      ∧ r.2.mem ((c.tc : Thread nD τ).loc main_v53) = V23 m (outs m) c main_v53
      ∧ r.2.mem ((c.tc : Thread nD τ).loc main_v112) = V23 m (outs m) c main_v112
      ∧ r.2.mem ((c.tc : Thread nD τ).loc main_v85) = V23 m (outs m) c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  OrdCont.mono (θ_run defs (onTc (τ := τ) (main (F := Ideal))) ⟨m, fun _ => 0, ρ⟩) (fun r h c =>
    ⟨h c _ (mem_uc main_v92 (by decide)),
     h c _ (mem_uc main_v94 (by decide)),
     h c _ (mem_uc main_v68 (by decide)),
     h c _ (mem_uc main_v53 (by decide)),
     h c _ (mem_uc main_v112 (by decide)),
     h c _ (mem_uc main_v85 (by decide)),
     (h c _ (mem_uc main_arg0 (by decide))).trans (V23_main_arg0 m (outs m) c),
     (h c _ (mem_uc main_arg1 (by decide))).trans (V23_main_arg1 m (outs m) c),
     (h c _ (mem_uc main_arg2 (by decide))).trans (V23_main_arg2 m (outs m) c),
     (h c _ (mem_uc main_arg3 (by decide))).trans (V23_main_arg3 m (outs m) c),
     (h c _ (mem_uc main_arg4 (by decide))).trans (V23_main_arg4 m (outs m) c),
     (h c _ (mem_uc main_arg5 (by decide))).trans (V23_main_arg5 m (outs m) c),
     (h c _ (mem_uc main_arg6 (by decide))).trans (V23_main_arg6 m (outs m) c),
     (h c _ (mem_uc main_arg7 (by decide))).trans (V23_main_arg7 m (outs m) c),
     (h c _ (mem_uc main_arg8 (by decide))).trans (V23_main_arg8 m (outs m) c),
     (h c _ (mem_uc main_arg9 (by decide))).trans (V23_main_arg9 m (outs m) c),
     (h c _ (mem_uc main_arg10 (by decide))).trans (V23_main_arg10 m (outs m) c),
     (h c _ (mem_uc main_arg11 (by decide))).trans (V23_main_arg11 m (outs m) c),
     (h c _ (mem_uc main_arg12 (by decide))).trans (V23_main_arg12 m (outs m) c),
     (h c _ (mem_uc main_arg13 (by decide))).trans (V23_main_arg13 m (outs m) c),
     (h c _ (mem_uc main_arg14 (by decide))).trans (V23_main_arg14 m (outs m) c),
     (h c _ (mem_uc main_arg15 (by decide))).trans (V23_main_arg15 m (outs m) c)⟩) (run_all m ρ)

end Cert.Value.Assemble

namespace Cert.Value

open Cert.KernelIdeal.Gen Cert.KernelIdeal.Hand Cert.ReferenceIdeal.ReadP
open Idealize.ShloMosaic Idealize.ShloMosaic.TcCoe Idealize.SL.Sem

/-- The reference program runs and leaves its arguments as launched. -/
theorem frame_ri : Cert.frame_ReferenceIdeal := fun m ρ _ =>
  (θ_run Cert.ReferenceIdeal.defs _ _).mono (fun _ h c => (h c).2.2.2.2.2.2) (Cert.ReferenceIdeal.ValueP.run (F := Ideal) m ρ)

/-- From memories agreeing on the arguments, under the precondition, both programs run and end with equal results. -/
theorem algebraic : Cert.algebraic_KernelIdeal_ReferenceIdeal := by
  intro m ρ m' ρ' hpre hagree
  refine ⟨fun c => V23 m (outs m) c Cert.KernelIdeal.main_v92, fun c => V23 m (outs m) c Cert.KernelIdeal.main_v94,
    fun c => V23 m (outs m) c Cert.KernelIdeal.main_v68, fun c => V23 m (outs m) c Cert.KernelIdeal.main_v53,
    fun c => V23 m (outs m) c Cert.KernelIdeal.main_v112, fun c => V23 m (outs m) c Cert.KernelIdeal.main_v85,
    Assemble.kernel_run m ρ, ?_⟩
  refine (θ_run Cert.ReferenceIdeal.defs _ _).mono (fun _ h c => ?_) (Cert.ReferenceIdeal.ValueP.run (F := Ideal) m' ρ')
  obtain ⟨e0, e1, e2, e3, e4, e5, e6, e7, e8, e9, e10, e11, e12, e13, e14, e15⟩ := hagree c
  obtain ⟨r0, r1, r2, r3, r4, r5, rargs⟩ := h c
  refine ⟨r0.trans ?_, r1.trans ?_, r2.trans ?_, r3.trans ?_, r4.trans ?_, r5.trans ?_, rargs⟩
  · rw [val_main_v227_eq, e3, e4, e5, e6, e7, e8, e9, e10, e11, e12, e13, e14, e15]
    exact (Assemble.res_v92 m c hpre).symm
  · rw [val_main_v239_eq, e3, e4, e5, e6, e7, e8, e9, e10, e11, e12, e13, e14, e15]
    exact (Assemble.res_v94 m c hpre).symm
  · rw [val_main_v160_eq, e3, e4, e5, e6, e7, e8, e9]
    exact (Assemble.res_v68 m c).symm
  · rw [e3, e4, e5, e6, e7]
    exact (val_main_v145_eq _ _ _ _ _).trans (Assemble.res_v53 m c).symm
  · rw [val_main_v257_eq, e0, e1, e2, e3, e4, e5, e6, e7, e8, e9, e10, e11]
    exact (Assemble.res_v112 m c).symm
  · rw [val_main_v177_eq, e3, e4, e5, e6, e7, e10, e11]
    exact (Assemble.res_v85 m c).symm

end Cert.Value

end
-- ==== Proof.lean ====
/-
  The certificate of the grouped mean-and-decode program: five kernel regions among host operations against a plain
  reference.

  Rows carry a group id below 1024. Regions 0 and 1 accumulate, tile by tile, each group's column sums and row count by a
  one-hot product and leave the group means (the anchors) of the context rows and of the target rows; regions 2 and 3
  subtract from every row the anchor its id picks, again by a one-hot product, and leave the group means of those
  relative features; the host turns them into mixture weights, scales and the divergence terms; region 4 picks each
  target row's group table row, decodes the row's relative features through a tanh layer and a linear layer, and combines
  the means and softplus scales with the picked weights. At the ideal instance a one-hot product is the picked row or
  the masked sum, a sum over tiles is the sum over all rows, and the reference's scatter-add and gather are the same
  masked sum and picked row, so the two programs' six results are the same functions of the inputs; a target id must
  name a group for the reference's gather to pick the row the kernel picks, which is the precondition's range conjunct.
  The three frames: each region's body runs at every grid point with its scratch carried from point to point, the host
  stretches run between them, and no argument array is written; the reference is host operations only.
-/
import proofs.«430159_j88974542504689_1_alg».proof.Defs
import proofs.«430159_j88974542504689_1_alg».proof.Proof.Gen.Kernel
import proofs.«430159_j88974542504689_1_alg».proof.Proof.Gen.KernelIdeal
import proofs.«430159_j88974542504689_1_alg».proof.Proof.Gen.ReferenceIdeal
import proofs.«430159_j88974542504689_1_alg».proof.Proof.Gen.Pre_finite_inputs
import proofs.«430159_j88974542504689_1_alg».proof.Proof.K.Run
import proofs.«430159_j88974542504689_1_alg».proof.Proof.KI.Run
import proofs.«430159_j88974542504689_1_alg».proof.Proof.Value.Assemble

noncomputable section

namespace Cert.Proof

open Idealize.ShloMosaic Idealize.SL.Sem

/-- The five claims: the two kernel programs' frames (the regions and host stretches run to the end and no argument array is
    written), the reference's frame off its run, the empty list of idealization steps, and the equality of results. -/
theorem claim : Cert.Claim :=
  ⟨Cert.Kernel.Gen.facts, Cert.KernelIdeal.Gen.facts, Cert.ReferenceIdeal.Gen.facts, Cert.Pre_finite_inputs.Gen.facts,
    fun m g _ => Cert.Kernel.Hand.frame (F := Bits) m g,
    fun m g _ => Cert.KernelIdeal.Hand.frame (F := Ideal) m g,
    Cert.Value.frame_ri, trivial, Cert.Value.algebraic⟩

end Cert.Proof

end
